-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S4x2048x1024 : Shape := ⟨3, ![4, 2048, 1024]⟩
abbrev S4 : Shape := ⟨1, ![4]⟩
abbrev S2 : Shape := ⟨1, ![2]⟩
abbrev S_ : Shape := ⟨0, ![]⟩
abbrev S1 : Shape := ⟨1, ![1]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S4x2048x1024, .f32⟩
  | _, _ => ⟨S16384x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_31 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_30 : BitVec 32 := 16#32
  let v52 : BitVec 32 := Scalar.muli v29 c16_i32_30
  let v53 : BitVec 32 := Scalar.addi c0_i32_31 v52
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v54 : BitVec 32 := Scalar.muli v5 c4_i32_32
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v56 : BitVec 32 := Scalar.muli v8 c1_i32_33
  let v57 : BitVec 32 := Scalar.addi v55 v56
  v57.toNat
def k0_dev2 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v58 : BitVec 32 := Scalar.muli v2 c16_i32_35
  let v59 : BitVec 32 := Scalar.addi c0_i32_36 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_37 : BitVec 32 := 4#32
  let v60 : BitVec 32 := Scalar.muli v30 c4_i32_37
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 32 := Scalar.muli v8 c1_i32_38
  let v63 : BitVec 32 := Scalar.addi v61 v62
  v63.toNat
def k0_dev3 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v64 : BitVec 32 := Scalar.muli v2 c16_i32_40
  let v65 : BitVec 32 := Scalar.addi c0_i32_41 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v66 : BitVec 32 := Scalar.muli v5 c4_i32_42
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_43 : BitVec 32 := 1#32
  let v68 : BitVec 32 := Scalar.muli v31 c1_i32_43
  let v69 : BitVec 32 := Scalar.addi v67 v68
  v69.toNat
def k0_off1 (d0 : Dev nD) (c0_i32_44 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v32 : BitVec 32 := Scalar.muli v2 c16384_i32
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v36 : BitVec 32 := Scalar.addi v35 v28
  let c4096_i32 : BitVec 32 := 4096#32
  let v37 : BitVec 32 := Scalar.muli v36 c4096_i32
  let v70 : BitVec 32 := Scalar.addi v37 c0_i32_44
  let v71 : BitVec 32 := Scalar.addi v32 v70
  let c0_i32_51 : BitVec 32 := 0#32
  ![v71.toNat, 0]
def k0_off2 (d0 : Dev nD) (c0_i32_44 : BitVec 32) : Fin 2 → Nat :=
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v36 : BitVec 32 := Scalar.addi v35 v28
  let c4096_i32 : BitVec 32 := 4096#32
  let v37 : BitVec 32 := Scalar.muli v36 c4096_i32
  let v70 : BitVec 32 := Scalar.addi v37 c0_i32_44
  let c0_i32_52 : BitVec 32 := 0#32
  ![v70.toNat, 0]
def k0_dev4 (d0 : Dev nD) : Nat :=
  let c0_i32_48 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_47 : BitVec 32 := 16#32
  let v72 : BitVec 32 := Scalar.muli v29 c16_i32_47
  let v73 : BitVec 32 := Scalar.addi c0_i32_48 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v74 : BitVec 32 := Scalar.muli v5 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v76 : BitVec 32 := Scalar.muli v8 c1_i32_50
  let v77 : BitVec 32 := Scalar.addi v75 v76
  v77.toNat
def k0_dev5 (d0 : Dev nD) : Nat :=
  let c0_i32_56 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_55 : BitVec 32 := 16#32
  let v86 : BitVec 32 := Scalar.muli v29 c16_i32_55
  let v87 : BitVec 32 := Scalar.addi c0_i32_56 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v88 : BitVec 32 := Scalar.muli v5 c4_i32_57
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v90 : BitVec 32 := Scalar.muli v8 c1_i32_58
  let v91 : BitVec 32 := Scalar.addi v89 v90
  v91.toNat
def k0_dev6 (d0 : Dev nD) : Nat :=
  let c0_i32_64 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_63 : BitVec 32 := 16#32
  let v100 : BitVec 32 := Scalar.muli v29 c16_i32_63
  let v101 : BitVec 32 := Scalar.addi c0_i32_64 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v102 : BitVec 32 := Scalar.muli v5 c4_i32_65
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v104 : BitVec 32 := Scalar.muli v8 c1_i32_66
  let v105 : BitVec 32 := Scalar.addi v103 v104
  v105.toNat
def k0_dev7 (d0 : Dev nD) : Nat :=
  let c0_i32_72 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_71 : BitVec 32 := 16#32
  let v114 : BitVec 32 := Scalar.muli v29 c16_i32_71
  let v115 : BitVec 32 := Scalar.addi c0_i32_72 v114
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v116 : BitVec 32 := Scalar.muli v5 c4_i32_73
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v118 : BitVec 32 := Scalar.muli v8 c1_i32_74
  let v119 : BitVec 32 := Scalar.addi v117 v118
  v119.toNat
def k0_off3 (d0 : Dev nD) (c0_i32_89 : BitVec 32) : Fin 2 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_16 v2
  let c16384_i32_17 : BitVec 32 := 16384#32
  let v34 : BitVec 32 := Scalar.muli v33 c16384_i32_17
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v36 : BitVec 32 := Scalar.addi v35 v28
  let c4096_i32 : BitVec 32 := 4096#32
  let v37 : BitVec 32 := Scalar.muli v36 c4096_i32
  let v136 : BitVec 32 := Scalar.addi v34 v37
  let v137 : BitVec 32 := Scalar.addi v136 c0_i32_89
  let c0_i32_96 : BitVec 32 := 0#32
  ![v137.toNat, 0]
def k0_dev8 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v148 : BitVec 32 := Scalar.muli v2 c16_i32_101
  let v149 : BitVec 32 := Scalar.addi c0_i32_102 v148
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_103 : BitVec 32 := 4#32
  let v150 : BitVec 32 := Scalar.muli v30 c4_i32_103
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v152 : BitVec 32 := Scalar.muli v8 c1_i32_104
  let v153 : BitVec 32 := Scalar.addi v151 v152
  v153.toNat
def k0_dev9 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v160 : BitVec 32 := Scalar.muli v2 c16_i32_109
  let v161 : BitVec 32 := Scalar.addi c0_i32_110 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v162 : BitVec 32 := Scalar.muli v5 c4_i32_111
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_112 : BitVec 32 := 1#32
  let v164 : BitVec 32 := Scalar.muli v31 c1_i32_112
  let v165 : BitVec 32 := Scalar.addi v163 v164
  v165.toNat
def k0_off4 (d0 : Dev nD) (c0_i32_121 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v32 : BitVec 32 := Scalar.muli v2 c16384_i32
  let v177 : BitVec 32 := Scalar.addi v32 c0_i32_121
  let c0_i32_124 : BitVec 32 := 0#32
  ![v177.toNat, 0]
def k0_dev10 (d0 : Dev nD) : Nat :=
  let c0_i32_146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_145 : BitVec 32 := 16#32
  let v200 : BitVec 32 := Scalar.muli v2 c16_i32_145
  let v201 : BitVec 32 := Scalar.addi c0_i32_146 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_147 : BitVec 32 := 4#32
  let v202 : BitVec 32 := Scalar.muli v30 c4_i32_147
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v204 : BitVec 32 := Scalar.muli v8 c1_i32_148
  let v205 : BitVec 32 := Scalar.addi v203 v204
  v205.toNat
def k0_dev11 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v212 : BitVec 32 := Scalar.muli v2 c16_i32_153
  let v213 : BitVec 32 := Scalar.addi c0_i32_154 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v214 : BitVec 32 := Scalar.muli v5 c4_i32_155
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_156 : BitVec 32 := 1#32
  let v216 : BitVec 32 := Scalar.muli v31 c1_i32_156
  let v217 : BitVec 32 := Scalar.addi v215 v216
  v217.toNat
def k0_dev12 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_188 : BitVec 32 := 16#32
  let v252 : BitVec 32 := Scalar.muli v2 c16_i32_188
  let v253 : BitVec 32 := Scalar.addi c0_i32_189 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_190 : BitVec 32 := 4#32
  let v254 : BitVec 32 := Scalar.muli v30 c4_i32_190
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v256 : BitVec 32 := Scalar.muli v8 c1_i32_191
  let v257 : BitVec 32 := Scalar.addi v255 v256
  v257.toNat
def k0_dev13 (d0 : Dev nD) : Nat :=
  let c0_i32_197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_196 : BitVec 32 := 16#32
  let v264 : BitVec 32 := Scalar.muli v2 c16_i32_196
  let v265 : BitVec 32 := Scalar.addi c0_i32_197 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_198 : BitVec 32 := 4#32
  let v266 : BitVec 32 := Scalar.muli v5 c4_i32_198
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_199 : BitVec 32 := 1#32
  let v268 : BitVec 32 := Scalar.muli v31 c1_i32_199
  let v269 : BitVec 32 := Scalar.addi v267 v268
  v269.toNat
def k0_dev14 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v309 : BitVec 32 := Scalar.muli v2 c16_i32_236
  let v310 : BitVec 32 := Scalar.addi c0_i32_237 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_238 : BitVec 32 := 4#32
  let v311 : BitVec 32 := Scalar.muli v30 c4_i32_238
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v313 : BitVec 32 := Scalar.muli v8 c1_i32_239
  let v314 : BitVec 32 := Scalar.addi v312 v313
  v314.toNat
def k0_dev15 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v321 : BitVec 32 := Scalar.muli v2 c16_i32_244
  let v322 : BitVec 32 := Scalar.addi c0_i32_245 v321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_246 : BitVec 32 := 4#32
  let v323 : BitVec 32 := Scalar.muli v5 c4_i32_246
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_247 : BitVec 32 := 1#32
  let v325 : BitVec 32 := Scalar.muli v31 c1_i32_247
  let v326 : BitVec 32 := Scalar.addi v324 v325
  v326.toNat
def k0_off5 (d0 : Dev nD) (c0_i32_272 : BitVec 32) : Fin 2 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_16 v2
  let c16384_i32_17 : BitVec 32 := 16384#32
  let v34 : BitVec 32 := Scalar.muli v33 c16384_i32_17
  let c2_i32_22 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v42 : BitVec 32 := Scalar.muli c2_i32_22 v18
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v43 : BitVec 32 := Scalar.subi c1_i32_23 v28
  let v44 : BitVec 32 := Scalar.addi v42 v43
  let c4096_i32_24 : BitVec 32 := 4096#32
  let v45 : BitVec 32 := Scalar.muli v44 c4096_i32_24
  let v354 : BitVec 32 := Scalar.addi v34 v45
  let v355 : BitVec 32 := Scalar.addi v354 c0_i32_272
  let c0_i32_279 : BitVec 32 := 0#32
  ![v355.toNat, 0]
def k0_dev16 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284 : BitVec 32 := 16#32
  let v366 : BitVec 32 := Scalar.muli v2 c16_i32_284
  let v367 : BitVec 32 := Scalar.addi c0_i32_285 v366
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_286 : BitVec 32 := 4#32
  let v368 : BitVec 32 := Scalar.muli v30 c4_i32_286
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v370 : BitVec 32 := Scalar.muli v8 c1_i32_287
  let v371 : BitVec 32 := Scalar.addi v369 v370
  v371.toNat
def k0_dev17 (d0 : Dev nD) : Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_324 : BitVec 32 := 16#32
  let v411 : BitVec 32 := Scalar.muli v2 c16_i32_324
  let v412 : BitVec 32 := Scalar.addi c0_i32_325 v411
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_326 : BitVec 32 := 4#32
  let v413 : BitVec 32 := Scalar.muli v30 c4_i32_326
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v415 : BitVec 32 := Scalar.muli v8 c1_i32_327
  let v416 : BitVec 32 := Scalar.addi v414 v415
  v416.toNat
def k0_off6 (d0 : Dev nD) (c2048_i32_352 : BitVec 32) : Fin 2 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_16 v2
  let c16384_i32_17 : BitVec 32 := 16384#32
  let v34 : BitVec 32 := Scalar.muli v33 c16384_i32_17
  let c2_i32_20 : BitVec 32 := 2#32
  let c1_i32_19 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v38 : BitVec 32 := Scalar.subi c1_i32_19 v18
  let v39 : BitVec 32 := Scalar.muli c2_i32_20 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v40 : BitVec 32 := Scalar.addi v39 v28
  let c4096_i32_21 : BitVec 32 := 4096#32
  let v41 : BitVec 32 := Scalar.muli v40 c4096_i32_21
  let v444 : BitVec 32 := Scalar.addi v34 v41
  let v445 : BitVec 32 := Scalar.addi v444 c2048_i32_352
  let c0_i32_359 : BitVec 32 := 0#32
  ![v445.toNat, 0]
def k0_dev18 (d0 : Dev nD) : Nat :=
  let c0_i32_365 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_364 : BitVec 32 := 16#32
  let v456 : BitVec 32 := Scalar.muli v2 c16_i32_364
  let v457 : BitVec 32 := Scalar.addi c0_i32_365 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_366 : BitVec 32 := 4#32
  let v458 : BitVec 32 := Scalar.muli v5 c4_i32_366
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_367 : BitVec 32 := 1#32
  let v460 : BitVec 32 := Scalar.muli v31 c1_i32_367
  let v461 : BitVec 32 := Scalar.addi v459 v460
  v461.toNat
def k0_dev19 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_399 : BitVec 32 := 16#32
  let v496 : BitVec 32 := Scalar.muli v2 c16_i32_399
  let v497 : BitVec 32 := Scalar.addi c0_i32_400 v496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_401 : BitVec 32 := 4#32
  let v498 : BitVec 32 := Scalar.muli v5 c4_i32_401
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_402 : BitVec 32 := 1#32
  let v500 : BitVec 32 := Scalar.muli v31 c1_i32_402
  let v501 : BitVec 32 := Scalar.addi v499 v500
  v501.toNat
def k0_off7 (d0 : Dev nD) (c0_i32_462 : BitVec 32) : Fin 2 → Nat :=
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_16 v2
  let c16384_i32_17 : BitVec 32 := 16384#32
  let v34 : BitVec 32 := Scalar.muli v33 c16384_i32_17
  let c2_i32_26 : BitVec 32 := 2#32
  let c1_i32_25 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v46 : BitVec 32 := Scalar.subi c1_i32_25 v18
  let v47 : BitVec 32 := Scalar.muli c2_i32_26 v46
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v48 : BitVec 32 := Scalar.subi c1_i32_27 v28
  let v49 : BitVec 32 := Scalar.addi v47 v48
  let c4096_i32_28 : BitVec 32 := 4096#32
  let v50 : BitVec 32 := Scalar.muli v49 c4096_i32_28
  let v572 : BitVec 32 := Scalar.addi v34 v50
  let v573 : BitVec 32 := Scalar.addi v572 c0_i32_462
  let c0_i32_469 : BitVec 32 := 0#32
  ![v573.toNat, 0]

class Facts₀ : Prop where
  hamt_1 : (1#32 : BitVec 32).msb = false
  hamt_3 : (3#32 : BitVec 32).msb = false
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S4x2048x1024_S1x2048x1024_0_0_0 : ∀ a, (![0, 0, 0] : Fin 3 → Nat) a + S1x2048x1024.size a ≤ S4x2048x1024.size a
  squeezes_S1x2048x1024_S2048x1024 : S1x2048x1024.Squeezes S2048x1024
  inb_S16384x1024_S2048x1024_0_0 : ∀ a, (![0, 0] : Fin 2 → Nat) a + S2048x1024.size a ≤ S16384x1024.size a
  inb_S4x2048x1024_S1x2048x1024_1_0_0 : ∀ a, (![1, 0, 0] : Fin 3 → Nat) a + S1x2048x1024.size a ≤ S4x2048x1024.size a
  inb_S16384x1024_S2048x1024_2048_0 : ∀ a, (![2048, 0] : Fin 2 → Nat) a + S2048x1024.size a ≤ S16384x1024.size a
  inb_S16384x1024_S1024x1024_0_0 : ∀ a, (![0, 0] : Fin 2 → Nat) a + S1024x1024.size a ≤ S16384x1024.size a
  inb_S4x2048x1024_S1x2048x1024_2_0_0 : ∀ a, (![2, 0, 0] : Fin 3 → Nat) a + S1x2048x1024.size a ≤ S4x2048x1024.size a
  inb_S16384x1024_S2048x1024_4096_0 : ∀ a, (![4096, 0] : Fin 2 → Nat) a + S2048x1024.size a ≤ S16384x1024.size a
  inb_S4x2048x1024_S1x2048x1024_3_0_0 : ∀ a, (![3, 0, 0] : Fin 3 → Nat) a + S1x2048x1024.size a ≤ S4x2048x1024.size a
  inb_S16384x1024_S2048x1024_6144_0 : ∀ a, (![6144, 0] : Fin 2 → Nat) a + S2048x1024.size a ≤ S16384x1024.size a
  inb_S16384x1024_S2048x1024_8192_0 : ∀ a, (![8192, 0] : Fin 2 → Nat) a + S2048x1024.size a ≤ S16384x1024.size a
  inb_S16384x1024_S2048x1024_10240_0 : ∀ a, (![10240, 0] : Fin 2 → Nat) a + S2048x1024.size a ≤ S16384x1024.size a
  inb_S2_S1_0 : ∀ a, (![0] : Fin 1 → Nat) a + S1.size a ≤ S2.size a
  inb_S16384x1024_S2048x1024_12288_0 : ∀ a, (![12288, 0] : Fin 2 → Nat) a + S2048x1024.size a ≤ S16384x1024.size a
  inb_S2_S1_1 : ∀ a, (![1] : Fin 1 → Nat) a + S1.size a ≤ S2.size a
  inb_S16384x1024_S2048x1024_14336_0 : ∀ a, (![14336, 0] : Fin 2 → Nat) a + S2048x1024.size a ≤ S16384x1024.size a
  hcc0_scratch1 : 0 + S4.numel ≤ 40
  hcc0_scratch2 : 4 + S4.numel ≤ 40
  hcc0_scratch3 : 8 + S4.numel ≤ 40
  hcc0_scratch4 : 12 + S4.numel ≤ 40
  hcc0_scratch5 : 16 + S4.numel ≤ 40
  hcc0_scratch6 : 20 + S4.numel ≤ 40
  hcc0_scratch7 : 24 + S4.numel ≤ 40
  hcc0_scratch8 : 28 + S4.numel ≤ 40
  hcc0_scratch9 : 32 + S2.numel ≤ 40
  hcc0_scratch10 : 34 + S2.numel ≤ 40
  hcc0_scratch11 : 36 + S2.numel ≤ 40
  hcc0_scratch12 : 38 + S2.numel ≤ 40
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 4), ∀ a, (k0_off1 d0 (BitVec.ofNat 32 (1024 * r.val))) a + S1024x1024.size a ≤ S32768x1024.size a
  k0_off2_inb : ∀ d0 : Dev nD, ∀ (r : Fin 4), ∀ a, (k0_off2 d0 (BitVec.ofNat 32 (1024 * r.val))) a + S1024x1024.size a ≤ S16384x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off3_inb : ∀ d0 : Dev nD, ∀ (r : Fin 4), ∀ a, (k0_off3 d0 (BitVec.ofNat 32 (1024 * r.val))) a + S1024x1024.size a ≤ S32768x1024.size a
  k0_dev8_lt : ∀ d0 : Dev nD, (k0_dev8 d0) < nD
  k0_dev9_lt : ∀ d0 : Dev nD, (k0_dev9 d0) < nD
  k0_off4_inb : ∀ d0 : Dev nD, ∀ (r : Fin 8), ∀ a, (k0_off4 d0 (BitVec.ofNat 32 (2048 * r.val))) a + S2048x1024.size a ≤ S32768x1024.size a
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off5_inb : ∀ d0 : Dev nD, ∀ (r : Fin 4), ∀ a, (k0_off5 d0 (BitVec.ofNat 32 (1024 * r.val))) a + S1024x1024.size a ≤ S32768x1024.size a
  k0_dev16_lt : ∀ d0 : Dev nD, (k0_dev16 d0) < nD
  k0_dev17_lt : ∀ d0 : Dev nD, (k0_dev17 d0) < nD
  k0_off6_inb : ∀ d0 : Dev nD, ∀ (r : Fin 4), ∀ a, (k0_off6 d0 (BitVec.ofNat 32 (1024 * r.val))) a + S1024x1024.size a ≤ S32768x1024.size a
  k0_dev18_lt : ∀ d0 : Dev nD, (k0_dev18 d0) < nD
  k0_dev19_lt : ∀ d0 : Dev nD, (k0_dev19 d0) < nD
  k0_off7_inb : ∀ d0 : Dev nD, ∀ (r : Fin 4), ∀ a, (k0_off7 d0 (BitVec.ofNat 32 (1024 * r.val))) a + S1024x1024.size a ≤ S32768x1024.size a

variable [Facts₀]

abbrev cc0_scratch1 : DmaSems sig S4 := SemArray.consecutive 0 S4 hcc0_scratch1
abbrev cc0_scratch2 : DmaSems sig S4 := SemArray.consecutive 4 S4 hcc0_scratch2
abbrev cc0_scratch3 : DmaSems sig S4 := SemArray.consecutive 8 S4 hcc0_scratch3
abbrev cc0_scratch4 : DmaSems sig S4 := SemArray.consecutive 12 S4 hcc0_scratch4
abbrev cc0_scratch5 : DmaSems sig S4 := SemArray.consecutive 16 S4 hcc0_scratch5
abbrev cc0_scratch6 : DmaSems sig S4 := SemArray.consecutive 20 S4 hcc0_scratch6
abbrev cc0_scratch7 : DmaSems sig S4 := SemArray.consecutive 24 S4 hcc0_scratch7
abbrev cc0_scratch8 : DmaSems sig S4 := SemArray.consecutive 28 S4 hcc0_scratch8
abbrev cc0_scratch9 : DmaSems sig S2 := SemArray.consecutive 32 S2 hcc0_scratch9
abbrev cc0_scratch10 : DmaSems sig S2 := SemArray.consecutive 34 S2 hcc0_scratch10
abbrev cc0_scratch11 : DmaSems sig S2 := SemArray.consecutive 36 S2 hcc0_scratch11
abbrev cc0_scratch12 : DmaSems sig S2 := SemArray.consecutive 38 S2 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelAG.Base.lean ====
/-
  The all-gather over the 2 × 4 × 4 mesh: the names everything else is stated over.

  A device is numbered 16·x + 4·y + z. Its argument is block x of the whole array (16384 rows); its result is the whole
  array (32768 rows): its own block at rows [16384·x, +16384), and the other block, which reaches it in four quarters of
  4096 rows. Within a group of four devices that share x and the upper bits of y and z, the device with low bits
  (a, b) of (y, z) fetches quarter 2a + b from its partner across x, and the four pass their quarters round the group.
-/
import proofs.«900686_g7700000000000687_dist_ag_v7x_xyz2x4x4_x_m16384_n1024_f32_1_alg».proof.Proof.Gen.Kernel
import Idealize.ShloMosaic.Lib.ValueIdx

noncomputable section

namespace Cert.Kernel.AG

open Cert.Kernel Cert.Kernel.Gen
open Idealize.ShloMosaic Idealize.ShloMosaic.TcCoe Idealize.SL.Sem

/-- The partner: the device at the other x coordinate. -/
def px (c : Dev nD) : Dev nD := ⟨(c.val + 16) % 32, Nat.mod_lt _ (by decide)⟩
/-- The y buddy: the low bit of y flipped. -/
def yb (c : Dev nD) : Dev nD := ⟨if (c.val / 4) % 2 = 0 then c.val + 4 else c.val - 4, by
  have hc : c.val < 32 := c.isLt; show _ < 32; split <;> omega⟩
/-- The z buddy: the low bit of z flipped. -/
def zb (c : Dev nD) : Dev nD := ⟨if c.val % 2 = 0 then c.val + 1 else c.val - 1, by
  have hc : c.val < 32 := c.isLt; show _ < 32; split <;> omega⟩

/-- The quarter a device fetches from its partner: 2a + b, (a, b) the low bits of its (y, z). -/
def qi (c : Dev nD) : ℕ := 2 * ((c.val / 4) % 2) + c.val % 2

/-- The device across x, in `c`'s group of four, whose quarter is `Q`: where quarter `Q` of `c`'s other half comes from. -/
def origin (c : Dev nD) (Q : ℕ) : Dev nD :=
  ⟨16 * (1 - c.val / 16) + 8 * ((c.val / 8) % 2) + 4 * ((Q / 2) % 2) + 2 * ((c.val / 2) % 2) + Q % 2, by
    have hc : c.val < 32 := c.isLt; show _ < 32; omega⟩

theorem qi_lt' (c : Dev nD) : qi c < 4 := by unfold qi; omega
/-- The same, as an index of the four quarters. -/
def qF (c : Dev nD) : Fin 4 := ⟨qi c, qi_lt' c⟩

/-! ## The rectangles the copies move

Every copy moves whole rows: 1024 of them between devices (a quarter is four such chunks), 2048 within a device. -/

theorem inb2 {R C r0 r : ℕ} (h : r0 + r ≤ R) :
    ∀ a, (![r0, 0] : Fin 2 → ℕ) a + (⟨2, ![r, C]⟩ : Shape).size a ≤ (⟨2, ![R, C]⟩ : Shape).size a :=
  Fin.forall_fin_two.mpr ⟨h, Nat.le_of_eq (Nat.zero_add _)⟩

/-- Chunk `k` of quarter `Q` of the OTHER half of device `c`'s result: rows 16384·(1 − x) + 4096·Q + 1024·k, 1024 of them. -/
def oCh (c : Dev nD) (Q k : Fin 4) : Rect S32768x1024 :=
  Rect.unit (s := S32768x1024) ![16384 * (1 - c.val / 16) + 4096 * Q.val + 1024 * k.val, 0] S1024x1024.size
    (inb2 (by have hc : c.val < 32 := c.isLt; have := Q.isLt; have := k.isLt; omega))
/-- Chunk `j` of device `c`'s OWN half of its result: rows 16384·x + 2048·j, 2048 of them. -/
def oOwn (c : Dev nD) (j : Fin 8) : Rect S32768x1024 :=
  Rect.unit (s := S32768x1024) ![16384 * (c.val / 16) + 2048 * j.val, 0] S2048x1024.size
    (inb2 (by have hc : c.val < 32 := c.isLt; have := j.isLt; omega))
/-- Chunk `k` of quarter `Q` of an argument array: rows 4096·Q + 1024·k. -/
def xCh (Q k : Fin 4) : Rect S16384x1024 :=
  Rect.unit (s := S16384x1024) ![4096 * Q.val + 1024 * k.val, 0] S1024x1024.size
    (inb2 (by have := Q.isLt; have := k.isLt; omega))
/-- Chunk `j` of eight of an argument array: rows 2048·j. -/
def xLd (j : Fin 8) : Rect S16384x1024 :=
  Rect.unit (s := S16384x1024) ![2048 * j.val, 0] S2048x1024.size (inb2 (by have := j.isLt; omega))
/-- Slot `s` of the four-slot staging buffer. -/
def vSl (s : Fin 4) : Rect S4x2048x1024 :=
  Rect.unit (s := S4x2048x1024) ![s.val, 0, 0] S1x2048x1024.size (by
    intro a; have := s.isLt
    match a with
    | ⟨0, _⟩ => show s.val + 1 ≤ 4; omega
    | ⟨1, _⟩ => show 0 + 2048 ≤ 2048; omega
    | ⟨2, _⟩ => show 0 + 1024 ≤ 1024; omega)

variable {F : FTy → Type} [FloatOps F]
variable (m : (ℓ : Loc nD τ sig) → Buf (Elt F) ℓ)

/-- Device `c`'s argument array as launched. -/
def xin (c : Dev nD) : Buf (Elt F) ((c : Thread nD τ).loc main_arg0) := m ((c : Thread nD τ).loc main_arg0)

/-- What device `c`'s result array holds after the run: its own block at its own half's rows; at the other half's rows,
    quarter by quarter, the block of the device across x whose quarter that is. -/
def target (c : Dev nD) : Buf (Elt F) ((c : Thread nD τ).loc main_v1) := fun i =>
  if (i 0).val / 16384 = c.val / 16 then
    xin m c (ValueIdx.ix2 (n0 := 16384) (n1 := 1024) ⟨(i 0).val % 16384, Nat.mod_lt _ (by decide)⟩ (i 1))
  else
    xin m (origin c ((i 0).val % 16384 / 4096)) (ValueIdx.ix2 (n0 := 16384) (n1 := 1024) ⟨(i 0).val % 16384, Nat.mod_lt _ (by decide)⟩ (i 1))

end Cert.Kernel.AG

end
-- ==== Proof.KernelAG.Sched.lean ====
/-
  The protocol of the all-gather, as a schedule of rounds: per semaphore, who waits on it, who pays it, how much, and
  what each payment hands the waiter.

  Every device has one barrier cell and sixteen pairs of transfer cells. The barrier cell has one round of three
  duties of one unit each, paid by the partner, the y buddy and the z buddy; each hands over the rows of ITS result that
  the waiter will copy into, at any contents. A receive
  cell has one round of one duty: the copy's credit, handing over the rows it wrote, now holding what the result must
  hold there. A send cell likewise, handing back the share of the source rows the copy read.
-/
import proofs.«900686_g7700000000000687_dist_ag_v7x_xyz2x4x4_x_m16384_n1024_f32_1_alg».proof.Proof.KernelAG.Base
import proofs.«900686_g7700000000000687_dist_ag_v7x_xyz2x4x4_x_m16384_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Semaphores and cells -/

/-- The runtime's barrier semaphore of collective id 0. -/
abbrev barS : Sem sig := (SemArray.scalar (sig.barrier 0 rfl) : Sems sig S_).sem
/-- DMA semaphore number `n` of the forty: 0–3 loads, 4–7 stores, then in fours x send, x receive, y send, y receive,
    z send, z receive (8–31), then in twos y-diagonal send, receive, z-diagonal send, receive (32–39). -/
abbrev ds (n : ℕ) (h : n < 40 := by decide) : DmaSem sig := ⟨n, h⟩

abbrev barCell (c : Dev nD) : GSem nD τ sig := ((c : Thread nD τ), .reg barS)
abbrev cell (c : Dev nD) (n : ℕ) (h : n < 40 := by decide) : GSem nD τ sig := ((c : Thread nD τ), .dma (ds n h))

/-- The credit of one inter-device copy: 1024 rows of the result. -/
abbrev N : ℕ := ((Memref.whole main_v1 : Memref sig .tc .hbm S32768x1024 .f32).slice (oCh 0 0 0) (fun _ => rfl)).view.dmaCredit
theorem N_pos : 0 < N := View.dmaCredit_pos _ (by decide)
/-- The credit of a load into a staging slot, and of a store of 2048 rows of the result. -/
abbrev NL : ℕ := (((Memref.whole cc0_scratch0 : Memref sig .tc .vmem S4x2048x1024 .f32).slice (vSl 0) (fun _ => rfl)).squeeze S2048x1024 squeezes_S1x2048x1024_S2048x1024).view.dmaCredit
abbrev NS : ℕ := ((Memref.whole main_v1 : Memref sig .tc .hbm S32768x1024 .f32).slice (oOwn 0 0) (fun _ => rfl)).view.dmaCredit
theorem NL_pos : 0 < NL := View.dmaCredit_pos _ (by decide)
theorem NS_pos : 0 < NS := View.dmaCredit_pos _ (by decide)

/-! ## Holding rows of a buffer -/

/-- Share `q` of the rows `R` of device `c`'s buffer `b`, holding `f` there. -/
def pts (c : Dev nD) (b : Ref sig .tc) (R : Rect b.ty.shape) (q : PosShare TreeShare)
    (f : Buf (Elt F) ((c : Thread nD τ).loc b)) : sProp 𝕄 :=
  ((c : Thread nD τ).loc b) ↦[R.set]{q} f

/-! ## The schedule -/

/-- The rows receive semaphore `n` of device `o` guards: the x receives its own quarter from the partner, the y and z
    receives the buddies' quarters, the diagonal receives the two halves of the fourth quarter. -/
def recvRect (o : Dev nD) (n : ℕ) : Rect S32768x1024 :=
  if n < 16 then oCh o (qF o) ⟨(n - 12) % 4, Nat.mod_lt _ (by decide)⟩
  else if n < 24 then oCh o (qF (yb o)) ⟨(n - 20) % 4, Nat.mod_lt _ (by decide)⟩
  else if n < 32 then oCh o (qF (zb o)) ⟨(n - 28) % 4, Nat.mod_lt _ (by decide)⟩
  else if n < 36 then oCh o (qF (zb (yb o))) ⟨(n - 34) % 4, Nat.mod_lt _ (by decide)⟩
  else oCh o (qF (yb (zb o))) ⟨(n - 38 + 2) % 4, Nat.mod_lt _ (by decide)⟩

/-- What a landed copy hands the receiver: the rows, holding what the result must hold there. -/
def recvPay (o : Dev nD) (n : ℕ) : sProp 𝕄 := pts o main_v1 (recvRect o n) fullShare (target m o)

/-- What a finished copy hands back to the sender: its share of the rows it read. The x sends read the argument; the
    y and z sends read the same rows of the result at a half share each; the diagonal sends read alone. -/
def sendPay (c : Dev nD) (n : ℕ) : sProp 𝕄 :=
  if n < 12 then pts c main_arg0 (xCh (qF c) ⟨(n - 8) % 4, Nat.mod_lt _ (by decide)⟩) fullShare.left (xin m c)
  else if n < 20 then pts c main_v1 (oCh c (qF c) ⟨(n - 16) % 4, Nat.mod_lt _ (by decide)⟩) fullShare.left (target m c)
  else if n < 28 then pts c main_v1 (oCh c (qF c) ⟨(n - 24) % 4, Nat.mod_lt _ (by decide)⟩) fullShare.right (target m c)
  else if n < 34 then pts c main_v1 (oCh c (qF (zb c)) ⟨(n - 32) % 4, Nat.mod_lt _ (by decide)⟩) fullShare (target m c)
  else pts c main_v1 (oCh c (qF (yb c)) ⟨(n - 36 + 2) % 4, Nat.mod_lt _ (by decide)⟩) fullShare (target m c)

/-- What a staging slot holds once chunk `j` (of eight) of the argument is loaded into it: the chunk's rows, whatever the slot. -/
def vfill (c : Dev nD) (j : ℕ) : Buf (Elt F) ((c : Thread nD τ).loc cc0_scratch0) := fun i =>
  xin m c (ValueIdx.ix2 (n0 := 16384) (n1 := 1024) ⟨(2048 * (j % 8) + (i 1).val) % 16384, Nat.mod_lt _ (by decide)⟩ (i 2))

/-- What the `j`-th load hands back at its wait: its slot holding chunk `j`, and the half share of the chunk's rows of the argument it read. -/
def ldPay (c : Dev nD) (j : ℕ) : sProp 𝕄 :=
  iprop(pts c cc0_scratch0 (vSl ⟨j % 4, Nat.mod_lt _ (by decide)⟩) fullShare (vfill m c j)
    ∗ pts c main_arg0 (xLd ⟨j % 8, Nat.mod_lt _ (by decide)⟩) fullShare.right (xin m c))
/-- What the `j`-th store hands back: chunk `j` of the device's own half of the result, written, and the slot it read. -/
def stPay (c : Dev nD) (j : ℕ) : sProp 𝕄 :=
  iprop(pts c main_v1 (oOwn c ⟨j % 8, Nat.mod_lt _ (by decide)⟩) fullShare (target m c)
    ∗ pts c cc0_scratch0 (vSl ⟨j % 4, Nat.mod_lt _ (by decide)⟩) fullShare (vfill m c j))

/-- The rows of device `n`'s result its receive semaphore `s` guards, at any contents. -/
def give (n : Dev nD) (s : ℕ) : sProp 𝕄 :=
  iprop(∃ f, pts n main_v1 (recvRect n s) fullShare f)

/-- What duty `d` of device `c`'s barrier cell hands it: 0, from the partner, its four x landing chunks; 1, from the y
    buddy, its four y and two y-diagonal chunks; 2, from the z buddy, its four z and two z-diagonal chunks. -/
def barPay (c : Dev nD) (d : Fin 3) : sProp 𝕄 :=
  match d with
  | 0 => iprop(give (px c) 12 ∗ give (px c) 13 ∗ give (px c) 14 ∗ give (px c) 15)
  | 1 => iprop(give (yb c) 20 ∗ give (yb c) 21 ∗ give (yb c) 22 ∗ give (yb c) 23 ∗ give (yb c) 34 ∗ give (yb c) 35)
  | 2 => iprop(give (zb c) 28 ∗ give (zb c) 29 ∗ give (zb c) 30 ∗ give (zb c) 31 ∗ give (zb c) 38 ∗ give (zb c) 39)

/-- Is DMA semaphore number `n` a receive semaphore, a send semaphore (else a local one). -/
def isRecv (n : ℕ) : Prop := (12 ≤ n ∧ n < 16) ∨ (20 ≤ n ∧ n < 24) ∨ (28 ≤ n ∧ n < 32) ∨ (34 ≤ n ∧ n < 36) ∨ (38 ≤ n ∧ n < 40)
def isSend (n : ℕ) : Prop := (8 ≤ n ∧ n < 12) ∨ (16 ≤ n ∧ n < 20) ∨ (24 ≤ n ∧ n < 28) ∨ (32 ≤ n ∧ n < 34) ∨ (36 ≤ n ∧ n < 38)
instance (n : ℕ) : Decidable (isRecv n) := by unfold isRecv; infer_instance
instance (n : ℕ) : Decidable (isSend n) := by unfold isSend; infer_instance

/-- The number of a cell's semaphore among the DMA semaphores, 40 for the barrier. -/
def semNo : SemLoc sig → ℕ
  | .reg _ => 40
  | .dma s => s.val

abbrev IsBar (g : GSem nD τ sig) : Prop := g.1.2 = .tc ∧ g.2 = .reg barS
abbrev IsDma (g : GSem nD τ sig) : Prop := g.1.2 = .tc ∧ semNo g.2 < 40

/-- The rounds: a barrier cell has round 0 with three unit duties; a transfer cell between devices round 0 with one
    duty of a chunk's credit; a load or store cell rounds 0 and 1 (each slot is used twice) with one duty each. -/
def agRd : Rounds.Schedule (GSem nD τ sig) (Fin 3) 𝕄 where
  duties g r := if r = 0 ∧ IsBar g then Finset.univ else if IsDma g ∧ (r = 0 ∨ (r = 1 ∧ semNo g.2 < 8)) then {0} else ∅
  unitless _ := False
  amount g _ _ := if g.2 = .reg barS then 1 else if semNo g.2 < 4 then NL else if semNo g.2 < 8 then NS else N
  payload g r d :=
    if g.2 = .reg barS then barPay g.1.1 d
    else if semNo g.2 < 4 then ldPay m g.1.1 (semNo g.2 + 4 * r)
    else if semNo g.2 < 8 then stPay m g.1.1 (semNo g.2 - 4 + 4 * r)
    else if isRecv (semNo g.2) then recvPay m g.1.1 (semNo g.2)
    else if isSend (semNo g.2) then sendPay m g.1.1 (semNo g.2)
    else iprop(emp)
  amount_pos g _ _ _ := by
    by_cases h : g.2 = .reg barS
    · rw [if_pos h]; exact Nat.one_pos
    · rw [if_neg h]
      by_cases h4 : semNo g.2 < 4
      · rw [if_pos h4]; exact NL_pos
      · rw [if_neg h4]
        by_cases h8 : semNo g.2 < 8
        · rw [if_pos h8]; exact NS_pos
        · rw [if_neg h8]; exact N_pos

/-- info: 'Cert.Kernel.AG.agRd' depends on axioms: [propext, Classical.choice, Quot.sound] -/
#guard_msgs in #print axioms agRd

end Cert.Kernel.AG

end
-- ==== Proof.KernelAG.Tables.lean ====
/-
  The schedule of the all-gather, read off as tables: for the barrier cell and for each of the forty transfer cells of a
  device, the duties of each round, what each duty contributes, what a round expects in all, and what each payment
  hands the waiter; and the rows and payloads of the receive and send cells at each semaphore number, spelled out.
-/
import proofs.«900686_g7700000000000687_dist_ag_v7x_xyz2x4x4_x_m16384_n1024_f32_1_alg».proof.Proof.KernelAG.Sched

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads can be stored in an invariant -/

instance pts_storable (c : Dev nD) (b : Ref sig .tc) (R : Rect b.ty.shape) (q : PosShare TreeShare)
    (f : Buf (Elt F) ((c : Thread nD τ).loc b)) : BI.Storable (upEmb : UEmb _ 𝕄) (pts (F := F) c b R q f) := by
  unfold pts; infer_instance

instance give_storable (n : Dev nD) (s : ℕ) : BI.Storable (upEmb : UEmb _ 𝕄) (give (F := F) n s) := by
  unfold give; infer_instance

theorem barPay_0 (c : Dev nD) :
    barPay (F := F) c 0 = iprop(give (px c) 12 ∗ give (px c) 13 ∗ give (px c) 14 ∗ give (px c) 15) := rfl
theorem barPay_1 (c : Dev nD) :
    barPay (F := F) c 1 = iprop(give (yb c) 20 ∗ give (yb c) 21 ∗ give (yb c) 22 ∗ give (yb c) 23 ∗ give (yb c) 34 ∗ give (yb c) 35) := rfl
theorem barPay_2 (c : Dev nD) :
    barPay (F := F) c 2 = iprop(give (zb c) 28 ∗ give (zb c) 29 ∗ give (zb c) 30 ∗ give (zb c) 31 ∗ give (zb c) 38 ∗ give (zb c) 39) := rfl

instance barPay_storable (c : Dev nD) (d : Fin 3) : BI.Storable (upEmb : UEmb _ 𝕄) (barPay (F := F) c d) := by
  match d with
  | 0 => rw [barPay_0]; infer_instance
  | 1 => rw [barPay_1]; infer_instance
  | 2 => rw [barPay_2]; infer_instance

instance recvPay_storable (c : Dev nD) (n : ℕ) : BI.Storable (upEmb : UEmb _ 𝕄) (recvPay m c n) := by
  unfold recvPay; infer_instance

instance sendPay_storable (c : Dev nD) (n : ℕ) : BI.Storable (upEmb : UEmb _ 𝕄) (sendPay m c n) := by
  unfold sendPay
  (repeat' split) <;> infer_instance

instance ldPay_storable (c : Dev nD) (j : ℕ) : BI.Storable (upEmb : UEmb _ 𝕄) (ldPay m c j) := by
  unfold ldPay; infer_instance

instance stPay_storable (c : Dev nD) (j : ℕ) : BI.Storable (upEmb : UEmb _ 𝕄) (stPay m c j) := by
  unfold stPay; infer_instance

instance payload_storable (g : GSem nD τ sig) (r : ℕ) (d : Fin 3) :
    BI.Storable (upEmb : UEmb _ 𝕄) ((agRd (F := F) m).payload g r d) := by
  show BI.Storable upEmb (if g.2 = .reg barS then barPay g.1.1 d
    else if semNo g.2 < 4 then ldPay m g.1.1 (semNo g.2 + 4 * r)
    else if semNo g.2 < 8 then stPay m g.1.1 (semNo g.2 - 4 + 4 * r)
    else if isRecv (semNo g.2) then recvPay m g.1.1 (semNo g.2)
    else if isSend (semNo g.2) then sendPay m g.1.1 (semNo g.2)
    else iprop(emp))
  (repeat' split) <;> infer_instance

/-! ## The cells -/

section Sched
variable (c : Dev nD)

theorem dma_ne_bar (s : DmaSem sig) : (SemLoc.dma s : SemLoc sig) ≠ .reg barS := fun h => by cases h
theorem not_bar_cell (n : ℕ) (h : n < 40) : ¬ IsBar (cell c n h) := fun h' => dma_ne_bar _ h'.2
theorem semNo_cell (n : ℕ) (h : n < 40) : semNo (cell c n h).2 = n := rfl
theorem semNo_bar : semNo (barCell c).2 = 40 := rfl

/-! ## The duties of each round -/

theorem duties_bar : (agRd (F := F) m).duties (barCell c) 0 = Finset.univ := by
  dsimp only [agRd]; exact if_pos ⟨rfl, rfl, rfl⟩

/-- The duties of a transfer cell, by its number: duty 0 at round 0, and at round 1 too when the cell is a local one. -/
theorem duties_cell (n : ℕ) (h : n < 40) (r : ℕ) :
    (agRd (F := F) m).duties (cell c n h) r = if r = 0 ∨ (r = 1 ∧ n < 8) then {0} else ∅ := by
  dsimp only [agRd]
  rw [if_neg (fun h' => not_bar_cell c n h h'.2)]
  by_cases hc : r = 0 ∨ (r = 1 ∧ n < 8)
  · rw [if_pos hc]; exact if_pos ⟨⟨rfl, h⟩, hc⟩
  · rw [if_neg hc]; exact if_neg (fun h' => hc h'.2)

theorem duties_dma (n : ℕ) (h : n < 40) : (agRd (F := F) m).duties (cell c n h) 0 = {0} := by
  rw [duties_cell, if_pos (.inl rfl)]

theorem duties_loc1 (n : ℕ) (h : n < 8) : (agRd (F := F) m).duties (cell c n (by omega)) 1 = {0} := by
  rw [duties_cell, if_pos (.inr ⟨rfl, h⟩)]

theorem duties_loc (n : ℕ) (h : n < 8) (r : ℕ) (hr : r < 2) : (agRd (F := F) m).duties (cell c n (by omega)) r = {0} := by
  rw [duties_cell, if_pos (by omega)]

theorem duties_later_bar : ∀ r, 1 ≤ r → (agRd (F := F) m).duties (barCell c) r = ∅ := fun r hr => by
  dsimp only [agRd]
  rw [if_neg fun h => by omega, if_neg fun h => Nat.lt_irrefl 40 h.1.2]

theorem duties_later_rem (n : ℕ) (h : n < 40) (h8 : 8 ≤ n) : ∀ r, 1 ≤ r → (agRd (F := F) m).duties (cell c n h) r = ∅ :=
  fun r hr => by rw [duties_cell, if_neg (by omega)]

theorem duties_later_loc (n : ℕ) (h : n < 8) : ∀ r, 2 ≤ r → (agRd (F := F) m).duties (cell c n (by omega)) r = ∅ :=
  fun r hr => by rw [duties_cell, if_neg (by omega)]

/-! ## What each duty contributes, and what a round expects -/

theorem amount_bar (r : ℕ) (d : Fin 3) : (agRd (F := F) m).amount (barCell c) r d = 1 := by
  dsimp only [agRd]; exact if_pos rfl

/-- A transfer cell's duty contributes its copy's credit: a load's, a store's, or a chunk's between devices. -/
theorem amount_cell (n : ℕ) (h : n < 40) (r : ℕ) (d : Fin 3) :
    (agRd (F := F) m).amount (cell c n h) r d = if n < 4 then NL else if n < 8 then NS else N := by
  dsimp only [agRd]; exact if_neg (dma_ne_bar _)

theorem amount_ld (n : ℕ) (h : n < 4) (r : ℕ) (d : Fin 3) : (agRd (F := F) m).amount (cell c n (by omega)) r d = NL := by
  rw [amount_cell, if_pos h]

theorem amount_st (n : ℕ) (h4 : 4 ≤ n) (h : n < 8) (r : ℕ) (d : Fin 3) :
    (agRd (F := F) m).amount (cell c n (by omega)) r d = NS := by
  rw [amount_cell, if_neg (by omega), if_pos h]

theorem amount_rem (n : ℕ) (h8 : 8 ≤ n) (h : n < 40) (r : ℕ) (d : Fin 3) : (agRd (F := F) m).amount (cell c n h) r d = N := by
  rw [amount_cell, if_neg (by omega), if_neg (by omega)]

/-- A round whose one duty is duty 0 expects what that duty contributes. -/
theorem expect_of_duties (g : GSem nD τ sig) (r : ℕ) (hd : (agRd (F := F) m).duties g r = {0}) :
    (agRd (F := F) m).expect g r = (agRd (F := F) m).amount g r 0 := by
  unfold Schedule.expect Schedule.amountOf; rw [hd, Finset.sum_singleton]

theorem expect_bar : (agRd (F := F) m).expect (barCell c) 0 = 3 := by
  unfold Schedule.expect Schedule.amountOf
  rw [duties_bar, Finset.sum_congr rfl fun d _ => amount_bar m c 0 d, Finset.sum_const, Finset.card_univ, Fintype.card_fin, smul_eq_mul]

theorem expect_ld (n : ℕ) (h : n < 4) (r : ℕ) (hr : r < 2) : (agRd (F := F) m).expect (cell c n (by omega)) r = NL := by
  rw [expect_of_duties m _ r (duties_loc m c n (by omega) r hr), amount_ld m c n h]

theorem expect_st (n : ℕ) (h4 : 4 ≤ n) (h : n < 8) (r : ℕ) (hr : r < 2) : (agRd (F := F) m).expect (cell c n (by omega)) r = NS := by
  rw [expect_of_duties m _ r (duties_loc m c n h r hr), amount_st m c n h4 h]

theorem expect_rem (n : ℕ) (h8 : 8 ≤ n) (h : n < 40) : (agRd (F := F) m).expect (cell c n h) 0 = N := by
  rw [expect_of_duties m _ 0 (duties_dma m c n h), amount_rem m c n h8 h]

/-! ## What each payment hands the waiter -/

theorem payload_bar (d : Fin 3) : (agRd (F := F) m).payload (barCell c) 0 d = barPay c d := by
  dsimp only [agRd]; exact if_pos rfl

/-- A transfer cell's payload, by its number. -/
theorem payload_cell (n : ℕ) (h : n < 40) (r : ℕ) (d : Fin 3) :
    (agRd (F := F) m).payload (cell c n h) r d =
      if n < 4 then ldPay m c (n + 4 * r)
      else if n < 8 then stPay m c (n - 4 + 4 * r)
      else if isRecv n then recvPay m c n
      else if isSend n then sendPay m c n
      else iprop(emp) := by
  dsimp only [agRd]; exact if_neg (dma_ne_bar _)

theorem payload_ld (n : ℕ) (h : n < 4) (r : ℕ) (d : Fin 3) :
    (agRd (F := F) m).payload (cell c n (by omega)) r d = ldPay m c (n + 4 * r) := by
  rw [payload_cell, if_pos h]

theorem payload_st (n : ℕ) (h4 : 4 ≤ n) (h : n < 8) (r : ℕ) (d : Fin 3) :
    (agRd (F := F) m).payload (cell c n (by omega)) r d = stPay m c (n - 4 + 4 * r) := by
  rw [payload_cell, if_neg (by omega), if_pos h]

theorem isRecv_ge {n : ℕ} (hr : isRecv n) : 8 ≤ n := by unfold isRecv at hr; omega
theorem isSend_ge {n : ℕ} (hs : isSend n) : 8 ≤ n := by unfold isSend at hs; omega
theorem isSend_not_isRecv {n : ℕ} (hs : isSend n) : ¬ isRecv n := by unfold isSend at hs; unfold isRecv; omega

theorem payload_recv (n : ℕ) (h : n < 40) (hr : isRecv n) (r : ℕ) (d : Fin 3) :
    (agRd (F := F) m).payload (cell c n h) r d = recvPay m c n := by
  have h8 := isRecv_ge hr
  rw [payload_cell, if_neg (by omega), if_neg (by omega), if_pos hr]

theorem payload_send (n : ℕ) (h : n < 40) (hs : isSend n) (r : ℕ) (d : Fin 3) :
    (agRd (F := F) m).payload (cell c n h) r d = sendPay m c n := by
  have h8 := isSend_ge hs
  rw [payload_cell, if_neg (by omega), if_neg (by omega), if_neg (isSend_not_isRecv hs), if_pos hs]

/-! ## A round's payloads, none taken yet -/

/-- The barrier cell's round, no duty taken: the three neighbours' payloads. -/
theorem rest_bar : bigSep ((agRd (F := F) m).duties (barCell c) 0 \ ∅) (fun d => (agRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons,
    bigSepL_cons_cons, bigSepL_singleton, payload_bar, payload_bar, payload_bar]
  rfl

/-- A transfer cell's round of the one duty 0, not taken: that duty's payload. -/
theorem rest_dma (n : ℕ) (h : n < 40) (r : ℕ) (hd : (agRd (F := F) m).duties (cell c n h) r = {0}) :
    bigSep ((agRd (F := F) m).duties (cell c n h) r \ ∅) (fun d => (agRd (F := F) m).payload (cell c n h) r d)
      = (agRd (F := F) m).payload (cell c n h) r 0 := by
  rw [Finset.sdiff_empty, hd, bigSep_singleton]

/-! ## The receive cells' rows, semaphore by semaphore -/

theorem recvRect_12 : recvRect c 12 = oCh c (qF c) 0 := by unfold recvRect; rw [if_pos (by decide)]; rfl
theorem recvRect_13 : recvRect c 13 = oCh c (qF c) 1 := by unfold recvRect; rw [if_pos (by decide)]; rfl
theorem recvRect_14 : recvRect c 14 = oCh c (qF c) 2 := by unfold recvRect; rw [if_pos (by decide)]; rfl
theorem recvRect_15 : recvRect c 15 = oCh c (qF c) 3 := by unfold recvRect; rw [if_pos (by decide)]; rfl
theorem recvRect_20 : recvRect c 20 = oCh c (qF (yb c)) 0 := by
  unfold recvRect; rw [if_neg (by decide), if_pos (by decide)]; rfl
theorem recvRect_21 : recvRect c 21 = oCh c (qF (yb c)) 1 := by
  unfold recvRect; rw [if_neg (by decide), if_pos (by decide)]; rfl
theorem recvRect_22 : recvRect c 22 = oCh c (qF (yb c)) 2 := by
  unfold recvRect; rw [if_neg (by decide), if_pos (by decide)]; rfl
theorem recvRect_23 : recvRect c 23 = oCh c (qF (yb c)) 3 := by
  unfold recvRect; rw [if_neg (by decide), if_pos (by decide)]; rfl
theorem recvRect_28 : recvRect c 28 = oCh c (qF (zb c)) 0 := by
  unfold recvRect; rw [if_neg (by decide), if_neg (by decide), if_pos (by decide)]; rfl
theorem recvRect_29 : recvRect c 29 = oCh c (qF (zb c)) 1 := by
  unfold recvRect; rw [if_neg (by decide), if_neg (by decide), if_pos (by decide)]; rfl
theorem recvRect_30 : recvRect c 30 = oCh c (qF (zb c)) 2 := by
  unfold recvRect; rw [if_neg (by decide), if_neg (by decide), if_pos (by decide)]; rfl
theorem recvRect_31 : recvRect c 31 = oCh c (qF (zb c)) 3 := by
  unfold recvRect; rw [if_neg (by decide), if_neg (by decide), if_pos (by decide)]; rfl
theorem recvRect_34 : recvRect c 34 = oCh c (qF (zb (yb c))) 0 := by
  unfold recvRect; rw [if_neg (by decide), if_neg (by decide), if_neg (by decide), if_pos (by decide)]; rfl
theorem recvRect_35 : recvRect c 35 = oCh c (qF (zb (yb c))) 1 := by
  unfold recvRect; rw [if_neg (by decide), if_neg (by decide), if_neg (by decide), if_pos (by decide)]; rfl
theorem recvRect_38 : recvRect c 38 = oCh c (qF (yb (zb c))) 2 := by
  unfold recvRect; rw [if_neg (by decide), if_neg (by decide), if_neg (by decide), if_neg (by decide)]; rfl
theorem recvRect_39 : recvRect c 39 = oCh c (qF (yb (zb c))) 3 := by
  unfold recvRect; rw [if_neg (by decide), if_neg (by decide), if_neg (by decide), if_neg (by decide)]; rfl

/-! ## The send cells' payloads, semaphore by semaphore -/

theorem sendPay_8 : sendPay m c 8 = pts c main_arg0 (xCh (qF c) 0) fullShare.left (xin m c) := by
  unfold sendPay; rw [if_pos (by decide)]; rfl
theorem sendPay_9 : sendPay m c 9 = pts c main_arg0 (xCh (qF c) 1) fullShare.left (xin m c) := by
  unfold sendPay; rw [if_pos (by decide)]; rfl
theorem sendPay_10 : sendPay m c 10 = pts c main_arg0 (xCh (qF c) 2) fullShare.left (xin m c) := by
  unfold sendPay; rw [if_pos (by decide)]; rfl
theorem sendPay_11 : sendPay m c 11 = pts c main_arg0 (xCh (qF c) 3) fullShare.left (xin m c) := by
  unfold sendPay; rw [if_pos (by decide)]; rfl
theorem sendPay_16 : sendPay m c 16 = pts c main_v1 (oCh c (qF c) 0) fullShare.left (target m c) := by
  unfold sendPay; rw [if_neg (by decide), if_pos (by decide)]; rfl
theorem sendPay_17 : sendPay m c 17 = pts c main_v1 (oCh c (qF c) 1) fullShare.left (target m c) := by
  unfold sendPay; rw [if_neg (by decide), if_pos (by decide)]; rfl
theorem sendPay_18 : sendPay m c 18 = pts c main_v1 (oCh c (qF c) 2) fullShare.left (target m c) := by
  unfold sendPay; rw [if_neg (by decide), if_pos (by decide)]; rfl
theorem sendPay_19 : sendPay m c 19 = pts c main_v1 (oCh c (qF c) 3) fullShare.left (target m c) := by
  unfold sendPay; rw [if_neg (by decide), if_pos (by decide)]; rfl
theorem sendPay_24 : sendPay m c 24 = pts c main_v1 (oCh c (qF c) 0) fullShare.right (target m c) := by
  unfold sendPay; rw [if_neg (by decide), if_neg (by decide), if_pos (by decide)]; rfl
theorem sendPay_25 : sendPay m c 25 = pts c main_v1 (oCh c (qF c) 1) fullShare.right (target m c) := by
  unfold sendPay; rw [if_neg (by decide), if_neg (by decide), if_pos (by decide)]; rfl
theorem sendPay_26 : sendPay m c 26 = pts c main_v1 (oCh c (qF c) 2) fullShare.right (target m c) := by
  unfold sendPay; rw [if_neg (by decide), if_neg (by decide), if_pos (by decide)]; rfl
theorem sendPay_27 : sendPay m c 27 = pts c main_v1 (oCh c (qF c) 3) fullShare.right (target m c) := by
  unfold sendPay; rw [if_neg (by decide), if_neg (by decide), if_pos (by decide)]; rfl
theorem sendPay_32 : sendPay m c 32 = pts c main_v1 (oCh c (qF (zb c)) 0) fullShare (target m c) := by
  unfold sendPay; rw [if_neg (by decide), if_neg (by decide), if_neg (by decide), if_pos (by decide)]; rfl
theorem sendPay_33 : sendPay m c 33 = pts c main_v1 (oCh c (qF (zb c)) 1) fullShare (target m c) := by
  unfold sendPay; rw [if_neg (by decide), if_neg (by decide), if_neg (by decide), if_pos (by decide)]; rfl
theorem sendPay_36 : sendPay m c 36 = pts c main_v1 (oCh c (qF (yb c)) 2) fullShare (target m c) := by
  unfold sendPay; rw [if_neg (by decide), if_neg (by decide), if_neg (by decide), if_neg (by decide)]; rfl
theorem sendPay_37 : sendPay m c 37 = pts c main_v1 (oCh c (qF (yb c)) 3) fullShare (target m c) := by
  unfold sendPay; rw [if_neg (by decide), if_neg (by decide), if_neg (by decide), if_neg (by decide)]; rfl

end Sched

/-- info: 'Cert.Kernel.AG.payload_storable' depends on axioms: [propext, Classical.choice, Quot.sound] -/
#guard_msgs in #print axioms payload_storable
/-- info: 'Cert.Kernel.AG.rest_bar' depends on axioms: [propext, Classical.choice, Quot.sound] -/
#guard_msgs in #print axioms rest_bar

end Cert.Kernel.AG

end
-- ==== Proof.KernelAG.Proto.lean ====
/-
  What each device owes, the levels that order the waits, and what a device's body starts from and ends with.

  A device owes, in program order: a unit to each neighbour's barrier cell; a chunk's credit to the partner's four x
  receive cells; then, chunk by chunk, to the y buddy's and the z buddy's receive cells; last to their diagonal ones.
  A wait is allowed below everything still owed: barrier cells sit at level 1, x receive cells at 2, y and z receive
  cells at 3, diagonal receive cells at 4, every other cell at 0 — and at each wait what is still owed lies above.
-/
import proofs.«900686_g7700000000000687_dist_ag_v7x_xyz2x4x4_x_m16384_n1024_f32_1_alg».proof.Proof.KernelAG.Tables

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The payments device `c` makes to other devices' cells, in program order. -/
def owedList (c : Dev nD) : List (GSem nD τ sig × ℕ) :=
  [ (barCell (px c), 1), (barCell (yb c), 1), (barCell (zb c), 1),
    (cell (px c) 12, N), (cell (px c) 13, N), (cell (px c) 14, N), (cell (px c) 15, N),
    (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ]

/-- The tallies of a list of payments, the FIRST payment the LAST summand: paying it peels it off. -/
def sumT : List (GSem nD τ sig × ℕ) → CellTallies nD τ sig Unit
  | [] => 0
  | a :: l => sumT l + tallyAt a.1 () a.2

theorem sumT_cons (a : GSem nD τ sig × ℕ) (l : List (GSem nD τ sig × ℕ)) : sumT (a :: l) = sumT l + tallyAt a.1 () a.2 := rfl

/-- What device `c` owes at launch. -/
def O₀ (c : Dev nD) : CellTallies nD τ sig Unit := sumT (owedList c)

/-! ## The levels -/

def L (g : GSem nD τ sig) : Finset Unit := if g.1.2 = .tc then {()} else ∅
def lv (g : GSem nD τ sig) (_ : Unit) : ℕ :=
  if g.2 = .reg barS then 1
  else if 12 ≤ semNo g.2 ∧ semNo g.2 < 16 then 2
  else if (20 ≤ semNo g.2 ∧ semNo g.2 < 24) ∨ (28 ≤ semNo g.2 ∧ semNo g.2 < 32) then 3
  else if (34 ≤ semNo g.2 ∧ semNo g.2 < 36) ∨ (38 ≤ semNo g.2 ∧ semNo g.2 < 40) then 4
  else 0

theorem L_of_ne (g : GSem nD τ sig) (h : g.1.2 ≠ .tc) : L g = ∅ := if_neg h
theorem L_tc (c : Dev nD) (sm : SemLoc sig) : L ((c : Thread nD τ), sm) = {()} := if_pos rfl

/-! ## The cells by name -/

/-- Device `c`'s forty-one cells: its DMA cells 0–39, its barrier cell 40. -/
def kcell (ck : Dev nD × Fin 41) : GSem nD τ sig :=
  if h : ck.2.val < 40 then cell ck.1 ck.2.val h else barCell ck.1

/-- Every cell's invariant, under the names `K`, and that every cell is at round 0: what all devices share. -/
def records (K : Dev nD × Fin 41 → ℕ) : sProp 𝕄 :=
  iprop((bigSep Finset.univ fun ck : Dev nD × Fin 41 => cellInv ER (agRd m) (K ck) (kcell ck))
    ∗ bigSep Finset.univ fun ck : Dev nD × Fin 41 => reached ER (kcell ck) 0)

instance records_persistent (K : Dev nD × Fin 41 → ℕ) : BI.Persistent (records m K) := by unfold records; infer_instance

/-- A list of assertions, joined. -/
def sepL : List (sProp 𝕄) → sProp 𝕄
  | [] => iprop(emp)
  | [P] => P
  | P :: Q :: l => iprop(P ∗ sepL (Q :: l))

/-- Device `c` at round 0 of each of its cells. -/
def positions (c : Dev nD) : sProp 𝕄 :=
  iprop(atPos ER (barCell c) 0 ∅ 0 ∗ sepL ((List.finRange 40).map fun n => atPos ER (cell c n.val n.isLt) 0 ∅ 0))

/-- The tokens of the duties device `c` pays: one on each neighbour's barrier cell; the sixteen receive cells it copies
    into; its own sixteen send cells; its own load and store cells at both their rounds. -/
def payToks (c : Dev nD) : sProp 𝕄 :=
  iprop((dutyTok ER (barCell (px c)) 0 0 ∗ dutyTok ER (barCell (yb c)) 0 1 ∗ dutyTok ER (barCell (zb c)) 0 2)
    ∗ sepL ([12, 13, 14, 15].map fun n => dutyTok ER ((px c : Thread nD τ), SemLoc.dma ⟨n % 40, Nat.mod_lt _ (by decide)⟩) 0 0)
    ∗ sepL ([20, 21, 22, 23, 34, 35].map fun n => dutyTok ER ((yb c : Thread nD τ), SemLoc.dma ⟨n % 40, Nat.mod_lt _ (by decide)⟩) 0 0)
    ∗ sepL ([28, 29, 30, 31, 38, 39].map fun n => dutyTok ER ((zb c : Thread nD τ), SemLoc.dma ⟨n % 40, Nat.mod_lt _ (by decide)⟩) 0 0)
    ∗ sepL ([8, 9, 10, 11, 16, 17, 18, 19, 24, 25, 26, 27, 32, 33, 36, 37].map fun n => dutyTok ER ((c : Thread nD τ), SemLoc.dma ⟨n % 40, Nat.mod_lt _ (by decide)⟩) 0 0)
    ∗ sepL ([0, 1, 2, 3, 4, 5, 6, 7].map fun n => iprop(dutyTok ER ((c : Thread nD τ), SemLoc.dma ⟨n % 40, Nat.mod_lt _ (by decide)⟩) 0 0
        ∗ dutyTok ER ((c : Thread nD τ), SemLoc.dma ⟨n % 40, Nat.mod_lt _ (by decide)⟩) 1 0)))

/-- The credit the launch deals device `c`: three units on its barrier cell, a chunk's credit on each receive cell. -/
def creds (c : Dev nD) : sProp 𝕄 :=
  iprop(cred (tallyAt (barCell c) () 3)
    ∗ sepL ([12, 13, 14, 15, 20, 21, 22, 23, 28, 29, 30, 31, 34, 35, 38, 39].map fun n =>
        cred (tallyAt ((c : Thread nD τ), SemLoc.dma ⟨n % 40, Nat.mod_lt _ (by decide)⟩) () N)))

/-- The ghost state device `c` starts from, at the names `K`. -/
def ghost (K : Dev nD × Fin 41 → ℕ) (c : Dev nD) : sProp 𝕄 := iprop(records m K ∗ positions c ∗ payToks c)

/-- A whole buffer of device `c`. -/
def whole (c : Dev nD) (b : Ref sig .tc) (f : Buf (Elt F) ((c : Thread nD τ).loc b)) : sProp 𝕄 :=
  ((c : Thread nD τ).loc b) ↦{fullShare} f

/-- What device `c` holds when its body starts, besides its staging buffer: the ghost state, the launch credit, the
    levels, its argument as launched and its result at any contents. -/
def start (c : Dev nD) : sProp 𝕄 :=
  iprop((∃ K, ghost m K c) ∗ creds c ∗ levAts L lv ∗ whole c main_arg0 (xin m c) ∗ ∃ f, whole c main_v1 f)

def Φ₀ (c : Dev nD) : sProp 𝕄 := iprop(start m c ∗ ∃ f, whole c cc0_scratch0 f)

/-- What it holds when its body ends: the argument as launched, the result holding `target`, the staging buffer, and
    its forty DMA semaphores at zero. -/
def Φ₁ (c : Dev nD) : sProp 𝕄 :=
  iprop(whole c main_arg0 (xin m c) ∗ whole c main_v1 (target m c) ∗ (∃ f, whole c cc0_scratch0 f)
    ∗ sepL ((List.finRange 40).map fun n => semVal (cell c n.val n.isLt) 0))

/-! ## The pipeline's proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KernelAG.Topo.lean ====
/-
  The arithmetic of the 2 × 4 × 4 mesh, device by device.

  A device is c = 16·x + 4·y + z. Its partner `px c` is at the other x; its buddies `yb c`, `zb c` have the low bit
  of y, of z, flipped. The three are involutions that commute and fix no device, so c, yb c, zb c, yb (zb c) are the
  four devices of a group, and their quarters `qi` are 0, 1, 2, 3 in some order. Every device id and every row offset
  the kernel computes, word by word, from the device's coordinates is restated here over these names: each is checked
  at all 32 devices (and 4 pieces) by evaluation.
-/
import proofs.«900686_g7700000000000687_dist_ag_v7x_xyz2x4x4_x_m16384_n1024_f32_1_alg».proof.Proof.KernelAG.Base
import Idealize.ShloMosaic.Lib.Decide
import Mathlib.Data.Finset.Insert

set_option synthInstance.maxSize 4096
-- one statement at a time: each is an evaluation over every device
set_option Elab.async false

namespace Cert.Kernel.AG

open Cert.Kernel Cert.Kernel.Gen
open Idealize.ShloMosaic

/-! ## The three neighbours: involutions that commute, and move a device -/

/-- Crossing x twice comes back. -/
theorem px_px (c : Dev nD) : px (px c) = c := by revert c; decide +kernel
/-- Flipping the low bit of y twice comes back. -/
theorem yb_yb (c : Dev nD) : yb (yb c) = c := by revert c; decide +kernel
/-- Flipping the low bit of z twice comes back. -/
theorem zb_zb (c : Dev nD) : zb (zb c) = c := by revert c; decide +kernel
/-- Crossing x and flipping the low bit of y act on different coordinates. -/
theorem px_yb (c : Dev nD) : px (yb c) = yb (px c) := by revert c; decide +kernel
/-- Crossing x and flipping the low bit of z act on different coordinates. -/
theorem px_zb (c : Dev nD) : px (zb c) = zb (px c) := by revert c; decide +kernel
/-- The two flips act on different coordinates. -/
theorem yb_zb (c : Dev nD) : yb (zb c) = zb (yb c) := by revert c; decide +kernel

theorem px_ne (c : Dev nD) : px c ≠ c := by revert c; decide +kernel
theorem yb_ne (c : Dev nD) : yb c ≠ c := by revert c; decide +kernel
theorem zb_ne (c : Dev nD) : zb c ≠ c := by revert c; decide +kernel
theorem px_ne_yb (c : Dev nD) : px c ≠ yb c := by revert c; decide +kernel
theorem px_ne_zb (c : Dev nD) : px c ≠ zb c := by revert c; decide +kernel
theorem yb_ne_zb (c : Dev nD) : yb c ≠ zb c := by revert c; decide +kernel
/-- The diagonal of the group of four is none of the device, its two buddies or its partner. -/
theorem yb_zb_ne (c : Dev nD) : yb (zb c) ≠ c := by revert c; decide +kernel
theorem yb_zb_ne_yb (c : Dev nD) : yb (zb c) ≠ yb c := by revert c; decide +kernel
theorem yb_zb_ne_zb (c : Dev nD) : yb (zb c) ≠ zb c := by revert c; decide +kernel
theorem yb_zb_ne_px (c : Dev nD) : yb (zb c) ≠ px c := by revert c; decide +kernel

/-! ## The x coordinate -/

/-- The partner is at the other x. -/
theorem x_px (c : Dev nD) : (px c).val / 16 = 1 - c.val / 16 := by revert c; decide +kernel
theorem x_px' (c : Dev nD) : 1 - (px c).val / 16 = c.val / 16 := by revert c; decide +kernel
/-- The y buddy is at the same x. -/
theorem x_yb (c : Dev nD) : (yb c).val / 16 = c.val / 16 := by revert c; decide +kernel
/-- The z buddy is at the same x. -/
theorem x_zb (c : Dev nD) : (zb c).val / 16 = c.val / 16 := by revert c; decide +kernel
/-- x is 0 or 1. -/
theorem x_lt (c : Dev nD) : c.val / 16 < 2 := by have : c.val < 32 := c.isLt; omega

/-! ## The quarter index

Within a group of four the quarters 2a + b of (c, yb c, zb c, yb (zb c)) are the four numbers 0, 1, 2, 3, each once;
the partner across x has the same quarter. -/

theorem qi_lt (c : Dev nD) : qi c < 4 := by unfold qi; omega
theorem qi_px (c : Dev nD) : qi (px c) = qi c := by revert c; decide +kernel
/-- The y buddy's quarter: the upper bit flipped. -/
theorem qi_yb (c : Dev nD) : qi (yb c) = 2 * (1 - (c.val / 4) % 2) + c.val % 2 := by revert c; decide +kernel
/-- The z buddy's quarter: the lower bit flipped. -/
theorem qi_zb (c : Dev nD) : qi (zb c) = 2 * ((c.val / 4) % 2) + (1 - c.val % 2) := by revert c; decide +kernel
/-- The diagonal's quarter: both bits flipped. -/
theorem qi_yb_zb (c : Dev nD) : qi (yb (zb c)) = 2 * (1 - (c.val / 4) % 2) + (1 - c.val % 2) := by revert c; decide +kernel
theorem qi_yb_ne (c : Dev nD) : qi (yb c) ≠ qi c := by revert c; decide +kernel
theorem qi_zb_ne (c : Dev nD) : qi (zb c) ≠ qi c := by revert c; decide +kernel
theorem qi_yb_zb_ne (c : Dev nD) : qi (yb (zb c)) ≠ qi c := by revert c; decide +kernel
theorem qi_yb_ne_zb (c : Dev nD) : qi (yb c) ≠ qi (zb c) := by revert c; decide +kernel
theorem qi_yb_ne_yb_zb (c : Dev nD) : qi (yb c) ≠ qi (yb (zb c)) := by revert c; decide +kernel
theorem qi_zb_ne_yb_zb (c : Dev nD) : qi (zb c) ≠ qi (yb (zb c)) := by revert c; decide +kernel
/-- The four quarters of a group are 0, 1, 2, 3. -/
theorem qi_perm (c : Dev nD) : ({qi c, qi (yb c), qi (zb c), qi (yb (zb c))} : Finset ℕ) = {0, 1, 2, 3} := by
  revert c; decide +kernel

/-! ## Where a quarter comes from

`origin c Q` is the device across x, in the group of four of `c`, whose quarter is `Q`. -/

theorem origin_qi (c : Dev nD) : origin c (qi c) = px c := by revert c; decide +kernel
theorem origin_qi_yb (c : Dev nD) : origin c (qi (yb c)) = px (yb c) := by revert c; decide +kernel
theorem origin_qi_zb (c : Dev nD) : origin c (qi (zb c)) = px (zb c) := by revert c; decide +kernel
theorem origin_qi_yb_zb (c : Dev nD) : origin c (qi (yb (zb c))) = px (yb (zb c)) := by revert c; decide +kernel
/-- The origin of a quarter has that quarter. -/
theorem qi_origin (c : Dev nD) (Q : Fin 4) : qi (origin c Q.val) = Q.val := by revert c Q; decide +kernel
/-- The origin is across x. -/
theorem x_origin (c : Dev nD) (Q : ℕ) : (origin c Q).val / 16 = 1 - c.val / 16 := by
  show (16 * (1 - c.val / 16) + 8 * ((c.val / 8) % 2) + 4 * ((Q / 2) % 2) + 2 * ((c.val / 2) % 2) + Q % 2) / 16 = _; omega

/-! ## The devices the kernel addresses

Each device id the kernel computes, word by word, from its own coordinates is the partner, the y buddy or the z buddy. -/

theorem dev1_val : ∀ c : Dev nD, k0_dev1 c = (px c).val := by decide +kernel
theorem dev1_eq (c : Dev nD) : (⟨k0_dev1 c, Gen.k0_dev1_lt c⟩ : Dev nD) = px c := Fin.ext (dev1_val c)
theorem dev2_val : ∀ c : Dev nD, k0_dev2 c = (yb c).val := by decide +kernel
theorem dev2_eq (c : Dev nD) : (⟨k0_dev2 c, Gen.k0_dev2_lt c⟩ : Dev nD) = yb c := Fin.ext (dev2_val c)
theorem dev3_val : ∀ c : Dev nD, k0_dev3 c = (zb c).val := by decide +kernel
theorem dev3_eq (c : Dev nD) : (⟨k0_dev3 c, Gen.k0_dev3_lt c⟩ : Dev nD) = zb c := Fin.ext (dev3_val c)
theorem dev4_val : ∀ c : Dev nD, k0_dev4 c = (px c).val := by decide +kernel
theorem dev4_eq (c : Dev nD) : (⟨k0_dev4 c, Gen.k0_dev4_lt c⟩ : Dev nD) = px c := Fin.ext (dev4_val c)
theorem dev5_val : ∀ c : Dev nD, k0_dev5 c = (px c).val := by decide +kernel
theorem dev5_eq (c : Dev nD) : (⟨k0_dev5 c, Gen.k0_dev5_lt c⟩ : Dev nD) = px c := Fin.ext (dev5_val c)
theorem dev6_val : ∀ c : Dev nD, k0_dev6 c = (px c).val := by decide +kernel
theorem dev6_eq (c : Dev nD) : (⟨k0_dev6 c, Gen.k0_dev6_lt c⟩ : Dev nD) = px c := Fin.ext (dev6_val c)
theorem dev7_val : ∀ c : Dev nD, k0_dev7 c = (px c).val := by decide +kernel
theorem dev7_eq (c : Dev nD) : (⟨k0_dev7 c, Gen.k0_dev7_lt c⟩ : Dev nD) = px c := Fin.ext (dev7_val c)
theorem dev8_val : ∀ c : Dev nD, k0_dev8 c = (yb c).val := by decide +kernel
theorem dev8_eq (c : Dev nD) : (⟨k0_dev8 c, Gen.k0_dev8_lt c⟩ : Dev nD) = yb c := Fin.ext (dev8_val c)
theorem dev9_val : ∀ c : Dev nD, k0_dev9 c = (zb c).val := by decide +kernel
theorem dev9_eq (c : Dev nD) : (⟨k0_dev9 c, Gen.k0_dev9_lt c⟩ : Dev nD) = zb c := Fin.ext (dev9_val c)
theorem dev10_val : ∀ c : Dev nD, k0_dev10 c = (yb c).val := by decide +kernel
theorem dev10_eq (c : Dev nD) : (⟨k0_dev10 c, Gen.k0_dev10_lt c⟩ : Dev nD) = yb c := Fin.ext (dev10_val c)
theorem dev11_val : ∀ c : Dev nD, k0_dev11 c = (zb c).val := by decide +kernel
theorem dev11_eq (c : Dev nD) : (⟨k0_dev11 c, Gen.k0_dev11_lt c⟩ : Dev nD) = zb c := Fin.ext (dev11_val c)
theorem dev12_val : ∀ c : Dev nD, k0_dev12 c = (yb c).val := by decide +kernel
theorem dev12_eq (c : Dev nD) : (⟨k0_dev12 c, Gen.k0_dev12_lt c⟩ : Dev nD) = yb c := Fin.ext (dev12_val c)
theorem dev13_val : ∀ c : Dev nD, k0_dev13 c = (zb c).val := by decide +kernel
theorem dev13_eq (c : Dev nD) : (⟨k0_dev13 c, Gen.k0_dev13_lt c⟩ : Dev nD) = zb c := Fin.ext (dev13_val c)
theorem dev14_val : ∀ c : Dev nD, k0_dev14 c = (yb c).val := by decide +kernel
theorem dev14_eq (c : Dev nD) : (⟨k0_dev14 c, Gen.k0_dev14_lt c⟩ : Dev nD) = yb c := Fin.ext (dev14_val c)
theorem dev15_val : ∀ c : Dev nD, k0_dev15 c = (zb c).val := by decide +kernel
theorem dev15_eq (c : Dev nD) : (⟨k0_dev15 c, Gen.k0_dev15_lt c⟩ : Dev nD) = zb c := Fin.ext (dev15_val c)
theorem dev16_val : ∀ c : Dev nD, k0_dev16 c = (yb c).val := by decide +kernel
theorem dev16_eq (c : Dev nD) : (⟨k0_dev16 c, Gen.k0_dev16_lt c⟩ : Dev nD) = yb c := Fin.ext (dev16_val c)
theorem dev17_val : ∀ c : Dev nD, k0_dev17 c = (yb c).val := by decide +kernel
theorem dev17_eq (c : Dev nD) : (⟨k0_dev17 c, Gen.k0_dev17_lt c⟩ : Dev nD) = yb c := Fin.ext (dev17_val c)
theorem dev18_val : ∀ c : Dev nD, k0_dev18 c = (zb c).val := by decide +kernel
theorem dev18_eq (c : Dev nD) : (⟨k0_dev18 c, Gen.k0_dev18_lt c⟩ : Dev nD) = zb c := Fin.ext (dev18_val c)
theorem dev19_val : ∀ c : Dev nD, k0_dev19 c = (zb c).val := by decide +kernel
theorem dev19_eq (c : Dev nD) : (⟨k0_dev19 c, Gen.k0_dev19_lt c⟩ : Dev nD) = zb c := Fin.ext (dev19_val c)

/-! ## The slices the kernel copies

Each row offset the kernel computes, in closed form: a half (16384 rows), a quarter of it (4096 rows), a piece of the
quarter (1024 rows). -/

/-- Destination rows, in the partner's result, of the pieces of the device's own quarter. -/
theorem off1_pt : ∀ c : Dev nD, ∀ r : Fin 4, ∀ a : Fin 2,
    k0_off1 c (BitVec.ofNat 32 (1024 * r.val)) a = (![16384 * (c.val / 16) + 4096 * qi c + 1024 * r.val, 0] : Fin 2 → ℕ) a := by decide +kernel
theorem off1_eq (c : Dev nD) (r : Fin 4) :
    k0_off1 c (BitVec.ofNat 32 (1024 * r.val)) = ![16384 * (c.val / 16) + 4096 * qi c + 1024 * r.val, 0] := funext (off1_pt c r)
theorem off1_eq_0 (c : Dev nD) : k0_off1 c 0#32 = ![16384 * (c.val / 16) + 4096 * qi c + 1024 * 0, 0] := off1_eq c ⟨0, by decide⟩
theorem off1_eq_1 (c : Dev nD) : k0_off1 c 1024#32 = ![16384 * (c.val / 16) + 4096 * qi c + 1024 * 1, 0] := off1_eq c ⟨1, by decide⟩
theorem off1_eq_2 (c : Dev nD) : k0_off1 c 2048#32 = ![16384 * (c.val / 16) + 4096 * qi c + 1024 * 2, 0] := off1_eq c ⟨2, by decide⟩
theorem off1_eq_3 (c : Dev nD) : k0_off1 c 3072#32 = ![16384 * (c.val / 16) + 4096 * qi c + 1024 * 3, 0] := off1_eq c ⟨3, by decide⟩

/-- Source rows, in the device's argument, of the pieces of its own quarter. -/
theorem off2_pt : ∀ c : Dev nD, ∀ r : Fin 4, ∀ a : Fin 2,
    k0_off2 c (BitVec.ofNat 32 (1024 * r.val)) a = (![4096 * qi c + 1024 * r.val, 0] : Fin 2 → ℕ) a := by decide +kernel
theorem off2_eq (c : Dev nD) (r : Fin 4) :
    k0_off2 c (BitVec.ofNat 32 (1024 * r.val)) = ![4096 * qi c + 1024 * r.val, 0] := funext (off2_pt c r)
theorem off2_eq_0 (c : Dev nD) : k0_off2 c 0#32 = ![4096 * qi c + 1024 * 0, 0] := off2_eq c ⟨0, by decide⟩
theorem off2_eq_1 (c : Dev nD) : k0_off2 c 1024#32 = ![4096 * qi c + 1024 * 1, 0] := off2_eq c ⟨1, by decide⟩
theorem off2_eq_2 (c : Dev nD) : k0_off2 c 2048#32 = ![4096 * qi c + 1024 * 2, 0] := off2_eq c ⟨2, by decide⟩
theorem off2_eq_3 (c : Dev nD) : k0_off2 c 3072#32 = ![4096 * qi c + 1024 * 3, 0] := off2_eq c ⟨3, by decide⟩

/-- Rows, in the other half of a result, of the pieces of the quarter the device fetched from its partner. -/
theorem off3_pt : ∀ c : Dev nD, ∀ r : Fin 4, ∀ a : Fin 2,
    k0_off3 c (BitVec.ofNat 32 (1024 * r.val)) a = (![16384 * (1 - c.val / 16) + 4096 * qi c + 1024 * r.val, 0] : Fin 2 → ℕ) a := by decide +kernel
theorem off3_eq (c : Dev nD) (r : Fin 4) :
    k0_off3 c (BitVec.ofNat 32 (1024 * r.val)) = ![16384 * (1 - c.val / 16) + 4096 * qi c + 1024 * r.val, 0] := funext (off3_pt c r)
theorem off3_eq_0 (c : Dev nD) : k0_off3 c 0#32 = ![16384 * (1 - c.val / 16) + 4096 * qi c + 1024 * 0, 0] := off3_eq c ⟨0, by decide⟩
theorem off3_eq_1 (c : Dev nD) : k0_off3 c 1024#32 = ![16384 * (1 - c.val / 16) + 4096 * qi c + 1024 * 1, 0] := off3_eq c ⟨1, by decide⟩
theorem off3_eq_2 (c : Dev nD) : k0_off3 c 2048#32 = ![16384 * (1 - c.val / 16) + 4096 * qi c + 1024 * 2, 0] := off3_eq c ⟨2, by decide⟩
theorem off3_eq_3 (c : Dev nD) : k0_off3 c 3072#32 = ![16384 * (1 - c.val / 16) + 4096 * qi c + 1024 * 3, 0] := off3_eq c ⟨3, by decide⟩

/-- Rows, in the other half of a result, of the pieces of the z buddy's quarter. -/
theorem off5_pt : ∀ c : Dev nD, ∀ r : Fin 4, ∀ a : Fin 2,
    k0_off5 c (BitVec.ofNat 32 (1024 * r.val)) a = (![16384 * (1 - c.val / 16) + 4096 * qi (zb c) + 1024 * r.val, 0] : Fin 2 → ℕ) a := by decide +kernel
theorem off5_eq (c : Dev nD) (r : Fin 4) :
    k0_off5 c (BitVec.ofNat 32 (1024 * r.val)) = ![16384 * (1 - c.val / 16) + 4096 * qi (zb c) + 1024 * r.val, 0] := funext (off5_pt c r)
theorem off5_eq_0 (c : Dev nD) : k0_off5 c 0#32 = ![16384 * (1 - c.val / 16) + 4096 * qi (zb c) + 1024 * 0, 0] := off5_eq c ⟨0, by decide⟩
theorem off5_eq_1 (c : Dev nD) : k0_off5 c 1024#32 = ![16384 * (1 - c.val / 16) + 4096 * qi (zb c) + 1024 * 1, 0] := off5_eq c ⟨1, by decide⟩
theorem off5_eq_2 (c : Dev nD) : k0_off5 c 2048#32 = ![16384 * (1 - c.val / 16) + 4096 * qi (zb c) + 1024 * 2, 0] := off5_eq c ⟨2, by decide⟩
theorem off5_eq_3 (c : Dev nD) : k0_off5 c 3072#32 = ![16384 * (1 - c.val / 16) + 4096 * qi (zb c) + 1024 * 3, 0] := off5_eq c ⟨3, by decide⟩

/-- Rows, in the other half of a result, of the pieces of the y buddy's quarter. -/
theorem off6_pt : ∀ c : Dev nD, ∀ r : Fin 4, ∀ a : Fin 2,
    k0_off6 c (BitVec.ofNat 32 (1024 * r.val)) a = (![16384 * (1 - c.val / 16) + 4096 * qi (yb c) + 1024 * r.val, 0] : Fin 2 → ℕ) a := by decide +kernel
theorem off6_eq (c : Dev nD) (r : Fin 4) :
    k0_off6 c (BitVec.ofNat 32 (1024 * r.val)) = ![16384 * (1 - c.val / 16) + 4096 * qi (yb c) + 1024 * r.val, 0] := funext (off6_pt c r)
theorem off6_eq_0 (c : Dev nD) : k0_off6 c 0#32 = ![16384 * (1 - c.val / 16) + 4096 * qi (yb c) + 1024 * 0, 0] := off6_eq c ⟨0, by decide⟩
theorem off6_eq_1 (c : Dev nD) : k0_off6 c 1024#32 = ![16384 * (1 - c.val / 16) + 4096 * qi (yb c) + 1024 * 1, 0] := off6_eq c ⟨1, by decide⟩
theorem off6_eq_2 (c : Dev nD) : k0_off6 c 2048#32 = ![16384 * (1 - c.val / 16) + 4096 * qi (yb c) + 1024 * 2, 0] := off6_eq c ⟨2, by decide⟩
theorem off6_eq_3 (c : Dev nD) : k0_off6 c 3072#32 = ![16384 * (1 - c.val / 16) + 4096 * qi (yb c) + 1024 * 3, 0] := off6_eq c ⟨3, by decide⟩

/-- Rows, in the other half of a result, of the pieces of the diagonal's quarter. -/
theorem off7_pt : ∀ c : Dev nD, ∀ r : Fin 4, ∀ a : Fin 2,
    k0_off7 c (BitVec.ofNat 32 (1024 * r.val)) a = (![16384 * (1 - c.val / 16) + 4096 * qi (yb (zb c)) + 1024 * r.val, 0] : Fin 2 → ℕ) a := by decide +kernel
theorem off7_eq (c : Dev nD) (r : Fin 4) :
    k0_off7 c (BitVec.ofNat 32 (1024 * r.val)) = ![16384 * (1 - c.val / 16) + 4096 * qi (yb (zb c)) + 1024 * r.val, 0] := funext (off7_pt c r)
theorem off7_eq_0 (c : Dev nD) : k0_off7 c 0#32 = ![16384 * (1 - c.val / 16) + 4096 * qi (yb (zb c)) + 1024 * 0, 0] := off7_eq c ⟨0, by decide⟩
theorem off7_eq_1 (c : Dev nD) : k0_off7 c 1024#32 = ![16384 * (1 - c.val / 16) + 4096 * qi (yb (zb c)) + 1024 * 1, 0] := off7_eq c ⟨1, by decide⟩
theorem off7_eq_2 (c : Dev nD) : k0_off7 c 2048#32 = ![16384 * (1 - c.val / 16) + 4096 * qi (yb (zb c)) + 1024 * 2, 0] := off7_eq c ⟨2, by decide⟩
theorem off7_eq_3 (c : Dev nD) : k0_off7 c 3072#32 = ![16384 * (1 - c.val / 16) + 4096 * qi (yb (zb c)) + 1024 * 3, 0] := off7_eq c ⟨3, by decide⟩

end Cert.Kernel.AG

/-- info: 'Cert.Kernel.AG.off7_eq' depends on axioms: [propext, Quot.sound] -/
#guard_msgs in #print axioms Cert.Kernel.AG.off7_eq
/-- info: 'Cert.Kernel.AG.dev19_eq' depends on axioms: [propext, Quot.sound] -/
#guard_msgs in #print axioms Cert.Kernel.AG.dev19_eq
/-- info: 'Cert.Kernel.AG.qi_perm' depends on axioms: [propext, Classical.choice, Quot.sound] -/
#guard_msgs in #print axioms Cert.Kernel.AG.qi_perm
/-- info: 'Cert.Kernel.AG.origin_qi_yb_zb' depends on axioms: [propext, Quot.sound] -/
#guard_msgs in #print axioms Cert.Kernel.AG.origin_qi_yb_zb
-- ==== Proof.KernelAG.Fund.lean ====
/-
  The global step of the launch: the ghost state of all devices, made at once.

  The launch element mints, for each device, the round state of its forty-one cells at counter zero, that each is at
  round 0, its position at round 0 of each, and the tokens of its own cells' duties: three on the barrier cell, one on
  each transfer cell, and one more on each load and store cell for its second round (51 in all). With every device's
  counters at zero the cells' invariants are allocated, all under one update; their names are gathered into one table
  that every device records; and the tokens are dealt to the devices that pay the duties: a barrier cell's three go to
  the partner, the y buddy and the z buddy, a receive cell's to the device that copies into it. The three neighbour
  maps are involutions, so dealing along them is a re-indexing of the devices.
-/
import proofs.«900686_g7700000000000687_dist_ag_v7x_xyz2x4x4_x_m16384_n1024_f32_1_alg».proof.Proof.KernelAG.Proto
import proofs.«900686_g7700000000000687_dist_ag_v7x_xyz2x4x4_x_m16384_n1024_f32_1_alg».proof.Proof.KernelAG.Topo
import Mathlib.Data.Fintype.Fin
import Mathlib.Data.List.FinRange

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Joined lists -/

/-- A joined list, its head apart. -/
theorem sepL_cons (P : sProp 𝕄) (l : List (sProp 𝕄)) : sepL (F := F) (P :: l) = iprop(P ∗ sepL l) := by
  cases l with
  | nil => exact (Entails.antisymm _root_.Idealize.SL.BI.sep_emp_elim _root_.Idealize.SL.BI.sep_emp_intro).symm
  | cons Q l => rfl

/-- Two lists joined are the join of their joins. -/
theorem sepL_append (l₁ l₂ : List (sProp 𝕄)) : sepL (F := F) (l₁ ++ l₂) = iprop(sepL l₁ ∗ sepL l₂) := by
  induction l₁ with
  | nil => exact (Entails.antisymm _root_.Idealize.SL.BI.emp_sep_elim _root_.Idealize.SL.BI.emp_sep_intro).symm
  | cons P l ih =>
    rw [List.cons_append, sepL_cons, sepL_cons, ih]
    exact (Std.Associative.assoc (op := (BI.sep : sProp 𝕄 → _ → _)) _ _ _).symm

/-- The chain over a list of indices is the join of the list of its summands. -/
theorem bigSepL_eq_sepL {I : Type} (l : List I) (Φ : I → sProp 𝕄) : bigSepL l Φ = sepL (F := F) (l.map Φ) := by
  induction l with
  | nil => rfl
  | cons i l ih => rw [bigSepL_cons, List.map_cons, sepL_cons, ih]; rfl

/-- Over all of `Fin n`: the join of the summands in order. -/
theorem bigSep_fin_sepL (n : ℕ) (Φ : Fin n → sProp 𝕄) :
    bigSep Finset.univ Φ = sepL (F := F) ((List.finRange n).map Φ) := by
  rw [bigSep_univ_eq_bigSepL (List.finRange n) (List.toFinset_finRange n).symm (List.nodup_finRange n), bigSepL_eq_sepL]

/-- Over the forty transfer cells. -/
theorem bigSep_fin40_sepL (Φ : Fin 40 → sProp 𝕄) :
    bigSep Finset.univ Φ = sepL (F := F) ((List.finRange 40).map Φ) := bigSep_fin_sepL 40 Φ

/-- The middle two of four, exchanged. -/
theorem sep_sep_swap (P Q R S : sProp 𝕄) : iprop((P ∗ Q) ∗ R ∗ S) ⊢ iprop((P ∗ R) ∗ Q ∗ S) := by
  iintro ⟨⟨HP, HQ⟩, HR, HS⟩
  isplitl [HP HR]
  · isplitl [HP]; · iexact HP
    iexact HR
  · isplitl [HQ]; · iexact HQ
    iexact HS

/-- A join of pairs is the pair of the joins. -/
theorem sepL_map_sep {I : Type} (l : List I) (A B : I → sProp 𝕄) :
    sepL (F := F) (l.map fun i => iprop(A i ∗ B i)) = iprop(sepL (l.map A) ∗ sepL (l.map B)) := by
  induction l with
  | nil => exact (Entails.antisymm _root_.Idealize.SL.BI.emp_sep_elim _root_.Idealize.SL.BI.emp_sep_intro).symm
  | cons i l ih =>
    rw [List.map_cons, List.map_cons, List.map_cons, sepL_cons, sepL_cons, sepL_cons, ih]
    exact Entails.antisymm (sep_sep_swap _ _ _ _) (sep_sep_swap _ _ _ _)

/-- Over `Fin (n + 1)`: the last summand, and the others. -/
theorem bigSep_fin_last (n : ℕ) (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]
  rfl

/-- The transfer cells in the order of their roles: x receive, y receive, z receive, send, local. -/
theorem bigSep_fin40_groups (Ψ : Fin 40 → sProp 𝕄) :
    bigSep Finset.univ Ψ
      = iprop(sepL (F := F) ([12, 13, 14, 15].map fun n : ℕ => Ψ ⟨n % 40, Nat.mod_lt _ (by decide)⟩)
        ∗ sepL ([20, 21, 22, 23, 34, 35].map fun n : ℕ => Ψ ⟨n % 40, Nat.mod_lt _ (by decide)⟩)
        ∗ sepL ([28, 29, 30, 31, 38, 39].map fun n : ℕ => Ψ ⟨n % 40, Nat.mod_lt _ (by decide)⟩)
        ∗ sepL ([8, 9, 10, 11, 16, 17, 18, 19, 24, 25, 26, 27, 32, 33, 36, 37].map fun n : ℕ => Ψ ⟨n % 40, Nat.mod_lt _ (by decide)⟩)
        ∗ sepL ([0, 1, 2, 3, 4, 5, 6, 7].map fun n : ℕ => Ψ ⟨n % 40, Nat.mod_lt _ (by decide)⟩)) := by
  rw [bigSep_univ_eq_bigSepL (([12, 13, 14, 15] : List (Fin 40)) ++ (([20, 21, 22, 23, 34, 35] : List (Fin 40))
      ++ (([28, 29, 30, 31, 38, 39] : List (Fin 40)) ++ (([8, 9, 10, 11, 16, 17, 18, 19, 24, 25, 26, 27, 32, 33, 36, 37] : List (Fin 40))
      ++ ([0, 1, 2, 3, 4, 5, 6, 7] : List (Fin 40)))))) (by decide) (by decide),
    bigSepL_eq_sepL, List.map_append, sepL_append, List.map_append, sepL_append, List.map_append, sepL_append,
    List.map_append, sepL_append]
  rfl

/-- A persistent assertion beside a `bigSep` reaches every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The kernel's own semaphores, and the cells by name -/

/-- The kernel's own (scoped) semaphores: the forty DMA semaphores. -/
abbrev osem : Fin 40 → SemLoc sig := fun i => .dma i

theorem ownSemFacts : Pipeline.OwnSemFacts cfg0.spec osem :=
  ⟨fun k => by revert k; decide, fun a b h => SemLoc.dma.inj h, fun k w => w.elim0⟩

theorem kcell_last (c : Dev nD) : kcell (c, Fin.last 40) = barCell c := by
  unfold kcell; exact dif_neg (Nat.lt_irrefl 40)
theorem kcell_cast (c : Dev nD) (n : Fin 40) : kcell (c, n.castSucc) = cell c n.val n.isLt := by
  unfold kcell; exact dif_pos n.isLt

/-- A cell's device, -/
theorem kcell_dev (ck : Dev nD × Fin 41) : (kcell ck).1.1 = ck.1 := by
  unfold kcell; split <;> rfl
/-- and its number. -/
theorem kcell_semNo (ck : Dev nD × Fin 41) : semNo (kcell ck).2 = ck.2.val := by
  unfold kcell
  split
  · rfl
  · rename_i h
    have := ck.2.isLt
    show 40 = ck.2.val
    omega

theorem kcell_injective : Function.Injective (kcell : Dev nD × Fin 41 → GSem nD τ sig) := by
  rintro ⟨c, k⟩ ⟨c', k'⟩ h
  have h1 : c = c' :=
    (kcell_dev (c, k)).symm.trans ((congrArg (fun g : GSem nD τ sig => g.1.1) h).trans (kcell_dev (c', k')))
  have h2 : k.val = k'.val :=
    (kcell_semNo (c, k)).symm.trans ((congrArg (fun g : GSem nD τ sig => semNo g.2) h).trans (kcell_semNo (c', k')))
  exact Prod.ext h1 (Fin.ext h2)

/-- Every device's forty-one cells. -/
def agCells : Finset (GSem nD τ sig) := Finset.univ.map ⟨kcell, kcell_injective⟩

/-- Over a device's forty-one cells: the barrier cell, and the forty transfer cells. -/
theorem bigSep_kcell (c : Dev nD) (Φ : GSem nD τ sig → sProp 𝕄) :
    bigSep Finset.univ (fun k : Fin 41 => Φ (kcell (c, k)))
      = iprop(Φ (barCell c) ∗ bigSep Finset.univ fun n : Fin 40 => Φ (cell c n.val n.isLt)) := by
  refine (bigSep_fin_last 40 (fun k : Fin 41 => Φ (kcell (c, k)))).trans ?_
  simp only [kcell_last, kcell_cast]

/-! ## The minted tokens -/

/-- The duties of a device's own cells: the barrier cell's three of round 0, each transfer cell's one of round 0, each load
    and store cell's one of round 1. -/
abbrev TokIx : Type := Fin 3 ⊕ (Fin 40 ⊕ Fin 8)

def tokOf (cj : Dev nD × TokIx) : GSem nD τ sig × ℕ × Fin 3 :=
  match cj.2 with
  | .inl d => (barCell cj.1, 0, d)
  | .inr (.inl n) => (cell cj.1 n.val n.isLt, 0, 0)
  | .inr (.inr n) => (cell cj.1 n.val (Nat.lt_trans n.isLt (by decide)), 1, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with d | n | n <;> rcases j' with d' | n' | n' <;> exact this
  subst h1
  have hs := congrArg (fun x : GSem nD τ sig × ℕ × Fin 3 => semNo x.1.2) h
  have hr := congrArg (fun x : GSem nD τ sig × ℕ × Fin 3 => x.2.1) h
  have hd := congrArg (fun x : GSem nD τ sig × ℕ × Fin 3 => x.2.2) h
  rcases j with d | n | n <;> rcases j' with d' | n' | n'
  · have hd' : d = d' := hd
    rw [hd']
  · have hs' : 40 = n'.val := hs
    have := n'.isLt
    omega
  · have hs' : 40 = n'.val := hs
    have := n'.isLt
    omega
  · have hs' : n.val = 40 := hs
    have := n.isLt
    omega
  · have hs' : n.val = n'.val := hs
    rw [Fin.ext hs']
  · have hr' : (0 : ℕ) = 1 := hr
    omega
  · have hs' : n.val = 40 := hs
    have := n.isLt
    omega
  · have hr' : (1 : ℕ) = 0 := hr
    omega
  · have hs' : n.val = n'.val := hs
    rw [Fin.ext hs']

/-- The tokens of every device's own cells. -/
def agToks : Finset (GSem nD τ sig × ℕ × Fin 3) := Finset.univ.map ⟨tokOf, tokOf_injective⟩

/-- The launch element: the staging cells' (none here) and the protocol's. -/
def u₀ : UU :=
  (initOf (Pipeline.cells cfgs cellOf_inj) (Pipeline.launchToks cfgs cellOf_inj), initOf agCells agToks)

/-- The token of duty 0 of round `r` of device `c`'s transfer cell number `n`. -/
abbrev tk (c : Dev nD) (r n : ℕ) : sProp 𝕄 :=
  dutyTok ER ((c : Thread nD τ), SemLoc.dma ⟨n % 40, Nat.mod_lt _ (by decide)⟩) r 0

/-- The tokens of device `c`'s own cells as minted: the barrier cell's three; the transfer cells' by role (x receive, y
    receive, z receive, send, local); the local cells' second round. -/
def toks (c : Dev nD) : sProp 𝕄 :=
  iprop((dutyTok ER (barCell c) 0 0 ∗ dutyTok ER (barCell c) 0 1 ∗ dutyTok ER (barCell c) 0 2)
    ∗ (sepL ([12, 13, 14, 15].map (tk (F := F) c 0))
      ∗ sepL ([20, 21, 22, 23, 34, 35].map (tk (F := F) c 0))
      ∗ sepL ([28, 29, 30, 31, 38, 39].map (tk (F := F) c 0))
      ∗ sepL ([8, 9, 10, 11, 16, 17, 18, 19, 24, 25, 26, 27, 32, 33, 36, 37].map (tk (F := F) c 0))
      ∗ sepL ([0, 1, 2, 3, 4, 5, 6, 7].map (tk (F := F) c 0)))
    ∗ sepL ([0, 1, 2, 3, 4, 5, 6, 7].map (tk (F := F) c 1)))

/-- The minted tokens of device `c`, by role. -/
theorem toks_eq (c : Dev nD) :
    bigSep Finset.univ (fun j : TokIx => (dutyTok ER (tokOf (c, j)).1 (tokOf (c, j)).2.1 (tokOf (c, j)).2.2 : sProp 𝕄)) = toks c := by
  rw [bigSep_univ_sum, bigSep_univ_sum, bigSep_univ_eq_bigSepL ([0, 1, 2] : List (Fin 3)) (by decide) (by decide),
    bigSep_fin40_groups, bigSep_fin_sepL 8]
  rfl

/-! ## What the launch element deals a device, and what the global step makes of it -/

/-- What the launch element deals device `c`: its cells' round states at counter zero, its positions, that each cell is
    at round 0, and its own cells' tokens. -/
def G (m : (ℓ : Loc nD τ sig) → Buf (Elt F) ℓ) (c : Dev nD) : sProp 𝕄 :=
  iprop((bigSep Finset.univ fun k : Fin 41 => roundState ER (agRd m) (kcell (c, k)) 0)
    ∗ (bigSep Finset.univ fun k : Fin 41 => iprop(atPos ER (kcell (c, k)) 0 ∅ 0 ∗ reached ER (kcell (c, k)) 0)) ∗ toks c)

/-- What the global step makes of it: the ghost state the device's body starts from, at some table of names. -/
def G' (m : (ℓ : Loc nD τ sig) → Buf (Elt F) ℓ) (c : Dev nD) : sProp 𝕄 := iprop(∃ K, ghost m K c)

theorem fund_ag (m : (ℓ : Loc nD τ sig) → Buf (Elt F) ℓ) :
    BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun k : Fin 41 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => toks_eq c
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, split: the staging cells' part, and every device's share of the protocol's. -/
theorem hu₀ (m : (ℓ : Loc nD τ sig) → Buf (Elt F) ℓ) :
    (ownU u₀ : sProp 𝕄)
      ⊢ |={Set.univ}=> iprop(BI.own (EP (initOf (Pipeline.cells cfgs cellOf_inj) (Pipeline.launchToks cfgs cellOf_inj)))
          ∗ bigSep Finset.univ (G m)) := by
  unfold u₀
  iintro Hu
  ihave H := (ownU_pair _ _) $$ Hu
  icases H with ⟨HP, HX⟩
  imod (fund_ag m) $$ HX with HG
  imodintro
  isplitl [HP] <;> iassumption

/-! ## The counters at zero -/

/-- The forty DMA semaphores are the kernel's own; -/
theorem ownSems0_eq (c : Dev nD) :
    (Pipeline.ownSems0 (Ix := Unit) (Name := ℕ) (U := UU) (Lvl := ℕ) (Val := Elt F) (τ := τ) osem c : sProp 𝕄)
      = bigSep Finset.univ fun n : Fin 40 => semVal (cell c n.val n.isLt) 0 := rfl

/-- The same, as the join of the forty counters in order. -/
theorem ownSems0_eq_sepL (c : Dev nD) :
    (Pipeline.ownSems0 (Ix := Unit) (Name := ℕ) (U := UU) (Lvl := ℕ) (Val := Elt F) (τ := τ) osem c : sProp 𝕄)
      = sepL ((List.finRange 40).map fun n => semVal (cell c n.val n.isLt) 0) :=
  (ownSems0_eq c).trans (bigSep_fin40_sepL _)

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 41 => semVal (kcell (c, k)) 0 : sProp 𝕄) := by
  rw [ownSems0_eq, unscopedSems0_eq, bigSep_kcell c (fun g => (semVal g 0 : sProp 𝕄))]
  iintro ⟨HS, HB⟩
  isplitl [HB] <;> iassumption

/-- A device's cells' invariants allocated, from its counters at zero and its round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 41 => iprop(∃ κ : ℕ, cellInv ER (agRd m) κ (kcell (c, k))))
          ∗ (bigSep Finset.univ fun k : Fin 41 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 41 => semVal (kcell (c, k)) 0)
        ∗ bigSep Finset.univ fun k : Fin 41 => roundState ER (agRd m) (kcell (c, k)) 0)
      ⊢ (|={Set.univ}=> bigSep Finset.univ fun k : Fin 41 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The dealing -/

/-- The three neighbour maps, as re-indexings of the devices. -/
def dealX : Dev nD ≃ Dev nD := ⟨px, px, px_px, px_px⟩
def dealY : Dev nD ≃ Dev nD := ⟨yb, yb, yb_yb, yb_yb⟩
def dealZ : Dev nD ≃ Dev nD := ⟨zb, zb, zb_zb, zb_zb⟩

/-- The tokens device `c` pays with, by role. -/
theorem payToks_eq (c : Dev nD) : (payToks c : sProp 𝕄)
    = iprop((dutyTok ER (barCell (px c)) 0 0 ∗ dutyTok ER (barCell (yb c)) 0 1 ∗ dutyTok ER (barCell (zb c)) 0 2)
      ∗ sepL ([12, 13, 14, 15].map (tk (F := F) (px c) 0))
      ∗ sepL ([20, 21, 22, 23, 34, 35].map (tk (F := F) (yb c) 0))
      ∗ sepL ([28, 29, 30, 31, 38, 39].map (tk (F := F) (zb c) 0))
      ∗ sepL ([8, 9, 10, 11, 16, 17, 18, 19, 24, 25, 26, 27, 32, 33, 36, 37].map (tk (F := F) c 0))
      ∗ sepL ([0, 1, 2, 3, 4, 5, 6, 7].map (tk (F := F) c 0))
      ∗ sepL ([0, 1, 2, 3, 4, 5, 6, 7].map (tk (F := F) c 1))) := by
  unfold payToks
  rw [sepL_map_sep [0, 1, 2, 3, 4, 5, 6, 7] (tk (F := F) c 0) (tk (F := F) c 1)]

/-- The tokens dealt: a barrier cell's three to the partner, the y buddy and the z buddy; the x receive cells' to the
    partner, the y receive cells' to the y buddy, the z receive cells' to the z buddy; the rest stay. -/
theorem toks_around : (bigSep Finset.univ fun c : Dev nD => (toks c : sProp 𝕄)) ⊢ bigSep Finset.univ fun c : Dev nD => payToks c := by
  rw [bigSep_congr (s := Finset.univ) (fun (c : Dev nD) _ => payToks_eq (F := F) c)]
  unfold toks
  simp only [bigSep_sep']
  rw [bigSep_univ_equiv dealX (fun c : Dev nD => (dutyTok ER (barCell c) 0 0 : sProp 𝕄)),
    bigSep_univ_equiv dealY (fun c : Dev nD => (dutyTok ER (barCell c) 0 1 : sProp 𝕄)),
    bigSep_univ_equiv dealZ (fun c : Dev nD => (dutyTok ER (barCell c) 0 2 : sProp 𝕄)),
    bigSep_univ_equiv dealX (fun c : Dev nD => sepL ([12, 13, 14, 15].map (tk (F := F) c 0))),
    bigSep_univ_equiv dealY (fun c : Dev nD => sepL ([20, 21, 22, 23, 34, 35].map (tk (F := F) c 0))),
    bigSep_univ_equiv dealZ (fun c : Dev nD => sepL ([28, 29, 30, 31, 38, 39].map (tk (F := F) c 0)))]
  iintro ⟨⟨H0, H1, H2⟩, ⟨HX, HY, HZ, HS, HL0⟩, HL1⟩
  isplitl [H0 H1 H2]
  · isplitl [H0]; · iexact H0
    isplitl [H1]; · iexact H1
    iexact H2
  isplitl [HX]; · iexact HX
  isplitl [HY]; · iexact HY
  isplitl [HZ]; · iexact HZ
  isplitl [HS]; · iexact HS
  isplitl [HL0]; · iexact HL0
  iexact HL1

/-! ## The global step -/

/-- A device's positions at its forty-one cells, the barrier cell's first. -/
theorem positions_eq (c : Dev nD) :
    (bigSep Finset.univ fun k : Fin 41 => (atPos ER (kcell (c, k)) 0 ∅ 0 : sProp 𝕄)) = positions c := by
  refine (bigSep_kcell c (fun g => (atPos ER g 0 ∅ 0 : sProp 𝕄))).trans ?_
  rw [bigSep_fin_sepL 40]
  rfl

theorem ghost_intro (m : (ℓ : Loc nD τ sig) → Buf (Elt F) ℓ) (K : Dev nD × Fin 41 → ℕ) (c : Dev nD) :
    iprop(records m K ∗ positions c ∗ payToks c) ⊢ G' m c := by
  unfold G' ghost
  iintro H
  iexists K
  iexact H

theorem regroup (m : (ℓ : Loc nD τ sig) → Buf (Elt F) ℓ) :
    (bigSep Finset.univ fun c : Dev nD => iprop((bigSep Finset.univ fun k : Fin 41 => iprop(∃ κ : ℕ, cellInv ER (agRd m) κ (kcell (c, k))))
          ∗ (bigSep Finset.univ fun k : Fin 41 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 41 => iprop(∃ κ : ℕ, cellInv ER (agRd m) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 41 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: every device's own and unscoped semaphores at zero and its share of the launch element, into every
    device's ghost state, under one update. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.Kernel.AG.glob' depends on axioms: [propext, Classical.choice, Quot.sound] -/
#guard_msgs in #print axioms glob
/-- info: 'Cert.Kernel.AG.hu₀' depends on axioms: [propext, Classical.choice, Quot.sound] -/
#guard_msgs in #print axioms hu₀
/-- info: 'Cert.Kernel.AG.ownSemFacts' depends on axioms: [propext, Classical.choice, Quot.sound] -/
#guard_msgs in #print axioms ownSemFacts

end Cert.Kernel.AG

end
-- ==== Proof.KernelAG.Run.lean ====
/-
  The launch credit, the launch theorem's side conditions, and the run of the all-gather from its body obligation.

  What a device owes a cell is read off its list of payments: the tallies of a list at a cell are the sum of the
  payments made to that cell, and cells of different devices or different semaphores are different. A barrier cell is
  owed one unit by each of its device's three neighbours, a receive cell a chunk's credit by the one device that copies
  into it; the neighbour maps are involutions, so "d pays c's cell" reads either way round. Summed over all devices
  that is the launch credit: three units on the barrier cell, a chunk's credit on each of the sixteen receive cells.

  From that credit, the level facts, the two arrays whole (the argument as launched, the result at any contents) and
  the ghost state of the global step a device has what its body starts from; with the staging buffer that is the
  invariant before the point; after the point the invariant gives back the two arrays whole, the forty semaphores at
  zero and the staging buffer. There is no window, so the pipeline itself waits on nothing. The run then reads the two
  whole arrays against the final state.
-/
import proofs.«900686_g7700000000000687_dist_ag_v7x_xyz2x4x4_x_m16384_n1024_f32_1_alg».proof.Proof.KernelAG.Fund
import proofs.«900686_g7700000000000687_dist_ag_v7x_xyz2x4x4_x_m16384_n1024_f32_1_alg».proof.Proof.KernelAG.Topo

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells apart -/

theorem run_bar_eq {a b : Dev nD} : barCell a = barCell b ↔ a = b :=
  ⟨fun h => Fin.ext (congrArg (fun g : GSem nD τ sig => g.1.1.val) h), fun h => h ▸ rfl⟩

theorem run_cell_eq {a b : Dev nD} {n n' : ℕ} {h : n < 40} {h' : n' < 40} :
    cell a n h = cell b n' h' ↔ a = b ∧ n = n' :=
  ⟨fun e => ⟨Fin.ext (congrArg (fun g : GSem nD τ sig => g.1.1.val) e), by
      have e2 : (SemLoc.dma (ds n h) : SemLoc sig) = SemLoc.dma (ds n' h') := congrArg Prod.snd e
      exact congrArg Fin.val (SemLoc.dma.inj e2)⟩,
    fun ⟨e1, e2⟩ => by subst e1; subst e2; rfl⟩

theorem run_bar_ne_cell {a b : Dev nD} {n : ℕ} {h : n < 40} : barCell a ≠ cell b n h := fun e => by
  have e2 : (SemLoc.reg barS : SemLoc sig) = SemLoc.dma (ds n h) := congrArg Prod.snd e
  cases e2

theorem run_cell_ne_bar {a b : Dev nD} {n : ℕ} {h : n < 40} : cell b n h ≠ barCell a := fun e => run_bar_ne_cell e.symm

/-! ## The involutions, as swaps of an equation -/

theorem px_swap {a b : Dev nD} : a = px b ↔ b = px a := ⟨fun h => by rw [h, px_px], fun h => by rw [h, px_px]⟩
theorem yb_swap {a b : Dev nD} : a = yb b ↔ b = yb a := ⟨fun h => by rw [h, yb_yb], fun h => by rw [h, yb_yb]⟩
theorem zb_swap {a b : Dev nD} : a = zb b ↔ b = zb a := ⟨fun h => by rw [h, zb_zb], fun h => by rw [h, zb_zb]⟩

/-! ## What a device owes a cell -/

/-- The tallies of a list of payments at a cell: the sum of the payments made to that cell. -/
theorem sumT_apply (l : List (GSem nD τ sig × ℕ)) (g : GSem nD τ sig) :
    sumT l g () = (l.map fun e => if g = e.1 then e.2 else 0).sum := by
  induction l with
  | nil => rfl
  | cons a l ih =>
    rw [sumT_cons, Pi.add_apply, Finsupp.add_apply, ih, tallyAt_apply, List.map_cons, List.sum_cons, Nat.add_comm]
    congr 1
    by_cases h : g = a.1
    · rw [if_pos ⟨h, rfl⟩, if_pos h]
    · rw [if_neg (fun h' => h h'.1), if_neg h]

/-- What device d owes device c's barrier cell: a unit for each of c's three neighbours that d is. -/
theorem owed_bar (d c : Dev nD) :
    O₀ d (barCell c) () = (if d = px c then 1 else 0) + (if d = yb c then 1 else 0) + (if d = zb c then 1 else 0) := by
  unfold O₀
  rw [sumT_apply]
  simp only [owedList, List.map_cons, List.map_nil, List.sum_cons, List.sum_nil, run_bar_eq, run_bar_ne_cell, if_false, Nat.add_zero, Nat.zero_add]
  rw [if_congr (px_swap (a := c) (b := d)) rfl rfl, if_congr (yb_swap (a := c) (b := d)) rfl rfl, if_congr (zb_swap (a := c) (b := d)) rfl rfl, Nat.add_assoc]

/-- The device that pays receive cell n of device c: the partner for the x cells, the y buddy for the y and
    y-diagonal cells, the z buddy for the others. -/
def payer (c : Dev nD) (n : ℕ) : Dev nD :=
  if n < 16 then px c else if n < 24 ∨ (34 ≤ n ∧ n < 36) then yb c else zb c

theorem isRecv_cases {n : ℕ} (hr : isRecv n) :
    n = 12 ∨ n = 13 ∨ n = 14 ∨ n = 15 ∨ n = 20 ∨ n = 21 ∨ n = 22 ∨ n = 23 ∨ n = 28 ∨ n = 29 ∨ n = 30 ∨ n = 31 ∨ n = 34 ∨ n = 35 ∨ n = 38 ∨ n = 39 := by
  unfold isRecv at hr; omega

/-- What device d owes receive cell n of device c: the chunk's credit if d is the cell's payer. -/
theorem owed_recv (d c : Dev nD) (n : ℕ) (h : n < 40) (hr : isRecv n) :
    O₀ d (cell c n h) () = if d = payer c n then N else 0 := by
  unfold O₀
  rw [sumT_apply]
  rcases isRecv_cases hr with rfl | rfl | rfl | rfl | rfl | rfl | rfl | rfl | rfl | rfl | rfl | rfl | rfl | rfl | rfl | rfl <;>
    simp (config := { decide := true }) only [owedList, payer, List.map_cons, List.map_nil, List.sum_cons, List.sum_nil, run_cell_eq, run_cell_ne_bar,
      if_false, if_true, and_true, and_false, or_true, or_false, true_or, false_or, true_and, false_and, Nat.add_zero, Nat.zero_add] <;>
    first
      | exact if_congr px_swap rfl rfl
      | exact if_congr yb_swap rfl rfl
      | exact if_congr zb_swap rfl rfl

/-! ## The launch credit -/

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (px c) fun _ => 1, Finset.sum_ite_eq' Finset.univ (yb c) fun _ => 1, Finset.sum_ite_eq' Finset.univ (zb c) fun _ => 1,
    if_pos (Finset.mem_univ _), if_pos (Finset.mem_univ _), if_pos (Finset.mem_univ _)]

theorem launch_recv (c : Dev nD) (n : ℕ) (h : n < 40) (hr : isRecv n) :
    tallyOn (cell c n h) (launchCredit (Pipeline.owing O₀) 0 (cell c n h)) = (tallyAt (cell c n h) () N : CellTallies nD τ sig Unit) := by
  unfold tallyAt; refine congrArg _ (Finsupp.ext fun u => ?_); cases u
  rw [Pipeline.launchCredit_owing, Finsupp.single_eq_same, Finset.sum_congr rfl fun d _ => owed_recv d c n h hr,
    Finset.sum_ite_eq' Finset.univ (payer c n) fun _ => N, if_pos (Finset.mem_univ _)]

/-- The seventeen cells of a device that other devices pay: its barrier cell and its sixteen receive cells. -/
def credSems : List (SemLoc sig) :=
  SemLoc.reg barS :: [12, 13, 14, 15, 20, 21, 22, 23, 28, 29, 30, 31, 34, 35, 38, 39].map fun n => SemLoc.dma ⟨n % 40, Nat.mod_lt _ (by decide)⟩

theorem credSems_nodup : (credSems).Nodup := by decide

theorem cred_recv (c : Dev nD) (n : ℕ) (h : n < 40) (hr : isRecv n) :
    (cred (tallyOn (cell c n h) (launchCredit (Pipeline.owing O₀) 0 (cell c n h))) : sProp 𝕄) ⊢ cred (tallyAt (cell c n h) () N) :=
  Entails.of_eq (congrArg cred (launch_recv c n h hr))

/-- Of an assertion per cell of a device, the seventeen paid cells' can be kept. -/
theorem creds_pick (Φ : SemLoc sig → sProp 𝕄) : bigSep Finset.univ Φ ⊢ bigSepL credSems Φ := by
  rw [← bigSep_eq_bigSepL credSems credSems_nodup]
  exact bigSep_subset (Finset.subset_univ _)

theorem creds_intro (c : Dev nD) : (Pipeline.launchCred O₀ c : sProp 𝕄) ⊢ creds c := by
  unfold Pipeline.launchCred
  refine (creds_pick _).trans ?_
  unfold creds
  refine BI.sep_mono (Entails.of_eq (congrArg cred (launch_bar c))) ?_
  refine BI.sep_mono (cred_recv c 12 (by decide) (by decide)) ?_
  refine BI.sep_mono (cred_recv c 13 (by decide) (by decide)) ?_
  refine BI.sep_mono (cred_recv c 14 (by decide) (by decide)) ?_
  refine BI.sep_mono (cred_recv c 15 (by decide) (by decide)) ?_
  refine BI.sep_mono (cred_recv c 20 (by decide) (by decide)) ?_
  refine BI.sep_mono (cred_recv c 21 (by decide) (by decide)) ?_
  refine BI.sep_mono (cred_recv c 22 (by decide) (by decide)) ?_
  refine BI.sep_mono (cred_recv c 23 (by decide) (by decide)) ?_
  refine BI.sep_mono (cred_recv c 28 (by decide) (by decide)) ?_
  refine BI.sep_mono (cred_recv c 29 (by decide) (by decide)) ?_
  refine BI.sep_mono (cred_recv c 30 (by decide) (by decide)) ?_
  refine BI.sep_mono (cred_recv c 31 (by decide) (by decide)) ?_
  refine BI.sep_mono (cred_recv c 34 (by decide) (by decide)) ?_
  refine BI.sep_mono (cred_recv c 35 (by decide) (by decide)) ?_
  refine BI.sep_mono (cred_recv c 38 (by decide) (by decide)) ?_
  exact cred_recv c 39 (by decide) (by decide)

/-! ## The launch theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G' whole xin
  isplitl
  · isplitl [HG]; · iexact HG
    isplitl [Hc]; · iexact Hc
    isplitl [Hlev]; · iexact Hlev
    isplitl [Ha]; · iexact Ha
    iexists (m ((c : Thread nD τ).loc main_v1)); iexact Hv
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ whole
  iintro ⟨Hs, -, ⟨%f, Hr⟩⟩
  isplitl [Hs]; · iexact Hs
  iexists f; iexact Hr

/-- A chain over a listed index set is the chain of the listed assertions. -/
theorem run_bigSepL_eq_sepL {I : Type} (l : List I) (Φ : I → sProp 𝕄) : bigSepL l Φ = sepL (l.map Φ) := by
  induction l with
  | nil => rfl
  | cons i l ih =>
    cases l with
    | nil => rfl
    | cons j l => rw [bigSepL_cons_cons, ih]; rfl

/-- The kernel's own forty semaphores at zero, as the chain the body ends with. -/
theorem run_ownSems0_eq (c : Dev nD) :
    (Pipeline.ownSems0 (Ix := Unit) (Name := ℕ) (U := UU) (Lvl := ℕ) (Val := Elt F) (τ := τ) osem c : sProp 𝕄)
      = sepL ((List.finRange 40).map fun n => semVal (cell c n.val n.isLt) 0) := by
  rw [← run_bigSepL_eq_sepL]
  exact bigSep_univ_eq_bigSepL (List.finRange 40)
    (Finset.eq_univ_iff_forall.mpr fun x => List.mem_toFinset.mpr (List.mem_finRange x)).symm (List.nodup_finRange 40) _

theorem phi1_exit (m : (ℓ : Loc nD τ sig) → Buf (Elt F) ℓ) (c : Dev nD) :
    (dats m 0 c).Φ (Fin.last cfg0.N)
      ⊢ iprop((whole c main_arg0 (xin m c) ∗ whole c main_v1 (target m c)) ∗ Pipeline.ownSems0 osem c ∗ Pipeline.scopedRest cfg0.spec c) := by
  rw [show (dats m 0 c).Φ (Fin.last cfg0.N) = Φ₁ m c from rfl, scopedRest0_eq, run_ownSems0_eq]
  unfold Φ₁
  iintro ⟨Ha, Hv, ⟨%f, Hr⟩, Hz⟩
  isplitl [Ha Hv]
  · isplitl [Ha] <;> iassumption
  isplitl [Hz]; · iexact Hz
  iexists f; unfold whole; iexact Hr

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

/-! ## The run -/

/-- Both whole arrays read against the state at the end. -/
theorem read_end (m : (ℓ : Loc nD τ sig) → Buf (Elt F) ℓ) (c : Dev nD) (s' : Phys nD τ sig (Elt F)) :
    iprop(iprop(whole c main_arg0 (xin m c) ∗ whole c main_v1 (target m c)) ∗ iprop(emp) ∗ SI s')
      ⊢ |={Set.univ}=> iprop(⌜s'.mem.mem ((c : Thread nD τ).loc main_v1) = target m c ∧ s'.mem.mem ((c : Thread nD τ).loc main_arg0) = xin m c⌝ ∗ SI s') := by
  unfold whole
  iintro ⟨⟨Hx, Hy⟩, -, HSI⟩
  icombine HSI Hx gives %hx
  icombine HSI Hy gives %hy
  imodintro
  isplitr; · ipureintro; exact ⟨Buf.eq_of_forall_mem_univ hy, Buf.eq_of_forall_mem_univ hx⟩
  iexact HSI

set_option maxRecDepth 8000 in
/-- At the compiled mesh of thirty-two devices, for any float values, from any memory with zero counters: if every
    device's body meets its obligation, every weakly fair execution of @main terminates, and every final state has each
    device's result array holding the whole gathered array and its argument array what it held. -/
theorem run_main (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = target m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := fun c => iprop(whole c main_arg0 (xin m c) ∗ whole c main_v1 (target m c))) (Z := fun _ => iprop(emp))
    (hX := start_intro m ρ) (hin := phi0_intro m) (hout := phi1_exit m)
    (QY := fun c s => s.mem ((c : Thread nD τ).loc main_v1) = target m c ∧ s.mem ((c : Thread nD τ).loc main_arg0) = xin m c)
    (hY := fun c s' => read_end m c s')
    (hQ := fun _ h c => (h c).2.2)

/-- info: 'Cert.Kernel.AG.run_main' depends on axioms: [propext, Classical.choice, Quot.sound] -/
#guard_msgs in #print axioms run_main

end Cert.Kernel.AG

end
-- ==== Proof.KernelAG.Geom.lean ====
/-
  Cutting and joining buffers by rows, and the body's slices in canonical spelling.

  Every copy of the all-gather moves whole rows, so every piece of a buffer that changes hands is a band of
  consecutive rows. A band of n + m rows is the disjoint union of its first n and its last m; folding this along the
  rows cuts the argument into its quarter's four chunks, the result into the eight chunks of the device's own half and
  the sixteen of the other, and the staging buffer into its four slots. The slices the body takes, at the row offsets
  it computes word by word, are the slices at these bands.
-/
import proofs.«900686_g7700000000000687_dist_ag_v7x_xyz2x4x4_x_m16384_n1024_f32_1_alg».proof.Proof.KernelAG.Proto
import proofs.«900686_g7700000000000687_dist_ag_v7x_xyz2x4x4_x_m16384_n1024_f32_1_alg».proof.Proof.KernelAG.Topo

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Holding rows: values off the rows do not matter, and a full share is two halves -/

theorem pts_congr (c : Dev nD) (b : Ref sig .tc) (Rr : Rect b.ty.shape) (q : PosShare TreeShare)
    (f g : Buf (Elt F) ((c : Thread nD τ).loc b)) (h : ∀ i ∈ Rr.set, f i = g i) :
    pts c b Rr q f = pts c b Rr q g := by
  unfold pts; exact pointsTo_congr h

theorem pts_half (c : Dev nD) (b : Ref sig .tc) (Rr : Rect b.ty.shape) (f : Buf (Elt F) ((c : Thread nD τ).loc b)) :
    pts c b Rr fullShare f ⊣⊢ iprop(pts c b Rr fullShare.left f ∗ pts c b Rr fullShare.right f) := by
  unfold pts; exact pointsTo_share (PosShare.mem_left_op_right fullShare)

/-- Rows that are the disjoint union of two sets of rows are held as the two are. -/
theorem pts_cut (c : Dev nD) (b : Ref sig .tc) (K I J : Rect b.ty.shape) (q : PosShare TreeShare)
    (f : Buf (Elt F) ((c : Thread nD τ).loc b))
    (hK : ∀ i, i ∈ K.set ↔ i ∈ I.set ∨ i ∈ J.set) (hd : ∀ i, i ∈ I.set → i ∈ J.set → False) :
    pts c b K q f ⊣⊢ iprop(pts c b I q f ∗ pts c b J q f) := by
  have e : K.set = I.set ∪ J.set := by
    ext i; rw [Finset.mem_union]; exact hK i
  unfold pts; rw [e]
  exact pointsTo_union (Finset.disjoint_left.mpr fun i hi hj => hd i hi hj)

/-! ## Bands of rows

A band is the rows [a, a + n) of a two-dimensional array, every column. A row index lies in it when it lies in that
interval; so a band of n + m rows is its first n rows and its last m, and two bands that do not meet are disjoint: all
of it arithmetic on the row index. -/

/-- Rows [a, a + n) of an R × C array. -/
def band {R C : ℕ} (a n : ℕ) (h : a + n ≤ R) : Rect (⟨2, ![R, C]⟩ : Shape) :=
  Rect.unit (s := ⟨2, ![R, C]⟩) ![a, 0] (⟨2, ![n, C]⟩ : Shape).size (inb2 h)

theorem mem_band {R C a n : ℕ} {h : a + n ≤ R} {i : (⟨2, ![R, C]⟩ : Shape).Idx} :
    i ∈ (band (C := C) a n h).set ↔ a ≤ (i 0).val ∧ (i 0).val < a + n := by
  unfold band
  rw [Rect.mem_set_unit]
  have h1 : (i 1).val < C := (i 1).isLt
  constructor
  · intro hh; exact hh 0
  · intro hh
    exact Fin.forall_fin_two.mpr ⟨hh, Nat.zero_le _, (by show (i 1).val < 0 + C; omega)⟩

/-- Rows [a, a + n) of the result array. -/
abbrev bandO (a n : ℕ) (h : a + n ≤ 32768) : Rect S32768x1024 := band (R := 32768) (C := 1024) a n h
/-- Rows [a, a + n) of the argument array. -/
abbrev bandX (a n : ℕ) (h : a + n ≤ 16384) : Rect S16384x1024 := band (R := 16384) (C := 1024) a n h

theorem mem_bandO {a n : ℕ} {h : a + n ≤ 32768} {i : S32768x1024.Idx} :
    i ∈ (bandO a n h).set ↔ a ≤ (i 0).val ∧ (i 0).val < a + n := mem_band
theorem mem_bandX {a n : ℕ} {h : a + n ≤ 16384} {i : S16384x1024.Idx} :
    i ∈ (bandX a n h).set ↔ a ≤ (i 0).val ∧ (i 0).val < a + n := mem_band

theorem mem_oCh (c : Dev nD) (Q k : Fin 4) (i : S32768x1024.Idx) :
    i ∈ (oCh c Q k).set ↔ 16384 * (1 - c.val / 16) + 4096 * Q.val + 1024 * k.val ≤ (i 0).val
      ∧ (i 0).val < 16384 * (1 - c.val / 16) + 4096 * Q.val + 1024 * k.val + 1024 :=
  mem_band (R := 32768) (C := 1024) (a := 16384 * (1 - c.val / 16) + 4096 * Q.val + 1024 * k.val) (n := 1024)
    (h := by have := Q.isLt; have := k.isLt; omega)
theorem mem_oOwn (c : Dev nD) (j : Fin 8) (i : S32768x1024.Idx) :
    i ∈ (oOwn c j).set ↔ 16384 * (c.val / 16) + 2048 * j.val ≤ (i 0).val
      ∧ (i 0).val < 16384 * (c.val / 16) + 2048 * j.val + 2048 :=
  mem_band (R := 32768) (C := 1024) (a := 16384 * (c.val / 16) + 2048 * j.val) (n := 2048)
    (h := by have hc : c.val < 32 := c.isLt; have := j.isLt; omega)
theorem mem_xCh (Q k : Fin 4) (i : S16384x1024.Idx) :
    i ∈ (xCh Q k).set ↔ 4096 * Q.val + 1024 * k.val ≤ (i 0).val ∧ (i 0).val < 4096 * Q.val + 1024 * k.val + 1024 :=
  mem_band (R := 16384) (C := 1024) (a := 4096 * Q.val + 1024 * k.val) (n := 1024)
    (h := by have := Q.isLt; have := k.isLt; omega)
theorem mem_xLd (j : Fin 8) (i : S16384x1024.Idx) :
    i ∈ (xLd j).set ↔ 2048 * j.val ≤ (i 0).val ∧ (i 0).val < 2048 * j.val + 2048 :=
  mem_band (R := 16384) (C := 1024) (a := 2048 * j.val) (n := 2048) (h := by have := j.isLt; omega)

/-- A whole result array is its rows [0, 32768). -/
theorem whole_v1 (c : Dev nD) (f : Buf (Elt F) ((c : Thread nD τ).loc main_v1)) :
    whole c main_v1 f = pts c main_v1 (bandO 0 32768 (Nat.le_refl _)) fullShare f := by
  have e : (bandO 0 32768 (Nat.le_refl _)).set = (Finset.univ : Finset (Idx ((c : Thread nD τ).loc main_v1))) := by
    ext i
    have h0 : (i 0).val < 32768 := (i 0).isLt
    rw [mem_bandO]
    simp only [Finset.mem_univ, iff_true]
    omega
  unfold whole pts; rw [e]

/-- A whole argument array is its rows [0, 16384). -/
theorem whole_arg0 (c : Dev nD) (f : Buf (Elt F) ((c : Thread nD τ).loc main_arg0)) :
    whole c main_arg0 f = pts c main_arg0 (bandX 0 16384 (Nat.le_refl _)) fullShare f := by
  have e : (bandX 0 16384 (Nat.le_refl _)).set = (Finset.univ : Finset (Idx ((c : Thread nD τ).loc main_arg0))) := by
    ext i
    have h0 : (i 0).val < 16384 := (i 0).isLt
    rw [mem_bandX]
    simp only [Finset.mem_univ, iff_true]
    omega
  unfold whole pts; rw [e]

/-- `pts_cut` for the result array, the argument array and the staging buffer, over their own index types. -/
theorem cut1 (c : Dev nD) (K I J : Rect S32768x1024) (q : PosShare TreeShare)
    (f : Buf (Elt F) ((c : Thread nD τ).loc main_v1))
    (hK : ∀ i : S32768x1024.Idx, i ∈ K.set ↔ i ∈ I.set ∨ i ∈ J.set)
    (hd : ∀ i : S32768x1024.Idx, i ∈ I.set → i ∈ J.set → False) :
    pts c main_v1 K q f ⊣⊢ iprop(pts c main_v1 I q f ∗ pts c main_v1 J q f) := pts_cut c main_v1 K I J q f hK hd
theorem cut0 (c : Dev nD) (K I J : Rect S16384x1024) (q : PosShare TreeShare)
    (f : Buf (Elt F) ((c : Thread nD τ).loc main_arg0))
    (hK : ∀ i : S16384x1024.Idx, i ∈ K.set ↔ i ∈ I.set ∨ i ∈ J.set)
    (hd : ∀ i : S16384x1024.Idx, i ∈ I.set → i ∈ J.set → False) :
    pts c main_arg0 K q f ⊣⊢ iprop(pts c main_arg0 I q f ∗ pts c main_arg0 J q f) := pts_cut c main_arg0 K I J q f hK hd
theorem cutV (c : Dev nD) (K I J : Rect S4x2048x1024) (q : PosShare TreeShare)
    (f : Buf (Elt F) ((c : Thread nD τ).loc cc0_scratch0))
    (hK : ∀ i : S4x2048x1024.Idx, i ∈ K.set ↔ i ∈ I.set ∨ i ∈ J.set)
    (hd : ∀ i : S4x2048x1024.Idx, i ∈ I.set → i ∈ J.set → False) :
    pts c cc0_scratch0 K q f ⊣⊢ iprop(pts c cc0_scratch0 I q f ∗ pts c cc0_scratch0 J q f) :=
  pts_cut c cc0_scratch0 K I J q f hK hd

/-! ## The result array: its own half in eight chunks, the other half in four quarters of four chunks -/

/-- The rows of quarter `Q` of the other half of device `c`'s result. -/
def quarterBand (c : Dev nD) (Q : Fin 4) : Rect S32768x1024 :=
  bandO (16384 * (1 - c.val / 16) + 4096 * Q.val) 4096 (by have := c.isLt; have := Q.isLt; omega)

theorem mem_quarterBand (c : Dev nD) (Q : Fin 4) (i : S32768x1024.Idx) :
    i ∈ (quarterBand c Q).set ↔ 16384 * (1 - c.val / 16) + 4096 * Q.val ≤ (i 0).val ∧ (i 0).val < 16384 * (1 - c.val / 16) + 4096 * Q.val + 4096 :=
  mem_bandO (h := by have := Q.isLt; omega)

/-- The four chunks of quarter `Q` of the other half of device `c`'s result, held at share `q`. -/
def chunks (c : Dev nD) (Q : Fin 4) (q : PosShare TreeShare) (f : Buf (Elt F) ((c : Thread nD τ).loc main_v1)) : sProp 𝕄 :=
  iprop(pts c main_v1 (oCh c Q 0) q f ∗ pts c main_v1 (oCh c Q 1) q f ∗ pts c main_v1 (oCh c Q 2) q f ∗ pts c main_v1 (oCh c Q 3) q f)

/-- The device's own half of its result is its eight chunks. -/
theorem own_cut (c : Dev nD) (q : PosShare TreeShare) (f : Buf (Elt F) ((c : Thread nD τ).loc main_v1))
    (h : 16384 * (c.val / 16) + 16384 ≤ 32768) :
    pts c main_v1 (bandO (16384 * (c.val / 16)) 16384 h) q f ⊣⊢
      iprop(pts c main_v1 (oOwn c 0) q f ∗ pts c main_v1 (oOwn c 1) q f ∗ pts c main_v1 (oOwn c 2) q f ∗ pts c main_v1 (oOwn c 3) q f ∗ pts c main_v1 (oOwn c 4) q f ∗ pts c main_v1 (oOwn c 5) q f ∗ pts c main_v1 (oOwn c 6) q f ∗ pts c main_v1 (oOwn c 7) q f) := by
  have hc : c.val < 32 := c.isLt
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  refine (cut1 c (bandO (16384 * (c.val / 16)) 16384 h) (oOwn c 0) (bandO (16384 * (c.val / 16) + 2048) 14336 (by omega)) q f ?_ ?_).trans (sep_congr_right ?_)
  · intro i; simp only [mem_oOwn, mem_bandO]; omega
  · intro i; simp only [mem_oOwn, mem_bandO]; omega
  refine (cut1 c (bandO (16384 * (c.val / 16) + 2048) 14336 (by omega)) (oOwn c 1) (bandO (16384 * (c.val / 16) + 4096) 12288 (by omega)) q f ?_ ?_).trans (sep_congr_right ?_)
  · intro i; simp only [mem_oOwn, mem_bandO]; omega
  · intro i; simp only [mem_oOwn, mem_bandO]; omega
  refine (cut1 c (bandO (16384 * (c.val / 16) + 4096) 12288 (by omega)) (oOwn c 2) (bandO (16384 * (c.val / 16) + 6144) 10240 (by omega)) q f ?_ ?_).trans (sep_congr_right ?_)
  · intro i; simp only [mem_oOwn, mem_bandO]; omega
  · intro i; simp only [mem_oOwn, mem_bandO]; omega
  refine (cut1 c (bandO (16384 * (c.val / 16) + 6144) 10240 (by omega)) (oOwn c 3) (bandO (16384 * (c.val / 16) + 8192) 8192 (by omega)) q f ?_ ?_).trans (sep_congr_right ?_)
  · intro i; simp only [mem_oOwn, mem_bandO]; omega
  · intro i; simp only [mem_oOwn, mem_bandO]; omega
  refine (cut1 c (bandO (16384 * (c.val / 16) + 8192) 8192 (by omega)) (oOwn c 4) (bandO (16384 * (c.val / 16) + 10240) 6144 (by omega)) q f ?_ ?_).trans (sep_congr_right ?_)
  · intro i; simp only [mem_oOwn, mem_bandO]; omega
  · intro i; simp only [mem_oOwn, mem_bandO]; omega
  refine (cut1 c (bandO (16384 * (c.val / 16) + 10240) 6144 (by omega)) (oOwn c 5) (bandO (16384 * (c.val / 16) + 12288) 4096 (by omega)) q f ?_ ?_).trans (sep_congr_right ?_)
  · intro i; simp only [mem_oOwn, mem_bandO]; omega
  · intro i; simp only [mem_oOwn, mem_bandO]; omega
  refine cut1 c (bandO (16384 * (c.val / 16) + 12288) 4096 (by omega)) (oOwn c 6) (oOwn c 7) q f ?_ ?_
  · intro i; simp only [mem_oOwn, mem_bandO]; omega
  · intro i; simp only [mem_oOwn, mem_bandO]; omega

/-- A quarter of the other half is its four chunks. -/
theorem chunks_cut (c : Dev nD) (Q : Fin 4) (q : PosShare TreeShare) (f : Buf (Elt F) ((c : Thread nD τ).loc main_v1)) :
    pts c main_v1 (quarterBand c Q) q f ⊣⊢ chunks c Q q f := by
  have hc : c.val < 32 := c.isLt
  have hQ : Q.val < 4 := Q.isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  unfold chunks
  refine (cut1 c (quarterBand c Q) (oCh c Q 0) (bandO (16384 * (1 - c.val / 16) + 4096 * Q.val + 1024) 3072 (by omega)) q f ?_ ?_).trans (sep_congr_right ?_)
  · intro i; simp only [mem_oCh, mem_bandO, mem_quarterBand]; omega
  · intro i; simp only [mem_oCh, mem_bandO, mem_quarterBand]; omega
  refine (cut1 c (bandO (16384 * (1 - c.val / 16) + 4096 * Q.val + 1024) 3072 (by omega)) (oCh c Q 1) (bandO (16384 * (1 - c.val / 16) + 4096 * Q.val + 2048) 2048 (by omega)) q f ?_ ?_).trans (sep_congr_right ?_)
  · intro i; simp only [mem_oCh, mem_bandO, mem_quarterBand]; omega
  · intro i; simp only [mem_oCh, mem_bandO, mem_quarterBand]; omega
  refine cut1 c (bandO (16384 * (1 - c.val / 16) + 4096 * Q.val + 2048) 2048 (by omega)) (oCh c Q 2) (oCh c Q 3) q f ?_ ?_
  · intro i; simp only [mem_oCh, mem_bandO, mem_quarterBand]; omega
  · intro i; simp only [mem_oCh, mem_bandO, mem_quarterBand]; omega

/-- The other half is its four quarters. -/
theorem quarters_cut (c : Dev nD) (q : PosShare TreeShare) (f : Buf (Elt F) ((c : Thread nD τ).loc main_v1))
    (h : 16384 * (1 - c.val / 16) + 16384 ≤ 32768) :
    pts c main_v1 (bandO (16384 * (1 - c.val / 16)) 16384 h) q f ⊣⊢
      iprop(pts c main_v1 (quarterBand c 0) q f ∗ pts c main_v1 (quarterBand c 1) q f ∗ pts c main_v1 (quarterBand c 2) q f ∗ pts c main_v1 (quarterBand c 3) q f) := by
  have hc : c.val < 32 := c.isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  refine (cut1 c (bandO (16384 * (1 - c.val / 16)) 16384 h) (quarterBand c 0) (bandO (16384 * (1 - c.val / 16) + 4096) 12288 (by omega)) q f ?_ ?_).trans (sep_congr_right ?_)
  · intro i; simp only [mem_quarterBand, mem_bandO]; omega
  · intro i; simp only [mem_quarterBand, mem_bandO]; omega
  refine (cut1 c (bandO (16384 * (1 - c.val / 16) + 4096) 12288 (by omega)) (quarterBand c 1) (bandO (16384 * (1 - c.val / 16) + 8192) 8192 (by omega)) q f ?_ ?_).trans (sep_congr_right ?_)
  · intro i; simp only [mem_quarterBand, mem_bandO]; omega
  · intro i; simp only [mem_quarterBand, mem_bandO]; omega
  refine cut1 c (bandO (16384 * (1 - c.val / 16) + 8192) 8192 (by omega)) (quarterBand c 2) (quarterBand c 3) q f ?_ ?_
  · intro i; simp only [mem_quarterBand, mem_bandO]; omega
  · intro i; simp only [mem_quarterBand, mem_bandO]; omega

/-- The other half is its sixteen chunks, quarter by quarter. -/
theorem other_cut (c : Dev nD) (q : PosShare TreeShare) (f : Buf (Elt F) ((c : Thread nD τ).loc main_v1))
    (h : 16384 * (1 - c.val / 16) + 16384 ≤ 32768) :
    pts c main_v1 (bandO (16384 * (1 - c.val / 16)) 16384 h) q f ⊣⊢
      iprop(chunks c 0 q f ∗ chunks c 1 q f ∗ chunks c 2 q f ∗ chunks c 3 q f) :=
  (quarters_cut c q f h).trans
    (sep_congr (chunks_cut c 0 q f) (sep_congr (chunks_cut c 1 q f) (sep_congr (chunks_cut c 2 q f) (chunks_cut c 3 q f))))

/-! ## The four quarters of a group of four

The quarters of a device, its y buddy, its z buddy and the diagonal are 0, 1, 2, 3 in one of four orders, by the low
bits of its y and z. -/

theorem quarters_perm : ∀ c : Dev nD,
    (qF c, qF (yb c), qF (zb c), qF (yb (zb c))) = ((0, 2, 1, 3) : Fin 4 × Fin 4 × Fin 4 × Fin 4)
    ∨ (qF c, qF (yb c), qF (zb c), qF (yb (zb c))) = ((1, 3, 0, 2) : Fin 4 × Fin 4 × Fin 4 × Fin 4)
    ∨ (qF c, qF (yb c), qF (zb c), qF (yb (zb c))) = ((2, 0, 3, 1) : Fin 4 × Fin 4 × Fin 4 × Fin 4)
    ∨ (qF c, qF (yb c), qF (zb c), qF (yb (zb c))) = ((3, 1, 2, 0) : Fin 4 × Fin 4 × Fin 4 × Fin 4) := by
  decide +kernel

/-- Four assertions indexed by the quarters, listed in one of those four orders. -/
theorem sep4_perm (G : Fin 4 → sProp 𝕄) (a b c d : Fin 4)
    (h : (a, b, c, d) = ((0, 2, 1, 3) : Fin 4 × Fin 4 × Fin 4 × Fin 4)
      ∨ (a, b, c, d) = ((1, 3, 0, 2) : Fin 4 × Fin 4 × Fin 4 × Fin 4)
      ∨ (a, b, c, d) = ((2, 0, 3, 1) : Fin 4 × Fin 4 × Fin 4 × Fin 4)
      ∨ (a, b, c, d) = ((3, 1, 2, 0) : Fin 4 × Fin 4 × Fin 4 × Fin 4)) :
    iprop(G 0 ∗ G 1 ∗ G 2 ∗ G 3) ⊣⊢ iprop(G a ∗ G b ∗ G c ∗ G d) := by
  rcases h with h | h | h | h
  · obtain ⟨rfl, rfl, rfl, rfl⟩ : a = 0 ∧ b = 2 ∧ c = 1 ∧ d = 3 := by simpa using h
    exact sep_congr_right sep_left_comm
  · obtain ⟨rfl, rfl, rfl, rfl⟩ : a = 1 ∧ b = 3 ∧ c = 0 ∧ d = 2 := by simpa using h
    exact sep_left_comm.trans (sep_congr_right (sep_assoc.symm.trans sep_comm))
  · obtain ⟨rfl, rfl, rfl, rfl⟩ : a = 2 ∧ b = 0 ∧ c = 3 ∧ d = 1 := by simpa using h
    exact (sep_congr_right sep_left_comm).trans (sep_left_comm.trans (sep_congr_right (sep_congr_right sep_comm)))
  · obtain ⟨rfl, rfl, rfl, rfl⟩ : a = 3 ∧ b = 1 ∧ c = 2 ∧ d = 0 := by simpa using h
    exact (sep_congr_right (sep_assoc.symm.trans sep_comm)).trans
      (sep_left_comm.trans (sep_congr_right (sep_comm.trans sep_assoc)))

/-- A whole result array: the eight chunks of the device's own half; then the quarter it fetches, its y buddy's, its z
    buddy's, and the diagonal's in two halves. -/
theorem out_split (c : Dev nD) (f : Buf (Elt F) ((c : Thread nD τ).loc main_v1)) :
    whole c main_v1 f ⊣⊢ iprop(
      (pts c main_v1 (oOwn c 0) fullShare f ∗ pts c main_v1 (oOwn c 1) fullShare f ∗ pts c main_v1 (oOwn c 2) fullShare f ∗ pts c main_v1 (oOwn c 3) fullShare f ∗ pts c main_v1 (oOwn c 4) fullShare f ∗ pts c main_v1 (oOwn c 5) fullShare f ∗ pts c main_v1 (oOwn c 6) fullShare f ∗ pts c main_v1 (oOwn c 7) fullShare f)
      ∗ (pts c main_v1 (oCh c (qF c) 0) fullShare f ∗ pts c main_v1 (oCh c (qF c) 1) fullShare f ∗ pts c main_v1 (oCh c (qF c) 2) fullShare f ∗ pts c main_v1 (oCh c (qF c) 3) fullShare f)
      ∗ (pts c main_v1 (oCh c (qF (yb c)) 0) fullShare f ∗ pts c main_v1 (oCh c (qF (yb c)) 1) fullShare f ∗ pts c main_v1 (oCh c (qF (yb c)) 2) fullShare f ∗ pts c main_v1 (oCh c (qF (yb c)) 3) fullShare f)
      ∗ (pts c main_v1 (oCh c (qF (zb c)) 0) fullShare f ∗ pts c main_v1 (oCh c (qF (zb c)) 1) fullShare f ∗ pts c main_v1 (oCh c (qF (zb c)) 2) fullShare f ∗ pts c main_v1 (oCh c (qF (zb c)) 3) fullShare f)
      ∗ (pts c main_v1 (oCh c (qF (zb (yb c))) 0) fullShare f ∗ pts c main_v1 (oCh c (qF (zb (yb c))) 1) fullShare f)
      ∗ (pts c main_v1 (oCh c (qF (yb (zb c))) 2) fullShare f ∗ pts c main_v1 (oCh c (qF (yb (zb c))) 3) fullShare f)) := by
  have hc : c.val < 32 := c.isLt
  have e : qF (zb (yb c)) = qF (yb (zb c)) := by rw [yb_zb]
  rw [e, whole_v1]
  have h1 : pts c main_v1 (bandO 0 32768 (Nat.le_refl _)) fullShare f ⊣⊢
      iprop(pts c main_v1 (bandO (16384 * (c.val / 16)) 16384 (by omega)) fullShare f ∗ pts c main_v1 (bandO (16384 * (1 - c.val / 16)) 16384 (by omega)) fullShare f) :=
    cut1 c _ _ _ fullShare f (by intro i; simp only [mem_bandO]; omega) (by intro i; simp only [mem_bandO]; omega)
  refine h1.trans (sep_congr (own_cut c fullShare f _) ?_)
  refine (other_cut c fullShare f _).trans ?_
  refine (sep4_perm (fun Q => chunks c Q fullShare f) _ _ _ _ (quarters_perm c)).trans ?_
  exact sep_congr_right (sep_congr_right (sep_congr_right sep_assoc.symm))

/-! ## The argument array: the quarter the partner fetches, the rest, and the eight chunks the device loads -/

/-- The rows of the quarter of its argument that device `c` sends across x. -/
def xQuarter (c : Dev nD) : Rect S16384x1024 :=
  bandX (4096 * (qF c).val) 4096 (by have := (qF c).isLt; omega)

theorem mem_xQuarter (c : Dev nD) (i : S16384x1024.Idx) :
    i ∈ (xQuarter c).set ↔ 4096 * (qF c).val ≤ (i 0).val ∧ (i 0).val < 4096 * (qF c).val + 4096 :=
  mem_bandX (h := by have := (qF c).isLt; omega)

/-- The left share of the rows of the argument outside the quarter sent across x: carried along, and joined back. -/
def xRest (c : Dev nD) (f : Buf (Elt F) ((c : Thread nD τ).loc main_arg0)) : sProp 𝕄 :=
  ((c : Thread nD τ).loc main_arg0) ↦[Finset.univ \ (xQuarter c).set]{fullShare.left} f

/-- The quarter sent across x is its four chunks. -/
theorem xq_cut (c : Dev nD) (q : PosShare TreeShare) (f : Buf (Elt F) ((c : Thread nD τ).loc main_arg0)) :
    pts c main_arg0 (xQuarter c) q f ⊣⊢
      iprop(pts c main_arg0 (xCh (qF c) 0) q f ∗ pts c main_arg0 (xCh (qF c) 1) q f ∗ pts c main_arg0 (xCh (qF c) 2) q f ∗ pts c main_arg0 (xCh (qF c) 3) q f) := by
  have hQ : (qF c).val < 4 := (qF c).isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  refine (cut0 c (xQuarter c) (xCh (qF c) 0) (bandX (4096 * (qF c).val + 1024) 3072 (by omega)) q f ?_ ?_).trans (sep_congr_right ?_)
  · intro i; simp only [mem_xCh, mem_bandX, mem_xQuarter]; omega
  · intro i; simp only [mem_xCh, mem_bandX, mem_xQuarter]; omega
  refine (cut0 c (bandX (4096 * (qF c).val + 1024) 3072 (by omega)) (xCh (qF c) 1) (bandX (4096 * (qF c).val + 2048) 2048 (by omega)) q f ?_ ?_).trans (sep_congr_right ?_)
  · intro i; simp only [mem_xCh, mem_bandX, mem_xQuarter]; omega
  · intro i; simp only [mem_xCh, mem_bandX, mem_xQuarter]; omega
  refine cut0 c (bandX (4096 * (qF c).val + 2048) 2048 (by omega)) (xCh (qF c) 2) (xCh (qF c) 3) q f ?_ ?_
  · intro i; simp only [mem_xCh, mem_bandX, mem_xQuarter]; omega
  · intro i; simp only [mem_xCh, mem_bandX, mem_xQuarter]; omega

/-- The argument is its eight chunks of 2048 rows. -/
theorem xld_cut (c : Dev nD) (q : PosShare TreeShare) (f : Buf (Elt F) ((c : Thread nD τ).loc main_arg0)) :
    pts c main_arg0 (bandX 0 16384 (Nat.le_refl _)) q f ⊣⊢
      iprop(pts c main_arg0 (xLd 0) q f ∗ pts c main_arg0 (xLd 1) q f ∗ pts c main_arg0 (xLd 2) q f ∗ pts c main_arg0 (xLd 3) q f ∗ pts c main_arg0 (xLd 4) q f ∗ pts c main_arg0 (xLd 5) q f ∗ pts c main_arg0 (xLd 6) q f ∗ pts c main_arg0 (xLd 7) q f) := by
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  refine (cut0 c (bandX 0 16384 (Nat.le_refl _)) (xLd 0) (bandX 2048 14336 (by omega)) q f ?_ ?_).trans (sep_congr_right ?_)
  · intro i; simp only [mem_xLd, mem_bandX]; omega
  · intro i; simp only [mem_xLd, mem_bandX]; omega
  refine (cut0 c (bandX 2048 14336 (by omega)) (xLd 1) (bandX 4096 12288 (by omega)) q f ?_ ?_).trans (sep_congr_right ?_)
  · intro i; simp only [mem_xLd, mem_bandX]; omega
  · intro i; simp only [mem_xLd, mem_bandX]; omega
  refine (cut0 c (bandX 4096 12288 (by omega)) (xLd 2) (bandX 6144 10240 (by omega)) q f ?_ ?_).trans (sep_congr_right ?_)
  · intro i; simp only [mem_xLd, mem_bandX]; omega
  · intro i; simp only [mem_xLd, mem_bandX]; omega
  refine (cut0 c (bandX 6144 10240 (by omega)) (xLd 3) (bandX 8192 8192 (by omega)) q f ?_ ?_).trans (sep_congr_right ?_)
  · intro i; simp only [mem_xLd, mem_bandX]; omega
  · intro i; simp only [mem_xLd, mem_bandX]; omega
  refine (cut0 c (bandX 8192 8192 (by omega)) (xLd 4) (bandX 10240 6144 (by omega)) q f ?_ ?_).trans (sep_congr_right ?_)
  · intro i; simp only [mem_xLd, mem_bandX]; omega
  · intro i; simp only [mem_xLd, mem_bandX]; omega
  refine (cut0 c (bandX 10240 6144 (by omega)) (xLd 5) (bandX 12288 4096 (by omega)) q f ?_ ?_).trans (sep_congr_right ?_)
  · intro i; simp only [mem_xLd, mem_bandX]; omega
  · intro i; simp only [mem_xLd, mem_bandX]; omega
  refine cut0 c (bandX 12288 4096 (by omega)) (xLd 6) (xLd 7) q f ?_ ?_
  · intro i; simp only [mem_xLd, mem_bandX]; omega
  · intro i; simp only [mem_xLd, mem_bandX]; omega

/-- The left share of the argument: the quarter sent across x, chunk by chunk, and the rest. -/
theorem xl_cut (c : Dev nD) (f : Buf (Elt F) ((c : Thread nD τ).loc main_arg0)) :
    pts c main_arg0 (bandX 0 16384 (Nat.le_refl _)) fullShare.left f ⊣⊢
      iprop((pts c main_arg0 (xCh (qF c) 0) fullShare.left f ∗ pts c main_arg0 (xCh (qF c) 1) fullShare.left f ∗ pts c main_arg0 (xCh (qF c) 2) fullShare.left f ∗ pts c main_arg0 (xCh (qF c) 3) fullShare.left f) ∗ xRest c f) := by
  have e : (bandX 0 16384 (Nat.le_refl _)).set = (Finset.univ : Finset (Idx ((c : Thread nD τ).loc main_arg0))) := by
    ext i
    have h0 : (i 0).val < 16384 := (i 0).isLt
    rw [mem_bandX]
    simp only [Finset.mem_univ, iff_true]
    omega
  have h1 : pts c main_arg0 (bandX 0 16384 (Nat.le_refl _)) fullShare.left f ⊣⊢
      iprop(pts c main_arg0 (xQuarter c) fullShare.left f ∗ xRest c f) := by
    unfold pts xRest; rw [e]
    exact pointsTo_split_subset (Finset.subset_univ _)
  exact h1.trans (sep_congr_left (xq_cut c fullShare.left f))

/-- A whole argument array: at the left share the four chunks of the quarter sent across x, and the rest; at the right
    share the eight chunks the device loads. -/
theorem x_split (c : Dev nD) (f : Buf (Elt F) ((c : Thread nD τ).loc main_arg0)) :
    whole c main_arg0 f ⊣⊢ iprop(
      (pts c main_arg0 (xCh (qF c) 0) fullShare.left f ∗ pts c main_arg0 (xCh (qF c) 1) fullShare.left f ∗ pts c main_arg0 (xCh (qF c) 2) fullShare.left f ∗ pts c main_arg0 (xCh (qF c) 3) fullShare.left f)
      ∗ xRest c f
      ∗ (pts c main_arg0 (xLd 0) fullShare.right f ∗ pts c main_arg0 (xLd 1) fullShare.right f ∗ pts c main_arg0 (xLd 2) fullShare.right f ∗ pts c main_arg0 (xLd 3) fullShare.right f ∗ pts c main_arg0 (xLd 4) fullShare.right f ∗ pts c main_arg0 (xLd 5) fullShare.right f ∗ pts c main_arg0 (xLd 6) fullShare.right f ∗ pts c main_arg0 (xLd 7) fullShare.right f)) := by
  rw [whole_arg0]
  exact ((pts_half c main_arg0 _ f).trans (sep_congr (xl_cut c f) (xld_cut c fullShare.right f))).trans sep_assoc

/-! ## The staging buffer: four slots -/

/-- Slots [a, a + n) of the staging buffer. -/
def slab (a n : ℕ) (h : a + n ≤ 4) : Rect S4x2048x1024 :=
  Rect.unit (s := S4x2048x1024) ![a, 0, 0] ![n, 2048, 1024] (by
    intro x
    match x with
    | ⟨0, _⟩ => exact h
    | ⟨1, _⟩ => show 0 + 2048 ≤ 2048; omega
    | ⟨2, _⟩ => show 0 + 1024 ≤ 1024; omega)

theorem mem_unit3 {a n : ℕ} (p : ∀ x, (![a, 0, 0] : Fin 3 → ℕ) x + (![n, 2048, 1024] : Fin 3 → ℕ) x ≤ S4x2048x1024.size x)
    (i : S4x2048x1024.Idx) :
    i ∈ (Rect.unit (s := S4x2048x1024) ![a, 0, 0] ![n, 2048, 1024] p).set ↔ a ≤ (i 0).val ∧ (i 0).val < a + n := by
  rw [Rect.mem_set_unit]
  have h1 : (i 1).val < 2048 := (i 1).isLt
  have h2 : (i 2).val < 1024 := (i 2).isLt
  constructor
  · intro hh; exact hh 0
  · intro hh x
    match x with
    | ⟨0, _⟩ => exact hh
    | ⟨1, _⟩ => exact ⟨Nat.zero_le _, (by show (i 1).val < 0 + 2048; omega)⟩
    | ⟨2, _⟩ => exact ⟨Nat.zero_le _, (by show (i 2).val < 0 + 1024; omega)⟩

theorem mem_slab {a n : ℕ} {h : a + n ≤ 4} {i : S4x2048x1024.Idx} :
    i ∈ (slab a n h).set ↔ a ≤ (i 0).val ∧ (i 0).val < a + n := by
  unfold slab; exact mem_unit3 _ i

theorem mem_vSl (s : Fin 4) (i : S4x2048x1024.Idx) :
    i ∈ (vSl s).set ↔ s.val ≤ (i 0).val ∧ (i 0).val < s.val + 1 := by
  unfold vSl; exact mem_unit3 (n := 1) _ i

/-- A whole staging buffer is its four slots. -/
theorem vbuf_split (c : Dev nD) (f : Buf (Elt F) ((c : Thread nD τ).loc cc0_scratch0)) :
    whole c cc0_scratch0 f ⊣⊢
      iprop(pts c cc0_scratch0 (vSl 0) fullShare f ∗ pts c cc0_scratch0 (vSl 1) fullShare f ∗ pts c cc0_scratch0 (vSl 2) fullShare f ∗ pts c cc0_scratch0 (vSl 3) fullShare f) := by
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  have e : (slab 0 4 (Nat.le_refl _)).set = (Finset.univ : Finset (Idx ((c : Thread nD τ).loc cc0_scratch0))) := by
    ext i
    have h0 : (i 0).val < 4 := (i 0).isLt
    rw [mem_slab]
    simp only [Finset.mem_univ, iff_true]
    omega
  have h0 : whole c cc0_scratch0 f = pts c cc0_scratch0 (slab 0 4 (Nat.le_refl _)) fullShare f := by
    unfold whole pts; rw [e]
  rw [h0]
  refine (cutV c (slab 0 4 (Nat.le_refl _)) (vSl 0) (slab 1 3 (by omega)) fullShare f ?_ ?_).trans (sep_congr_right ?_)
  · intro i; simp only [mem_vSl, mem_slab]; omega
  · intro i; simp only [mem_vSl, mem_slab]; omega
  refine (cutV c (slab 1 3 (by omega)) (vSl 1) (slab 2 2 (by omega)) fullShare f ?_ ?_).trans (sep_congr_right ?_)
  · intro i; simp only [mem_vSl, mem_slab]; omega
  · intro i; simp only [mem_vSl, mem_slab]; omega
  refine cutV c (slab 2 2 (by omega)) (vSl 2) (vSl 3) fullShare f ?_ ?_
  · intro i; simp only [mem_vSl, mem_slab]; omega
  · intro i; simp only [mem_vSl, mem_slab]; omega

/-- The four slots, each holding its own contents, are a whole staging buffer holding some contents. -/
theorem vbuf_join (m : (ℓ : Loc nD τ sig) → Buf (Elt F) ℓ) (c : Dev nD) :
    iprop(pts c cc0_scratch0 (vSl 0) fullShare (vfill m c 4) ∗ pts c cc0_scratch0 (vSl 1) fullShare (vfill m c 5)
      ∗ pts c cc0_scratch0 (vSl 2) fullShare (vfill m c 6) ∗ pts c cc0_scratch0 (vSl 3) fullShare (vfill m c 7))
      ⊢ (iprop(∃ f, whole c cc0_scratch0 f) : sProp 𝕄) := by
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  let g : Buf (Elt F) ((c : Thread nD τ).loc cc0_scratch0) := fun i => vfill m c (4 + (i 0).val) i
  have e0 : pts c cc0_scratch0 (vSl 0) fullShare (vfill m c 4) = pts c cc0_scratch0 (vSl 0) fullShare g :=
    pts_congr c cc0_scratch0 (vSl 0) fullShare _ _ fun i hi => by
      have hi' := (mem_vSl 0 i).mp hi
      have hs : (i 0).val = 0 := by omega
      show vfill m c 4 i = vfill m c (4 + (i 0).val) i
      rw [hs]
  have e1 : pts c cc0_scratch0 (vSl 1) fullShare (vfill m c 5) = pts c cc0_scratch0 (vSl 1) fullShare g :=
    pts_congr c cc0_scratch0 (vSl 1) fullShare _ _ fun i hi => by
      have hi' := (mem_vSl 1 i).mp hi
      have hs : (i 0).val = 1 := by omega
      show vfill m c 5 i = vfill m c (4 + (i 0).val) i
      rw [hs]
  have e2 : pts c cc0_scratch0 (vSl 2) fullShare (vfill m c 6) = pts c cc0_scratch0 (vSl 2) fullShare g :=
    pts_congr c cc0_scratch0 (vSl 2) fullShare _ _ fun i hi => by
      have hi' := (mem_vSl 2 i).mp hi
      have hs : (i 0).val = 2 := by omega
      show vfill m c 6 i = vfill m c (4 + (i 0).val) i
      rw [hs]
  have e3 : pts c cc0_scratch0 (vSl 3) fullShare (vfill m c 7) = pts c cc0_scratch0 (vSl 3) fullShare g :=
    pts_congr c cc0_scratch0 (vSl 3) fullShare _ _ fun i hi => by
      have hi' := (mem_vSl 3 i).mp hi
      have hs : (i 0).val = 3 := by omega
      show vfill m c 7 i = vfill m c (4 + (i 0).val) i
      rw [hs]
  rw [e0, e1, e2, e3]
  exact exists_intro_trans g (vbuf_split c g).2

/-! ## Slices of the three buffers: where they sit and what they cover

A slice of a whole buffer through a rectangle sits in that buffer and covers the rectangle's elements; squeezing the
leading axis of a staging slot changes neither. -/

@[simp] theorem view_loc_slice1 (d : Dev nD) (R : Rect S32768x1024) (hs : ∀ a, R.stride a = 1) :
    ((Memref.whole main_v1 : Memref sig .tc .hbm S32768x1024 .f32).slice R hs).view.loc (d : Thread nD τ) = (d : Thread nD τ).loc main_v1 := rfl
@[simp] theorem view_set_slice1 (R : Rect S32768x1024) (hs : ∀ a, R.stride a = 1) :
    ((Memref.whole main_v1 : Memref sig .tc .hbm S32768x1024 .f32).slice R hs).view.set = R.set := View.set_slice_whole main_v1 R
@[simp] theorem view_loc_slice0 (d : Dev nD) (R : Rect S16384x1024) (hs : ∀ a, R.stride a = 1) :
    ((Memref.whole main_arg0 : Memref sig .tc .hbm S16384x1024 .f32).slice R hs).view.loc (d : Thread nD τ) = (d : Thread nD τ).loc main_arg0 := rfl
@[simp] theorem view_set_slice0 (R : Rect S16384x1024) (hs : ∀ a, R.stride a = 1) :
    ((Memref.whole main_arg0 : Memref sig .tc .hbm S16384x1024 .f32).slice R hs).view.set = R.set := View.set_slice_whole main_arg0 R

theorem view_set_oCh (c : Dev nD) (Q k : Fin 4) :
    ((Memref.whole main_v1 : Memref sig .tc .hbm S32768x1024 .f32).slice (oCh c Q k) (fun _ => rfl)).view.set = (oCh c Q k).set := View.set_slice_whole main_v1 (oCh c Q k)
theorem view_loc_oCh (d c : Dev nD) (Q k : Fin 4) :
    ((Memref.whole main_v1 : Memref sig .tc .hbm S32768x1024 .f32).slice (oCh c Q k) (fun _ => rfl)).view.loc (d : Thread nD τ) = (d : Thread nD τ).loc main_v1 := rfl
theorem view_set_oOwn (c : Dev nD) (j : Fin 8) :
    ((Memref.whole main_v1 : Memref sig .tc .hbm S32768x1024 .f32).slice (oOwn c j) (fun _ => rfl)).view.set = (oOwn c j).set := View.set_slice_whole main_v1 (oOwn c j)
theorem view_loc_oOwn (d c : Dev nD) (j : Fin 8) :
    ((Memref.whole main_v1 : Memref sig .tc .hbm S32768x1024 .f32).slice (oOwn c j) (fun _ => rfl)).view.loc (d : Thread nD τ) = (d : Thread nD τ).loc main_v1 := rfl
theorem view_set_xCh (Q k : Fin 4) :
    ((Memref.whole main_arg0 : Memref sig .tc .hbm S16384x1024 .f32).slice (xCh Q k) (fun _ => rfl)).view.set = (xCh Q k).set := View.set_slice_whole main_arg0 (xCh Q k)
theorem view_loc_xCh (d : Dev nD) (Q k : Fin 4) :
    ((Memref.whole main_arg0 : Memref sig .tc .hbm S16384x1024 .f32).slice (xCh Q k) (fun _ => rfl)).view.loc (d : Thread nD τ) = (d : Thread nD τ).loc main_arg0 := rfl
theorem view_set_xLd (j : Fin 8) :
    ((Memref.whole main_arg0 : Memref sig .tc .hbm S16384x1024 .f32).slice (xLd j) (fun _ => rfl)).view.set = (xLd j).set := View.set_slice_whole main_arg0 (xLd j)
theorem view_loc_xLd (d : Dev nD) (j : Fin 8) :
    ((Memref.whole main_arg0 : Memref sig .tc .hbm S16384x1024 .f32).slice (xLd j) (fun _ => rfl)).view.loc (d : Thread nD τ) = (d : Thread nD τ).loc main_arg0 := rfl
theorem view_set_vSl (s : Fin 4) :
    (((Memref.whole cc0_scratch0 : Memref sig .tc .vmem S4x2048x1024 .f32).slice (vSl s) (fun _ => rfl)).squeeze S2048x1024 squeezes_S1x2048x1024_S2048x1024).view.set = (vSl s).set := by
  exact (View.set_reshape _ _).trans (View.set_slice_whole cc0_scratch0 (vSl s))
theorem view_loc_vSl (d : Dev nD) (s : Fin 4) :
    (((Memref.whole cc0_scratch0 : Memref sig .tc .vmem S4x2048x1024 .f32).slice (vSl s) (fun _ => rfl)).squeeze S2048x1024 squeezes_S1x2048x1024_S2048x1024).view.loc (d : Thread nD τ) = (d : Thread nD τ).loc cc0_scratch0 := rfl

/-- Holding what a slice of the result covers, where it sits, is holding the rectangle's rows. -/
theorem pts_slice1 (c : Dev nD) (R : Rect S32768x1024) (hs : ∀ a, R.stride a = 1) (q : PosShare TreeShare)
    (f : Buf (Elt F) ((c : Thread nD τ).loc main_v1)) :
    ((((Memref.whole main_v1 : Memref sig .tc .hbm S32768x1024 .f32).slice R hs).view.loc (c : Thread nD τ)) ↦[((Memref.whole main_v1 : Memref sig .tc .hbm S32768x1024 .f32).slice R hs).view.set]{q} f : sProp 𝕄)
      = pts c main_v1 R q f := by
  unfold pts
  exact congrArg (fun S => (((c : Thread nD τ).loc main_v1) ↦[S]{q} f : sProp 𝕄)) (view_set_slice1 R hs)
/-- The same for a slice of the argument. -/
theorem pts_slice0 (c : Dev nD) (R : Rect S16384x1024) (hs : ∀ a, R.stride a = 1) (q : PosShare TreeShare)
    (f : Buf (Elt F) ((c : Thread nD τ).loc main_arg0)) :
    ((((Memref.whole main_arg0 : Memref sig .tc .hbm S16384x1024 .f32).slice R hs).view.loc (c : Thread nD τ)) ↦[((Memref.whole main_arg0 : Memref sig .tc .hbm S16384x1024 .f32).slice R hs).view.set]{q} f : sProp 𝕄)
      = pts c main_arg0 R q f := by
  unfold pts
  exact congrArg (fun S => (((c : Thread nD τ).loc main_arg0) ↦[S]{q} f : sProp 𝕄)) (view_set_slice0 R hs)
/-- The same for a staging slot with its leading axis squeezed. -/
theorem pts_slot (c : Dev nD) (s : Fin 4) (q : PosShare TreeShare)
    (f : Buf (Elt F) ((c : Thread nD τ).loc cc0_scratch0)) :
    (((((Memref.whole cc0_scratch0 : Memref sig .tc .vmem S4x2048x1024 .f32).slice (vSl s) (fun _ => rfl)).squeeze S2048x1024 squeezes_S1x2048x1024_S2048x1024).view.loc (c : Thread nD τ)) ↦[(((Memref.whole cc0_scratch0 : Memref sig .tc .vmem S4x2048x1024 .f32).slice (vSl s) (fun _ => rfl)).squeeze S2048x1024 squeezes_S1x2048x1024_S2048x1024).view.set]{q} f : sProp 𝕄)
      = pts c cc0_scratch0 (vSl s) q f := by
  unfold pts
  exact congrArg (fun S => (((c : Thread nD τ).loc cc0_scratch0) ↦[S]{q} f : sProp 𝕄)) (view_set_vSl s)

/-! ## The body's slices in canonical spelling

The body slices its buffers at row offsets it computes word by word from the device's coordinates. Each such offset is,
in closed form, the first row of one of the chunks above; so the slice is the slice at that chunk, whatever evidence
of bounds and strides it was formed with. -/

theorem slice_off1 (c : Dev nD) (k : Fin 4)
    (p : ∀ a, (k0_off1 c (BitVec.ofNat 32 (1024 * k.val))) a + S1024x1024.size a ≤ S32768x1024.size a)
    (hs : ∀ a, (Rect.unit (s := S32768x1024) (k0_off1 c (BitVec.ofNat 32 (1024 * k.val))) S1024x1024.size p).stride a = 1) :
    (Memref.whole main_v1 : Memref sig .tc .hbm S32768x1024 .f32).slice (Rect.unit (s := S32768x1024) (k0_off1 c (BitVec.ofNat 32 (1024 * k.val))) S1024x1024.size p) hs
      = (Memref.whole main_v1 : Memref sig .tc .hbm S32768x1024 .f32).slice (oCh (px c) (qF c) k) (fun _ => rfl) := by
  have hx := x_px c
  have hc : c.val < 32 := c.isLt
  have hab : 16384 * (c.val / 16) + 4096 * qi c + 1024 * k.val
      = 16384 * (1 - (px c).val / 16) + 4096 * (qF c).val + 1024 * k.val := by
    show _ = 16384 * (1 - (px c).val / 16) + 4096 * qi c + 1024 * k.val
    omega
  have e : k0_off1 c (BitVec.ofNat 32 (1024 * k.val))
      = ![16384 * (1 - (px c).val / 16) + 4096 * (qF c).val + 1024 * k.val, 0] :=
    (off1_eq c k).trans (congrArg (fun r : ℕ => (![r, 0] : Fin 2 → ℕ)) hab)
  exact Memref.slice_unit_congr (Memref.whole main_v1 : Memref sig .tc .hbm S32768x1024 .f32) e p _ hs _

theorem slice_off1_0 (c : Dev nD)
    (p : ∀ a, (k0_off1 c 0#32) a + S1024x1024.size a ≤ S32768x1024.size a)
    (hs : ∀ a, (Rect.unit (s := S32768x1024) (k0_off1 c 0#32) S1024x1024.size p).stride a = 1) :
    (Memref.whole main_v1 : Memref sig .tc .hbm S32768x1024 .f32).slice (Rect.unit (s := S32768x1024) (k0_off1 c 0#32) S1024x1024.size p) hs
      = (Memref.whole main_v1 : Memref sig .tc .hbm S32768x1024 .f32).slice (oCh (px c) (qF c) 0) (fun _ => rfl) := slice_off1 c 0 p hs
theorem slice_off1_1 (c : Dev nD)
    (p : ∀ a, (k0_off1 c 1024#32) a + S1024x1024.size a ≤ S32768x1024.size a)
    (hs : ∀ a, (Rect.unit (s := S32768x1024) (k0_off1 c 1024#32) S1024x1024.size p).stride a = 1) :
    (Memref.whole main_v1 : Memref sig .tc .hbm S32768x1024 .f32).slice (Rect.unit (s := S32768x1024) (k0_off1 c 1024#32) S1024x1024.size p) hs
      = (Memref.whole main_v1 : Memref sig .tc .hbm S32768x1024 .f32).slice (oCh (px c) (qF c) 1) (fun _ => rfl) := slice_off1 c 1 p hs
theorem slice_off1_2 (c : Dev nD)
    (p : ∀ a, (k0_off1 c 2048#32) a + S1024x1024.size a ≤ S32768x1024.size a)
    (hs : ∀ a, (Rect.unit (s := S32768x1024) (k0_off1 c 2048#32) S1024x1024.size p).stride a = 1) :
    (Memref.whole main_v1 : Memref sig .tc .hbm S32768x1024 .f32).slice (Rect.unit (s := S32768x1024) (k0_off1 c 2048#32) S1024x1024.size p) hs
      = (Memref.whole main_v1 : Memref sig .tc .hbm S32768x1024 .f32).slice (oCh (px c) (qF c) 2) (fun _ => rfl) := slice_off1 c 2 p hs
theorem slice_off1_3 (c : Dev nD)
    (p : ∀ a, (k0_off1 c 3072#32) a + S1024x1024.size a ≤ S32768x1024.size a)
    (hs : ∀ a, (Rect.unit (s := S32768x1024) (k0_off1 c 3072#32) S1024x1024.size p).stride a = 1) :
    (Memref.whole main_v1 : Memref sig .tc .hbm S32768x1024 .f32).slice (Rect.unit (s := S32768x1024) (k0_off1 c 3072#32) S1024x1024.size p) hs
      = (Memref.whole main_v1 : Memref sig .tc .hbm S32768x1024 .f32).slice (oCh (px c) (qF c) 3) (fun _ => rfl) := slice_off1 c 3 p hs

theorem slice_off2 (c : Dev nD) (k : Fin 4)
    (p : ∀ a, (k0_off2 c (BitVec.ofNat 32 (1024 * k.val))) a + S1024x1024.size a ≤ S16384x1024.size a)
    (hs : ∀ a, (Rect.unit (s := S16384x1024) (k0_off2 c (BitVec.ofNat 32 (1024 * k.val))) S1024x1024.size p).stride a = 1) :
    (Memref.whole main_arg0 : Memref sig .tc .hbm S16384x1024 .f32).slice (Rect.unit (s := S16384x1024) (k0_off2 c (BitVec.ofNat 32 (1024 * k.val))) S1024x1024.size p) hs
      = (Memref.whole main_arg0 : Memref sig .tc .hbm S16384x1024 .f32).slice (xCh (qF c) k) (fun _ => rfl) := by
  have e : k0_off2 c (BitVec.ofNat 32 (1024 * k.val)) = ![4096 * (qF c).val + 1024 * k.val, 0] := off2_eq c k
  exact Memref.slice_unit_congr (Memref.whole main_arg0 : Memref sig .tc .hbm S16384x1024 .f32) e p _ hs _

theorem slice_off2_0 (c : Dev nD)
    (p : ∀ a, (k0_off2 c 0#32) a + S1024x1024.size a ≤ S16384x1024.size a)
    (hs : ∀ a, (Rect.unit (s := S16384x1024) (k0_off2 c 0#32) S1024x1024.size p).stride a = 1) :
    (Memref.whole main_arg0 : Memref sig .tc .hbm S16384x1024 .f32).slice (Rect.unit (s := S16384x1024) (k0_off2 c 0#32) S1024x1024.size p) hs
      = (Memref.whole main_arg0 : Memref sig .tc .hbm S16384x1024 .f32).slice (xCh (qF c) 0) (fun _ => rfl) := slice_off2 c 0 p hs
theorem slice_off2_1 (c : Dev nD)
    (p : ∀ a, (k0_off2 c 1024#32) a + S1024x1024.size a ≤ S16384x1024.size a)
    (hs : ∀ a, (Rect.unit (s := S16384x1024) (k0_off2 c 1024#32) S1024x1024.size p).stride a = 1) :
    (Memref.whole main_arg0 : Memref sig .tc .hbm S16384x1024 .f32).slice (Rect.unit (s := S16384x1024) (k0_off2 c 1024#32) S1024x1024.size p) hs
      = (Memref.whole main_arg0 : Memref sig .tc .hbm S16384x1024 .f32).slice (xCh (qF c) 1) (fun _ => rfl) := slice_off2 c 1 p hs
theorem slice_off2_2 (c : Dev nD)
    (p : ∀ a, (k0_off2 c 2048#32) a + S1024x1024.size a ≤ S16384x1024.size a)
    (hs : ∀ a, (Rect.unit (s := S16384x1024) (k0_off2 c 2048#32) S1024x1024.size p).stride a = 1) :
    (Memref.whole main_arg0 : Memref sig .tc .hbm S16384x1024 .f32).slice (Rect.unit (s := S16384x1024) (k0_off2 c 2048#32) S1024x1024.size p) hs
      = (Memref.whole main_arg0 : Memref sig .tc .hbm S16384x1024 .f32).slice (xCh (qF c) 2) (fun _ => rfl) := slice_off2 c 2 p hs
theorem slice_off2_3 (c : Dev nD)
    (p : ∀ a, (k0_off2 c 3072#32) a + S1024x1024.size a ≤ S16384x1024.size a)
    (hs : ∀ a, (Rect.unit (s := S16384x1024) (k0_off2 c 3072#32) S1024x1024.size p).stride a = 1) :
    (Memref.whole main_arg0 : Memref sig .tc .hbm S16384x1024 .f32).slice (Rect.unit (s := S16384x1024) (k0_off2 c 3072#32) S1024x1024.size p) hs
      = (Memref.whole main_arg0 : Memref sig .tc .hbm S16384x1024 .f32).slice (xCh (qF c) 3) (fun _ => rfl) := slice_off2 c 3 p hs

theorem slice_off3 (c : Dev nD) (k : Fin 4)
    (p : ∀ a, (k0_off3 c (BitVec.ofNat 32 (1024 * k.val))) a + S1024x1024.size a ≤ S32768x1024.size a)
    (hs : ∀ a, (Rect.unit (s := S32768x1024) (k0_off3 c (BitVec.ofNat 32 (1024 * k.val))) S1024x1024.size p).stride a = 1) :
    (Memref.whole main_v1 : Memref sig .tc .hbm S32768x1024 .f32).slice (Rect.unit (s := S32768x1024) (k0_off3 c (BitVec.ofNat 32 (1024 * k.val))) S1024x1024.size p) hs
      = (Memref.whole main_v1 : Memref sig .tc .hbm S32768x1024 .f32).slice (oCh c (qF c) k) (fun _ => rfl) := by
  have e : k0_off3 c (BitVec.ofNat 32 (1024 * k.val))
      = ![16384 * (1 - c.val / 16) + 4096 * (qF c).val + 1024 * k.val, 0] := off3_eq c k
  exact Memref.slice_unit_congr (Memref.whole main_v1 : Memref sig .tc .hbm S32768x1024 .f32) e p _ hs _

theorem slice_off3_0 (c : Dev nD)
    (p : ∀ a, (k0_off3 c 0#32) a + S1024x1024.size a ≤ S32768x1024.size a)
    (hs : ∀ a, (Rect.unit (s := S32768x1024) (k0_off3 c 0#32) S1024x1024.size p).stride a = 1) :
    (Memref.whole main_v1 : Memref sig .tc .hbm S32768x1024 .f32).slice (Rect.unit (s := S32768x1024) (k0_off3 c 0#32) S1024x1024.size p) hs
      = (Memref.whole main_v1 : Memref sig .tc .hbm S32768x1024 .f32).slice (oCh c (qF c) 0) (fun _ => rfl) := slice_off3 c 0 p hs
theorem slice_off3_1 (c : Dev nD)
    (p : ∀ a, (k0_off3 c 1024#32) a + S1024x1024.size a ≤ S32768x1024.size a)
    (hs : ∀ a, (Rect.unit (s := S32768x1024) (k0_off3 c 1024#32) S1024x1024.size p).stride a = 1) :
    (Memref.whole main_v1 : Memref sig .tc .hbm S32768x1024 .f32).slice (Rect.unit (s := S32768x1024) (k0_off3 c 1024#32) S1024x1024.size p) hs
      = (Memref.whole main_v1 : Memref sig .tc .hbm S32768x1024 .f32).slice (oCh c (qF c) 1) (fun _ => rfl) := slice_off3 c 1 p hs
theorem slice_off3_2 (c : Dev nD)
    (p : ∀ a, (k0_off3 c 2048#32) a + S1024x1024.size a ≤ S32768x1024.size a)
    (hs : ∀ a, (Rect.unit (s := S32768x1024) (k0_off3 c 2048#32) S1024x1024.size p).stride a = 1) :
    (Memref.whole main_v1 : Memref sig .tc .hbm S32768x1024 .f32).slice (Rect.unit (s := S32768x1024) (k0_off3 c 2048#32) S1024x1024.size p) hs
      = (Memref.whole main_v1 : Memref sig .tc .hbm S32768x1024 .f32).slice (oCh c (qF c) 2) (fun _ => rfl) := slice_off3 c 2 p hs
theorem slice_off3_3 (c : Dev nD)
    (p : ∀ a, (k0_off3 c 3072#32) a + S1024x1024.size a ≤ S32768x1024.size a)
    (hs : ∀ a, (Rect.unit (s := S32768x1024) (k0_off3 c 3072#32) S1024x1024.size p).stride a = 1) :
    (Memref.whole main_v1 : Memref sig .tc .hbm S32768x1024 .f32).slice (Rect.unit (s := S32768x1024) (k0_off3 c 3072#32) S1024x1024.size p) hs
      = (Memref.whole main_v1 : Memref sig .tc .hbm S32768x1024 .f32).slice (oCh c (qF c) 3) (fun _ => rfl) := slice_off3 c 3 p hs

theorem slice_off4 (c : Dev nD) (k : Fin 8)
    (p : ∀ a, (k0_off4 c (BitVec.ofNat 32 (2048 * k.val))) a + S2048x1024.size a ≤ S32768x1024.size a)
    (hs : ∀ a, (Rect.unit (s := S32768x1024) (k0_off4 c (BitVec.ofNat 32 (2048 * k.val))) S2048x1024.size p).stride a = 1) :
    (Memref.whole main_v1 : Memref sig .tc .hbm S32768x1024 .f32).slice (Rect.unit (s := S32768x1024) (k0_off4 c (BitVec.ofNat 32 (2048 * k.val))) S2048x1024.size p) hs
      = (Memref.whole main_v1 : Memref sig .tc .hbm S32768x1024 .f32).slice (oOwn c k) (fun _ => rfl) := by
  have e : k0_off4 c (BitVec.ofNat 32 (2048 * k.val)) = ![16384 * (c.val / 16) + 2048 * k.val, 0] := k0_off4_eq c k
  exact Memref.slice_unit_congr (Memref.whole main_v1 : Memref sig .tc .hbm S32768x1024 .f32) e p _ hs _

theorem slice_off4_0 (c : Dev nD)
    (p : ∀ a, (k0_off4 c 0#32) a + S2048x1024.size a ≤ S32768x1024.size a)
    (hs : ∀ a, (Rect.unit (s := S32768x1024) (k0_off4 c 0#32) S2048x1024.size p).stride a = 1) :
    (Memref.whole main_v1 : Memref sig .tc .hbm S32768x1024 .f32).slice (Rect.unit (s := S32768x1024) (k0_off4 c 0#32) S2048x1024.size p) hs
      = (Memref.whole main_v1 : Memref sig .tc .hbm S32768x1024 .f32).slice (oOwn c 0) (fun _ => rfl) := slice_off4 c 0 p hs
theorem slice_off4_1 (c : Dev nD)
    (p : ∀ a, (k0_off4 c 2048#32) a + S2048x1024.size a ≤ S32768x1024.size a)
    (hs : ∀ a, (Rect.unit (s := S32768x1024) (k0_off4 c 2048#32) S2048x1024.size p).stride a = 1) :
    (Memref.whole main_v1 : Memref sig .tc .hbm S32768x1024 .f32).slice (Rect.unit (s := S32768x1024) (k0_off4 c 2048#32) S2048x1024.size p) hs
      = (Memref.whole main_v1 : Memref sig .tc .hbm S32768x1024 .f32).slice (oOwn c 1) (fun _ => rfl) := slice_off4 c 1 p hs
theorem slice_off4_2 (c : Dev nD)
    (p : ∀ a, (k0_off4 c 4096#32) a + S2048x1024.size a ≤ S32768x1024.size a)
    (hs : ∀ a, (Rect.unit (s := S32768x1024) (k0_off4 c 4096#32) S2048x1024.size p).stride a = 1) :
    (Memref.whole main_v1 : Memref sig .tc .hbm S32768x1024 .f32).slice (Rect.unit (s := S32768x1024) (k0_off4 c 4096#32) S2048x1024.size p) hs
      = (Memref.whole main_v1 : Memref sig .tc .hbm S32768x1024 .f32).slice (oOwn c 2) (fun _ => rfl) := slice_off4 c 2 p hs
theorem slice_off4_3 (c : Dev nD)
    (p : ∀ a, (k0_off4 c 6144#32) a + S2048x1024.size a ≤ S32768x1024.size a)
    (hs : ∀ a, (Rect.unit (s := S32768x1024) (k0_off4 c 6144#32) S2048x1024.size p).stride a = 1) :
    (Memref.whole main_v1 : Memref sig .tc .hbm S32768x1024 .f32).slice (Rect.unit (s := S32768x1024) (k0_off4 c 6144#32) S2048x1024.size p) hs
      = (Memref.whole main_v1 : Memref sig .tc .hbm S32768x1024 .f32).slice (oOwn c 3) (fun _ => rfl) := slice_off4 c 3 p hs
theorem slice_off4_4 (c : Dev nD)
    (p : ∀ a, (k0_off4 c 8192#32) a + S2048x1024.size a ≤ S32768x1024.size a)
    (hs : ∀ a, (Rect.unit (s := S32768x1024) (k0_off4 c 8192#32) S2048x1024.size p).stride a = 1) :
    (Memref.whole main_v1 : Memref sig .tc .hbm S32768x1024 .f32).slice (Rect.unit (s := S32768x1024) (k0_off4 c 8192#32) S2048x1024.size p) hs
      = (Memref.whole main_v1 : Memref sig .tc .hbm S32768x1024 .f32).slice (oOwn c 4) (fun _ => rfl) := slice_off4 c 4 p hs
theorem slice_off4_5 (c : Dev nD)
    (p : ∀ a, (k0_off4 c 10240#32) a + S2048x1024.size a ≤ S32768x1024.size a)
    (hs : ∀ a, (Rect.unit (s := S32768x1024) (k0_off4 c 10240#32) S2048x1024.size p).stride a = 1) :
    (Memref.whole main_v1 : Memref sig .tc .hbm S32768x1024 .f32).slice (Rect.unit (s := S32768x1024) (k0_off4 c 10240#32) S2048x1024.size p) hs
      = (Memref.whole main_v1 : Memref sig .tc .hbm S32768x1024 .f32).slice (oOwn c 5) (fun _ => rfl) := slice_off4 c 5 p hs
theorem slice_off4_6 (c : Dev nD)
    (p : ∀ a, (k0_off4 c 12288#32) a + S2048x1024.size a ≤ S32768x1024.size a)
    (hs : ∀ a, (Rect.unit (s := S32768x1024) (k0_off4 c 12288#32) S2048x1024.size p).stride a = 1) :
    (Memref.whole main_v1 : Memref sig .tc .hbm S32768x1024 .f32).slice (Rect.unit (s := S32768x1024) (k0_off4 c 12288#32) S2048x1024.size p) hs
      = (Memref.whole main_v1 : Memref sig .tc .hbm S32768x1024 .f32).slice (oOwn c 6) (fun _ => rfl) := slice_off4 c 6 p hs
theorem slice_off4_7 (c : Dev nD)
    (p : ∀ a, (k0_off4 c 14336#32) a + S2048x1024.size a ≤ S32768x1024.size a)
    (hs : ∀ a, (Rect.unit (s := S32768x1024) (k0_off4 c 14336#32) S2048x1024.size p).stride a = 1) :
    (Memref.whole main_v1 : Memref sig .tc .hbm S32768x1024 .f32).slice (Rect.unit (s := S32768x1024) (k0_off4 c 14336#32) S2048x1024.size p) hs
      = (Memref.whole main_v1 : Memref sig .tc .hbm S32768x1024 .f32).slice (oOwn c 7) (fun _ => rfl) := slice_off4 c 7 p hs

theorem slice_off5 (c : Dev nD) (k : Fin 4)
    (p : ∀ a, (k0_off5 c (BitVec.ofNat 32 (1024 * k.val))) a + S1024x1024.size a ≤ S32768x1024.size a)
    (hs : ∀ a, (Rect.unit (s := S32768x1024) (k0_off5 c (BitVec.ofNat 32 (1024 * k.val))) S1024x1024.size p).stride a = 1) :
    (Memref.whole main_v1 : Memref sig .tc .hbm S32768x1024 .f32).slice (Rect.unit (s := S32768x1024) (k0_off5 c (BitVec.ofNat 32 (1024 * k.val))) S1024x1024.size p) hs
      = (Memref.whole main_v1 : Memref sig .tc .hbm S32768x1024 .f32).slice (oCh c (qF (zb c)) k) (fun _ => rfl) := by
  have e : k0_off5 c (BitVec.ofNat 32 (1024 * k.val))
      = ![16384 * (1 - c.val / 16) + 4096 * (qF (zb c)).val + 1024 * k.val, 0] := off5_eq c k
  exact Memref.slice_unit_congr (Memref.whole main_v1 : Memref sig .tc .hbm S32768x1024 .f32) e p _ hs _

theorem slice_off5_0 (c : Dev nD)
    (p : ∀ a, (k0_off5 c 0#32) a + S1024x1024.size a ≤ S32768x1024.size a)
    (hs : ∀ a, (Rect.unit (s := S32768x1024) (k0_off5 c 0#32) S1024x1024.size p).stride a = 1) :
    (Memref.whole main_v1 : Memref sig .tc .hbm S32768x1024 .f32).slice (Rect.unit (s := S32768x1024) (k0_off5 c 0#32) S1024x1024.size p) hs
      = (Memref.whole main_v1 : Memref sig .tc .hbm S32768x1024 .f32).slice (oCh c (qF (zb c)) 0) (fun _ => rfl) := slice_off5 c 0 p hs
theorem slice_off5_1 (c : Dev nD)
    (p : ∀ a, (k0_off5 c 1024#32) a + S1024x1024.size a ≤ S32768x1024.size a)
    (hs : ∀ a, (Rect.unit (s := S32768x1024) (k0_off5 c 1024#32) S1024x1024.size p).stride a = 1) :
    (Memref.whole main_v1 : Memref sig .tc .hbm S32768x1024 .f32).slice (Rect.unit (s := S32768x1024) (k0_off5 c 1024#32) S1024x1024.size p) hs
      = (Memref.whole main_v1 : Memref sig .tc .hbm S32768x1024 .f32).slice (oCh c (qF (zb c)) 1) (fun _ => rfl) := slice_off5 c 1 p hs
theorem slice_off5_2 (c : Dev nD)
    (p : ∀ a, (k0_off5 c 2048#32) a + S1024x1024.size a ≤ S32768x1024.size a)
    (hs : ∀ a, (Rect.unit (s := S32768x1024) (k0_off5 c 2048#32) S1024x1024.size p).stride a = 1) :
    (Memref.whole main_v1 : Memref sig .tc .hbm S32768x1024 .f32).slice (Rect.unit (s := S32768x1024) (k0_off5 c 2048#32) S1024x1024.size p) hs
      = (Memref.whole main_v1 : Memref sig .tc .hbm S32768x1024 .f32).slice (oCh c (qF (zb c)) 2) (fun _ => rfl) := slice_off5 c 2 p hs
theorem slice_off5_3 (c : Dev nD)
    (p : ∀ a, (k0_off5 c 3072#32) a + S1024x1024.size a ≤ S32768x1024.size a)
    (hs : ∀ a, (Rect.unit (s := S32768x1024) (k0_off5 c 3072#32) S1024x1024.size p).stride a = 1) :
    (Memref.whole main_v1 : Memref sig .tc .hbm S32768x1024 .f32).slice (Rect.unit (s := S32768x1024) (k0_off5 c 3072#32) S1024x1024.size p) hs
      = (Memref.whole main_v1 : Memref sig .tc .hbm S32768x1024 .f32).slice (oCh c (qF (zb c)) 3) (fun _ => rfl) := slice_off5 c 3 p hs

theorem slice_off6 (c : Dev nD) (k : Fin 4)
    (p : ∀ a, (k0_off6 c (BitVec.ofNat 32 (1024 * k.val))) a + S1024x1024.size a ≤ S32768x1024.size a)
    (hs : ∀ a, (Rect.unit (s := S32768x1024) (k0_off6 c (BitVec.ofNat 32 (1024 * k.val))) S1024x1024.size p).stride a = 1) :
    (Memref.whole main_v1 : Memref sig .tc .hbm S32768x1024 .f32).slice (Rect.unit (s := S32768x1024) (k0_off6 c (BitVec.ofNat 32 (1024 * k.val))) S1024x1024.size p) hs
      = (Memref.whole main_v1 : Memref sig .tc .hbm S32768x1024 .f32).slice (oCh c (qF (yb c)) k) (fun _ => rfl) := by
  have e : k0_off6 c (BitVec.ofNat 32 (1024 * k.val))
      = ![16384 * (1 - c.val / 16) + 4096 * (qF (yb c)).val + 1024 * k.val, 0] := off6_eq c k
  exact Memref.slice_unit_congr (Memref.whole main_v1 : Memref sig .tc .hbm S32768x1024 .f32) e p _ hs _

theorem slice_off6_0 (c : Dev nD)
    (p : ∀ a, (k0_off6 c 0#32) a + S1024x1024.size a ≤ S32768x1024.size a)
    (hs : ∀ a, (Rect.unit (s := S32768x1024) (k0_off6 c 0#32) S1024x1024.size p).stride a = 1) :
    (Memref.whole main_v1 : Memref sig .tc .hbm S32768x1024 .f32).slice (Rect.unit (s := S32768x1024) (k0_off6 c 0#32) S1024x1024.size p) hs
      = (Memref.whole main_v1 : Memref sig .tc .hbm S32768x1024 .f32).slice (oCh c (qF (yb c)) 0) (fun _ => rfl) := slice_off6 c 0 p hs
theorem slice_off6_1 (c : Dev nD)
    (p : ∀ a, (k0_off6 c 1024#32) a + S1024x1024.size a ≤ S32768x1024.size a)
    (hs : ∀ a, (Rect.unit (s := S32768x1024) (k0_off6 c 1024#32) S1024x1024.size p).stride a = 1) :
    (Memref.whole main_v1 : Memref sig .tc .hbm S32768x1024 .f32).slice (Rect.unit (s := S32768x1024) (k0_off6 c 1024#32) S1024x1024.size p) hs
      = (Memref.whole main_v1 : Memref sig .tc .hbm S32768x1024 .f32).slice (oCh c (qF (yb c)) 1) (fun _ => rfl) := slice_off6 c 1 p hs
theorem slice_off6_2 (c : Dev nD)
    (p : ∀ a, (k0_off6 c 2048#32) a + S1024x1024.size a ≤ S32768x1024.size a)
    (hs : ∀ a, (Rect.unit (s := S32768x1024) (k0_off6 c 2048#32) S1024x1024.size p).stride a = 1) :
    (Memref.whole main_v1 : Memref sig .tc .hbm S32768x1024 .f32).slice (Rect.unit (s := S32768x1024) (k0_off6 c 2048#32) S1024x1024.size p) hs
      = (Memref.whole main_v1 : Memref sig .tc .hbm S32768x1024 .f32).slice (oCh c (qF (yb c)) 2) (fun _ => rfl) := slice_off6 c 2 p hs
theorem slice_off6_3 (c : Dev nD)
    (p : ∀ a, (k0_off6 c 3072#32) a + S1024x1024.size a ≤ S32768x1024.size a)
    (hs : ∀ a, (Rect.unit (s := S32768x1024) (k0_off6 c 3072#32) S1024x1024.size p).stride a = 1) :
    (Memref.whole main_v1 : Memref sig .tc .hbm S32768x1024 .f32).slice (Rect.unit (s := S32768x1024) (k0_off6 c 3072#32) S1024x1024.size p) hs
      = (Memref.whole main_v1 : Memref sig .tc .hbm S32768x1024 .f32).slice (oCh c (qF (yb c)) 3) (fun _ => rfl) := slice_off6 c 3 p hs

theorem slice_off7 (c : Dev nD) (k : Fin 4)
    (p : ∀ a, (k0_off7 c (BitVec.ofNat 32 (1024 * k.val))) a + S1024x1024.size a ≤ S32768x1024.size a)
    (hs : ∀ a, (Rect.unit (s := S32768x1024) (k0_off7 c (BitVec.ofNat 32 (1024 * k.val))) S1024x1024.size p).stride a = 1) :
    (Memref.whole main_v1 : Memref sig .tc .hbm S32768x1024 .f32).slice (Rect.unit (s := S32768x1024) (k0_off7 c (BitVec.ofNat 32 (1024 * k.val))) S1024x1024.size p) hs
      = (Memref.whole main_v1 : Memref sig .tc .hbm S32768x1024 .f32).slice (oCh c (qF (yb (zb c))) k) (fun _ => rfl) := by
  have e : k0_off7 c (BitVec.ofNat 32 (1024 * k.val))
      = ![16384 * (1 - c.val / 16) + 4096 * (qF (yb (zb c))).val + 1024 * k.val, 0] := off7_eq c k
  exact Memref.slice_unit_congr (Memref.whole main_v1 : Memref sig .tc .hbm S32768x1024 .f32) e p _ hs _

theorem slice_off7_0 (c : Dev nD)
    (p : ∀ a, (k0_off7 c 0#32) a + S1024x1024.size a ≤ S32768x1024.size a)
    (hs : ∀ a, (Rect.unit (s := S32768x1024) (k0_off7 c 0#32) S1024x1024.size p).stride a = 1) :
    (Memref.whole main_v1 : Memref sig .tc .hbm S32768x1024 .f32).slice (Rect.unit (s := S32768x1024) (k0_off7 c 0#32) S1024x1024.size p) hs
      = (Memref.whole main_v1 : Memref sig .tc .hbm S32768x1024 .f32).slice (oCh c (qF (yb (zb c))) 0) (fun _ => rfl) := slice_off7 c 0 p hs
theorem slice_off7_1 (c : Dev nD)
    (p : ∀ a, (k0_off7 c 1024#32) a + S1024x1024.size a ≤ S32768x1024.size a)
    (hs : ∀ a, (Rect.unit (s := S32768x1024) (k0_off7 c 1024#32) S1024x1024.size p).stride a = 1) :
    (Memref.whole main_v1 : Memref sig .tc .hbm S32768x1024 .f32).slice (Rect.unit (s := S32768x1024) (k0_off7 c 1024#32) S1024x1024.size p) hs
      = (Memref.whole main_v1 : Memref sig .tc .hbm S32768x1024 .f32).slice (oCh c (qF (yb (zb c))) 1) (fun _ => rfl) := slice_off7 c 1 p hs
theorem slice_off7_2 (c : Dev nD)
    (p : ∀ a, (k0_off7 c 2048#32) a + S1024x1024.size a ≤ S32768x1024.size a)
    (hs : ∀ a, (Rect.unit (s := S32768x1024) (k0_off7 c 2048#32) S1024x1024.size p).stride a = 1) :
    (Memref.whole main_v1 : Memref sig .tc .hbm S32768x1024 .f32).slice (Rect.unit (s := S32768x1024) (k0_off7 c 2048#32) S1024x1024.size p) hs
      = (Memref.whole main_v1 : Memref sig .tc .hbm S32768x1024 .f32).slice (oCh c (qF (yb (zb c))) 2) (fun _ => rfl) := slice_off7 c 2 p hs
theorem slice_off7_3 (c : Dev nD)
    (p : ∀ a, (k0_off7 c 3072#32) a + S1024x1024.size a ≤ S32768x1024.size a)
    (hs : ∀ a, (Rect.unit (s := S32768x1024) (k0_off7 c 3072#32) S1024x1024.size p).stride a = 1) :
    (Memref.whole main_v1 : Memref sig .tc .hbm S32768x1024 .f32).slice (Rect.unit (s := S32768x1024) (k0_off7 c 3072#32) S1024x1024.size p) hs
      = (Memref.whole main_v1 : Memref sig .tc .hbm S32768x1024 .f32).slice (oCh c (qF (yb (zb c))) 3) (fun _ => rfl) := slice_off7 c 3 p hs

end Cert.Kernel.AG

end

/-- info: 'Cert.Kernel.AG.out_split' depends on axioms: [propext, Classical.choice, Quot.sound] -/
#guard_msgs in #print axioms Cert.Kernel.AG.out_split
/-- info: 'Cert.Kernel.AG.x_split' depends on axioms: [propext, Classical.choice, Quot.sound] -/
#guard_msgs in #print axioms Cert.Kernel.AG.x_split
/-- info: 'Cert.Kernel.AG.vbuf_split' depends on axioms: [propext, Classical.choice, Quot.sound] -/
#guard_msgs in #print axioms Cert.Kernel.AG.vbuf_split
/-- info: 'Cert.Kernel.AG.vbuf_join' depends on axioms: [propext, Classical.choice, Quot.sound] -/
#guard_msgs in #print axioms Cert.Kernel.AG.vbuf_join
/-- info: 'Cert.Kernel.AG.pts_slot' depends on axioms: [propext, Classical.choice, Quot.sound] -/
#guard_msgs in #print axioms Cert.Kernel.AG.pts_slot
/-- info: 'Cert.Kernel.AG.pts_slice1' depends on axioms: [propext, Classical.choice, Quot.sound] -/
#guard_msgs in #print axioms Cert.Kernel.AG.pts_slice1
/-- info: 'Cert.Kernel.AG.pts_slice0' depends on axioms: [propext, Classical.choice, Quot.sound] -/
#guard_msgs in #print axioms Cert.Kernel.AG.pts_slice0
/-- info: 'Cert.Kernel.AG.slice_off1' depends on axioms: [propext, Classical.choice, Quot.sound] -/
#guard_msgs in #print axioms Cert.Kernel.AG.slice_off1
/-- info: 'Cert.Kernel.AG.slice_off4_7' depends on axioms: [propext, Classical.choice, Quot.sound] -/
#guard_msgs in #print axioms Cert.Kernel.AG.slice_off4_7
/-- info: 'Cert.Kernel.AG.slice_off7_3' depends on axioms: [propext, Classical.choice, Quot.sound] -/
#guard_msgs in #print axioms Cert.Kernel.AG.slice_off7_3
-- ==== Proof.KernelAG.Steps.lean ====
/-
  The body's steps, each library rule read at this protocol's cells: a copy to a neighbour, the wait for a landing, the
  wait for a copy's departure, a load into a staging slot, a store out of one, and their waits. Each takes what all
  devices share (every cell's invariant and that it is at round 0) and the few resources the step moves.
-/
import proofs.«900686_g7700000000000687_dist_ag_v7x_xyz2x4x4_x_m16384_n1024_f32_1_alg».proof.Proof.KernelAG.Proto
import proofs.«900686_g7700000000000687_dist_ag_v7x_xyz2x4x4_x_m16384_n1024_f32_1_alg».proof.Proof.KernelAG.Geom

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the shared records -/

/-- The index of DMA cell `n` among a device's forty-one. -/
abbrev ki (n : ℕ) (h : n < 40) : Fin 41 := ⟨n, by omega⟩
/-- The index of the barrier cell. -/
abbrev kb : Fin 41 := ⟨40, by decide⟩

omit [FloatOps F] in
theorem kcell_dma (c : Dev nD) (n : ℕ) (h : n < 40) : kcell (c, ki n h) = cell c n h := by
  unfold kcell; exact dif_pos h
omit [FloatOps F] in
theorem kcell_bar (c : Dev nD) : kcell (c, kb) = barCell c := by
  unfold kcell; exact dif_neg (Nat.lt_irrefl 40)

theorem inv_dma (K : Dev nD × Fin 41 → ℕ) (c : Dev nD) (n : ℕ) (h : n < 40) :
    (records m K : sProp 𝕄) ⊢ cellInv ER (agRd m) (K (c, ki n h)) (cell c n h) := by
  have hel : (bigSep Finset.univ fun ck : Dev nD × Fin 41 => (cellInv ER (agRd m) (K ck) (kcell ck) : sProp 𝕄))
      ⊢ cellInv ER (agRd m) (K (c, ki n h)) (kcell (c, ki n h)) := bigSep_elim (Finset.mem_univ (c, ki n h))
  rw [kcell_dma c n h] at hel
  unfold records
  iintro ⟨HI, -⟩
  iapply hel; iexact HI
theorem inv_bar (K : Dev nD × Fin 41 → ℕ) (c : Dev nD) :
    (records m K : sProp 𝕄) ⊢ cellInv ER (agRd m) (K (c, kb)) (barCell c) := by
  have hel : (bigSep Finset.univ fun ck : Dev nD × Fin 41 => (cellInv ER (agRd m) (K ck) (kcell ck) : sProp 𝕄))
      ⊢ cellInv ER (agRd m) (K (c, kb)) (kcell (c, kb)) := bigSep_elim (Finset.mem_univ (c, kb))
  rw [kcell_bar c] at hel
  unfold records
  iintro ⟨HI, -⟩
  iapply hel; iexact HI
theorem reached_dma (K : Dev nD × Fin 41 → ℕ) (c : Dev nD) (n : ℕ) (h : n < 40) :
    (records m K : sProp 𝕄) ⊢ reached ER (cell c n h) 0 := by
  have hel : (bigSep Finset.univ fun ck : Dev nD × Fin 41 => (reached ER (kcell ck) 0 : sProp 𝕄))
      ⊢ reached ER (kcell (c, ki n h)) 0 := bigSep_elim (Finset.mem_univ (c, ki n h))
  rw [kcell_dma c n h] at hel
  unfold records
  iintro ⟨-, HRr⟩
  iapply hel; iexact HRr
theorem reached_bar (K : Dev nD × Fin 41 → ℕ) (c : Dev nD) :
    (records m K : sProp 𝕄) ⊢ reached ER (barCell c) 0 := by
  have hel : (bigSep Finset.univ fun ck : Dev nD × Fin 41 => (reached ER (kcell ck) 0 : sProp 𝕄))
      ⊢ reached ER (kcell (c, kb)) 0 := bigSep_elim (Finset.mem_univ (c, kb))
  rw [kcell_bar c] at hel
  unfold records
  iintro ⟨-, HRr⟩
  iapply hel; iexact HRr

variable (K : Dev nD × Fin 41 → ℕ)

/-! ## A signal to a neighbour's barrier cell -/

/-- Device `c` pays duty `d` of device `n`'s barrier cell: one unit, handing over what the duty's payload says. -/
theorem step_signal (c n : Dev nD) (d : Fin 3) (k' : ℕ) (hk' : 1 = k')
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (barCell n) () k') W ∗ dutyTok ER (barCell n) 0 d ∗ barPay n d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  iintro ⟨#HR, HO, Htok, Hpay⟩
  iapply (Rounds.wp_signal 𝒱₀ ER (agRd m) (c : Thread nD τ) none (dst := (n : Thread nD τ)) (κ := K (n, kb))
      (d := d) (by rw [duties_bar]; exact Finset.mem_univ _) (amount_bar m n 0 d) () O rfl) $$ [HO Htok Hpay]
  isplitr; · iapply (inv_bar m K n); iexact HR
  isplitl [HO]; · iexact HO
  isplitl [Htok]; · iexact Htok
  isplitl [Hpay]; · rw [payload_bar]; iexact Hpay
  iapply (reached_bar m K n); iexact HR

/-! ## The barrier wait -/

/-- The wait for three on its own barrier cell: the three neighbours' landing rows come with it. -/
theorem step_barwait (c : Dev nD) (k' : ℕ) (hk' : 3 = k')
    {α : Type} {Q : α → sProp 𝕄} {k : PUnit → Prog (TpuEff nD τ sig (Elt F) Λ₀ .tc) α}
    (O : CellTallies nD τ sig Unit) (W : Waits sig Unit) :
    iprop(records m K ∗ cred (tallyAt (barCell c) () k') ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, Hmw, Hat⟩ Hk
  iapply (Rounds.wp_wait_rest_token 𝒱₀ ER (agRd m) (c : Thread nD τ) none (κ := K (c, kb))
      (wpE_semWait_eq 𝒱₀ (c : Thread nD τ) none Set.univ) (Set.mem_univ _) () (O := O) (W := W) (R := 0) (m := 0) (T := ∅)
      (by rw [expect_bar])) $$ [Hc HO Hmw Hat]
  · isplitr; · iapply (inv_bar m K c); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)) $$ Hpay

/-! ## A copy to a neighbour -/

/-- Device `c` copies `src` into `dst` on device `n`, paying its send cell `sS` and `n`'s receive cell `sR`. -/
theorem step_send (c n : Dev nD) (sS sR : ℕ) (hS : sS < 40) (hR : sR < 40) (hs : isSend sS) (hr : isRecv sR)
    {src : Memref sig .tc .hbm S1024x1024 .f32} {dst : Memref sig .tc .hbm S1024x1024 .f32}
    {hsc : (dst : Memref sig (Dev.tc n : Thread nD τ).2.kind .hbm S1024x1024 .f32).view.ref.isScScratch = false}
    {hsrc : src.view.WordExact} {hdst : dst.view.WordExact}
    {hsem : DmaTarget.Typed .hbm (.dma (ds sR hR)) (.remote (Dev.tc n : Thread nD τ) dst (.dma (ds sS hS)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (W : Waits sig Unit)
    (hN : dst.view.amount (.dma (ds sR hR)) = N)
    (hpay₁ : (src.view.loc (c : Thread nD τ) ↦[src.view.set]{q} fs : sProp 𝕄) ⊢ sendPay m c sS)
    (hpay₂ : (dst.view.loc (n : Thread nD τ) ↦[dst.view.set]{fullShare} (dst.view.write (Elt F) fd (src.view.read (Elt F) fs) Finset.univ) : sProp 𝕄)
      ⊢ recvPay m n sR) :
    iprop(records m K ∗ (src.view.loc (c : Thread nD τ) ↦[src.view.set]{q} fs) ∗ (dst.view.loc (n : Thread nD τ) ↦[dst.view.set]{fullShare} fd)
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (ds sS hS)) hsc) (.dma (ds sR hR)) hsrc hdst hsem) k) Q) := by
  have hS8 : 8 ≤ sS := by unfold isSend at hs; omega
  have hR8 : 8 ≤ sR := by unfold isRecv at hr; omega
  iintro ⟨#HR, Hsrc, Hdst, HO, HtS, HtR⟩
  iapply (Rounds.wp_send_pointsTo 𝒱₀ ER (agRd m) (c : Thread nD τ) none (κ₁ := K (c, ki sS hS)) (κ₂ := K (n, ki sR hR))
    (r₁ := 0) (r₂ := 0) (d₁ := 0) (d₂ := 0) (fd := fd)
    (by rw [duties_dma]; exact Finset.mem_singleton_self _) (by rw [duties_dma]; exact Finset.mem_singleton_self _)
    () () N hN (amount_rem m c sS hS8 hS 0 0) (amount_rem m n sR hR8 hR 0 0) O rfl (W := W)
    (by rw [payload_send m c sS hS hs]; exact hpay₁)
    (by rw [payload_recv m n sR hR hr]; exact hpay₂)) $$ [Hsrc Hdst HO HtS HtR]
  isplitr; · iapply (inv_dma m K c sS hS); iexact HR
  isplitr; · iapply (inv_dma m K n sR hR); iexact HR
  isplitl [Hsrc]; · iexact Hsrc
  isplitl [Hdst]; · iexact Hdst
  isplitl [HO]; · iexact HO
  isplitl [HtS]; · iexact HtS
  isplitr; · iapply (reached_dma m K c sS hS); iexact HR
  isplitl [HtR]; · iexact HtR
  iapply (reached_dma m K n sR hR); iexact HR

/-! ## A wait on a transfer cell of its own, for the rest of its round -/

/-- The wait on cell `n` at round `r` for the round's one duty: the duty's payload comes back, the cell moves on. -/
theorem step_wait (c : Dev nD) (n : ℕ) (hn : n < 40) (r : ℕ) (A : ℕ)
    (hd : (agRd m).duties (cell c n hn) r = {0}) (hA : (agRd m).amount (cell c n hn) r 0 = A)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = A) :
    iprop(records m K ∗ cred (tallyAt (cell c n hn) () A) ∗ owes (c : Thread nD τ) O W ∗ MayWait (c : Thread nD τ) (.dma (ds n hn)) () O
        ∗ atPos ER (cell c n hn) r ∅ 0)
      ⊢ iprop(((owes (c : Thread nD τ) O (insert (SemLoc.dma (ds n hn), ()) W) ∗ atPos ER (cell c n hn) (r + 1) ∅ 0 ∗ reached ER (cell c n hn) (r + 1)
              ∗ (agRd m).payload (cell c n hn) r 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  subst hcr
  iintro ⟨#HR, Hc, HO, Hmw, Hat⟩ Hk
  iapply (Rounds.wp_wait_rest_token 𝒱₀ ER (agRd m) (c : Thread nD τ) none (κ := K (c, ki n hn))
      (wpE_waitDma2_eq 𝒱₀ (c : Thread nD τ) none Set.univ) (Set.mem_univ _) () (O := O) (W := W) (R := r) (m := 0) (T := ∅)
      (by rw [Nat.zero_add]; unfold Schedule.expect Schedule.amountOf; rw [hd, Finset.sum_singleton, hA])) $$ [Hc HO Hmw Hat]
  · isplitr; · iapply (inv_dma m K c n hn); iexact HR
    isplitl [Hc]; · iexact Hc
    isplitl [HO]; · iexact HO
    isplitl [Hmw]; · iexact Hmw
    iexact Hat
  iintro ⟨HO, Hat, Hr, Hpay⟩
  iapply Hk
  isplitl [HO]; · iexact HO
  isplitl [Hat]; · iexact Hat
  isplitl [Hr]; · iexact Hr
  iapply (Entails.of_eq (rest_dma m c n hn r hd)) $$ Hpay

/-! ## A copy within the device -/

/-- A local copy paying round `r` of the device's own load or store cell `n`. -/
theorem step_copy (c : Dev nD) (n : ℕ) (hn : n < 40) (r : ℕ) (A : ℕ)
    (hd : (agRd m).duties (cell c n hn) r = {0}) (hA : (agRd m).amount (cell c n hn) r 0 = A)
    {sp sp' : Space} {s : Shape} {e : EltTy}
    {src : Memref sig .tc sp s e} {dst : Memref sig .tc sp' s e}
    {hsrc : src.view.WordExact} {hdst : dst.view.WordExact} {hsem : DmaTarget.Typed (nD := nD) sp (.dma (ds n hn)) (DmaTarget.here (p := (Proc.tc : Proc τ)) dst)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c : Thread nD τ)))
    (hN : dst.view.amount (.dma (ds n hn)) = A)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ (agRd m).payload (cell c n hn) r 0)
    (Hreach : sProp 𝕄) (hreach : Hreach ⊢ reached ER (cell c n hn) r) [BI.Persistent Hreach] :
    iprop(records m K ∗ Hreach ∗ (src.view.loc (c : Thread nD τ) ↦[src.view.set]{q} fs) ∗ (dst.view.loc (c : Thread nD τ) ↦[dst.view.set]{fullShare} fd)
        ∗ dutyTok ER (cell c n hn) r 0)
      ⊢ iprop((cred (tallyAt (cell c n hn) () A) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma (ds n hn)) hsrc hdst hsem) k) Q) := by
  iintro ⟨#HR, #Hre, Hsrc, Hdst, Htok⟩
  iapply (Rounds.wp_copy_pointsTo 𝒱₀ ER (agRd m) (c : Thread nD τ) none (κ := K (c, ki n hn)) (r := r) (d := 0) (fd := fd)
    (by rw [hd]; exact Finset.mem_singleton_self _) () A hN hA hpay) $$ [Hsrc Hdst Htok]
  isplitr; · iapply (inv_dma m K c n hn); iexact HR
  isplitl [Hsrc]; · iexact Hsrc
  isplitl [Hdst]; · iexact Hdst
  isplitl [Htok]; · iexact Htok
  iapply hreach; iexact Hre

/-! ## The buffers as the body names them -/

abbrev M0 : Memref sig .tc .hbm S16384x1024 .f32 := Memref.whole main_arg0
abbrev M1 : Memref sig .tc .hbm S32768x1024 .f32 := Memref.whole main_v1
abbrev MV : Memref sig .tc .vmem S4x2048x1024 .f32 := Memref.whole cc0_scratch0
/-- Slot `s` of the staging buffer, as 2048 rows. -/
abbrev slot (s : Fin 4) : Memref sig .tc .vmem S2048x1024 .f32 :=
  (MV.slice (vSl s) (fun _ => rfl)).squeeze S2048x1024 squeezes_S1x2048x1024_S2048x1024

set_option maxHeartbeats 1000000 in
/-- A copy of 1024 rows (`src`, rows `RS` of buffer M0 or M1 of this device) into rows `RD` of a neighbour's result:
    `step_send` with the rows held as `pts`. -/
theorem step_send0 (c n : Dev nD) (sS sR : ℕ) (hS : sS < 40) (hR : sR < 40) (hs : isSend sS) (hr : isRecv sR)
    (Qs ks : Fin 4) (nd : Dev nD) (Qd kd : Fin 4)
    {hsc : ((M1.slice (oCh nd Qd kd) (fun _ => rfl)) : Memref sig (Dev.tc n : Thread nD τ).2.kind .hbm S1024x1024 .f32).view.ref.isScScratch = false}
    {hsrc : (M0.slice (xCh Qs ks) (fun _ => rfl)).view.WordExact} {hdst : (M1.slice (oCh nd Qd kd) (fun _ => rfl)).view.WordExact}
    {hsem : DmaTarget.Typed .hbm (.dma (ds sR hR)) (.remote (Dev.tc n : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_arg0)) (fd : Buf (Elt F) ((n : Thread nD τ).loc main_v1))
    (O : CellTallies nD τ sig Unit) (W : Waits sig Unit)
    (hpay₁ : (pts c main_arg0 (xCh Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M0.slice (xCh Qs ks) (fun _ => rfl)).view.read (Elt F) fs) Finset.univ) : sProp 𝕄)
      ⊢ recvPay m n sR) :
    iprop(records m K ∗ pts c main_arg0 (xCh Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xCh Qs ks) (fun _ => rfl)) (.remote (Dev.tc n : Thread nD τ) (M1.slice (oCh nd Qd kd) (fun _ => rfl)) (.dma (ds sS hS)) hsc)
                (.dma (ds sR hR)) hsrc hdst hsem) k) Q) := by
  have h := step_send m K c n sS sR hS hR hs hr (src := M0.slice (xCh Qs ks) (fun _ => rfl)) (dst := M1.slice (oCh nd Qd kd) (fun _ => rfl))
    (hsc := hsc) (hsrc := hsrc) (hdst := hdst) (hsem := hsem) (Q := Q) (k := k) q fs fd O W rfl
    ((Entails.of_eq (pts_slice0 c (xCh Qs ks) (fun _ => rfl) q fs)).trans hpay₁) hpay₂
  exact (sep_mono_right (sep_mono_left (Entails.of_eq (pts_slice0 c (xCh Qs ks) (fun _ => rfl) q fs).symm))).trans
    ((sep_mono_right (sep_mono_right (sep_mono_left (Entails.of_eq (pts_slice1 n (oCh nd Qd kd) (fun _ => rfl) fullShare fd).symm)))).trans h)

set_option maxHeartbeats 1000000 in
/-- The same from rows of this device's RESULT (a forwarded chunk). -/
theorem step_send1 (c n : Dev nD) (sS sR : ℕ) (hS : sS < 40) (hR : sR < 40) (hs : isSend sS) (hr : isRecv sR)
    (ns : Dev nD) (Qs ks : Fin 4) (nd : Dev nD) (Qd kd : Fin 4)
    {hsc : ((M1.slice (oCh nd Qd kd) (fun _ => rfl)) : Memref sig (Dev.tc n : Thread nD τ).2.kind .hbm S1024x1024 .f32).view.ref.isScScratch = false}
    {hsrc : (M1.slice (oCh ns Qs ks) (fun _ => rfl)).view.WordExact} {hdst : (M1.slice (oCh nd Qd kd) (fun _ => rfl)).view.WordExact}
    {hsem : DmaTarget.Typed .hbm (.dma (ds sR hR)) (.remote (Dev.tc n : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_v1)) (fd : Buf (Elt F) ((n : Thread nD τ).loc main_v1))
    (O : CellTallies nD τ sig Unit) (W : Waits sig Unit)
    (hpay₁ : (pts c main_v1 (oCh ns Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M1.slice (oCh ns Qs ks) (fun _ => rfl)).view.read (Elt F) fs) Finset.univ) : sProp 𝕄)
      ⊢ recvPay m n sR) :
    iprop(records m K ∗ pts c main_v1 (oCh ns Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M1.slice (oCh ns Qs ks) (fun _ => rfl)) (.remote (Dev.tc n : Thread nD τ) (M1.slice (oCh nd Qd kd) (fun _ => rfl)) (.dma (ds sS hS)) hsc)
                (.dma (ds sR hR)) hsrc hdst hsem) k) Q) := by
  have h := step_send m K c n sS sR hS hR hs hr (src := M1.slice (oCh ns Qs ks) (fun _ => rfl)) (dst := M1.slice (oCh nd Qd kd) (fun _ => rfl))
    (hsc := hsc) (hsrc := hsrc) (hdst := hdst) (hsem := hsem) (Q := Q) (k := k) q fs fd O W rfl
    ((Entails.of_eq (pts_slice1 c (oCh ns Qs ks) (fun _ => rfl) q fs)).trans hpay₁) hpay₂
  exact (sep_mono_right (sep_mono_left (Entails.of_eq (pts_slice1 c (oCh ns Qs ks) (fun _ => rfl) q fs).symm))).trans
    ((sep_mono_right (sep_mono_right (sep_mono_left (Entails.of_eq (pts_slice1 n (oCh nd Qd kd) (fun _ => rfl) fullShare fd).symm)))).trans h)

/-! ## A wait's amount: the credit of the window it names, whatever the buffer -/

theorem credit_N {sp : Space} (M : Memref sig .tc sp S1024x1024 .f32) : M.view.dmaCredit = N := rfl

/-! ## The waits, by kind -/

/-- The wait for a landing on receive cell `n`: its rows, holding what the result must hold there. -/
theorem step_rwait (c : Dev nD) (n : ℕ) (hn : n < 40) (hr : isRecv n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = N) :
    iprop(records m K ∗ cred (tallyAt (cell c n hn) () N) ∗ owes (c : Thread nD τ) O W ∗ MayWait (c : Thread nD τ) (.dma (ds n hn)) () O
        ∗ atPos ER (cell c n hn) 0 ∅ 0)
      ⊢ iprop(((owes (c : Thread nD τ) O (insert (SemLoc.dma (ds n hn), ()) W) ∗ atPos ER (cell c n hn) 1 ∅ 0 ∗ recvPay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  have h8 : 8 ≤ n := by unfold isRecv at hr; omega
  iintro H Hk
  iapply (step_wait m K c n hn 0 N (duties_dma m c n hn) (amount_rem m c n h8 hn 0 0) O W hcr) $$ H
  iintro ⟨HO, Hat, -, Hpay⟩
  iapply Hk
  isplitl [HO]; · iexact HO
  isplitl [Hat]; · iexact Hat
  iapply (Entails.of_eq (payload_recv m c n hn hr 0 0)); iexact Hpay

/-- The wait for a copy's departure on send cell `n`: the share of the rows it read. -/
theorem step_swait (c : Dev nD) (n : ℕ) (hn : n < 40) (hs : isSend n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (W : Waits sig Unit) (hcr : dstw.view.dmaCredit = N) :
    iprop(records m K ∗ cred (tallyAt (cell c n hn) () N) ∗ owes (c : Thread nD τ) 0 W ∗ atPos ER (cell c n hn) 0 ∅ 0)
      ⊢ iprop(((owes (c : Thread nD τ) 0 (insert (SemLoc.dma (ds n hn), ()) W) ∗ atPos ER (cell c n hn) 1 ∅ 0 ∗ sendPay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  have h8 : 8 ≤ n := by unfold isSend at hs; omega
  iintro ⟨#HR, Hc, HO, Hat⟩ Hk
  iapply (step_wait m K c n hn 0 N (duties_dma m c n hn) (amount_rem m c n h8 hn 0 0) 0 W hcr) $$ [Hc HO Hat]
  · isplitr; · iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (payload_send m c n hn hs 0 0)); iexact Hpay

/-- The wait for load `j` on load cell `s` at round `r`. -/
theorem step_lwait (c : Dev nD) (s : ℕ) (hs : s < 4) (r : ℕ) (hr : r < 2)
    {s' sh : Shape} {e' e : EltTy} {sp' sp : Space} {κ' : Kind}
    {srcw : Memref sig .tc sp' s' e'} {dstw : Memref sig κ' sp sh e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = NL) :
    iprop(records m K ∗ cred (tallyAt (cell c s (by omega)) () NL) ∗ owes (c : Thread nD τ) O W ∗ MayWait (c : Thread nD τ) (.dma (ds s (by omega))) () O
        ∗ atPos ER (cell c s (by omega)) r ∅ 0)
      ⊢ iprop(((owes (c : Thread nD τ) O (insert (SemLoc.dma (ds s (by omega)), ()) W) ∗ atPos ER (cell c s (by omega)) (r + 1) ∅ 0
              ∗ reached ER (cell c s (by omega)) (r + 1) ∗ ldPay m c (s + 4 * r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds s (by omega)) srcw dstw hsrc hdst) k) Q) := by
  have hd : (agRd m).duties (cell c s (by omega)) r = {0} := duties_loc m c s (by omega) r hr
  iintro H Hk
  iapply (step_wait m K c s _ r NL hd (amount_ld m c s hs r 0) O W hcr) $$ H
  iintro ⟨HO, Hat, Hr, Hpay⟩
  iapply Hk
  isplitl [HO]; · iexact HO
  isplitl [Hat]; · iexact Hat
  isplitl [Hr]; · iexact Hr
  iapply (Entails.of_eq (payload_ld m c s hs r 0)); iexact Hpay

/-- The wait for store `j` on store cell `4 + s` at round `r`. -/
theorem step_stwait (c : Dev nD) (s : ℕ) (hs : s < 4) (r : ℕ) (hr : r < 2)
    {s' sh : Shape} {e' e : EltTy} {sp' sp : Space} {κ' : Kind}
    {srcw : Memref sig .tc sp' s' e'} {dstw : Memref sig κ' sp sh e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = NS) :
    iprop(records m K ∗ cred (tallyAt (cell c (4 + s) (by omega)) () NS) ∗ owes (c : Thread nD τ) O W
        ∗ MayWait (c : Thread nD τ) (.dma (ds (4 + s) (by omega))) () O ∗ atPos ER (cell c (4 + s) (by omega)) r ∅ 0)
      ⊢ iprop(((owes (c : Thread nD τ) O (insert (SemLoc.dma (ds (4 + s) (by omega)), ()) W) ∗ atPos ER (cell c (4 + s) (by omega)) (r + 1) ∅ 0
              ∗ reached ER (cell c (4 + s) (by omega)) (r + 1) ∗ stPay m c (s + 4 * r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds (4 + s) (by omega)) srcw dstw hsrc hdst) k) Q) := by
  have hd : (agRd m).duties (cell c (4 + s) (by omega)) r = {0} := duties_loc m c (4 + s) (by omega) r hr
  iintro H Hk
  iapply (step_wait m K c (4 + s) _ r NS hd (amount_st m c (4 + s) (by omega) (by omega) r 0) O W hcr) $$ H
  iintro ⟨HO, Hat, Hr, Hpay⟩
  iapply Hk
  isplitl [HO]; · iexact HO
  isplitl [Hat]; · iexact Hat
  isplitl [Hr]; · iexact Hr
  iapply (Entails.of_eq ((payload_st m c (4 + s) (by omega) (by omega) r 0).trans (by rw [show 4 + s - 4 + 4 * r = s + 4 * r by omega]))); iexact Hpay

/-! ## Loads and stores through the staging slots -/

set_option maxHeartbeats 1000000 in
/-- Load `j` (of eight): 2048 rows of the argument into slot `s = j mod 4`, paying round `r = j / 4` of load cell `s`. -/
theorem step_load (c : Dev nD) (j : Fin 8) (s : Fin 4) (r : ℕ) (hsj : s.val = j.val % 4) (hrj : r = j.val / 4)
    (fd : Buf (Elt F) ((c : Thread nD τ).loc cc0_scratch0))
    {hsrc : (M0.slice (xLd j) (fun _ => rfl)).view.WordExact} {hdst : (slot s).view.WordExact}
    {hsem : DmaTarget.Typed (nD := nD) .hbm (.dma (ds s.val (by omega))) (DmaTarget.here (p := (Proc.tc : Proc τ)) (slot s))}
    {α : Type} {Q : α → sProp 𝕄} {k : PUnit → Prog (TpuEff nD τ sig (Elt F) Λ₀ .tc) α}
    (hland : iprop((((slot s).view.loc (c : Thread nD τ)) ↦[(slot s).view.set]{fullShare}
          ((slot s).view.write (Elt F) fd ((M0.slice (xLd j) (fun _ => rfl)).view.read (Elt F) (xin m c)) Finset.univ))
        ∗ (((M0.slice (xLd j) (fun _ => rfl)).view.loc (c : Thread nD τ)) ↦[(M0.slice (xLd j) (fun _ => rfl)).view.set]{fullShare.right} xin m c))
      ⊢ (ldPay m c j.val : sProp 𝕄)) :
    iprop(records m K ∗ reached ER (cell c s.val (by omega)) r ∗ pts c main_arg0 (xLd j) fullShare.right (xin m c)
        ∗ pts c cc0_scratch0 (vSl s) fullShare fd ∗ dutyTok ER (cell c s.val (by omega)) r 0)
      ⊢ iprop((cred (tallyAt (cell c s.val (by omega)) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xLd j) (fun _ => rfl)) (.here (slot s)) (.dma (ds s.val (by omega))) hsrc hdst hsem) k) Q) := by
  have hr2 : r < 2 := by have := j.isLt; omega
  have hd : (agRd m).duties (cell c s.val (by omega)) r = {0} := duties_loc m c s.val (by omega) r hr2
  have hj : s.val + 4 * r = j.val := by omega
  have h := step_copy m K c s.val (by omega) r NL hd (amount_ld m c s.val (by omega) r 0)
    (src := M0.slice (xLd j) (fun _ => rfl)) (dst := slot s) (hsrc := hsrc) (hdst := hdst) (hsem := hsem) (Q := Q) (k := k)
    fullShare.right (xin m c) fd rfl (by rw [payload_ld m c s.val (by omega) r 0, hj]; exact hland)
    (reached ER (cell c s.val (by omega)) r) .rfl
  exact (sep_mono_right (sep_mono_right (sep_mono_left (Entails.of_eq (pts_slice0 c (xLd j) (fun _ => rfl) fullShare.right (xin m c)).symm)))).trans
    ((sep_mono_right (sep_mono_right (sep_mono_right (sep_mono_left (Entails.of_eq (pts_slot c s fullShare fd).symm))))).trans h)

set_option maxHeartbeats 1000000 in
/-- Store `j`: slot `s = j mod 4`, holding chunk `j` of the argument, into chunk `j` of the device's own half of the result. -/
theorem step_store (c : Dev nD) (j : Fin 8) (s : Fin 4) (r : ℕ) (hsj : s.val = j.val % 4) (hrj : r = j.val / 4)
    (fd : Buf (Elt F) ((c : Thread nD τ).loc main_v1))
    {hsrc : (slot s).view.WordExact} {hdst : (M1.slice (oOwn c j) (fun _ => rfl)).view.WordExact}
    {hsem : DmaTarget.Typed (nD := nD) .vmem (.dma (ds (4 + s.val) (by omega))) (DmaTarget.here (p := (Proc.tc : Proc τ)) (M1.slice (oOwn c j) (fun _ => rfl)))}
    {α : Type} {Q : α → sProp 𝕄} {k : PUnit → Prog (TpuEff nD τ sig (Elt F) Λ₀ .tc) α}
    (hland : iprop((((M1.slice (oOwn c j) (fun _ => rfl)).view.loc (c : Thread nD τ)) ↦[(M1.slice (oOwn c j) (fun _ => rfl)).view.set]{fullShare}
          ((M1.slice (oOwn c j) (fun _ => rfl)).view.write (Elt F) fd ((slot s).view.read (Elt F) (vfill m c j.val)) Finset.univ))
        ∗ (((slot s).view.loc (c : Thread nD τ)) ↦[(slot s).view.set]{fullShare} vfill m c j.val))
      ⊢ (stPay m c j.val : sProp 𝕄)) :
    iprop(records m K ∗ reached ER (cell c (4 + s.val) (by omega)) r ∗ pts c cc0_scratch0 (vSl s) fullShare (vfill m c j.val)
        ∗ pts c main_v1 (oOwn c j) fullShare fd ∗ dutyTok ER (cell c (4 + s.val) (by omega)) r 0)
      ⊢ iprop((cred (tallyAt (cell c (4 + s.val) (by omega)) () NS) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot s) (.here (M1.slice (oOwn c j) (fun _ => rfl))) (.dma (ds (4 + s.val) (by omega))) hsrc hdst hsem) k) Q) := by
  have hr2 : r < 2 := by have := j.isLt; omega
  have hd : (agRd m).duties (cell c (4 + s.val) (by omega)) r = {0} := duties_loc m c (4 + s.val) (by omega) r hr2
  have hj : 4 + s.val - 4 + 4 * r = j.val := by omega
  have h := step_copy m K c (4 + s.val) (by omega) r NS hd (amount_st m c (4 + s.val) (by omega) (by omega) r 0)
    (src := slot s) (dst := M1.slice (oOwn c j) (fun _ => rfl)) (hsrc := hsrc) (hdst := hdst) (hsem := hsem) (Q := Q) (k := k)
    fullShare (vfill m c j.val) fd rfl (by rw [payload_st m c (4 + s.val) (by omega) (by omega) r 0, hj]; exact hland)
    (reached ER (cell c (4 + s.val) (by omega)) r) .rfl
  exact (sep_mono_right (sep_mono_right (sep_mono_left (Entails.of_eq (pts_slot c s fullShare (vfill m c j.val)).symm)))).trans
    ((sep_mono_right (sep_mono_right (sep_mono_right (sep_mono_left (Entails.of_eq (pts_slice1 c (oOwn c j) (fun _ => rfl) fullShare fd).symm))))).trans h)

end Cert.Kernel.AG

end
-- ==== Proof.KernelAG.Sems.lean ====
/- The semaphores the body names — element k of a scratch array of DMA semaphores, sliced and squeezed — by their numbers
  among the forty: the arrays lie one after the other.
-/
import proofs.«900686_g7700000000000687_dist_ag_v7x_xyz2x4x4_x_m16384_n1024_f32_1_alg».proof.Proof.KernelAG.Sched

noncomputable section

namespace Cert.Kernel.AG

open Cert.Kernel Cert.Kernel.Gen
open Idealize.ShloMosaic Idealize.SL.Sem

theorem sem_s1_0 : ((cc0_scratch1.slice (Rect.unit (s := S4) ![0] S1.size inb_S4_S1_0)).squeeze S_ squeezes_S1_S_).sem = ds 0 := rfl
theorem sem_s1_1 : ((cc0_scratch1.slice (Rect.unit (s := S4) ![1] S1.size inb_S4_S1_1)).squeeze S_ squeezes_S1_S_).sem = ds 1 := rfl
theorem sem_s1_2 : ((cc0_scratch1.slice (Rect.unit (s := S4) ![2] S1.size inb_S4_S1_2)).squeeze S_ squeezes_S1_S_).sem = ds 2 := rfl
theorem sem_s1_3 : ((cc0_scratch1.slice (Rect.unit (s := S4) ![3] S1.size inb_S4_S1_3)).squeeze S_ squeezes_S1_S_).sem = ds 3 := rfl
theorem sem_s2_0 : ((cc0_scratch2.slice (Rect.unit (s := S4) ![0] S1.size inb_S4_S1_0)).squeeze S_ squeezes_S1_S_).sem = ds 4 := rfl
theorem sem_s2_1 : ((cc0_scratch2.slice (Rect.unit (s := S4) ![1] S1.size inb_S4_S1_1)).squeeze S_ squeezes_S1_S_).sem = ds 5 := rfl
theorem sem_s2_2 : ((cc0_scratch2.slice (Rect.unit (s := S4) ![2] S1.size inb_S4_S1_2)).squeeze S_ squeezes_S1_S_).sem = ds 6 := rfl
theorem sem_s2_3 : ((cc0_scratch2.slice (Rect.unit (s := S4) ![3] S1.size inb_S4_S1_3)).squeeze S_ squeezes_S1_S_).sem = ds 7 := rfl
theorem sem_s3_0 : ((cc0_scratch3.slice (Rect.unit (s := S4) ![0] S1.size inb_S4_S1_0)).squeeze S_ squeezes_S1_S_).sem = ds 8 := rfl
theorem sem_s3_1 : ((cc0_scratch3.slice (Rect.unit (s := S4) ![1] S1.size inb_S4_S1_1)).squeeze S_ squeezes_S1_S_).sem = ds 9 := rfl
theorem sem_s3_2 : ((cc0_scratch3.slice (Rect.unit (s := S4) ![2] S1.size inb_S4_S1_2)).squeeze S_ squeezes_S1_S_).sem = ds 10 := rfl
theorem sem_s3_3 : ((cc0_scratch3.slice (Rect.unit (s := S4) ![3] S1.size inb_S4_S1_3)).squeeze S_ squeezes_S1_S_).sem = ds 11 := rfl
theorem sem_s4_0 : ((cc0_scratch4.slice (Rect.unit (s := S4) ![0] S1.size inb_S4_S1_0)).squeeze S_ squeezes_S1_S_).sem = ds 12 := rfl
theorem sem_s4_1 : ((cc0_scratch4.slice (Rect.unit (s := S4) ![1] S1.size inb_S4_S1_1)).squeeze S_ squeezes_S1_S_).sem = ds 13 := rfl
theorem sem_s4_2 : ((cc0_scratch4.slice (Rect.unit (s := S4) ![2] S1.size inb_S4_S1_2)).squeeze S_ squeezes_S1_S_).sem = ds 14 := rfl
theorem sem_s4_3 : ((cc0_scratch4.slice (Rect.unit (s := S4) ![3] S1.size inb_S4_S1_3)).squeeze S_ squeezes_S1_S_).sem = ds 15 := rfl
theorem sem_s5_0 : ((cc0_scratch5.slice (Rect.unit (s := S4) ![0] S1.size inb_S4_S1_0)).squeeze S_ squeezes_S1_S_).sem = ds 16 := rfl
theorem sem_s5_1 : ((cc0_scratch5.slice (Rect.unit (s := S4) ![1] S1.size inb_S4_S1_1)).squeeze S_ squeezes_S1_S_).sem = ds 17 := rfl
theorem sem_s5_2 : ((cc0_scratch5.slice (Rect.unit (s := S4) ![2] S1.size inb_S4_S1_2)).squeeze S_ squeezes_S1_S_).sem = ds 18 := rfl
theorem sem_s5_3 : ((cc0_scratch5.slice (Rect.unit (s := S4) ![3] S1.size inb_S4_S1_3)).squeeze S_ squeezes_S1_S_).sem = ds 19 := rfl
theorem sem_s6_0 : ((cc0_scratch6.slice (Rect.unit (s := S4) ![0] S1.size inb_S4_S1_0)).squeeze S_ squeezes_S1_S_).sem = ds 20 := rfl
theorem sem_s6_1 : ((cc0_scratch6.slice (Rect.unit (s := S4) ![1] S1.size inb_S4_S1_1)).squeeze S_ squeezes_S1_S_).sem = ds 21 := rfl
theorem sem_s6_2 : ((cc0_scratch6.slice (Rect.unit (s := S4) ![2] S1.size inb_S4_S1_2)).squeeze S_ squeezes_S1_S_).sem = ds 22 := rfl
theorem sem_s6_3 : ((cc0_scratch6.slice (Rect.unit (s := S4) ![3] S1.size inb_S4_S1_3)).squeeze S_ squeezes_S1_S_).sem = ds 23 := rfl
theorem sem_s7_0 : ((cc0_scratch7.slice (Rect.unit (s := S4) ![0] S1.size inb_S4_S1_0)).squeeze S_ squeezes_S1_S_).sem = ds 24 := rfl
theorem sem_s7_1 : ((cc0_scratch7.slice (Rect.unit (s := S4) ![1] S1.size inb_S4_S1_1)).squeeze S_ squeezes_S1_S_).sem = ds 25 := rfl
theorem sem_s7_2 : ((cc0_scratch7.slice (Rect.unit (s := S4) ![2] S1.size inb_S4_S1_2)).squeeze S_ squeezes_S1_S_).sem = ds 26 := rfl
theorem sem_s7_3 : ((cc0_scratch7.slice (Rect.unit (s := S4) ![3] S1.size inb_S4_S1_3)).squeeze S_ squeezes_S1_S_).sem = ds 27 := rfl
theorem sem_s8_0 : ((cc0_scratch8.slice (Rect.unit (s := S4) ![0] S1.size inb_S4_S1_0)).squeeze S_ squeezes_S1_S_).sem = ds 28 := rfl
theorem sem_s8_1 : ((cc0_scratch8.slice (Rect.unit (s := S4) ![1] S1.size inb_S4_S1_1)).squeeze S_ squeezes_S1_S_).sem = ds 29 := rfl
theorem sem_s8_2 : ((cc0_scratch8.slice (Rect.unit (s := S4) ![2] S1.size inb_S4_S1_2)).squeeze S_ squeezes_S1_S_).sem = ds 30 := rfl
theorem sem_s8_3 : ((cc0_scratch8.slice (Rect.unit (s := S4) ![3] S1.size inb_S4_S1_3)).squeeze S_ squeezes_S1_S_).sem = ds 31 := rfl
theorem sem_s9_0 : ((cc0_scratch9.slice (Rect.unit (s := S2) ![0] S1.size inb_S2_S1_0)).squeeze S_ squeezes_S1_S_).sem = ds 32 := rfl
theorem sem_s9_1 : ((cc0_scratch9.slice (Rect.unit (s := S2) ![1] S1.size inb_S2_S1_1)).squeeze S_ squeezes_S1_S_).sem = ds 33 := rfl
theorem sem_s10_0 : ((cc0_scratch10.slice (Rect.unit (s := S2) ![0] S1.size inb_S2_S1_0)).squeeze S_ squeezes_S1_S_).sem = ds 34 := rfl
theorem sem_s10_1 : ((cc0_scratch10.slice (Rect.unit (s := S2) ![1] S1.size inb_S2_S1_1)).squeeze S_ squeezes_S1_S_).sem = ds 35 := rfl
theorem sem_s11_0 : ((cc0_scratch11.slice (Rect.unit (s := S2) ![0] S1.size inb_S2_S1_0)).squeeze S_ squeezes_S1_S_).sem = ds 36 := rfl
theorem sem_s11_1 : ((cc0_scratch11.slice (Rect.unit (s := S2) ![1] S1.size inb_S2_S1_1)).squeeze S_ squeezes_S1_S_).sem = ds 37 := rfl
theorem sem_s12_0 : ((cc0_scratch12.slice (Rect.unit (s := S2) ![0] S1.size inb_S2_S1_0)).squeeze S_ squeezes_S1_S_).sem = ds 38 := rfl
theorem sem_s12_1 : ((cc0_scratch12.slice (Rect.unit (s := S2) ![1] S1.size inb_S2_S1_1)).squeeze S_ squeezes_S1_S_).sem = ds 39 := rfl

end Cert.Kernel.AG

end
-- ==== Proof.KernelAG.Levels.lean ====
/-
  The evidence a device's waits present: at each wait, whatever the device still owes lies, in level, strictly above
  the cell it waits on.

  What a device owes is a list of payments to cells of other devices, in program order; what it still owes at a point
  of its program is a tail of that list. Barrier cells sit at level 1, x receive cells at 2, y and z receive cells at
  3, the diagonal receive cells at 4, every other cell at 0, and the list is ordered by level: so a wait on a cell at
  level k is allowed as soon as the payments to cells at levels up to k have been made.
-/
import proofs.«900686_g7700000000000687_dist_ag_v7x_xyz2x4x4_x_m16384_n1024_f32_1_alg».proof.Proof.KernelAG.Proto

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A sum of payments is positive only at a cell it pays -/

theorem sumT_pos (l : List (GSem nD τ sig × ℕ)) {g : GSem nD τ sig} {u : Unit} (h : 0 < sumT l g u) : ∃ e ∈ l, e.1 = g := by
  induction l with
  | nil =>
    change 0 < (0 : CellTallies nD τ sig Unit) g u at h
    rw [Pi.zero_apply, Finsupp.zero_apply] at h
    exact absurd h (Nat.lt_irrefl 0)
  | cons a l ih =>
    rw [sumT_cons, Pi.add_apply, Finsupp.add_apply, tallyAt_apply] at h
    by_cases hg : g = a.1 ∧ u = ()
    · exact ⟨a, List.mem_cons_self, hg.1.symm⟩
    · rw [if_neg hg, Nat.add_zero] at h
      obtain ⟨e, he, heq⟩ := ih h
      exact ⟨e, List.mem_cons_of_mem _ he, heq⟩

/-! ## The wait evidence from a cut -/

omit [FloatOps F] in
/-- A device may wait on its cell `sm` while it owes the payments `l`, if some level `cut` has the cell at or below
    it and every cell `l` pays, a core's, strictly above. -/
theorem mayWait_sumT (c : Dev nD) (sm : SemLoc sig) (l : List (GSem nD τ sig × ℕ)) (cut : ℕ)
    (hsm : lv ((c : Thread nD τ), sm) () ≤ cut) (hl : ∀ e ∈ l, e.1.1.2 = Proc.tc ∧ cut < lv e.1 ()) :
    (levAts L lv : sProp 𝕄) ⊢ MayWait (c : Thread nD τ) sm () (sumT l) :=
  MayOwe.of_cut (L := L) (lev := lv) cut
    (fun p hp => by rw [Finset.mem_singleton.mp hp, L_tc]; exact Finset.mem_singleton_self _)
    (fun g u hg => by
      obtain ⟨e, he, rfl⟩ := sumT_pos l hg
      rw [L, if_pos (hl e he).1]; exact Finset.mem_singleton_self _)
    (fun p hp => by rw [Finset.mem_singleton.mp hp]; exact hsm)
    (fun g u hg => by
      obtain ⟨e, he, rfl⟩ := sumT_pos l hg
      exact (hl e he).2)

/-! ## The levels of the cells by name -/

theorem lv_bar (t : Thread nD τ) : lv (t, .reg barS) () = 1 := if_pos rfl

theorem lv_dma (t : Thread nD τ) (s : DmaSem sig) : lv (t, .dma s) () =
    if 12 ≤ s.val ∧ s.val < 16 then 2
    else if (20 ≤ s.val ∧ s.val < 24) ∨ (28 ≤ s.val ∧ s.val < 32) then 3
    else if (34 ≤ s.val ∧ s.val < 36) ∨ (38 ≤ s.val ∧ s.val < 40) then 4
    else 0 := if_neg (fun h => by cases h)

theorem lv_cell (d : Dev nD) (n : ℕ) (h : n < 40) : lv (cell d n h) () =
    if 12 ≤ n ∧ n < 16 then 2
    else if (20 ≤ n ∧ n < 24) ∨ (28 ≤ n ∧ n < 32) then 3
    else if (34 ≤ n ∧ n < 36) ∨ (38 ≤ n ∧ n < 40) then 4
    else 0 := lv_dma _ _

/-- A payment to a transfer cell is to a core's cell, at that cell's level. -/
theorem ok_cell (d : Dev nD) (n : ℕ) (h : n < 40) (a k : ℕ)
    (hk : k ≤ (if 12 ≤ n ∧ n < 16 then 2
      else if (20 ≤ n ∧ n < 24) ∨ (28 ≤ n ∧ n < 32) then 3
      else if (34 ≤ n ∧ n < 36) ∨ (38 ≤ n ∧ n < 40) then 4
      else 0)) :
    (cell d n h, a).1.1.2 = Proc.tc ∧ k ≤ lv (cell d n h, a).1 () :=
  ⟨rfl, by rw [lv_cell]; exact hk⟩

/-- A payment to a barrier cell is to a core's cell, at level 1. -/
theorem ok_bar (d : Dev nD) (a : ℕ) : (barCell d, a).1.1.2 = Proc.tc ∧ 1 ≤ lv (barCell d, a).1 () :=
  ⟨rfl, by rw [lv_bar]⟩

theorem mem_drop_of_le {α : Type} {l : List α} {i j : ℕ} (h : i ≤ j) {e : α} (he : e ∈ l.drop j) : e ∈ l.drop i := by
  have hj : j = i + (j - i) := by omega
  rw [hj, ← List.drop_drop] at he
  exact List.mem_of_mem_drop he

/-! ## The tails of what a device owes

After its three barrier units a device owes the tail from 3; after its four x copies the tail from 7; after the
`k`-th pair of y and z copies the tail from 7 + 2k; then the y-diagonal copies (15, 16) and the z-diagonal ones (17, 18). -/

theorem owed_drop_3 (c : Dev nD) : (owedList c).drop 3 =
  [ (cell (px c) 12, N), (cell (px c) 13, N), (cell (px c) 14, N), (cell (px c) 15, N),
    (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_7 (c : Dev nD) : (owedList c).drop 7 =
  [ (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_9 (c : Dev nD) : (owedList c).drop 9 =
  [ (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_11 (c : Dev nD) : (owedList c).drop 11 =
  [ (cell (yb c) 22, N), (cell (zb c) 30, N), (cell (yb c) 23, N), (cell (zb c) 31, N),
    (cell (yb c) 34, N), (cell (yb c) 35, N), (cell (zb c) 38, N), (cell (zb c) 39, N) ] := rfl
theorem owed_drop_13 (c : Dev nD) : (owedList c).drop 13 =
  [ (cell (yb c) 23, N), (cell (zb c) 31, N),
    (cell (yb c) 34, N), (cell (yb c) 35, N), (cell (zb c) 38, N), (cell (zb c) 39, N) ] := rfl
theorem owed_drop_15 (c : Dev nD) : (owedList c).drop 15 =
  [ (cell (yb c) 34, N), (cell (yb c) 35, N), (cell (zb c) 38, N), (cell (zb c) 39, N) ] := rfl
theorem owed_drop_16 (c : Dev nD) : (owedList c).drop 16 = [ (cell (yb c) 35, N), (cell (zb c) 38, N), (cell (zb c) 39, N) ] := rfl
theorem owed_drop_17 (c : Dev nD) : (owedList c).drop 17 = [ (cell (zb c) 38, N), (cell (zb c) 39, N) ] := rfl
theorem owed_drop_18 (c : Dev nD) : (owedList c).drop 18 = [ (cell (zb c) 39, N) ] := rfl
theorem owed_drop_19 (c : Dev nD) : (owedList c).drop 19 = [] := rfl

/-- The diagonal receive cells, owed last, sit at level 4. -/
theorem owed_from_15 (c : Dev nD) : ∀ e ∈ (owedList c).drop 15, e.1.1.2 = Proc.tc ∧ 4 ≤ lv e.1 () := by
  rw [owed_drop_15]
  exact List.forall_mem_cons.mpr ⟨ok_cell _ 34 _ N 4 (by decide), List.forall_mem_cons.mpr ⟨ok_cell _ 35 _ N 4 (by decide),
    List.forall_mem_cons.mpr ⟨ok_cell _ 38 _ N 4 (by decide), List.forall_mem_cons.mpr ⟨ok_cell _ 39 _ N 4 (by decide),
    fun e he => absurd he List.not_mem_nil⟩⟩⟩⟩

/-- From the first y copy on, everything owed is to a y, z or diagonal receive cell: level 3 at least. -/
theorem owed_from_7 (c : Dev nD) : ∀ e ∈ (owedList c).drop 7, e.1.1.2 = Proc.tc ∧ 3 ≤ lv e.1 () := by
  have h15 : ∀ e ∈ ((owedList c).drop 7).drop 8, e.1.1.2 = Proc.tc ∧ 3 ≤ lv e.1 () := fun e he =>
    ⟨(owed_from_15 c e he).1, le_trans (by decide) (owed_from_15 c e he).2⟩
  rw [owed_drop_7] at h15 ⊢
  exact List.forall_mem_cons.mpr ⟨ok_cell _ 20 _ N 3 (by decide), List.forall_mem_cons.mpr ⟨ok_cell _ 28 _ N 3 (by decide),
    List.forall_mem_cons.mpr ⟨ok_cell _ 21 _ N 3 (by decide), List.forall_mem_cons.mpr ⟨ok_cell _ 29 _ N 3 (by decide),
    List.forall_mem_cons.mpr ⟨ok_cell _ 22 _ N 3 (by decide), List.forall_mem_cons.mpr ⟨ok_cell _ 30 _ N 3 (by decide),
    List.forall_mem_cons.mpr ⟨ok_cell _ 23 _ N 3 (by decide), List.forall_mem_cons.mpr ⟨ok_cell _ 31 _ N 3 (by decide),
    h15⟩⟩⟩⟩⟩⟩⟩⟩

/-- From the first x copy on, everything owed is to a receive cell: level 2 at least. -/
theorem owed_from_3 (c : Dev nD) : ∀ e ∈ (owedList c).drop 3, e.1.1.2 = Proc.tc ∧ 2 ≤ lv e.1 () := by
  have h7 : ∀ e ∈ ((owedList c).drop 3).drop 4, e.1.1.2 = Proc.tc ∧ 2 ≤ lv e.1 () := fun e he =>
    ⟨(owed_from_7 c e he).1, le_trans (by decide) (owed_from_7 c e he).2⟩
  rw [owed_drop_3] at h7 ⊢
  exact List.forall_mem_cons.mpr ⟨ok_cell _ 12 _ N 2 (by decide), List.forall_mem_cons.mpr ⟨ok_cell _ 13 _ N 2 (by decide),
    List.forall_mem_cons.mpr ⟨ok_cell _ 14 _ N 2 (by decide), List.forall_mem_cons.mpr ⟨ok_cell _ 15 _ N 2 (by decide),
    h7⟩⟩⟩⟩

/-- Everything a device owes is to a barrier or a receive cell: level 1 at least. -/
theorem owed_from_0 (c : Dev nD) : ∀ e ∈ owedList c, e.1.1.2 = Proc.tc ∧ 1 ≤ lv e.1 () := by
  have h3 : ∀ e ∈ (owedList c).drop 3, e.1.1.2 = Proc.tc ∧ 1 ≤ lv e.1 () := fun e he =>
    ⟨(owed_from_3 c e he).1, le_trans (by decide) (owed_from_3 c e he).2⟩
  exact List.forall_mem_cons.mpr ⟨ok_bar _ 1, List.forall_mem_cons.mpr ⟨ok_bar _ 1, List.forall_mem_cons.mpr ⟨ok_bar _ 1, h3⟩⟩⟩

/-! ## The waits of the body -/

omit [FloatOps F] in
/-- The barrier wait, the three units paid: what is owed are receive cells, above the barrier cell. -/
theorem mayWait_bar (c : Dev nD) :
    (levAts L lv : sProp 𝕄) ⊢ MayWait (c : Thread nD τ) (.reg barS) () (sumT ((owedList c).drop 3)) :=
  mayWait_sumT c _ _ 1 (le_of_eq (lv_bar _)) (owed_from_3 c)

omit [FloatOps F] in
/-- The wait for the `k`-th x chunk to land, the x copies and `k` pairs of y and z copies issued. -/
theorem mayWait_xrecv (c : Dev nD) (k : Fin 4) :
    (levAts L lv : sProp 𝕄) ⊢ MayWait (c : Thread nD τ) (.dma (ds (12 + k.val) (by have := k.isLt; omega))) ()
      (sumT ((owedList c).drop (7 + 2 * k.val))) :=
  mayWait_sumT c _ _ 2
    (by rw [lv_dma, if_pos ⟨Nat.le_add_right _ _, by show 12 + k.val < 16; have := k.isLt; omega⟩])
    (fun e he => owed_from_7 c e (mem_drop_of_le (Nat.le_add_right _ _) he))

omit [FloatOps F] in
/-- The wait for a z chunk (28, 29) to land before it is passed on diagonally: only diagonal copies are owed. -/
theorem mayWait_zrecv (c : Dev nD) (j : Fin 2) :
    (levAts L lv : sProp 𝕄) ⊢ MayWait (c : Thread nD τ) (.dma (ds (28 + j.val) (by have := j.isLt; omega))) ()
      (sumT ((owedList c).drop (15 + j.val))) :=
  mayWait_sumT c _ _ 3
    (by
      have hj := j.isLt
      rw [lv_dma, if_neg (fun h => by have : 28 + j.val < 16 := h.2; omega),
        if_pos (Or.inr ⟨Nat.le_add_right _ _, by show 28 + j.val < 32; omega⟩)])
    (fun e he => owed_from_15 c e (mem_drop_of_le (Nat.le_add_right _ _) he))

omit [FloatOps F] in
/-- The wait for a y chunk (22, 23) to land before it is passed on diagonally: only the z-diagonal copies are owed. -/
theorem mayWait_yrecv (c : Dev nD) (j : Fin 2) :
    (levAts L lv : sProp 𝕄) ⊢ MayWait (c : Thread nD τ) (.dma (ds (22 + j.val) (by have := j.isLt; omega))) ()
      (sumT ((owedList c).drop (17 + j.val))) :=
  mayWait_sumT c _ _ 3
    (by
      have hj := j.isLt
      rw [lv_dma, if_neg (fun h => by have : 22 + j.val < 16 := h.2; omega),
        if_pos (Or.inl ⟨by show 20 ≤ 22 + j.val; omega, by show 22 + j.val < 24; omega⟩)])
    (fun e he => owed_from_15 c e (mem_drop_of_le (by omega) he))

omit [FloatOps F] in
/-- A wait on a load or store cell (level 0) is allowed whatever of its payments the device still owes. -/
theorem mayWait_local (c : Dev nD) (n : ℕ) (hn : n < 8) (i : ℕ) :
    (levAts L lv : sProp 𝕄) ⊢ MayWait (c : Thread nD τ) (.dma (ds n (by omega))) () (sumT ((owedList c).drop i)) :=
  mayWait_sumT c _ _ 0
    (by
      rw [lv_dma, if_neg (fun h => by have : 12 ≤ n := h.1; omega),
        if_neg (fun h => by rcases h with h | h <;> (have : _ ≤ n := h.1; omega)),
        if_neg (fun h => by rcases h with h | h <;> (have : _ ≤ n := h.1; omega))])
    (fun e he => owed_from_0 c e (List.mem_of_mem_drop he))

omit [FloatOps F] in
/-- Owing nothing, a device may wait on any of its cells. -/
theorem mayWait_nil (c : Dev nD) (sm : SemLoc sig) :
    (levAts L lv : sProp 𝕄) ⊢ MayWait (c : Thread nD τ) sm () (sumT []) :=
  mayWait_sumT c sm [] _ le_rfl (fun e he => absurd he List.not_mem_nil)

/-- info: 'Cert.Kernel.AG.mayWait_sumT' depends on axioms: [propext, Classical.choice, Quot.sound] -/
#guard_msgs in #print axioms mayWait_sumT
/-- info: 'Cert.Kernel.AG.mayWait_bar' depends on axioms: [propext, Classical.choice, Quot.sound] -/
#guard_msgs in #print axioms mayWait_bar
/-- info: 'Cert.Kernel.AG.mayWait_xrecv' depends on axioms: [propext, Classical.choice, Quot.sound] -/
#guard_msgs in #print axioms mayWait_xrecv
/-- info: 'Cert.Kernel.AG.mayWait_zrecv' depends on axioms: [propext, Classical.choice, Quot.sound] -/
#guard_msgs in #print axioms mayWait_zrecv
/-- info: 'Cert.Kernel.AG.mayWait_yrecv' depends on axioms: [propext, Classical.choice, Quot.sound] -/
#guard_msgs in #print axioms mayWait_yrecv
/-- info: 'Cert.Kernel.AG.mayWait_local' depends on axioms: [propext, Classical.choice, Quot.sound] -/
#guard_msgs in #print axioms mayWait_local

end Cert.Kernel.AG

end
-- ==== Proof.KernelAG.Close.lean ====
/-
  Closing a device's forty transfer cells at the end of its body.

  A cell whose owner has reached a round from which no round has a duty, having consumed every unit the earlier rounds
  brought, is closed by its owner: the cell's invariant, opened, reads the counter at zero against the owner's
  position, and the owner leaves with the counter. The load and store cells have two rounds, the other cells one; so
  a device that stands at round 2 of the former and round 1 of the latter gets all forty counters back at zero.
-/
import proofs.«900686_g7700000000000687_dist_ag_v7x_xyz2x4x4_x_m16384_n1024_f32_1_alg».proof.Proof.KernelAG.Proto

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Updates of the members of a joined list -/

/-- Updates of the members of a joined list, each made beside a persistent `R`, make an update of the join. -/
theorem sepL_fupd_map {ι : Type} (R : sProp 𝕄) [BI.Persistent R] (P Q : ι → sProp 𝕄) (l : List ι)
    (h : ∀ i ∈ l, iprop(R ∗ P i) ⊢ (iprop(|={Set.univ}=> Q i) : sProp 𝕄)) :
    iprop(R ∗ sepL (l.map P)) ⊢ (iprop(|={Set.univ}=> sepL (l.map Q)) : sProp 𝕄) := by
  induction l with
  | nil =>
    iintro ⟨-, H⟩
    imodintro
    iexact H
  | cons i l ih =>
    cases l with
    | nil => exact h i List.mem_cons_self
    | cons j l =>
      show iprop(R ∗ P i ∗ sepL ((j :: l).map P)) ⊢ (iprop(|={Set.univ}=> (Q i ∗ sepL ((j :: l).map Q))) : sProp 𝕄)
      iintro ⟨#HR, Hi, Hl⟩
      imod (h i List.mem_cons_self) $$ [Hi] with Hq
      · isplitr; · iexact HR
        iexact Hi
      imod (ih (fun k hk => h k (List.mem_cons_of_mem _ hk))) $$ [Hl] with Hql
      · isplitr; · iexact HR
        iexact Hl
      imodintro
      isplitl [Hq]; · iexact Hq
      iexact Hql

/-! ## One cell -/

/-- The shared records hold the invariant of device `c`'s transfer cell `n`, under its name. -/
theorem records_cellInv (K : Dev nD × Fin 41 → ℕ) (c : Dev nD) (n : ℕ) (hn : n < 40) :
    (records m K : sProp 𝕄) ⊢ cellInv ER (agRd m) (K (c, ⟨n, Nat.lt_succ_of_lt hn⟩)) (cell c n hn) := by
  have hk : kcell (c, (⟨n, Nat.lt_succ_of_lt hn⟩ : Fin 41)) = cell c n hn := by unfold kcell; exact dif_pos hn
  have hel : (bigSep Finset.univ fun ck : Dev nD × Fin 41 => (cellInv ER (agRd m) (K ck) (kcell ck) : sProp 𝕄))
      ⊢ cellInv ER (agRd m) (K (c, ⟨n, Nat.lt_succ_of_lt hn⟩)) (kcell (c, (⟨n, Nat.lt_succ_of_lt hn⟩ : Fin 41))) :=
    bigSep_elim (Finset.mem_univ (c, (⟨n, Nat.lt_succ_of_lt hn⟩ : Fin 41)))
  rw [hk] at hel
  unfold records
  iintro ⟨HI, -⟩
  iapply (hel)
  iexact HI

/-- Device `c`, at a round `R` of its transfer cell `n` from which no round has a duty, nothing taken and nothing
    consumed of it, closes the cell and has its counter at zero. -/
theorem close_cell (K : Dev nD × Fin 41 → ℕ) (c : Dev nD) (n : ℕ) (hn : n < 40) (R : ℕ)
    (hR : ∀ r, R ≤ r → (agRd m).duties (cell c n hn) r = ∅) :
    iprop(records m K ∗ atPos ER (cell c n hn) R ∅ 0) ⊢ (iprop(|={Set.univ}=> semVal (cell c n hn) 0) : sProp 𝕄) := by
  iintro ⟨#Hrec, Hat⟩
  iapply (Rounds.cell_close ER (agRd m) (Set.mem_univ (K (c, ⟨n, Nat.lt_succ_of_lt hn⟩))) (fun h => h) (R := R) hR)
  isplitr
  · iapply (records_cellInv m K c n hn); iexact Hrec
  · iexact Hat

/-! ## All forty -/

/-- The load and store cells (0–7) have duties at rounds 0 and 1 only, the other cells at round 0 only. -/
theorem duties_from (c : Dev nD) (n : Fin 40) :
    ∀ r, (if n.val < 8 then 2 else 1) ≤ r → (agRd m).duties (cell c n.val n.isLt) r = ∅ := by
  by_cases h8 : n.val < 8
  · rw [if_pos h8]; exact duties_later_loc m c n.val h8
  · rw [if_neg h8]; exact duties_later_rem m c n.val n.isLt (Nat.le_of_not_lt h8)

/-- Device `c`, at round 2 of its load and store cells and round 1 of its other transfer cells, closes all forty. -/
theorem close_all (K : Dev nD × Fin 41 → ℕ) (c : Dev nD) :
    iprop(records m K ∗ sepL ((List.finRange 40).map fun n => atPos ER (cell c n.val n.isLt) (if n.val < 8 then 2 else 1) ∅ 0))
      ⊢ (iprop(|={Set.univ}=> sepL ((List.finRange 40).map fun n => semVal (cell c n.val n.isLt) 0)) : sProp 𝕄) :=
  sepL_fupd_map (records m K) (fun n : Fin 40 => atPos ER (cell c n.val n.isLt) (if n.val < 8 then 2 else 1) ∅ 0)
    (fun n : Fin 40 => semVal (cell c n.val n.isLt) 0) (List.finRange 40)
    (fun n _ => close_cell m K c n.val n.isLt _ (duties_from m c n))

/-- info: 'Cert.Kernel.AG.close_cell' depends on axioms: [propext, Classical.choice, Quot.sound] -/
#guard_msgs in #print axioms close_cell
/-- info: 'Cert.Kernel.AG.close_all' depends on axioms: [propext, Classical.choice, Quot.sound] -/
#guard_msgs in #print axioms close_all

end Cert.Kernel.AG

end
-- ==== Proof.KernelAG.Exit.lean ====
/-
  The end of a device's body: from what it holds after its last wait to what the body must end with.

  After the last wait the device stands past every round of its forty transfer cells, so it closes them and has their
  counters back at zero. It holds its argument in pieces: at the left share the four chunks of the quarter it sent
  across x and the rest, at the right share the eight chunks it loaded; together the whole array as launched. It holds
  every row of its result, now at what the result must hold: the eight chunks of its own half, its own quarter of the
  other half in two half shares a chunk (back from the two buddies that read it), the buddies' quarters, and the
  diagonal quarter in its two halves; together the whole array. And it holds the four staging slots, a whole staging
  buffer at some contents. It owes nothing.
-/
import proofs.«900686_g7700000000000687_dist_ag_v7x_xyz2x4x4_x_m16384_n1024_f32_1_alg».proof.Proof.KernelAG.Geom
import proofs.«900686_g7700000000000687_dist_ag_v7x_xyz2x4x4_x_m16384_n1024_f32_1_alg».proof.Proof.KernelAG.Close
import proofs.«900686_g7700000000000687_dist_ag_v7x_xyz2x4x4_x_m16384_n1024_f32_1_alg».proof.Proof.KernelAG.Proto

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pipeline's one point -/

theorem cfg0_N : cfg0.N = 1 := by decide
/-- The one point of the pipeline's grid. -/
def t₀ : Fin cfg0.N := ⟨0, by rw [cfg0_N]; decide⟩

/-! ## The pieces, joined -/

/-- The four chunks of the device's own quarter of the other half, each in its two half shares, are the four chunks whole. -/
theorem quarter_join (c : Dev nD) (f : Buf (Elt F) ((c : Thread nD τ).loc main_v1)) :
    iprop((pts c main_v1 (oCh c (qF c) 0) fullShare.left f ∗ pts c main_v1 (oCh c (qF c) 0) fullShare.right f) ∗ (pts c main_v1 (oCh c (qF c) 1) fullShare.left f ∗ pts c main_v1 (oCh c (qF c) 1) fullShare.right f) ∗ (pts c main_v1 (oCh c (qF c) 2) fullShare.left f ∗ pts c main_v1 (oCh c (qF c) 2) fullShare.right f) ∗ (pts c main_v1 (oCh c (qF c) 3) fullShare.left f ∗ pts c main_v1 (oCh c (qF c) 3) fullShare.right f))
      ⊢ (iprop(pts c main_v1 (oCh c (qF c) 0) fullShare f ∗ pts c main_v1 (oCh c (qF c) 1) fullShare f ∗ pts c main_v1 (oCh c (qF c) 2) fullShare f ∗ pts c main_v1 (oCh c (qF c) 3) fullShare f) : sProp 𝕄) :=
  (sep_mono_left (pts_half c main_v1 (oCh c (qF c) 0) f).2).trans (sep_mono_right
    ((sep_mono_left (pts_half c main_v1 (oCh c (qF c) 1) f).2).trans (sep_mono_right
      ((sep_mono_left (pts_half c main_v1 (oCh c (qF c) 2) f).2).trans (sep_mono_right (pts_half c main_v1 (oCh c (qF c) 3) f).2)))))

/-- What the device holds of its result after its last wait is the whole result array. -/
theorem out_join (c : Dev nD) (f : Buf (Elt F) ((c : Thread nD τ).loc main_v1)) :
    iprop((pts c main_v1 (oOwn c 0) fullShare f ∗ pts c main_v1 (oOwn c 1) fullShare f ∗ pts c main_v1 (oOwn c 2) fullShare f ∗ pts c main_v1 (oOwn c 3) fullShare f ∗ pts c main_v1 (oOwn c 4) fullShare f ∗ pts c main_v1 (oOwn c 5) fullShare f ∗ pts c main_v1 (oOwn c 6) fullShare f ∗ pts c main_v1 (oOwn c 7) fullShare f)
      ∗ ((pts c main_v1 (oCh c (qF c) 0) fullShare.left f ∗ pts c main_v1 (oCh c (qF c) 0) fullShare.right f) ∗ (pts c main_v1 (oCh c (qF c) 1) fullShare.left f ∗ pts c main_v1 (oCh c (qF c) 1) fullShare.right f) ∗ (pts c main_v1 (oCh c (qF c) 2) fullShare.left f ∗ pts c main_v1 (oCh c (qF c) 2) fullShare.right f) ∗ (pts c main_v1 (oCh c (qF c) 3) fullShare.left f ∗ pts c main_v1 (oCh c (qF c) 3) fullShare.right f))
      ∗ (pts c main_v1 (oCh c (qF (yb c)) 0) fullShare f ∗ pts c main_v1 (oCh c (qF (yb c)) 1) fullShare f ∗ pts c main_v1 (oCh c (qF (yb c)) 2) fullShare f ∗ pts c main_v1 (oCh c (qF (yb c)) 3) fullShare f)
      ∗ (pts c main_v1 (oCh c (qF (zb c)) 0) fullShare f ∗ pts c main_v1 (oCh c (qF (zb c)) 1) fullShare f ∗ pts c main_v1 (oCh c (qF (zb c)) 2) fullShare f ∗ pts c main_v1 (oCh c (qF (zb c)) 3) fullShare f)
      ∗ (pts c main_v1 (oCh c (qF (zb (yb c))) 0) fullShare f ∗ pts c main_v1 (oCh c (qF (zb (yb c))) 1) fullShare f)
      ∗ (pts c main_v1 (oCh c (qF (yb (zb c))) 2) fullShare f ∗ pts c main_v1 (oCh c (qF (yb (zb c))) 3) fullShare f))
      ⊢ (whole c main_v1 f : sProp 𝕄) :=
  (sep_mono_right (sep_mono_left (quarter_join c f))).trans (out_split c f).2

/-! ## The exit -/

/-- From what device `c` holds after its last wait — the shared records, nothing owed, its forty transfer cells past
    their last rounds, and every piece of its three buffers — to the body's post: the cells closed at zero, the
    argument as launched, the result at what it must hold, a whole staging buffer, and nothing owed. -/
theorem body_exit (m : (ℓ : Loc nD τ sig) → Buf (Elt F) ℓ) (K : Dev nD × Fin 41 → ℕ)
    (c : Dev nD) (W : Waits sig Unit) :
    iprop(records m K ∗ owes (c : Thread nD τ) 0 W
      ∗ sepL ((List.finRange 40).map fun n => atPos ER (cell c n.val n.isLt) (if n.val < 8 then 2 else 1) ∅ 0)
      ∗ (pts c main_arg0 (xCh (qF c) 0) fullShare.left (xin m c) ∗ pts c main_arg0 (xCh (qF c) 1) fullShare.left (xin m c) ∗ pts c main_arg0 (xCh (qF c) 2) fullShare.left (xin m c) ∗ pts c main_arg0 (xCh (qF c) 3) fullShare.left (xin m c))
      ∗ xRest c (xin m c)
      ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
      ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c) ∗ pts c main_v1 (oOwn c 6) fullShare (target m c) ∗ pts c main_v1 (oOwn c 7) fullShare (target m c))
      ∗ ((pts c main_v1 (oCh c (qF c) 0) fullShare.left (target m c) ∗ pts c main_v1 (oCh c (qF c) 0) fullShare.right (target m c)) ∗ (pts c main_v1 (oCh c (qF c) 1) fullShare.left (target m c) ∗ pts c main_v1 (oCh c (qF c) 1) fullShare.right (target m c)) ∗ (pts c main_v1 (oCh c (qF c) 2) fullShare.left (target m c) ∗ pts c main_v1 (oCh c (qF c) 2) fullShare.right (target m c)) ∗ (pts c main_v1 (oCh c (qF c) 3) fullShare.left (target m c) ∗ pts c main_v1 (oCh c (qF c) 3) fullShare.right (target m c)))
      ∗ (pts c main_v1 (oCh c (qF (yb c)) 0) fullShare (target m c) ∗ pts c main_v1 (oCh c (qF (yb c)) 1) fullShare (target m c) ∗ pts c main_v1 (oCh c (qF (yb c)) 2) fullShare (target m c) ∗ pts c main_v1 (oCh c (qF (yb c)) 3) fullShare (target m c))
      ∗ (pts c main_v1 (oCh c (qF (zb c)) 0) fullShare (target m c) ∗ pts c main_v1 (oCh c (qF (zb c)) 1) fullShare (target m c) ∗ pts c main_v1 (oCh c (qF (zb c)) 2) fullShare (target m c) ∗ pts c main_v1 (oCh c (qF (zb c)) 3) fullShare (target m c))
      ∗ (pts c main_v1 (oCh c (qF (zb (yb c))) 0) fullShare (target m c) ∗ pts c main_v1 (oCh c (qF (zb (yb c))) 1) fullShare (target m c))
      ∗ (pts c main_v1 (oCh c (qF (yb (zb c))) 2) fullShare (target m c) ∗ pts c main_v1 (oCh c (qF (yb (zb c))) 3) fullShare (target m c))
      ∗ (pts c cc0_scratch0 (vSl 0) fullShare (vfill m c 4) ∗ pts c cc0_scratch0 (vSl 1) fullShare (vfill m c 5)
          ∗ pts c cc0_scratch0 (vSl 2) fullShare (vfill m c 6) ∗ pts c cc0_scratch0 (vSl 3) fullShare (vfill m c 7)))
      ⊢ (iprop(|={Set.univ}=> (Φ₁ m c ∗ (dats m 0 c).owesAt () t₀.succ)) : sProp 𝕄) := by
  unfold Φ₁ Dat.owesAt Pipeline.owesWithin
  rw [show (dats m 0 c).owed t₀.succ = 0 from rfl]
  iintro ⟨#Hrec, HO, Hpos, Hxc, Hxr, Hxl, Hown, Hq, Hy, Hz, Hd1, Hd2, Hv⟩
  -- the forty cells, closed
  imod (close_all m K c) $$ [Hpos] with Hsem
  · isplitr; · iexact Hrec
    iexact Hpos
  imodintro
  isplitr [HO]
  · -- the argument, whole
    isplitl [Hxc Hxr Hxl]
    · iapply (x_split c (xin m c)).2
      isplitl [Hxc]; · iexact Hxc
      isplitl [Hxr]; · iexact Hxr
      iexact Hxl
    -- the result, whole
    isplitl [Hown Hq Hy Hz Hd1 Hd2]
    · iapply (out_join c (target m c))
      isplitl [Hown]; · iexact Hown
      isplitl [Hq]; · iexact Hq
      isplitl [Hy]; · iexact Hy
      isplitl [Hz]; · iexact Hz
      isplitl [Hd1]; · iexact Hd1
      iexact Hd2
    -- the staging buffer, whole
    isplitl [Hv]
    · iapply (vbuf_join m c); iexact Hv
    iexact Hsem
  · -- nothing owed, whatever was recorded
    iexists W
    isplitr; · ipureintro; exact fun _ _ => Or.inl trivial
    iexact HO

/-- info: 'Cert.Kernel.AG.body_exit' depends on axioms: [propext, Classical.choice, Quot.sound] -/
#guard_msgs in #print axioms body_exit

end Cert.Kernel.AG

end
-- ==== Proof.KernelAG.PartDefs.lean ====
/-
  Names for what the body's parts move: what the device still owes after its first i payments, its place at a cell, a
  duty's token, a credit, a reached round.
-/
import proofs.«900686_g7700000000000687_dist_ag_v7x_xyz2x4x4_x_m16384_n1024_f32_1_alg».proof.Proof.KernelAG.Steps
import proofs.«900686_g7700000000000687_dist_ag_v7x_xyz2x4x4_x_m16384_n1024_f32_1_alg».proof.Proof.KernelAG.Sems
import proofs.«900686_g7700000000000687_dist_ag_v7x_xyz2x4x4_x_m16384_n1024_f32_1_alg».proof.Proof.KernelAG.Topo
import proofs.«900686_g7700000000000687_dist_ag_v7x_xyz2x4x4_x_m16384_n1024_f32_1_alg».proof.Proof.KernelAG.Levels
import proofs.«900686_g7700000000000687_dist_ag_v7x_xyz2x4x4_x_m16384_n1024_f32_1_alg».proof.Proof.Gen.Kernel.Skeleton

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` owes after its first `i` payments. -/
abbrev ow (c : Dev nD) (i : ℕ) (W : Waits sig Unit) : sProp 𝕄 := owes (c : Thread nD τ) (sumT ((owedList c).drop i)) W
/-- Device `c` at round `r` of its cell `n`. -/
abbrev pos (c : Dev nD) (n r : ℕ) (h : n < 40 := by decide) : sProp 𝕄 := atPos ER (cell c n h) r ∅ 0
/-- The token of the duty of round `r` of device `d`'s cell `n`. -/
abbrev tok (d : Dev nD) (n r : ℕ) (h : n < 40 := by decide) : sProp 𝕄 := dutyTok ER (cell d n h) r 0
/-- Credit `A` on device `c`'s cell `n`. -/
abbrev crd (c : Dev nD) (n A : ℕ) (h : n < 40 := by decide) : sProp 𝕄 := cred (tallyAt (cell c n h) () A)
/-- Round `r` of device `c`'s cell `n` is reached. -/
abbrev rch (c : Dev nD) (n r : ℕ) (h : n < 40 := by decide) : sProp 𝕄 := reached ER (cell c n h) r

/-- The body's slices of the argument (loads) and of the staging buffer, by chunk and slot. -/
theorem slice_x (j : Fin 8) {off : Fin 2 → ℕ} (h : off = ![2048 * j.val, 0]) (p : ∀ a, off a + S2048x1024.size a ≤ S16384x1024.size a) (hs) :
    (Memref.whole main_arg0 : Memref sig .tc .hbm S16384x1024 .f32).slice (Rect.unit (s := S16384x1024) off S2048x1024.size p) hs
      = M0.slice (xLd j) (fun _ => rfl) := by
  subst h; rfl
theorem slice_v (s : Fin 4) {off : Fin 3 → ℕ} (h : off = ![s.val, 0, 0]) (p : ∀ a, off a + S1x2048x1024.size a ≤ S4x2048x1024.size a) (hs) :
    (Memref.whole cc0_scratch0 : Memref sig .tc .vmem S4x2048x1024 .f32).slice (Rect.unit (s := S4x2048x1024) off S1x2048x1024.size p) hs
      = MV.slice (vSl s) (fun _ => rfl) := by
  subst h; rfl

/-- A buddy shares the device's first mesh coordinate, so the chunks of the other half sit at the same rows on both. -/
theorem oCh_yb (c : Dev nD) (Q k : Fin 4) : oCh (yb c) Q k = oCh c Q k := by
  unfold oCh; exact Rect.unit_congr (by rw [x_yb]) _ _
theorem oCh_zb (c : Dev nD) (Q k : Fin 4) : oCh (zb c) Q k = oCh c Q k := by
  unfold oCh; exact Rect.unit_congr (by rw [x_zb]) _ _
theorem qF_px (c : Dev nD) : qF (px c) = qF c := Fin.ext (qi_px c)

variable (m : (ℓ : Loc nD τ sig) → Buf (Elt F) ℓ) (K : Dev nD × Fin 41 → ℕ)

/-- `step_send0` with the program's own spelling `n'` of the neighbour (the printed evidence names that term). -/
theorem step_send0' (c n n' : Dev nD) (hn : n' = n) (sS sR : ℕ) (hS : sS < 40) (hR : sR < 40) (hs : isSend sS) (hr : isRecv sR)
    (Qs ks : Fin 4) (nd : Dev nD) (Qd kd : Fin 4)
    {hsc : ((M1.slice (oCh nd Qd kd) (fun _ => rfl)) : Memref sig (Dev.tc n' : Thread nD τ).2.kind .hbm S1024x1024 .f32).view.ref.isScScratch = false}
    {hsrc : (M0.slice (xCh Qs ks) (fun _ => rfl)).view.WordExact} {hdst : (M1.slice (oCh nd Qd kd) (fun _ => rfl)).view.WordExact}
    {hsem : DmaTarget.Typed .hbm (.dma (ds sR hR)) (.remote (Dev.tc n' : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_arg0)) (fd : Buf (Elt F) ((n : Thread nD τ).loc main_v1))
    (O : CellTallies nD τ sig Unit) (W : Waits sig Unit)
    (hpay₁ : (pts c main_arg0 (xCh Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M0.slice (xCh Qs ks) (fun _ => rfl)).view.read (Elt F) fs) Finset.univ) : sProp 𝕄)
      ⊢ recvPay m n sR) :
    iprop(records m K ∗ pts c main_arg0 (xCh Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xCh Qs ks) (fun _ => rfl)) (.remote (Dev.tc n' : Thread nD τ) (M1.slice (oCh nd Qd kd) (fun _ => rfl)) (.dma (ds sS hS)) hsc)
                (.dma (ds sR hR)) hsrc hdst hsem) k) Q) := by
  subst hn
  exact step_send0 m K c n' sS sR hS hR hs hr Qs ks nd Qd kd q fs fd O W hpay₁ hpay₂

/-- `step_send1` likewise. -/
theorem step_send1' (c n n' : Dev nD) (hn : n' = n) (sS sR : ℕ) (hS : sS < 40) (hR : sR < 40) (hs : isSend sS) (hr : isRecv sR)
    (ns : Dev nD) (Qs ks : Fin 4) (nd : Dev nD) (Qd kd : Fin 4)
    {hsc : ((M1.slice (oCh nd Qd kd) (fun _ => rfl)) : Memref sig (Dev.tc n' : Thread nD τ).2.kind .hbm S1024x1024 .f32).view.ref.isScScratch = false}
    {hsrc : (M1.slice (oCh ns Qs ks) (fun _ => rfl)).view.WordExact} {hdst : (M1.slice (oCh nd Qd kd) (fun _ => rfl)).view.WordExact}
    {hsem : DmaTarget.Typed .hbm (.dma (ds sR hR)) (.remote (Dev.tc n' : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_v1)) (fd : Buf (Elt F) ((n : Thread nD τ).loc main_v1))
    (O : CellTallies nD τ sig Unit) (W : Waits sig Unit)
    (hpay₁ : (pts c main_v1 (oCh ns Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M1.slice (oCh ns Qs ks) (fun _ => rfl)).view.read (Elt F) fs) Finset.univ) : sProp 𝕄)
      ⊢ recvPay m n sR) :
    iprop(records m K ∗ pts c main_v1 (oCh ns Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M1.slice (oCh ns Qs ks) (fun _ => rfl)) (.remote (Dev.tc n' : Thread nD τ) (M1.slice (oCh nd Qd kd) (fun _ => rfl)) (.dma (ds sS hS)) hsc)
                (.dma (ds sR hR)) hsrc hdst hsem) k) Q) := by
  subst hn
  exact step_send1 m K c n' sS sR hS hR hs hr ns Qs ks nd Qd kd q fs fd O W hpay₁ hpay₂

set_option hygiene false in
/-- Hand over the named hypotheses, one per conjunct of the goal, in order. -/
syntax "hand " "[" ident,+ "]" : tactic
set_option hygiene false in
macro_rules
  | `(tactic| hand [$h:ident]) => `(tactic| iexact $h)
  | `(tactic| hand [$h:ident, $hs:ident,*]) => `(tactic| (isplitl [$h]; (· iexact $h); hand [$hs,*]))

end Cert.Kernel.AG

end
-- ==== Proof.KernelAG.Value.lean ====
/-
  The all-gather's target, by cases: pure index algebra over the 2 × 4 × 4 mesh.

  Device c's result must hold its own argument at its own half's rows, and at the other half's rows, quarter by quarter,
  the argument of the device across x whose quarter that is. Here: which argument each case reads (own rows; the rows a
  device sends its partner; the rows on which the two buddies within a group of four agree), and that, when every
  device's argument is its half of one whole array X, every device's target is X.
-/
import proofs.«900686_g7700000000000687_dist_ag_v7x_xyz2x4x4_x_m16384_n1024_f32_1_alg».proof.Proof.KernelAG.Base
import Idealize.ShloMosaic.Lib.Layout
import Idealize.ShloMosaic.Lib.ValueIdx

noncomputable section

namespace Cert.Kernel.AG

open Cert.Kernel Cert.Kernel.Gen
open Idealize.ShloMosaic Idealize.ShloMosaic.TcCoe Idealize.SL.Sem

/-! ### Device facts -/

/-- The partner lies in the other half. -/
private theorem v_px_half : ∀ c : Dev nD, (px c).val / 16 ≠ c.val / 16 := by decide

/-- The quarter a device fetches from its partner originates, seen from the partner, at the device itself. -/
private theorem v_origin_px_qi : ∀ c : Dev nD, origin (px c) (qi c) = c := by decide

/-- Flipping the low bit of y keeps the half and bits 3 and 1 of the device number. -/
private theorem v_yb_bits : ∀ c : Dev nD,
    (yb c).val / 16 = c.val / 16 ∧ (yb c).val / 8 % 2 = c.val / 8 % 2 ∧ (yb c).val / 2 % 2 = c.val / 2 % 2 := by decide

/-- Flipping the low bit of z keeps the half and bits 3 and 1 of the device number. -/
private theorem v_zb_bits : ∀ c : Dev nD,
    (zb c).val / 16 = c.val / 16 ∧ (zb c).val / 8 % 2 = c.val / 8 % 2 ∧ (zb c).val / 2 % 2 = c.val / 2 % 2 := by decide

/-- The origin of a quarter depends on the device only through its half and bits 3 and 1 of its number. -/
private theorem v_origin_congr (c c' : Dev nD) (h16 : c'.val / 16 = c.val / 16)
    (h8 : c'.val / 8 % 2 = c.val / 8 % 2) (h2 : c'.val / 2 % 2 = c.val / 2 % 2) (Q : ℕ) :
    origin c' Q = origin c Q := by
  apply Fin.ext
  show 16 * (1 - c'.val / 16) + 8 * ((c'.val / 8) % 2) + 4 * ((Q / 2) % 2) + 2 * ((c'.val / 2) % 2) + Q % 2
      = 16 * (1 - c.val / 16) + 8 * ((c.val / 8) % 2) + 4 * ((Q / 2) % 2) + 2 * ((c.val / 2) % 2) + Q % 2
  rw [h16, h8, h2]

/-- Every origin lies in the other half. -/
private theorem v_origin_half (c : Dev nD) (Q : ℕ) : (origin c Q).val / 16 = 1 - c.val / 16 := by
  have hc : c.val < 32 := c.isLt
  show (16 * (1 - c.val / 16) + 8 * ((c.val / 8) % 2) + 4 * ((Q / 2) % 2) + 2 * ((c.val / 2) % 2) + Q % 2) / 16
      = 1 - c.val / 16
  omega

/-- On the 2 × 4 × 4 mesh a device's block along the first axis is its half. -/
private theorem v_lin0 : ∀ c : Dev nD, Layout.meshLin [2, 4, 4] c.val [0] = c.val / 16 := by decide

/-! ### The target, by cases -/

/-- The target at an index, spelled out: by the half the row lies in. -/
private theorem v_target_eq {F : FTy → Type} [FloatOps F] (m : (ℓ : Loc nD τ sig) → Buf (Elt F) ℓ) (c : Dev nD) (i : (⟨2, ![32768, 1024]⟩ : Shape).Idx) :
    target m c i =
      if (i 0).val / 16384 = c.val / 16 then
        xin m c (ValueIdx.ix2 (n0 := 16384) (n1 := 1024) ⟨(i 0).val % 16384, Nat.mod_lt _ (by decide)⟩ (i 1))
      else
        xin m (origin c ((i 0).val % 16384 / 4096))
          (ValueIdx.ix2 (n0 := 16384) (n1 := 1024) ⟨(i 0).val % 16384, Nat.mod_lt _ (by decide)⟩ (i 1)) := rfl

/-- At its own half's rows a device's target is its own argument. -/
theorem target_own {F : FTy → Type} [FloatOps F] (m : (ℓ : Loc nD τ sig) → Buf (Elt F) ℓ) (c : Dev nD) (i : (⟨2, ![32768, 1024]⟩ : Shape).Idx)
    (h : (i 0).val / 16384 = c.val / 16) :
    target m c i = xin m c (ValueIdx.ix2 (n0 := 16384) (n1 := 1024) ⟨(i 0).val % 16384, Nat.mod_lt _ (by decide)⟩ (i 1)) := by
  rw [v_target_eq, if_pos h]

/-- At a device's half's rows, in the quarter it fetches, the partner's target is the device's argument. -/
theorem target_xsend {F : FTy → Type} [FloatOps F] (m : (ℓ : Loc nD τ sig) → Buf (Elt F) ℓ) (c : Dev nD) (i : (⟨2, ![32768, 1024]⟩ : Shape).Idx)
    (h1 : (i 0).val / 16384 = c.val / 16) (h2 : (i 0).val % 16384 / 4096 = qi c) :
    target m (px c) i = xin m c (ValueIdx.ix2 (n0 := 16384) (n1 := 1024) ⟨(i 0).val % 16384, Nat.mod_lt _ (by decide)⟩ (i 1)) := by
  have hne : ¬ (i 0).val / 16384 = (px c).val / 16 := fun e => v_px_half c (e.symm.trans h1)
  rw [v_target_eq, if_neg hne, h2, v_origin_px_qi c]

/-- In the other half's rows a device and its y buddy have the same target. -/
theorem target_yb {F : FTy → Type} [FloatOps F] (m : (ℓ : Loc nD τ sig) → Buf (Elt F) ℓ) (c : Dev nD) (i : (⟨2, ![32768, 1024]⟩ : Shape).Idx)
    (h : (i 0).val / 16384 ≠ c.val / 16) : target m (yb c) i = target m c i := by
  obtain ⟨h16, h8, h2⟩ := v_yb_bits c
  have h' : ¬ (i 0).val / 16384 = (yb c).val / 16 := fun e => h (e.trans h16)
  rw [v_target_eq m (yb c) i, v_target_eq m c i, if_neg h', if_neg h, v_origin_congr c (yb c) h16 h8 h2]

/-- In the other half's rows a device and its z buddy have the same target. -/
theorem target_zb {F : FTy → Type} [FloatOps F] (m : (ℓ : Loc nD τ sig) → Buf (Elt F) ℓ) (c : Dev nD) (i : (⟨2, ![32768, 1024]⟩ : Shape).Idx)
    (h : (i 0).val / 16384 ≠ c.val / 16) : target m (zb c) i = target m c i := by
  obtain ⟨h16, h8, h2⟩ := v_zb_bits c
  have h' : ¬ (i 0).val / 16384 = (zb c).val / 16 := fun e => h (e.trans h16)
  rw [v_target_eq m (zb c) i, v_target_eq m c i, if_neg h', if_neg h, v_origin_congr c (zb c) h16 h8 h2]

/-- When every device's argument is its half of one whole array, a device's target at an index is the array's entry
    there: own rows read the device's own half, the other rows read a device of the other half. -/
private theorem v_target_whole_at {F : FTy → Type} [FloatOps F] (m : (ℓ : Loc nD τ sig) → Buf (Elt F) ℓ) (X : (⟨2, ![32768, 1024]⟩ : Shape).Idx → Elt F .f32)
    (h : ∀ c : Dev nD, xin m c = Layout.blockN ⟨2, ![16384, 1024]⟩ ⟨2, ![32768, 1024]⟩ (Layout.meshBlock [2, 4, 4] ![[0], []] c) X)
    (c : Dev nD) (i : (⟨2, ![32768, 1024]⟩ : Shape).Idx) : target m c i = X i := by
  have hi : (i 0).val < 32768 := ValueIdx.idx2_lt0 i
  have hc : c.val < 32 := c.isLt
  -- a device in the half that holds row `i 0` holds, at that row's place within the half, the whole array's entry
  have key : ∀ c' : Dev nD, c'.val / 16 = (i 0).val / 16384 →
      xin m c' (ValueIdx.ix2 (n0 := 16384) (n1 := 1024) ⟨(i 0).val % 16384, Nat.mod_lt _ (by decide)⟩ (i 1)) = X i := by
    intro c' hc'
    rw [h c', Layout.blockN_apply]
    congr 1
    funext b
    apply Fin.ext
    rw [Layout.TilesN.idx_val]
    match b with
    | ⟨0, _⟩ =>
      show Layout.meshLin [2, 4, 4] c'.val [0] * 16384 + (i 0).val % 16384 = (i 0).val
      rw [v_lin0 c']
      omega
    | ⟨1, _⟩ =>
      show 0 * 1024 + (i 1).val = (i 1).val
      omega
  rw [v_target_eq]
  split
  · next hh => exact key c hh.symm
  · next hh =>
    refine key _ ?_
    rw [v_origin_half]
    omega

/-- When every device's argument is its half (block c / 16 along the rows) of one whole array, every device's target is
    that array. -/
theorem target_whole {F : FTy → Type} [FloatOps F] (m : (ℓ : Loc nD τ sig) → Buf (Elt F) ℓ) (X : (⟨2, ![32768, 1024]⟩ : Shape).Idx → Elt F .f32)
    (h : ∀ c : Dev nD, xin m c = Layout.blockN ⟨2, ![16384, 1024]⟩ ⟨2, ![32768, 1024]⟩ (Layout.meshBlock [2, 4, 4] ![[0], []] c) X)
    (c : Dev nD) : target m c = X :=
  funext fun i => v_target_whole_at m X h c i

/-- info: 'Cert.Kernel.AG.target_own' depends on axioms: [propext, Classical.choice, Quot.sound] -/
#guard_msgs in #print axioms target_own
/-- info: 'Cert.Kernel.AG.target_xsend' depends on axioms: [propext, Classical.choice, Quot.sound] -/
#guard_msgs in #print axioms target_xsend
/-- info: 'Cert.Kernel.AG.target_yb' depends on axioms: [propext, Classical.choice, Quot.sound] -/
#guard_msgs in #print axioms target_yb
/-- info: 'Cert.Kernel.AG.target_zb' depends on axioms: [propext, Classical.choice, Quot.sound] -/
#guard_msgs in #print axioms target_zb
/-- info: 'Cert.Kernel.AG.target_whole' depends on axioms: [propext, Classical.choice, Quot.sound] -/
#guard_msgs in #print axioms target_whole

end Cert.Kernel.AG

end
-- ==== Proof.KernelAG.Landing.lean ====
/-
  What each copy of the all-gather lands: the rows a finished copy hands its receiver hold what the result must hold
  there, and the rows it read go back to the sender as they were.

  Every copy moves whole rows between two views of the same shape, so the element written under the destination view's
  index y is the element read under the source view's index y; the statements below only say which element of which
  device's argument that is.
-/
import proofs.«900686_g7700000000000687_dist_ag_v7x_xyz2x4x4_x_m16384_n1024_f32_1_alg».proof.Proof.KernelAG.Proto
import proofs.«900686_g7700000000000687_dist_ag_v7x_xyz2x4x4_x_m16384_n1024_f32_1_alg».proof.Proof.KernelAG.Value
import proofs.«900686_g7700000000000687_dist_ag_v7x_xyz2x4x4_x_m16384_n1024_f32_1_alg».proof.Proof.KernelAG.Topo
import Idealize.ShloMosaic.Lib.Pipeline.Value

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option quotPrecheck false

/- A rectangle of the result array, of the argument array, and a slot of the staging buffer with its leading unit axis
   dropped. -/
local notation "M1[" r "]" =>
  ((Memref.whole main_v1 : Memref sig .tc .hbm S32768x1024 .f32).slice r (fun _ => rfl))
local notation "M0[" r "]" =>
  ((Memref.whole main_arg0 : Memref sig .tc .hbm S16384x1024 .f32).slice r (fun _ => rfl))
local notation "SLOT(" s ")" =>
  (((Memref.whole cc0_scratch0 : Memref sig .tc .vmem S4x2048x1024 .f32).slice (vSl s) (fun _ => rfl)).squeeze
    S2048x1024 squeezes_S1x2048x1024_S2048x1024)

/-! ## A copy through two views, read where it lands -/

/-- A buffer rewritten, at every index of a view, with what another view of the same shape reads, holds under the view
    any contents that read back through it as the source reads. -/
theorem land_congr (o o' : Dev nD) {sp sp' : Space} {s : Shape} {e : EltTy}
    (src : View sig .tc sp s e) (dst : View sig .tc sp' s e) (q : PosShare TreeShare)
    (fs : Buf (Elt F) (src.loc (o : Thread nD τ))) (fd g : Buf (Elt F) (dst.loc (o' : Thread nD τ)))
    (h : ∀ y : s.Idx, dst.read (Elt F) g y = src.read (Elt F) fs y) :
    ((dst.loc (o' : Thread nD τ) ↦[dst.set]{q} (dst.write (Elt F) fd (src.read (Elt F) fs) Finset.univ)) : sProp 𝕄)
      = (dst.loc (o' : Thread nD τ) ↦[dst.set]{q} g) :=
  BI.Region.is_congr fun i hi => by
    obtain ⟨y, rfl⟩ := View.exists_emb_of_mem_set dst hi
    rw [View.write_emb_of_mem _ _ (Finset.mem_univ y), ← h y, View.read_apply, cast_cast, cast_eq]

/-- The elements under a rectangle of a whole buffer are the rectangle's. -/
theorem pts_slice_whole (o : Dev nD) (b : Ref sig .tc) (r : Rect b.ty.shape) (q : PosShare TreeShare)
    (f : Buf (Elt F) ((o : Thread nD τ).loc b)) :
    ((((View.whole b).slice r).loc (o : Thread nD τ) ↦[((View.whole b).slice r).set]{q} f) : sProp 𝕄)
      = pts o b r q f := by
  unfold pts; rw [View.set_slice_whole]

/-- The same for the rectangle re-indexed by another shape with as many elements. -/
theorem pts_slice_whole_reshape (o : Dev nD) (b : Ref sig .tc) (r : Rect b.ty.shape) (s' : Shape)
    (hs : s'.numel = r.shape.numel) (q : PosShare TreeShare) (f : Buf (Elt F) ((o : Thread nD τ).loc b)) :
    (((((View.whole b).slice r).reshape s' hs).loc (o : Thread nD τ)
        ↦[(((View.whole b).slice r).reshape s' hs).set]{q} f) : sProp 𝕄)
      = pts o b r q f := by
  unfold pts; rw [View.set_reshape, View.set_slice_whole]

/-- Reading a whole buffer's contents through a rectangle of it is reading them at the rectangle's elements. -/
theorem read_slice_whole (b : Ref sig .tc) (r : Rect b.ty.shape) (f : b.ty.Contents (Elt F)) (y : r.shape.Idx) :
    ((View.whole b).slice r).read (Elt F) f y = f (r.emb y) := rfl

/-- The same through the rectangle re-indexed by another shape with as many elements. -/
theorem read_slice_whole_reshape (b : Ref sig .tc) (r : Rect b.ty.shape) (s' : Shape)
    (hs : s'.numel = r.shape.numel) (f : b.ty.Contents (Elt F)) (y : s'.Idx) :
    (((View.whole b).slice r).reshape s' hs).read (Elt F) f y = f (r.emb (Shape.reshapeEquiv hs y)) := rfl

/-- A rank-2 index with the coordinates a and b is the index built from them. -/
theorem idx2_eq_ix2 {n0 n1 : ℕ} (x : (⟨2, ![n0, n1]⟩ : Shape).Idx) (a : Fin n0) (b : Fin n1)
    (h0 : (x 0).val = a.val) (h1 : (x 1).val = b.val) : x = ValueIdx.ix2 a b := by
  funext d
  match d with
  | ⟨0, _⟩ => exact Fin.ext h0
  | ⟨1, _⟩ => exact Fin.ext h1

/-- Two rank-2 indices with the same coordinates are equal. -/
theorem idx2_ext {n0 n1 : ℕ} (x x' : (⟨2, ![n0, n1]⟩ : Shape).Idx)
    (h0 : (x 0).val = (x' 0).val) (h1 : (x 1).val = (x' 1).val) : x = x' := by
  funext d
  match d with
  | ⟨0, _⟩ => exact Fin.ext h0
  | ⟨1, _⟩ => exact Fin.ext h1

/-! ## Where a chunk's rows sit -/

/-- Row y of chunk k of quarter Q of the other half of device o's result is row 16384(1 - x) + 4096 Q + 1024 k + y. -/
theorem oCh_emb0 (o : Dev nD) (Q k : Fin 4) (y : (oCh o Q k).shape.Idx) :
    (((oCh o Q k).emb y : (⟨2, ![32768, 1024]⟩ : Shape).Idx) 0).val
      = 16384 * (1 - o.val / 16) + 4096 * Q.val + 1024 * k.val + (y 0).val := by
  show (16384 * (1 - o.val / 16) + 4096 * Q.val + 1024 * k.val) + 1 * (y 0).val = _
  omega
theorem oCh_emb1 (o : Dev nD) (Q k : Fin 4) (y : (oCh o Q k).shape.Idx) :
    (((oCh o Q k).emb y : (⟨2, ![32768, 1024]⟩ : Shape).Idx) 1).val = (y 1).val := by
  show 0 + 1 * (y 1).val = _
  omega

/-- Row y of chunk j of device o's own half of its result is row 16384 x + 2048 j + y. -/
theorem oOwn_emb0 (o : Dev nD) (j : Fin 8) (y : (oOwn o j).shape.Idx) :
    (((oOwn o j).emb y : (⟨2, ![32768, 1024]⟩ : Shape).Idx) 0).val
      = 16384 * (o.val / 16) + 2048 * j.val + (y 0).val := by
  show (16384 * (o.val / 16) + 2048 * j.val) + 1 * (y 0).val = _
  omega
theorem oOwn_emb1 (o : Dev nD) (j : Fin 8) (y : (oOwn o j).shape.Idx) :
    (((oOwn o j).emb y : (⟨2, ![32768, 1024]⟩ : Shape).Idx) 1).val = (y 1).val := by
  show 0 + 1 * (y 1).val = _
  omega

/-- Row y of chunk k of quarter Q of an argument is row 4096 Q + 1024 k + y. -/
theorem xCh_emb0 (Q k : Fin 4) (y : (xCh Q k).shape.Idx) :
    (((xCh Q k).emb y : (⟨2, ![16384, 1024]⟩ : Shape).Idx) 0).val = 4096 * Q.val + 1024 * k.val + (y 0).val := by
  show (4096 * Q.val + 1024 * k.val) + 1 * (y 0).val = _
  omega
theorem xCh_emb1 (Q k : Fin 4) (y : (xCh Q k).shape.Idx) :
    (((xCh Q k).emb y : (⟨2, ![16384, 1024]⟩ : Shape).Idx) 1).val = (y 1).val := by
  show 0 + 1 * (y 1).val = _
  omega

/-- Row y of chunk j of eight of an argument is row 2048 j + y. -/
theorem xLd_emb0 (j : Fin 8) (y : (xLd j).shape.Idx) :
    (((xLd j).emb y : (⟨2, ![16384, 1024]⟩ : Shape).Idx) 0).val = 2048 * j.val + (y 0).val := by
  show (2048 * j.val) + 1 * (y 0).val = _
  omega
theorem xLd_emb1 (j : Fin 8) (y : (xLd j).shape.Idx) :
    (((xLd j).emb y : (⟨2, ![16384, 1024]⟩ : Shape).Idx) 1).val = (y 1).val := by
  show 0 + 1 * (y 1).val = _
  omega

/-- Element (y0, y1) of a staging slot, the slot's leading unit axis dropped, sits at (slot, y0, y1) of the buffer. -/
theorem vSl_emb (s : Fin 4) (hh : S2048x1024.numel = (vSl s).shape.numel) (y : S2048x1024.Idx) :
    ((((vSl s).emb (Shape.reshapeEquiv hh y)) : (⟨3, ![4, 2048, 1024]⟩ : Shape).Idx) 1).val = (y 0).val
      ∧ ((((vSl s).emb (Shape.reshapeEquiv hh y)) : (⟨3, ![4, 2048, 1024]⟩ : Shape).Idx) 2).val = (y 1).val := by
  have hc : Shape.reshapeEquiv hh y = Fin.cons ⟨0, Nat.one_pos⟩ y :=
    Shape.reshapeEquiv_cons_one (n := 2) (d := ![2048, 1024]) hh y
  rw [hc]
  constructor
  · show 0 + 1 * (y 0).val = _
    omega
  · show 0 + 1 * (y 1).val = _
    omega

/-! ## The rectangles the schedule names -/

theorem oCh_eq {o o' : Dev nD} {Q Q' k k' : Fin 4} (ho : o = o') (hQ : Q = Q') (hk : k.val = k'.val) :
    oCh o Q k = oCh o' Q' k' := by
  subst ho; subst hQ; obtain rfl := Fin.ext hk; rfl

theorem xCh_eq {Q Q' k k' : Fin 4} (hQ : Q = Q') (hk : k.val = k'.val) : xCh Q k = xCh Q' k' := by
  subst hQ; obtain rfl := Fin.ext hk; rfl

theorem qF_px_eq (c : Dev nD) : qF (px c) = qF c := Fin.ext (qi_px c)

theorem recvRect_x (o : Dev nD) (k : Fin 4) : recvRect o (12 + k.val) = oCh o (qF o) k := by
  have hk := k.isLt
  unfold recvRect
  rw [if_pos (show 12 + k.val < 16 by omega)]
  exact oCh_eq rfl rfl (by show (12 + k.val - 12) % 4 = k.val; omega)

theorem recvRect_y (o : Dev nD) (k : Fin 4) : recvRect o (20 + k.val) = oCh o (qF (yb o)) k := by
  have hk := k.isLt
  unfold recvRect
  rw [if_neg (show ¬ 20 + k.val < 16 by omega), if_pos (show 20 + k.val < 24 by omega)]
  exact oCh_eq rfl rfl (by show (20 + k.val - 20) % 4 = k.val; omega)

theorem recvRect_z (o : Dev nD) (k : Fin 4) : recvRect o (28 + k.val) = oCh o (qF (zb o)) k := by
  have hk := k.isLt
  unfold recvRect
  rw [if_neg (show ¬ 28 + k.val < 16 by omega), if_neg (show ¬ 28 + k.val < 24 by omega),
    if_pos (show 28 + k.val < 32 by omega)]
  exact oCh_eq rfl rfl (by show (28 + k.val - 28) % 4 = k.val; omega)

theorem recvRect_yd (o : Dev nD) (j : Fin 2) :
    recvRect o (34 + j.val) = oCh o (qF (zb (yb o))) ⟨j.val, Nat.lt_of_lt_of_le j.isLt (by decide)⟩ := by
  have hj := j.isLt
  unfold recvRect
  rw [if_neg (show ¬ 34 + j.val < 16 by omega), if_neg (show ¬ 34 + j.val < 24 by omega),
    if_neg (show ¬ 34 + j.val < 32 by omega), if_pos (show 34 + j.val < 36 by omega)]
  exact oCh_eq rfl rfl (by show (34 + j.val - 34) % 4 = j.val; omega)

theorem recvRect_zd (o : Dev nD) (j : Fin 2) :
    recvRect o (38 + j.val) = oCh o (qF (yb (zb o))) ⟨2 + j.val, by have := j.isLt; omega⟩ := by
  have hj := j.isLt
  unfold recvRect
  rw [if_neg (show ¬ 38 + j.val < 16 by omega), if_neg (show ¬ 38 + j.val < 24 by omega),
    if_neg (show ¬ 38 + j.val < 32 by omega), if_neg (show ¬ 38 + j.val < 36 by omega)]
  exact oCh_eq rfl rfl (by show (38 + j.val - 38 + 2) % 4 = 2 + j.val; omega)

/-! ## The transfer across x: a quarter of the argument, chunk by chunk, into the partner's result -/

/-- The share of the argument's rows an x send read, back: the send cell's payload. -/
theorem sendPay_x_eq (m : (ℓ : Loc nD τ sig) → Buf (Elt F) ℓ) (c : Dev nD) (k : Fin 4) :
    sendPay m c (8 + k.val)
      = ((M0[xCh (qF c) k].view.loc (c : Thread nD τ)
          ↦[M0[xCh (qF c) k].view.set]{fullShare.left} xin m c) : sProp 𝕄) := by
  have hk := k.isLt
  unfold sendPay
  rw [if_pos (show 8 + k.val < 12 by omega)]
  refine Eq.trans (congrArg (fun R => pts c main_arg0 R fullShare.left (xin m c))
    (xCh_eq rfl (by show (8 + k.val - 8) % 4 = k.val; omega))) ?_
  exact (pts_slice_whole c main_arg0 (xCh (qF c) k) fullShare.left (xin m c)).symm

theorem back_x (m : (ℓ : Loc nD τ sig) → Buf (Elt F) ℓ) (c : Dev nD) (k : Fin 4) :
    ((M0[xCh (qF c) k].view.loc (c : Thread nD τ)
        ↦[M0[xCh (qF c) k].view.set]{fullShare.left} xin m c) : sProp 𝕄)
      ⊢ sendPay m c (8 + k.val) :=
  Entails.of_eq (sendPay_x_eq m c k).symm

/-- Chunk k of the quarter a device sends its partner lands holding what the partner's result must hold there. -/
theorem land_x (m : (ℓ : Loc nD τ sig) → Buf (Elt F) ℓ) (c : Dev nD) (k : Fin 4)
    (fd : Buf (Elt F) ((px c : Thread nD τ).loc main_v1)) :
    ((M1[oCh (px c) (qF c) k].view.loc (px c : Thread nD τ)
        ↦[M1[oCh (px c) (qF c) k].view.set]{fullShare}
          (M1[oCh (px c) (qF c) k].view.write (Elt F) fd
            (M0[xCh (qF c) k].view.read (Elt F) (xin m c)) Finset.univ)) : sProp 𝕄)
      ⊢ recvPay m (px c) (12 + k.val) := by
  have e : recvPay m (px c) (12 + k.val)
      = pts (px c) main_v1 (oCh (px c) (qF c) k) fullShare (target m (px c)) := by
    unfold recvPay; rw [recvRect_x, qF_px_eq]
  rw [e]
  refine Entails.of_eq ((land_congr c (px c)
    (((View.whole main_arg0).slice (xCh (qF c) k)) : View sig .tc .hbm S1024x1024 .f32)
    (((View.whole main_v1).slice (oCh (px c) (qF c) k)) : View sig .tc .hbm S1024x1024 .f32)
    fullShare (xin m c) fd (target m (px c)) ?_).trans
    (pts_slice_whole (px c) main_v1 (oCh (px c) (qF c) k) fullShare (target m (px c))))
  intro y
  refine (read_slice_whole main_v1 (oCh (px c) (qF c) k) (target m (px c)) y).trans
    (Eq.trans ?_ (read_slice_whole main_arg0 (xCh (qF c) k) (xin m c) y).symm)
  have hk := k.isLt
  have hc : c.val < 32 := c.isLt
  have hq : (qF c).val = qi c := rfl
  have hq4 := qi_lt c
  have hy0 : (y 0).val < 1024 := (y 0).isLt
  have e0 := oCh_emb0 (px c) (qF c) k y
  have e1 := oCh_emb1 (px c) (qF c) k y
  have s0 := xCh_emb0 (qF c) k y
  have s1 := xCh_emb1 (qF c) k y
  rw [x_px] at e0
  generalize (oCh (px c) (qF c) k).emb y = I at e0 e1 ⊢
  generalize (xCh (qF c) k).emb y = J at s0 s1 ⊢
  refine (target_xsend m c I (by omega) (by omega)).trans ?_
  refine (congrArg (xin m c) (idx2_eq_ix2 J _ _ ?_ ?_)).symm
  · show ((J : (⟨2, ![16384, 1024]⟩ : Shape).Idx) 0).val = ((I : (⟨2, ![32768, 1024]⟩ : Shape).Idx) 0).val % 16384
    omega
  · show ((J : (⟨2, ![16384, 1024]⟩ : Shape).Idx) 1).val = ((I : (⟨2, ![32768, 1024]⟩ : Shape).Idx) 1).val
    omega

/-! ## The relays round a group of four: rows of the result, from a device to a buddy -/

/-- The rows of the other half a device copies to its y buddy land holding what the buddy's result must hold there:
    in the other half the two have the same target. -/
theorem relay_y (m : (ℓ : Loc nD τ sig) → Buf (Elt F) ℓ) (c : Dev nD) (Q k : Fin 4)
    (fd : Buf (Elt F) ((yb c : Thread nD τ).loc main_v1)) :
    ((((View.whole main_v1).slice (oCh (yb c) Q k)).loc (yb c : Thread nD τ)
        ↦[((View.whole main_v1).slice (oCh (yb c) Q k)).set]{fullShare}
          (((View.whole main_v1).slice (oCh (yb c) Q k)).write (Elt F) fd
            (((View.whole main_v1).slice (oCh c Q k)).read (Elt F) (target m c)) Finset.univ)) : sProp 𝕄)
      = pts (yb c) main_v1 (oCh (yb c) Q k) fullShare (target m (yb c)) := by
  refine (land_congr c (yb c)
    (((View.whole main_v1).slice (oCh c Q k)) : View sig .tc .hbm S1024x1024 .f32)
    (((View.whole main_v1).slice (oCh (yb c) Q k)) : View sig .tc .hbm S1024x1024 .f32)
    fullShare (target m c) fd (target m (yb c)) ?_).trans
    (pts_slice_whole (yb c) main_v1 (oCh (yb c) Q k) fullShare (target m (yb c)))
  intro y
  refine (read_slice_whole main_v1 (oCh (yb c) Q k) (target m (yb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have e0 := oCh_emb0 (yb c) Q k y
  have e1 := oCh_emb1 (yb c) Q k y
  have s0 := oCh_emb0 c Q k y
  have s1 := oCh_emb1 c Q k y
  rw [x_yb] at e0
  generalize (oCh (yb c) Q k).emb y = I at e0 e1 ⊢
  generalize (oCh c Q k).emb y = J at s0 s1 ⊢
  have hij : I = J := idx2_ext (n0 := 32768) (n1 := 1024) I J (by omega) (by omega)
  rw [hij]
  exact target_yb m c J (by omega)

/-- The same towards the z buddy. -/
theorem relay_z (m : (ℓ : Loc nD τ sig) → Buf (Elt F) ℓ) (c : Dev nD) (Q k : Fin 4)
    (fd : Buf (Elt F) ((zb c : Thread nD τ).loc main_v1)) :
    ((((View.whole main_v1).slice (oCh (zb c) Q k)).loc (zb c : Thread nD τ)
        ↦[((View.whole main_v1).slice (oCh (zb c) Q k)).set]{fullShare}
          (((View.whole main_v1).slice (oCh (zb c) Q k)).write (Elt F) fd
            (((View.whole main_v1).slice (oCh c Q k)).read (Elt F) (target m c)) Finset.univ)) : sProp 𝕄)
      = pts (zb c) main_v1 (oCh (zb c) Q k) fullShare (target m (zb c)) := by
  refine (land_congr c (zb c)
    (((View.whole main_v1).slice (oCh c Q k)) : View sig .tc .hbm S1024x1024 .f32)
    (((View.whole main_v1).slice (oCh (zb c) Q k)) : View sig .tc .hbm S1024x1024 .f32)
    fullShare (target m c) fd (target m (zb c)) ?_).trans
    (pts_slice_whole (zb c) main_v1 (oCh (zb c) Q k) fullShare (target m (zb c)))
  intro y
  refine (read_slice_whole main_v1 (oCh (zb c) Q k) (target m (zb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have e0 := oCh_emb0 (zb c) Q k y
  have e1 := oCh_emb1 (zb c) Q k y
  have s0 := oCh_emb0 c Q k y
  have s1 := oCh_emb1 c Q k y
  rw [x_zb] at e0
  generalize (oCh (zb c) Q k).emb y = I at e0 e1 ⊢
  generalize (oCh c Q k).emb y = J at s0 s1 ⊢
  have hij : I = J := idx2_ext (n0 := 32768) (n1 := 1024) I J (by omega) (by omega)
  rw [hij]
  exact target_zb m c J (by omega)

/-- A share of rows of the result under a chunk's view is that share of the chunk's rows. -/
theorem pts_oCh (c : Dev nD) (Q k : Fin 4) (q : PosShare TreeShare) (f : Buf (Elt F) ((c : Thread nD τ).loc main_v1)) :
    ((M1[oCh c Q k].view.loc (c : Thread nD τ)
        ↦[M1[oCh c Q k].view.set]{q} f) : sProp 𝕄)
      = pts c main_v1 (oCh c Q k) q f :=
  pts_slice_whole c main_v1 (oCh c Q k) q f

/-! ### The y and z relays of the device's own quarter -/

theorem sendPay_yd_eq (m : (ℓ : Loc nD τ sig) → Buf (Elt F) ℓ) (c : Dev nD) (k : Fin 4) :
    sendPay m c (16 + k.val)
      = ((M1[oCh c (qF c) k].view.loc (c : Thread nD τ)
          ↦[M1[oCh c (qF c) k].view.set]{fullShare.left} target m c) : sProp 𝕄) := by
  have hk := k.isLt
  unfold sendPay
  rw [if_neg (show ¬ 16 + k.val < 12 by omega), if_pos (show 16 + k.val < 20 by omega)]
  refine Eq.trans (congrArg (fun R => pts c main_v1 R fullShare.left (target m c))
    (oCh_eq rfl rfl (by show (16 + k.val - 16) % 4 = k.val; omega))) ?_
  exact (pts_oCh c (qF c) k fullShare.left (target m c)).symm

theorem back_yd (m : (ℓ : Loc nD τ sig) → Buf (Elt F) ℓ) (c : Dev nD) (k : Fin 4) :
    ((M1[oCh c (qF c) k].view.loc (c : Thread nD τ)
        ↦[M1[oCh c (qF c) k].view.set]{fullShare.left} target m c) : sProp 𝕄)
      ⊢ sendPay m c (16 + k.val) :=
  Entails.of_eq (sendPay_yd_eq m c k).symm

theorem land_yd (m : (ℓ : Loc nD τ sig) → Buf (Elt F) ℓ) (c : Dev nD) (k : Fin 4)
    (fd : Buf (Elt F) ((yb c : Thread nD τ).loc main_v1)) :
    ((M1[oCh (yb c) (qF c) k].view.loc (yb c : Thread nD τ)
        ↦[M1[oCh (yb c) (qF c) k].view.set]{fullShare}
          (M1[oCh (yb c) (qF c) k].view.write (Elt F) fd
            (M1[oCh c (qF c) k].view.read (Elt F) (target m c)) Finset.univ)) : sProp 𝕄)
      ⊢ recvPay m (yb c) (20 + k.val) := by
  have e : recvPay m (yb c) (20 + k.val)
      = pts (yb c) main_v1 (oCh (yb c) (qF c) k) fullShare (target m (yb c)) := by
    unfold recvPay; rw [recvRect_y, yb_yb]
  rw [e]
  exact Entails.of_eq (relay_y m c (qF c) k fd)

theorem sendPay_zd_eq (m : (ℓ : Loc nD τ sig) → Buf (Elt F) ℓ) (c : Dev nD) (k : Fin 4) :
    sendPay m c (24 + k.val)
      = ((M1[oCh c (qF c) k].view.loc (c : Thread nD τ)
          ↦[M1[oCh c (qF c) k].view.set]{fullShare.right} target m c) : sProp 𝕄) := by
  have hk := k.isLt
  unfold sendPay
  rw [if_neg (show ¬ 24 + k.val < 12 by omega), if_neg (show ¬ 24 + k.val < 20 by omega),
    if_pos (show 24 + k.val < 28 by omega)]
  refine Eq.trans (congrArg (fun R => pts c main_v1 R fullShare.right (target m c))
    (oCh_eq rfl rfl (by show (24 + k.val - 24) % 4 = k.val; omega))) ?_
  exact (pts_oCh c (qF c) k fullShare.right (target m c)).symm

theorem back_zd (m : (ℓ : Loc nD τ sig) → Buf (Elt F) ℓ) (c : Dev nD) (k : Fin 4) :
    ((M1[oCh c (qF c) k].view.loc (c : Thread nD τ)
        ↦[M1[oCh c (qF c) k].view.set]{fullShare.right} target m c) : sProp 𝕄)
      ⊢ sendPay m c (24 + k.val) :=
  Entails.of_eq (sendPay_zd_eq m c k).symm

theorem land_zd (m : (ℓ : Loc nD τ sig) → Buf (Elt F) ℓ) (c : Dev nD) (k : Fin 4)
    (fd : Buf (Elt F) ((zb c : Thread nD τ).loc main_v1)) :
    ((M1[oCh (zb c) (qF c) k].view.loc (zb c : Thread nD τ)
        ↦[M1[oCh (zb c) (qF c) k].view.set]{fullShare}
          (M1[oCh (zb c) (qF c) k].view.write (Elt F) fd
            (M1[oCh c (qF c) k].view.read (Elt F) (target m c)) Finset.univ)) : sProp 𝕄)
      ⊢ recvPay m (zb c) (28 + k.val) := by
  have e : recvPay m (zb c) (28 + k.val)
      = pts (zb c) main_v1 (oCh (zb c) (qF c) k) fullShare (target m (zb c)) := by
    unfold recvPay; rw [recvRect_z, zb_zb]
  rw [e]
  exact Entails.of_eq (relay_z m c (qF c) k fd)

/-! ### The diagonal relays: the fourth quarter, half of it by each road -/

/-- Half j of a quarter, as one of the quarter's four chunks: the first two chunks. -/
local notation "LO(" j ")" => (⟨Fin.val j, Nat.lt_of_lt_of_le (Fin.isLt j) (by decide)⟩ : Fin 4)
/-- The last two chunks. -/
local notation "HI(" j ")" => (⟨2 + Fin.val j, by have := Fin.isLt j; omega⟩ : Fin 4)

theorem sendPay_ydg_eq (m : (ℓ : Loc nD τ sig) → Buf (Elt F) ℓ) (c : Dev nD) (j : Fin 2) :
    sendPay m c (32 + j.val)
      = ((M1[oCh c (qF (zb c)) LO(j)].view.loc (c : Thread nD τ)
          ↦[M1[oCh c (qF (zb c)) LO(j)].view.set]{fullShare} target m c) : sProp 𝕄) := by
  have hj := j.isLt
  unfold sendPay
  rw [if_neg (show ¬ 32 + j.val < 12 by omega), if_neg (show ¬ 32 + j.val < 20 by omega),
    if_neg (show ¬ 32 + j.val < 28 by omega), if_pos (show 32 + j.val < 34 by omega)]
  refine Eq.trans (congrArg (fun R => pts c main_v1 R fullShare (target m c))
    (oCh_eq (k' := LO(j)) rfl rfl (by show (32 + j.val - 32) % 4 = j.val; omega))) ?_
  exact (pts_oCh c (qF (zb c)) LO(j) fullShare (target m c)).symm

theorem back_ydg (m : (ℓ : Loc nD τ sig) → Buf (Elt F) ℓ) (c : Dev nD) (j : Fin 2) :
    ((M1[oCh c (qF (zb c)) LO(j)].view.loc (c : Thread nD τ)
        ↦[M1[oCh c (qF (zb c)) LO(j)].view.set]{fullShare} target m c) : sProp 𝕄)
      ⊢ sendPay m c (32 + j.val) :=
  Entails.of_eq (sendPay_ydg_eq m c j).symm

theorem land_ydg (m : (ℓ : Loc nD τ sig) → Buf (Elt F) ℓ) (c : Dev nD) (j : Fin 2)
    (fd : Buf (Elt F) ((yb c : Thread nD τ).loc main_v1)) :
    ((M1[oCh (yb c) (qF (zb c)) LO(j)].view.loc (yb c : Thread nD τ)
        ↦[M1[oCh (yb c) (qF (zb c)) LO(j)].view.set]{fullShare}
          (M1[oCh (yb c) (qF (zb c)) LO(j)].view.write (Elt F) fd
            (M1[oCh c (qF (zb c)) LO(j)].view.read (Elt F) (target m c)) Finset.univ)) : sProp 𝕄)
      ⊢ recvPay m (yb c) (34 + j.val) := by
  have e : recvPay m (yb c) (34 + j.val)
      = pts (yb c) main_v1 (oCh (yb c) (qF (zb c)) LO(j)) fullShare (target m (yb c)) := by
    unfold recvPay; rw [recvRect_yd, yb_yb]
  rw [e]
  exact Entails.of_eq (relay_y m c (qF (zb c)) LO(j) fd)

theorem sendPay_zdg_eq (m : (ℓ : Loc nD τ sig) → Buf (Elt F) ℓ) (c : Dev nD) (j : Fin 2) :
    sendPay m c (36 + j.val)
      = ((M1[oCh c (qF (yb c)) HI(j)].view.loc (c : Thread nD τ)
          ↦[M1[oCh c (qF (yb c)) HI(j)].view.set]{fullShare} target m c) : sProp 𝕄) := by
  have hj := j.isLt
  unfold sendPay
  rw [if_neg (show ¬ 36 + j.val < 12 by omega), if_neg (show ¬ 36 + j.val < 20 by omega),
    if_neg (show ¬ 36 + j.val < 28 by omega), if_neg (show ¬ 36 + j.val < 34 by omega)]
  refine Eq.trans (congrArg (fun R => pts c main_v1 R fullShare (target m c))
    (oCh_eq (k' := HI(j)) rfl rfl (by show (36 + j.val - 36 + 2) % 4 = 2 + j.val; omega))) ?_
  exact (pts_oCh c (qF (yb c)) HI(j) fullShare (target m c)).symm

theorem back_zdg (m : (ℓ : Loc nD τ sig) → Buf (Elt F) ℓ) (c : Dev nD) (j : Fin 2) :
    ((M1[oCh c (qF (yb c)) HI(j)].view.loc (c : Thread nD τ)
        ↦[M1[oCh c (qF (yb c)) HI(j)].view.set]{fullShare} target m c) : sProp 𝕄)
      ⊢ sendPay m c (36 + j.val) :=
  Entails.of_eq (sendPay_zdg_eq m c j).symm

theorem land_zdg (m : (ℓ : Loc nD τ sig) → Buf (Elt F) ℓ) (c : Dev nD) (j : Fin 2)
    (fd : Buf (Elt F) ((zb c : Thread nD τ).loc main_v1)) :
    ((M1[oCh (zb c) (qF (yb c)) HI(j)].view.loc (zb c : Thread nD τ)
        ↦[M1[oCh (zb c) (qF (yb c)) HI(j)].view.set]{fullShare}
          (M1[oCh (zb c) (qF (yb c)) HI(j)].view.write (Elt F) fd
            (M1[oCh c (qF (yb c)) HI(j)].view.read (Elt F) (target m c)) Finset.univ)) : sProp 𝕄)
      ⊢ recvPay m (zb c) (38 + j.val) := by
  have e : recvPay m (zb c) (38 + j.val)
      = pts (zb c) main_v1 (oCh (zb c) (qF (yb c)) HI(j)) fullShare (target m (zb c)) := by
    unfold recvPay; rw [recvRect_zd, zb_zb]
  rw [e]
  exact Entails.of_eq (relay_z m c (qF (yb c)) HI(j) fd)

/-! ## The relays, the destination named by the sender's rectangle

A chunk of the other half sits at the same rows on a device and on its buddies (they share x), so a relay's source and
destination are one rectangle, on two devices. -/

theorem oCh_congr_x {o o' : Dev nD} (h : o.val / 16 = o'.val / 16) (Q k : Fin 4) : oCh o Q k = oCh o' Q k := by
  unfold oCh
  exact Rect.unit_congr (by rw [h]) _ _

theorem relay_y' (m : (ℓ : Loc nD τ sig) → Buf (Elt F) ℓ) (c : Dev nD) (Q k : Fin 4)
    (fd : Buf (Elt F) ((yb c : Thread nD τ).loc main_v1)) :
    ((((View.whole main_v1).slice (oCh c Q k)).loc (yb c : Thread nD τ)
        ↦[((View.whole main_v1).slice (oCh c Q k)).set]{fullShare}
          (((View.whole main_v1).slice (oCh c Q k)).write (Elt F) fd
            (((View.whole main_v1).slice (oCh c Q k)).read (Elt F) (target m c)) Finset.univ)) : sProp 𝕄)
      = pts (yb c) main_v1 (oCh (yb c) Q k) fullShare (target m (yb c)) := by
  rw [oCh_congr_x (x_yb c) Q k]
  refine (land_congr c (yb c)
    (((View.whole main_v1).slice (oCh c Q k)) : View sig .tc .hbm S1024x1024 .f32)
    (((View.whole main_v1).slice (oCh c Q k)) : View sig .tc .hbm S1024x1024 .f32)
    fullShare (target m c) fd (target m (yb c)) ?_).trans
    (pts_slice_whole (yb c) main_v1 (oCh c Q k) fullShare (target m (yb c)))
  intro y
  refine (read_slice_whole main_v1 (oCh c Q k) (target m (yb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have s0 := oCh_emb0 c Q k y
  generalize (oCh c Q k).emb y = J at s0 ⊢
  exact target_yb m c J (by omega)

theorem relay_z' (m : (ℓ : Loc nD τ sig) → Buf (Elt F) ℓ) (c : Dev nD) (Q k : Fin 4)
    (fd : Buf (Elt F) ((zb c : Thread nD τ).loc main_v1)) :
    ((((View.whole main_v1).slice (oCh c Q k)).loc (zb c : Thread nD τ)
        ↦[((View.whole main_v1).slice (oCh c Q k)).set]{fullShare}
          (((View.whole main_v1).slice (oCh c Q k)).write (Elt F) fd
            (((View.whole main_v1).slice (oCh c Q k)).read (Elt F) (target m c)) Finset.univ)) : sProp 𝕄)
      = pts (zb c) main_v1 (oCh (zb c) Q k) fullShare (target m (zb c)) := by
  rw [oCh_congr_x (x_zb c) Q k]
  refine (land_congr c (zb c)
    (((View.whole main_v1).slice (oCh c Q k)) : View sig .tc .hbm S1024x1024 .f32)
    (((View.whole main_v1).slice (oCh c Q k)) : View sig .tc .hbm S1024x1024 .f32)
    fullShare (target m c) fd (target m (zb c)) ?_).trans
    (pts_slice_whole (zb c) main_v1 (oCh c Q k) fullShare (target m (zb c)))
  intro y
  refine (read_slice_whole main_v1 (oCh c Q k) (target m (zb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have s0 := oCh_emb0 c Q k y
  generalize (oCh c Q k).emb y = J at s0 ⊢
  exact target_zb m c J (by omega)

theorem land_yd' (m : (ℓ : Loc nD τ sig) → Buf (Elt F) ℓ) (c : Dev nD) (k : Fin 4)
    (fd : Buf (Elt F) ((yb c : Thread nD τ).loc main_v1)) :
    ((M1[oCh c (qF c) k].view.loc (yb c : Thread nD τ)
        ↦[M1[oCh c (qF c) k].view.set]{fullShare}
          (M1[oCh c (qF c) k].view.write (Elt F) fd
            (M1[oCh c (qF c) k].view.read (Elt F) (target m c)) Finset.univ)) : sProp 𝕄)
      ⊢ recvPay m (yb c) (20 + k.val) := by
  have e : recvPay m (yb c) (20 + k.val)
      = pts (yb c) main_v1 (oCh (yb c) (qF c) k) fullShare (target m (yb c)) := by
    unfold recvPay; rw [recvRect_y, yb_yb]
  rw [e]
  exact Entails.of_eq (relay_y' m c (qF c) k fd)

theorem land_zd' (m : (ℓ : Loc nD τ sig) → Buf (Elt F) ℓ) (c : Dev nD) (k : Fin 4)
    (fd : Buf (Elt F) ((zb c : Thread nD τ).loc main_v1)) :
    ((M1[oCh c (qF c) k].view.loc (zb c : Thread nD τ)
        ↦[M1[oCh c (qF c) k].view.set]{fullShare}
          (M1[oCh c (qF c) k].view.write (Elt F) fd
            (M1[oCh c (qF c) k].view.read (Elt F) (target m c)) Finset.univ)) : sProp 𝕄)
      ⊢ recvPay m (zb c) (28 + k.val) := by
  have e : recvPay m (zb c) (28 + k.val)
      = pts (zb c) main_v1 (oCh (zb c) (qF c) k) fullShare (target m (zb c)) := by
    unfold recvPay; rw [recvRect_z, zb_zb]
  rw [e]
  exact Entails.of_eq (relay_z' m c (qF c) k fd)

theorem land_ydg' (m : (ℓ : Loc nD τ sig) → Buf (Elt F) ℓ) (c : Dev nD) (j : Fin 2)
    (fd : Buf (Elt F) ((yb c : Thread nD τ).loc main_v1)) :
    ((M1[oCh c (qF (zb c)) LO(j)].view.loc (yb c : Thread nD τ)
        ↦[M1[oCh c (qF (zb c)) LO(j)].view.set]{fullShare}
          (M1[oCh c (qF (zb c)) LO(j)].view.write (Elt F) fd
            (M1[oCh c (qF (zb c)) LO(j)].view.read (Elt F) (target m c)) Finset.univ)) : sProp 𝕄)
      ⊢ recvPay m (yb c) (34 + j.val) := by
  have e : recvPay m (yb c) (34 + j.val)
      = pts (yb c) main_v1 (oCh (yb c) (qF (zb c)) LO(j)) fullShare (target m (yb c)) := by
    unfold recvPay; rw [recvRect_yd, yb_yb]
  rw [e]
  exact Entails.of_eq (relay_y' m c (qF (zb c)) LO(j) fd)

theorem land_zdg' (m : (ℓ : Loc nD τ sig) → Buf (Elt F) ℓ) (c : Dev nD) (j : Fin 2)
    (fd : Buf (Elt F) ((zb c : Thread nD τ).loc main_v1)) :
    ((M1[oCh c (qF (yb c)) HI(j)].view.loc (zb c : Thread nD τ)
        ↦[M1[oCh c (qF (yb c)) HI(j)].view.set]{fullShare}
          (M1[oCh c (qF (yb c)) HI(j)].view.write (Elt F) fd
            (M1[oCh c (qF (yb c)) HI(j)].view.read (Elt F) (target m c)) Finset.univ)) : sProp 𝕄)
      ⊢ recvPay m (zb c) (38 + j.val) := by
  have e : recvPay m (zb c) (38 + j.val)
      = pts (zb c) main_v1 (oCh (zb c) (qF (yb c)) HI(j)) fullShare (target m (zb c)) := by
    unfold recvPay; rw [recvRect_zd, zb_zb]
  rw [e]
  exact Entails.of_eq (relay_z' m c (qF (yb c)) HI(j) fd)

/-- info: 'Cert.Kernel.AG.land_x' depends on axioms: [propext, Classical.choice, Quot.sound] -/
#guard_msgs in #print axioms land_x
/-- info: 'Cert.Kernel.AG.back_x' depends on axioms: [propext, Classical.choice, Quot.sound] -/
#guard_msgs in #print axioms back_x
/-- info: 'Cert.Kernel.AG.land_yd' depends on axioms: [propext, Classical.choice, Quot.sound] -/
#guard_msgs in #print axioms land_yd
/-- info: 'Cert.Kernel.AG.back_yd' depends on axioms: [propext, Classical.choice, Quot.sound] -/
#guard_msgs in #print axioms back_yd
/-- info: 'Cert.Kernel.AG.land_zd' depends on axioms: [propext, Classical.choice, Quot.sound] -/
#guard_msgs in #print axioms land_zd
/-- info: 'Cert.Kernel.AG.back_zd' depends on axioms: [propext, Classical.choice, Quot.sound] -/
#guard_msgs in #print axioms back_zd
/-- info: 'Cert.Kernel.AG.land_ydg' depends on axioms: [propext, Classical.choice, Quot.sound] -/
#guard_msgs in #print axioms land_ydg
/-- info: 'Cert.Kernel.AG.back_ydg' depends on axioms: [propext, Classical.choice, Quot.sound] -/
#guard_msgs in #print axioms back_ydg
/-- info: 'Cert.Kernel.AG.land_zdg' depends on axioms: [propext, Classical.choice, Quot.sound] -/
#guard_msgs in #print axioms land_zdg
/-- info: 'Cert.Kernel.AG.back_zdg' depends on axioms: [propext, Classical.choice, Quot.sound] -/
#guard_msgs in #print axioms back_zdg

/-- info: 'Cert.Kernel.AG.land_yd'' depends on axioms: [propext, Classical.choice, Quot.sound] -/
#guard_msgs in #print axioms land_yd'
/-- info: 'Cert.Kernel.AG.land_zd'' depends on axioms: [propext, Classical.choice, Quot.sound] -/
#guard_msgs in #print axioms land_zd'
/-- info: 'Cert.Kernel.AG.land_ydg'' depends on axioms: [propext, Classical.choice, Quot.sound] -/
#guard_msgs in #print axioms land_ydg'
/-- info: 'Cert.Kernel.AG.land_zdg'' depends on axioms: [propext, Classical.choice, Quot.sound] -/
#guard_msgs in #print axioms land_zdg'

end Cert.Kernel.AG

end
-- ==== Proof.KernelAG.LandingSlot.lean ====
/-
  The copies through the staging slots: a load of a chunk of the argument into a slot, and a store of the slot into the
  device's own half of the result. A slot's view drops the slot's leading unit axis, so its element (y0, y1) is the
  buffer's element (slot, y0, y1).
-/
import proofs.«900686_g7700000000000687_dist_ag_v7x_xyz2x4x4_x_m16384_n1024_f32_1_alg».proof.Proof.KernelAG.Landing

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option quotPrecheck false

/- A rectangle of the result array, of the argument array, and a slot of the staging buffer with its leading unit axis
   dropped. -/
local notation "M1[" r "]" =>
  ((Memref.whole main_v1 : Memref sig .tc .hbm S32768x1024 .f32).slice r (fun _ => rfl))
local notation "M0[" r "]" =>
  ((Memref.whole main_arg0 : Memref sig .tc .hbm S16384x1024 .f32).slice r (fun _ => rfl))
local notation "SLOT(" s ")" =>
  (((Memref.whole cc0_scratch0 : Memref sig .tc .vmem S4x2048x1024 .f32).slice (vSl s) (fun _ => rfl)).squeeze
    S2048x1024 squeezes_S1x2048x1024_S2048x1024)

/-- A share of a staging slot under the slot's view, the leading unit axis dropped, is that share of the slot's rows. -/
theorem pts_slot_view (c : Dev nD) (s : Fin 4) (q : PosShare TreeShare)
    (f : Buf (Elt F) ((c : Thread nD τ).loc cc0_scratch0)) :
    (((SLOT(s)).view.loc (c : Thread nD τ) ↦[(SLOT(s)).view.set]{q} f) : sProp 𝕄)
      = pts c cc0_scratch0 (vSl s) q f := by
  unfold pts
  exact congrArg (fun S => (((c : Thread nD τ).loc cc0_scratch0 ↦[S]{q} f) : sProp 𝕄))
    ((View.set_reshape _ _).trans (View.set_slice_whole cc0_scratch0 (vSl s)))

/-- Reading the staging buffer through a slot's view is reading it at the slot's elements. -/
theorem read_slot (s : Fin 4) (hh : S2048x1024.numel = (vSl s).shape.numel)
    (f : cc0_scratch0.ty.Contents (Elt F)) (y : S2048x1024.Idx) :
    (SLOT(s)).view.read (Elt F) f y = f ((vSl s).emb (Shape.reshapeEquiv hh y)) := rfl

/-- A load of chunk j of the argument into slot s (the slot chunk j goes through: j mod 4) leaves the slot holding the
    chunk, and hands back the share of the chunk's rows it read. -/
theorem land_ld (m : (ℓ : Loc nD τ sig) → Buf (Elt F) ℓ) (c : Dev nD) (j : Fin 8) (s : Fin 4)
    (hs : s.val = j.val % 4) (fd : Buf (Elt F) ((c : Thread nD τ).loc cc0_scratch0)) :
    (iprop(((SLOT(s)).view.loc (c : Thread nD τ)
        ↦[(SLOT(s)).view.set]{fullShare}
          ((SLOT(s)).view.write (Elt F) fd
            (M0[xLd j].view.read (Elt F) (xin m c)) Finset.univ))
      ∗ (M0[xLd j].view.loc (c : Thread nD τ)
        ↦[M0[xLd j].view.set]{fullShare.right} xin m c)) : sProp 𝕄)
      ⊢ ldPay m c j.val := by
  have hj := j.isLt
  have e8 : (⟨j.val % 8, Nat.mod_lt _ (by decide)⟩ : Fin 8) = j := Fin.ext (by show j.val % 8 = j.val; omega)
  have e4 : (⟨j.val % 4, Nat.mod_lt _ (by decide)⟩ : Fin 4) = s := Fin.ext hs.symm
  have hh : S2048x1024.numel = (vSl s).shape.numel := squeezes_S1x2048x1024_S2048x1024.numel_eq
  have e : ldPay m c j.val
      = iprop(pts c cc0_scratch0 (vSl s) fullShare (vfill m c j.val)
          ∗ pts c main_arg0 (xLd j) fullShare.right (xin m c)) := by
    unfold ldPay; rw [e8, e4]
  rw [e]
  refine sep_mono (Entails.of_eq ?_)
    (Entails.of_eq (pts_slice_whole c main_arg0 (xLd j) fullShare.right (xin m c)))
  refine (land_congr c c (M0[xLd j]).view (SLOT(s)).view fullShare (xin m c) fd (vfill m c j.val) ?_).trans
    (pts_slot_view c s fullShare (vfill m c j.val))
  intro y
  refine (read_slot s hh (vfill m c j.val) y).trans
    (Eq.trans ?_ (read_slice_whole main_arg0 (xLd j) (xin m c) y).symm)
  obtain ⟨v1, v2⟩ := vSl_emb s hh y
  have s0 := xLd_emb0 j y
  have s1 := xLd_emb1 j y
  have hy0 : (y 0).val < 2048 := (y 0).isLt
  generalize (vSl s).emb (Shape.reshapeEquiv hh y) = I at v1 v2 ⊢
  generalize (xLd j).emb y = J at s0 s1 ⊢
  unfold vfill
  refine (congrArg (xin m c) (idx2_eq_ix2 J _ _ ?_ ?_)).symm
  · show ((J : (⟨2, ![16384, 1024]⟩ : Shape).Idx) 0).val
      = (2048 * (j.val % 8) + ((I : (⟨3, ![4, 2048, 1024]⟩ : Shape).Idx) 1).val) % 16384
    omega
  · show ((J : (⟨2, ![16384, 1024]⟩ : Shape).Idx) 1).val = ((I : (⟨3, ![4, 2048, 1024]⟩ : Shape).Idx) 2).val
    omega

/-- A store of slot s holding chunk j of the argument leaves chunk j of the device's own half of the result holding
    what it must, and hands the slot back. -/
theorem land_st (m : (ℓ : Loc nD τ sig) → Buf (Elt F) ℓ) (c : Dev nD) (j : Fin 8) (s : Fin 4)
    (hs : s.val = j.val % 4) (fd : Buf (Elt F) ((c : Thread nD τ).loc main_v1)) :
    (iprop((M1[oOwn c j].view.loc (c : Thread nD τ)
        ↦[M1[oOwn c j].view.set]{fullShare}
          (M1[oOwn c j].view.write (Elt F) fd
            ((SLOT(s)).view.read (Elt F) (vfill m c j.val)) Finset.univ))
      ∗ ((SLOT(s)).view.loc (c : Thread nD τ)
        ↦[(SLOT(s)).view.set]{fullShare} vfill m c j.val)) : sProp 𝕄)
      ⊢ stPay m c j.val := by
  have hj := j.isLt
  have hc : c.val < 32 := c.isLt
  have e8 : (⟨j.val % 8, Nat.mod_lt _ (by decide)⟩ : Fin 8) = j := Fin.ext (by show j.val % 8 = j.val; omega)
  have e4 : (⟨j.val % 4, Nat.mod_lt _ (by decide)⟩ : Fin 4) = s := Fin.ext hs.symm
  have hh : S2048x1024.numel = (vSl s).shape.numel := squeezes_S1x2048x1024_S2048x1024.numel_eq
  have e : stPay m c j.val
      = iprop(pts c main_v1 (oOwn c j) fullShare (target m c)
          ∗ pts c cc0_scratch0 (vSl s) fullShare (vfill m c j.val)) := by
    unfold stPay; rw [e8, e4]
  rw [e]
  refine sep_mono (Entails.of_eq ?_)
    (Entails.of_eq (pts_slot_view c s fullShare (vfill m c j.val)))
  refine (land_congr c c (SLOT(s)).view (M1[oOwn c j]).view fullShare (vfill m c j.val) fd (target m c) ?_).trans
    (pts_slice_whole c main_v1 (oOwn c j) fullShare (target m c))
  intro y
  refine (read_slice_whole main_v1 (oOwn c j) (target m c) y).trans
    (Eq.trans ?_ (read_slot s hh (vfill m c j.val) y).symm)
  obtain ⟨v1, v2⟩ := vSl_emb s hh y
  have o0 := oOwn_emb0 c j y
  have o1 := oOwn_emb1 c j y
  have hy0 : (y 0).val < 2048 := (y 0).isLt
  generalize (vSl s).emb (Shape.reshapeEquiv hh y) = I at v1 v2 ⊢
  generalize (oOwn c j).emb y = J at o0 o1 ⊢
  refine (target_own m c J (by omega)).trans ?_
  unfold vfill
  refine congrArg (xin m c) (idx2_eq_ix2 _ _ _ ?_ ?_)
  · show ((J : (⟨2, ![32768, 1024]⟩ : Shape).Idx) 0).val % 16384
      = (2048 * (j.val % 8) + ((I : (⟨3, ![4, 2048, 1024]⟩ : Shape).Idx) 1).val) % 16384
    omega
  · show ((J : (⟨2, ![32768, 1024]⟩ : Shape).Idx) 1).val = ((I : (⟨3, ![4, 2048, 1024]⟩ : Shape).Idx) 2).val
    omega

/-- info: 'Cert.Kernel.AG.land_ld' depends on axioms: [propext, Classical.choice, Quot.sound] -/
#guard_msgs in #print axioms land_ld
/-- info: 'Cert.Kernel.AG.land_st' depends on axioms: [propext, Classical.choice, Quot.sound] -/
#guard_msgs in #print axioms land_st

end Cert.Kernel.AG

end
-- ==== Proof.KernelAG.PartsA.lean ====
/-
  The kernel body's parts 2 to 5, each against its specification: what the part needs of the device's resources, what
  it leaves, one rule per effect in program order.

  Part 2 pays the partner's and the y buddy's barrier cells. Part 3 pays the z buddy's, waits for the three units of
  the device's own barrier cell — with them come the rows of the neighbours' results it will copy into — and sends the
  first two chunks of its quarter of the argument to the partner. Part 4 sends the other two and starts the first
  load into the staging buffer. Part 5 starts the second load, waits for the first chunk from the partner to land and
  passes it on to the y buddy, keeping a half share of it for the z buddy.
-/
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.Landing
import proofs.«900686_g7700000000000687_dist_ag_v7x_xyz2x4x4_x_m16384_n1024_f32_1_alg».proof.Proof.KernelAG.LandingSlot

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Two hand-overs, restated -/

/-- The partner's unit at the barrier hands over its four landing chunks: the first two named by their rows, the last two
    as they were handed. -/
private theorem a_barPay_0 (c : Dev nD) :
    (barPay (F := F) c 0 : sProp 𝕄)
      ⊢ iprop((∃ f, pts (px c) main_v1 (oCh (px c) (qF c) 0) fullShare f)
          ∗ (∃ f, pts (px c) main_v1 (oCh (px c) (qF c) 1) fullShare f)
          ∗ (∃ f, pts (px c) main_v1 (recvRect (px c) 14) fullShare f)
          ∗ (∃ f, pts (px c) main_v1 (recvRect (px c) 15) fullShare f)) := by
  rw [barPay_0]; unfold give
  simp only [recvRect_12, recvRect_13, qF_px]
  exact .rfl

/-- Chunk 0 of the device's quarter, landed from the partner, held as two half shares: one for each buddy's copy. -/
private theorem a_recv_12 (m : (ℓ : Loc nD τ sig) → Buf (Elt F) ℓ) (c : Dev nD) :
    (recvPay m c 12 : sProp 𝕄)
      ⊢ iprop(pts c main_v1 (oCh c (qF c) 0) fullShare.left (target m c)
          ∗ pts c main_v1 (oCh c (qF c) 0) fullShare.right (target m c)) := by
  unfold recvPay; rw [recvRect_12]
  exact (pts_half c main_v1 (oCh c (qF c) 0) (target m c)).1

variable (m : (ℓ : Loc nD τ sig) → Buf (Elt F) ℓ) (K : Dev nD × Fin 41 → ℕ)

/-! ## The parts -/

set_option maxHeartbeats 4000000 in
set_option maxRecDepth 65536 in
/-- Part 2: the units to the partner's and the y buddy's barrier cells. -/
theorem part2_spec (c : Dev nD) (v2 v5 v8 v18 v28 v29 v30 : BitVec 32) (W : Waits sig Unit)
    (Φ : (Σ' (v37 : BitVec 32) (v41 : BitVec 32) (v45 : BitVec 32) (v50 : BitVec 32) (v51 : Sems sig S_) (v65 : BitVec 32), BitVec 32) → sProp 𝕄) :
    iprop(records m K ∗ levAts L lv
        ∗ (ow c 0 W ∗ dutyTok ER (barCell (px c)) 0 0 ∗ barPay (px c) 0 ∗ dutyTok ER (barCell (yb c)) 0 1 ∗ barPay (yb c) 1)
        ∗ (∀ r, (⌜r.2.2.2.2.1 = SemArray.scalar (sig.barrier 0 rfl)⌝ ∗ ow c 2 W) -∗ Φ r))
      ⊢ wp frame (wpE (defs₀ (F := F)) 𝒱₀ c none) Set.univ (k0_part2 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v18 v28 v29 v30) Φ := by
  unfold k0_part2
  simp (config := { proj := false }) only [semSignalWord, semWaitWord, Prog.lift, Prog.bind_op, Prog.bind_ret, Prog.pure_eq_ret, dev1_eq c, dev2_eq c]
  iintro ⟨#HR, #Hlev, ⟨HO, Ht0, Hp0, Ht1, Hp1⟩, Hk⟩
  -- the unit to the partner's barrier cell
  iapply (step_signal m K c (px c) 0 _ rfl (sumT ((owedList c).drop 1)) W) $$ [HO Ht0 Hp0]
  · isplitr; · iexact HR
    hand [HO, Ht0, Hp0]
  iintro HO
  -- the unit to the y buddy's
  iapply (step_signal m K c (yb c) 1 _ rfl (sumT ((owedList c).drop 2)) W) $$ [HO Ht1 Hp1]
  · isplitr; · iexact HR
    hand [HO, Ht1, Hp1]
  iintro HO
  rw [wp_ret]; imodintro
  iapply Hk
  isplitr
  · ipureintro; rfl
  iexact HO

set_option maxHeartbeats 4000000 in
set_option maxRecDepth 65536 in
/-- Part 3: the unit to the z buddy's barrier cell, the wait for the three neighbours' units, and the copies of chunks 0 and 1
    of the device's quarter of its argument into the partner's result. -/
theorem part3_spec (c : Dev nD) (v5 v8 v29 v31 v32 v37 v65 v66 : BitVec 32) (W : Waits sig Unit) (Φ : PUnit → sProp 𝕄) :
    iprop(records m K ∗ levAts L lv
        ∗ (ow c 2 W ∗ dutyTok ER (barCell (zb c)) 0 2 ∗ barPay (zb c) 2 ∗ cred (tallyAt (barCell c) () 3) ∗ atPos ER (barCell c) 0 ∅ 0
            ∗ pts c main_arg0 (xCh (qF c) 0) fullShare.left (xin m c) ∗ pts c main_arg0 (xCh (qF c) 1) fullShare.left (xin m c)
            ∗ tok c 8 0 ∗ tok c 9 0 ∗ tok (px c) 12 0 ∗ tok (px c) 13 0)
        ∗ ((∃ W', ow c 5 W' ∗ atPos ER (barCell c) 1 ∅ 0 ∗ crd c 8 N ∗ crd c 9 N
            ∗ give (px c) 14 ∗ give (px c) 15 ∗ barPay c 1 ∗ barPay c 2) -∗ Φ ⟨⟩))
      ⊢ wp frame (wpE (defs₀ (F := F)) 𝒱₀ c none) Set.univ (k0_part3 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v5 v8 v29 v31 v32 v37 (SemArray.scalar (sig.barrier 0 rfl)) v65 v66) Φ := by
  unfold k0_part3
  simp (config := { proj := false }) only [semSignalWord, semWaitWord, Prog.lift, Prog.bind_op, Prog.bind_ret, Prog.pure_eq_ret, dev3_eq c,
    sem_s3_0, sem_s3_1, sem_s4_0, sem_s4_1, slice_off1_0, slice_off1_1, slice_off2_0, slice_off2_1]
  unfold give
  iintro ⟨#HR, #Hlev, ⟨HO, Ht2, Hp2, Hcb, Hab, Hx0, Hx1, Hs8, Hs9, Hr12, Hr13⟩, Hk⟩
  -- the unit to the z buddy's barrier cell
  iapply (step_signal m K c (zb c) 2 _ rfl (sumT ((owedList c).drop 3)) W) $$ [HO Ht2 Hp2]
  · isplitr; · iexact HR
    hand [HO, Ht2, Hp2]
  iintro HO
  -- the wait for the three neighbours' units: their landing rows come with it
  iapply (step_barwait m K c _ rfl (sumT ((owedList c).drop 3)) W) $$ [Hcb HO Hab]
  · isplitr; · iexact HR
    isplitl [Hcb]; · iexact Hcb
    isplitl [HO]; · iexact HO
    isplitr; · iapply (mayWait_bar c); iexact Hlev
    iexact Hab
  iintro ⟨HO, Hab, Hb0, Hb1, Hb2⟩
  ihave Hb0' := (a_barPay_0 c) $$ Hb0
  icases Hb0' with ⟨⟨%f12, Hd12⟩, ⟨%f13, Hd13⟩, Hg14, Hg15⟩
  -- chunk 0 of the device's quarter of its argument, to the partner
  iapply (step_send0' m K c (px c) _ (dev4_eq c) 8 12 (by decide) (by decide) (by decide) (by decide) (qF c) 0 (px c) (qF c) 0
      fullShare.left (xin m c) f12 (sumT ((owedList c).drop 4)) (insert (SemLoc.reg barS, ()) W)
      (Entails.of_eq (sendPay_8 m c).symm) (land_x m c 0 f12)) $$ [Hx0 Hd12 HO Hs8 Hr12]
  · isplitr; · iexact HR
    hand [Hx0, Hd12, HO, Hs8, Hr12]
  iintro ⟨Hc8, HO⟩
  -- chunk 1
  iapply (step_send0' m K c (px c) _ (dev5_eq c) 9 13 (by decide) (by decide) (by decide) (by decide) (qF c) 1 (px c) (qF c) 1
      fullShare.left (xin m c) f13 (sumT ((owedList c).drop 5)) (insert (SemLoc.reg barS, ()) W)
      (Entails.of_eq (sendPay_9 m c).symm) (land_x m c 1 f13)) $$ [Hx1 Hd13 HO Hs9 Hr13]
  · isplitr; · iexact HR
    hand [Hx1, Hd13, HO, Hs9, Hr13]
  iintro ⟨Hc9, HO⟩
  rw [wp_ret]; imodintro
  iapply Hk
  iexists _
  hand [HO, Hab, Hc8, Hc9, Hg14, Hg15, Hb1, Hb2]

set_option maxHeartbeats 4000000 in
set_option maxRecDepth 65536 in
/-- Part 4: the copies of chunks 2 and 3 of the quarter into the partner's result, and the load of chunk 0 of the argument into
    staging slot 0. -/
theorem part4_spec (c : Dev nD) (v5 v8 v29 v32 v37 : BitVec 32) (W : Waits sig Unit) (fv : Buf (Elt F) ((c : Thread nD τ).loc cc0_scratch0)) (Φ : PUnit → sProp 𝕄) :
    iprop(records m K ∗ levAts L lv
        ∗ (ow c 5 W ∗ pts c main_arg0 (xCh (qF c) 2) fullShare.left (xin m c) ∗ pts c main_arg0 (xCh (qF c) 3) fullShare.left (xin m c)
            ∗ give (px c) 14 ∗ give (px c) 15 ∗ tok c 10 0 ∗ tok c 11 0 ∗ tok (px c) 14 0 ∗ tok (px c) 15 0
            ∗ pts c main_arg0 (xLd 0) fullShare.right (xin m c) ∗ pts c cc0_scratch0 (vSl 0) fullShare fv ∗ tok c 0 0)
        ∗ ((∃ W', ow c 7 W' ∗ crd c 10 N ∗ crd c 11 N ∗ crd c 0 NL) -∗ Φ ⟨⟩))
      ⊢ wp frame (wpE (defs₀ (F := F)) 𝒱₀ c none) Set.univ (k0_part4 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v5 v8 v29 v32 v37) Φ := by
  unfold k0_part4
  simp (config := { proj := false }) only [semSignalWord, semWaitWord, Prog.lift, Prog.bind_op, Prog.bind_ret, Prog.pure_eq_ret, sem_s3_2, sem_s3_3, sem_s4_2, sem_s4_3, sem_s1_0, slice_off1_2, slice_off1_3, slice_off2_2, slice_off2_3,
    slice_x 0 (off := ![0, 0]) rfl, slice_v 0 (off := ![0, 0, 0]) rfl]
  unfold give
  simp only [recvRect_14, recvRect_15, qF_px]
  iintro ⟨#HR, #Hlev, ⟨HO, Hx2, Hx3, ⟨%f14, Hd14⟩, ⟨%f15, Hd15⟩, Hs10, Hs11, Hr14, Hr15, Hl0, Hv0, Ht0⟩, Hk⟩
  -- chunk 2 of the device's quarter of its argument, to the partner
  iapply (step_send0' m K c (px c) _ (dev6_eq c) 10 14 (by decide) (by decide) (by decide) (by decide) (qF c) 2 (px c) (qF c) 2
      fullShare.left (xin m c) f14 (sumT ((owedList c).drop 6)) W
      (Entails.of_eq (sendPay_10 m c).symm) (land_x m c 2 f14)) $$ [Hx2 Hd14 HO Hs10 Hr14]
  · isplitr; · iexact HR
    hand [Hx2, Hd14, HO, Hs10, Hr14]
  iintro ⟨Hc10, HO⟩
  -- chunk 3
  iapply (step_send0' m K c (px c) _ (dev7_eq c) 11 15 (by decide) (by decide) (by decide) (by decide) (qF c) 3 (px c) (qF c) 3
      fullShare.left (xin m c) f15 (sumT ((owedList c).drop 7)) W
      (Entails.of_eq (sendPay_11 m c).symm) (land_x m c 3 f15)) $$ [Hx3 Hd15 HO Hs11 Hr15]
  · isplitr; · iexact HR
    hand [Hx3, Hd15, HO, Hs11, Hr15]
  iintro ⟨Hc11, HO⟩
  -- the load of chunk 0 of the argument into slot 0
  iapply (step_load m K c 0 0 0 rfl rfl fv (land_ld m c 0 0 rfl fv)) $$ [Hl0 Hv0 Ht0]
  · isplitr; · iexact HR
    isplitr; · iapply (reached_dma m K c 0 (by decide)); iexact HR
    hand [Hl0, Hv0, Ht0]
  iintro Hc0
  rw [wp_ret]; imodintro
  iapply Hk
  iexists _
  hand [HO, Hc10, Hc11, Hc0]

set_option maxHeartbeats 4000000 in
set_option maxRecDepth 65536 in
/-- Part 5: the load of chunk 1 into slot 1, the wait for chunk 0 of the device's quarter to land from the partner, and its copy
    on to the y buddy at a half share (the other half is kept for the z buddy). -/
theorem part5_spec (c : Dev nD) (v2 v5 v8 v29 v30 v34 v37 : BitVec 32) (W : Waits sig Unit) (fv : Buf (Elt F) ((c : Thread nD τ).loc cc0_scratch0))
    (Φ : (Σ' (v161 : BitVec 32), BitVec 32) → sProp 𝕄) :
    iprop(records m K ∗ levAts L lv
        ∗ (ow c 7 W ∗ pts c main_arg0 (xLd 1) fullShare.right (xin m c) ∗ pts c cc0_scratch0 (vSl 1) fullShare fv ∗ tok c 1 0
            ∗ crd c 12 N ∗ pos c 12 0 ∗ give (yb c) 20 ∗ tok c 16 0 ∗ tok (yb c) 20 0)
        ∗ (∀ r, (∃ W', ow c 8 W' ∗ crd c 1 NL ∗ pos c 12 1 ∗ crd c 16 N ∗ pts c main_v1 (oCh c (qF c) 0) fullShare.right (target m c)) -∗ Φ r))
      ⊢ wp frame (wpE (defs₀ (F := F)) 𝒱₀ c none) Set.univ (k0_part5 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v30 v34 v37) Φ := by
  unfold k0_part5
  simp (config := { proj := false }) only [semSignalWord, semWaitWord, Prog.lift, Prog.bind_op, Prog.bind_ret, Prog.pure_eq_ret, sem_s1_1, sem_s4_0, sem_s5_0, sem_s6_0, slice_off3_0,
    slice_x 1 (off := ![2048, 0]) rfl, slice_v 1 (off := ![1, 0, 0]) rfl]
  unfold give
  simp only [recvRect_20, yb_yb, oCh_yb]
  iintro ⟨#HR, #Hlev, ⟨HO, Hl1, Hv1, Ht1, Hc12, Hp12, ⟨%f20, Hd20⟩, Hs16, Hr20⟩, Hk⟩
  -- the load of chunk 1 of the argument into slot 1
  iapply (step_load m K c 1 1 0 rfl rfl fv (land_ld m c 1 1 rfl fv)) $$ [Hl1 Hv1 Ht1]
  · isplitr; · iexact HR
    isplitr; · iapply (reached_dma m K c 1 (by decide)); iexact HR
    hand [Hl1, Hv1, Ht1]
  iintro Hc1
  -- the wait for chunk 0 of the device's quarter to land from the partner
  iapply (step_rwait m K c 12 (by decide) (by decide) (sumT ((owedList c).drop 7)) W (credit_N _)) $$ [Hc12 HO Hp12]
  · isplitr; · iexact HR
    isplitl [Hc12]; · iexact Hc12
    isplitl [HO]; · iexact HO
    isplitr; · iapply (mayWait_xrecv c 0); iexact Hlev
    iexact Hp12
  iintro ⟨HO, Hp12, Hpay⟩
  -- a half share of the landed rows for the copy to the y buddy, the other half kept for the copy to the z buddy
  ihave Hh := (a_recv_12 m c) $$ Hpay
  icases Hh with ⟨HL, HRt⟩
  iapply (step_send1' m K c (yb c) _ (dev8_eq c) 16 20 (by decide) (by decide) (by decide) (by decide) c (qF c) 0 c (qF c) 0
      fullShare.left (target m c) f20 (sumT ((owedList c).drop 8)) (insert (SemLoc.dma (ds 12), ()) W)
      (Entails.of_eq (sendPay_16 m c).symm) (land_yd' m c 0 f20)) $$ [HL Hd20 HO Hs16 Hr20]
  · isplitr; · iexact HR
    hand [HL, Hd20, HO, Hs16, Hr20]
  iintro ⟨Hc16, HO⟩
  rw [wp_ret]; imodintro
  iapply Hk
  iexists _
  hand [HO, Hc1, Hp12, Hc16, HRt]

/-- info: 'Cert.Kernel.AG.part2_spec' depends on axioms: [propext, Classical.choice, Quot.sound] -/
#guard_msgs in #print axioms part2_spec
/-- info: 'Cert.Kernel.AG.part3_spec' depends on axioms: [propext, Classical.choice, Quot.sound] -/
#guard_msgs in #print axioms part3_spec
/-- info: 'Cert.Kernel.AG.part4_spec' depends on axioms: [propext, Classical.choice, Quot.sound] -/
#guard_msgs in #print axioms part4_spec
/-- info: 'Cert.Kernel.AG.part5_spec' depends on axioms: [propext, Classical.choice, Quot.sound] -/
#guard_msgs in #print axioms part5_spec

end Cert.Kernel.AG

end
-- ==== Proof.KernelAG.PartsB.lean ====
/-
  Parts 6 to 9 of the body: the device passes chunks 0, 1 and 2 of the quarter it fetched from its partner on to its
  two buddies, and between these moves its own block through the staging slots.

  Each part is a short run of effects. A chunk that has landed from the partner is held whole; the copy to the y buddy
  reads it at the left half share and the copy to the z buddy at the right half share, each paying the buddy's receive
  cell with the rows it wrote there. A load is waited for at its slot's cell, the slot is then stored into the device's
  own half of the result, and the next load but one is started into the slot two ahead.
-/
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.Landing
import proofs.«900686_g7700000000000687_dist_ag_v7x_xyz2x4x4_x_m16384_n1024_f32_1_alg».proof.Proof.KernelAG.LandingSlot

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 4000000 in
set_option maxRecDepth 65536 in
/-- Part 6: chunk 0 of the device's quarter goes on to the z buddy; the first load is waited for, its slot stored into the
    device's own half, and the third load started. -/
theorem part6_spec (c : Dev nD) (v29 v31 v32 v34 v37 v161 v162 : BitVec 32) (W : Waits sig Unit)
    (fo : Buf (Elt F) ((c : Thread nD τ).loc main_v1)) (fv : Buf (Elt F) ((c : Thread nD τ).loc cc0_scratch0))
    (Φ : (Σ' (v191 : BitVec 32), BitVec 32) → sProp 𝕄) :
    iprop(records m K ∗ levAts L lv
        ∗ (ow c 8 W ∗ pts c main_v1 (oCh c (qF c) 0) fullShare.right (target m c) ∗ give (zb c) 28 ∗ tok c 24 0 ∗ tok (zb c) 28 0
            ∗ crd c 0 NL ∗ pos c 0 0 ∗ pts c main_v1 (oOwn c 0) fullShare fo ∗ tok c 4 0
            ∗ pts c main_arg0 (xLd 2) fullShare.right (xin m c) ∗ pts c cc0_scratch0 (vSl 2) fullShare fv ∗ tok c 2 0)
        ∗ (∀ r, (∃ W', ow c 9 W' ∗ crd c 24 N ∗ pos c 0 1 ∗ rch c 0 1 ∗ pts c main_arg0 (xLd 0) fullShare.right (xin m c) ∗ crd c 4 NS ∗ crd c 2 NL) -∗ Φ r))
      ⊢ wp frame (wpE (defs₀ (F := F)) 𝒱₀ c none) Set.univ (k0_part6 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v29 v31 v32 v34 v37 v161 v162) Φ := by
  unfold k0_part6
  simp (config := { proj := false }) only [semSignalWord, semWaitWord, Prog.lift, Prog.bind_op, Prog.bind_ret, Prog.pure_eq_ret,
    sem_s7_0, sem_s8_0, sem_s1_0, sem_s2_0, sem_s1_2, slice_off3_0, slice_off4_0,
    slice_x (0 : Fin 8) (off := ![0, 0]) rfl, slice_x (2 : Fin 8) (off := ![4096, 0]) rfl,
    slice_v (0 : Fin 4) (off := ![0, 0, 0]) rfl, slice_v (2 : Fin 4) (off := ![2, 0, 0]) rfl]
  have hst : 4 + (0 : Fin 4).val < 40 := by decide
  have hld : (2 : Fin 4).val < 40 := by decide
  iintro ⟨#HR, #Hlev, ⟨HO, Hp, Hgz, Ht24, Ht28, Hc0, Hat0, Hown, Ht4, Hx2, Hv2, Ht2⟩, Hk⟩
  unfold give
  simp only [recvRect_28, zb_zb, oCh_zb]
  icases Hgz with ⟨%fz, Hdz⟩
  -- to the z buddy, the right half share
  iapply (step_send1' m K c (zb c) _ (dev9_eq c) 24 28 (by decide) (by decide) (by unfold isSend; omega) (by unfold isRecv; omega)
      c (qF c) 0 c (qF c) 0 fullShare.right (target m c) fz (sumT ((owedList c).drop 9)) _
      (Entails.of_eq (sendPay_24 m c).symm) (land_zd' m c 0 fz)) $$ [Hp Hdz HO Ht24 Ht28]
  · isplitr; · iexact HR
    hand [Hp, Hdz, HO, Ht24, Ht28]
  iintro ⟨Hc24, HO⟩
  -- the first load has landed in its slot
  iapply (step_lwait m K c 0 (by decide) 0 (by decide) (dstw := slot 0) _ _ rfl) $$ [Hc0 HO Hat0]
  · isplitr; · iexact HR
    isplitl [Hc0]; · iexact Hc0
    isplitl [HO]; · iexact HO
    isplitr; · iapply (mayWait_local c 0 (by decide) 9); iexact Hlev
    iexact Hat0
  iintro ⟨HO, Hat0, Hr0, Hld⟩
  unfold ldPay
  icases Hld with ⟨Hslot, Hx0⟩
  -- the slot goes into chunk 0 of the device's own half
  iapply (step_store m K c 0 0 0 rfl rfl fo (land_st m c 0 0 rfl fo)) $$ [Hslot Hown Ht4]
  · isplitr; · iexact HR
    isplitr; · iapply (reached_dma m K c (4 + (0 : Fin 4).val) hst) $$ HR
    hand [Hslot, Hown, Ht4]
  iintro Hc4
  -- the third load starts
  iapply (step_load m K c 2 2 0 rfl rfl fv (land_ld m c 2 2 rfl fv)) $$ [Hx2 Hv2 Ht2]
  · isplitr; · iexact HR
    isplitr; · iapply (reached_dma m K c (2 : Fin 4).val hld) $$ HR
    hand [Hx2, Hv2, Ht2]
  iintro Hc2
  rw [wp_ret]
  imodintro
  iapply Hk
  iexists _
  hand [HO, Hc24, Hat0, Hr0, Hx0, Hc4, Hc2]

set_option maxHeartbeats 4000000 in
set_option maxRecDepth 65536 in
/-- Part 7: chunk 1 of the device's quarter lands from the partner and is passed on to both buddies, a half share each. -/
theorem part7_spec (c : Dev nD) (v2 v5 v8 v30 v31 v191 c4 : BitVec 32) (W : Waits sig Unit) (Φ : PUnit → sProp 𝕄) :
    iprop(records m K ∗ levAts L lv
        ∗ (ow c 9 W ∗ crd c 13 N ∗ pos c 13 0 ∗ give (yb c) 21 ∗ give (zb c) 29 ∗ tok c 17 0 ∗ tok (yb c) 21 0 ∗ tok c 25 0 ∗ tok (zb c) 29 0)
        ∗ ((∃ W', ow c 11 W' ∗ pos c 13 1 ∗ crd c 17 N ∗ crd c 25 N) -∗ Φ ⟨⟩))
      ⊢ wp frame (wpE (defs₀ (F := F)) 𝒱₀ c none) Set.univ (k0_part7 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v191 c4) Φ := by
  unfold k0_part7
  simp (config := { proj := false }) only [semSignalWord, semWaitWord, Prog.lift, Prog.bind_op, Prog.bind_ret, Prog.pure_eq_ret,
    sem_s4_1, sem_s5_1, sem_s6_1, sem_s7_1, sem_s8_1, slice_off3_1]
  iintro ⟨#HR, #Hlev, ⟨HO, Hcr, Hat, Hgy, Hgz, Ht17, Ht21, Ht25, Ht29⟩, Hk⟩
  -- the landing from the partner
  iapply (step_rwait m K c 13 (by decide) (by unfold isRecv; omega) (dstw := M1.slice (oCh c (qF c) 1) (fun _ => rfl)) _ _ rfl) $$ [Hcr HO Hat]
  · isplitr; · iexact HR
    isplitl [Hcr]; · iexact Hcr
    isplitl [HO]; · iexact HO
    isplitr; · iapply (mayWait_xrecv c 1); iexact Hlev
    iexact Hat
  iintro ⟨HO, Hat, Hpay⟩
  unfold recvPay give
  simp only [recvRect_13 c, recvRect_21, recvRect_29, yb_yb, zb_zb, oCh_yb, oCh_zb]
  icases (pts_half c main_v1 (oCh c (qF c) 1) (target m c)).1 $$ Hpay with ⟨HL, HRt⟩
  icases Hgy with ⟨%fy, Hdy⟩
  icases Hgz with ⟨%fz, Hdz⟩
  -- to the y buddy, the left half share
  iapply (step_send1' m K c (yb c) _ (dev10_eq c) 17 21 (by decide) (by decide) (by unfold isSend; omega) (by unfold isRecv; omega)
      c (qF c) 1 c (qF c) 1 fullShare.left (target m c) fy (sumT ((owedList c).drop 10)) _
      (Entails.of_eq (sendPay_17 m c).symm) (land_yd' m c 1 fy)) $$ [HL Hdy HO Ht17 Ht21]
  · isplitr; · iexact HR
    hand [HL, Hdy, HO, Ht17, Ht21]
  iintro ⟨Hc17, HO⟩
  -- to the z buddy, the right half share
  iapply (step_send1' m K c (zb c) _ (dev11_eq c) 25 29 (by decide) (by decide) (by unfold isSend; omega) (by unfold isRecv; omega)
      c (qF c) 1 c (qF c) 1 fullShare.right (target m c) fz (sumT ((owedList c).drop 11)) _
      (Entails.of_eq (sendPay_25 m c).symm) (land_zd' m c 1 fz)) $$ [HRt Hdz HO Ht25 Ht29]
  · isplitr; · iexact HR
    hand [HRt, Hdz, HO, Ht25, Ht29]
  iintro ⟨Hc25, HO⟩
  rw [wp_ret]
  imodintro
  iapply Hk
  iexists _
  hand [HO, Hat, Hc17, Hc25]

set_option maxHeartbeats 4000000 in
set_option maxRecDepth 65536 in
/-- Part 8: the second load is waited for, its slot stored into the device's own half, the fourth load started; then
    chunk 2 of the device's quarter lands from the partner. -/
theorem part8_spec (c : Dev nD) (v2 v5 v8 v29 v32 v34 v37 : BitVec 32) (W : Waits sig Unit)
    (fo : Buf (Elt F) ((c : Thread nD τ).loc main_v1)) (fv : Buf (Elt F) ((c : Thread nD τ).loc cc0_scratch0))
    (Φ : (Σ' (v252 : BitVec 32), BitVec 32) → sProp 𝕄) :
    iprop(records m K ∗ levAts L lv
        ∗ (ow c 11 W ∗ crd c 1 NL ∗ pos c 1 0 ∗ pts c main_v1 (oOwn c 1) fullShare fo ∗ tok c 5 0
            ∗ pts c main_arg0 (xLd 3) fullShare.right (xin m c) ∗ pts c cc0_scratch0 (vSl 3) fullShare fv ∗ tok c 3 0 ∗ crd c 14 N ∗ pos c 14 0)
        ∗ (∀ r, (∃ W', ow c 11 W' ∗ pos c 1 1 ∗ rch c 1 1 ∗ pts c main_arg0 (xLd 1) fullShare.right (xin m c) ∗ crd c 5 NS ∗ crd c 3 NL
            ∗ pos c 14 1 ∗ pts c main_v1 (oCh c (qF c) 2) fullShare (target m c)) -∗ Φ r))
      ⊢ wp frame (wpE (defs₀ (F := F)) 𝒱₀ c none) Set.univ (k0_part8 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v32 v34 v37) Φ := by
  unfold k0_part8
  simp (config := { proj := false }) only [semSignalWord, semWaitWord, Prog.lift, Prog.bind_op, Prog.bind_ret, Prog.pure_eq_ret,
    sem_s1_1, sem_s2_1, sem_s1_3, sem_s4_2, slice_off4_1, slice_off3_2,
    slice_x (1 : Fin 8) (off := ![2048, 0]) rfl, slice_x (3 : Fin 8) (off := ![6144, 0]) rfl,
    slice_v (1 : Fin 4) (off := ![1, 0, 0]) rfl, slice_v (3 : Fin 4) (off := ![3, 0, 0]) rfl]
  have hst : 4 + (1 : Fin 4).val < 40 := by decide
  have hld : (3 : Fin 4).val < 40 := by decide
  iintro ⟨#HR, #Hlev, ⟨HO, Hc1, Hat1, Hown, Ht5, Hx3, Hv3, Ht3, Hc14, Hat14⟩, Hk⟩
  -- the second load has landed in its slot
  iapply (step_lwait m K c 1 (by decide) 0 (by decide) (dstw := slot 1) _ _ rfl) $$ [Hc1 HO Hat1]
  · isplitr; · iexact HR
    isplitl [Hc1]; · iexact Hc1
    isplitl [HO]; · iexact HO
    isplitr; · iapply (mayWait_local c 1 (by decide) 11); iexact Hlev
    iexact Hat1
  iintro ⟨HO, Hat1, Hr1, Hld⟩
  unfold ldPay
  icases Hld with ⟨Hslot, Hx1⟩
  -- the slot goes into chunk 1 of the device's own half
  iapply (step_store m K c 1 1 0 rfl rfl fo (land_st m c 1 1 rfl fo)) $$ [Hslot Hown Ht5]
  · isplitr; · iexact HR
    isplitr; · iapply (reached_dma m K c (4 + (1 : Fin 4).val) hst) $$ HR
    hand [Hslot, Hown, Ht5]
  iintro Hc5
  -- the fourth load starts
  iapply (step_load m K c 3 3 0 rfl rfl fv (land_ld m c 3 3 rfl fv)) $$ [Hx3 Hv3 Ht3]
  · isplitr; · iexact HR
    isplitr; · iapply (reached_dma m K c (3 : Fin 4).val hld) $$ HR
    hand [Hx3, Hv3, Ht3]
  iintro Hc3
  -- the landing from the partner
  iapply (step_rwait m K c 14 (by decide) (by unfold isRecv; omega) (dstw := M1.slice (oCh c (qF c) 2) (fun _ => rfl)) _ _ rfl) $$ [Hc14 HO Hat14]
  · isplitr; · iexact HR
    isplitl [Hc14]; · iexact Hc14
    isplitl [HO]; · iexact HO
    isplitr; · iapply (mayWait_xrecv c 2); iexact Hlev
    iexact Hat14
  iintro ⟨HO, Hat14, Hpay⟩
  unfold recvPay
  simp only [recvRect_14 c]
  rw [wp_ret]
  imodintro
  iapply Hk
  iexists _
  hand [HO, Hat1, Hr1, Hx1, Hc5, Hc3, Hat14, Hpay]

set_option maxHeartbeats 4000000 in
set_option maxRecDepth 65536 in
/-- Part 9: chunk 2 of the device's quarter is passed on to both buddies; the third load and the first store are waited for. -/
theorem part9_spec (c : Dev nD) (v2 v5 v8 v30 v31 v252 c0 : BitVec 32) (W : Waits sig Unit) (Φ : PUnit → sProp 𝕄) :
    iprop(records m K ∗ levAts L lv
        ∗ (ow c 11 W ∗ pts c main_v1 (oCh c (qF c) 2) fullShare (target m c) ∗ give (yb c) 22 ∗ give (zb c) 30
            ∗ tok c 18 0 ∗ tok (yb c) 22 0 ∗ tok c 26 0 ∗ tok (zb c) 30 0 ∗ crd c 2 NL ∗ pos c 2 0 ∗ crd c 4 NS ∗ pos c 4 0)
        ∗ ((∃ W', ow c 13 W' ∗ crd c 18 N ∗ crd c 26 N ∗ pos c 2 1 ∗ rch c 2 1 ∗ ldPay m c 2 ∗ pos c 4 1 ∗ rch c 4 1 ∗ stPay m c 0) -∗ Φ ⟨⟩))
      ⊢ wp frame (wpE (defs₀ (F := F)) 𝒱₀ c none) Set.univ (k0_part9 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v252 c0) Φ := by
  unfold k0_part9
  simp (config := { proj := false }) only [semSignalWord, semWaitWord, Prog.lift, Prog.bind_op, Prog.bind_ret, Prog.pure_eq_ret,
    sem_s5_2, sem_s6_2, sem_s7_2, sem_s8_2, sem_s1_2, sem_s2_0, slice_off3_2, slice_off4_0,
    slice_v (2 : Fin 4) (off := ![2, 0, 0]) rfl]
  iintro ⟨#HR, #Hlev, ⟨HO, Hp, Hgy, Hgz, Ht18, Ht22, Ht26, Ht30, Hc2, Hat2, Hc4, Hat4⟩, Hk⟩
  unfold give
  simp only [recvRect_22, recvRect_30, yb_yb, zb_zb, oCh_yb, oCh_zb]
  icases (pts_half c main_v1 (oCh c (qF c) 2) (target m c)).1 $$ Hp with ⟨HL, HRt⟩
  icases Hgy with ⟨%fy, Hdy⟩
  icases Hgz with ⟨%fz, Hdz⟩
  -- to the y buddy, the left half share
  iapply (step_send1' m K c (yb c) _ (dev12_eq c) 18 22 (by decide) (by decide) (by unfold isSend; omega) (by unfold isRecv; omega)
      c (qF c) 2 c (qF c) 2 fullShare.left (target m c) fy (sumT ((owedList c).drop 12)) _
      (Entails.of_eq (sendPay_18 m c).symm) (land_yd' m c 2 fy)) $$ [HL Hdy HO Ht18 Ht22]
  · isplitr; · iexact HR
    hand [HL, Hdy, HO, Ht18, Ht22]
  iintro ⟨Hc18, HO⟩
  -- to the z buddy, the right half share
  iapply (step_send1' m K c (zb c) _ (dev13_eq c) 26 30 (by decide) (by decide) (by unfold isSend; omega) (by unfold isRecv; omega)
      c (qF c) 2 c (qF c) 2 fullShare.right (target m c) fz (sumT ((owedList c).drop 13)) _
      (Entails.of_eq (sendPay_26 m c).symm) (land_zd' m c 2 fz)) $$ [HRt Hdz HO Ht26 Ht30]
  · isplitr; · iexact HR
    hand [HRt, Hdz, HO, Ht26, Ht30]
  iintro ⟨Hc26, HO⟩
  -- the third load has landed in its slot
  iapply (step_lwait m K c 2 (by decide) 0 (by decide) (dstw := slot 2) _ _ rfl) $$ [Hc2 HO Hat2]
  · isplitr; · iexact HR
    isplitl [Hc2]; · iexact Hc2
    isplitl [HO]; · iexact HO
    isplitr; · iapply (mayWait_local c 2 (by decide) 13); iexact Hlev
    iexact Hat2
  iintro ⟨HO, Hat2, Hr2, Hld⟩
  -- the first store has left its slot
  iapply (step_stwait m K c 0 (by decide) 0 (by decide) (dstw := M1.slice (oOwn c 0) (fun _ => rfl)) _ _ rfl) $$ [Hc4 HO Hat4]
  · isplitr; · iexact HR
    isplitl [Hc4]; · iexact Hc4
    isplitl [HO]; · iexact HO
    isplitr; · iapply (mayWait_local c 4 (by decide) 13); iexact Hlev
    iexact Hat4
  iintro ⟨HO, Hat4, Hr4, Hst⟩
  rw [wp_ret]
  imodintro
  iapply Hk
  iexists _
  hand [HO, Hc18, Hc26, Hat2, Hr2, Hld, Hat4, Hr4, Hst]

/-- info: 'Cert.Kernel.AG.part6_spec' depends on axioms: [propext, Classical.choice, Quot.sound] -/
#guard_msgs in #print axioms part6_spec
/-- info: 'Cert.Kernel.AG.part7_spec' depends on axioms: [propext, Classical.choice, Quot.sound] -/
#guard_msgs in #print axioms part7_spec
/-- info: 'Cert.Kernel.AG.part8_spec' depends on axioms: [propext, Classical.choice, Quot.sound] -/
#guard_msgs in #print axioms part8_spec
/-- info: 'Cert.Kernel.AG.part9_spec' depends on axioms: [propext, Classical.choice, Quot.sound] -/
#guard_msgs in #print axioms part9_spec

end Cert.Kernel.AG

end
-- ==== Proof.KernelAG.PartsC.lean ====
/-
  The body's parts ten to thirteen: a store out of a staging slot and the next load into the slot freed before it, with
  the wait for a landing chunk; the two forwards of the last chunk of the device's own quarter and the waits that hand a
  loaded slot and a stored chunk back; and the first diagonal forward. Each part takes exactly the resources its copies
  and waits move and returns what they hand back.
-/
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.Landing
import proofs.«900686_g7700000000000687_dist_ag_v7x_xyz2x4x4_x_m16384_n1024_f32_1_alg».proof.Proof.KernelAG.LandingSlot

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

/-- A staging slot's credit is a load's, and a 2048-row chunk of the result's a store's. -/
theorem creditC_NL (s : Fin 4) : (slot s).view.dmaCredit = NL := rfl
theorem creditC_NS (c : Dev nD) (j : Fin 8) : (M1.slice (oOwn c j) (fun _ => rfl)).view.dmaCredit = NS := rfl

theorem part10_spec (c : Dev nD) (v2 v5 v8 v29 v30 v32 v34 v37 : BitVec 32) (W : Waits sig Unit)
    (fo : Buf (Elt F) ((c : Thread nD τ).loc main_v1)) (Φ : PUnit → sProp 𝕄) :
    iprop(records m K ∗ levAts L lv
        ∗ (ow c 13 W ∗ pts c cc0_scratch0 (vSl 2) fullShare (vfill m c 2) ∗ pts c main_v1 (oOwn c 2) fullShare fo ∗ tok c 6 0
            ∗ pts c main_arg0 (xLd 4) fullShare.right (xin m c) ∗ pts c cc0_scratch0 (vSl 0) fullShare (vfill m c 0) ∗ tok c 0 1 ∗ rch c 0 1
            ∗ crd c 15 N ∗ pos c 15 0)
        ∗ ((∃ W', ow c 13 W' ∗ crd c 6 NS ∗ crd c 0 NL ∗ pos c 15 1 ∗ pts c main_v1 (oCh c (qF c) 3) fullShare (target m c)) -∗ Φ ⟨⟩))
      ⊢ wp frame (wpE (defs₀ (F := F)) 𝒱₀ c none) Set.univ (k0_part10 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v30 v32 v34 v37) Φ := by
  unfold k0_part10
  simp (config := { proj := false }) only [semSignalWord, semWaitWord, Prog.lift, Prog.bind_op, Prog.bind_ret, Prog.pure_eq_ret,
    sem_s2_2, sem_s1_0, sem_s4_3, slice_off4_2, slice_off3_3,
    slice_x 4 (off := ![8192, 0]) rfl, slice_v 2 (off := ![2, 0, 0]) rfl, slice_v 0 (off := ![0, 0, 0]) rfl]
  iintro ⟨#HR, #Hlev, ⟨HO, Hv2, Ho2, Ht6, Hx4, Hv0, Ht0, #Hr0, Hc15, Hat15⟩, Hk⟩
  iapply (step_store m K c 2 2 0 (by decide) (by decide) fo (land_st m c 2 2 rfl fo)) $$ [Hv2 Ho2 Ht6]
  · isplitr; · iexact HR
    isplitr; · (iapply (reached_dma m K c 6 _) <;> try iexact HR)
    hand [Hv2, Ho2, Ht6]
  iintro Hc6
  iapply (step_load m K c 4 0 1 (by decide) (by decide) (vfill m c 0) (land_ld m c 4 0 rfl (vfill m c 0))) $$ [Hx4 Hv0 Ht0]
  · isplitr; · iexact HR
    isplitr; · iexact Hr0
    hand [Hx4, Hv0, Ht0]
  iintro Hc0
  iapply (step_rwait m K c 15 (by decide) (by decide) (sumT ((owedList c).drop 13)) W (credit_N _)) $$ [Hc15 HO Hat15]
  · isplitr; · iexact HR
    isplitl [Hc15]; · iexact Hc15
    isplitl [HO]; · iexact HO
    isplitr; · (iapply (mayWait_xrecv c 3) <;> try iexact Hlev)
    iexact Hat15
  iintro ⟨HO, Hat15, Hpay⟩
  unfold recvPay
  simp only [recvRect_15]
  iapply (le_wp_ret _ _)
  iapply Hk
  iexists _
  hand [HO, Hc6, Hc0, Hat15, Hpay]

theorem part11_spec (c : Dev nD) (v2 v5 v31 v32 : BitVec 32) (W : Waits sig Unit) (Φ : PUnit → sProp 𝕄) :
    iprop(records m K ∗ levAts L lv
        ∗ (ow c 13 W ∗ pts c main_v1 (oCh c (qF c) 3) fullShare (target m c) ∗ give (yb c) 23 ∗ give (zb c) 31
            ∗ tok c 19 0 ∗ tok (yb c) 23 0 ∗ tok c 27 0 ∗ tok (zb c) 31 0 ∗ crd c 3 NL ∗ pos c 3 0 ∗ crd c 5 NS ∗ pos c 5 0)
        ∗ ((∃ W', ow c 15 W' ∗ crd c 19 N ∗ crd c 27 N ∗ pos c 3 1 ∗ rch c 3 1 ∗ ldPay m c 3 ∗ pos c 5 1 ∗ rch c 5 1 ∗ stPay m c 1) -∗ Φ ⟨⟩))
      ⊢ wp frame (wpE (defs₀ (F := F)) 𝒱₀ c none) Set.univ (k0_part11 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v31 v32) Φ := by
  unfold k0_part11
  simp (config := { proj := false }) only [semSignalWord, semWaitWord, Prog.lift, Prog.bind_op, Prog.bind_ret, Prog.pure_eq_ret,
    sem_s5_3, sem_s6_3, sem_s7_3, sem_s8_3, sem_s1_3, sem_s2_1, slice_off3_3, slice_off4_1,
    slice_x 3 (off := ![6144, 0]) rfl, slice_v 3 (off := ![3, 0, 0]) rfl, slice_v 1 (off := ![1, 0, 0]) rfl]
  unfold give
  simp only [recvRect_23, recvRect_31, yb_yb, zb_zb, oCh_yb, oCh_zb]
  iintro ⟨#HR, #Hlev, ⟨HO, Hsrc, ⟨%fy, Hdy⟩, ⟨%fz, Hdz⟩, Ht19, Ht23, Ht27, Ht31, Hc3, Hat3, Hc5, Hat5⟩, Hk⟩
  ihave Hh := (pts_half c main_v1 (oCh c (qF c) 3) (target m c)).1 $$ Hsrc
  icases Hh with ⟨HsL, HsR⟩
  iapply (step_send1' m K c (yb c) _ (dev14_eq c) 19 23 (by decide) (by decide) (by decide) (by decide) c (qF c) 3 c (qF c) 3 fullShare.left (target m c) fy
      (sumT ((owedList c).drop 14)) W (Entails.of_eq (sendPay_19 m c).symm) (land_yd' m c 3 fy)) $$ [HsL Hdy HO Ht19 Ht23]
  · isplitr; · iexact HR
    hand [HsL, Hdy, HO, Ht19, Ht23]
  iintro ⟨Hc19, HO⟩
  iapply (step_send1' m K c (zb c) _ (dev15_eq c) 27 31 (by decide) (by decide) (by decide) (by decide) c (qF c) 3 c (qF c) 3 fullShare.right (target m c) fz
      (sumT ((owedList c).drop 15)) W (Entails.of_eq (sendPay_27 m c).symm) (land_zd' m c 3 fz)) $$ [HsR Hdz HO Ht27 Ht31]
  · isplitr; · iexact HR
    hand [HsR, Hdz, HO, Ht27, Ht31]
  iintro ⟨Hc27, HO⟩
  iapply (step_lwait m K c 3 (by decide) 0 (by decide) (sumT ((owedList c).drop 15)) W (creditC_NL 3)) $$ [Hc3 HO Hat3]
  · isplitr; · iexact HR
    isplitl [Hc3]; · iexact Hc3
    isplitl [HO]; · iexact HO
    isplitr; · (iapply (mayWait_local c 3 (by decide) 15) <;> try iexact Hlev)
    iexact Hat3
  iintro ⟨HO, Hat3, Hr3, Hld⟩
  iapply (step_stwait m K c 1 (by decide) 0 (by decide) (sumT ((owedList c).drop 15)) (insert (SemLoc.dma (ds 3), ()) W) (creditC_NS c 1)) $$ [Hc5 HO Hat5]
  · isplitr; · iexact HR
    isplitl [Hc5]; · iexact Hc5
    isplitl [HO]; · iexact HO
    isplitr; · (iapply (mayWait_local c 5 (by decide) 15) <;> try iexact Hlev)
    iexact Hat5
  iintro ⟨HO, Hat5, Hr5, Hst⟩
  iapply (le_wp_ret _ _)
  iapply Hk
  iexists _
  hand [HO, Hc19, Hc27, Hat3, Hr3, Hld, Hat5, Hr5, Hst]

theorem part12_spec (c : Dev nD) (v2 v5 v8 v30 v31 v34 v45 : BitVec 32) (W : Waits sig Unit)
    (fo : Buf (Elt F) ((c : Thread nD τ).loc main_v1)) (Φ : PUnit → sProp 𝕄) :
    iprop(records m K ∗ levAts L lv
        ∗ (ow c 15 W ∗ pts c cc0_scratch0 (vSl 3) fullShare (vfill m c 3) ∗ pts c main_v1 (oOwn c 3) fullShare fo ∗ tok c 7 0
            ∗ pts c main_arg0 (xLd 5) fullShare.right (xin m c) ∗ pts c cc0_scratch0 (vSl 1) fullShare (vfill m c 1) ∗ tok c 1 1 ∗ rch c 1 1
            ∗ crd c 28 N ∗ pos c 28 0)
        ∗ ((∃ W', ow c 15 W' ∗ crd c 7 NS ∗ crd c 1 NL ∗ pos c 28 1 ∗ pts c main_v1 (oCh c (qF (zb c)) 0) fullShare (target m c)) -∗ Φ ⟨⟩))
      ⊢ wp frame (wpE (defs₀ (F := F)) 𝒱₀ c none) Set.univ (k0_part12 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v45) Φ := by
  unfold k0_part12
  simp (config := { proj := false }) only [semSignalWord, semWaitWord, Prog.lift, Prog.bind_op, Prog.bind_ret, Prog.pure_eq_ret,
    sem_s2_3, sem_s1_1, sem_s8_0, slice_off4_3, slice_off5_0,
    slice_x 5 (off := ![10240, 0]) rfl, slice_v 3 (off := ![3, 0, 0]) rfl, slice_v 1 (off := ![1, 0, 0]) rfl]
  iintro ⟨#HR, #Hlev, ⟨HO, Hv3, Ho3, Ht7, Hx5, Hv1, Ht1, #Hr1, Hc28, Hat28⟩, Hk⟩
  iapply (step_store m K c 3 3 0 (by decide) (by decide) fo (land_st m c 3 3 rfl fo)) $$ [Hv3 Ho3 Ht7]
  · isplitr; · iexact HR
    isplitr; · (iapply (reached_dma m K c 7 _) <;> try iexact HR)
    hand [Hv3, Ho3, Ht7]
  iintro Hc7
  iapply (step_load m K c 5 1 1 (by decide) (by decide) (vfill m c 1) (land_ld m c 5 1 rfl (vfill m c 1))) $$ [Hx5 Hv1 Ht1]
  · isplitr; · iexact HR
    isplitr; · iexact Hr1
    hand [Hx5, Hv1, Ht1]
  iintro Hc1
  iapply (step_rwait m K c 28 (by decide) (by decide) (sumT ((owedList c).drop 15)) W (credit_N _)) $$ [Hc28 HO Hat28]
  · isplitr; · iexact HR
    isplitl [Hc28]; · iexact Hc28
    isplitl [HO]; · iexact HO
    isplitr; · (iapply (mayWait_zrecv c 0) <;> try iexact Hlev)
    iexact Hat28
  iintro ⟨HO, Hat28, Hpay⟩
  unfold recvPay
  simp only [recvRect_28]
  iapply (le_wp_ret _ _)
  iapply Hk
  iexists _
  hand [HO, Hc7, Hc1, Hat28, Hpay]

theorem part13_spec (c : Dev nD) (v2 v32 v34 v45 : BitVec 32) (W : Waits sig Unit)
    (fo : Buf (Elt F) ((c : Thread nD τ).loc main_v1)) (Φ : (Σ' (v402 : BitVec 32), BitVec 32) → sProp 𝕄) :
    iprop(records m K ∗ levAts L lv
        ∗ (ow c 15 W ∗ pts c main_v1 (oCh c (qF (zb c)) 0) fullShare (target m c) ∗ give (yb c) 34 ∗ tok c 32 0 ∗ tok (yb c) 34 0
            ∗ crd c 0 NL ∗ pos c 0 1 ∗ crd c 6 NS ∗ pos c 6 0 ∗ pts c main_v1 (oOwn c 4) fullShare fo ∗ tok c 4 1 ∗ rch c 4 1
            ∗ pts c main_arg0 (xLd 6) fullShare.right (xin m c) ∗ tok c 2 1 ∗ rch c 2 1)
        ∗ (∀ r, (∃ W', ow c 16 W' ∗ crd c 32 N ∗ pos c 0 2 ∗ pts c main_arg0 (xLd 4) fullShare.right (xin m c) ∗ pos c 6 1 ∗ rch c 6 1
            ∗ pts c main_v1 (oOwn c 2) fullShare (target m c) ∗ crd c 4 NS ∗ crd c 2 NL) -∗ Φ r))
      ⊢ wp frame (wpE (defs₀ (F := F)) 𝒱₀ c none) Set.univ (k0_part13 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v32 v34 v45) Φ := by
  unfold k0_part13
  simp (config := { proj := false }) only [semSignalWord, semWaitWord, Prog.lift, Prog.bind_op, Prog.bind_ret, Prog.pure_eq_ret,
    sem_s9_0, sem_s10_0, sem_s1_0, sem_s2_2, sem_s2_0, sem_s1_2, slice_off5_0, slice_off4_2, slice_off4_4,
    slice_x 4 (off := ![8192, 0]) rfl, slice_x 6 (off := ![12288, 0]) rfl, slice_v 0 (off := ![0, 0, 0]) rfl, slice_v 2 (off := ![2, 0, 0]) rfl]
  unfold give
  simp only [recvRect_34, yb_yb, oCh_yb]
  iintro ⟨#HR, #Hlev, ⟨HO, Hsrc, ⟨%fy, Hdy⟩, Ht32, Ht34, Hc0, Hat0, Hc6, Hat6, Ho4, Ht4, #Hr4, Hx6, Ht2, #Hr2⟩, Hk⟩
  iapply (step_send1' m K c (yb c) _ (dev16_eq c) 32 34 (by decide) (by decide) (by decide) (by decide) c (qF (zb c)) 0 c (qF (zb c)) 0 fullShare (target m c) fy
      (sumT ((owedList c).drop 16)) W (Entails.of_eq (sendPay_32 m c).symm) (land_ydg' m c 0 fy)) $$ [Hsrc Hdy HO Ht32 Ht34]
  · isplitr; · iexact HR
    hand [Hsrc, Hdy, HO, Ht32, Ht34]
  iintro ⟨Hc32, HO⟩
  iapply (step_lwait m K c 0 (by decide) 1 (by decide) (sumT ((owedList c).drop 16)) W (creditC_NL 0)) $$ [Hc0 HO Hat0]
  · isplitr; · iexact HR
    isplitl [Hc0]; · iexact Hc0
    isplitl [HO]; · iexact HO
    isplitr; · (iapply (mayWait_local c 0 (by decide) 16) <;> try iexact Hlev)
    iexact Hat0
  iintro ⟨HO, Hat0, -, Hld⟩
  unfold ldPay
  icases Hld with ⟨Hv0, Hx4⟩
  iapply (step_stwait m K c 2 (by decide) 0 (by decide) (sumT ((owedList c).drop 16)) (insert (SemLoc.dma (ds 0), ()) W) (creditC_NS c 2)) $$ [Hc6 HO Hat6]
  · isplitr; · iexact HR
    isplitl [Hc6]; · iexact Hc6
    isplitl [HO]; · iexact HO
    isplitr; · (iapply (mayWait_local c 6 (by decide) 16) <;> try iexact Hlev)
    iexact Hat6
  iintro ⟨HO, Hat6, Hr6, Hst⟩
  unfold stPay
  icases Hst with ⟨Ho2, Hv2⟩
  iapply (step_store m K c 4 0 1 (by decide) (by decide) fo (land_st m c 4 0 rfl fo)) $$ [Hv0 Ho4 Ht4]
  · isplitr; · iexact HR
    isplitr; · iexact Hr4
    hand [Hv0, Ho4, Ht4]
  iintro Hc4
  iapply (step_load m K c 6 2 1 (by decide) (by decide) (vfill m c 2) (land_ld m c 6 2 rfl (vfill m c 2))) $$ [Hx6 Hv2 Ht2]
  · isplitr; · iexact HR
    isplitr; · iexact Hr2
    hand [Hx6, Hv2, Ht2]
  iintro Hc2
  iapply (le_wp_ret _ _)
  iapply Hk
  iexists _
  hand [HO, Hc32, Hat0, Hx4, Hat6, Hr6, Ho2, Hc4, Hc2]

end Cert.Kernel.AG

end

/-- info: 'Cert.Kernel.AG.part10_spec' depends on axioms: [propext, Classical.choice, Quot.sound] -/
#guard_msgs in #print axioms Cert.Kernel.AG.part10_spec
/-- info: 'Cert.Kernel.AG.part11_spec' depends on axioms: [propext, Classical.choice, Quot.sound] -/
#guard_msgs in #print axioms Cert.Kernel.AG.part11_spec
/-- info: 'Cert.Kernel.AG.part12_spec' depends on axioms: [propext, Classical.choice, Quot.sound] -/
#guard_msgs in #print axioms Cert.Kernel.AG.part12_spec
/-- info: 'Cert.Kernel.AG.part13_spec' depends on axioms: [propext, Classical.choice, Quot.sound] -/
#guard_msgs in #print axioms Cert.Kernel.AG.part13_spec
-- ==== Proof.KernelAG.PartsD.lean ====
/-
  The body's parts 14 to 17: the diagonal relays and the last loads and stores.

  By now every copy to a direct neighbour is issued. A device waits for the second z chunk to land and passes it to its y
  buddy; stores chunk 5 of its own half, loads chunk 7, and waits for the third y chunk; passes that to its z buddy,
  takes back load 6 and store 4 and stores chunk 6; waits for the fourth y chunk, passes it to its z buddy, and takes
  back load 7 and store 5. Each wait is allowed because what is still owed are diagonal receive cells, above the cell
  waited on; each relay pays the next of those cells.
-/
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.Landing
import proofs.«900686_g7700000000000687_dist_ag_v7x_xyz2x4x4_x_m16384_n1024_f32_1_alg».proof.Proof.KernelAG.LandingSlot

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The credit of a load into a staging slot, and of a store of 2048 rows, whatever the slot and the rows. -/
private theorem credit_NL (M : Memref sig .tc .vmem S2048x1024 .f32) : M.view.dmaCredit = NL := rfl
private theorem credit_NS (M : Memref sig .tc .hbm S2048x1024 .f32) : M.view.dmaCredit = NS := rfl

/-- The rows a neighbour's barrier payment hands over for a diagonal relay, at the rows' place in this device's result. -/
private theorem give_eq_35 (c : Dev nD) :
    (give (F := F) (yb c) 35 : sProp 𝕄) = iprop(∃ f, pts (yb c) main_v1 (oCh c (qF (zb c)) 1) fullShare f) := by
  unfold give; rw [recvRect_35, yb_yb, oCh_yb]
private theorem give_eq_38 (c : Dev nD) :
    (give (F := F) (zb c) 38 : sProp 𝕄) = iprop(∃ f, pts (zb c) main_v1 (oCh c (qF (yb c)) 2) fullShare f) := by
  unfold give; rw [recvRect_38, zb_zb, oCh_zb]
private theorem give_eq_39 (c : Dev nD) :
    (give (F := F) (zb c) 39 : sProp 𝕄) = iprop(∃ f, pts (zb c) main_v1 (oCh c (qF (yb c)) 3) fullShare f) := by
  unfold give; rw [recvRect_39, zb_zb, oCh_zb]

variable (m : (ℓ : Loc nD τ sig) → Buf (Elt F) ℓ) (K : Dev nD × Fin 41 → ℕ)

/-- What a landed chunk hands the receiver, by its rows. -/
private theorem recvPay_eq_29 (c : Dev nD) : recvPay m c 29 = pts c main_v1 (oCh c (qF (zb c)) 1) fullShare (target m c) := by
  unfold recvPay; rw [recvRect_29]
private theorem recvPay_eq_22 (c : Dev nD) : recvPay m c 22 = pts c main_v1 (oCh c (qF (yb c)) 2) fullShare (target m c) := by
  unfold recvPay; rw [recvRect_22]
private theorem recvPay_eq_23 (c : Dev nD) : recvPay m c 23 = pts c main_v1 (oCh c (qF (yb c)) 3) fullShare (target m c) := by
  unfold recvPay; rw [recvRect_23]
/-- What load 6 and store 4 hand back. -/
private theorem ldPay_eq_6 (c : Dev nD) : ldPay m c (2 + 4 * 1)
    = iprop(pts c cc0_scratch0 (vSl 2) fullShare (vfill m c 6) ∗ pts c main_arg0 (xLd 6) fullShare.right (xin m c)) := rfl
private theorem stPay_eq_4 (c : Dev nD) : stPay m c (0 + 4 * 1)
    = iprop(pts c main_v1 (oOwn c 4) fullShare (target m c) ∗ pts c cc0_scratch0 (vSl 0) fullShare (vfill m c 4)) := rfl

theorem part14_spec (c : Dev nD) (v2 v5 v8 v30 v31 v32 v402 c4 : BitVec 32) (W : Waits sig Unit) (Φ : PUnit → sProp 𝕄) :
    iprop(records m K ∗ levAts L lv
        ∗ (ow c 16 W ∗ crd c 29 N ∗ pos c 29 0 ∗ give (yb c) 35 ∗ tok c 33 0 ∗ tok (yb c) 35 0 ∗ crd c 1 NL ∗ pos c 1 1 ∗ crd c 7 NS ∗ pos c 7 0)
        ∗ ((∃ W', ow c 17 W' ∗ pos c 29 1 ∗ crd c 33 N ∗ pos c 1 2 ∗ ldPay m c 5 ∗ pos c 7 1 ∗ rch c 7 1 ∗ stPay m c 3) -∗ Φ ⟨⟩))
      ⊢ wp frame (wpE (defs₀ (F := F)) 𝒱₀ c none) Set.univ (k0_part14 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v32 v402 c4) Φ := by
  unfold k0_part14
  simp (config := { proj := false }) only [Prog.lift, Prog.bind_op, Prog.bind_ret, Prog.pure_eq_ret, semSignalWord, semWaitWord,
    sem_s8_1, sem_s9_1, sem_s10_1, sem_s1_1, sem_s2_3, slice_off5_1]
  iintro ⟨#HR, #Hlev, ⟨HO, Hc29, Hp29, Hg, Ht33, Ht35, Hc1, Hp1, Hc7, Hp7⟩, Hk⟩
  -- the second z chunk has landed
  iapply (step_rwait m K c 29 (of_decide_eq_true rfl : 29 < 40) (of_decide_eq_true rfl : isRecv 29) (sumT ((owedList c).drop 16)) W (credit_N _)) $$ [Hc29 HO Hp29]
  · isplitr; · iexact HR
    isplitl [Hc29]; · iexact Hc29
    isplitl [HO]; · iexact HO
    isplitr; · iapply (mayWait_zrecv c 1); iexact Hlev
    iexact Hp29
  iintro ⟨HO, Hp29, Hpay⟩
  ihave Hpay := (Entails.of_eq (recvPay_eq_29 m c)) $$ Hpay
  -- it goes on to the y buddy, into the rows the buddy's barrier payment handed over
  ihave Hg := (Entails.of_eq (give_eq_35 c)) $$ Hg
  icases Hg with ⟨%f, Hd⟩
  iapply (step_send1' m K c (yb c) _ (dev17_eq c) 33 35 (of_decide_eq_true rfl : 33 < 40) (of_decide_eq_true rfl : 35 < 40) (of_decide_eq_true rfl : isSend 33) (of_decide_eq_true rfl : isRecv 35) c (qF (zb c)) 1 c (qF (zb c)) 1
      fullShare (target m c) f (sumT ((owedList c).drop 17)) (insert (SemLoc.dma (ds 29), ()) W) (Entails.of_eq (sendPay_33 m c).symm) (land_ydg' m c 1 f)) $$ [Hpay Hd HO Ht33 Ht35]
  · isplitr; · iexact HR
    hand [Hpay, Hd, HO, Ht33, Ht35]
  iintro ⟨Hc33, HO⟩
  -- load 5 has come in
  iapply (step_lwait m K c 1 (of_decide_eq_true rfl : 1 < 4) 1 (of_decide_eq_true rfl : 1 < 2) (sumT ((owedList c).drop 17)) (insert (SemLoc.dma (ds 29), ()) W) (credit_NL _)) $$ [Hc1 HO Hp1]
  · isplitr; · iexact HR
    isplitl [Hc1]; · iexact Hc1
    isplitl [HO]; · iexact HO
    isplitr; · iapply (mayWait_local c 1 (of_decide_eq_true rfl : 1 < 8) 17); iexact Hlev
    iexact Hp1
  iintro ⟨HO, Hp1, -, Hld⟩
  -- store 3 has gone out
  iapply (step_stwait m K c 3 (of_decide_eq_true rfl : 3 < 4) 0 (of_decide_eq_true rfl : 0 < 2) (sumT ((owedList c).drop 17)) (insert (SemLoc.dma (ds 1), ()) (insert (SemLoc.dma (ds 29), ()) W)) (credit_NS _)) $$ [Hc7 HO Hp7]
  · isplitr; · iexact HR
    isplitl [Hc7]; · iexact Hc7
    isplitl [HO]; · iexact HO
    isplitr; · iapply (mayWait_local c 7 (of_decide_eq_true rfl : 7 < 8) 17); iexact Hlev
    iexact Hp7
  iintro ⟨HO, Hp7, Hr7, Hst⟩
  rw [wp_ret]
  imodintro
  iapply Hk
  iexists _
  hand [HO, Hp29, Hc33, Hp1, Hld, Hp7, Hr7, Hst]

theorem part15_spec (c : Dev nD) (v2 v5 v8 v30 v31 v34 v41 : BitVec 32) (W : Waits sig Unit)
    (fo : Buf (Elt F) ((c : Thread nD τ).loc main_v1)) (Φ : PUnit → sProp 𝕄) :
    iprop(records m K ∗ levAts L lv
        ∗ (ow c 17 W ∗ pts c cc0_scratch0 (vSl 1) fullShare (vfill m c 5) ∗ pts c main_v1 (oOwn c 5) fullShare fo ∗ tok c 5 1 ∗ rch c 5 1
            ∗ pts c main_arg0 (xLd 7) fullShare.right (xin m c) ∗ pts c cc0_scratch0 (vSl 3) fullShare (vfill m c 3) ∗ tok c 3 1 ∗ rch c 3 1
            ∗ crd c 22 N ∗ pos c 22 0)
        ∗ ((∃ W', ow c 17 W' ∗ crd c 5 NS ∗ crd c 3 NL ∗ pos c 22 1 ∗ pts c main_v1 (oCh c (qF (yb c)) 2) fullShare (target m c)) -∗ Φ ⟨⟩))
      ⊢ wp frame (wpE (defs₀ (F := F)) 𝒱₀ c none) Set.univ (k0_part15 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v41) Φ := by
  unfold k0_part15
  simp (config := { proj := false }) only [Prog.lift, Prog.bind_op, Prog.bind_ret, Prog.pure_eq_ret, semSignalWord, semWaitWord,
    sem_s2_1, sem_s1_3, sem_s6_2, slice_off4_5, slice_x 7 (off := ![14336, 0]) rfl,
    slice_v 1 (off := ![1, 0, 0]) rfl, slice_v 3 (off := ![3, 0, 0]) rfl]
  iintro ⟨#HR, #Hlev, ⟨HO, Hv1, Ho5, Ht5, Hr5, Hx7, Hv3, Ht3, Hr3, Hc22, Hp22⟩, Hk⟩
  -- store 5: slot 1 into chunk 5 of the device's own half
  iapply (step_store m K c 5 1 1 rfl rfl fo (land_st m c 5 1 rfl fo)) $$ [Hr5 Hv1 Ho5 Ht5]
  · isplitr; · iexact HR
    hand [Hr5, Hv1, Ho5, Ht5]
  iintro Hc5
  -- load 7: the last chunk of the argument into slot 3
  iapply (step_load m K c 7 3 1 rfl rfl (vfill m c 3) (land_ld m c 7 3 rfl (vfill m c 3))) $$ [Hr3 Hx7 Hv3 Ht3]
  · isplitr; · iexact HR
    hand [Hr3, Hx7, Hv3, Ht3]
  iintro Hc3
  -- the third y chunk has landed
  iapply (step_rwait m K c 22 (of_decide_eq_true rfl : 22 < 40) (of_decide_eq_true rfl : isRecv 22) (sumT ((owedList c).drop 17)) W (credit_N _)) $$ [Hc22 HO Hp22]
  · isplitr; · iexact HR
    isplitl [Hc22]; · iexact Hc22
    isplitl [HO]; · iexact HO
    isplitr; · iapply (mayWait_yrecv c 0); iexact Hlev
    iexact Hp22
  iintro ⟨HO, Hp22, Hpay⟩
  ihave Hpay := (Entails.of_eq (recvPay_eq_22 m c)) $$ Hpay
  rw [wp_ret]
  imodintro
  iapply Hk
  iexists _
  hand [HO, Hc5, Hc3, Hp22, Hpay]

theorem part16_spec (c : Dev nD) (v2 v8 v30 v32 v34 v41 : BitVec 32) (W : Waits sig Unit)
    (fo : Buf (Elt F) ((c : Thread nD τ).loc main_v1)) (Φ : PUnit → sProp 𝕄) :
    iprop(records m K ∗ levAts L lv
        ∗ (ow c 17 W ∗ pts c main_v1 (oCh c (qF (yb c)) 2) fullShare (target m c) ∗ give (zb c) 38 ∗ tok c 36 0 ∗ tok (zb c) 38 0
            ∗ crd c 2 NL ∗ pos c 2 1 ∗ crd c 4 NS ∗ pos c 4 1 ∗ pts c main_v1 (oOwn c 6) fullShare fo ∗ tok c 6 1 ∗ rch c 6 1)
        ∗ ((∃ W', ow c 18 W' ∗ crd c 36 N ∗ pos c 2 2 ∗ pts c main_arg0 (xLd 6) fullShare.right (xin m c) ∗ pos c 4 2
            ∗ pts c main_v1 (oOwn c 4) fullShare (target m c) ∗ pts c cc0_scratch0 (vSl 0) fullShare (vfill m c 4) ∗ crd c 6 NS) -∗ Φ ⟨⟩))
      ⊢ wp frame (wpE (defs₀ (F := F)) 𝒱₀ c none) Set.univ (k0_part16 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v8 v30 v32 v34 v41) Φ := by
  unfold k0_part16
  simp (config := { proj := false }) only [Prog.lift, Prog.bind_op, Prog.bind_ret, Prog.pure_eq_ret, semSignalWord, semWaitWord,
    sem_s11_0, sem_s12_0, sem_s1_2, sem_s2_0, sem_s2_2, slice_off6_2, slice_off4_6,
    slice_v 2 (off := ![2, 0, 0]) rfl]
  iintro ⟨#HR, #Hlev, ⟨HO, Hsrc, Hg, Ht36, Ht38, Hc2, Hp2, Hc4, Hp4, Ho6, Ht6, Hr6⟩, Hk⟩
  -- the third y chunk goes on to the z buddy
  ihave Hg := (Entails.of_eq (give_eq_38 c)) $$ Hg
  icases Hg with ⟨%f, Hd⟩
  iapply (step_send1' m K c (zb c) _ (dev18_eq c) 36 38 (of_decide_eq_true rfl : 36 < 40) (of_decide_eq_true rfl : 38 < 40) (of_decide_eq_true rfl : isSend 36) (of_decide_eq_true rfl : isRecv 38) c (qF (yb c)) 2 c (qF (yb c)) 2
      fullShare (target m c) f (sumT ((owedList c).drop 18)) W (Entails.of_eq (sendPay_36 m c).symm) (land_zdg' m c 0 f)) $$ [Hsrc Hd HO Ht36 Ht38]
  · isplitr; · iexact HR
    hand [Hsrc, Hd, HO, Ht36, Ht38]
  iintro ⟨Hc36, HO⟩
  -- load 6 has come in
  iapply (step_lwait m K c 2 (of_decide_eq_true rfl : 2 < 4) 1 (of_decide_eq_true rfl : 1 < 2) (sumT ((owedList c).drop 18)) W (credit_NL _)) $$ [Hc2 HO Hp2]
  · isplitr; · iexact HR
    isplitl [Hc2]; · iexact Hc2
    isplitl [HO]; · iexact HO
    isplitr; · iapply (mayWait_local c 2 (of_decide_eq_true rfl : 2 < 8) 18); iexact Hlev
    iexact Hp2
  iintro ⟨HO, Hp2, -, Hld⟩
  -- store 4 has gone out
  iapply (step_stwait m K c 0 (of_decide_eq_true rfl : 0 < 4) 1 (of_decide_eq_true rfl : 1 < 2) (sumT ((owedList c).drop 18)) (insert (SemLoc.dma (ds 2), ()) W) (credit_NS _)) $$ [Hc4 HO Hp4]
  · isplitr; · iexact HR
    isplitl [Hc4]; · iexact Hc4
    isplitl [HO]; · iexact HO
    isplitr; · iapply (mayWait_local c 4 (of_decide_eq_true rfl : 4 < 8) 18); iexact Hlev
    iexact Hp4
  iintro ⟨HO, Hp4, -, Hst⟩
  -- store 6: slot 2, just loaded, into chunk 6 of the device's own half
  ihave Hld := (Entails.of_eq (ldPay_eq_6 m c)) $$ Hld
  ihave Hst := (Entails.of_eq (stPay_eq_4 m c)) $$ Hst
  icases Hld with ⟨Hv2, Hx6⟩
  icases Hst with ⟨Ho4, Hv0⟩
  iapply (step_store m K c 6 2 1 rfl rfl fo (land_st m c 6 2 rfl fo)) $$ [Hr6 Hv2 Ho6 Ht6]
  · isplitr; · iexact HR
    hand [Hr6, Hv2, Ho6, Ht6]
  iintro Hc6
  rw [wp_ret]
  imodintro
  iapply Hk
  iexists _
  hand [HO, Hc36, Hp2, Hx6, Hp4, Ho4, Hv0, Hc6]

theorem part17_spec (c : Dev nD) (v2 v5 v31 v32 : BitVec 32) (W : Waits sig Unit) (Φ : PUnit → sProp 𝕄) :
    iprop(records m K ∗ levAts L lv
        ∗ (ow c 18 W ∗ crd c 23 N ∗ pos c 23 0 ∗ give (zb c) 39 ∗ tok c 37 0 ∗ tok (zb c) 39 0 ∗ crd c 3 NL ∗ pos c 3 1 ∗ crd c 5 NS ∗ pos c 5 1)
        ∗ ((∃ W', ow c 19 W' ∗ pos c 23 1 ∗ crd c 37 N ∗ pos c 3 2 ∗ ldPay m c 7 ∗ pos c 5 2 ∗ stPay m c 5) -∗ Φ ⟨⟩))
      ⊢ wp frame (wpE (defs₀ (F := F)) 𝒱₀ c none) Set.univ (k0_part17 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v31 v32) Φ := by
  unfold k0_part17
  simp (config := { proj := false }) only [Prog.lift, Prog.bind_op, Prog.bind_ret, Prog.pure_eq_ret, semSignalWord, semWaitWord,
    sem_s6_3, sem_s11_1, sem_s12_1, sem_s1_3, sem_s2_1, slice_off6_3]
  iintro ⟨#HR, #Hlev, ⟨HO, Hc23, Hp23, Hg, Ht37, Ht39, Hc3, Hp3, Hc5, Hp5⟩, Hk⟩
  -- the fourth y chunk has landed
  iapply (step_rwait m K c 23 (of_decide_eq_true rfl : 23 < 40) (of_decide_eq_true rfl : isRecv 23) (sumT ((owedList c).drop 18)) W (credit_N _)) $$ [Hc23 HO Hp23]
  · isplitr; · iexact HR
    isplitl [Hc23]; · iexact Hc23
    isplitl [HO]; · iexact HO
    isplitr; · iapply (mayWait_yrecv c 1); iexact Hlev
    iexact Hp23
  iintro ⟨HO, Hp23, Hpay⟩
  ihave Hpay := (Entails.of_eq (recvPay_eq_23 m c)) $$ Hpay
  -- it goes on to the z buddy: the last payment the device owes
  ihave Hg := (Entails.of_eq (give_eq_39 c)) $$ Hg
  icases Hg with ⟨%f, Hd⟩
  iapply (step_send1' m K c (zb c) _ (dev19_eq c) 37 39 (of_decide_eq_true rfl : 37 < 40) (of_decide_eq_true rfl : 39 < 40) (of_decide_eq_true rfl : isSend 37) (of_decide_eq_true rfl : isRecv 39) c (qF (yb c)) 3 c (qF (yb c)) 3
      fullShare (target m c) f (sumT ((owedList c).drop 19)) (insert (SemLoc.dma (ds 23), ()) W) (Entails.of_eq (sendPay_37 m c).symm) (land_zdg' m c 1 f)) $$ [Hpay Hd HO Ht37 Ht39]
  · isplitr; · iexact HR
    hand [Hpay, Hd, HO, Ht37, Ht39]
  iintro ⟨Hc37, HO⟩
  -- load 7 has come in
  iapply (step_lwait m K c 3 (of_decide_eq_true rfl : 3 < 4) 1 (of_decide_eq_true rfl : 1 < 2) (sumT ((owedList c).drop 19)) (insert (SemLoc.dma (ds 23), ()) W) (credit_NL _)) $$ [Hc3 HO Hp3]
  · isplitr; · iexact HR
    isplitl [Hc3]; · iexact Hc3
    isplitl [HO]; · iexact HO
    isplitr; · iapply (mayWait_local c 3 (of_decide_eq_true rfl : 3 < 8) 19); iexact Hlev
    iexact Hp3
  iintro ⟨HO, Hp3, -, Hld⟩
  -- store 5 has gone out
  iapply (step_stwait m K c 1 (of_decide_eq_true rfl : 1 < 4) 1 (of_decide_eq_true rfl : 1 < 2) (sumT ((owedList c).drop 19)) (insert (SemLoc.dma (ds 3), ()) (insert (SemLoc.dma (ds 23), ()) W)) (credit_NS _)) $$ [Hc5 HO Hp5]
  · isplitr; · iexact HR
    isplitl [Hc5]; · iexact Hc5
    isplitl [HO]; · iexact HO
    isplitr; · iapply (mayWait_local c 5 (of_decide_eq_true rfl : 5 < 8) 19); iexact Hlev
    iexact Hp5
  iintro ⟨HO, Hp5, -, Hst⟩
  rw [wp_ret]
  imodintro
  iapply Hk
  iexists _
  hand [HO, Hp23, Hc37, Hp3, Hld, Hp5, Hst]

/-- info: 'Cert.Kernel.AG.part14_spec' depends on axioms: [propext, Classical.choice, Quot.sound] -/
#guard_msgs in #print axioms part14_spec
/-- info: 'Cert.Kernel.AG.part15_spec' depends on axioms: [propext, Classical.choice, Quot.sound] -/
#guard_msgs in #print axioms part15_spec
/-- info: 'Cert.Kernel.AG.part16_spec' depends on axioms: [propext, Classical.choice, Quot.sound] -/
#guard_msgs in #print axioms part16_spec
/-- info: 'Cert.Kernel.AG.part17_spec' depends on axioms: [propext, Classical.choice, Quot.sound] -/
#guard_msgs in #print axioms part17_spec

end Cert.Kernel.AG

end
-- ==== Proof.KernelAG.PartsE.lean ====
/-
  The end of a device's program, parts 18 to 21: the last store leaves its slot, and then the device only waits — for
  the chunks its buddies pass on to land, for its last stores, and for its first copies to the partner to have left.
  It has paid everything it owes by then, so every wait is allowed.
-/
import proofs.«900686_g7700000000000687_dist_ag_v7x_xyz2x4x4_x_m16384_n1024_f32_1_alg».proof.Proof.KernelAG.PartDefs

set_option Elab.async false

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

/-! ## Credits and landed rows -/

/-- Any view of 2048 rows of a core's buffer counts a store's credit. -/
theorem credit_NS {sp : Space} (v : Memref sig .tc sp S2048x1024 .f32) : v.view.dmaCredit = NS := rfl

/-- What a landed copy hands over, with the rows it guards named. -/
theorem recvPay_at (c : Dev nD) (n : ℕ) (R : Rect S32768x1024) (h : recvRect c n = R) :
    recvPay m c n = pts c main_v1 R fullShare (target m c) := by unfold recvPay; rw [h]

/-! ## The parts -/

set_option maxHeartbeats 1000000 in
/-- The last two chunks from the z buddy and the first diagonal chunk from the y buddy land. -/
theorem part19_spec (c : Dev nD) (v2 v5 v8 v30 v31 v34 v45 v50 v553 : BitVec 32) (W : Waits sig Unit) (Φ : PUnit → sProp 𝕄) :
    iprop(records m K ∗ levAts L lv
        ∗ (ow c 19 W ∗ crd c 30 N ∗ pos c 30 0 ∗ crd c 31 N ∗ pos c 31 0 ∗ crd c 34 N ∗ pos c 34 0)
        ∗ ((∃ W', ow c 19 W' ∗ pos c 30 1 ∗ pts c main_v1 (oCh c (qF (zb c)) 2) fullShare (target m c)
            ∗ pos c 31 1 ∗ pts c main_v1 (oCh c (qF (zb c)) 3) fullShare (target m c)
            ∗ pos c 34 1 ∗ pts c main_v1 (oCh c (qF (zb (yb c))) 0) fullShare (target m c)) -∗ Φ ⟨⟩))
      ⊢ wp frame (wpE (defs₀ (F := F)) 𝒱₀ c none) Set.univ (k0_part19 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v45 v50 v553) Φ := by
  unfold k0_part19
  simp only [Prog.lift, Prog.bind_op, Prog.bind_ret, Prog.pure_eq_ret]
  iintro ⟨#HR, #Hlev, ⟨HO, Hc30, Hp30, Hc31, Hp31, Hc34, Hp34⟩, Hk⟩
  -- the third chunk from the z buddy
  iapply (step_rwait m K c 30 (by omega) (by unfold isRecv; omega) _ _ (credit_N _)) $$ [Hc30 HO Hp30]
  · isplitr; · iexact HR
    isplitl [Hc30]; · iexact Hc30
    isplitl [HO]; · iexact HO
    isplitr; · iapply (mayWait_nil c _) $$ Hlev
    iexact Hp30
  iintro ⟨HO, Hp30, Hr30⟩
  -- the fourth
  iapply (step_rwait m K c 31 (by omega) (by unfold isRecv; omega) _ _ (credit_N _)) $$ [Hc31 HO Hp31]
  · isplitr; · iexact HR
    isplitl [Hc31]; · iexact Hc31
    isplitl [HO]; · iexact HO
    isplitr; · iapply (mayWait_nil c _) $$ Hlev
    iexact Hp31
  iintro ⟨HO, Hp31, Hr31⟩
  -- the first diagonal chunk from the y buddy
  iapply (step_rwait m K c 34 (by omega) (by unfold isRecv; omega) _ _ (credit_N _)) $$ [Hc34 HO Hp34]
  · isplitr; · iexact HR
    isplitl [Hc34]; · iexact Hc34
    isplitl [HO]; · iexact HO
    isplitr; · iapply (mayWait_nil c _) $$ Hlev
    iexact Hp34
  iintro ⟨HO, Hp34, Hr34⟩
  rw [wp_ret]; imodintro
  iapply Hk
  iexists _
  isplitl [HO]; · iexact HO
  isplitl [Hp30]; · iexact Hp30
  isplitl [Hr30]; · iapply (Entails.of_eq (recvPay_at m c 30 _ (recvRect_30 c))) $$ Hr30
  isplitl [Hp31]; · iexact Hp31
  isplitl [Hr31]; · iapply (Entails.of_eq (recvPay_at m c 31 _ (recvRect_31 c))) $$ Hr31
  isplitl [Hp34]; · iexact Hp34
  iapply (Entails.of_eq (recvPay_at m c 34 _ (recvRect_34 c))) $$ Hr34

set_option maxHeartbeats 1000000 in
/-- The second diagonal chunk from the y buddy and the first from the z buddy land. -/
theorem part20_spec (c : Dev nD) (v2 v5 v8 v30 v31 v34 v50 : BitVec 32) (W : Waits sig Unit) (Φ : PUnit → sProp 𝕄) :
    iprop(records m K ∗ levAts L lv
        ∗ (ow c 19 W ∗ crd c 35 N ∗ pos c 35 0 ∗ crd c 38 N ∗ pos c 38 0)
        ∗ ((∃ W', ow c 19 W' ∗ pos c 35 1 ∗ pts c main_v1 (oCh c (qF (zb (yb c))) 1) fullShare (target m c)
            ∗ pos c 38 1 ∗ pts c main_v1 (oCh c (qF (yb (zb c))) 2) fullShare (target m c)) -∗ Φ ⟨⟩))
      ⊢ wp frame (wpE (defs₀ (F := F)) 𝒱₀ c none) Set.univ (k0_part20 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v50) Φ := by
  unfold k0_part20
  simp only [Prog.lift, Prog.bind_op, Prog.bind_ret, Prog.pure_eq_ret]
  iintro ⟨#HR, #Hlev, ⟨HO, Hc35, Hp35, Hc38, Hp38⟩, Hk⟩
  -- the second diagonal chunk from the y buddy
  iapply (step_rwait m K c 35 (by omega) (by unfold isRecv; omega) _ _ (credit_N _)) $$ [Hc35 HO Hp35]
  · isplitr; · iexact HR
    isplitl [Hc35]; · iexact Hc35
    isplitl [HO]; · iexact HO
    isplitr; · iapply (mayWait_nil c _) $$ Hlev
    iexact Hp35
  iintro ⟨HO, Hp35, Hr35⟩
  -- the first diagonal chunk from the z buddy
  iapply (step_rwait m K c 38 (by omega) (by unfold isRecv; omega) _ _ (credit_N _)) $$ [Hc38 HO Hp38]
  · isplitr; · iexact HR
    isplitl [Hc38]; · iexact Hc38
    isplitl [HO]; · iexact HO
    isplitr; · iapply (mayWait_nil c _) $$ Hlev
    iexact Hp38
  iintro ⟨HO, Hp38, Hr38⟩
  rw [wp_ret]; imodintro
  iapply Hk
  iexists _
  isplitl [HO]; · iexact HO
  isplitl [Hp35]; · iexact Hp35
  isplitl [Hr35]; · iapply (Entails.of_eq (recvPay_at m c 35 _ (recvRect_35 c))) $$ Hr35
  isplitl [Hp38]; · iexact Hp38
  iapply (Entails.of_eq (recvPay_at m c 38 _ (recvRect_38 c))) $$ Hr38

/-- info: 'Cert.Kernel.AG.part19_spec' depends on axioms: [propext, Classical.choice, Quot.sound] -/
#guard_msgs in #print axioms part19_spec
/-- info: 'Cert.Kernel.AG.part20_spec' depends on axioms: [propext, Classical.choice, Quot.sound] -/
#guard_msgs in #print axioms part20_spec

end Cert.Kernel.AG

end
-- ==== Proof.KernelAG.PartsE2.lean ====
/-
  The end of a device's program, parts 18 and 21: the last store leaves its slot and the first two chunks the y buddy
  passes on land; and, last, the fourth diagonal chunk lands, the last two stores have left their slots, and the first
  three copies to the partner have left. The device owes nothing any more, so every wait is allowed.
-/
import proofs.«900686_g7700000000000687_dist_ag_v7x_xyz2x4x4_x_m16384_n1024_f32_1_alg».proof.Proof.KernelAG.PartsE
import proofs.«900686_g7700000000000687_dist_ag_v7x_xyz2x4x4_x_m16384_n1024_f32_1_alg».proof.Proof.KernelAG.LandingSlot

set_option Elab.async false

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 1000000 in
/-- The last store leaves its slot; the first two chunks from the y buddy land. -/
theorem part18_spec (c : Dev nD) (v2 v5 v8 v30 v34 v41 v45 : BitVec 32) (W : Waits sig Unit)
    (fo : Buf (Elt F) ((c : Thread nD τ).loc main_v1)) (Φ : BitVec 32 → sProp 𝕄) :
    iprop(records m K ∗ levAts L lv
        ∗ (ow c 19 W ∗ pts c cc0_scratch0 (vSl 3) fullShare (vfill m c 7) ∗ pts c main_v1 (oOwn c 7) fullShare fo ∗ tok c 7 1 ∗ rch c 7 1
            ∗ crd c 20 N ∗ pos c 20 0 ∗ crd c 21 N ∗ pos c 21 0)
        ∗ (∀ r, (∃ W', ow c 19 W' ∗ crd c 7 NS ∗ pos c 20 1 ∗ pts c main_v1 (oCh c (qF (yb c)) 0) fullShare (target m c)
            ∗ pos c 21 1 ∗ pts c main_v1 (oCh c (qF (yb c)) 1) fullShare (target m c)) -∗ Φ r))
      ⊢ wp frame (wpE (defs₀ (F := F)) 𝒱₀ c none) Set.univ (k0_part18 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v34 v41 v45) Φ := by
  unfold k0_part18
  simp (config := { proj := false }) only [Prog.lift, Prog.bind_op, Prog.bind_ret, Prog.pure_eq_ret, slice_off4_7 c]
  iintro ⟨#HR, #Hlev, ⟨HO, Hv3, Ho7, Ht7, #Hr7, Hc20, Hp20, Hc21, Hp21⟩, Hk⟩
  -- the eighth store: slot 3, holding the last chunk of the argument, into the last chunk of the device's own half
  iapply (step_store m K c 7 3 1 rfl rfl fo (land_st m c 7 3 rfl fo)) $$ [Hv3 Ho7 Ht7]
  · isplitr; · iexact HR
    isplitr; · iexact Hr7
    isplitl [Hv3]; · iexact Hv3
    isplitl [Ho7]; · iexact Ho7
    iexact Ht7
  iintro Hc7
  -- the first chunk from the y buddy
  iapply (step_rwait m K c 20 (by omega) (by unfold isRecv; omega) _ _ (credit_N _)) $$ [Hc20 HO Hp20]
  · isplitr; · iexact HR
    isplitl [Hc20]; · iexact Hc20
    isplitl [HO]; · iexact HO
    isplitr; · iapply (mayWait_nil c _) $$ Hlev
    iexact Hp20
  iintro ⟨HO, Hp20, Hr20⟩
  -- the second
  iapply (step_rwait m K c 21 (by omega) (by unfold isRecv; omega) _ _ (credit_N _)) $$ [Hc21 HO Hp21]
  · isplitr; · iexact HR
    isplitl [Hc21]; · iexact Hc21
    isplitl [HO]; · iexact HO
    isplitr; · iapply (mayWait_nil c _) $$ Hlev
    iexact Hp21
  iintro ⟨HO, Hp21, Hr21⟩
  rw [wp_ret]; imodintro
  iapply Hk
  iexists _
  isplitl [HO]; · iexact HO
  isplitl [Hc7]; · iexact Hc7
  isplitl [Hp20]; · iexact Hp20
  isplitl [Hr20]; · iapply (Entails.of_eq (recvPay_at m c 20 _ (recvRect_20 c))) $$ Hr20
  isplitl [Hp21]; · iexact Hp21
  iapply (Entails.of_eq (recvPay_at m c 21 _ (recvRect_21 c))) $$ Hr21

set_option maxHeartbeats 1000000 in
/-- The last diagonal chunk lands; the last two stores and the first three copies to the partner have left. -/
theorem part21_spec (c : Dev nD) (W : Waits sig Unit) (Φ : PUnit → sProp 𝕄) :
    iprop(records m K ∗ levAts L lv
        ∗ (ow c 19 W ∗ crd c 39 N ∗ pos c 39 0 ∗ crd c 6 NS ∗ pos c 6 1 ∗ crd c 7 NS ∗ pos c 7 1
            ∗ crd c 8 N ∗ pos c 8 0 ∗ crd c 9 N ∗ pos c 9 0 ∗ crd c 10 N ∗ pos c 10 0)
        ∗ ((∃ W', ow c 19 W' ∗ pos c 39 1 ∗ pts c main_v1 (oCh c (qF (yb (zb c))) 3) fullShare (target m c)
            ∗ pos c 6 2 ∗ stPay m c 6 ∗ pos c 7 2 ∗ stPay m c 7
            ∗ pos c 8 1 ∗ sendPay m c 8 ∗ pos c 9 1 ∗ sendPay m c 9 ∗ pos c 10 1 ∗ sendPay m c 10) -∗ Φ ⟨⟩))
      ⊢ wp frame (wpE (defs₀ (F := F)) 𝒱₀ c none) Set.univ (k0_part21 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  have h8 : (8 : ℕ) < 40 := by omega
  have h9 : (9 : ℕ) < 40 := by omega
  have h10 : (10 : ℕ) < 40 := by omega
  have s8 : isSend 8 := by unfold isSend; omega
  have s9 : isSend 9 := by unfold isSend; omega
  have s10 : isSend 10 := by unfold isSend; omega
  unfold k0_part21
  simp only [Prog.lift, Prog.bind_op, Prog.bind_ret, Prog.pure_eq_ret]
  iintro ⟨#HR, #Hlev, ⟨HO, Hc39, Hp39, Hc6, Hp6, Hc7, Hp7, Hc8, Hp8, Hc9, Hp9, Hc10, Hp10⟩, Hk⟩
  -- the last diagonal chunk from the z buddy
  iapply (step_rwait m K c 39 (by omega) (by unfold isRecv; omega) _ _ (credit_N _)) $$ [Hc39 HO Hp39]
  · isplitr; · iexact HR
    isplitl [Hc39]; · iexact Hc39
    isplitl [HO]; · iexact HO
    isplitr; · iapply (mayWait_nil c _) $$ Hlev
    iexact Hp39
  iintro ⟨HO, Hp39, Hr39⟩
  -- the seventh store has left slot 2
  iapply (step_stwait m K c 2 (by omega) 1 (by omega) _ _ (credit_NS _)) $$ [Hc6 HO Hp6]
  · isplitr; · iexact HR
    isplitl [Hc6]; · iexact Hc6
    isplitl [HO]; · iexact HO
    isplitr; · iapply (mayWait_nil c _) $$ Hlev
    iexact Hp6
  iintro ⟨HO, Hp6, -, Hs6⟩
  -- the eighth, slot 3
  iapply (step_stwait m K c 3 (by omega) 1 (by omega) _ _ (credit_NS _)) $$ [Hc7 HO Hp7]
  · isplitr; · iexact HR
    isplitl [Hc7]; · iexact Hc7
    isplitl [HO]; · iexact HO
    isplitr; · iapply (mayWait_nil c _) $$ Hlev
    iexact Hp7
  iintro ⟨HO, Hp7, -, Hs7⟩
  -- the first three copies to the partner have left: each wait is for the one duty of its send cell's one round
  iapply (step_wait m K c 8 h8 0 N (duties_dma m c 8 h8) (amount_rem m c 8 (by omega) h8 0 0) _ _ (credit_N _)) $$ [Hc8 HO Hp8]
  · isplitr; · iexact HR
    isplitl [Hc8]; · iexact Hc8
    isplitl [HO]; · iexact HO
    isplitr; · iapply (mayWait_nil c _) $$ Hlev
    iexact Hp8
  iintro ⟨HO, Hp8, -, Hs8⟩
  iapply (step_wait m K c 9 h9 0 N (duties_dma m c 9 h9) (amount_rem m c 9 (by omega) h9 0 0) _ _ (credit_N _)) $$ [Hc9 HO Hp9]
  · isplitr; · iexact HR
    isplitl [Hc9]; · iexact Hc9
    isplitl [HO]; · iexact HO
    isplitr; · iapply (mayWait_nil c _) $$ Hlev
    iexact Hp9
  iintro ⟨HO, Hp9, -, Hs9⟩
  iapply (step_wait m K c 10 h10 0 N (duties_dma m c 10 h10) (amount_rem m c 10 (by omega) h10 0 0) _ _ (credit_N _)) $$ [Hc10 HO Hp10]
  · isplitr; · iexact HR
    isplitl [Hc10]; · iexact Hc10
    isplitl [HO]; · iexact HO
    isplitr; · iapply (mayWait_nil c _) $$ Hlev
    iexact Hp10
  iintro ⟨HO, Hp10, -, Hs10⟩
  rw [wp_ret]; imodintro
  iapply Hk
  iexists _
  isplitl [HO]; · iexact HO
  isplitl [Hp39]; · iexact Hp39
  isplitl [Hr39]; · iapply (Entails.of_eq (recvPay_at m c 39 _ (recvRect_39 c))) $$ Hr39
  isplitl [Hp6]; · iexact Hp6
  isplitl [Hs6]; · iexact Hs6
  isplitl [Hp7]; · iexact Hp7
  isplitl [Hs7]; · iexact Hs7
  isplitl [Hp8]; · iexact Hp8
  isplitl [Hs8]; · iapply (Entails.of_eq (payload_send m c 8 h8 s8 0 0)) $$ Hs8
  isplitl [Hp9]; · iexact Hp9
  isplitl [Hs9]; · iapply (Entails.of_eq (payload_send m c 9 h9 s9 0 0)) $$ Hs9
  isplitl [Hp10]; · iexact Hp10
  iapply (Entails.of_eq (payload_send m c 10 h10 s10 0 0)) $$ Hs10

/-- info: 'Cert.Kernel.AG.part18_spec' depends on axioms: [propext, Classical.choice, Quot.sound] -/
#guard_msgs in #print axioms part18_spec
/-- info: 'Cert.Kernel.AG.part21_spec' depends on axioms: [propext, Classical.choice, Quot.sound] -/
#guard_msgs in #print axioms part21_spec

end Cert.Kernel.AG

end
-- ==== Proof.KernelAG.PartsF.lean ====
/-
  The last waits of the body: a device waits for twelve of its copies to have left, one after the other. By then it
  owes nothing, so each wait is allowed, and each hands back the share of the rows that copy read.
-/
import proofs.«900686_g7700000000000687_dist_ag_v7x_xyz2x4x4_x_m16384_n1024_f32_1_alg».proof.Proof.KernelAG.PartDefs

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

omit [FloatOps F] in
/-- After its nineteen payments a device owes nothing. -/
theorem ow_19 (c : Dev nD) (W : Waits sig Unit) : (ow c 19 W : sProp 𝕄) = owes (c : Thread nD τ) 0 W := rfl

/-- The wait for a copy's departure, by a device that owes nothing: its premise and its continuation joined, the
    set of recorded waits left open on both sides. -/
theorem swait (c : Dev nD) (n : ℕ) (hn : n < 40) (hs : isSend n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (hcr : dstw.view.dmaCredit = N) :
    iprop((records m K ∗ cred (tallyAt (cell c n hn) () N) ∗ (∃ W, owes (c : Thread nD τ) 0 W) ∗ atPos ER (cell c n hn) 0 ∅ 0)
        ∗ (((∃ W, owes (c : Thread nD τ) 0 W) ∗ atPos ER (cell c n hn) 1 ∅ 0 ∗ sendPay m c n)
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (ds n hn) srcw dstw hsrc hdst) k) Q := by
  iintro ⟨⟨#HR, Hc, ⟨%W, HO⟩, Hat⟩, Hk⟩
  iapply (step_swait m K c n hn hs W hcr) $$ [Hc HO Hat]
  · isplitr; · iexact HR
    isplitl [Hc]; · iexact Hc
    isplitl [HO]; · iexact HO
    iexact Hat
  iintro ⟨HO, Hat, Hpay⟩
  iapply Hk
  isplitl [HO]; · iexists _; iexact HO
  isplitl [Hat]; · iexact Hat
  iexact Hpay

/-- Six waits for departures in a row, by a device that owes nothing: each takes the copy's credit and the device's
    place at the send cell, and hands back the place at the next round and the share of the rows the copy read. -/
theorem swaits6 (c : Dev nD)
    (n1 : ℕ) (h1 : n1 < 40) (s1 : isSend n1)
    (n2 : ℕ) (h2 : n2 < 40) (s2 : isSend n2)
    (n3 : ℕ) (h3 : n3 < 40) (s3 : isSend n3)
    (n4 : ℕ) (h4 : n4 < 40) (s4 : isSend n4)
    (n5 : ℕ) (h5 : n5 < 40) (s5 : isSend n5)
    (n6 : ℕ) (h6 : n6 < 40) (s6 : isSend n6)
    {a1 b1 : Memref sig .tc .hbm S1024x1024 .f32} {ha1 : a1.view.WordExact} {hb1 : b1.view.WordExact}
    {a2 b2 : Memref sig .tc .hbm S1024x1024 .f32} {ha2 : a2.view.WordExact} {hb2 : b2.view.WordExact}
    {a3 b3 : Memref sig .tc .hbm S1024x1024 .f32} {ha3 : a3.view.WordExact} {hb3 : b3.view.WordExact}
    {a4 b4 : Memref sig .tc .hbm S1024x1024 .f32} {ha4 : a4.view.WordExact} {hb4 : b4.view.WordExact}
    {a5 b5 : Memref sig .tc .hbm S1024x1024 .f32} {ha5 : a5.view.WordExact} {hb5 : b5.view.WordExact}
    {a6 b6 : Memref sig .tc .hbm S1024x1024 .f32} {ha6 : a6.view.WordExact} {hb6 : b6.view.WordExact}
    (W : Waits sig Unit) (Φ : PUnit → sProp 𝕄) :
    iprop(records m K ∗ levAts L lv
        ∗ (owes (c : Thread nD τ) 0 W
            ∗ cred (tallyAt (cell c n1 h1) () N) ∗ atPos ER (cell c n1 h1) 0 ∅ 0
            ∗ cred (tallyAt (cell c n2 h2) () N) ∗ atPos ER (cell c n2 h2) 0 ∅ 0
            ∗ cred (tallyAt (cell c n3 h3) () N) ∗ atPos ER (cell c n3 h3) 0 ∅ 0
            ∗ cred (tallyAt (cell c n4 h4) () N) ∗ atPos ER (cell c n4 h4) 0 ∅ 0
            ∗ cred (tallyAt (cell c n5 h5) () N) ∗ atPos ER (cell c n5 h5) 0 ∅ 0
            ∗ cred (tallyAt (cell c n6 h6) () N) ∗ atPos ER (cell c n6 h6) 0 ∅ 0)
        ∗ ((∃ W', owes (c : Thread nD τ) 0 W'
            ∗ atPos ER (cell c n1 h1) 1 ∅ 0 ∗ sendPay m c n1
            ∗ atPos ER (cell c n2 h2) 1 ∅ 0 ∗ sendPay m c n2
            ∗ atPos ER (cell c n3 h3) 1 ∅ 0 ∗ sendPay m c n3
            ∗ atPos ER (cell c n4 h4) 1 ∅ 0 ∗ sendPay m c n4
            ∗ atPos ER (cell c n5 h5) 1 ∅ 0 ∗ sendPay m c n5
            ∗ atPos ER (cell c n6 h6) 1 ∅ 0 ∗ sendPay m c n6) -∗ Φ ⟨⟩))
      ⊢ wp frame (wpE (defs₀ (F := F)) 𝒱₀ (c : Thread nD τ) none) Set.univ
          (.op (.waitDma2 (ds n1 h1) a1 b1 ha1 hb1) fun _ =>
            (.op (.waitDma2 (ds n2 h2) a2 b2 ha2 hb2) fun _ =>
            (.op (.waitDma2 (ds n3 h3) a3 b3 ha3 hb3) fun _ =>
            (.op (.waitDma2 (ds n4 h4) a4 b4 ha4 hb4) fun _ =>
            (.op (.waitDma2 (ds n5 h5) a5 b5 ha5 hb5) fun _ =>
            (.op (.waitDma2 (ds n6 h6) a6 b6 ha6 hb6) fun _ =>
            .ret ⟨⟩)))))) Φ := by
  iintro ⟨#HR, #Hlev, ⟨HO, Hc1, Hp1, Hc2, Hp2, Hc3, Hp3, Hc4, Hp4, Hc5, Hp5, Hc6, Hp6⟩, Hk⟩
  iapply (swait m K c n1 h1 s1 (credit_N _))
  isplitl [Hc1 HO Hp1]
  · isplitr; · iexact HR
    isplitl [Hc1]; · iexact Hc1
    isplitl [HO]; · iexists W; iexact HO
    iexact Hp1
  iintro ⟨HO, Hp1, Hs1⟩
  iapply (swait m K c n2 h2 s2 (credit_N _))
  isplitl [Hc2 HO Hp2]
  · isplitr; · iexact HR
    isplitl [Hc2]; · iexact Hc2
    isplitl [HO]; · iexact HO
    iexact Hp2
  iintro ⟨HO, Hp2, Hs2⟩
  iapply (swait m K c n3 h3 s3 (credit_N _))
  isplitl [Hc3 HO Hp3]
  · isplitr; · iexact HR
    isplitl [Hc3]; · iexact Hc3
    isplitl [HO]; · iexact HO
    iexact Hp3
  iintro ⟨HO, Hp3, Hs3⟩
  iapply (swait m K c n4 h4 s4 (credit_N _))
  isplitl [Hc4 HO Hp4]
  · isplitr; · iexact HR
    isplitl [Hc4]; · iexact Hc4
    isplitl [HO]; · iexact HO
    iexact Hp4
  iintro ⟨HO, Hp4, Hs4⟩
  iapply (swait m K c n5 h5 s5 (credit_N _))
  isplitl [Hc5 HO Hp5]
  · isplitr; · iexact HR
    isplitl [Hc5]; · iexact Hc5
    isplitl [HO]; · iexact HO
    iexact Hp5
  iintro ⟨HO, Hp5, Hs5⟩
  iapply (swait m K c n6 h6 s6 (credit_N _))
  isplitl [Hc6 HO Hp6]
  · isplitr; · iexact HR
    isplitl [Hc6]; · iexact Hc6
    isplitl [HO]; · iexact HO
    iexact Hp6
  iintro ⟨HO, Hp6, Hs6⟩
  rw [wp_ret]
  imodintro
  icases HO with ⟨%W', HO⟩
  iapply Hk
  iexists W'
  hand [HO, Hp1, Hs1, Hp2, Hs2, Hp3, Hs3, Hp4, Hs4, Hp5, Hs5, Hp6, Hs6]

/-- The waits for the departures of the last x copy, of the first three y copies and of the first two z copies. -/
theorem part22_spec (c : Dev nD) (W : Waits sig Unit) (Φ : PUnit → sProp 𝕄) :
    iprop(records m K ∗ levAts L lv
        ∗ (ow c 19 W ∗ crd c 11 N ∗ pos c 11 0 ∗ crd c 16 N ∗ pos c 16 0 ∗ crd c 24 N ∗ pos c 24 0 ∗ crd c 17 N ∗ pos c 17 0
            ∗ crd c 25 N ∗ pos c 25 0 ∗ crd c 18 N ∗ pos c 18 0)
        ∗ ((∃ W', ow c 19 W' ∗ pos c 11 1 ∗ sendPay m c 11 ∗ pos c 16 1 ∗ sendPay m c 16 ∗ pos c 24 1 ∗ sendPay m c 24
            ∗ pos c 17 1 ∗ sendPay m c 17 ∗ pos c 25 1 ∗ sendPay m c 25 ∗ pos c 18 1 ∗ sendPay m c 18) -∗ Φ ⟨⟩))
      ⊢ wp frame (wpE (defs₀ (F := F)) 𝒱₀ c none) Set.univ (k0_part22 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  unfold k0_part22
  simp only [Prog.lift, Prog.bind_op, Prog.bind_ret, Prog.pure_eq_ret]
  rw [sem_s3_3, sem_s5_0, sem_s7_0, sem_s5_1, sem_s7_1, sem_s5_2]
  simp only [ow_19]
  exact swaits6 m K c 11 (of_decide_eq_true rfl) (of_decide_eq_true rfl) 16 (of_decide_eq_true rfl) (of_decide_eq_true rfl) 24 (of_decide_eq_true rfl) (of_decide_eq_true rfl) 17 (of_decide_eq_true rfl) (of_decide_eq_true rfl) 25 (of_decide_eq_true rfl) (of_decide_eq_true rfl) 18 (of_decide_eq_true rfl) (of_decide_eq_true rfl) W Φ

/-- The waits for the departures of the last two z copies, of the last y copy, and of three of the diagonal copies. -/
theorem part23_spec (c : Dev nD) (W : Waits sig Unit) (Φ : PUnit → sProp 𝕄) :
    iprop(records m K ∗ levAts L lv
        ∗ (ow c 19 W ∗ crd c 26 N ∗ pos c 26 0 ∗ crd c 19 N ∗ pos c 19 0 ∗ crd c 27 N ∗ pos c 27 0 ∗ crd c 32 N ∗ pos c 32 0
            ∗ crd c 33 N ∗ pos c 33 0 ∗ crd c 36 N ∗ pos c 36 0)
        ∗ ((∃ W', ow c 19 W' ∗ pos c 26 1 ∗ sendPay m c 26 ∗ pos c 19 1 ∗ sendPay m c 19 ∗ pos c 27 1 ∗ sendPay m c 27
            ∗ pos c 32 1 ∗ sendPay m c 32 ∗ pos c 33 1 ∗ sendPay m c 33 ∗ pos c 36 1 ∗ sendPay m c 36) -∗ Φ ⟨⟩))
      ⊢ wp frame (wpE (defs₀ (F := F)) 𝒱₀ c none) Set.univ (k0_part23 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  unfold k0_part23
  simp only [Prog.lift, Prog.bind_op, Prog.bind_ret, Prog.pure_eq_ret]
  rw [sem_s7_2, sem_s5_3, sem_s7_3, sem_s9_0, sem_s9_1, sem_s11_0]
  simp only [ow_19]
  exact swaits6 m K c 26 (of_decide_eq_true rfl) (of_decide_eq_true rfl) 19 (of_decide_eq_true rfl) (of_decide_eq_true rfl) 27 (of_decide_eq_true rfl) (of_decide_eq_true rfl) 32 (of_decide_eq_true rfl) (of_decide_eq_true rfl) 33 (of_decide_eq_true rfl) (of_decide_eq_true rfl) 36 (of_decide_eq_true rfl) (of_decide_eq_true rfl) W Φ

/-- info: 'Cert.Kernel.AG.part22_spec' depends on axioms: [propext, Classical.choice, Quot.sound] -/
#guard_msgs in #print axioms part22_spec
/-- info: 'Cert.Kernel.AG.part23_spec' depends on axioms: [propext, Classical.choice, Quot.sound] -/
#guard_msgs in #print axioms part23_spec

end Cert.Kernel.AG

end
-- ==== Proof.KernelAG.TailDefs.lean ====
/-
  The end of the body, in bundles: what each of the last three parts and the last wait takes and hands back (besides
  what the device owes), what the exit needs besides, and the two flat spellings the body and the exit use.
-/
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.PartsE2
import proofs.«900686_g7700000000000687_dist_ag_v7x_xyz2x4x4_x_m16384_n1024_f32_1_alg».proof.Proof.KernelAG.PartsF
import proofs.«900686_g7700000000000687_dist_ag_v7x_xyz2x4x4_x_m16384_n1024_f32_1_alg».proof.Proof.KernelAG.Exit

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The last three parts and the last wait, as the body's skeleton ends. -/
def tail21 (c : Dev nD) : Prog (TpuEff nD τ sig (Elt F) Λ₀ .tc) PUnit := do
  k0_part21 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  k0_part22 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  k0_part23 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  let v690 : DmaSems sig S1 := cc0_scratch11.slice (Rect.unit (s := S2) ![1] S1.size inb_S2_S1_1)
  let v691 : DmaSems sig S_ := v690.squeeze S_ squeezes_S1_S_
  let v692 : Memref sig .tc .hbm S1024x1024 .f32 := M1.slice (Rect.unit (s := S32768x1024) (k0_off6 c 3072#32) S1024x1024.size (k0_off6_inb c 3)) (fun _ => rfl)
  let v693 : Memref sig .tc .hbm S1024x1024 .f32 := M1.slice (Rect.unit (s := S32768x1024) (k0_off6 c 3072#32) S1024x1024.size (k0_off6_inb c 3)) (fun _ => rfl)
  Prog.lift (.waitDma2 v691.sem v693 v692 (View.wordExact_bits rfl) (View.wordExact_bits rfl))
  pure ⟨⟩

/-- What part 21 takes besides what is owed, and what it hands back. -/
def P21 (c : Dev nD) : sProp 𝕄 :=
  iprop(crd c 39 N ∗ pos c 39 0 ∗ crd c 6 NS ∗ pos c 6 1 ∗ crd c 7 NS ∗ pos c 7 1 ∗ crd c 8 N ∗ pos c 8 0 ∗ crd c 9 N ∗ pos c 9 0 ∗ crd c 10 N ∗ pos c 10 0)
def Q21 (c : Dev nD) : sProp 𝕄 :=
  iprop(pos c 39 1 ∗ pts c main_v1 (oCh c (qF (yb (zb c))) 3) fullShare (target m c) ∗ pos c 6 2 ∗ stPay m c 6 ∗ pos c 7 2 ∗ stPay m c 7
    ∗ pos c 8 1 ∗ sendPay m c 8 ∗ pos c 9 1 ∗ sendPay m c 9 ∗ pos c 10 1 ∗ sendPay m c 10)
/-- Part 22. -/
def P22 (c : Dev nD) : sProp 𝕄 :=
  iprop(crd c 11 N ∗ pos c 11 0 ∗ crd c 16 N ∗ pos c 16 0 ∗ crd c 24 N ∗ pos c 24 0 ∗ crd c 17 N ∗ pos c 17 0 ∗ crd c 25 N ∗ pos c 25 0 ∗ crd c 18 N ∗ pos c 18 0)
def Q22 (c : Dev nD) : sProp 𝕄 :=
  iprop(pos c 11 1 ∗ sendPay m c 11 ∗ pos c 16 1 ∗ sendPay m c 16 ∗ pos c 24 1 ∗ sendPay m c 24
    ∗ pos c 17 1 ∗ sendPay m c 17 ∗ pos c 25 1 ∗ sendPay m c 25 ∗ pos c 18 1 ∗ sendPay m c 18)
/-- Part 23. -/
def P23 (c : Dev nD) : sProp 𝕄 :=
  iprop(crd c 26 N ∗ pos c 26 0 ∗ crd c 19 N ∗ pos c 19 0 ∗ crd c 27 N ∗ pos c 27 0 ∗ crd c 32 N ∗ pos c 32 0 ∗ crd c 33 N ∗ pos c 33 0 ∗ crd c 36 N ∗ pos c 36 0)
def Q23 (c : Dev nD) : sProp 𝕄 :=
  iprop(pos c 26 1 ∗ sendPay m c 26 ∗ pos c 19 1 ∗ sendPay m c 19 ∗ pos c 27 1 ∗ sendPay m c 27
    ∗ pos c 32 1 ∗ sendPay m c 32 ∗ pos c 33 1 ∗ sendPay m c 33 ∗ pos c 36 1 ∗ sendPay m c 36)
/-- The last wait. -/
def P37 (c : Dev nD) : sProp 𝕄 := iprop(crd c 37 N ∗ pos c 37 0)
def Q37 (c : Dev nD) : sProp 𝕄 := iprop(pos c 37 1 ∗ sendPay m c 37)

/-- What the exit needs besides: the cells the end of the body does not touch, and the pieces of the three buffers
    already back. -/
def frameT (c : Dev nD) : sProp 𝕄 :=
  iprop((pos c 0 2 ∗ pos c 1 2 ∗ pos c 2 2 ∗ pos c 3 2 ∗ pos c 4 2 ∗ pos c 5 2 ∗ pos c 12 1 ∗ pos c 13 1 ∗ pos c 14 1 ∗ pos c 15 1
      ∗ pos c 20 1 ∗ pos c 21 1 ∗ pos c 22 1 ∗ pos c 23 1 ∗ pos c 28 1 ∗ pos c 29 1 ∗ pos c 30 1 ∗ pos c 31 1 ∗ pos c 34 1 ∗ pos c 35 1 ∗ pos c 38 1)
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c)
        ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c)
        ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

/-- What the device holds after its twentieth part, as the body lists it. -/
def tailPre (c : Dev nD) (W : Waits sig Unit) : sProp 𝕄 :=
  iprop(ow c 19 W
    ∗ (crd c 39 N ∗ crd c 6 NS ∗ crd c 7 NS ∗ crd c 8 N ∗ crd c 9 N ∗ crd c 10 N ∗ crd c 11 N ∗ crd c 16 N ∗ crd c 24 N ∗ crd c 17 N
        ∗ crd c 25 N ∗ crd c 18 N ∗ crd c 26 N ∗ crd c 19 N ∗ crd c 27 N ∗ crd c 32 N ∗ crd c 33 N ∗ crd c 36 N ∗ crd c 37 N)
    ∗ (pos c 0 2 ∗ pos c 1 2 ∗ pos c 2 2 ∗ pos c 3 2 ∗ pos c 4 2 ∗ pos c 5 2 ∗ pos c 6 1 ∗ pos c 7 1 ∗ pos c 8 0 ∗ pos c 9 0
        ∗ pos c 10 0 ∗ pos c 11 0 ∗ pos c 12 1 ∗ pos c 13 1 ∗ pos c 14 1 ∗ pos c 15 1 ∗ pos c 16 0 ∗ pos c 17 0 ∗ pos c 18 0 ∗ pos c 19 0
        ∗ pos c 20 1 ∗ pos c 21 1 ∗ pos c 22 1 ∗ pos c 23 1 ∗ pos c 24 0 ∗ pos c 25 0 ∗ pos c 26 0 ∗ pos c 27 0 ∗ pos c 28 1 ∗ pos c 29 1
        ∗ pos c 30 1 ∗ pos c 31 1 ∗ pos c 32 0 ∗ pos c 33 0 ∗ pos c 34 1 ∗ pos c 35 1 ∗ pos c 36 0 ∗ pos c 37 0 ∗ pos c 38 1 ∗ pos c 39 0)
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c)
        ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c)
        ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

end Cert.Kernel.AG

end
-- ==== Proof.KernelAG.TailBundle.lean ====
/-
  What the device holds after its twentieth part, regrouped: what it owes with what part 21 takes, then what parts 22
  and 23 and the last wait take, each as one bundle, and beside them everything else the exit needs.
-/
import proofs.«900686_g7700000000000687_dist_ag_v7x_xyz2x4x4_x_m16384_n1024_f32_1_alg».proof.Proof.KernelAG.TailDefs

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The flat list the body hands over is the bundles of the last parts and of the exit's frame: the same atoms,
    each credit beside its cell's position. -/
theorem tail_bundle (c : Dev nD) (W : Waits sig Unit) :
    (tailPre m c W : sProp 𝕄) ⊢ iprop(((ow c 19 W ∗ P21 c) ∗ P22 c ∗ P23 c ∗ P37 c) ∗ frameT m c) := by
  unfold tailPre P21 P22 P23 P37 frameT
  iintro ⟨HO, ⟨Hc39, Hc6, Hc7, Hc8, Hc9, Hc10, Hc11, Hc16, Hc24, Hc17, Hc25, Hc18, Hc26, Hc19, Hc27, Hc32, Hc33, Hc36, Hc37⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39⟩,
    HxR, HXL, HOO, HY, HZ, HD, Hd2, HV⟩
  isplitl [HO Hc39 Hp39 Hc6 Hp6 Hc7 Hp7 Hc8 Hp8 Hc9 Hp9 Hc10 Hp10 Hc11 Hp11 Hc16 Hp16 Hc24 Hp24 Hc17 Hp17 Hc25 Hp25 Hc18 Hp18 Hc26 Hp26 Hc19 Hp19 Hc27 Hp27 Hc32 Hp32 Hc33 Hp33 Hc36 Hp36 Hc37 Hp37]
  · isplitl [HO Hc39 Hp39 Hc6 Hp6 Hc7 Hp7 Hc8 Hp8 Hc9 Hp9 Hc10 Hp10]
    · isplitl [HO]; · iexact HO
      hand [Hc39, Hp39, Hc6, Hp6, Hc7, Hp7, Hc8, Hp8, Hc9, Hp9, Hc10, Hp10]
    isplitl [Hc11 Hp11 Hc16 Hp16 Hc24 Hp24 Hc17 Hp17 Hc25 Hp25 Hc18 Hp18]
    · hand [Hc11, Hp11, Hc16, Hp16, Hc24, Hp24, Hc17, Hp17, Hc25, Hp25, Hc18, Hp18]
    isplitl [Hc26 Hp26 Hc19 Hp19 Hc27 Hp27 Hc32 Hp32 Hc33 Hp33 Hc36 Hp36]
    · hand [Hc26, Hp26, Hc19, Hp19, Hc27, Hp27, Hc32, Hp32, Hc33, Hp33, Hc36, Hp36]
    hand [Hc37, Hp37]
  isplitl [Hp0 Hp1 Hp2 Hp3 Hp4 Hp5 Hp12 Hp13 Hp14 Hp15 Hp20 Hp21 Hp22 Hp23 Hp28 Hp29 Hp30 Hp31 Hp34 Hp35 Hp38]
  · hand [Hp0, Hp1, Hp2, Hp3, Hp4, Hp5, Hp12, Hp13, Hp14, Hp15, Hp20, Hp21, Hp22, Hp23, Hp28, Hp29, Hp30, Hp31, Hp34, Hp35, Hp38]
  hand [HxR, HXL, HOO, HY, HZ, HD, Hd2, HV]

/-- info: 'Cert.Kernel.AG.tail_bundle' depends on axioms: [propext, Classical.choice, Quot.sound] -/
#guard_msgs in #print axioms tail_bundle

end Cert.Kernel.AG

end
-- ==== Proof.KernelAG.TailRun.lean ====
/-
  The end of a device's program run as one piece: its last three parts — the last diagonal landing, the last two
  stores' departures, every copy's departure but one — and the wait for that last copy's departure. Each step takes
  what it consumes as one bundle and hands back one bundle; the device owes nothing throughout.
-/
import proofs.«900686_g7700000000000687_dist_ag_v7x_xyz2x4x4_x_m16384_n1024_f32_1_alg».proof.Proof.KernelAG.TailDefs

set_option Elab.async false

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 1000000 in
/-- The wait for a copy's departure on a send cell, by a device that has paid everything it owes: the cell moves on
    and the share of the rows the copy read comes back. -/
theorem wait_send (c : Dev nD) (n : ℕ) (hn : n < 40) (hs : isSend n) (W : Waits sig Unit)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (hcr : dstw.view.dmaCredit = N) :
    iprop(records m K ∗ levAts L lv ∗ (ow c 19 W ∗ cred (tallyAt (cell c n hn) () N) ∗ atPos ER (cell c n hn) 0 ∅ 0)
        ∗ ((∃ W', ow c 19 W' ∗ atPos ER (cell c n hn) 1 ∅ 0 ∗ sendPay m c n)
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (ds n hn) srcw dstw hsrc hdst) k) Q := by
  have h8 : 8 ≤ n := isSend_ge hs
  iintro ⟨#HR, #Hlev, ⟨HO, Hc, Hat⟩, Hk⟩
  iapply (step_wait m K c n hn 0 N (duties_dma m c n hn) (amount_rem m c n h8 hn 0 0) _ _ hcr) $$ [Hc HO Hat]
  · isplitr; · iexact HR
    isplitl [Hc]; · iexact Hc
    isplitl [HO]; · iexact HO
    isplitr; · iapply (mayWait_nil c _) $$ Hlev
    iexact Hat
  iintro ⟨HO, Hat, -, Hpay⟩
  iapply Hk
  iexists _
  isplitl [HO]; · iexact HO
  isplitl [Hat]; · iexact Hat
  iapply (Entails.of_eq (payload_send m c n hn hs 0 0)) $$ Hpay

set_option maxHeartbeats 4000000 in
/-- The end of the program, from the three parts' bundles and the last send cell's credit and place to the three
    parts' returns and the last copy's rows back; what follows it may still update. -/
theorem tail_run_spec (c : Dev nD) (W : Waits sig Unit) (Kt : PUnit → sProp 𝕄) :
    iprop(records m K ∗ levAts L lv
        ∗ ((ow c 19 W ∗ P21 c) ∗ P22 c ∗ P23 c ∗ P37 c)
        ∗ ((∃ W', ow c 19 W' ∗ Q21 m c ∗ Q22 m c ∗ Q23 m c ∗ Q37 m c) -∗ |={Set.univ}=> Kt ⟨⟩))
      ⊢ wp frame (wpE (defs₀ (F := F)) 𝒱₀ (c : Thread nD τ) none) Set.univ (tail21 (F := F) c) Kt := by
  have s37 : isSend 37 := by unfold isSend; omega
  unfold tail21 P21 P22 P23 P37 Q21 Q22 Q23 Q37
  iintro ⟨#HR, #Hlev, ⟨⟨HO, P21⟩, P22, P23, P37⟩, Hk⟩
  -- part 21
  rw [wp_bind]
  iapply (part21_spec m K c W _)
  isplitr; · iexact HR
  isplitr; · iexact Hlev
  isplitl [HO P21]
  · isplitl [HO]; · iexact HO
    iexact P21
  iintro ⟨%W21, HO, Q21⟩
  -- part 22
  rw [wp_bind]
  iapply (part22_spec m K c W21 _)
  isplitr; · iexact HR
  isplitr; · iexact Hlev
  isplitl [HO P22]
  · isplitl [HO]; · iexact HO
    iexact P22
  iintro ⟨%W22, HO, Q22⟩
  -- part 23
  rw [wp_bind]
  iapply (part23_spec m K c W22 _)
  isplitr; · iexact HR
  isplitr; · iexact Hlev
  isplitl [HO P23]
  · isplitl [HO]; · iexact HO
    iexact P23
  iintro ⟨%W23, HO, Q23⟩
  -- the last copy has left
  simp only [Prog.lift, Prog.bind_op, Prog.bind_ret, Prog.pure_eq_ret]
  iapply (wait_send m K c 37 (by decide) s37 W23 (credit_N _))
  isplitr; · iexact HR
  isplitr; · iexact Hlev
  isplitl [HO P37]
  · isplitl [HO]; · iexact HO
    iexact P37
  iintro ⟨%W24, HO, Q37⟩
  rw [wp_ret]
  iapply Hk
  iexists W24
  isplitl [HO]; · iexact HO
  isplitl [Q21]; · iexact Q21
  isplitl [Q22]; · iexact Q22
  isplitl [Q23]; · iexact Q23
  iexact Q37

/-- info: 'Cert.Kernel.AG.tail_run_spec' depends on axioms: [propext, Classical.choice, Quot.sound] -/
#guard_msgs in #print axioms tail_run_spec

end Cert.Kernel.AG

end
-- ==== Proof.KernelAG.TailExit.lean ====
/-
  The end of the body, joined: what the last three parts and the last wait hand back — each cell's position past its
  last round, the shares of the rows the copies read, the last chunks stored with their slots — and what was already
  back are, regrouped, the forty positions in the cells' order and every piece of the three buffers; which is what the
  exit takes.
-/
import proofs.«900686_g7700000000000687_dist_ag_v7x_xyz2x4x4_x_m16384_n1024_f32_1_alg».proof.Proof.KernelAG.TailDefs

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The forty positions and the buffers' pieces, as the exit takes them -/

theorem te_finRange40 : List.finRange 40 = [0, 1, 2, 3, 4, 5, 6, 7, 8, 9, 10, 11, 12, 13, 14, 15, 16, 17, 18, 19, 20, 21, 22, 23, 24, 25, 26, 27,
    28, 29, 30, 31, 32, 33, 34, 35, 36, 37, 38, 39] := by decide

/-- The device past the last round of each of its forty transfer cells, cell by cell. -/
def te_posA (c : Dev nD) : sProp 𝕄 :=
  iprop(pos c 0 2 ∗ pos c 1 2 ∗ pos c 2 2 ∗ pos c 3 2 ∗ pos c 4 2 ∗ pos c 5 2 ∗ pos c 6 2 ∗ pos c 7 2 ∗ pos c 8 1 ∗ pos c 9 1 ∗ pos c 10 1 ∗ pos c 11 1 ∗ pos c 12 1 ∗ pos c 13 1 ∗ pos c 14 1 ∗ pos c 15 1 ∗ pos c 16 1 ∗ pos c 17 1 ∗ pos c 18 1 ∗ pos c 19 1 ∗ pos c 20 1 ∗ pos c 21 1 ∗ pos c 22 1 ∗ pos c 23 1 ∗ pos c 24 1 ∗ pos c 25 1 ∗ pos c 26 1 ∗ pos c 27 1 ∗ pos c 28 1 ∗ pos c 29 1 ∗ pos c 30 1 ∗ pos c 31 1 ∗ pos c 32 1 ∗ pos c 33 1 ∗ pos c 34 1 ∗ pos c 35 1 ∗ pos c 36 1 ∗ pos c 37 1 ∗ pos c 38 1 ∗ pos c 39 1)

theorem te_posA_eq (c : Dev nD) :
    (te_posA c : sProp 𝕄) = sepL ((List.finRange 40).map fun n => atPos ER (cell c n.val n.isLt) (if n.val < 8 then 2 else 1) ∅ 0) := by
  rw [te_finRange40]; rfl

/-- The positions and the payloads of the last three parts and the last wait, and of the rest. -/
def te_pos21 (c : Dev nD) : sProp 𝕄 := iprop(pos c 39 1 ∗ pos c 6 2 ∗ pos c 7 2 ∗ pos c 8 1 ∗ pos c 9 1 ∗ pos c 10 1)
def te_pay21 (c : Dev nD) : sProp 𝕄 := iprop(pts c main_v1 (oCh c (qF (yb (zb c))) 3) fullShare (target m c) ∗ pts c main_v1 (oOwn c 6) fullShare (target m c) ∗ pts c cc0_scratch0 (vSl 2) fullShare (vfill m c 6) ∗ pts c main_v1 (oOwn c 7) fullShare (target m c) ∗ pts c cc0_scratch0 (vSl 3) fullShare (vfill m c 7) ∗ pts c main_arg0 (xCh (qF c) 0) fullShare.left (xin m c) ∗ pts c main_arg0 (xCh (qF c) 1) fullShare.left (xin m c) ∗ pts c main_arg0 (xCh (qF c) 2) fullShare.left (xin m c))
def te_pos22 (c : Dev nD) : sProp 𝕄 := iprop(pos c 11 1 ∗ pos c 16 1 ∗ pos c 24 1 ∗ pos c 17 1 ∗ pos c 25 1 ∗ pos c 18 1)
def te_pay22 (c : Dev nD) : sProp 𝕄 := iprop(pts c main_arg0 (xCh (qF c) 3) fullShare.left (xin m c) ∗ pts c main_v1 (oCh c (qF c) 0) fullShare.left (target m c) ∗ pts c main_v1 (oCh c (qF c) 0) fullShare.right (target m c) ∗ pts c main_v1 (oCh c (qF c) 1) fullShare.left (target m c) ∗ pts c main_v1 (oCh c (qF c) 1) fullShare.right (target m c) ∗ pts c main_v1 (oCh c (qF c) 2) fullShare.left (target m c))
def te_pos23 (c : Dev nD) : sProp 𝕄 := iprop(pos c 26 1 ∗ pos c 19 1 ∗ pos c 27 1 ∗ pos c 32 1 ∗ pos c 33 1 ∗ pos c 36 1)
def te_pay23 (c : Dev nD) : sProp 𝕄 := iprop(pts c main_v1 (oCh c (qF c) 2) fullShare.right (target m c) ∗ pts c main_v1 (oCh c (qF c) 3) fullShare.left (target m c) ∗ pts c main_v1 (oCh c (qF c) 3) fullShare.right (target m c) ∗ pts c main_v1 (oCh c (qF (zb c)) 0) fullShare (target m c) ∗ pts c main_v1 (oCh c (qF (zb c)) 1) fullShare (target m c) ∗ pts c main_v1 (oCh c (qF (yb c)) 2) fullShare (target m c))
def te_posF (c : Dev nD) : sProp 𝕄 := iprop(pos c 0 2 ∗ pos c 1 2 ∗ pos c 2 2 ∗ pos c 3 2 ∗ pos c 4 2 ∗ pos c 5 2 ∗ pos c 12 1 ∗ pos c 13 1 ∗ pos c 14 1 ∗ pos c 15 1 ∗ pos c 20 1 ∗ pos c 21 1 ∗ pos c 22 1 ∗ pos c 23 1 ∗ pos c 28 1 ∗ pos c 29 1 ∗ pos c 30 1 ∗ pos c 31 1 ∗ pos c 34 1 ∗ pos c 35 1 ∗ pos c 38 1)
def te_payF (c : Dev nD) : sProp 𝕄 :=
  iprop(xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

theorem te_q21_open (c : Dev nD) : (Q21 m c : sProp 𝕄) ⊢ iprop(te_pos21 c ∗ te_pay21 m c) := by
  unfold Q21 te_pos21 te_pay21 stPay
  rw [sendPay_8 m c, sendPay_9 m c, sendPay_10 m c]
  iintro ⟨P39, Hd3, P6, ⟨Ho6, Hv2⟩, P7, ⟨Ho7, Hv3⟩, P8, Hx0, P9, Hx1, P10, Hx2⟩
  isplitl [P39 P6 P7 P8 P9 P10]
  · hand [P39, P6, P7, P8, P9, P10]
  hand [Hd3, Ho6, Hv2, Ho7, Hv3, Hx0, Hx1, Hx2]

theorem te_q22_open (c : Dev nD) : (Q22 m c : sProp 𝕄) ⊢ iprop(te_pos22 c ∗ te_pay22 m c) := by
  unfold Q22 te_pos22 te_pay22
  rw [sendPay_11 m c, sendPay_16 m c, sendPay_24 m c, sendPay_17 m c, sendPay_25 m c, sendPay_18 m c]
  iintro ⟨P11, Hx3, P16, HqL0, P24, HqR0, P17, HqL1, P25, HqR1, P18, HqL2⟩
  isplitl [P11 P16 P24 P17 P25 P18]
  · hand [P11, P16, P24, P17, P25, P18]
  hand [Hx3, HqL0, HqR0, HqL1, HqR1, HqL2]

theorem te_q23_open (c : Dev nD) : (Q23 m c : sProp 𝕄) ⊢ iprop(te_pos23 c ∗ te_pay23 m c) := by
  unfold Q23 te_pos23 te_pay23
  rw [sendPay_26 m c, sendPay_19 m c, sendPay_27 m c, sendPay_32 m c, sendPay_33 m c, sendPay_36 m c]
  iintro ⟨P26, HqR2, P19, HqL3, P27, HqR3, P32, Hz0, P33, Hz1, P36, Hy2⟩
  isplitl [P26 P19 P27 P32 P33 P36]
  · hand [P26, P19, P27, P32, P33, P36]
  hand [HqR2, HqL3, HqR3, Hz0, Hz1, Hy2]

theorem te_q37_open (c : Dev nD) : (Q37 m c : sProp 𝕄) ⊢ iprop(pos c 37 1 ∗ pts c main_v1 (oCh c (qF (yb c)) 3) fullShare (target m c)) := by
  unfold Q37
  rw [sendPay_37 m c]
  all_goals exact .rfl

theorem te_frame_open (c : Dev nD) : (frameT m c : sProp 𝕄) ⊢ iprop(te_posF c ∗ te_payF m c) := by
  unfold frameT te_posF te_payF
  exact .rfl

/-- The positions, in the cells' order. -/
theorem te_pos_join (c : Dev nD) : iprop(te_pos21 c ∗ te_pos22 c ∗ te_pos23 c ∗ pos c 37 1 ∗ te_posF c) ⊢ (te_posA c : sProp 𝕄) := by
  unfold te_pos21 te_pos22 te_pos23 te_posF te_posA
  iintro ⟨⟨P39, P6, P7, P8, P9, P10⟩, ⟨P11, P16, P24, P17, P25, P18⟩, ⟨P26, P19, P27, P32, P33, P36⟩, P37, P0, P1, P2, P3, P4, P5, P12, P13, P14, P15, P20, P21, P22, P23, P28, P29, P30, P31, P34, P35, P38⟩
  hand [P0, P1, P2, P3, P4, P5, P6, P7, P8, P9, P10, P11, P12, P13, P14, P15, P16, P17, P18, P19, P20, P21, P22, P23, P24, P25, P26, P27, P28, P29, P30, P31, P32, P33, P34, P35, P36, P37, P38, P39]

/-- The buffers' pieces, grouped. -/
theorem te_buf_join (c : Dev nD) :
    iprop(te_pay21 m c ∗ te_pay22 m c ∗ te_pay23 m c ∗ pts c main_v1 (oCh c (qF (yb c)) 3) fullShare (target m c) ∗ te_payF m c) ⊢ (iprop((pts c main_arg0 (xCh (qF c) 0) fullShare.left (xin m c) ∗ pts c main_arg0 (xCh (qF c) 1) fullShare.left (xin m c) ∗ pts c main_arg0 (xCh (qF c) 2) fullShare.left (xin m c) ∗ pts c main_arg0 (xCh (qF c) 3) fullShare.left (xin m c))
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c) ∗ pts c main_v1 (oOwn c 6) fullShare (target m c) ∗ pts c main_v1 (oOwn c 7) fullShare (target m c))
    ∗ ((pts c main_v1 (oCh c (qF c) 0) fullShare.left (target m c) ∗ pts c main_v1 (oCh c (qF c) 0) fullShare.right (target m c)) ∗ (pts c main_v1 (oCh c (qF c) 1) fullShare.left (target m c) ∗ pts c main_v1 (oCh c (qF c) 1) fullShare.right (target m c)) ∗ (pts c main_v1 (oCh c (qF c) 2) fullShare.left (target m c) ∗ pts c main_v1 (oCh c (qF c) 2) fullShare.right (target m c)) ∗ (pts c main_v1 (oCh c (qF c) 3) fullShare.left (target m c) ∗ pts c main_v1 (oCh c (qF c) 3) fullShare.right (target m c)))
    ∗ (pts c main_v1 (oCh c (qF (yb c)) 0) fullShare (target m c) ∗ pts c main_v1 (oCh c (qF (yb c)) 1) fullShare (target m c) ∗ pts c main_v1 (oCh c (qF (yb c)) 2) fullShare (target m c) ∗ pts c main_v1 (oCh c (qF (yb c)) 3) fullShare (target m c))
    ∗ (pts c main_v1 (oCh c (qF (zb c)) 0) fullShare (target m c) ∗ pts c main_v1 (oCh c (qF (zb c)) 1) fullShare (target m c) ∗ pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ (pts c main_v1 (oCh c (qF (yb (zb c))) 2) fullShare (target m c) ∗ pts c main_v1 (oCh c (qF (yb (zb c))) 3) fullShare (target m c))
    ∗ (pts c cc0_scratch0 (vSl 0) fullShare (vfill m c 4) ∗ pts c cc0_scratch0 (vSl 1) fullShare (vfill m c 5) ∗ pts c cc0_scratch0 (vSl 2) fullShare (vfill m c 6) ∗ pts c cc0_scratch0 (vSl 3) fullShare (vfill m c 7))) : sProp 𝕄) := by
  unfold te_pay21 te_pay22 te_pay23 te_payF
  iintro ⟨⟨Hd3, Hown6, Hv2, Hown7, Hv3, Hx0, Hx1, Hx2⟩, ⟨Hx3, HqL0, HqR0, HqL1, HqR1, HqL2⟩, ⟨HqR2, HqL3, HqR3, Hz0, Hz1, Hy2⟩, Hy3, Hxr, ⟨Hxl0, Hxl1, Hxl2, Hxl3, Hxl4, Hxl5, Hxl6, Hxl7⟩, ⟨Hown0, Hown1, Hown2, Hown3, Hown4, Hown5⟩, ⟨Hy0, Hy1⟩, ⟨Hz2, Hz3⟩, ⟨He0, He1⟩, Hd2, Hv0, Hv1⟩
  isplitl [Hx0 Hx1 Hx2 Hx3]
  · hand [Hx0, Hx1, Hx2, Hx3]
  isplitl [Hxr]
  · iexact Hxr
  isplitl [Hxl0 Hxl1 Hxl2 Hxl3 Hxl4 Hxl5 Hxl6 Hxl7]
  · hand [Hxl0, Hxl1, Hxl2, Hxl3, Hxl4, Hxl5, Hxl6, Hxl7]
  isplitl [Hown0 Hown1 Hown2 Hown3 Hown4 Hown5 Hown6 Hown7]
  · hand [Hown0, Hown1, Hown2, Hown3, Hown4, Hown5, Hown6, Hown7]
  isplitl [HqL0 HqR0 HqL1 HqR1 HqL2 HqR2 HqL3 HqR3]
  · isplitl [HqL0 HqR0]
    · hand [HqL0, HqR0]
    isplitl [HqL1 HqR1]
    · hand [HqL1, HqR1]
    isplitl [HqL2 HqR2]
    · hand [HqL2, HqR2]
    hand [HqL3, HqR3]
  isplitl [Hy0 Hy1 Hy2 Hy3]
  · hand [Hy0, Hy1, Hy2, Hy3]
  isplitl [Hz0 Hz1 Hz2 Hz3]
  · hand [Hz0, Hz1, Hz2, Hz3]
  isplitl [He0 He1]
  · hand [He0, He1]
  isplitl [Hd2 Hd3]
  · hand [Hd2, Hd3]
  hand [Hv0, Hv1, Hv2, Hv3]

/-- From what the last three parts and the last wait hand back, and the rest, to the body's end. -/
theorem tail_exit (K : Dev nD × Fin 41 → ℕ) (c : Dev nD) (W : Waits sig Unit) :
    iprop(records m K ∗ ow c 19 W ∗ Q21 m c ∗ Q22 m c ∗ Q23 m c ∗ Q37 m c ∗ frameT m c)
      ⊢ (iprop(|={Set.univ}=> (Φ₁ m c ∗ (dats m 0 c).owesAt () t₀.succ)) : sProp 𝕄) := by
  iintro ⟨#HR, HO, H21, H22, H23, H37, HF⟩
  ihave HO := (Entails.of_eq (ow_19 c W)) $$ HO
  ihave H21 := (te_q21_open m c) $$ H21
  icases H21 with ⟨P21, B21⟩
  ihave H22 := (te_q22_open m c) $$ H22
  icases H22 with ⟨P22, B22⟩
  ihave H23 := (te_q23_open m c) $$ H23
  icases H23 with ⟨P23, B23⟩
  ihave H37 := (te_q37_open m c) $$ H37
  icases H37 with ⟨P37, B37⟩
  ihave HF := (te_frame_open m c) $$ HF
  icases HF with ⟨PF, BF⟩
  iapply (body_exit m K c W)
  isplitr
  · iexact HR
  isplitl [HO]
  · iexact HO
  isplitl [P21 P22 P23 P37 PF]
  · iapply (Entails.of_eq (te_posA_eq c))
    iapply (te_pos_join c)
    hand [P21, P22, P23, P37, PF]
  iapply (te_buf_join m c)
  hand [B21, B22, B23, B37, BF]

end Cert.Kernel.AG

end

/-- info: 'Cert.Kernel.AG.tail_exit' depends on axioms: [propext, Classical.choice, Quot.sound] -/
#guard_msgs in #print axioms Cert.Kernel.AG.tail_exit
-- ==== Proof.KernelAG.Tail.lean ====
/-
  The end of the body: its last three parts — the last diagonal landing, the last two stores' waits and every copy's
  departure — the wait for the last copy's departure, and the exit, from what the device holds before them. The work
  is done over bundles (the run, the regrouping before it and the exit after it are lemmas of their own); here they are
  put together, and the two small tactics the body's composition uses are defined.
-/
import proofs.«900686_g7700000000000687_dist_ag_v7x_xyz2x4x4_x_m16384_n1024_f32_1_alg».proof.Proof.KernelAG.TailDefs
import proofs.«900686_g7700000000000687_dist_ag_v7x_xyz2x4x4_x_m16384_n1024_f32_1_alg».proof.Proof.KernelAG.TailBundle
import proofs.«900686_g7700000000000687_dist_ag_v7x_xyz2x4x4_x_m16384_n1024_f32_1_alg».proof.Proof.KernelAG.TailRun
import proofs.«900686_g7700000000000687_dist_ag_v7x_xyz2x4x4_x_m16384_n1024_f32_1_alg».proof.Proof.KernelAG.TailExit

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 41 → ℕ)

set_option hygiene false in
/-- One part of the body: it is bound to the rest of the program; its specification is applied, and takes the shared
    records `HR` and the levels `Hlev`. What is left to give is what the part consumes, then what it hands back. -/
macro "part " t:pmTerm : tactic =>
  `(tactic| (rw [wp_bind]; iapply $t; (isplitr; (· iexact HR)); (isplitr; (· iexact Hlev))))

/-- Give the named hypotheses, in order, as the next conjunct of the goal. -/
syntax "give " "[" ident,+ "]" : tactic
macro_rules
  | `(tactic| give [$hs:ident,*]) => do
    let xs := hs.getElems
    `(tactic| (isplitl [$xs*]; (· hand [$hs,*])))

set_option maxHeartbeats 4000000 in
set_option maxRecDepth 65536 in
/-- From what the device holds after its twentieth part to the body's post. -/
theorem tail_spec (c : Dev nD) (W20 : Waits sig Unit) (Kt : PUnit → sProp 𝕄) :
    iprop(records m K ∗ levAts L lv
        ∗ (ow c 19 W20
          ∗ (crd c 39 N ∗ crd c 6 NS ∗ crd c 7 NS ∗ crd c 8 N ∗ crd c 9 N ∗ crd c 10 N ∗ crd c 11 N ∗ crd c 16 N ∗ crd c 24 N ∗ crd c 17 N
              ∗ crd c 25 N ∗ crd c 18 N ∗ crd c 26 N ∗ crd c 19 N ∗ crd c 27 N ∗ crd c 32 N ∗ crd c 33 N ∗ crd c 36 N ∗ crd c 37 N)
          ∗ (pos c 0 2 ∗ pos c 1 2 ∗ pos c 2 2 ∗ pos c 3 2 ∗ pos c 4 2 ∗ pos c 5 2 ∗ pos c 6 1 ∗ pos c 7 1 ∗ pos c 8 0 ∗ pos c 9 0
              ∗ pos c 10 0 ∗ pos c 11 0 ∗ pos c 12 1 ∗ pos c 13 1 ∗ pos c 14 1 ∗ pos c 15 1 ∗ pos c 16 0 ∗ pos c 17 0 ∗ pos c 18 0 ∗ pos c 19 0
              ∗ pos c 20 1 ∗ pos c 21 1 ∗ pos c 22 1 ∗ pos c 23 1 ∗ pos c 24 0 ∗ pos c 25 0 ∗ pos c 26 0 ∗ pos c 27 0 ∗ pos c 28 1 ∗ pos c 29 1
              ∗ pos c 30 1 ∗ pos c 31 1 ∗ pos c 32 0 ∗ pos c 33 0 ∗ pos c 34 1 ∗ pos c 35 1 ∗ pos c 36 0 ∗ pos c 37 0 ∗ pos c 38 1 ∗ pos c 39 0)
          ∗ xRest c (xin m c)
          ∗ (pts c main_arg0 (xLd 0) fullShare.right (xin m c) ∗ pts c main_arg0 (xLd 1) fullShare.right (xin m c)
              ∗ pts c main_arg0 (xLd 2) fullShare.right (xin m c) ∗ pts c main_arg0 (xLd 3) fullShare.right (xin m c)
              ∗ pts c main_arg0 (xLd 4) fullShare.right (xin m c) ∗ pts c main_arg0 (xLd 5) fullShare.right (xin m c)
              ∗ pts c main_arg0 (xLd 6) fullShare.right (xin m c) ∗ pts c main_arg0 (xLd 7) fullShare.right (xin m c))
          ∗ (pts c main_v1 (oOwn c 0) fullShare (target m c) ∗ pts c main_v1 (oOwn c 1) fullShare (target m c)
              ∗ pts c main_v1 (oOwn c 2) fullShare (target m c) ∗ pts c main_v1 (oOwn c 3) fullShare (target m c)
              ∗ pts c main_v1 (oOwn c 4) fullShare (target m c) ∗ pts c main_v1 (oOwn c 5) fullShare (target m c))
          ∗ (pts c main_v1 (oCh c (qF (yb c)) 0) fullShare (target m c) ∗ pts c main_v1 (oCh c (qF (yb c)) 1) fullShare (target m c))
          ∗ (pts c main_v1 (oCh c (qF (zb c)) 2) fullShare (target m c) ∗ pts c main_v1 (oCh c (qF (zb c)) 3) fullShare (target m c))
          ∗ (pts c main_v1 (oCh c (qF (zb (yb c))) 0) fullShare (target m c) ∗ pts c main_v1 (oCh c (qF (zb (yb c))) 1) fullShare (target m c))
          ∗ pts c main_v1 (oCh c (qF (yb (zb c))) 2) fullShare (target m c)
          ∗ (pts c cc0_scratch0 (vSl 0) fullShare (vfill m c 4) ∗ pts c cc0_scratch0 (vSl 1) fullShare (vfill m c 5)))
        ∗ (iprop(Φ₁ m c ∗ (dats m 0 c).owesAt () t₀.succ) -∗ Kt ⟨⟩))
      ⊢ wp frame (wpE (defs₀ (F := F)) 𝒱₀ (c : Thread nD τ) none) Set.univ (tail21 (F := F) c) Kt := by
  have hb := tail_bundle m c W20
  unfold tailPre at hb
  iintro ⟨#HR, #Hlev, PRE, Hk⟩
  ihave B := hb $$ PRE
  icases B with ⟨RUN, FR⟩
  iapply (tail_run_spec m K c W20 Kt)
  isplitr; · iexact HR
  isplitr; · iexact Hlev
  isplitl [RUN]; · iexact RUN
  iintro ⟨%W', HO, Q1, Q2, Q3, Q4⟩
  imod (tail_exit m K c W') $$ [HO Q1 Q2 Q3 Q4 FR] with Hpost
  · isplitr; · iexact HR
    hand [HO, Q1, Q2, Q3, Q4, FR]
  imodintro
  iapply Hk
  iexact Hpost

end Cert.Kernel.AG

end
-- ==== Proof.KernelAG.Body.lean ====
/-
  One device's body, run from what the launch hands it to what it must end with.

  The body is twenty-three parts in sequence and one last wait. The first part only reads the device's number. Each of
  the others has a specification: what it takes of what the device holds — what it still owes, its places at its cells,
  tokens, credit, rows of its three buffers — and what it hands back. Here the specifications are composed: the
  launch's resources are cut into the pieces the parts name (the argument into the quarter sent across x and the eight
  chunks loaded, the result into its twenty-six chunks, the staging buffer into its slots), the barrier's three
  payments are made of the rows the neighbours will copy into, and the parts run in order; after the twentieth, the
  end of the program and the exit are one step. The pipeline's body obligation follows.
-/
import proofs.«900686_g7700000000000687_dist_ag_v7x_xyz2x4x4_x_m16384_n1024_f32_1_alg».proof.Proof.KernelAG.Steps
import proofs.«900686_g7700000000000687_dist_ag_v7x_xyz2x4x4_x_m16384_n1024_f32_1_alg».proof.Proof.KernelAG.Sems
import proofs.«900686_g7700000000000687_dist_ag_v7x_xyz2x4x4_x_m16384_n1024_f32_1_alg».proof.Proof.KernelAG.Topo
import proofs.«900686_g7700000000000687_dist_ag_v7x_xyz2x4x4_x_m16384_n1024_f32_1_alg».proof.Proof.KernelAG.Geom
import proofs.«900686_g7700000000000687_dist_ag_v7x_xyz2x4x4_x_m16384_n1024_f32_1_alg».proof.Proof.KernelAG.Levels
import proofs.«900686_g7700000000000687_dist_ag_v7x_xyz2x4x4_x_m16384_n1024_f32_1_alg».proof.Proof.KernelAG.Close
import proofs.«900686_g7700000000000687_dist_ag_v7x_xyz2x4x4_x_m16384_n1024_f32_1_alg».proof.Proof.KernelAG.Exit
import proofs.«900686_g7700000000000687_dist_ag_v7x_xyz2x4x4_x_m16384_n1024_f32_1_alg».proof.Proof.KernelAG.PartDefs
import proofs.«900686_g7700000000000687_dist_ag_v7x_xyz2x4x4_x_m16384_n1024_f32_1_alg».proof.Proof.KernelAG.PartsA
import proofs.«900686_g7700000000000687_dist_ag_v7x_xyz2x4x4_x_m16384_n1024_f32_1_alg».proof.Proof.KernelAG.PartsB
import proofs.«900686_g7700000000000687_dist_ag_v7x_xyz2x4x4_x_m16384_n1024_f32_1_alg».proof.Proof.KernelAG.PartsC
import proofs.«900686_g7700000000000687_dist_ag_v7x_xyz2x4x4_x_m16384_n1024_f32_1_alg».proof.Proof.KernelAG.PartsD
import proofs.«900686_g7700000000000687_dist_ag_v7x_xyz2x4x4_x_m16384_n1024_f32_1_alg».proof.Proof.KernelAG.PartsE
import proofs.«900686_g7700000000000687_dist_ag_v7x_xyz2x4x4_x_m16384_n1024_f32_1_alg».proof.Proof.KernelAG.PartsE2
import proofs.«900686_g7700000000000687_dist_ag_v7x_xyz2x4x4_x_m16384_n1024_f32_1_alg».proof.Proof.KernelAG.PartsF
import proofs.«900686_g7700000000000687_dist_ag_v7x_xyz2x4x4_x_m16384_n1024_f32_1_alg».proof.Proof.KernelAG.Tail
import proofs.«900686_g7700000000000687_dist_ag_v7x_xyz2x4x4_x_m16384_n1024_f32_1_alg».proof.Proof.Gen.Kernel.Skeleton

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device hands its neighbours at the barrier -/

/-- The rows device `c` hands the partner: the four chunks of its own quarter of the other half. -/
theorem give_px (c : Dev nD) (f0 f1 f2 f3 : Buf (Elt F) ((c : Thread nD τ).loc main_v1)) :
    iprop(pts c main_v1 (oCh c (qF c) 0) fullShare f0 ∗ pts c main_v1 (oCh c (qF c) 1) fullShare f1
        ∗ pts c main_v1 (oCh c (qF c) 2) fullShare f2 ∗ pts c main_v1 (oCh c (qF c) 3) fullShare f3)
      ⊢ (barPay (px c) 0 : sProp 𝕄) := by
  unfold barPay give
  rw [px_px c]
  simp only [recvRect_12, recvRect_13, recvRect_14, recvRect_15]
  iintro ⟨H0, H1, H2, H3⟩
  isplitl [H0]; · iexists f0; iexact H0
  isplitl [H1]; · iexists f1; iexact H1
  isplitl [H2]; · iexists f2; iexact H2
  iexists f3; iexact H3

/-- To the y buddy: the four chunks of the y buddy's quarter and the first two of the diagonal one. -/
theorem give_yb (c : Dev nD) (f0 f1 f2 f3 f4 f5 : Buf (Elt F) ((c : Thread nD τ).loc main_v1)) :
    iprop(pts c main_v1 (oCh c (qF (yb c)) 0) fullShare f0 ∗ pts c main_v1 (oCh c (qF (yb c)) 1) fullShare f1
        ∗ pts c main_v1 (oCh c (qF (yb c)) 2) fullShare f2 ∗ pts c main_v1 (oCh c (qF (yb c)) 3) fullShare f3
        ∗ pts c main_v1 (oCh c (qF (zb (yb c))) 0) fullShare f4 ∗ pts c main_v1 (oCh c (qF (zb (yb c))) 1) fullShare f5)
      ⊢ (barPay (yb c) 1 : sProp 𝕄) := by
  unfold barPay give
  rw [yb_yb c]
  simp only [recvRect_20, recvRect_21, recvRect_22, recvRect_23, recvRect_34, recvRect_35]
  iintro ⟨H0, H1, H2, H3, H4, H5⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- To the z buddy: the four chunks of the z buddy's quarter and the last two of the diagonal one. -/
theorem give_zb (c : Dev nD) (f0 f1 f2 f3 f4 f5 : Buf (Elt F) ((c : Thread nD τ).loc main_v1)) :
    iprop(pts c main_v1 (oCh c (qF (zb c)) 0) fullShare f0 ∗ pts c main_v1 (oCh c (qF (zb c)) 1) fullShare f1
        ∗ pts c main_v1 (oCh c (qF (zb c)) 2) fullShare f2 ∗ pts c main_v1 (oCh c (qF (zb c)) 3) fullShare f3
        ∗ pts c main_v1 (oCh c (qF (yb (zb c))) 2) fullShare f4 ∗ pts c main_v1 (oCh c (qF (yb (zb c))) 3) fullShare f5)
      ⊢ (barPay (zb c) 2 : sProp 𝕄) := by
  unfold barPay give
  rw [zb_zb c]
  simp only [recvRect_28, recvRect_29, recvRect_30, recvRect_31, recvRect_38, recvRect_39]
  iintro ⟨H0, H1, H2, H3, H4, H5⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-! ## What the waits of the loads and stores hand back, by its pieces -/

/-- The wait of load `j`: its slot holding chunk `j`, and the share of the chunk's rows of the argument the load read. -/
theorem ldPay_split (c : Dev nD) (j : ℕ) (s : Fin 4) (x : Fin 8) (hs : s.val = j % 4) (hx : x.val = j % 8) :
    (ldPay m c j : sProp 𝕄)
      ⊢ iprop(pts c cc0_scratch0 (vSl s) fullShare (vfill m c j) ∗ pts c main_arg0 (xLd x) fullShare.right (xin m c)) := by
  obtain rfl : s = ⟨j % 4, Nat.mod_lt _ (by decide)⟩ := Fin.ext hs
  obtain rfl : x = ⟨j % 8, Nat.mod_lt _ (by decide)⟩ := Fin.ext hx
  exact Entails.of_eq rfl

/-- The wait of store `j`: chunk `j` of the device's own half of the result, written, and the slot the store read. -/
theorem stPay_split (c : Dev nD) (j : ℕ) (o : Fin 8) (s : Fin 4) (ho : o.val = j % 8) (hs : s.val = j % 4) :
    (stPay m c j : sProp 𝕄)
      ⊢ iprop(pts c main_v1 (oOwn c o) fullShare (target m c) ∗ pts c cc0_scratch0 (vSl s) fullShare (vfill m c j)) := by
  obtain rfl : o = ⟨j % 8, Nat.mod_lt _ (by decide)⟩ := Fin.ext ho
  obtain rfl : s = ⟨j % 4, Nat.mod_lt _ (by decide)⟩ := Fin.ext hs
  exact Entails.of_eq rfl

/-! ## The body -/

section Body

variable (K : Dev nD × Fin 41 → ℕ)

omit [FloatOps F] in
theorem fin_N (t : Fin cfg0.N) : t = t₀ := by
  obtain ⟨t, ht⟩ := t; have := cfg0_N; exact Fin.ext (by simp only [t₀]; omega)

/-- What device `c` holds when its body starts, and what it then owes. -/
def bodyPre (c : Dev nD) : sProp 𝕄 :=
  iprop((ghost m K c ∗ creds c ∗ levAts L lv ∗ whole c main_arg0 (xin m c) ∗ (∃ f, whole c main_v1 f) ∗ ∃ f, whole c cc0_scratch0 f)
    ∗ (dats m 0 c).owesAt () t₀.castSucc)

/-- What it holds when its body ends, owing nothing. -/
def bodyPost (c : Dev nD) : sProp 𝕄 := iprop(Φ₁ m c ∗ (dats m 0 c).owesAt () t₀.succ)

omit [FloatOps F] in
theorem finRange40 : List.finRange 40 = [0, 1, 2, 3, 4, 5, 6, 7, 8, 9, 10, 11, 12, 13, 14, 15, 16, 17, 18, 19, 20, 21, 22, 23, 24, 25, 26, 27, 28, 29, 30, 31,
    32, 33, 34, 35, 36, 37, 38, 39] := by decide

set_option maxHeartbeats 8000000 in
set_option maxRecDepth 65536 in
/-- The body, run from what the launch hands device `c`: its parts in sequence, each taking from what the device then
    holds what its specification names and handing back what it says; after the twentieth, the end of the program and the
    exit are one step (`tail_spec`). -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ (cc0_body M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  -- the program: the first part only reads the device's number; the others stay folded
  simp only [cc0_body_eq_skeleton]; unfold cc0_body_skel
  rw [wp_bind]; unfold k0_part1
  simp only [Prog.lift, Prog.bind_op, Prog.bind_ret, Prog.pure_eq_ret, wp_deviceId, wp_ret]
  -- what the device starts from, piece by piece
  unfold bodyPre bodyPost ghost positions payToks creds
  rw [finRange40]
  simp only [List.map, sepL]
  iintro ⟨⟨⟨⟨#HR, ⟨HatB, Hat0, Hat1, Hat2, Hat3, Hat4, Hat5, Hat6, Hat7, Hat8, Hat9, Hat10, Hat11, Hat12, Hat13, Hat14, Hat15, Hat16, Hat17, Hat18, Hat19,
        Hat20, Hat21, Hat22, Hat23, Hat24, Hat25, Hat26, Hat27, Hat28, Hat29, Hat30, Hat31, Hat32, Hat33, Hat34, Hat35, Hat36, Hat37, Hat38, Hat39⟩,
      ⟨HtBP, HtBY, HtBZ⟩, ⟨HtP12, HtP13, HtP14, HtP15⟩, ⟨HtY20, HtY21, HtY22, HtY23, HtY34, HtY35⟩,
      ⟨HtZ28, HtZ29, HtZ30, HtZ31, HtZ38, HtZ39⟩,
      ⟨HtS8, HtS9, HtS10, HtS11, HtS16, HtS17, HtS18, HtS19, HtS24, HtS25, HtS26, HtS27, HtS32, HtS33, HtS36, HtS37⟩,
      ⟨HtL0a, HtL0b⟩, ⟨HtL1a, HtL1b⟩, ⟨HtL2a, HtL2b⟩, ⟨HtL3a, HtL3b⟩, ⟨HtL4a, HtL4b⟩, ⟨HtL5a, HtL5b⟩, ⟨HtL6a, HtL6b⟩, ⟨HtL7a, HtL7b⟩⟩,
    ⟨HcB, Hc12, Hc13, Hc14, Hc15, Hc20, Hc21, Hc22, Hc23, Hc28, Hc29, Hc30, Hc31, Hc34, Hc35, Hc38, Hc39⟩, #Hlev, Hx, ⟨%fo, Ho⟩, ⟨%fv, Hv⟩⟩,
    Hoa⟩, Hk⟩
  unfold Dat.owesAt Pipeline.owesWithin
  icases Hoa with ⟨%W, %hW, HO⟩
  rw [show (dats m 0 c).owed t₀.castSucc = O₀ c from rfl]
  ihave Hx := (x_split c (xin m c)).1 $$ Hx
  icases Hx with ⟨⟨HxS0, HxS1, HxS2, HxS3⟩, HxR, HxL0, HxL1, HxL2, HxL3, HxL4, HxL5, HxL6, HxL7⟩
  ihave Ho := (out_split c fo).1 $$ Ho
  icases Ho with ⟨⟨HoO0, HoO1, HoO2, HoO3, HoO4, HoO5, HoO6, HoO7⟩, ⟨HoA0, HoA1, HoA2, HoA3⟩, ⟨HoB0, HoB1, HoB2, HoB3⟩,
    ⟨HoC0, HoC1, HoC2, HoC3⟩, ⟨HoD0, HoD1⟩, HoD2, HoD3⟩
  ihave Hv := (vbuf_split c fv).1 $$ Hv
  icases Hv with ⟨Hv0, Hv1, Hv2, Hv3⟩
  -- what it hands each neighbour at the barrier: the rows of its result that neighbour will copy into
  ihave HbP := (give_px c fo fo fo fo) $$ [HoA0 HoA1 HoA2 HoA3]
  · hand [HoA0, HoA1, HoA2, HoA3]
  ihave HbY := (give_yb c fo fo fo fo fo fo) $$ [HoB0 HoB1 HoB2 HoB3 HoD0 HoD1]
  · hand [HoB0, HoB1, HoB2, HoB3, HoD0, HoD1]
  ihave HbZ := (give_zb c fo fo fo fo fo fo) $$ [HoC0 HoC1 HoC2 HoC3 HoD2 HoD3]
  · hand [HoC0, HoC1, HoC2, HoC3, HoD2, HoD3]
  imodintro
  -- part 2: the signals to the partner's and the y buddy's barrier cells, each with the rows it will copy into
  part (part2_spec m K c _ _ _ _ _ _ _ W _)
  give [HO, HtBP, HbP, HtBY, HbY]
  iintro %r ⟨%hr, HO⟩
  obtain ⟨v37, v41, v45, v50, v51, v65, v66⟩ := r
  dsimp only at hr
  subst hr
  -- part 3: the signal to the z buddy's, the wait for three, and the first two chunks of the own quarter copied to the partner
  part (part3_spec m K c _ _ _ _ _ _ _ _ W _)
  give [HO, HtBZ, HbZ, HcB, HatB, HxS0, HxS1, HtS8, HtS9, HtP12, HtP13]
  iintro ⟨%W3, HO, HatB, Hc8, Hc9, Hg14, Hg15, HbY, HbZ⟩
  ihave HbY := (Entails.of_eq (barPay_1 (F := F) c)) $$ HbY
  icases HbY with ⟨Hg20, Hg21, Hg22, Hg23, Hg34, Hg35⟩
  ihave HbZ := (Entails.of_eq (barPay_2 (F := F) c)) $$ HbZ
  icases HbZ with ⟨Hg28, Hg29, Hg30, Hg31, Hg38, Hg39⟩
  -- part 4: the other two chunks copied to the partner; the first load issued
  part (part4_spec m K c _ _ _ _ _ W3 fv _)
  give [HO, HxS2, HxS3, Hg14, Hg15, HtS10, HtS11, HtP14, HtP15, HxL0, Hv0, HtL0a]
  iintro ⟨%W4, HO, Hc10, Hc11, Hc0⟩
  -- part 5: the second load issued; the first chunk lands from the partner and is passed on to the y buddy
  part (part5_spec m K c _ _ _ _ _ _ _ W4 fv _)
  give [HO, HxL1, Hv1, HtL1a, Hc12, Hat12, Hg20, HtS16, HtY20]
  iintro %r ⟨%W5, HO, Hc1, Hat12, Hc16, HqR0⟩
  -- part 6: the same chunk passed on to the z buddy; the first load waited, its store and the third load issued
  part (part6_spec m K c _ _ _ _ _ _ _ W5 fo fv _)
  give [HO, HqR0, Hg28, HtS24, HtZ28, Hc0, Hat0, HoO0, HtL4a, HxL2, Hv2, HtL2a]
  iintro %r ⟨%W6, HO, Hc24, Hat0, Hr0, HxL0, Hc4, Hc2⟩
  -- part 7: the second chunk lands and is passed on to both buddies
  part (part7_spec m K c _ _ _ _ _ _ _ W6 _)
  give [HO, Hc13, Hat13, Hg21, Hg29, HtS17, HtY21, HtS25, HtZ29]
  iintro ⟨%W7, HO, Hat13, Hc17, Hc25⟩
  -- part 8: the second load waited, its store and the fourth load issued; the third chunk lands
  part (part8_spec m K c _ _ _ _ _ _ _ W7 fo fv _)
  give [HO, Hc1, Hat1, HoO1, HtL5a, HxL3, Hv3, HtL3a, Hc14, Hat14]
  iintro %r ⟨%W8, HO, Hat1, Hr1, HxL1, Hc5, Hc3, Hat14, Hq2⟩
  -- part 9: the third chunk passed on to both buddies; the third load and the first store waited
  part (part9_spec m K c _ _ _ _ _ _ _ W8 _)
  give [HO, Hq2, Hg22, Hg30, HtS18, HtY22, HtS26, HtZ30, Hc2, Hat2, Hc4, Hat4]
  iintro ⟨%W9, HO, Hc18, Hc26, Hat2, Hr2, Hld2, Hat4, Hr4, Hst0⟩
  ihave Hld2 := (ldPay_split m c 2 2 2 rfl rfl) $$ Hld2
  icases Hld2 with ⟨Hvf2, HxL2⟩
  ihave Hst0 := (stPay_split m c 0 0 0 rfl rfl) $$ Hst0
  icases Hst0 with ⟨HoT0, Hvf0⟩
  -- part 10: the third store and the fifth load issued; the fourth chunk lands
  part (part10_spec m K c _ _ _ _ _ _ _ _ W9 fo _)
  give [HO, Hvf2, HoO2, HtL6a, HxL4, Hvf0, HtL0b, Hr0, Hc15, Hat15]
  iintro ⟨%W10, HO, Hc6, Hc0, Hat15, Hq3⟩
  -- part 11: the fourth chunk passed on to both buddies; the fourth load and the second store waited
  part (part11_spec m K c _ _ _ _ W10 _)
  give [HO, Hq3, Hg23, Hg31, HtS19, HtY23, HtS27, HtZ31, Hc3, Hat3, Hc5, Hat5]
  iintro ⟨%W11, HO, Hc19, Hc27, Hat3, Hr3, Hld3, Hat5, Hr5, Hst1⟩
  ihave Hld3 := (ldPay_split m c 3 3 3 rfl rfl) $$ Hld3
  icases Hld3 with ⟨Hvf3, HxL3⟩
  ihave Hst1 := (stPay_split m c 1 1 1 rfl rfl) $$ Hst1
  icases Hst1 with ⟨HoT1, Hvf1⟩
  -- part 12: the fourth store and the sixth load issued; the first chunk of the z buddy's quarter lands
  part (part12_spec m K c _ _ _ _ _ _ _ W11 fo _)
  give [HO, Hvf3, HoO3, HtL7a, HxL5, Hvf1, HtL1b, Hr1, Hc28, Hat28]
  iintro ⟨%W12, HO, Hc7, Hc1, Hat28, Hz0⟩
  -- part 13: that chunk passed on to the y buddy's diagonal cell; the fifth load and the third store waited, the fifth store and the seventh load issued
  part (part13_spec m K c _ _ _ _ W12 fo _)
  give [HO, Hz0, Hg34, HtS32, HtY34, Hc0, Hat0, Hc6, Hat6, HoO4, HtL4b, Hr4, HxL6, HtL2b, Hr2]
  iintro %r ⟨%W13, HO, Hc32, Hat0, HxL4, Hat6, Hr6, HoT2, Hc4, Hc2⟩
  -- part 14: the second chunk of the z buddy's quarter lands and is passed on; the sixth load and the fourth store waited
  part (part14_spec m K c _ _ _ _ _ _ _ _ W13 _)
  give [HO, Hc29, Hat29, Hg35, HtS33, HtY35, Hc1, Hat1, Hc7, Hat7]
  iintro ⟨%W14, HO, Hat29, Hc33, Hat1, Hld5, Hat7, Hr7, Hst3⟩
  ihave Hld5 := (ldPay_split m c 5 1 5 rfl rfl) $$ Hld5
  icases Hld5 with ⟨Hvf1, HxL5⟩
  ihave Hst3 := (stPay_split m c 3 3 3 rfl rfl) $$ Hst3
  icases Hst3 with ⟨HoT3, Hvf3⟩
  -- part 15: the sixth store and the eighth load issued; the third chunk of the y buddy's quarter lands
  part (part15_spec m K c _ _ _ _ _ _ _ W14 fo _)
  give [HO, Hvf1, HoO5, HtL5b, Hr5, HxL7, Hvf3, HtL3b, Hr3, Hc22, Hat22]
  iintro ⟨%W15, HO, Hc5, Hc3, Hat22, Hy2⟩
  -- part 16: that chunk passed on to the z buddy's diagonal cell; the seventh load and the fifth store waited, the seventh store issued
  part (part16_spec m K c _ _ _ _ _ _ W15 fo _)
  give [HO, Hy2, Hg38, HtS36, HtZ38, Hc2, Hat2, Hc4, Hat4, HoO6, HtL6b, Hr6]
  iintro ⟨%W16, HO, Hc36, Hat2, HxL6, Hat4, HoT4, Hvf0, Hc6⟩
  -- part 17: the fourth chunk of the y buddy's quarter lands and is passed on; the eighth load and the sixth store waited
  part (part17_spec m K c _ _ _ _ W16 _)
  give [HO, Hc23, Hat23, Hg39, HtS37, HtZ39, Hc3, Hat3, Hc5, Hat5]
  iintro ⟨%W17, HO, Hat23, Hc37, Hat3, Hld7, Hat5, Hst5⟩
  ihave Hld7 := (ldPay_split m c 7 3 7 rfl rfl) $$ Hld7
  icases Hld7 with ⟨Hvf3, HxL7⟩
  ihave Hst5 := (stPay_split m c 5 5 1 rfl rfl) $$ Hst5
  icases Hst5 with ⟨HoT5, Hvf1⟩
  -- part 18: the eighth store issued; the first two chunks of the y buddy's quarter land
  part (part18_spec m K c _ _ _ _ _ _ _ W17 fo _)
  give [HO, Hvf3, HoO7, HtL7b, Hr7, Hc20, Hat20, Hc21, Hat21]
  iintro %r ⟨%W18, HO, Hc7, Hat20, Hy0, Hat21, Hy1⟩
  -- part 19: the last two chunks of the z buddy's quarter and the first diagonal chunk land
  part (part19_spec m K c _ _ _ _ _ _ _ _ _ W18 _)
  give [HO, Hc30, Hat30, Hc31, Hat31, Hc34, Hat34]
  iintro ⟨%W19, HO, Hat30, Hz2, Hat31, Hz3, Hat34, Hd0⟩
  -- part 20: the second and third diagonal chunks land
  part (part20_spec m K c _ _ _ _ _ _ _ W19 _)
  give [HO, Hc35, Hat35, Hc38, Hat38]
  iintro ⟨%W20, HO, Hat35, Hd1, Hat38, Hd2⟩
  -- the end of the program — its last three parts and the last wait — and the exit, from all the device now holds
  iapply (tail_spec m K c W20 Kt)
  isplitr; · iexact HR
  isplitr; · iexact Hlev
  isplitl [HO Hc39 Hc6 Hc7 Hc8 Hc9 Hc10 Hc11 Hc16 Hc24 Hc17 Hc25 Hc18 Hc26 Hc19 Hc27 Hc32 Hc33 Hc36 Hc37
      Hat0 Hat1 Hat2 Hat3 Hat4 Hat5 Hat6 Hat7 Hat8 Hat9 Hat10 Hat11 Hat12 Hat13 Hat14 Hat15 Hat16 Hat17 Hat18 Hat19 Hat20
      Hat21 Hat22 Hat23 Hat24 Hat25 Hat26 Hat27 Hat28 Hat29 Hat30 Hat31 Hat32 Hat33 Hat34 Hat35 Hat36 Hat37 Hat38 Hat39
      HxR HxL0 HxL1 HxL2 HxL3 HxL4 HxL5 HxL6 HxL7 HoT0 HoT1 HoT2 HoT3 HoT4 HoT5 Hy0 Hy1 Hz2 Hz3 Hd0 Hd1 Hd2 Hvf0 Hvf1]
  · give [HO]
    give [Hc39, Hc6, Hc7, Hc8, Hc9, Hc10, Hc11, Hc16, Hc24, Hc17, Hc25, Hc18, Hc26, Hc19, Hc27, Hc32, Hc33, Hc36, Hc37]
    give [Hat0, Hat1, Hat2, Hat3, Hat4, Hat5, Hat6, Hat7, Hat8, Hat9, Hat10, Hat11, Hat12, Hat13, Hat14, Hat15, Hat16, Hat17,
      Hat18, Hat19, Hat20, Hat21, Hat22, Hat23, Hat24, Hat25, Hat26, Hat27, Hat28, Hat29, Hat30, Hat31, Hat32, Hat33, Hat34,
      Hat35, Hat36, Hat37, Hat38, Hat39]
    give [HxR]
    give [HxL0, HxL1, HxL2, HxL3, HxL4, HxL5, HxL6, HxL7]
    give [HoT0, HoT1, HoT2, HoT3, HoT4, HoT5]
    give [Hy0, Hy1]
    give [Hz2, Hz3]
    give [Hd0, Hd1]
    give [Hd2]
    hand [Hvf0, Hvf1]
  iexact Hk

/-- info: 'Cert.Kernel.AG.sound_body' depends on axioms: [propext, Classical.choice, Quot.sound] -/
#guard_msgs in #print axioms sound_body

/-! ## The body obligation -/

/-- The pipeline has no window: a join over its windows is empty. -/
theorem bigSep_noWin (Φ : Fin cfg0.W → sProp 𝕄) : bigSep Finset.univ Φ = iprop(emp) := by
  have h0 : (Finset.univ : Finset (Fin cfg0.W)) = ∅ := by decide
  rw [h0]; exact bigSep_empty

omit [FloatOps F] in
/-- The pipeline calls the body at the three whole buffers and the twelve semaphore arrays. -/
theorem body_prog (t : Fin cfg0.N) :
    (defs₀ (F := F)) .tc cfg0.body (cfg0.bodyArgs t (cfg0.slots t)) = cc0_body (F := F) M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 := by
  unfold defs₀
  rw [Defs.onTc_tc]

/-- The library's body obligation on device `c`: from the invariant before the one point and what the device owes
    there, the body runs to the invariant after it, owing nothing. -/
theorem body_obligation (c : Dev nD) : BodyObligation (dats (F := F) m 0 c) (defs₀ (F := F)) 𝒱₀ () Set.univ := fun t => by
  rw [fin_N t, bigSep_noWin, bigSep_noWin, body_prog]
  rw [show (dats m 0 c).Φ t₀.castSucc = Φ₀ m c from rfl, show (dats m 0 c).Φ t₀.succ = Φ₁ m c from rfl]
  unfold Φ₀ start
  iintro ⟨⟨⟨⟨%K, Hg⟩, Hc, #Hlev, Hx, Ho⟩, Hv⟩, Hoa, -⟩
  iapply (sound_body m K c _)
  unfold bodyPre bodyPost
  isplitl [Hg Hc Hx Ho Hv Hoa]
  · isplitl [Hg Hc Hx Ho Hv]
    · isplitl [Hg]; · iexact Hg
      isplitl [Hc]; · iexact Hc
      isplitr; · iexact Hlev
      hand [Hx, Ho, Hv]
    iexact Hoa
  · iintro ⟨H1, H2⟩
    isplitl [H1]; · iexact H1
    isplitl [H2]; · iexact H2
    iempintro

/-- info: 'Cert.Kernel.AG.body_obligation' depends on axioms: [propext, Classical.choice, Quot.sound] -/
#guard_msgs in #print axioms body_obligation

end Body

end Cert.Kernel.AG

end
-- ==== Proof.KernelIdealAG.Base.lean ====
/-
  The all-gather over the 2 × 4 × 4 mesh: the names everything else is stated over.

  A device is numbered 16·x + 4·y + z. Its argument is block x of the whole array (16384 rows); its result is the whole
  array (32768 rows): its own block at rows [16384·x, +16384), and the other block, which reaches it in four quarters of
  4096 rows. Within a group of four devices that share x and the upper bits of y and z, the device with low bits
  (a, b) of (y, z) fetches quarter 2a + b from its partner across x, and the four pass their quarters round the group.
-/
import proofs.«900686_g7700000000000687_dist_ag_v7x_xyz2x4x4_x_m16384_n1024_f32_1_alg».proof.Proof.Gen.KernelIdeal
import Idealize.ShloMosaic.Lib.ValueIdx

noncomputable section

namespace Cert.KernelIdeal.AG

open Cert.KernelIdeal Cert.KernelIdeal.Gen
open Idealize.ShloMosaic Idealize.ShloMosaic.TcCoe Idealize.SL.Sem

/-- The partner: the device at the other x coordinate. -/
def px (c : Dev nD) : Dev nD := ⟨(c.val + 16) % 32, Nat.mod_lt _ (by decide)⟩
/-- The y buddy: the low bit of y flipped. -/
def yb (c : Dev nD) : Dev nD := ⟨if (c.val / 4) % 2 = 0 then c.val + 4 else c.val - 4, by
  have hc : c.val < 32 := c.isLt; show _ < 32; split <;> omega⟩
/-- The z buddy: the low bit of z flipped. -/
def zb (c : Dev nD) : Dev nD := ⟨if c.val % 2 = 0 then c.val + 1 else c.val - 1, by
  have hc : c.val < 32 := c.isLt; show _ < 32; split <;> omega⟩

/-- The quarter a device fetches from its partner: 2a + b, (a, b) the low bits of its (y, z). -/
def qi (c : Dev nD) : ℕ := 2 * ((c.val / 4) % 2) + c.val % 2

/-- The device across x, in `c`'s group of four, whose quarter is `Q`: where quarter `Q` of `c`'s other half comes from. -/
def origin (c : Dev nD) (Q : ℕ) : Dev nD :=
  ⟨16 * (1 - c.val / 16) + 8 * ((c.val / 8) % 2) + 4 * ((Q / 2) % 2) + 2 * ((c.val / 2) % 2) + Q % 2, by
    have hc : c.val < 32 := c.isLt; show _ < 32; omega⟩

theorem qi_lt' (c : Dev nD) : qi c < 4 := by unfold qi; omega
/-- The same, as an index of the four quarters. -/
def qF (c : Dev nD) : Fin 4 := ⟨qi c, qi_lt' c⟩

/-! ## The rectangles the copies move

Every copy moves whole rows: 1024 of them between devices (a quarter is four such chunks), 2048 within a device. -/

theorem inb2 {R C r0 r : ℕ} (h : r0 + r ≤ R) :
    ∀ a, (![r0, 0] : Fin 2 → ℕ) a + (⟨2, ![r, C]⟩ : Shape).size a ≤ (⟨2, ![R, C]⟩ : Shape).size a :=
  Fin.forall_fin_two.mpr ⟨h, Nat.le_of_eq (Nat.zero_add _)⟩

/-- Chunk `k` of quarter `Q` of the OTHER half of device `c`'s result: rows 16384·(1 − x) + 4096·Q + 1024·k, 1024 of them. -/
def oCh (c : Dev nD) (Q k : Fin 4) : Rect S32768x1024 :=
  Rect.unit (s := S32768x1024) ![16384 * (1 - c.val / 16) + 4096 * Q.val + 1024 * k.val, 0] S1024x1024.size
    (inb2 (by have hc : c.val < 32 := c.isLt; have := Q.isLt; have := k.isLt; omega))
/-- Chunk `j` of device `c`'s OWN half of its result: rows 16384·x + 2048·j, 2048 of them. -/
def oOwn (c : Dev nD) (j : Fin 8) : Rect S32768x1024 :=
  Rect.unit (s := S32768x1024) ![16384 * (c.val / 16) + 2048 * j.val, 0] S2048x1024.size
    (inb2 (by have hc : c.val < 32 := c.isLt; have := j.isLt; omega))
/-- Chunk `k` of quarter `Q` of an argument array: rows 4096·Q + 1024·k. -/
def xCh (Q k : Fin 4) : Rect S16384x1024 :=
  Rect.unit (s := S16384x1024) ![4096 * Q.val + 1024 * k.val, 0] S1024x1024.size
    (inb2 (by have := Q.isLt; have := k.isLt; omega))
/-- Chunk `j` of eight of an argument array: rows 2048·j. -/
def xLd (j : Fin 8) : Rect S16384x1024 :=
  Rect.unit (s := S16384x1024) ![2048 * j.val, 0] S2048x1024.size (inb2 (by have := j.isLt; omega))
/-- Slot `s` of the four-slot staging buffer. -/
def vSl (s : Fin 4) : Rect S4x2048x1024 :=
  Rect.unit (s := S4x2048x1024) ![s.val, 0, 0] S1x2048x1024.size (by
    intro a; have := s.isLt
    match a with
    | ⟨0, _⟩ => show s.val + 1 ≤ 4; omega
    | ⟨1, _⟩ => show 0 + 2048 ≤ 2048; omega
    | ⟨2, _⟩ => show 0 + 1024 ≤ 1024; omega)

variable {F : FTy → Type} [FloatOps F]
variable (m : (ℓ : Loc nD τ sig) → Buf (Elt F) ℓ)

/-- Device `c`'s argument array as launched. -/
def xin (c : Dev nD) : Buf (Elt F) ((c : Thread nD τ).loc main_arg0) := m ((c : Thread nD τ).loc main_arg0)

/-- What device `c`'s result array holds after the run: its own block at its own half's rows; at the other half's rows,
    quarter by quarter, the block of the device across x whose quarter that is. -/
def target (c : Dev nD) : Buf (Elt F) ((c : Thread nD τ).loc main_v1) := fun i =>
  if (i 0).val / 16384 = c.val / 16 then
    xin m c (ValueIdx.ix2 (n0 := 16384) (n1 := 1024) ⟨(i 0).val % 16384, Nat.mod_lt _ (by decide)⟩ (i 1))
  else
    xin m (origin c ((i 0).val % 16384 / 4096)) (ValueIdx.ix2 (n0 := 16384) (n1 := 1024) ⟨(i 0).val % 16384, Nat.mod_lt _ (by decide)⟩ (i 1))

end Cert.KernelIdeal.AG

end
-- ==== Proof.KernelIdealAG.Sched.lean ====
/-
  The protocol of the all-gather, as a schedule of rounds: per semaphore, who waits on it, who pays it, how much, and
  what each payment hands the waiter.

  Every device has one barrier cell and sixteen pairs of transfer cells. The barrier cell has one round of three
  duties of one unit each, paid by the partner, the y buddy and the z buddy; each hands over the rows of ITS result that
  the waiter will copy into, at any contents. A receive
  cell has one round of one duty: the copy's credit, handing over the rows it wrote, now holding what the result must
  hold there. A send cell likewise, handing back the share of the source rows the copy read.
-/
import proofs.«900686_g7700000000000687_dist_ag_v7x_xyz2x4x4_x_m16384_n1024_f32_1_alg».proof.Proof.KernelIdealAG.Base
import proofs.«900686_g7700000000000687_dist_ag_v7x_xyz2x4x4_x_m16384_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Semaphores and cells -/

/-- The runtime's barrier semaphore of collective id 0. -/
abbrev barS : Sem sig := (SemArray.scalar (sig.barrier 0 rfl) : Sems sig S_).sem
/-- DMA semaphore number `n` of the forty: 0–3 loads, 4–7 stores, then in fours x send, x receive, y send, y receive,
    z send, z receive (8–31), then in twos y-diagonal send, receive, z-diagonal send, receive (32–39). -/
abbrev ds (n : ℕ) (h : n < 40 := by decide) : DmaSem sig := ⟨n, h⟩

abbrev barCell (c : Dev nD) : GSem nD τ sig := ((c : Thread nD τ), .reg barS)
abbrev cell (c : Dev nD) (n : ℕ) (h : n < 40 := by decide) : GSem nD τ sig := ((c : Thread nD τ), .dma (ds n h))

/-- The credit of one inter-device copy: 1024 rows of the result. -/
abbrev N : ℕ := ((Memref.whole main_v1 : Memref sig .tc .hbm S32768x1024 .f32).slice (oCh 0 0 0) (fun _ => rfl)).view.dmaCredit
theorem N_pos : 0 < N := View.dmaCredit_pos _ (by decide)
/-- The credit of a load into a staging slot, and of a store of 2048 rows of the result. -/
abbrev NL : ℕ := (((Memref.whole cc0_scratch0 : Memref sig .tc .vmem S4x2048x1024 .f32).slice (vSl 0) (fun _ => rfl)).squeeze S2048x1024 squeezes_S1x2048x1024_S2048x1024).view.dmaCredit
abbrev NS : ℕ := ((Memref.whole main_v1 : Memref sig .tc .hbm S32768x1024 .f32).slice (oOwn 0 0) (fun _ => rfl)).view.dmaCredit
theorem NL_pos : 0 < NL := View.dmaCredit_pos _ (by decide)
theorem NS_pos : 0 < NS := View.dmaCredit_pos _ (by decide)

/-! ## Holding rows of a buffer -/

/-- Share `q` of the rows `R` of device `c`'s buffer `b`, holding `f` there. -/
def pts (c : Dev nD) (b : Ref sig .tc) (R : Rect b.ty.shape) (q : PosShare TreeShare)
    (f : Buf (Elt F) ((c : Thread nD τ).loc b)) : sProp 𝕄 :=
  ((c : Thread nD τ).loc b) ↦[R.set]{q} f

/-! ## The schedule -/

/-- The rows receive semaphore `n` of device `o` guards: the x receives its own quarter from the partner, the y and z
    receives the buddies' quarters, the diagonal receives the two halves of the fourth quarter. -/
def recvRect (o : Dev nD) (n : ℕ) : Rect S32768x1024 :=
  if n < 16 then oCh o (qF o) ⟨(n - 12) % 4, Nat.mod_lt _ (by decide)⟩
  else if n < 24 then oCh o (qF (yb o)) ⟨(n - 20) % 4, Nat.mod_lt _ (by decide)⟩
  else if n < 32 then oCh o (qF (zb o)) ⟨(n - 28) % 4, Nat.mod_lt _ (by decide)⟩
  else if n < 36 then oCh o (qF (zb (yb o))) ⟨(n - 34) % 4, Nat.mod_lt _ (by decide)⟩
  else oCh o (qF (yb (zb o))) ⟨(n - 38 + 2) % 4, Nat.mod_lt _ (by decide)⟩

/-- What a landed copy hands the receiver: the rows, holding what the result must hold there. -/
def recvPay (o : Dev nD) (n : ℕ) : sProp 𝕄 := pts o main_v1 (recvRect o n) fullShare (target m o)

/-- What a finished copy hands back to the sender: its share of the rows it read. The x sends read the argument; the
    y and z sends read the same rows of the result at a half share each; the diagonal sends read alone. -/
def sendPay (c : Dev nD) (n : ℕ) : sProp 𝕄 :=
  if n < 12 then pts c main_arg0 (xCh (qF c) ⟨(n - 8) % 4, Nat.mod_lt _ (by decide)⟩) fullShare.left (xin m c)
  else if n < 20 then pts c main_v1 (oCh c (qF c) ⟨(n - 16) % 4, Nat.mod_lt _ (by decide)⟩) fullShare.left (target m c)
  else if n < 28 then pts c main_v1 (oCh c (qF c) ⟨(n - 24) % 4, Nat.mod_lt _ (by decide)⟩) fullShare.right (target m c)
  else if n < 34 then pts c main_v1 (oCh c (qF (zb c)) ⟨(n - 32) % 4, Nat.mod_lt _ (by decide)⟩) fullShare (target m c)
  else pts c main_v1 (oCh c (qF (yb c)) ⟨(n - 36 + 2) % 4, Nat.mod_lt _ (by decide)⟩) fullShare (target m c)

/-- What a staging slot holds once chunk `j` (of eight) of the argument is loaded into it: the chunk's rows, whatever the slot. -/
def vfill (c : Dev nD) (j : ℕ) : Buf (Elt F) ((c : Thread nD τ).loc cc0_scratch0) := fun i =>
  xin m c (ValueIdx.ix2 (n0 := 16384) (n1 := 1024) ⟨(2048 * (j % 8) + (i 1).val) % 16384, Nat.mod_lt _ (by decide)⟩ (i 2))

/-- What the `j`-th load hands back at its wait: its slot holding chunk `j`, and the half share of the chunk's rows of the argument it read. -/
def ldPay (c : Dev nD) (j : ℕ) : sProp 𝕄 :=
  iprop(pts c cc0_scratch0 (vSl ⟨j % 4, Nat.mod_lt _ (by decide)⟩) fullShare (vfill m c j)
    ∗ pts c main_arg0 (xLd ⟨j % 8, Nat.mod_lt _ (by decide)⟩) fullShare.right (xin m c))
/-- What the `j`-th store hands back: chunk `j` of the device's own half of the result, written, and the slot it read. -/
def stPay (c : Dev nD) (j : ℕ) : sProp 𝕄 :=
  iprop(pts c main_v1 (oOwn c ⟨j % 8, Nat.mod_lt _ (by decide)⟩) fullShare (target m c)
    ∗ pts c cc0_scratch0 (vSl ⟨j % 4, Nat.mod_lt _ (by decide)⟩) fullShare (vfill m c j))

/-- The rows of device `n`'s result its receive semaphore `s` guards, at any contents. -/
def give (n : Dev nD) (s : ℕ) : sProp 𝕄 :=
  iprop(∃ f, pts n main_v1 (recvRect n s) fullShare f)

/-- What duty `d` of device `c`'s barrier cell hands it: 0, from the partner, its four x landing chunks; 1, from the y
    buddy, its four y and two y-diagonal chunks; 2, from the z buddy, its four z and two z-diagonal chunks. -/
def barPay (c : Dev nD) (d : Fin 3) : sProp 𝕄 :=
  match d with
  | 0 => iprop(give (px c) 12 ∗ give (px c) 13 ∗ give (px c) 14 ∗ give (px c) 15)
  | 1 => iprop(give (yb c) 20 ∗ give (yb c) 21 ∗ give (yb c) 22 ∗ give (yb c) 23 ∗ give (yb c) 34 ∗ give (yb c) 35)
  | 2 => iprop(give (zb c) 28 ∗ give (zb c) 29 ∗ give (zb c) 30 ∗ give (zb c) 31 ∗ give (zb c) 38 ∗ give (zb c) 39)

/-- Is DMA semaphore number `n` a receive semaphore, a send semaphore (else a local one). -/
def isRecv (n : ℕ) : Prop := (12 ≤ n ∧ n < 16) ∨ (20 ≤ n ∧ n < 24) ∨ (28 ≤ n ∧ n < 32) ∨ (34 ≤ n ∧ n < 36) ∨ (38 ≤ n ∧ n < 40)
def isSend (n : ℕ) : Prop := (8 ≤ n ∧ n < 12) ∨ (16 ≤ n ∧ n < 20) ∨ (24 ≤ n ∧ n < 28) ∨ (32 ≤ n ∧ n < 34) ∨ (36 ≤ n ∧ n < 38)
instance (n : ℕ) : Decidable (isRecv n) := by unfold isRecv; infer_instance
instance (n : ℕ) : Decidable (isSend n) := by unfold isSend; infer_instance

/-- The number of a cell's semaphore among the DMA semaphores, 40 for the barrier. -/
def semNo : SemLoc sig → ℕ
  | .reg _ => 40
  | .dma s => s.val

abbrev IsBar (g : GSem nD τ sig) : Prop := g.1.2 = .tc ∧ g.2 = .reg barS
abbrev IsDma (g : GSem nD τ sig) : Prop := g.1.2 = .tc ∧ semNo g.2 < 40

/-- The rounds: a barrier cell has round 0 with three unit duties; a transfer cell between devices round 0 with one
    duty of a chunk's credit; a load or store cell rounds 0 and 1 (each slot is used twice) with one duty each. -/
def agRd : Rounds.Schedule (GSem nD τ sig) (Fin 3) 𝕄 where
  duties g r := if r = 0 ∧ IsBar g then Finset.univ else if IsDma g ∧ (r = 0 ∨ (r = 1 ∧ semNo g.2 < 8)) then {0} else ∅
  unitless _ := False
  amount g _ _ := if g.2 = .reg barS then 1 else if semNo g.2 < 4 then NL else if semNo g.2 < 8 then NS else N
  payload g r d :=
    if g.2 = .reg barS then barPay g.1.1 d
    else if semNo g.2 < 4 then ldPay m g.1.1 (semNo g.2 + 4 * r)
    else if semNo g.2 < 8 then stPay m g.1.1 (semNo g.2 - 4 + 4 * r)
    else if isRecv (semNo g.2) then recvPay m g.1.1 (semNo g.2)
    else if isSend (semNo g.2) then sendPay m g.1.1 (semNo g.2)
    else iprop(emp)
  amount_pos g _ _ _ := by
    by_cases h : g.2 = .reg barS
    · rw [if_pos h]; exact Nat.one_pos
    · rw [if_neg h]
      by_cases h4 : semNo g.2 < 4
      · rw [if_pos h4]; exact NL_pos
      · rw [if_neg h4]
        by_cases h8 : semNo g.2 < 8
        · rw [if_pos h8]; exact NS_pos
        · rw [if_neg h8]; exact N_pos

/-- info: 'Cert.KernelIdeal.AG.agRd' depends on axioms: [propext, Classical.choice, Quot.sound] -/
#guard_msgs in #print axioms agRd

end Cert.KernelIdeal.AG

end
-- ==== Proof.KernelIdealAG.Tables.lean ====
/-
  The schedule of the all-gather, read off as tables: for the barrier cell and for each of the forty transfer cells of a
  device, the duties of each round, what each duty contributes, what a round expects in all, and what each payment
  hands the waiter; and the rows and payloads of the receive and send cells at each semaphore number, spelled out.
-/
import proofs.«900686_g7700000000000687_dist_ag_v7x_xyz2x4x4_x_m16384_n1024_f32_1_alg».proof.Proof.KernelIdealAG.Sched

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads can be stored in an invariant -/

instance pts_storable (c : Dev nD) (b : Ref sig .tc) (R : Rect b.ty.shape) (q : PosShare TreeShare)
    (f : Buf (Elt F) ((c : Thread nD τ).loc b)) : BI.Storable (upEmb : UEmb _ 𝕄) (pts (F := F) c b R q f) := by
  unfold pts; infer_instance

instance give_storable (n : Dev nD) (s : ℕ) : BI.Storable (upEmb : UEmb _ 𝕄) (give (F := F) n s) := by
  unfold give; infer_instance

theorem barPay_0 (c : Dev nD) :
    barPay (F := F) c 0 = iprop(give (px c) 12 ∗ give (px c) 13 ∗ give (px c) 14 ∗ give (px c) 15) := rfl
theorem barPay_1 (c : Dev nD) :
    barPay (F := F) c 1 = iprop(give (yb c) 20 ∗ give (yb c) 21 ∗ give (yb c) 22 ∗ give (yb c) 23 ∗ give (yb c) 34 ∗ give (yb c) 35) := rfl
theorem barPay_2 (c : Dev nD) :
    barPay (F := F) c 2 = iprop(give (zb c) 28 ∗ give (zb c) 29 ∗ give (zb c) 30 ∗ give (zb c) 31 ∗ give (zb c) 38 ∗ give (zb c) 39) := rfl

instance barPay_storable (c : Dev nD) (d : Fin 3) : BI.Storable (upEmb : UEmb _ 𝕄) (barPay (F := F) c d) := by
  match d with
  | 0 => rw [barPay_0]; infer_instance
  | 1 => rw [barPay_1]; infer_instance
  | 2 => rw [barPay_2]; infer_instance

instance recvPay_storable (c : Dev nD) (n : ℕ) : BI.Storable (upEmb : UEmb _ 𝕄) (recvPay m c n) := by
  unfold recvPay; infer_instance

instance sendPay_storable (c : Dev nD) (n : ℕ) : BI.Storable (upEmb : UEmb _ 𝕄) (sendPay m c n) := by
  unfold sendPay
  (repeat' split) <;> infer_instance

instance ldPay_storable (c : Dev nD) (j : ℕ) : BI.Storable (upEmb : UEmb _ 𝕄) (ldPay m c j) := by
  unfold ldPay; infer_instance

instance stPay_storable (c : Dev nD) (j : ℕ) : BI.Storable (upEmb : UEmb _ 𝕄) (stPay m c j) := by
  unfold stPay; infer_instance

instance payload_storable (g : GSem nD τ sig) (r : ℕ) (d : Fin 3) :
    BI.Storable (upEmb : UEmb _ 𝕄) ((agRd (F := F) m).payload g r d) := by
  show BI.Storable upEmb (if g.2 = .reg barS then barPay g.1.1 d
    else if semNo g.2 < 4 then ldPay m g.1.1 (semNo g.2 + 4 * r)
    else if semNo g.2 < 8 then stPay m g.1.1 (semNo g.2 - 4 + 4 * r)
    else if isRecv (semNo g.2) then recvPay m g.1.1 (semNo g.2)
    else if isSend (semNo g.2) then sendPay m g.1.1 (semNo g.2)
    else iprop(emp))
  (repeat' split) <;> infer_instance

/-! ## The cells -/

section Sched
variable (c : Dev nD)

theorem dma_ne_bar (s : DmaSem sig) : (SemLoc.dma s : SemLoc sig) ≠ .reg barS := fun h => by cases h
theorem not_bar_cell (n : ℕ) (h : n < 40) : ¬ IsBar (cell c n h) := fun h' => dma_ne_bar _ h'.2
theorem semNo_cell (n : ℕ) (h : n < 40) : semNo (cell c n h).2 = n := rfl
theorem semNo_bar : semNo (barCell c).2 = 40 := rfl

/-! ## The duties of each round -/

theorem duties_bar : (agRd (F := F) m).duties (barCell c) 0 = Finset.univ := by
  dsimp only [agRd]; exact if_pos ⟨rfl, rfl, rfl⟩

/-- The duties of a transfer cell, by its number: duty 0 at round 0, and at round 1 too when the cell is a local one. -/
theorem duties_cell (n : ℕ) (h : n < 40) (r : ℕ) :
    (agRd (F := F) m).duties (cell c n h) r = if r = 0 ∨ (r = 1 ∧ n < 8) then {0} else ∅ := by
  dsimp only [agRd]
  rw [if_neg (fun h' => not_bar_cell c n h h'.2)]
  by_cases hc : r = 0 ∨ (r = 1 ∧ n < 8)
  · rw [if_pos hc]; exact if_pos ⟨⟨rfl, h⟩, hc⟩
  · rw [if_neg hc]; exact if_neg (fun h' => hc h'.2)

theorem duties_dma (n : ℕ) (h : n < 40) : (agRd (F := F) m).duties (cell c n h) 0 = {0} := by
  rw [duties_cell, if_pos (.inl rfl)]

theorem duties_loc1 (n : ℕ) (h : n < 8) : (agRd (F := F) m).duties (cell c n (by omega)) 1 = {0} := by
  rw [duties_cell, if_pos (.inr ⟨rfl, h⟩)]

theorem duties_loc (n : ℕ) (h : n < 8) (r : ℕ) (hr : r < 2) : (agRd (F := F) m).duties (cell c n (by omega)) r = {0} := by
  rw [duties_cell, if_pos (by omega)]

theorem duties_later_bar : ∀ r, 1 ≤ r → (agRd (F := F) m).duties (barCell c) r = ∅ := fun r hr => by
  dsimp only [agRd]
  rw [if_neg fun h => by omega, if_neg fun h => Nat.lt_irrefl 40 h.1.2]

theorem duties_later_rem (n : ℕ) (h : n < 40) (h8 : 8 ≤ n) : ∀ r, 1 ≤ r → (agRd (F := F) m).duties (cell c n h) r = ∅ :=
  fun r hr => by rw [duties_cell, if_neg (by omega)]

theorem duties_later_loc (n : ℕ) (h : n < 8) : ∀ r, 2 ≤ r → (agRd (F := F) m).duties (cell c n (by omega)) r = ∅ :=
  fun r hr => by rw [duties_cell, if_neg (by omega)]

/-! ## What each duty contributes, and what a round expects -/

theorem amount_bar (r : ℕ) (d : Fin 3) : (agRd (F := F) m).amount (barCell c) r d = 1 := by
  dsimp only [agRd]; exact if_pos rfl

/-- A transfer cell's duty contributes its copy's credit: a load's, a store's, or a chunk's between devices. -/
theorem amount_cell (n : ℕ) (h : n < 40) (r : ℕ) (d : Fin 3) :
    (agRd (F := F) m).amount (cell c n h) r d = if n < 4 then NL else if n < 8 then NS else N := by
  dsimp only [agRd]; exact if_neg (dma_ne_bar _)

theorem amount_ld (n : ℕ) (h : n < 4) (r : ℕ) (d : Fin 3) : (agRd (F := F) m).amount (cell c n (by omega)) r d = NL := by
  rw [amount_cell, if_pos h]

theorem amount_st (n : ℕ) (h4 : 4 ≤ n) (h : n < 8) (r : ℕ) (d : Fin 3) :
    (agRd (F := F) m).amount (cell c n (by omega)) r d = NS := by
  rw [amount_cell, if_neg (by omega), if_pos h]

theorem amount_rem (n : ℕ) (h8 : 8 ≤ n) (h : n < 40) (r : ℕ) (d : Fin 3) : (agRd (F := F) m).amount (cell c n h) r d = N := by
  rw [amount_cell, if_neg (by omega), if_neg (by omega)]

/-- A round whose one duty is duty 0 expects what that duty contributes. -/
theorem expect_of_duties (g : GSem nD τ sig) (r : ℕ) (hd : (agRd (F := F) m).duties g r = {0}) :
    (agRd (F := F) m).expect g r = (agRd (F := F) m).amount g r 0 := by
  unfold Schedule.expect Schedule.amountOf; rw [hd, Finset.sum_singleton]

theorem expect_bar : (agRd (F := F) m).expect (barCell c) 0 = 3 := by
  unfold Schedule.expect Schedule.amountOf
  rw [duties_bar, Finset.sum_congr rfl fun d _ => amount_bar m c 0 d, Finset.sum_const, Finset.card_univ, Fintype.card_fin, smul_eq_mul]

theorem expect_ld (n : ℕ) (h : n < 4) (r : ℕ) (hr : r < 2) : (agRd (F := F) m).expect (cell c n (by omega)) r = NL := by
  rw [expect_of_duties m _ r (duties_loc m c n (by omega) r hr), amount_ld m c n h]

theorem expect_st (n : ℕ) (h4 : 4 ≤ n) (h : n < 8) (r : ℕ) (hr : r < 2) : (agRd (F := F) m).expect (cell c n (by omega)) r = NS := by
  rw [expect_of_duties m _ r (duties_loc m c n h r hr), amount_st m c n h4 h]

theorem expect_rem (n : ℕ) (h8 : 8 ≤ n) (h : n < 40) : (agRd (F := F) m).expect (cell c n h) 0 = N := by
  rw [expect_of_duties m _ 0 (duties_dma m c n h), amount_rem m c n h8 h]

/-! ## What each payment hands the waiter -/

theorem payload_bar (d : Fin 3) : (agRd (F := F) m).payload (barCell c) 0 d = barPay c d := by
  dsimp only [agRd]; exact if_pos rfl

/-- A transfer cell's payload, by its number. -/
theorem payload_cell (n : ℕ) (h : n < 40) (r : ℕ) (d : Fin 3) :
    (agRd (F := F) m).payload (cell c n h) r d =
      if n < 4 then ldPay m c (n + 4 * r)
      else if n < 8 then stPay m c (n - 4 + 4 * r)
      else if isRecv n then recvPay m c n
      else if isSend n then sendPay m c n
      else iprop(emp) := by
  dsimp only [agRd]; exact if_neg (dma_ne_bar _)

theorem payload_ld (n : ℕ) (h : n < 4) (r : ℕ) (d : Fin 3) :
    (agRd (F := F) m).payload (cell c n (by omega)) r d = ldPay m c (n + 4 * r) := by
  rw [payload_cell, if_pos h]

theorem payload_st (n : ℕ) (h4 : 4 ≤ n) (h : n < 8) (r : ℕ) (d : Fin 3) :
    (agRd (F := F) m).payload (cell c n (by omega)) r d = stPay m c (n - 4 + 4 * r) := by
  rw [payload_cell, if_neg (by omega), if_pos h]

theorem isRecv_ge {n : ℕ} (hr : isRecv n) : 8 ≤ n := by unfold isRecv at hr; omega
theorem isSend_ge {n : ℕ} (hs : isSend n) : 8 ≤ n := by unfold isSend at hs; omega
theorem isSend_not_isRecv {n : ℕ} (hs : isSend n) : ¬ isRecv n := by unfold isSend at hs; unfold isRecv; omega

theorem payload_recv (n : ℕ) (h : n < 40) (hr : isRecv n) (r : ℕ) (d : Fin 3) :
    (agRd (F := F) m).payload (cell c n h) r d = recvPay m c n := by
  have h8 := isRecv_ge hr
  rw [payload_cell, if_neg (by omega), if_neg (by omega), if_pos hr]

theorem payload_send (n : ℕ) (h : n < 40) (hs : isSend n) (r : ℕ) (d : Fin 3) :
    (agRd (F := F) m).payload (cell c n h) r d = sendPay m c n := by
  have h8 := isSend_ge hs
  rw [payload_cell, if_neg (by omega), if_neg (by omega), if_neg (isSend_not_isRecv hs), if_pos hs]

/-! ## A round's payloads, none taken yet -/

/-- The barrier cell's round, no duty taken: the three neighbours' payloads. -/
theorem rest_bar : bigSep ((agRd (F := F) m).duties (barCell c) 0 \ ∅) (fun d => (agRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons,
    bigSepL_cons_cons, bigSepL_singleton, payload_bar, payload_bar, payload_bar]
  rfl

/-- A transfer cell's round of the one duty 0, not taken: that duty's payload. -/
theorem rest_dma (n : ℕ) (h : n < 40) (r : ℕ) (hd : (agRd (F := F) m).duties (cell c n h) r = {0}) :
    bigSep ((agRd (F := F) m).duties (cell c n h) r \ ∅) (fun d => (agRd (F := F) m).payload (cell c n h) r d)
      = (agRd (F := F) m).payload (cell c n h) r 0 := by
  rw [Finset.sdiff_empty, hd, bigSep_singleton]

/-! ## The receive cells' rows, semaphore by semaphore -/

theorem recvRect_12 : recvRect c 12 = oCh c (qF c) 0 := by unfold recvRect; rw [if_pos (by decide)]; rfl
theorem recvRect_13 : recvRect c 13 = oCh c (qF c) 1 := by unfold recvRect; rw [if_pos (by decide)]; rfl
theorem recvRect_14 : recvRect c 14 = oCh c (qF c) 2 := by unfold recvRect; rw [if_pos (by decide)]; rfl
theorem recvRect_15 : recvRect c 15 = oCh c (qF c) 3 := by unfold recvRect; rw [if_pos (by decide)]; rfl
theorem recvRect_20 : recvRect c 20 = oCh c (qF (yb c)) 0 := by
  unfold recvRect; rw [if_neg (by decide), if_pos (by decide)]; rfl
theorem recvRect_21 : recvRect c 21 = oCh c (qF (yb c)) 1 := by
  unfold recvRect; rw [if_neg (by decide), if_pos (by decide)]; rfl
theorem recvRect_22 : recvRect c 22 = oCh c (qF (yb c)) 2 := by
  unfold recvRect; rw [if_neg (by decide), if_pos (by decide)]; rfl
theorem recvRect_23 : recvRect c 23 = oCh c (qF (yb c)) 3 := by
  unfold recvRect; rw [if_neg (by decide), if_pos (by decide)]; rfl
theorem recvRect_28 : recvRect c 28 = oCh c (qF (zb c)) 0 := by
  unfold recvRect; rw [if_neg (by decide), if_neg (by decide), if_pos (by decide)]; rfl
theorem recvRect_29 : recvRect c 29 = oCh c (qF (zb c)) 1 := by
  unfold recvRect; rw [if_neg (by decide), if_neg (by decide), if_pos (by decide)]; rfl
theorem recvRect_30 : recvRect c 30 = oCh c (qF (zb c)) 2 := by
  unfold recvRect; rw [if_neg (by decide), if_neg (by decide), if_pos (by decide)]; rfl
theorem recvRect_31 : recvRect c 31 = oCh c (qF (zb c)) 3 := by
  unfold recvRect; rw [if_neg (by decide), if_neg (by decide), if_pos (by decide)]; rfl
theorem recvRect_34 : recvRect c 34 = oCh c (qF (zb (yb c))) 0 := by
  unfold recvRect; rw [if_neg (by decide), if_neg (by decide), if_neg (by decide), if_pos (by decide)]; rfl
theorem recvRect_35 : recvRect c 35 = oCh c (qF (zb (yb c))) 1 := by
  unfold recvRect; rw [if_neg (by decide), if_neg (by decide), if_neg (by decide), if_pos (by decide)]; rfl
theorem recvRect_38 : recvRect c 38 = oCh c (qF (yb (zb c))) 2 := by
  unfold recvRect; rw [if_neg (by decide), if_neg (by decide), if_neg (by decide), if_neg (by decide)]; rfl
theorem recvRect_39 : recvRect c 39 = oCh c (qF (yb (zb c))) 3 := by
  unfold recvRect; rw [if_neg (by decide), if_neg (by decide), if_neg (by decide), if_neg (by decide)]; rfl

/-! ## The send cells' payloads, semaphore by semaphore -/

theorem sendPay_8 : sendPay m c 8 = pts c main_arg0 (xCh (qF c) 0) fullShare.left (xin m c) := by
  unfold sendPay; rw [if_pos (by decide)]; rfl
theorem sendPay_9 : sendPay m c 9 = pts c main_arg0 (xCh (qF c) 1) fullShare.left (xin m c) := by
  unfold sendPay; rw [if_pos (by decide)]; rfl
theorem sendPay_10 : sendPay m c 10 = pts c main_arg0 (xCh (qF c) 2) fullShare.left (xin m c) := by
  unfold sendPay; rw [if_pos (by decide)]; rfl
theorem sendPay_11 : sendPay m c 11 = pts c main_arg0 (xCh (qF c) 3) fullShare.left (xin m c) := by
  unfold sendPay; rw [if_pos (by decide)]; rfl
theorem sendPay_16 : sendPay m c 16 = pts c main_v1 (oCh c (qF c) 0) fullShare.left (target m c) := by
  unfold sendPay; rw [if_neg (by decide), if_pos (by decide)]; rfl
theorem sendPay_17 : sendPay m c 17 = pts c main_v1 (oCh c (qF c) 1) fullShare.left (target m c) := by
  unfold sendPay; rw [if_neg (by decide), if_pos (by decide)]; rfl
theorem sendPay_18 : sendPay m c 18 = pts c main_v1 (oCh c (qF c) 2) fullShare.left (target m c) := by
  unfold sendPay; rw [if_neg (by decide), if_pos (by decide)]; rfl
theorem sendPay_19 : sendPay m c 19 = pts c main_v1 (oCh c (qF c) 3) fullShare.left (target m c) := by
  unfold sendPay; rw [if_neg (by decide), if_pos (by decide)]; rfl
theorem sendPay_24 : sendPay m c 24 = pts c main_v1 (oCh c (qF c) 0) fullShare.right (target m c) := by
  unfold sendPay; rw [if_neg (by decide), if_neg (by decide), if_pos (by decide)]; rfl
theorem sendPay_25 : sendPay m c 25 = pts c main_v1 (oCh c (qF c) 1) fullShare.right (target m c) := by
  unfold sendPay; rw [if_neg (by decide), if_neg (by decide), if_pos (by decide)]; rfl
theorem sendPay_26 : sendPay m c 26 = pts c main_v1 (oCh c (qF c) 2) fullShare.right (target m c) := by
  unfold sendPay; rw [if_neg (by decide), if_neg (by decide), if_pos (by decide)]; rfl
theorem sendPay_27 : sendPay m c 27 = pts c main_v1 (oCh c (qF c) 3) fullShare.right (target m c) := by
  unfold sendPay; rw [if_neg (by decide), if_neg (by decide), if_pos (by decide)]; rfl
theorem sendPay_32 : sendPay m c 32 = pts c main_v1 (oCh c (qF (zb c)) 0) fullShare (target m c) := by
  unfold sendPay; rw [if_neg (by decide), if_neg (by decide), if_neg (by decide), if_pos (by decide)]; rfl
theorem sendPay_33 : sendPay m c 33 = pts c main_v1 (oCh c (qF (zb c)) 1) fullShare (target m c) := by
  unfold sendPay; rw [if_neg (by decide), if_neg (by decide), if_neg (by decide), if_pos (by decide)]; rfl
theorem sendPay_36 : sendPay m c 36 = pts c main_v1 (oCh c (qF (yb c)) 2) fullShare (target m c) := by
  unfold sendPay; rw [if_neg (by decide), if_neg (by decide), if_neg (by decide), if_neg (by decide)]; rfl
theorem sendPay_37 : sendPay m c 37 = pts c main_v1 (oCh c (qF (yb c)) 3) fullShare (target m c) := by
  unfold sendPay; rw [if_neg (by decide), if_neg (by decide), if_neg (by decide), if_neg (by decide)]; rfl

end Sched

/-- info: 'Cert.KernelIdeal.AG.payload_storable' depends on axioms: [propext, Classical.choice, Quot.sound] -/
#guard_msgs in #print axioms payload_storable
/-- info: 'Cert.KernelIdeal.AG.rest_bar' depends on axioms: [propext, Classical.choice, Quot.sound] -/
#guard_msgs in #print axioms rest_bar

end Cert.KernelIdeal.AG

end
-- ==== Proof.KernelIdealAG.Proto.lean ====
/-
  What each device owes, the levels that order the waits, and what a device's body starts from and ends with.

  A device owes, in program order: a unit to each neighbour's barrier cell; a chunk's credit to the partner's four x
  receive cells; then, chunk by chunk, to the y buddy's and the z buddy's receive cells; last to their diagonal ones.
  A wait is allowed below everything still owed: barrier cells sit at level 1, x receive cells at 2, y and z receive
  cells at 3, diagonal receive cells at 4, every other cell at 0 — and at each wait what is still owed lies above.
-/
import proofs.«900686_g7700000000000687_dist_ag_v7x_xyz2x4x4_x_m16384_n1024_f32_1_alg».proof.Proof.KernelIdealAG.Tables

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The payments device `c` makes to other devices' cells, in program order. -/
def owedList (c : Dev nD) : List (GSem nD τ sig × ℕ) :=
  [ (barCell (px c), 1), (barCell (yb c), 1), (barCell (zb c), 1),
    (cell (px c) 12, N), (cell (px c) 13, N), (cell (px c) 14, N), (cell (px c) 15, N),
    (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ]

/-- The tallies of a list of payments, the FIRST payment the LAST summand: paying it peels it off. -/
def sumT : List (GSem nD τ sig × ℕ) → CellTallies nD τ sig Unit
  | [] => 0
  | a :: l => sumT l + tallyAt a.1 () a.2

theorem sumT_cons (a : GSem nD τ sig × ℕ) (l : List (GSem nD τ sig × ℕ)) : sumT (a :: l) = sumT l + tallyAt a.1 () a.2 := rfl

/-- What device `c` owes at launch. -/
def O₀ (c : Dev nD) : CellTallies nD τ sig Unit := sumT (owedList c)

/-! ## The levels -/

def L (g : GSem nD τ sig) : Finset Unit := if g.1.2 = .tc then {()} else ∅
def lv (g : GSem nD τ sig) (_ : Unit) : ℕ :=
  if g.2 = .reg barS then 1
  else if 12 ≤ semNo g.2 ∧ semNo g.2 < 16 then 2
  else if (20 ≤ semNo g.2 ∧ semNo g.2 < 24) ∨ (28 ≤ semNo g.2 ∧ semNo g.2 < 32) then 3
  else if (34 ≤ semNo g.2 ∧ semNo g.2 < 36) ∨ (38 ≤ semNo g.2 ∧ semNo g.2 < 40) then 4
  else 0

theorem L_of_ne (g : GSem nD τ sig) (h : g.1.2 ≠ .tc) : L g = ∅ := if_neg h
theorem L_tc (c : Dev nD) (sm : SemLoc sig) : L ((c : Thread nD τ), sm) = {()} := if_pos rfl

/-! ## The cells by name -/

/-- Device `c`'s forty-one cells: its DMA cells 0–39, its barrier cell 40. -/
def kcell (ck : Dev nD × Fin 41) : GSem nD τ sig :=
  if h : ck.2.val < 40 then cell ck.1 ck.2.val h else barCell ck.1

/-- Every cell's invariant, under the names `K`, and that every cell is at round 0: what all devices share. -/
def records (K : Dev nD × Fin 41 → ℕ) : sProp 𝕄 :=
  iprop((bigSep Finset.univ fun ck : Dev nD × Fin 41 => cellInv ER (agRd m) (K ck) (kcell ck))
    ∗ bigSep Finset.univ fun ck : Dev nD × Fin 41 => reached ER (kcell ck) 0)

instance records_persistent (K : Dev nD × Fin 41 → ℕ) : BI.Persistent (records m K) := by unfold records; infer_instance

/-- A list of assertions, joined. -/
def sepL : List (sProp 𝕄) → sProp 𝕄
  | [] => iprop(emp)
  | [P] => P
  | P :: Q :: l => iprop(P ∗ sepL (Q :: l))

/-- Device `c` at round 0 of each of its cells. -/
def positions (c : Dev nD) : sProp 𝕄 :=
  iprop(atPos ER (barCell c) 0 ∅ 0 ∗ sepL ((List.finRange 40).map fun n => atPos ER (cell c n.val n.isLt) 0 ∅ 0))

/-- The tokens of the duties device `c` pays: one on each neighbour's barrier cell; the sixteen receive cells it copies
    into; its own sixteen send cells; its own load and store cells at both their rounds. -/
def payToks (c : Dev nD) : sProp 𝕄 :=
  iprop((dutyTok ER (barCell (px c)) 0 0 ∗ dutyTok ER (barCell (yb c)) 0 1 ∗ dutyTok ER (barCell (zb c)) 0 2)
    ∗ sepL ([12, 13, 14, 15].map fun n => dutyTok ER ((px c : Thread nD τ), SemLoc.dma ⟨n % 40, Nat.mod_lt _ (by decide)⟩) 0 0)
    ∗ sepL ([20, 21, 22, 23, 34, 35].map fun n => dutyTok ER ((yb c : Thread nD τ), SemLoc.dma ⟨n % 40, Nat.mod_lt _ (by decide)⟩) 0 0)
    ∗ sepL ([28, 29, 30, 31, 38, 39].map fun n => dutyTok ER ((zb c : Thread nD τ), SemLoc.dma ⟨n % 40, Nat.mod_lt _ (by decide)⟩) 0 0)
    ∗ sepL ([8, 9, 10, 11, 16, 17, 18, 19, 24, 25, 26, 27, 32, 33, 36, 37].map fun n => dutyTok ER ((c : Thread nD τ), SemLoc.dma ⟨n % 40, Nat.mod_lt _ (by decide)⟩) 0 0)
    ∗ sepL ([0, 1, 2, 3, 4, 5, 6, 7].map fun n => iprop(dutyTok ER ((c : Thread nD τ), SemLoc.dma ⟨n % 40, Nat.mod_lt _ (by decide)⟩) 0 0
        ∗ dutyTok ER ((c : Thread nD τ), SemLoc.dma ⟨n % 40, Nat.mod_lt _ (by decide)⟩) 1 0)))

/-- The credit the launch deals device `c`: three units on its barrier cell, a chunk's credit on each receive cell. -/
def creds (c : Dev nD) : sProp 𝕄 :=
  iprop(cred (tallyAt (barCell c) () 3)
    ∗ sepL ([12, 13, 14, 15, 20, 21, 22, 23, 28, 29, 30, 31, 34, 35, 38, 39].map fun n =>
        cred (tallyAt ((c : Thread nD τ), SemLoc.dma ⟨n % 40, Nat.mod_lt _ (by decide)⟩) () N)))

/-- The ghost state device `c` starts from, at the names `K`. -/
def ghost (K : Dev nD × Fin 41 → ℕ) (c : Dev nD) : sProp 𝕄 := iprop(records m K ∗ positions c ∗ payToks c)

/-- A whole buffer of device `c`. -/
def whole (c : Dev nD) (b : Ref sig .tc) (f : Buf (Elt F) ((c : Thread nD τ).loc b)) : sProp 𝕄 :=
  ((c : Thread nD τ).loc b) ↦{fullShare} f

/-- What device `c` holds when its body starts, besides its staging buffer: the ghost state, the launch credit, the
    levels, its argument as launched and its result at any contents. -/
def start (c : Dev nD) : sProp 𝕄 :=
  iprop((∃ K, ghost m K c) ∗ creds c ∗ levAts L lv ∗ whole c main_arg0 (xin m c) ∗ ∃ f, whole c main_v1 f)

def Φ₀ (c : Dev nD) : sProp 𝕄 := iprop(start m c ∗ ∃ f, whole c cc0_scratch0 f)

/-- What it holds when its body ends: the argument as launched, the result holding `target`, the staging buffer, and
    its forty DMA semaphores at zero. -/
def Φ₁ (c : Dev nD) : sProp 𝕄 :=
  iprop(whole c main_arg0 (xin m c) ∗ whole c main_v1 (target m c) ∗ (∃ f, whole c cc0_scratch0 f)
    ∗ sepL ((List.finRange 40).map fun n => semVal (cell c n.val n.isLt) 0))

/-! ## The pipeline's proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.KernelIdealAG.Topo.lean ====
/-
  The arithmetic of the 2 × 4 × 4 mesh, device by device.

  A device is c = 16·x + 4·y + z. Its partner `px c` is at the other x; its buddies `yb c`, `zb c` have the low bit
  of y, of z, flipped. The three are involutions that commute and fix no device, so c, yb c, zb c, yb (zb c) are the
  four devices of a group, and their quarters `qi` are 0, 1, 2, 3 in some order. Every device id and every row offset
  the kernel computes, word by word, from the device's coordinates is restated here over these names: each is checked
  at all 32 devices (and 4 pieces) by evaluation.
-/
import proofs.«900686_g7700000000000687_dist_ag_v7x_xyz2x4x4_x_m16384_n1024_f32_1_alg».proof.Proof.KernelIdealAG.Base
import Idealize.ShloMosaic.Lib.Decide
import Mathlib.Data.Finset.Insert

set_option synthInstance.maxSize 4096
-- one statement at a time: each is an evaluation over every device
set_option Elab.async false

namespace Cert.KernelIdeal.AG

open Cert.KernelIdeal Cert.KernelIdeal.Gen
open Idealize.ShloMosaic

/-! ## The three neighbours: involutions that commute, and move a device -/

/-- Crossing x twice comes back. -/
theorem px_px (c : Dev nD) : px (px c) = c := by revert c; decide +kernel
/-- Flipping the low bit of y twice comes back. -/
theorem yb_yb (c : Dev nD) : yb (yb c) = c := by revert c; decide +kernel
/-- Flipping the low bit of z twice comes back. -/
theorem zb_zb (c : Dev nD) : zb (zb c) = c := by revert c; decide +kernel
/-- Crossing x and flipping the low bit of y act on different coordinates. -/
theorem px_yb (c : Dev nD) : px (yb c) = yb (px c) := by revert c; decide +kernel
/-- Crossing x and flipping the low bit of z act on different coordinates. -/
theorem px_zb (c : Dev nD) : px (zb c) = zb (px c) := by revert c; decide +kernel
/-- The two flips act on different coordinates. -/
theorem yb_zb (c : Dev nD) : yb (zb c) = zb (yb c) := by revert c; decide +kernel

theorem px_ne (c : Dev nD) : px c ≠ c := by revert c; decide +kernel
theorem yb_ne (c : Dev nD) : yb c ≠ c := by revert c; decide +kernel
theorem zb_ne (c : Dev nD) : zb c ≠ c := by revert c; decide +kernel
theorem px_ne_yb (c : Dev nD) : px c ≠ yb c := by revert c; decide +kernel
theorem px_ne_zb (c : Dev nD) : px c ≠ zb c := by revert c; decide +kernel
theorem yb_ne_zb (c : Dev nD) : yb c ≠ zb c := by revert c; decide +kernel
/-- The diagonal of the group of four is none of the device, its two buddies or its partner. -/
theorem yb_zb_ne (c : Dev nD) : yb (zb c) ≠ c := by revert c; decide +kernel
theorem yb_zb_ne_yb (c : Dev nD) : yb (zb c) ≠ yb c := by revert c; decide +kernel
theorem yb_zb_ne_zb (c : Dev nD) : yb (zb c) ≠ zb c := by revert c; decide +kernel
theorem yb_zb_ne_px (c : Dev nD) : yb (zb c) ≠ px c := by revert c; decide +kernel

/-! ## The x coordinate -/

/-- The partner is at the other x. -/
theorem x_px (c : Dev nD) : (px c).val / 16 = 1 - c.val / 16 := by revert c; decide +kernel
theorem x_px' (c : Dev nD) : 1 - (px c).val / 16 = c.val / 16 := by revert c; decide +kernel
/-- The y buddy is at the same x. -/
theorem x_yb (c : Dev nD) : (yb c).val / 16 = c.val / 16 := by revert c; decide +kernel
/-- The z buddy is at the same x. -/
theorem x_zb (c : Dev nD) : (zb c).val / 16 = c.val / 16 := by revert c; decide +kernel
/-- x is 0 or 1. -/
theorem x_lt (c : Dev nD) : c.val / 16 < 2 := by have : c.val < 32 := c.isLt; omega

/-! ## The quarter index

Within a group of four the quarters 2a + b of (c, yb c, zb c, yb (zb c)) are the four numbers 0, 1, 2, 3, each once;
the partner across x has the same quarter. -/

theorem qi_lt (c : Dev nD) : qi c < 4 := by unfold qi; omega
theorem qi_px (c : Dev nD) : qi (px c) = qi c := by revert c; decide +kernel
/-- The y buddy's quarter: the upper bit flipped. -/
theorem qi_yb (c : Dev nD) : qi (yb c) = 2 * (1 - (c.val / 4) % 2) + c.val % 2 := by revert c; decide +kernel
/-- The z buddy's quarter: the lower bit flipped. -/
theorem qi_zb (c : Dev nD) : qi (zb c) = 2 * ((c.val / 4) % 2) + (1 - c.val % 2) := by revert c; decide +kernel
/-- The diagonal's quarter: both bits flipped. -/
theorem qi_yb_zb (c : Dev nD) : qi (yb (zb c)) = 2 * (1 - (c.val / 4) % 2) + (1 - c.val % 2) := by revert c; decide +kernel
theorem qi_yb_ne (c : Dev nD) : qi (yb c) ≠ qi c := by revert c; decide +kernel
theorem qi_zb_ne (c : Dev nD) : qi (zb c) ≠ qi c := by revert c; decide +kernel
theorem qi_yb_zb_ne (c : Dev nD) : qi (yb (zb c)) ≠ qi c := by revert c; decide +kernel
theorem qi_yb_ne_zb (c : Dev nD) : qi (yb c) ≠ qi (zb c) := by revert c; decide +kernel
theorem qi_yb_ne_yb_zb (c : Dev nD) : qi (yb c) ≠ qi (yb (zb c)) := by revert c; decide +kernel
theorem qi_zb_ne_yb_zb (c : Dev nD) : qi (zb c) ≠ qi (yb (zb c)) := by revert c; decide +kernel
/-- The four quarters of a group are 0, 1, 2, 3. -/
theorem qi_perm (c : Dev nD) : ({qi c, qi (yb c), qi (zb c), qi (yb (zb c))} : Finset ℕ) = {0, 1, 2, 3} := by
  revert c; decide +kernel

/-! ## Where a quarter comes from

`origin c Q` is the device across x, in the group of four of `c`, whose quarter is `Q`. -/

theorem origin_qi (c : Dev nD) : origin c (qi c) = px c := by revert c; decide +kernel
theorem origin_qi_yb (c : Dev nD) : origin c (qi (yb c)) = px (yb c) := by revert c; decide +kernel
theorem origin_qi_zb (c : Dev nD) : origin c (qi (zb c)) = px (zb c) := by revert c; decide +kernel
theorem origin_qi_yb_zb (c : Dev nD) : origin c (qi (yb (zb c))) = px (yb (zb c)) := by revert c; decide +kernel
/-- The origin of a quarter has that quarter. -/
theorem qi_origin (c : Dev nD) (Q : Fin 4) : qi (origin c Q.val) = Q.val := by revert c Q; decide +kernel
/-- The origin is across x. -/
theorem x_origin (c : Dev nD) (Q : ℕ) : (origin c Q).val / 16 = 1 - c.val / 16 := by
  show (16 * (1 - c.val / 16) + 8 * ((c.val / 8) % 2) + 4 * ((Q / 2) % 2) + 2 * ((c.val / 2) % 2) + Q % 2) / 16 = _; omega

/-! ## The devices the kernel addresses

Each device id the kernel computes, word by word, from its own coordinates is the partner, the y buddy or the z buddy. -/

theorem dev1_val : ∀ c : Dev nD, k0_dev1 c = (px c).val := by decide +kernel
theorem dev1_eq (c : Dev nD) : (⟨k0_dev1 c, Gen.k0_dev1_lt c⟩ : Dev nD) = px c := Fin.ext (dev1_val c)
theorem dev2_val : ∀ c : Dev nD, k0_dev2 c = (yb c).val := by decide +kernel
theorem dev2_eq (c : Dev nD) : (⟨k0_dev2 c, Gen.k0_dev2_lt c⟩ : Dev nD) = yb c := Fin.ext (dev2_val c)
theorem dev3_val : ∀ c : Dev nD, k0_dev3 c = (zb c).val := by decide +kernel
theorem dev3_eq (c : Dev nD) : (⟨k0_dev3 c, Gen.k0_dev3_lt c⟩ : Dev nD) = zb c := Fin.ext (dev3_val c)
theorem dev4_val : ∀ c : Dev nD, k0_dev4 c = (px c).val := by decide +kernel
theorem dev4_eq (c : Dev nD) : (⟨k0_dev4 c, Gen.k0_dev4_lt c⟩ : Dev nD) = px c := Fin.ext (dev4_val c)
theorem dev5_val : ∀ c : Dev nD, k0_dev5 c = (px c).val := by decide +kernel
theorem dev5_eq (c : Dev nD) : (⟨k0_dev5 c, Gen.k0_dev5_lt c⟩ : Dev nD) = px c := Fin.ext (dev5_val c)
theorem dev6_val : ∀ c : Dev nD, k0_dev6 c = (px c).val := by decide +kernel
theorem dev6_eq (c : Dev nD) : (⟨k0_dev6 c, Gen.k0_dev6_lt c⟩ : Dev nD) = px c := Fin.ext (dev6_val c)
theorem dev7_val : ∀ c : Dev nD, k0_dev7 c = (px c).val := by decide +kernel
theorem dev7_eq (c : Dev nD) : (⟨k0_dev7 c, Gen.k0_dev7_lt c⟩ : Dev nD) = px c := Fin.ext (dev7_val c)
theorem dev8_val : ∀ c : Dev nD, k0_dev8 c = (yb c).val := by decide +kernel
theorem dev8_eq (c : Dev nD) : (⟨k0_dev8 c, Gen.k0_dev8_lt c⟩ : Dev nD) = yb c := Fin.ext (dev8_val c)
theorem dev9_val : ∀ c : Dev nD, k0_dev9 c = (zb c).val := by decide +kernel
theorem dev9_eq (c : Dev nD) : (⟨k0_dev9 c, Gen.k0_dev9_lt c⟩ : Dev nD) = zb c := Fin.ext (dev9_val c)
theorem dev10_val : ∀ c : Dev nD, k0_dev10 c = (yb c).val := by decide +kernel
theorem dev10_eq (c : Dev nD) : (⟨k0_dev10 c, Gen.k0_dev10_lt c⟩ : Dev nD) = yb c := Fin.ext (dev10_val c)
theorem dev11_val : ∀ c : Dev nD, k0_dev11 c = (zb c).val := by decide +kernel
theorem dev11_eq (c : Dev nD) : (⟨k0_dev11 c, Gen.k0_dev11_lt c⟩ : Dev nD) = zb c := Fin.ext (dev11_val c)
theorem dev12_val : ∀ c : Dev nD, k0_dev12 c = (yb c).val := by decide +kernel
theorem dev12_eq (c : Dev nD) : (⟨k0_dev12 c, Gen.k0_dev12_lt c⟩ : Dev nD) = yb c := Fin.ext (dev12_val c)
theorem dev13_val : ∀ c : Dev nD, k0_dev13 c = (zb c).val := by decide +kernel
theorem dev13_eq (c : Dev nD) : (⟨k0_dev13 c, Gen.k0_dev13_lt c⟩ : Dev nD) = zb c := Fin.ext (dev13_val c)
theorem dev14_val : ∀ c : Dev nD, k0_dev14 c = (yb c).val := by decide +kernel
theorem dev14_eq (c : Dev nD) : (⟨k0_dev14 c, Gen.k0_dev14_lt c⟩ : Dev nD) = yb c := Fin.ext (dev14_val c)
theorem dev15_val : ∀ c : Dev nD, k0_dev15 c = (zb c).val := by decide +kernel
theorem dev15_eq (c : Dev nD) : (⟨k0_dev15 c, Gen.k0_dev15_lt c⟩ : Dev nD) = zb c := Fin.ext (dev15_val c)
theorem dev16_val : ∀ c : Dev nD, k0_dev16 c = (yb c).val := by decide +kernel
theorem dev16_eq (c : Dev nD) : (⟨k0_dev16 c, Gen.k0_dev16_lt c⟩ : Dev nD) = yb c := Fin.ext (dev16_val c)
theorem dev17_val : ∀ c : Dev nD, k0_dev17 c = (yb c).val := by decide +kernel
theorem dev17_eq (c : Dev nD) : (⟨k0_dev17 c, Gen.k0_dev17_lt c⟩ : Dev nD) = yb c := Fin.ext (dev17_val c)
theorem dev18_val : ∀ c : Dev nD, k0_dev18 c = (zb c).val := by decide +kernel
theorem dev18_eq (c : Dev nD) : (⟨k0_dev18 c, Gen.k0_dev18_lt c⟩ : Dev nD) = zb c := Fin.ext (dev18_val c)
theorem dev19_val : ∀ c : Dev nD, k0_dev19 c = (zb c).val := by decide +kernel
theorem dev19_eq (c : Dev nD) : (⟨k0_dev19 c, Gen.k0_dev19_lt c⟩ : Dev nD) = zb c := Fin.ext (dev19_val c)

/-! ## The slices the kernel copies

Each row offset the kernel computes, in closed form: a half (16384 rows), a quarter of it (4096 rows), a piece of the
quarter (1024 rows). -/

/-- Destination rows, in the partner's result, of the pieces of the device's own quarter. -/
theorem off1_pt : ∀ c : Dev nD, ∀ r : Fin 4, ∀ a : Fin 2,
    k0_off1 c (BitVec.ofNat 32 (1024 * r.val)) a = (![16384 * (c.val / 16) + 4096 * qi c + 1024 * r.val, 0] : Fin 2 → ℕ) a := by decide +kernel
theorem off1_eq (c : Dev nD) (r : Fin 4) :
    k0_off1 c (BitVec.ofNat 32 (1024 * r.val)) = ![16384 * (c.val / 16) + 4096 * qi c + 1024 * r.val, 0] := funext (off1_pt c r)
theorem off1_eq_0 (c : Dev nD) : k0_off1 c 0#32 = ![16384 * (c.val / 16) + 4096 * qi c + 1024 * 0, 0] := off1_eq c ⟨0, by decide⟩
theorem off1_eq_1 (c : Dev nD) : k0_off1 c 1024#32 = ![16384 * (c.val / 16) + 4096 * qi c + 1024 * 1, 0] := off1_eq c ⟨1, by decide⟩
theorem off1_eq_2 (c : Dev nD) : k0_off1 c 2048#32 = ![16384 * (c.val / 16) + 4096 * qi c + 1024 * 2, 0] := off1_eq c ⟨2, by decide⟩
theorem off1_eq_3 (c : Dev nD) : k0_off1 c 3072#32 = ![16384 * (c.val / 16) + 4096 * qi c + 1024 * 3, 0] := off1_eq c ⟨3, by decide⟩

/-- Source rows, in the device's argument, of the pieces of its own quarter. -/
theorem off2_pt : ∀ c : Dev nD, ∀ r : Fin 4, ∀ a : Fin 2,
    k0_off2 c (BitVec.ofNat 32 (1024 * r.val)) a = (![4096 * qi c + 1024 * r.val, 0] : Fin 2 → ℕ) a := by decide +kernel
theorem off2_eq (c : Dev nD) (r : Fin 4) :
    k0_off2 c (BitVec.ofNat 32 (1024 * r.val)) = ![4096 * qi c + 1024 * r.val, 0] := funext (off2_pt c r)
theorem off2_eq_0 (c : Dev nD) : k0_off2 c 0#32 = ![4096 * qi c + 1024 * 0, 0] := off2_eq c ⟨0, by decide⟩
theorem off2_eq_1 (c : Dev nD) : k0_off2 c 1024#32 = ![4096 * qi c + 1024 * 1, 0] := off2_eq c ⟨1, by decide⟩
theorem off2_eq_2 (c : Dev nD) : k0_off2 c 2048#32 = ![4096 * qi c + 1024 * 2, 0] := off2_eq c ⟨2, by decide⟩
theorem off2_eq_3 (c : Dev nD) : k0_off2 c 3072#32 = ![4096 * qi c + 1024 * 3, 0] := off2_eq c ⟨3, by decide⟩

/-- Rows, in the other half of a result, of the pieces of the quarter the device fetched from its partner. -/
theorem off3_pt : ∀ c : Dev nD, ∀ r : Fin 4, ∀ a : Fin 2,
    k0_off3 c (BitVec.ofNat 32 (1024 * r.val)) a = (![16384 * (1 - c.val / 16) + 4096 * qi c + 1024 * r.val, 0] : Fin 2 → ℕ) a := by decide +kernel
theorem off3_eq (c : Dev nD) (r : Fin 4) :
    k0_off3 c (BitVec.ofNat 32 (1024 * r.val)) = ![16384 * (1 - c.val / 16) + 4096 * qi c + 1024 * r.val, 0] := funext (off3_pt c r)
theorem off3_eq_0 (c : Dev nD) : k0_off3 c 0#32 = ![16384 * (1 - c.val / 16) + 4096 * qi c + 1024 * 0, 0] := off3_eq c ⟨0, by decide⟩
theorem off3_eq_1 (c : Dev nD) : k0_off3 c 1024#32 = ![16384 * (1 - c.val / 16) + 4096 * qi c + 1024 * 1, 0] := off3_eq c ⟨1, by decide⟩
theorem off3_eq_2 (c : Dev nD) : k0_off3 c 2048#32 = ![16384 * (1 - c.val / 16) + 4096 * qi c + 1024 * 2, 0] := off3_eq c ⟨2, by decide⟩
theorem off3_eq_3 (c : Dev nD) : k0_off3 c 3072#32 = ![16384 * (1 - c.val / 16) + 4096 * qi c + 1024 * 3, 0] := off3_eq c ⟨3, by decide⟩

/-- Rows, in the other half of a result, of the pieces of the z buddy's quarter. -/
theorem off5_pt : ∀ c : Dev nD, ∀ r : Fin 4, ∀ a : Fin 2,
    k0_off5 c (BitVec.ofNat 32 (1024 * r.val)) a = (![16384 * (1 - c.val / 16) + 4096 * qi (zb c) + 1024 * r.val, 0] : Fin 2 → ℕ) a := by decide +kernel
theorem off5_eq (c : Dev nD) (r : Fin 4) :
    k0_off5 c (BitVec.ofNat 32 (1024 * r.val)) = ![16384 * (1 - c.val / 16) + 4096 * qi (zb c) + 1024 * r.val, 0] := funext (off5_pt c r)
theorem off5_eq_0 (c : Dev nD) : k0_off5 c 0#32 = ![16384 * (1 - c.val / 16) + 4096 * qi (zb c) + 1024 * 0, 0] := off5_eq c ⟨0, by decide⟩
theorem off5_eq_1 (c : Dev nD) : k0_off5 c 1024#32 = ![16384 * (1 - c.val / 16) + 4096 * qi (zb c) + 1024 * 1, 0] := off5_eq c ⟨1, by decide⟩
theorem off5_eq_2 (c : Dev nD) : k0_off5 c 2048#32 = ![16384 * (1 - c.val / 16) + 4096 * qi (zb c) + 1024 * 2, 0] := off5_eq c ⟨2, by decide⟩
theorem off5_eq_3 (c : Dev nD) : k0_off5 c 3072#32 = ![16384 * (1 - c.val / 16) + 4096 * qi (zb c) + 1024 * 3, 0] := off5_eq c ⟨3, by decide⟩

/-- Rows, in the other half of a result, of the pieces of the y buddy's quarter. -/
theorem off6_pt : ∀ c : Dev nD, ∀ r : Fin 4, ∀ a : Fin 2,
    k0_off6 c (BitVec.ofNat 32 (1024 * r.val)) a = (![16384 * (1 - c.val / 16) + 4096 * qi (yb c) + 1024 * r.val, 0] : Fin 2 → ℕ) a := by decide +kernel
theorem off6_eq (c : Dev nD) (r : Fin 4) :
    k0_off6 c (BitVec.ofNat 32 (1024 * r.val)) = ![16384 * (1 - c.val / 16) + 4096 * qi (yb c) + 1024 * r.val, 0] := funext (off6_pt c r)
theorem off6_eq_0 (c : Dev nD) : k0_off6 c 0#32 = ![16384 * (1 - c.val / 16) + 4096 * qi (yb c) + 1024 * 0, 0] := off6_eq c ⟨0, by decide⟩
theorem off6_eq_1 (c : Dev nD) : k0_off6 c 1024#32 = ![16384 * (1 - c.val / 16) + 4096 * qi (yb c) + 1024 * 1, 0] := off6_eq c ⟨1, by decide⟩
theorem off6_eq_2 (c : Dev nD) : k0_off6 c 2048#32 = ![16384 * (1 - c.val / 16) + 4096 * qi (yb c) + 1024 * 2, 0] := off6_eq c ⟨2, by decide⟩
theorem off6_eq_3 (c : Dev nD) : k0_off6 c 3072#32 = ![16384 * (1 - c.val / 16) + 4096 * qi (yb c) + 1024 * 3, 0] := off6_eq c ⟨3, by decide⟩

/-- Rows, in the other half of a result, of the pieces of the diagonal's quarter. -/
theorem off7_pt : ∀ c : Dev nD, ∀ r : Fin 4, ∀ a : Fin 2,
    k0_off7 c (BitVec.ofNat 32 (1024 * r.val)) a = (![16384 * (1 - c.val / 16) + 4096 * qi (yb (zb c)) + 1024 * r.val, 0] : Fin 2 → ℕ) a := by decide +kernel
theorem off7_eq (c : Dev nD) (r : Fin 4) :
    k0_off7 c (BitVec.ofNat 32 (1024 * r.val)) = ![16384 * (1 - c.val / 16) + 4096 * qi (yb (zb c)) + 1024 * r.val, 0] := funext (off7_pt c r)
theorem off7_eq_0 (c : Dev nD) : k0_off7 c 0#32 = ![16384 * (1 - c.val / 16) + 4096 * qi (yb (zb c)) + 1024 * 0, 0] := off7_eq c ⟨0, by decide⟩
theorem off7_eq_1 (c : Dev nD) : k0_off7 c 1024#32 = ![16384 * (1 - c.val / 16) + 4096 * qi (yb (zb c)) + 1024 * 1, 0] := off7_eq c ⟨1, by decide⟩
theorem off7_eq_2 (c : Dev nD) : k0_off7 c 2048#32 = ![16384 * (1 - c.val / 16) + 4096 * qi (yb (zb c)) + 1024 * 2, 0] := off7_eq c ⟨2, by decide⟩
theorem off7_eq_3 (c : Dev nD) : k0_off7 c 3072#32 = ![16384 * (1 - c.val / 16) + 4096 * qi (yb (zb c)) + 1024 * 3, 0] := off7_eq c ⟨3, by decide⟩

end Cert.KernelIdeal.AG

/-- info: 'Cert.KernelIdeal.AG.off7_eq' depends on axioms: [propext, Quot.sound] -/
#guard_msgs in #print axioms Cert.KernelIdeal.AG.off7_eq
/-- info: 'Cert.KernelIdeal.AG.dev19_eq' depends on axioms: [propext, Quot.sound] -/
#guard_msgs in #print axioms Cert.KernelIdeal.AG.dev19_eq
/-- info: 'Cert.KernelIdeal.AG.qi_perm' depends on axioms: [propext, Classical.choice, Quot.sound] -/
#guard_msgs in #print axioms Cert.KernelIdeal.AG.qi_perm
/-- info: 'Cert.KernelIdeal.AG.origin_qi_yb_zb' depends on axioms: [propext, Quot.sound] -/
#guard_msgs in #print axioms Cert.KernelIdeal.AG.origin_qi_yb_zb
-- ==== Proof.KernelIdealAG.Fund.lean ====
/-
  The global step of the launch: the ghost state of all devices, made at once.

  The launch element mints, for each device, the round state of its forty-one cells at counter zero, that each is at
  round 0, its position at round 0 of each, and the tokens of its own cells' duties: three on the barrier cell, one on
  each transfer cell, and one more on each load and store cell for its second round (51 in all). With every device's
  counters at zero the cells' invariants are allocated, all under one update; their names are gathered into one table
  that every device records; and the tokens are dealt to the devices that pay the duties: a barrier cell's three go to
  the partner, the y buddy and the z buddy, a receive cell's to the device that copies into it. The three neighbour
  maps are involutions, so dealing along them is a re-indexing of the devices.
-/
import proofs.«900686_g7700000000000687_dist_ag_v7x_xyz2x4x4_x_m16384_n1024_f32_1_alg».proof.Proof.KernelIdealAG.Proto
import proofs.«900686_g7700000000000687_dist_ag_v7x_xyz2x4x4_x_m16384_n1024_f32_1_alg».proof.Proof.KernelIdealAG.Topo
import Mathlib.Data.Fintype.Fin
import Mathlib.Data.List.FinRange

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Joined lists -/

/-- A joined list, its head apart. -/
theorem sepL_cons (P : sProp 𝕄) (l : List (sProp 𝕄)) : sepL (F := F) (P :: l) = iprop(P ∗ sepL l) := by
  cases l with
  | nil => exact (Entails.antisymm _root_.Idealize.SL.BI.sep_emp_elim _root_.Idealize.SL.BI.sep_emp_intro).symm
  | cons Q l => rfl

/-- Two lists joined are the join of their joins. -/
theorem sepL_append (l₁ l₂ : List (sProp 𝕄)) : sepL (F := F) (l₁ ++ l₂) = iprop(sepL l₁ ∗ sepL l₂) := by
  induction l₁ with
  | nil => exact (Entails.antisymm _root_.Idealize.SL.BI.emp_sep_elim _root_.Idealize.SL.BI.emp_sep_intro).symm
  | cons P l ih =>
    rw [List.cons_append, sepL_cons, sepL_cons, ih]
    exact (Std.Associative.assoc (op := (BI.sep : sProp 𝕄 → _ → _)) _ _ _).symm

/-- The chain over a list of indices is the join of the list of its summands. -/
theorem bigSepL_eq_sepL {I : Type} (l : List I) (Φ : I → sProp 𝕄) : bigSepL l Φ = sepL (F := F) (l.map Φ) := by
  induction l with
  | nil => rfl
  | cons i l ih => rw [bigSepL_cons, List.map_cons, sepL_cons, ih]; rfl

/-- Over all of `Fin n`: the join of the summands in order. -/
theorem bigSep_fin_sepL (n : ℕ) (Φ : Fin n → sProp 𝕄) :
    bigSep Finset.univ Φ = sepL (F := F) ((List.finRange n).map Φ) := by
  rw [bigSep_univ_eq_bigSepL (List.finRange n) (List.toFinset_finRange n).symm (List.nodup_finRange n), bigSepL_eq_sepL]

/-- Over the forty transfer cells. -/
theorem bigSep_fin40_sepL (Φ : Fin 40 → sProp 𝕄) :
    bigSep Finset.univ Φ = sepL (F := F) ((List.finRange 40).map Φ) := bigSep_fin_sepL 40 Φ

/-- The middle two of four, exchanged. -/
theorem sep_sep_swap (P Q R S : sProp 𝕄) : iprop((P ∗ Q) ∗ R ∗ S) ⊢ iprop((P ∗ R) ∗ Q ∗ S) := by
  iintro ⟨⟨HP, HQ⟩, HR, HS⟩
  isplitl [HP HR]
  · isplitl [HP]; · iexact HP
    iexact HR
  · isplitl [HQ]; · iexact HQ
    iexact HS

/-- A join of pairs is the pair of the joins. -/
theorem sepL_map_sep {I : Type} (l : List I) (A B : I → sProp 𝕄) :
    sepL (F := F) (l.map fun i => iprop(A i ∗ B i)) = iprop(sepL (l.map A) ∗ sepL (l.map B)) := by
  induction l with
  | nil => exact (Entails.antisymm _root_.Idealize.SL.BI.emp_sep_elim _root_.Idealize.SL.BI.emp_sep_intro).symm
  | cons i l ih =>
    rw [List.map_cons, List.map_cons, List.map_cons, sepL_cons, sepL_cons, sepL_cons, ih]
    exact Entails.antisymm (sep_sep_swap _ _ _ _) (sep_sep_swap _ _ _ _)

/-- Over `Fin (n + 1)`: the last summand, and the others. -/
theorem bigSep_fin_last (n : ℕ) (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]
  rfl

/-- The transfer cells in the order of their roles: x receive, y receive, z receive, send, local. -/
theorem bigSep_fin40_groups (Ψ : Fin 40 → sProp 𝕄) :
    bigSep Finset.univ Ψ
      = iprop(sepL (F := F) ([12, 13, 14, 15].map fun n : ℕ => Ψ ⟨n % 40, Nat.mod_lt _ (by decide)⟩)
        ∗ sepL ([20, 21, 22, 23, 34, 35].map fun n : ℕ => Ψ ⟨n % 40, Nat.mod_lt _ (by decide)⟩)
        ∗ sepL ([28, 29, 30, 31, 38, 39].map fun n : ℕ => Ψ ⟨n % 40, Nat.mod_lt _ (by decide)⟩)
        ∗ sepL ([8, 9, 10, 11, 16, 17, 18, 19, 24, 25, 26, 27, 32, 33, 36, 37].map fun n : ℕ => Ψ ⟨n % 40, Nat.mod_lt _ (by decide)⟩)
        ∗ sepL ([0, 1, 2, 3, 4, 5, 6, 7].map fun n : ℕ => Ψ ⟨n % 40, Nat.mod_lt _ (by decide)⟩)) := by
  rw [bigSep_univ_eq_bigSepL (([12, 13, 14, 15] : List (Fin 40)) ++ (([20, 21, 22, 23, 34, 35] : List (Fin 40))
      ++ (([28, 29, 30, 31, 38, 39] : List (Fin 40)) ++ (([8, 9, 10, 11, 16, 17, 18, 19, 24, 25, 26, 27, 32, 33, 36, 37] : List (Fin 40))
      ++ ([0, 1, 2, 3, 4, 5, 6, 7] : List (Fin 40)))))) (by decide) (by decide),
    bigSepL_eq_sepL, List.map_append, sepL_append, List.map_append, sepL_append, List.map_append, sepL_append,
    List.map_append, sepL_append]
  rfl

/-- A persistent assertion beside a `bigSep` reaches every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The kernel's own semaphores, and the cells by name -/

/-- The kernel's own (scoped) semaphores: the forty DMA semaphores. -/
abbrev osem : Fin 40 → SemLoc sig := fun i => .dma i

theorem ownSemFacts : Pipeline.OwnSemFacts cfg0.spec osem :=
  ⟨fun k => by revert k; decide, fun a b h => SemLoc.dma.inj h, fun k w => w.elim0⟩

theorem kcell_last (c : Dev nD) : kcell (c, Fin.last 40) = barCell c := by
  unfold kcell; exact dif_neg (Nat.lt_irrefl 40)
theorem kcell_cast (c : Dev nD) (n : Fin 40) : kcell (c, n.castSucc) = cell c n.val n.isLt := by
  unfold kcell; exact dif_pos n.isLt

/-- A cell's device, -/
theorem kcell_dev (ck : Dev nD × Fin 41) : (kcell ck).1.1 = ck.1 := by
  unfold kcell; split <;> rfl
/-- and its number. -/
theorem kcell_semNo (ck : Dev nD × Fin 41) : semNo (kcell ck).2 = ck.2.val := by
  unfold kcell
  split
  · rfl
  · rename_i h
    have := ck.2.isLt
    show 40 = ck.2.val
    omega

theorem kcell_injective : Function.Injective (kcell : Dev nD × Fin 41 → GSem nD τ sig) := by
  rintro ⟨c, k⟩ ⟨c', k'⟩ h
  have h1 : c = c' :=
    (kcell_dev (c, k)).symm.trans ((congrArg (fun g : GSem nD τ sig => g.1.1) h).trans (kcell_dev (c', k')))
  have h2 : k.val = k'.val :=
    (kcell_semNo (c, k)).symm.trans ((congrArg (fun g : GSem nD τ sig => semNo g.2) h).trans (kcell_semNo (c', k')))
  exact Prod.ext h1 (Fin.ext h2)

/-- Every device's forty-one cells. -/
def agCells : Finset (GSem nD τ sig) := Finset.univ.map ⟨kcell, kcell_injective⟩

/-- Over a device's forty-one cells: the barrier cell, and the forty transfer cells. -/
theorem bigSep_kcell (c : Dev nD) (Φ : GSem nD τ sig → sProp 𝕄) :
    bigSep Finset.univ (fun k : Fin 41 => Φ (kcell (c, k)))
      = iprop(Φ (barCell c) ∗ bigSep Finset.univ fun n : Fin 40 => Φ (cell c n.val n.isLt)) := by
  refine (bigSep_fin_last 40 (fun k : Fin 41 => Φ (kcell (c, k)))).trans ?_
  simp only [kcell_last, kcell_cast]

/-! ## The minted tokens -/

/-- The duties of a device's own cells: the barrier cell's three of round 0, each transfer cell's one of round 0, each load
    and store cell's one of round 1. -/
abbrev TokIx : Type := Fin 3 ⊕ (Fin 40 ⊕ Fin 8)

def tokOf (cj : Dev nD × TokIx) : GSem nD τ sig × ℕ × Fin 3 :=
  match cj.2 with
  | .inl d => (barCell cj.1, 0, d)
  | .inr (.inl n) => (cell cj.1 n.val n.isLt, 0, 0)
  | .inr (.inr n) => (cell cj.1 n.val (Nat.lt_trans n.isLt (by decide)), 1, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with d | n | n <;> rcases j' with d' | n' | n' <;> exact this
  subst h1
  have hs := congrArg (fun x : GSem nD τ sig × ℕ × Fin 3 => semNo x.1.2) h
  have hr := congrArg (fun x : GSem nD τ sig × ℕ × Fin 3 => x.2.1) h
  have hd := congrArg (fun x : GSem nD τ sig × ℕ × Fin 3 => x.2.2) h
  rcases j with d | n | n <;> rcases j' with d' | n' | n'
  · have hd' : d = d' := hd
    rw [hd']
  · have hs' : 40 = n'.val := hs
    have := n'.isLt
    omega
  · have hs' : 40 = n'.val := hs
    have := n'.isLt
    omega
  · have hs' : n.val = 40 := hs
    have := n.isLt
    omega
  · have hs' : n.val = n'.val := hs
    rw [Fin.ext hs']
  · have hr' : (0 : ℕ) = 1 := hr
    omega
  · have hs' : n.val = 40 := hs
    have := n.isLt
    omega
  · have hr' : (1 : ℕ) = 0 := hr
    omega
  · have hs' : n.val = n'.val := hs
    rw [Fin.ext hs']

/-- The tokens of every device's own cells. -/
def agToks : Finset (GSem nD τ sig × ℕ × Fin 3) := Finset.univ.map ⟨tokOf, tokOf_injective⟩

/-- The launch element: the staging cells' (none here) and the protocol's. -/
def u₀ : UU :=
  (initOf (Pipeline.cells cfgs cellOf_inj) (Pipeline.launchToks cfgs cellOf_inj), initOf agCells agToks)

/-- The token of duty 0 of round `r` of device `c`'s transfer cell number `n`. -/
abbrev tk (c : Dev nD) (r n : ℕ) : sProp 𝕄 :=
  dutyTok ER ((c : Thread nD τ), SemLoc.dma ⟨n % 40, Nat.mod_lt _ (by decide)⟩) r 0

/-- The tokens of device `c`'s own cells as minted: the barrier cell's three; the transfer cells' by role (x receive, y
    receive, z receive, send, local); the local cells' second round. -/
def toks (c : Dev nD) : sProp 𝕄 :=
  iprop((dutyTok ER (barCell c) 0 0 ∗ dutyTok ER (barCell c) 0 1 ∗ dutyTok ER (barCell c) 0 2)
    ∗ (sepL ([12, 13, 14, 15].map (tk (F := F) c 0))
      ∗ sepL ([20, 21, 22, 23, 34, 35].map (tk (F := F) c 0))
      ∗ sepL ([28, 29, 30, 31, 38, 39].map (tk (F := F) c 0))
      ∗ sepL ([8, 9, 10, 11, 16, 17, 18, 19, 24, 25, 26, 27, 32, 33, 36, 37].map (tk (F := F) c 0))
      ∗ sepL ([0, 1, 2, 3, 4, 5, 6, 7].map (tk (F := F) c 0)))
    ∗ sepL ([0, 1, 2, 3, 4, 5, 6, 7].map (tk (F := F) c 1)))

/-- The minted tokens of device `c`, by role. -/
theorem toks_eq (c : Dev nD) :
    bigSep Finset.univ (fun j : TokIx => (dutyTok ER (tokOf (c, j)).1 (tokOf (c, j)).2.1 (tokOf (c, j)).2.2 : sProp 𝕄)) = toks c := by
  rw [bigSep_univ_sum, bigSep_univ_sum, bigSep_univ_eq_bigSepL ([0, 1, 2] : List (Fin 3)) (by decide) (by decide),
    bigSep_fin40_groups, bigSep_fin_sepL 8]
  rfl

/-! ## What the launch element deals a device, and what the global step makes of it -/

/-- What the launch element deals device `c`: its cells' round states at counter zero, its positions, that each cell is
    at round 0, and its own cells' tokens. -/
def G (m : (ℓ : Loc nD τ sig) → Buf (Elt F) ℓ) (c : Dev nD) : sProp 𝕄 :=
  iprop((bigSep Finset.univ fun k : Fin 41 => roundState ER (agRd m) (kcell (c, k)) 0)
    ∗ (bigSep Finset.univ fun k : Fin 41 => iprop(atPos ER (kcell (c, k)) 0 ∅ 0 ∗ reached ER (kcell (c, k)) 0)) ∗ toks c)

/-- What the global step makes of it: the ghost state the device's body starts from, at some table of names. -/
def G' (m : (ℓ : Loc nD τ sig) → Buf (Elt F) ℓ) (c : Dev nD) : sProp 𝕄 := iprop(∃ K, ghost m K c)

theorem fund_ag (m : (ℓ : Loc nD τ sig) → Buf (Elt F) ℓ) :
    BI.own (ER (initOf agCells agToks)) ⊢ (|==> bigSep Finset.univ (G m) : sProp 𝕄) := by
  have hX (Φ : GSem nD τ sig → sProp 𝕄) :
      bigSep agCells Φ = bigSep Finset.univ fun c : Dev nD => bigSep Finset.univ fun k : Fin 41 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => toks_eq c
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, split: the staging cells' part, and every device's share of the protocol's. -/
theorem hu₀ (m : (ℓ : Loc nD τ sig) → Buf (Elt F) ℓ) :
    (ownU u₀ : sProp 𝕄)
      ⊢ |={Set.univ}=> iprop(BI.own (EP (initOf (Pipeline.cells cfgs cellOf_inj) (Pipeline.launchToks cfgs cellOf_inj)))
          ∗ bigSep Finset.univ (G m)) := by
  unfold u₀
  iintro Hu
  ihave H := (ownU_pair _ _) $$ Hu
  icases H with ⟨HP, HX⟩
  imod (fund_ag m) $$ HX with HG
  imodintro
  isplitl [HP] <;> iassumption

/-! ## The counters at zero -/

/-- The forty DMA semaphores are the kernel's own; -/
theorem ownSems0_eq (c : Dev nD) :
    (Pipeline.ownSems0 (Ix := Unit) (Name := ℕ) (U := UU) (Lvl := ℕ) (Val := Elt F) (τ := τ) osem c : sProp 𝕄)
      = bigSep Finset.univ fun n : Fin 40 => semVal (cell c n.val n.isLt) 0 := rfl

/-- The same, as the join of the forty counters in order. -/
theorem ownSems0_eq_sepL (c : Dev nD) :
    (Pipeline.ownSems0 (Ix := Unit) (Name := ℕ) (U := UU) (Lvl := ℕ) (Val := Elt F) (τ := τ) osem c : sProp 𝕄)
      = sepL ((List.finRange 40).map fun n => semVal (cell c n.val n.isLt) 0) :=
  (ownSems0_eq c).trans (bigSep_fin40_sepL _)

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 41 => semVal (kcell (c, k)) 0 : sProp 𝕄) := by
  rw [ownSems0_eq, unscopedSems0_eq, bigSep_kcell c (fun g => (semVal g 0 : sProp 𝕄))]
  iintro ⟨HS, HB⟩
  isplitl [HB] <;> iassumption

/-- A device's cells' invariants allocated, from its counters at zero and its round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 41 => iprop(∃ κ : ℕ, cellInv ER (agRd m) κ (kcell (c, k))))
          ∗ (bigSep Finset.univ fun k : Fin 41 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 41 => semVal (kcell (c, k)) 0)
        ∗ bigSep Finset.univ fun k : Fin 41 => roundState ER (agRd m) (kcell (c, k)) 0)
      ⊢ (|={Set.univ}=> bigSep Finset.univ fun k : Fin 41 => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The dealing -/

/-- The three neighbour maps, as re-indexings of the devices. -/
def dealX : Dev nD ≃ Dev nD := ⟨px, px, px_px, px_px⟩
def dealY : Dev nD ≃ Dev nD := ⟨yb, yb, yb_yb, yb_yb⟩
def dealZ : Dev nD ≃ Dev nD := ⟨zb, zb, zb_zb, zb_zb⟩

/-- The tokens device `c` pays with, by role. -/
theorem payToks_eq (c : Dev nD) : (payToks c : sProp 𝕄)
    = iprop((dutyTok ER (barCell (px c)) 0 0 ∗ dutyTok ER (barCell (yb c)) 0 1 ∗ dutyTok ER (barCell (zb c)) 0 2)
      ∗ sepL ([12, 13, 14, 15].map (tk (F := F) (px c) 0))
      ∗ sepL ([20, 21, 22, 23, 34, 35].map (tk (F := F) (yb c) 0))
      ∗ sepL ([28, 29, 30, 31, 38, 39].map (tk (F := F) (zb c) 0))
      ∗ sepL ([8, 9, 10, 11, 16, 17, 18, 19, 24, 25, 26, 27, 32, 33, 36, 37].map (tk (F := F) c 0))
      ∗ sepL ([0, 1, 2, 3, 4, 5, 6, 7].map (tk (F := F) c 0))
      ∗ sepL ([0, 1, 2, 3, 4, 5, 6, 7].map (tk (F := F) c 1))) := by
  unfold payToks
  rw [sepL_map_sep [0, 1, 2, 3, 4, 5, 6, 7] (tk (F := F) c 0) (tk (F := F) c 1)]

/-- The tokens dealt: a barrier cell's three to the partner, the y buddy and the z buddy; the x receive cells' to the
    partner, the y receive cells' to the y buddy, the z receive cells' to the z buddy; the rest stay. -/
theorem toks_around : (bigSep Finset.univ fun c : Dev nD => (toks c : sProp 𝕄)) ⊢ bigSep Finset.univ fun c : Dev nD => payToks c := by
  rw [bigSep_congr (s := Finset.univ) (fun (c : Dev nD) _ => payToks_eq (F := F) c)]
  unfold toks
  simp only [bigSep_sep']
  rw [bigSep_univ_equiv dealX (fun c : Dev nD => (dutyTok ER (barCell c) 0 0 : sProp 𝕄)),
    bigSep_univ_equiv dealY (fun c : Dev nD => (dutyTok ER (barCell c) 0 1 : sProp 𝕄)),
    bigSep_univ_equiv dealZ (fun c : Dev nD => (dutyTok ER (barCell c) 0 2 : sProp 𝕄)),
    bigSep_univ_equiv dealX (fun c : Dev nD => sepL ([12, 13, 14, 15].map (tk (F := F) c 0))),
    bigSep_univ_equiv dealY (fun c : Dev nD => sepL ([20, 21, 22, 23, 34, 35].map (tk (F := F) c 0))),
    bigSep_univ_equiv dealZ (fun c : Dev nD => sepL ([28, 29, 30, 31, 38, 39].map (tk (F := F) c 0)))]
  iintro ⟨⟨H0, H1, H2⟩, ⟨HX, HY, HZ, HS, HL0⟩, HL1⟩
  isplitl [H0 H1 H2]
  · isplitl [H0]; · iexact H0
    isplitl [H1]; · iexact H1
    iexact H2
  isplitl [HX]; · iexact HX
  isplitl [HY]; · iexact HY
  isplitl [HZ]; · iexact HZ
  isplitl [HS]; · iexact HS
  isplitl [HL0]; · iexact HL0
  iexact HL1

/-! ## The global step -/

/-- A device's positions at its forty-one cells, the barrier cell's first. -/
theorem positions_eq (c : Dev nD) :
    (bigSep Finset.univ fun k : Fin 41 => (atPos ER (kcell (c, k)) 0 ∅ 0 : sProp 𝕄)) = positions c := by
  refine (bigSep_kcell c (fun g => (atPos ER g 0 ∅ 0 : sProp 𝕄))).trans ?_
  rw [bigSep_fin_sepL 40]
  rfl

theorem ghost_intro (m : (ℓ : Loc nD τ sig) → Buf (Elt F) ℓ) (K : Dev nD × Fin 41 → ℕ) (c : Dev nD) :
    iprop(records m K ∗ positions c ∗ payToks c) ⊢ G' m c := by
  unfold G' ghost
  iintro H
  iexists K
  iexact H

theorem regroup (m : (ℓ : Loc nD τ sig) → Buf (Elt F) ℓ) :
    (bigSep Finset.univ fun c : Dev nD => iprop((bigSep Finset.univ fun k : Fin 41 => iprop(∃ κ : ℕ, cellInv ER (agRd m) κ (kcell (c, k))))
          ∗ (bigSep Finset.univ fun k : Fin 41 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 41 => iprop(∃ κ : ℕ, cellInv ER (agRd m) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 41 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: every device's own and unscoped semaphores at zero and its share of the launch element, into every
    device's ghost state, under one update. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.KernelIdeal.AG.glob' depends on axioms: [propext, Classical.choice, Quot.sound] -/
#guard_msgs in #print axioms glob
/-- info: 'Cert.KernelIdeal.AG.hu₀' depends on axioms: [propext, Classical.choice, Quot.sound] -/
#guard_msgs in #print axioms hu₀
/-- info: 'Cert.KernelIdeal.AG.ownSemFacts' depends on axioms: [propext, Classical.choice, Quot.sound] -/
#guard_msgs in #print axioms ownSemFacts

end Cert.KernelIdeal.AG

end
-- ==== Proof.KernelIdealAG.Run.lean ====
/-
  The launch credit, the launch theorem's side conditions, and the run of the all-gather from its body obligation.

  What a device owes a cell is read off its list of payments: the tallies of a list at a cell are the sum of the
  payments made to that cell, and cells of different devices or different semaphores are different. A barrier cell is
  owed one unit by each of its device's three neighbours, a receive cell a chunk's credit by the one device that copies
  into it; the neighbour maps are involutions, so "d pays c's cell" reads either way round. Summed over all devices
  that is the launch credit: three units on the barrier cell, a chunk's credit on each of the sixteen receive cells.

  From that credit, the level facts, the two arrays whole (the argument as launched, the result at any contents) and
  the ghost state of the global step a device has what its body starts from; with the staging buffer that is the
  invariant before the point; after the point the invariant gives back the two arrays whole, the forty semaphores at
  zero and the staging buffer. There is no window, so the pipeline itself waits on nothing. The run then reads the two
  whole arrays against the final state.
-/
import proofs.«900686_g7700000000000687_dist_ag_v7x_xyz2x4x4_x_m16384_n1024_f32_1_alg».proof.Proof.KernelIdealAG.Fund
import proofs.«900686_g7700000000000687_dist_ag_v7x_xyz2x4x4_x_m16384_n1024_f32_1_alg».proof.Proof.KernelIdealAG.Topo

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells apart -/

theorem run_bar_eq {a b : Dev nD} : barCell a = barCell b ↔ a = b :=
  ⟨fun h => Fin.ext (congrArg (fun g : GSem nD τ sig => g.1.1.val) h), fun h => h ▸ rfl⟩

theorem run_cell_eq {a b : Dev nD} {n n' : ℕ} {h : n < 40} {h' : n' < 40} :
    cell a n h = cell b n' h' ↔ a = b ∧ n = n' :=
  ⟨fun e => ⟨Fin.ext (congrArg (fun g : GSem nD τ sig => g.1.1.val) e), by
      have e2 : (SemLoc.dma (ds n h) : SemLoc sig) = SemLoc.dma (ds n' h') := congrArg Prod.snd e
      exact congrArg Fin.val (SemLoc.dma.inj e2)⟩,
    fun ⟨e1, e2⟩ => by subst e1; subst e2; rfl⟩

theorem run_bar_ne_cell {a b : Dev nD} {n : ℕ} {h : n < 40} : barCell a ≠ cell b n h := fun e => by
  have e2 : (SemLoc.reg barS : SemLoc sig) = SemLoc.dma (ds n h) := congrArg Prod.snd e
  cases e2

theorem run_cell_ne_bar {a b : Dev nD} {n : ℕ} {h : n < 40} : cell b n h ≠ barCell a := fun e => run_bar_ne_cell e.symm

/-! ## The involutions, as swaps of an equation -/

theorem px_swap {a b : Dev nD} : a = px b ↔ b = px a := ⟨fun h => by rw [h, px_px], fun h => by rw [h, px_px]⟩
theorem yb_swap {a b : Dev nD} : a = yb b ↔ b = yb a := ⟨fun h => by rw [h, yb_yb], fun h => by rw [h, yb_yb]⟩
theorem zb_swap {a b : Dev nD} : a = zb b ↔ b = zb a := ⟨fun h => by rw [h, zb_zb], fun h => by rw [h, zb_zb]⟩

/-! ## What a device owes a cell -/

/-- The tallies of a list of payments at a cell: the sum of the payments made to that cell. -/
theorem sumT_apply (l : List (GSem nD τ sig × ℕ)) (g : GSem nD τ sig) :
    sumT l g () = (l.map fun e => if g = e.1 then e.2 else 0).sum := by
  induction l with
  | nil => rfl
  | cons a l ih =>
    rw [sumT_cons, Pi.add_apply, Finsupp.add_apply, ih, tallyAt_apply, List.map_cons, List.sum_cons, Nat.add_comm]
    congr 1
    by_cases h : g = a.1
    · rw [if_pos ⟨h, rfl⟩, if_pos h]
    · rw [if_neg (fun h' => h h'.1), if_neg h]

/-- What device d owes device c's barrier cell: a unit for each of c's three neighbours that d is. -/
theorem owed_bar (d c : Dev nD) :
    O₀ d (barCell c) () = (if d = px c then 1 else 0) + (if d = yb c then 1 else 0) + (if d = zb c then 1 else 0) := by
  unfold O₀
  rw [sumT_apply]
  simp only [owedList, List.map_cons, List.map_nil, List.sum_cons, List.sum_nil, run_bar_eq, run_bar_ne_cell, if_false, Nat.add_zero, Nat.zero_add]
  rw [if_congr (px_swap (a := c) (b := d)) rfl rfl, if_congr (yb_swap (a := c) (b := d)) rfl rfl, if_congr (zb_swap (a := c) (b := d)) rfl rfl, Nat.add_assoc]

/-- The device that pays receive cell n of device c: the partner for the x cells, the y buddy for the y and
    y-diagonal cells, the z buddy for the others. -/
def payer (c : Dev nD) (n : ℕ) : Dev nD :=
  if n < 16 then px c else if n < 24 ∨ (34 ≤ n ∧ n < 36) then yb c else zb c

theorem isRecv_cases {n : ℕ} (hr : isRecv n) :
    n = 12 ∨ n = 13 ∨ n = 14 ∨ n = 15 ∨ n = 20 ∨ n = 21 ∨ n = 22 ∨ n = 23 ∨ n = 28 ∨ n = 29 ∨ n = 30 ∨ n = 31 ∨ n = 34 ∨ n = 35 ∨ n = 38 ∨ n = 39 := by
  unfold isRecv at hr; omega

/-- What device d owes receive cell n of device c: the chunk's credit if d is the cell's payer. -/
theorem owed_recv (d c : Dev nD) (n : ℕ) (h : n < 40) (hr : isRecv n) :
    O₀ d (cell c n h) () = if d = payer c n then N else 0 := by
  unfold O₀
  rw [sumT_apply]
  rcases isRecv_cases hr with rfl | rfl | rfl | rfl | rfl | rfl | rfl | rfl | rfl | rfl | rfl | rfl | rfl | rfl | rfl | rfl <;>
    simp (config := { decide := true }) only [owedList, payer, List.map_cons, List.map_nil, List.sum_cons, List.sum_nil, run_cell_eq, run_cell_ne_bar,
      if_false, if_true, and_true, and_false, or_true, or_false, true_or, false_or, true_and, false_and, Nat.add_zero, Nat.zero_add] <;>
    first
      | exact if_congr px_swap rfl rfl
      | exact if_congr yb_swap rfl rfl
      | exact if_congr zb_swap rfl rfl

/-! ## The launch credit -/

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (px c) fun _ => 1, Finset.sum_ite_eq' Finset.univ (yb c) fun _ => 1, Finset.sum_ite_eq' Finset.univ (zb c) fun _ => 1,
    if_pos (Finset.mem_univ _), if_pos (Finset.mem_univ _), if_pos (Finset.mem_univ _)]

theorem launch_recv (c : Dev nD) (n : ℕ) (h : n < 40) (hr : isRecv n) :
    tallyOn (cell c n h) (launchCredit (Pipeline.owing O₀) 0 (cell c n h)) = (tallyAt (cell c n h) () N : CellTallies nD τ sig Unit) := by
  unfold tallyAt; refine congrArg _ (Finsupp.ext fun u => ?_); cases u
  rw [Pipeline.launchCredit_owing, Finsupp.single_eq_same, Finset.sum_congr rfl fun d _ => owed_recv d c n h hr,
    Finset.sum_ite_eq' Finset.univ (payer c n) fun _ => N, if_pos (Finset.mem_univ _)]

/-- The seventeen cells of a device that other devices pay: its barrier cell and its sixteen receive cells. -/
def credSems : List (SemLoc sig) :=
  SemLoc.reg barS :: [12, 13, 14, 15, 20, 21, 22, 23, 28, 29, 30, 31, 34, 35, 38, 39].map fun n => SemLoc.dma ⟨n % 40, Nat.mod_lt _ (by decide)⟩

theorem credSems_nodup : (credSems).Nodup := by decide

theorem cred_recv (c : Dev nD) (n : ℕ) (h : n < 40) (hr : isRecv n) :
    (cred (tallyOn (cell c n h) (launchCredit (Pipeline.owing O₀) 0 (cell c n h))) : sProp 𝕄) ⊢ cred (tallyAt (cell c n h) () N) :=
  Entails.of_eq (congrArg cred (launch_recv c n h hr))

/-- Of an assertion per cell of a device, the seventeen paid cells' can be kept. -/
theorem creds_pick (Φ : SemLoc sig → sProp 𝕄) : bigSep Finset.univ Φ ⊢ bigSepL credSems Φ := by
  rw [← bigSep_eq_bigSepL credSems credSems_nodup]
  exact bigSep_subset (Finset.subset_univ _)

theorem creds_intro (c : Dev nD) : (Pipeline.launchCred O₀ c : sProp 𝕄) ⊢ creds c := by
  unfold Pipeline.launchCred
  refine (creds_pick _).trans ?_
  unfold creds
  refine BI.sep_mono (Entails.of_eq (congrArg cred (launch_bar c))) ?_
  refine BI.sep_mono (cred_recv c 12 (by decide) (by decide)) ?_
  refine BI.sep_mono (cred_recv c 13 (by decide) (by decide)) ?_
  refine BI.sep_mono (cred_recv c 14 (by decide) (by decide)) ?_
  refine BI.sep_mono (cred_recv c 15 (by decide) (by decide)) ?_
  refine BI.sep_mono (cred_recv c 20 (by decide) (by decide)) ?_
  refine BI.sep_mono (cred_recv c 21 (by decide) (by decide)) ?_
  refine BI.sep_mono (cred_recv c 22 (by decide) (by decide)) ?_
  refine BI.sep_mono (cred_recv c 23 (by decide) (by decide)) ?_
  refine BI.sep_mono (cred_recv c 28 (by decide) (by decide)) ?_
  refine BI.sep_mono (cred_recv c 29 (by decide) (by decide)) ?_
  refine BI.sep_mono (cred_recv c 30 (by decide) (by decide)) ?_
  refine BI.sep_mono (cred_recv c 31 (by decide) (by decide)) ?_
  refine BI.sep_mono (cred_recv c 34 (by decide) (by decide)) ?_
  refine BI.sep_mono (cred_recv c 35 (by decide) (by decide)) ?_
  refine BI.sep_mono (cred_recv c 38 (by decide) (by decide)) ?_
  exact cred_recv c 39 (by decide) (by decide)

/-! ## The launch theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G' whole xin
  isplitl
  · isplitl [HG]; · iexact HG
    isplitl [Hc]; · iexact Hc
    isplitl [Hlev]; · iexact Hlev
    isplitl [Ha]; · iexact Ha
    iexists (m ((c : Thread nD τ).loc main_v1)); iexact Hv
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ whole
  iintro ⟨Hs, -, ⟨%f, Hr⟩⟩
  isplitl [Hs]; · iexact Hs
  iexists f; iexact Hr

/-- A chain over a listed index set is the chain of the listed assertions. -/
theorem run_bigSepL_eq_sepL {I : Type} (l : List I) (Φ : I → sProp 𝕄) : bigSepL l Φ = sepL (l.map Φ) := by
  induction l with
  | nil => rfl
  | cons i l ih =>
    cases l with
    | nil => rfl
    | cons j l => rw [bigSepL_cons_cons, ih]; rfl

/-- The kernel's own forty semaphores at zero, as the chain the body ends with. -/
theorem run_ownSems0_eq (c : Dev nD) :
    (Pipeline.ownSems0 (Ix := Unit) (Name := ℕ) (U := UU) (Lvl := ℕ) (Val := Elt F) (τ := τ) osem c : sProp 𝕄)
      = sepL ((List.finRange 40).map fun n => semVal (cell c n.val n.isLt) 0) := by
  rw [← run_bigSepL_eq_sepL]
  exact bigSep_univ_eq_bigSepL (List.finRange 40)
    (Finset.eq_univ_iff_forall.mpr fun x => List.mem_toFinset.mpr (List.mem_finRange x)).symm (List.nodup_finRange 40) _

theorem phi1_exit (m : (ℓ : Loc nD τ sig) → Buf (Elt F) ℓ) (c : Dev nD) :
    (dats m 0 c).Φ (Fin.last cfg0.N)
      ⊢ iprop((whole c main_arg0 (xin m c) ∗ whole c main_v1 (target m c)) ∗ Pipeline.ownSems0 osem c ∗ Pipeline.scopedRest cfg0.spec c) := by
  rw [show (dats m 0 c).Φ (Fin.last cfg0.N) = Φ₁ m c from rfl, scopedRest0_eq, run_ownSems0_eq]
  unfold Φ₁
  iintro ⟨Ha, Hv, ⟨%f, Hr⟩, Hz⟩
  isplitl [Ha Hv]
  · isplitl [Ha] <;> iassumption
  isplitl [Hz]; · iexact Hz
  iexists f; unfold whole; iexact Hr

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

/-! ## The run -/

/-- Both whole arrays read against the state at the end. -/
theorem read_end (m : (ℓ : Loc nD τ sig) → Buf (Elt F) ℓ) (c : Dev nD) (s' : Phys nD τ sig (Elt F)) :
    iprop(iprop(whole c main_arg0 (xin m c) ∗ whole c main_v1 (target m c)) ∗ iprop(emp) ∗ SI s')
      ⊢ |={Set.univ}=> iprop(⌜s'.mem.mem ((c : Thread nD τ).loc main_v1) = target m c ∧ s'.mem.mem ((c : Thread nD τ).loc main_arg0) = xin m c⌝ ∗ SI s') := by
  unfold whole
  iintro ⟨⟨Hx, Hy⟩, -, HSI⟩
  icombine HSI Hx gives %hx
  icombine HSI Hy gives %hy
  imodintro
  isplitr; · ipureintro; exact ⟨Buf.eq_of_forall_mem_univ hy, Buf.eq_of_forall_mem_univ hx⟩
  iexact HSI

set_option maxRecDepth 8000 in
/-- At the compiled mesh of thirty-two devices, for any float values, from any memory with zero counters: if every
    device's body meets its obligation, every weakly fair execution of @main terminates, and every final state has each
    device's result array holding the whole gathered array and its argument array what it held. -/
theorem run_main (m : (ℓ : Loc nD τ sig) → Buf (Elt F) ℓ) (ρ : Dev nD → PrngReg)
    (hbody : ∀ c, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = target m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := fun c => iprop(whole c main_arg0 (xin m c) ∗ whole c main_v1 (target m c))) (Z := fun _ => iprop(emp))
    (hX := start_intro m ρ) (hin := phi0_intro m) (hout := phi1_exit m)
    (QY := fun c s => s.mem ((c : Thread nD τ).loc main_v1) = target m c ∧ s.mem ((c : Thread nD τ).loc main_arg0) = xin m c)
    (hY := fun c s' => read_end m c s')
    (hQ := fun _ h c => (h c).2.2)

/-- info: 'Cert.KernelIdeal.AG.run_main' depends on axioms: [propext, Classical.choice, Quot.sound] -/
#guard_msgs in #print axioms run_main

end Cert.KernelIdeal.AG

end
-- ==== Proof.KernelIdealAG.Geom.lean ====
/-
  Cutting and joining buffers by rows, and the body's slices in canonical spelling.

  Every copy of the all-gather moves whole rows, so every piece of a buffer that changes hands is a band of
  consecutive rows. A band of n + m rows is the disjoint union of its first n and its last m; folding this along the
  rows cuts the argument into its quarter's four chunks, the result into the eight chunks of the device's own half and
  the sixteen of the other, and the staging buffer into its four slots. The slices the body takes, at the row offsets
  it computes word by word, are the slices at these bands.
-/
import proofs.«900686_g7700000000000687_dist_ag_v7x_xyz2x4x4_x_m16384_n1024_f32_1_alg».proof.Proof.KernelIdealAG.Proto
import proofs.«900686_g7700000000000687_dist_ag_v7x_xyz2x4x4_x_m16384_n1024_f32_1_alg».proof.Proof.KernelIdealAG.Topo

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Holding rows: values off the rows do not matter, and a full share is two halves -/

theorem pts_congr (c : Dev nD) (b : Ref sig .tc) (Rr : Rect b.ty.shape) (q : PosShare TreeShare)
    (f g : Buf (Elt F) ((c : Thread nD τ).loc b)) (h : ∀ i ∈ Rr.set, f i = g i) :
    pts c b Rr q f = pts c b Rr q g := by
  unfold pts; exact pointsTo_congr h

theorem pts_half (c : Dev nD) (b : Ref sig .tc) (Rr : Rect b.ty.shape) (f : Buf (Elt F) ((c : Thread nD τ).loc b)) :
    pts c b Rr fullShare f ⊣⊢ iprop(pts c b Rr fullShare.left f ∗ pts c b Rr fullShare.right f) := by
  unfold pts; exact pointsTo_share (PosShare.mem_left_op_right fullShare)

/-- Rows that are the disjoint union of two sets of rows are held as the two are. -/
theorem pts_cut (c : Dev nD) (b : Ref sig .tc) (K I J : Rect b.ty.shape) (q : PosShare TreeShare)
    (f : Buf (Elt F) ((c : Thread nD τ).loc b))
    (hK : ∀ i, i ∈ K.set ↔ i ∈ I.set ∨ i ∈ J.set) (hd : ∀ i, i ∈ I.set → i ∈ J.set → False) :
    pts c b K q f ⊣⊢ iprop(pts c b I q f ∗ pts c b J q f) := by
  have e : K.set = I.set ∪ J.set := by
    ext i; rw [Finset.mem_union]; exact hK i
  unfold pts; rw [e]
  exact pointsTo_union (Finset.disjoint_left.mpr fun i hi hj => hd i hi hj)

/-! ## Bands of rows

A band is the rows [a, a + n) of a two-dimensional array, every column. A row index lies in it when it lies in that
interval; so a band of n + m rows is its first n rows and its last m, and two bands that do not meet are disjoint: all
of it arithmetic on the row index. -/

/-- Rows [a, a + n) of an R × C array. -/
def band {R C : ℕ} (a n : ℕ) (h : a + n ≤ R) : Rect (⟨2, ![R, C]⟩ : Shape) :=
  Rect.unit (s := ⟨2, ![R, C]⟩) ![a, 0] (⟨2, ![n, C]⟩ : Shape).size (inb2 h)

theorem mem_band {R C a n : ℕ} {h : a + n ≤ R} {i : (⟨2, ![R, C]⟩ : Shape).Idx} :
    i ∈ (band (C := C) a n h).set ↔ a ≤ (i 0).val ∧ (i 0).val < a + n := by
  unfold band
  rw [Rect.mem_set_unit]
  have h1 : (i 1).val < C := (i 1).isLt
  constructor
  · intro hh; exact hh 0
  · intro hh
    exact Fin.forall_fin_two.mpr ⟨hh, Nat.zero_le _, (by show (i 1).val < 0 + C; omega)⟩

/-- Rows [a, a + n) of the result array. -/
abbrev bandO (a n : ℕ) (h : a + n ≤ 32768) : Rect S32768x1024 := band (R := 32768) (C := 1024) a n h
/-- Rows [a, a + n) of the argument array. -/
abbrev bandX (a n : ℕ) (h : a + n ≤ 16384) : Rect S16384x1024 := band (R := 16384) (C := 1024) a n h

theorem mem_bandO {a n : ℕ} {h : a + n ≤ 32768} {i : S32768x1024.Idx} :
    i ∈ (bandO a n h).set ↔ a ≤ (i 0).val ∧ (i 0).val < a + n := mem_band
theorem mem_bandX {a n : ℕ} {h : a + n ≤ 16384} {i : S16384x1024.Idx} :
    i ∈ (bandX a n h).set ↔ a ≤ (i 0).val ∧ (i 0).val < a + n := mem_band

theorem mem_oCh (c : Dev nD) (Q k : Fin 4) (i : S32768x1024.Idx) :
    i ∈ (oCh c Q k).set ↔ 16384 * (1 - c.val / 16) + 4096 * Q.val + 1024 * k.val ≤ (i 0).val
      ∧ (i 0).val < 16384 * (1 - c.val / 16) + 4096 * Q.val + 1024 * k.val + 1024 :=
  mem_band (R := 32768) (C := 1024) (a := 16384 * (1 - c.val / 16) + 4096 * Q.val + 1024 * k.val) (n := 1024)
    (h := by have := Q.isLt; have := k.isLt; omega)
theorem mem_oOwn (c : Dev nD) (j : Fin 8) (i : S32768x1024.Idx) :
    i ∈ (oOwn c j).set ↔ 16384 * (c.val / 16) + 2048 * j.val ≤ (i 0).val
      ∧ (i 0).val < 16384 * (c.val / 16) + 2048 * j.val + 2048 :=
  mem_band (R := 32768) (C := 1024) (a := 16384 * (c.val / 16) + 2048 * j.val) (n := 2048)
    (h := by have hc : c.val < 32 := c.isLt; have := j.isLt; omega)
theorem mem_xCh (Q k : Fin 4) (i : S16384x1024.Idx) :
    i ∈ (xCh Q k).set ↔ 4096 * Q.val + 1024 * k.val ≤ (i 0).val ∧ (i 0).val < 4096 * Q.val + 1024 * k.val + 1024 :=
  mem_band (R := 16384) (C := 1024) (a := 4096 * Q.val + 1024 * k.val) (n := 1024)
    (h := by have := Q.isLt; have := k.isLt; omega)
theorem mem_xLd (j : Fin 8) (i : S16384x1024.Idx) :
    i ∈ (xLd j).set ↔ 2048 * j.val ≤ (i 0).val ∧ (i 0).val < 2048 * j.val + 2048 :=
  mem_band (R := 16384) (C := 1024) (a := 2048 * j.val) (n := 2048) (h := by have := j.isLt; omega)

/-- A whole result array is its rows [0, 32768). -/
theorem whole_v1 (c : Dev nD) (f : Buf (Elt F) ((c : Thread nD τ).loc main_v1)) :
    whole c main_v1 f = pts c main_v1 (bandO 0 32768 (Nat.le_refl _)) fullShare f := by
  have e : (bandO 0 32768 (Nat.le_refl _)).set = (Finset.univ : Finset (Idx ((c : Thread nD τ).loc main_v1))) := by
    ext i
    have h0 : (i 0).val < 32768 := (i 0).isLt
    rw [mem_bandO]
    simp only [Finset.mem_univ, iff_true]
    omega
  unfold whole pts; rw [e]

/-- A whole argument array is its rows [0, 16384). -/
theorem whole_arg0 (c : Dev nD) (f : Buf (Elt F) ((c : Thread nD τ).loc main_arg0)) :
    whole c main_arg0 f = pts c main_arg0 (bandX 0 16384 (Nat.le_refl _)) fullShare f := by
  have e : (bandX 0 16384 (Nat.le_refl _)).set = (Finset.univ : Finset (Idx ((c : Thread nD τ).loc main_arg0))) := by
    ext i
    have h0 : (i 0).val < 16384 := (i 0).isLt
    rw [mem_bandX]
    simp only [Finset.mem_univ, iff_true]
    omega
  unfold whole pts; rw [e]

/-- `pts_cut` for the result array, the argument array and the staging buffer, over their own index types. -/
theorem cut1 (c : Dev nD) (K I J : Rect S32768x1024) (q : PosShare TreeShare)
    (f : Buf (Elt F) ((c : Thread nD τ).loc main_v1))
    (hK : ∀ i : S32768x1024.Idx, i ∈ K.set ↔ i ∈ I.set ∨ i ∈ J.set)
    (hd : ∀ i : S32768x1024.Idx, i ∈ I.set → i ∈ J.set → False) :
    pts c main_v1 K q f ⊣⊢ iprop(pts c main_v1 I q f ∗ pts c main_v1 J q f) := pts_cut c main_v1 K I J q f hK hd
theorem cut0 (c : Dev nD) (K I J : Rect S16384x1024) (q : PosShare TreeShare)
    (f : Buf (Elt F) ((c : Thread nD τ).loc main_arg0))
    (hK : ∀ i : S16384x1024.Idx, i ∈ K.set ↔ i ∈ I.set ∨ i ∈ J.set)
    (hd : ∀ i : S16384x1024.Idx, i ∈ I.set → i ∈ J.set → False) :
    pts c main_arg0 K q f ⊣⊢ iprop(pts c main_arg0 I q f ∗ pts c main_arg0 J q f) := pts_cut c main_arg0 K I J q f hK hd
theorem cutV (c : Dev nD) (K I J : Rect S4x2048x1024) (q : PosShare TreeShare)
    (f : Buf (Elt F) ((c : Thread nD τ).loc cc0_scratch0))
    (hK : ∀ i : S4x2048x1024.Idx, i ∈ K.set ↔ i ∈ I.set ∨ i ∈ J.set)
    (hd : ∀ i : S4x2048x1024.Idx, i ∈ I.set → i ∈ J.set → False) :
    pts c cc0_scratch0 K q f ⊣⊢ iprop(pts c cc0_scratch0 I q f ∗ pts c cc0_scratch0 J q f) :=
  pts_cut c cc0_scratch0 K I J q f hK hd

/-! ## The result array: its own half in eight chunks, the other half in four quarters of four chunks -/

/-- The rows of quarter `Q` of the other half of device `c`'s result. -/
def quarterBand (c : Dev nD) (Q : Fin 4) : Rect S32768x1024 :=
  bandO (16384 * (1 - c.val / 16) + 4096 * Q.val) 4096 (by have := c.isLt; have := Q.isLt; omega)

theorem mem_quarterBand (c : Dev nD) (Q : Fin 4) (i : S32768x1024.Idx) :
    i ∈ (quarterBand c Q).set ↔ 16384 * (1 - c.val / 16) + 4096 * Q.val ≤ (i 0).val ∧ (i 0).val < 16384 * (1 - c.val / 16) + 4096 * Q.val + 4096 :=
  mem_bandO (h := by have := Q.isLt; omega)

/-- The four chunks of quarter `Q` of the other half of device `c`'s result, held at share `q`. -/
def chunks (c : Dev nD) (Q : Fin 4) (q : PosShare TreeShare) (f : Buf (Elt F) ((c : Thread nD τ).loc main_v1)) : sProp 𝕄 :=
  iprop(pts c main_v1 (oCh c Q 0) q f ∗ pts c main_v1 (oCh c Q 1) q f ∗ pts c main_v1 (oCh c Q 2) q f ∗ pts c main_v1 (oCh c Q 3) q f)

/-- The device's own half of its result is its eight chunks. -/
theorem own_cut (c : Dev nD) (q : PosShare TreeShare) (f : Buf (Elt F) ((c : Thread nD τ).loc main_v1))
    (h : 16384 * (c.val / 16) + 16384 ≤ 32768) :
    pts c main_v1 (bandO (16384 * (c.val / 16)) 16384 h) q f ⊣⊢
      iprop(pts c main_v1 (oOwn c 0) q f ∗ pts c main_v1 (oOwn c 1) q f ∗ pts c main_v1 (oOwn c 2) q f ∗ pts c main_v1 (oOwn c 3) q f ∗ pts c main_v1 (oOwn c 4) q f ∗ pts c main_v1 (oOwn c 5) q f ∗ pts c main_v1 (oOwn c 6) q f ∗ pts c main_v1 (oOwn c 7) q f) := by
  have hc : c.val < 32 := c.isLt
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  refine (cut1 c (bandO (16384 * (c.val / 16)) 16384 h) (oOwn c 0) (bandO (16384 * (c.val / 16) + 2048) 14336 (by omega)) q f ?_ ?_).trans (sep_congr_right ?_)
  · intro i; simp only [mem_oOwn, mem_bandO]; omega
  · intro i; simp only [mem_oOwn, mem_bandO]; omega
  refine (cut1 c (bandO (16384 * (c.val / 16) + 2048) 14336 (by omega)) (oOwn c 1) (bandO (16384 * (c.val / 16) + 4096) 12288 (by omega)) q f ?_ ?_).trans (sep_congr_right ?_)
  · intro i; simp only [mem_oOwn, mem_bandO]; omega
  · intro i; simp only [mem_oOwn, mem_bandO]; omega
  refine (cut1 c (bandO (16384 * (c.val / 16) + 4096) 12288 (by omega)) (oOwn c 2) (bandO (16384 * (c.val / 16) + 6144) 10240 (by omega)) q f ?_ ?_).trans (sep_congr_right ?_)
  · intro i; simp only [mem_oOwn, mem_bandO]; omega
  · intro i; simp only [mem_oOwn, mem_bandO]; omega
  refine (cut1 c (bandO (16384 * (c.val / 16) + 6144) 10240 (by omega)) (oOwn c 3) (bandO (16384 * (c.val / 16) + 8192) 8192 (by omega)) q f ?_ ?_).trans (sep_congr_right ?_)
  · intro i; simp only [mem_oOwn, mem_bandO]; omega
  · intro i; simp only [mem_oOwn, mem_bandO]; omega
  refine (cut1 c (bandO (16384 * (c.val / 16) + 8192) 8192 (by omega)) (oOwn c 4) (bandO (16384 * (c.val / 16) + 10240) 6144 (by omega)) q f ?_ ?_).trans (sep_congr_right ?_)
  · intro i; simp only [mem_oOwn, mem_bandO]; omega
  · intro i; simp only [mem_oOwn, mem_bandO]; omega
  refine (cut1 c (bandO (16384 * (c.val / 16) + 10240) 6144 (by omega)) (oOwn c 5) (bandO (16384 * (c.val / 16) + 12288) 4096 (by omega)) q f ?_ ?_).trans (sep_congr_right ?_)
  · intro i; simp only [mem_oOwn, mem_bandO]; omega
  · intro i; simp only [mem_oOwn, mem_bandO]; omega
  refine cut1 c (bandO (16384 * (c.val / 16) + 12288) 4096 (by omega)) (oOwn c 6) (oOwn c 7) q f ?_ ?_
  · intro i; simp only [mem_oOwn, mem_bandO]; omega
  · intro i; simp only [mem_oOwn, mem_bandO]; omega

/-- A quarter of the other half is its four chunks. -/
theorem chunks_cut (c : Dev nD) (Q : Fin 4) (q : PosShare TreeShare) (f : Buf (Elt F) ((c : Thread nD τ).loc main_v1)) :
    pts c main_v1 (quarterBand c Q) q f ⊣⊢ chunks c Q q f := by
  have hc : c.val < 32 := c.isLt
  have hQ : Q.val < 4 := Q.isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  unfold chunks
  refine (cut1 c (quarterBand c Q) (oCh c Q 0) (bandO (16384 * (1 - c.val / 16) + 4096 * Q.val + 1024) 3072 (by omega)) q f ?_ ?_).trans (sep_congr_right ?_)
  · intro i; simp only [mem_oCh, mem_bandO, mem_quarterBand]; omega
  · intro i; simp only [mem_oCh, mem_bandO, mem_quarterBand]; omega
  refine (cut1 c (bandO (16384 * (1 - c.val / 16) + 4096 * Q.val + 1024) 3072 (by omega)) (oCh c Q 1) (bandO (16384 * (1 - c.val / 16) + 4096 * Q.val + 2048) 2048 (by omega)) q f ?_ ?_).trans (sep_congr_right ?_)
  · intro i; simp only [mem_oCh, mem_bandO, mem_quarterBand]; omega
  · intro i; simp only [mem_oCh, mem_bandO, mem_quarterBand]; omega
  refine cut1 c (bandO (16384 * (1 - c.val / 16) + 4096 * Q.val + 2048) 2048 (by omega)) (oCh c Q 2) (oCh c Q 3) q f ?_ ?_
  · intro i; simp only [mem_oCh, mem_bandO, mem_quarterBand]; omega
  · intro i; simp only [mem_oCh, mem_bandO, mem_quarterBand]; omega

/-- The other half is its four quarters. -/
theorem quarters_cut (c : Dev nD) (q : PosShare TreeShare) (f : Buf (Elt F) ((c : Thread nD τ).loc main_v1))
    (h : 16384 * (1 - c.val / 16) + 16384 ≤ 32768) :
    pts c main_v1 (bandO (16384 * (1 - c.val / 16)) 16384 h) q f ⊣⊢
      iprop(pts c main_v1 (quarterBand c 0) q f ∗ pts c main_v1 (quarterBand c 1) q f ∗ pts c main_v1 (quarterBand c 2) q f ∗ pts c main_v1 (quarterBand c 3) q f) := by
  have hc : c.val < 32 := c.isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  refine (cut1 c (bandO (16384 * (1 - c.val / 16)) 16384 h) (quarterBand c 0) (bandO (16384 * (1 - c.val / 16) + 4096) 12288 (by omega)) q f ?_ ?_).trans (sep_congr_right ?_)
  · intro i; simp only [mem_quarterBand, mem_bandO]; omega
  · intro i; simp only [mem_quarterBand, mem_bandO]; omega
  refine (cut1 c (bandO (16384 * (1 - c.val / 16) + 4096) 12288 (by omega)) (quarterBand c 1) (bandO (16384 * (1 - c.val / 16) + 8192) 8192 (by omega)) q f ?_ ?_).trans (sep_congr_right ?_)
  · intro i; simp only [mem_quarterBand, mem_bandO]; omega
  · intro i; simp only [mem_quarterBand, mem_bandO]; omega
  refine cut1 c (bandO (16384 * (1 - c.val / 16) + 8192) 8192 (by omega)) (quarterBand c 2) (quarterBand c 3) q f ?_ ?_
  · intro i; simp only [mem_quarterBand, mem_bandO]; omega
  · intro i; simp only [mem_quarterBand, mem_bandO]; omega

/-- The other half is its sixteen chunks, quarter by quarter. -/
theorem other_cut (c : Dev nD) (q : PosShare TreeShare) (f : Buf (Elt F) ((c : Thread nD τ).loc main_v1))
    (h : 16384 * (1 - c.val / 16) + 16384 ≤ 32768) :
    pts c main_v1 (bandO (16384 * (1 - c.val / 16)) 16384 h) q f ⊣⊢
      iprop(chunks c 0 q f ∗ chunks c 1 q f ∗ chunks c 2 q f ∗ chunks c 3 q f) :=
  (quarters_cut c q f h).trans
    (sep_congr (chunks_cut c 0 q f) (sep_congr (chunks_cut c 1 q f) (sep_congr (chunks_cut c 2 q f) (chunks_cut c 3 q f))))

/-! ## The four quarters of a group of four

The quarters of a device, its y buddy, its z buddy and the diagonal are 0, 1, 2, 3 in one of four orders, by the low
bits of its y and z. -/

theorem quarters_perm : ∀ c : Dev nD,
    (qF c, qF (yb c), qF (zb c), qF (yb (zb c))) = ((0, 2, 1, 3) : Fin 4 × Fin 4 × Fin 4 × Fin 4)
    ∨ (qF c, qF (yb c), qF (zb c), qF (yb (zb c))) = ((1, 3, 0, 2) : Fin 4 × Fin 4 × Fin 4 × Fin 4)
    ∨ (qF c, qF (yb c), qF (zb c), qF (yb (zb c))) = ((2, 0, 3, 1) : Fin 4 × Fin 4 × Fin 4 × Fin 4)
    ∨ (qF c, qF (yb c), qF (zb c), qF (yb (zb c))) = ((3, 1, 2, 0) : Fin 4 × Fin 4 × Fin 4 × Fin 4) := by
  decide +kernel

/-- Four assertions indexed by the quarters, listed in one of those four orders. -/
theorem sep4_perm (G : Fin 4 → sProp 𝕄) (a b c d : Fin 4)
    (h : (a, b, c, d) = ((0, 2, 1, 3) : Fin 4 × Fin 4 × Fin 4 × Fin 4)
      ∨ (a, b, c, d) = ((1, 3, 0, 2) : Fin 4 × Fin 4 × Fin 4 × Fin 4)
      ∨ (a, b, c, d) = ((2, 0, 3, 1) : Fin 4 × Fin 4 × Fin 4 × Fin 4)
      ∨ (a, b, c, d) = ((3, 1, 2, 0) : Fin 4 × Fin 4 × Fin 4 × Fin 4)) :
    iprop(G 0 ∗ G 1 ∗ G 2 ∗ G 3) ⊣⊢ iprop(G a ∗ G b ∗ G c ∗ G d) := by
  rcases h with h | h | h | h
  · obtain ⟨rfl, rfl, rfl, rfl⟩ : a = 0 ∧ b = 2 ∧ c = 1 ∧ d = 3 := by simpa using h
    exact sep_congr_right sep_left_comm
  · obtain ⟨rfl, rfl, rfl, rfl⟩ : a = 1 ∧ b = 3 ∧ c = 0 ∧ d = 2 := by simpa using h
    exact sep_left_comm.trans (sep_congr_right (sep_assoc.symm.trans sep_comm))
  · obtain ⟨rfl, rfl, rfl, rfl⟩ : a = 2 ∧ b = 0 ∧ c = 3 ∧ d = 1 := by simpa using h
    exact (sep_congr_right sep_left_comm).trans (sep_left_comm.trans (sep_congr_right (sep_congr_right sep_comm)))
  · obtain ⟨rfl, rfl, rfl, rfl⟩ : a = 3 ∧ b = 1 ∧ c = 2 ∧ d = 0 := by simpa using h
    exact (sep_congr_right (sep_assoc.symm.trans sep_comm)).trans
      (sep_left_comm.trans (sep_congr_right (sep_comm.trans sep_assoc)))

/-- A whole result array: the eight chunks of the device's own half; then the quarter it fetches, its y buddy's, its z
    buddy's, and the diagonal's in two halves. -/
theorem out_split (c : Dev nD) (f : Buf (Elt F) ((c : Thread nD τ).loc main_v1)) :
    whole c main_v1 f ⊣⊢ iprop(
      (pts c main_v1 (oOwn c 0) fullShare f ∗ pts c main_v1 (oOwn c 1) fullShare f ∗ pts c main_v1 (oOwn c 2) fullShare f ∗ pts c main_v1 (oOwn c 3) fullShare f ∗ pts c main_v1 (oOwn c 4) fullShare f ∗ pts c main_v1 (oOwn c 5) fullShare f ∗ pts c main_v1 (oOwn c 6) fullShare f ∗ pts c main_v1 (oOwn c 7) fullShare f)
      ∗ (pts c main_v1 (oCh c (qF c) 0) fullShare f ∗ pts c main_v1 (oCh c (qF c) 1) fullShare f ∗ pts c main_v1 (oCh c (qF c) 2) fullShare f ∗ pts c main_v1 (oCh c (qF c) 3) fullShare f)
      ∗ (pts c main_v1 (oCh c (qF (yb c)) 0) fullShare f ∗ pts c main_v1 (oCh c (qF (yb c)) 1) fullShare f ∗ pts c main_v1 (oCh c (qF (yb c)) 2) fullShare f ∗ pts c main_v1 (oCh c (qF (yb c)) 3) fullShare f)
      ∗ (pts c main_v1 (oCh c (qF (zb c)) 0) fullShare f ∗ pts c main_v1 (oCh c (qF (zb c)) 1) fullShare f ∗ pts c main_v1 (oCh c (qF (zb c)) 2) fullShare f ∗ pts c main_v1 (oCh c (qF (zb c)) 3) fullShare f)
      ∗ (pts c main_v1 (oCh c (qF (zb (yb c))) 0) fullShare f ∗ pts c main_v1 (oCh c (qF (zb (yb c))) 1) fullShare f)
      ∗ (pts c main_v1 (oCh c (qF (yb (zb c))) 2) fullShare f ∗ pts c main_v1 (oCh c (qF (yb (zb c))) 3) fullShare f)) := by
  have hc : c.val < 32 := c.isLt
  have e : qF (zb (yb c)) = qF (yb (zb c)) := by rw [yb_zb]
  rw [e, whole_v1]
  have h1 : pts c main_v1 (bandO 0 32768 (Nat.le_refl _)) fullShare f ⊣⊢
      iprop(pts c main_v1 (bandO (16384 * (c.val / 16)) 16384 (by omega)) fullShare f ∗ pts c main_v1 (bandO (16384 * (1 - c.val / 16)) 16384 (by omega)) fullShare f) :=
    cut1 c _ _ _ fullShare f (by intro i; simp only [mem_bandO]; omega) (by intro i; simp only [mem_bandO]; omega)
  refine h1.trans (sep_congr (own_cut c fullShare f _) ?_)
  refine (other_cut c fullShare f _).trans ?_
  refine (sep4_perm (fun Q => chunks c Q fullShare f) _ _ _ _ (quarters_perm c)).trans ?_
  exact sep_congr_right (sep_congr_right (sep_congr_right sep_assoc.symm))

/-! ## The argument array: the quarter the partner fetches, the rest, and the eight chunks the device loads -/

/-- The rows of the quarter of its argument that device `c` sends across x. -/
def xQuarter (c : Dev nD) : Rect S16384x1024 :=
  bandX (4096 * (qF c).val) 4096 (by have := (qF c).isLt; omega)

theorem mem_xQuarter (c : Dev nD) (i : S16384x1024.Idx) :
    i ∈ (xQuarter c).set ↔ 4096 * (qF c).val ≤ (i 0).val ∧ (i 0).val < 4096 * (qF c).val + 4096 :=
  mem_bandX (h := by have := (qF c).isLt; omega)

/-- The left share of the rows of the argument outside the quarter sent across x: carried along, and joined back. -/
def xRest (c : Dev nD) (f : Buf (Elt F) ((c : Thread nD τ).loc main_arg0)) : sProp 𝕄 :=
  ((c : Thread nD τ).loc main_arg0) ↦[Finset.univ \ (xQuarter c).set]{fullShare.left} f

/-- The quarter sent across x is its four chunks. -/
theorem xq_cut (c : Dev nD) (q : PosShare TreeShare) (f : Buf (Elt F) ((c : Thread nD τ).loc main_arg0)) :
    pts c main_arg0 (xQuarter c) q f ⊣⊢
      iprop(pts c main_arg0 (xCh (qF c) 0) q f ∗ pts c main_arg0 (xCh (qF c) 1) q f ∗ pts c main_arg0 (xCh (qF c) 2) q f ∗ pts c main_arg0 (xCh (qF c) 3) q f) := by
  have hQ : (qF c).val < 4 := (qF c).isLt
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  refine (cut0 c (xQuarter c) (xCh (qF c) 0) (bandX (4096 * (qF c).val + 1024) 3072 (by omega)) q f ?_ ?_).trans (sep_congr_right ?_)
  · intro i; simp only [mem_xCh, mem_bandX, mem_xQuarter]; omega
  · intro i; simp only [mem_xCh, mem_bandX, mem_xQuarter]; omega
  refine (cut0 c (bandX (4096 * (qF c).val + 1024) 3072 (by omega)) (xCh (qF c) 1) (bandX (4096 * (qF c).val + 2048) 2048 (by omega)) q f ?_ ?_).trans (sep_congr_right ?_)
  · intro i; simp only [mem_xCh, mem_bandX, mem_xQuarter]; omega
  · intro i; simp only [mem_xCh, mem_bandX, mem_xQuarter]; omega
  refine cut0 c (bandX (4096 * (qF c).val + 2048) 2048 (by omega)) (xCh (qF c) 2) (xCh (qF c) 3) q f ?_ ?_
  · intro i; simp only [mem_xCh, mem_bandX, mem_xQuarter]; omega
  · intro i; simp only [mem_xCh, mem_bandX, mem_xQuarter]; omega

/-- The argument is its eight chunks of 2048 rows. -/
theorem xld_cut (c : Dev nD) (q : PosShare TreeShare) (f : Buf (Elt F) ((c : Thread nD τ).loc main_arg0)) :
    pts c main_arg0 (bandX 0 16384 (Nat.le_refl _)) q f ⊣⊢
      iprop(pts c main_arg0 (xLd 0) q f ∗ pts c main_arg0 (xLd 1) q f ∗ pts c main_arg0 (xLd 2) q f ∗ pts c main_arg0 (xLd 3) q f ∗ pts c main_arg0 (xLd 4) q f ∗ pts c main_arg0 (xLd 5) q f ∗ pts c main_arg0 (xLd 6) q f ∗ pts c main_arg0 (xLd 7) q f) := by
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  refine (cut0 c (bandX 0 16384 (Nat.le_refl _)) (xLd 0) (bandX 2048 14336 (by omega)) q f ?_ ?_).trans (sep_congr_right ?_)
  · intro i; simp only [mem_xLd, mem_bandX]; omega
  · intro i; simp only [mem_xLd, mem_bandX]; omega
  refine (cut0 c (bandX 2048 14336 (by omega)) (xLd 1) (bandX 4096 12288 (by omega)) q f ?_ ?_).trans (sep_congr_right ?_)
  · intro i; simp only [mem_xLd, mem_bandX]; omega
  · intro i; simp only [mem_xLd, mem_bandX]; omega
  refine (cut0 c (bandX 4096 12288 (by omega)) (xLd 2) (bandX 6144 10240 (by omega)) q f ?_ ?_).trans (sep_congr_right ?_)
  · intro i; simp only [mem_xLd, mem_bandX]; omega
  · intro i; simp only [mem_xLd, mem_bandX]; omega
  refine (cut0 c (bandX 6144 10240 (by omega)) (xLd 3) (bandX 8192 8192 (by omega)) q f ?_ ?_).trans (sep_congr_right ?_)
  · intro i; simp only [mem_xLd, mem_bandX]; omega
  · intro i; simp only [mem_xLd, mem_bandX]; omega
  refine (cut0 c (bandX 8192 8192 (by omega)) (xLd 4) (bandX 10240 6144 (by omega)) q f ?_ ?_).trans (sep_congr_right ?_)
  · intro i; simp only [mem_xLd, mem_bandX]; omega
  · intro i; simp only [mem_xLd, mem_bandX]; omega
  refine (cut0 c (bandX 10240 6144 (by omega)) (xLd 5) (bandX 12288 4096 (by omega)) q f ?_ ?_).trans (sep_congr_right ?_)
  · intro i; simp only [mem_xLd, mem_bandX]; omega
  · intro i; simp only [mem_xLd, mem_bandX]; omega
  refine cut0 c (bandX 12288 4096 (by omega)) (xLd 6) (xLd 7) q f ?_ ?_
  · intro i; simp only [mem_xLd, mem_bandX]; omega
  · intro i; simp only [mem_xLd, mem_bandX]; omega

/-- The left share of the argument: the quarter sent across x, chunk by chunk, and the rest. -/
theorem xl_cut (c : Dev nD) (f : Buf (Elt F) ((c : Thread nD τ).loc main_arg0)) :
    pts c main_arg0 (bandX 0 16384 (Nat.le_refl _)) fullShare.left f ⊣⊢
      iprop((pts c main_arg0 (xCh (qF c) 0) fullShare.left f ∗ pts c main_arg0 (xCh (qF c) 1) fullShare.left f ∗ pts c main_arg0 (xCh (qF c) 2) fullShare.left f ∗ pts c main_arg0 (xCh (qF c) 3) fullShare.left f) ∗ xRest c f) := by
  have e : (bandX 0 16384 (Nat.le_refl _)).set = (Finset.univ : Finset (Idx ((c : Thread nD τ).loc main_arg0))) := by
    ext i
    have h0 : (i 0).val < 16384 := (i 0).isLt
    rw [mem_bandX]
    simp only [Finset.mem_univ, iff_true]
    omega
  have h1 : pts c main_arg0 (bandX 0 16384 (Nat.le_refl _)) fullShare.left f ⊣⊢
      iprop(pts c main_arg0 (xQuarter c) fullShare.left f ∗ xRest c f) := by
    unfold pts xRest; rw [e]
    exact pointsTo_split_subset (Finset.subset_univ _)
  exact h1.trans (sep_congr_left (xq_cut c fullShare.left f))

/-- A whole argument array: at the left share the four chunks of the quarter sent across x, and the rest; at the right
    share the eight chunks the device loads. -/
theorem x_split (c : Dev nD) (f : Buf (Elt F) ((c : Thread nD τ).loc main_arg0)) :
    whole c main_arg0 f ⊣⊢ iprop(
      (pts c main_arg0 (xCh (qF c) 0) fullShare.left f ∗ pts c main_arg0 (xCh (qF c) 1) fullShare.left f ∗ pts c main_arg0 (xCh (qF c) 2) fullShare.left f ∗ pts c main_arg0 (xCh (qF c) 3) fullShare.left f)
      ∗ xRest c f
      ∗ (pts c main_arg0 (xLd 0) fullShare.right f ∗ pts c main_arg0 (xLd 1) fullShare.right f ∗ pts c main_arg0 (xLd 2) fullShare.right f ∗ pts c main_arg0 (xLd 3) fullShare.right f ∗ pts c main_arg0 (xLd 4) fullShare.right f ∗ pts c main_arg0 (xLd 5) fullShare.right f ∗ pts c main_arg0 (xLd 6) fullShare.right f ∗ pts c main_arg0 (xLd 7) fullShare.right f)) := by
  rw [whole_arg0]
  exact ((pts_half c main_arg0 _ f).trans (sep_congr (xl_cut c f) (xld_cut c fullShare.right f))).trans sep_assoc

/-! ## The staging buffer: four slots -/

/-- Slots [a, a + n) of the staging buffer. -/
def slab (a n : ℕ) (h : a + n ≤ 4) : Rect S4x2048x1024 :=
  Rect.unit (s := S4x2048x1024) ![a, 0, 0] ![n, 2048, 1024] (by
    intro x
    match x with
    | ⟨0, _⟩ => exact h
    | ⟨1, _⟩ => show 0 + 2048 ≤ 2048; omega
    | ⟨2, _⟩ => show 0 + 1024 ≤ 1024; omega)

theorem mem_unit3 {a n : ℕ} (p : ∀ x, (![a, 0, 0] : Fin 3 → ℕ) x + (![n, 2048, 1024] : Fin 3 → ℕ) x ≤ S4x2048x1024.size x)
    (i : S4x2048x1024.Idx) :
    i ∈ (Rect.unit (s := S4x2048x1024) ![a, 0, 0] ![n, 2048, 1024] p).set ↔ a ≤ (i 0).val ∧ (i 0).val < a + n := by
  rw [Rect.mem_set_unit]
  have h1 : (i 1).val < 2048 := (i 1).isLt
  have h2 : (i 2).val < 1024 := (i 2).isLt
  constructor
  · intro hh; exact hh 0
  · intro hh x
    match x with
    | ⟨0, _⟩ => exact hh
    | ⟨1, _⟩ => exact ⟨Nat.zero_le _, (by show (i 1).val < 0 + 2048; omega)⟩
    | ⟨2, _⟩ => exact ⟨Nat.zero_le _, (by show (i 2).val < 0 + 1024; omega)⟩

theorem mem_slab {a n : ℕ} {h : a + n ≤ 4} {i : S4x2048x1024.Idx} :
    i ∈ (slab a n h).set ↔ a ≤ (i 0).val ∧ (i 0).val < a + n := by
  unfold slab; exact mem_unit3 _ i

theorem mem_vSl (s : Fin 4) (i : S4x2048x1024.Idx) :
    i ∈ (vSl s).set ↔ s.val ≤ (i 0).val ∧ (i 0).val < s.val + 1 := by
  unfold vSl; exact mem_unit3 (n := 1) _ i

/-- A whole staging buffer is its four slots. -/
theorem vbuf_split (c : Dev nD) (f : Buf (Elt F) ((c : Thread nD τ).loc cc0_scratch0)) :
    whole c cc0_scratch0 f ⊣⊢
      iprop(pts c cc0_scratch0 (vSl 0) fullShare f ∗ pts c cc0_scratch0 (vSl 1) fullShare f ∗ pts c cc0_scratch0 (vSl 2) fullShare f ∗ pts c cc0_scratch0 (vSl 3) fullShare f) := by
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  have e : (slab 0 4 (Nat.le_refl _)).set = (Finset.univ : Finset (Idx ((c : Thread nD τ).loc cc0_scratch0))) := by
    ext i
    have h0 : (i 0).val < 4 := (i 0).isLt
    rw [mem_slab]
    simp only [Finset.mem_univ, iff_true]
    omega
  have h0 : whole c cc0_scratch0 f = pts c cc0_scratch0 (slab 0 4 (Nat.le_refl _)) fullShare f := by
    unfold whole pts; rw [e]
  rw [h0]
  refine (cutV c (slab 0 4 (Nat.le_refl _)) (vSl 0) (slab 1 3 (by omega)) fullShare f ?_ ?_).trans (sep_congr_right ?_)
  · intro i; simp only [mem_vSl, mem_slab]; omega
  · intro i; simp only [mem_vSl, mem_slab]; omega
  refine (cutV c (slab 1 3 (by omega)) (vSl 1) (slab 2 2 (by omega)) fullShare f ?_ ?_).trans (sep_congr_right ?_)
  · intro i; simp only [mem_vSl, mem_slab]; omega
  · intro i; simp only [mem_vSl, mem_slab]; omega
  refine cutV c (slab 2 2 (by omega)) (vSl 2) (vSl 3) fullShare f ?_ ?_
  · intro i; simp only [mem_vSl, mem_slab]; omega
  · intro i; simp only [mem_vSl, mem_slab]; omega

/-- The four slots, each holding its own contents, are a whole staging buffer holding some contents. -/
theorem vbuf_join (m : (ℓ : Loc nD τ sig) → Buf (Elt F) ℓ) (c : Dev nD) :
    iprop(pts c cc0_scratch0 (vSl 0) fullShare (vfill m c 4) ∗ pts c cc0_scratch0 (vSl 1) fullShare (vfill m c 5)
      ∗ pts c cc0_scratch0 (vSl 2) fullShare (vfill m c 6) ∗ pts c cc0_scratch0 (vSl 3) fullShare (vfill m c 7))
      ⊢ (iprop(∃ f, whole c cc0_scratch0 f) : sProp 𝕄) := by
  have w0 : ((0 : Fin 4) : ℕ) = 0 := rfl
  have w1 : ((1 : Fin 4) : ℕ) = 1 := rfl
  have w2 : ((2 : Fin 4) : ℕ) = 2 := rfl
  have w3 : ((3 : Fin 4) : ℕ) = 3 := rfl
  let g : Buf (Elt F) ((c : Thread nD τ).loc cc0_scratch0) := fun i => vfill m c (4 + (i 0).val) i
  have e0 : pts c cc0_scratch0 (vSl 0) fullShare (vfill m c 4) = pts c cc0_scratch0 (vSl 0) fullShare g :=
    pts_congr c cc0_scratch0 (vSl 0) fullShare _ _ fun i hi => by
      have hi' := (mem_vSl 0 i).mp hi
      have hs : (i 0).val = 0 := by omega
      show vfill m c 4 i = vfill m c (4 + (i 0).val) i
      rw [hs]
  have e1 : pts c cc0_scratch0 (vSl 1) fullShare (vfill m c 5) = pts c cc0_scratch0 (vSl 1) fullShare g :=
    pts_congr c cc0_scratch0 (vSl 1) fullShare _ _ fun i hi => by
      have hi' := (mem_vSl 1 i).mp hi
      have hs : (i 0).val = 1 := by omega
      show vfill m c 5 i = vfill m c (4 + (i 0).val) i
      rw [hs]
  have e2 : pts c cc0_scratch0 (vSl 2) fullShare (vfill m c 6) = pts c cc0_scratch0 (vSl 2) fullShare g :=
    pts_congr c cc0_scratch0 (vSl 2) fullShare _ _ fun i hi => by
      have hi' := (mem_vSl 2 i).mp hi
      have hs : (i 0).val = 2 := by omega
      show vfill m c 6 i = vfill m c (4 + (i 0).val) i
      rw [hs]
  have e3 : pts c cc0_scratch0 (vSl 3) fullShare (vfill m c 7) = pts c cc0_scratch0 (vSl 3) fullShare g :=
    pts_congr c cc0_scratch0 (vSl 3) fullShare _ _ fun i hi => by
      have hi' := (mem_vSl 3 i).mp hi
      have hs : (i 0).val = 3 := by omega
      show vfill m c 7 i = vfill m c (4 + (i 0).val) i
      rw [hs]
  rw [e0, e1, e2, e3]
  exact exists_intro_trans g (vbuf_split c g).2

/-! ## Slices of the three buffers: where they sit and what they cover

A slice of a whole buffer through a rectangle sits in that buffer and covers the rectangle's elements; squeezing the
leading axis of a staging slot changes neither. -/

@[simp] theorem view_loc_slice1 (d : Dev nD) (R : Rect S32768x1024) (hs : ∀ a, R.stride a = 1) :
    ((Memref.whole main_v1 : Memref sig .tc .hbm S32768x1024 .f32).slice R hs).view.loc (d : Thread nD τ) = (d : Thread nD τ).loc main_v1 := rfl
@[simp] theorem view_set_slice1 (R : Rect S32768x1024) (hs : ∀ a, R.stride a = 1) :
    ((Memref.whole main_v1 : Memref sig .tc .hbm S32768x1024 .f32).slice R hs).view.set = R.set := View.set_slice_whole main_v1 R
@[simp] theorem view_loc_slice0 (d : Dev nD) (R : Rect S16384x1024) (hs : ∀ a, R.stride a = 1) :
    ((Memref.whole main_arg0 : Memref sig .tc .hbm S16384x1024 .f32).slice R hs).view.loc (d : Thread nD τ) = (d : Thread nD τ).loc main_arg0 := rfl
@[simp] theorem view_set_slice0 (R : Rect S16384x1024) (hs : ∀ a, R.stride a = 1) :
    ((Memref.whole main_arg0 : Memref sig .tc .hbm S16384x1024 .f32).slice R hs).view.set = R.set := View.set_slice_whole main_arg0 R

theorem view_set_oCh (c : Dev nD) (Q k : Fin 4) :
    ((Memref.whole main_v1 : Memref sig .tc .hbm S32768x1024 .f32).slice (oCh c Q k) (fun _ => rfl)).view.set = (oCh c Q k).set := View.set_slice_whole main_v1 (oCh c Q k)
theorem view_loc_oCh (d c : Dev nD) (Q k : Fin 4) :
    ((Memref.whole main_v1 : Memref sig .tc .hbm S32768x1024 .f32).slice (oCh c Q k) (fun _ => rfl)).view.loc (d : Thread nD τ) = (d : Thread nD τ).loc main_v1 := rfl
theorem view_set_oOwn (c : Dev nD) (j : Fin 8) :
    ((Memref.whole main_v1 : Memref sig .tc .hbm S32768x1024 .f32).slice (oOwn c j) (fun _ => rfl)).view.set = (oOwn c j).set := View.set_slice_whole main_v1 (oOwn c j)
theorem view_loc_oOwn (d c : Dev nD) (j : Fin 8) :
    ((Memref.whole main_v1 : Memref sig .tc .hbm S32768x1024 .f32).slice (oOwn c j) (fun _ => rfl)).view.loc (d : Thread nD τ) = (d : Thread nD τ).loc main_v1 := rfl
theorem view_set_xCh (Q k : Fin 4) :
    ((Memref.whole main_arg0 : Memref sig .tc .hbm S16384x1024 .f32).slice (xCh Q k) (fun _ => rfl)).view.set = (xCh Q k).set := View.set_slice_whole main_arg0 (xCh Q k)
theorem view_loc_xCh (d : Dev nD) (Q k : Fin 4) :
    ((Memref.whole main_arg0 : Memref sig .tc .hbm S16384x1024 .f32).slice (xCh Q k) (fun _ => rfl)).view.loc (d : Thread nD τ) = (d : Thread nD τ).loc main_arg0 := rfl
theorem view_set_xLd (j : Fin 8) :
    ((Memref.whole main_arg0 : Memref sig .tc .hbm S16384x1024 .f32).slice (xLd j) (fun _ => rfl)).view.set = (xLd j).set := View.set_slice_whole main_arg0 (xLd j)
theorem view_loc_xLd (d : Dev nD) (j : Fin 8) :
    ((Memref.whole main_arg0 : Memref sig .tc .hbm S16384x1024 .f32).slice (xLd j) (fun _ => rfl)).view.loc (d : Thread nD τ) = (d : Thread nD τ).loc main_arg0 := rfl
theorem view_set_vSl (s : Fin 4) :
    (((Memref.whole cc0_scratch0 : Memref sig .tc .vmem S4x2048x1024 .f32).slice (vSl s) (fun _ => rfl)).squeeze S2048x1024 squeezes_S1x2048x1024_S2048x1024).view.set = (vSl s).set := by
  exact (View.set_reshape _ _).trans (View.set_slice_whole cc0_scratch0 (vSl s))
theorem view_loc_vSl (d : Dev nD) (s : Fin 4) :
    (((Memref.whole cc0_scratch0 : Memref sig .tc .vmem S4x2048x1024 .f32).slice (vSl s) (fun _ => rfl)).squeeze S2048x1024 squeezes_S1x2048x1024_S2048x1024).view.loc (d : Thread nD τ) = (d : Thread nD τ).loc cc0_scratch0 := rfl

/-- Holding what a slice of the result covers, where it sits, is holding the rectangle's rows. -/
theorem pts_slice1 (c : Dev nD) (R : Rect S32768x1024) (hs : ∀ a, R.stride a = 1) (q : PosShare TreeShare)
    (f : Buf (Elt F) ((c : Thread nD τ).loc main_v1)) :
    ((((Memref.whole main_v1 : Memref sig .tc .hbm S32768x1024 .f32).slice R hs).view.loc (c : Thread nD τ)) ↦[((Memref.whole main_v1 : Memref sig .tc .hbm S32768x1024 .f32).slice R hs).view.set]{q} f : sProp 𝕄)
      = pts c main_v1 R q f := by
  unfold pts
  exact congrArg (fun S => (((c : Thread nD τ).loc main_v1) ↦[S]{q} f : sProp 𝕄)) (view_set_slice1 R hs)
/-- The same for a slice of the argument. -/
theorem pts_slice0 (c : Dev nD) (R : Rect S16384x1024) (hs : ∀ a, R.stride a = 1) (q : PosShare TreeShare)
    (f : Buf (Elt F) ((c : Thread nD τ).loc main_arg0)) :
    ((((Memref.whole main_arg0 : Memref sig .tc .hbm S16384x1024 .f32).slice R hs).view.loc (c : Thread nD τ)) ↦[((Memref.whole main_arg0 : Memref sig .tc .hbm S16384x1024 .f32).slice R hs).view.set]{q} f : sProp 𝕄)
      = pts c main_arg0 R q f := by
  unfold pts
  exact congrArg (fun S => (((c : Thread nD τ).loc main_arg0) ↦[S]{q} f : sProp 𝕄)) (view_set_slice0 R hs)
/-- The same for a staging slot with its leading axis squeezed. -/
theorem pts_slot (c : Dev nD) (s : Fin 4) (q : PosShare TreeShare)
    (f : Buf (Elt F) ((c : Thread nD τ).loc cc0_scratch0)) :
    (((((Memref.whole cc0_scratch0 : Memref sig .tc .vmem S4x2048x1024 .f32).slice (vSl s) (fun _ => rfl)).squeeze S2048x1024 squeezes_S1x2048x1024_S2048x1024).view.loc (c : Thread nD τ)) ↦[(((Memref.whole cc0_scratch0 : Memref sig .tc .vmem S4x2048x1024 .f32).slice (vSl s) (fun _ => rfl)).squeeze S2048x1024 squeezes_S1x2048x1024_S2048x1024).view.set]{q} f : sProp 𝕄)
      = pts c cc0_scratch0 (vSl s) q f := by
  unfold pts
  exact congrArg (fun S => (((c : Thread nD τ).loc cc0_scratch0) ↦[S]{q} f : sProp 𝕄)) (view_set_vSl s)

/-! ## The body's slices in canonical spelling

The body slices its buffers at row offsets it computes word by word from the device's coordinates. Each such offset is,
in closed form, the first row of one of the chunks above; so the slice is the slice at that chunk, whatever evidence
of bounds and strides it was formed with. -/

theorem slice_off1 (c : Dev nD) (k : Fin 4)
    (p : ∀ a, (k0_off1 c (BitVec.ofNat 32 (1024 * k.val))) a + S1024x1024.size a ≤ S32768x1024.size a)
    (hs : ∀ a, (Rect.unit (s := S32768x1024) (k0_off1 c (BitVec.ofNat 32 (1024 * k.val))) S1024x1024.size p).stride a = 1) :
    (Memref.whole main_v1 : Memref sig .tc .hbm S32768x1024 .f32).slice (Rect.unit (s := S32768x1024) (k0_off1 c (BitVec.ofNat 32 (1024 * k.val))) S1024x1024.size p) hs
      = (Memref.whole main_v1 : Memref sig .tc .hbm S32768x1024 .f32).slice (oCh (px c) (qF c) k) (fun _ => rfl) := by
  have hx := x_px c
  have hc : c.val < 32 := c.isLt
  have hab : 16384 * (c.val / 16) + 4096 * qi c + 1024 * k.val
      = 16384 * (1 - (px c).val / 16) + 4096 * (qF c).val + 1024 * k.val := by
    show _ = 16384 * (1 - (px c).val / 16) + 4096 * qi c + 1024 * k.val
    omega
  have e : k0_off1 c (BitVec.ofNat 32 (1024 * k.val))
      = ![16384 * (1 - (px c).val / 16) + 4096 * (qF c).val + 1024 * k.val, 0] :=
    (off1_eq c k).trans (congrArg (fun r : ℕ => (![r, 0] : Fin 2 → ℕ)) hab)
  exact Memref.slice_unit_congr (Memref.whole main_v1 : Memref sig .tc .hbm S32768x1024 .f32) e p _ hs _

theorem slice_off1_0 (c : Dev nD)
    (p : ∀ a, (k0_off1 c 0#32) a + S1024x1024.size a ≤ S32768x1024.size a)
    (hs : ∀ a, (Rect.unit (s := S32768x1024) (k0_off1 c 0#32) S1024x1024.size p).stride a = 1) :
    (Memref.whole main_v1 : Memref sig .tc .hbm S32768x1024 .f32).slice (Rect.unit (s := S32768x1024) (k0_off1 c 0#32) S1024x1024.size p) hs
      = (Memref.whole main_v1 : Memref sig .tc .hbm S32768x1024 .f32).slice (oCh (px c) (qF c) 0) (fun _ => rfl) := slice_off1 c 0 p hs
theorem slice_off1_1 (c : Dev nD)
    (p : ∀ a, (k0_off1 c 1024#32) a + S1024x1024.size a ≤ S32768x1024.size a)
    (hs : ∀ a, (Rect.unit (s := S32768x1024) (k0_off1 c 1024#32) S1024x1024.size p).stride a = 1) :
    (Memref.whole main_v1 : Memref sig .tc .hbm S32768x1024 .f32).slice (Rect.unit (s := S32768x1024) (k0_off1 c 1024#32) S1024x1024.size p) hs
      = (Memref.whole main_v1 : Memref sig .tc .hbm S32768x1024 .f32).slice (oCh (px c) (qF c) 1) (fun _ => rfl) := slice_off1 c 1 p hs
theorem slice_off1_2 (c : Dev nD)
    (p : ∀ a, (k0_off1 c 2048#32) a + S1024x1024.size a ≤ S32768x1024.size a)
    (hs : ∀ a, (Rect.unit (s := S32768x1024) (k0_off1 c 2048#32) S1024x1024.size p).stride a = 1) :
    (Memref.whole main_v1 : Memref sig .tc .hbm S32768x1024 .f32).slice (Rect.unit (s := S32768x1024) (k0_off1 c 2048#32) S1024x1024.size p) hs
      = (Memref.whole main_v1 : Memref sig .tc .hbm S32768x1024 .f32).slice (oCh (px c) (qF c) 2) (fun _ => rfl) := slice_off1 c 2 p hs
theorem slice_off1_3 (c : Dev nD)
    (p : ∀ a, (k0_off1 c 3072#32) a + S1024x1024.size a ≤ S32768x1024.size a)
    (hs : ∀ a, (Rect.unit (s := S32768x1024) (k0_off1 c 3072#32) S1024x1024.size p).stride a = 1) :
    (Memref.whole main_v1 : Memref sig .tc .hbm S32768x1024 .f32).slice (Rect.unit (s := S32768x1024) (k0_off1 c 3072#32) S1024x1024.size p) hs
      = (Memref.whole main_v1 : Memref sig .tc .hbm S32768x1024 .f32).slice (oCh (px c) (qF c) 3) (fun _ => rfl) := slice_off1 c 3 p hs

theorem slice_off2 (c : Dev nD) (k : Fin 4)
    (p : ∀ a, (k0_off2 c (BitVec.ofNat 32 (1024 * k.val))) a + S1024x1024.size a ≤ S16384x1024.size a)
    (hs : ∀ a, (Rect.unit (s := S16384x1024) (k0_off2 c (BitVec.ofNat 32 (1024 * k.val))) S1024x1024.size p).stride a = 1) :
    (Memref.whole main_arg0 : Memref sig .tc .hbm S16384x1024 .f32).slice (Rect.unit (s := S16384x1024) (k0_off2 c (BitVec.ofNat 32 (1024 * k.val))) S1024x1024.size p) hs
      = (Memref.whole main_arg0 : Memref sig .tc .hbm S16384x1024 .f32).slice (xCh (qF c) k) (fun _ => rfl) := by
  have e : k0_off2 c (BitVec.ofNat 32 (1024 * k.val)) = ![4096 * (qF c).val + 1024 * k.val, 0] := off2_eq c k
  exact Memref.slice_unit_congr (Memref.whole main_arg0 : Memref sig .tc .hbm S16384x1024 .f32) e p _ hs _

theorem slice_off2_0 (c : Dev nD)
    (p : ∀ a, (k0_off2 c 0#32) a + S1024x1024.size a ≤ S16384x1024.size a)
    (hs : ∀ a, (Rect.unit (s := S16384x1024) (k0_off2 c 0#32) S1024x1024.size p).stride a = 1) :
    (Memref.whole main_arg0 : Memref sig .tc .hbm S16384x1024 .f32).slice (Rect.unit (s := S16384x1024) (k0_off2 c 0#32) S1024x1024.size p) hs
      = (Memref.whole main_arg0 : Memref sig .tc .hbm S16384x1024 .f32).slice (xCh (qF c) 0) (fun _ => rfl) := slice_off2 c 0 p hs
theorem slice_off2_1 (c : Dev nD)
    (p : ∀ a, (k0_off2 c 1024#32) a + S1024x1024.size a ≤ S16384x1024.size a)
    (hs : ∀ a, (Rect.unit (s := S16384x1024) (k0_off2 c 1024#32) S1024x1024.size p).stride a = 1) :
    (Memref.whole main_arg0 : Memref sig .tc .hbm S16384x1024 .f32).slice (Rect.unit (s := S16384x1024) (k0_off2 c 1024#32) S1024x1024.size p) hs
      = (Memref.whole main_arg0 : Memref sig .tc .hbm S16384x1024 .f32).slice (xCh (qF c) 1) (fun _ => rfl) := slice_off2 c 1 p hs
theorem slice_off2_2 (c : Dev nD)
    (p : ∀ a, (k0_off2 c 2048#32) a + S1024x1024.size a ≤ S16384x1024.size a)
    (hs : ∀ a, (Rect.unit (s := S16384x1024) (k0_off2 c 2048#32) S1024x1024.size p).stride a = 1) :
    (Memref.whole main_arg0 : Memref sig .tc .hbm S16384x1024 .f32).slice (Rect.unit (s := S16384x1024) (k0_off2 c 2048#32) S1024x1024.size p) hs
      = (Memref.whole main_arg0 : Memref sig .tc .hbm S16384x1024 .f32).slice (xCh (qF c) 2) (fun _ => rfl) := slice_off2 c 2 p hs
theorem slice_off2_3 (c : Dev nD)
    (p : ∀ a, (k0_off2 c 3072#32) a + S1024x1024.size a ≤ S16384x1024.size a)
    (hs : ∀ a, (Rect.unit (s := S16384x1024) (k0_off2 c 3072#32) S1024x1024.size p).stride a = 1) :
    (Memref.whole main_arg0 : Memref sig .tc .hbm S16384x1024 .f32).slice (Rect.unit (s := S16384x1024) (k0_off2 c 3072#32) S1024x1024.size p) hs
      = (Memref.whole main_arg0 : Memref sig .tc .hbm S16384x1024 .f32).slice (xCh (qF c) 3) (fun _ => rfl) := slice_off2 c 3 p hs

theorem slice_off3 (c : Dev nD) (k : Fin 4)
    (p : ∀ a, (k0_off3 c (BitVec.ofNat 32 (1024 * k.val))) a + S1024x1024.size a ≤ S32768x1024.size a)
    (hs : ∀ a, (Rect.unit (s := S32768x1024) (k0_off3 c (BitVec.ofNat 32 (1024 * k.val))) S1024x1024.size p).stride a = 1) :
    (Memref.whole main_v1 : Memref sig .tc .hbm S32768x1024 .f32).slice (Rect.unit (s := S32768x1024) (k0_off3 c (BitVec.ofNat 32 (1024 * k.val))) S1024x1024.size p) hs
      = (Memref.whole main_v1 : Memref sig .tc .hbm S32768x1024 .f32).slice (oCh c (qF c) k) (fun _ => rfl) := by
  have e : k0_off3 c (BitVec.ofNat 32 (1024 * k.val))
      = ![16384 * (1 - c.val / 16) + 4096 * (qF c).val + 1024 * k.val, 0] := off3_eq c k
  exact Memref.slice_unit_congr (Memref.whole main_v1 : Memref sig .tc .hbm S32768x1024 .f32) e p _ hs _

theorem slice_off3_0 (c : Dev nD)
    (p : ∀ a, (k0_off3 c 0#32) a + S1024x1024.size a ≤ S32768x1024.size a)
    (hs : ∀ a, (Rect.unit (s := S32768x1024) (k0_off3 c 0#32) S1024x1024.size p).stride a = 1) :
    (Memref.whole main_v1 : Memref sig .tc .hbm S32768x1024 .f32).slice (Rect.unit (s := S32768x1024) (k0_off3 c 0#32) S1024x1024.size p) hs
      = (Memref.whole main_v1 : Memref sig .tc .hbm S32768x1024 .f32).slice (oCh c (qF c) 0) (fun _ => rfl) := slice_off3 c 0 p hs
theorem slice_off3_1 (c : Dev nD)
    (p : ∀ a, (k0_off3 c 1024#32) a + S1024x1024.size a ≤ S32768x1024.size a)
    (hs : ∀ a, (Rect.unit (s := S32768x1024) (k0_off3 c 1024#32) S1024x1024.size p).stride a = 1) :
    (Memref.whole main_v1 : Memref sig .tc .hbm S32768x1024 .f32).slice (Rect.unit (s := S32768x1024) (k0_off3 c 1024#32) S1024x1024.size p) hs
      = (Memref.whole main_v1 : Memref sig .tc .hbm S32768x1024 .f32).slice (oCh c (qF c) 1) (fun _ => rfl) := slice_off3 c 1 p hs
theorem slice_off3_2 (c : Dev nD)
    (p : ∀ a, (k0_off3 c 2048#32) a + S1024x1024.size a ≤ S32768x1024.size a)
    (hs : ∀ a, (Rect.unit (s := S32768x1024) (k0_off3 c 2048#32) S1024x1024.size p).stride a = 1) :
    (Memref.whole main_v1 : Memref sig .tc .hbm S32768x1024 .f32).slice (Rect.unit (s := S32768x1024) (k0_off3 c 2048#32) S1024x1024.size p) hs
      = (Memref.whole main_v1 : Memref sig .tc .hbm S32768x1024 .f32).slice (oCh c (qF c) 2) (fun _ => rfl) := slice_off3 c 2 p hs
theorem slice_off3_3 (c : Dev nD)
    (p : ∀ a, (k0_off3 c 3072#32) a + S1024x1024.size a ≤ S32768x1024.size a)
    (hs : ∀ a, (Rect.unit (s := S32768x1024) (k0_off3 c 3072#32) S1024x1024.size p).stride a = 1) :
    (Memref.whole main_v1 : Memref sig .tc .hbm S32768x1024 .f32).slice (Rect.unit (s := S32768x1024) (k0_off3 c 3072#32) S1024x1024.size p) hs
      = (Memref.whole main_v1 : Memref sig .tc .hbm S32768x1024 .f32).slice (oCh c (qF c) 3) (fun _ => rfl) := slice_off3 c 3 p hs

theorem slice_off4 (c : Dev nD) (k : Fin 8)
    (p : ∀ a, (k0_off4 c (BitVec.ofNat 32 (2048 * k.val))) a + S2048x1024.size a ≤ S32768x1024.size a)
    (hs : ∀ a, (Rect.unit (s := S32768x1024) (k0_off4 c (BitVec.ofNat 32 (2048 * k.val))) S2048x1024.size p).stride a = 1) :
    (Memref.whole main_v1 : Memref sig .tc .hbm S32768x1024 .f32).slice (Rect.unit (s := S32768x1024) (k0_off4 c (BitVec.ofNat 32 (2048 * k.val))) S2048x1024.size p) hs
      = (Memref.whole main_v1 : Memref sig .tc .hbm S32768x1024 .f32).slice (oOwn c k) (fun _ => rfl) := by
  have e : k0_off4 c (BitVec.ofNat 32 (2048 * k.val)) = ![16384 * (c.val / 16) + 2048 * k.val, 0] := k0_off4_eq c k
  exact Memref.slice_unit_congr (Memref.whole main_v1 : Memref sig .tc .hbm S32768x1024 .f32) e p _ hs _

theorem slice_off4_0 (c : Dev nD)
    (p : ∀ a, (k0_off4 c 0#32) a + S2048x1024.size a ≤ S32768x1024.size a)
    (hs : ∀ a, (Rect.unit (s := S32768x1024) (k0_off4 c 0#32) S2048x1024.size p).stride a = 1) :
    (Memref.whole main_v1 : Memref sig .tc .hbm S32768x1024 .f32).slice (Rect.unit (s := S32768x1024) (k0_off4 c 0#32) S2048x1024.size p) hs
      = (Memref.whole main_v1 : Memref sig .tc .hbm S32768x1024 .f32).slice (oOwn c 0) (fun _ => rfl) := slice_off4 c 0 p hs
theorem slice_off4_1 (c : Dev nD)
    (p : ∀ a, (k0_off4 c 2048#32) a + S2048x1024.size a ≤ S32768x1024.size a)
    (hs : ∀ a, (Rect.unit (s := S32768x1024) (k0_off4 c 2048#32) S2048x1024.size p).stride a = 1) :
    (Memref.whole main_v1 : Memref sig .tc .hbm S32768x1024 .f32).slice (Rect.unit (s := S32768x1024) (k0_off4 c 2048#32) S2048x1024.size p) hs
      = (Memref.whole main_v1 : Memref sig .tc .hbm S32768x1024 .f32).slice (oOwn c 1) (fun _ => rfl) := slice_off4 c 1 p hs
theorem slice_off4_2 (c : Dev nD)
    (p : ∀ a, (k0_off4 c 4096#32) a + S2048x1024.size a ≤ S32768x1024.size a)
    (hs : ∀ a, (Rect.unit (s := S32768x1024) (k0_off4 c 4096#32) S2048x1024.size p).stride a = 1) :
    (Memref.whole main_v1 : Memref sig .tc .hbm S32768x1024 .f32).slice (Rect.unit (s := S32768x1024) (k0_off4 c 4096#32) S2048x1024.size p) hs
      = (Memref.whole main_v1 : Memref sig .tc .hbm S32768x1024 .f32).slice (oOwn c 2) (fun _ => rfl) := slice_off4 c 2 p hs
theorem slice_off4_3 (c : Dev nD)
    (p : ∀ a, (k0_off4 c 6144#32) a + S2048x1024.size a ≤ S32768x1024.size a)
    (hs : ∀ a, (Rect.unit (s := S32768x1024) (k0_off4 c 6144#32) S2048x1024.size p).stride a = 1) :
    (Memref.whole main_v1 : Memref sig .tc .hbm S32768x1024 .f32).slice (Rect.unit (s := S32768x1024) (k0_off4 c 6144#32) S2048x1024.size p) hs
      = (Memref.whole main_v1 : Memref sig .tc .hbm S32768x1024 .f32).slice (oOwn c 3) (fun _ => rfl) := slice_off4 c 3 p hs
theorem slice_off4_4 (c : Dev nD)
    (p : ∀ a, (k0_off4 c 8192#32) a + S2048x1024.size a ≤ S32768x1024.size a)
    (hs : ∀ a, (Rect.unit (s := S32768x1024) (k0_off4 c 8192#32) S2048x1024.size p).stride a = 1) :
    (Memref.whole main_v1 : Memref sig .tc .hbm S32768x1024 .f32).slice (Rect.unit (s := S32768x1024) (k0_off4 c 8192#32) S2048x1024.size p) hs
      = (Memref.whole main_v1 : Memref sig .tc .hbm S32768x1024 .f32).slice (oOwn c 4) (fun _ => rfl) := slice_off4 c 4 p hs
theorem slice_off4_5 (c : Dev nD)
    (p : ∀ a, (k0_off4 c 10240#32) a + S2048x1024.size a ≤ S32768x1024.size a)
    (hs : ∀ a, (Rect.unit (s := S32768x1024) (k0_off4 c 10240#32) S2048x1024.size p).stride a = 1) :
    (Memref.whole main_v1 : Memref sig .tc .hbm S32768x1024 .f32).slice (Rect.unit (s := S32768x1024) (k0_off4 c 10240#32) S2048x1024.size p) hs
      = (Memref.whole main_v1 : Memref sig .tc .hbm S32768x1024 .f32).slice (oOwn c 5) (fun _ => rfl) := slice_off4 c 5 p hs
theorem slice_off4_6 (c : Dev nD)
    (p : ∀ a, (k0_off4 c 12288#32) a + S2048x1024.size a ≤ S32768x1024.size a)
    (hs : ∀ a, (Rect.unit (s := S32768x1024) (k0_off4 c 12288#32) S2048x1024.size p).stride a = 1) :
    (Memref.whole main_v1 : Memref sig .tc .hbm S32768x1024 .f32).slice (Rect.unit (s := S32768x1024) (k0_off4 c 12288#32) S2048x1024.size p) hs
      = (Memref.whole main_v1 : Memref sig .tc .hbm S32768x1024 .f32).slice (oOwn c 6) (fun _ => rfl) := slice_off4 c 6 p hs
theorem slice_off4_7 (c : Dev nD)
    (p : ∀ a, (k0_off4 c 14336#32) a + S2048x1024.size a ≤ S32768x1024.size a)
    (hs : ∀ a, (Rect.unit (s := S32768x1024) (k0_off4 c 14336#32) S2048x1024.size p).stride a = 1) :
    (Memref.whole main_v1 : Memref sig .tc .hbm S32768x1024 .f32).slice (Rect.unit (s := S32768x1024) (k0_off4 c 14336#32) S2048x1024.size p) hs
      = (Memref.whole main_v1 : Memref sig .tc .hbm S32768x1024 .f32).slice (oOwn c 7) (fun _ => rfl) := slice_off4 c 7 p hs

theorem slice_off5 (c : Dev nD) (k : Fin 4)
    (p : ∀ a, (k0_off5 c (BitVec.ofNat 32 (1024 * k.val))) a + S1024x1024.size a ≤ S32768x1024.size a)
    (hs : ∀ a, (Rect.unit (s := S32768x1024) (k0_off5 c (BitVec.ofNat 32 (1024 * k.val))) S1024x1024.size p).stride a = 1) :
    (Memref.whole main_v1 : Memref sig .tc .hbm S32768x1024 .f32).slice (Rect.unit (s := S32768x1024) (k0_off5 c (BitVec.ofNat 32 (1024 * k.val))) S1024x1024.size p) hs
      = (Memref.whole main_v1 : Memref sig .tc .hbm S32768x1024 .f32).slice (oCh c (qF (zb c)) k) (fun _ => rfl) := by
  have e : k0_off5 c (BitVec.ofNat 32 (1024 * k.val))
      = ![16384 * (1 - c.val / 16) + 4096 * (qF (zb c)).val + 1024 * k.val, 0] := off5_eq c k
  exact Memref.slice_unit_congr (Memref.whole main_v1 : Memref sig .tc .hbm S32768x1024 .f32) e p _ hs _

theorem slice_off5_0 (c : Dev nD)
    (p : ∀ a, (k0_off5 c 0#32) a + S1024x1024.size a ≤ S32768x1024.size a)
    (hs : ∀ a, (Rect.unit (s := S32768x1024) (k0_off5 c 0#32) S1024x1024.size p).stride a = 1) :
    (Memref.whole main_v1 : Memref sig .tc .hbm S32768x1024 .f32).slice (Rect.unit (s := S32768x1024) (k0_off5 c 0#32) S1024x1024.size p) hs
      = (Memref.whole main_v1 : Memref sig .tc .hbm S32768x1024 .f32).slice (oCh c (qF (zb c)) 0) (fun _ => rfl) := slice_off5 c 0 p hs
theorem slice_off5_1 (c : Dev nD)
    (p : ∀ a, (k0_off5 c 1024#32) a + S1024x1024.size a ≤ S32768x1024.size a)
    (hs : ∀ a, (Rect.unit (s := S32768x1024) (k0_off5 c 1024#32) S1024x1024.size p).stride a = 1) :
    (Memref.whole main_v1 : Memref sig .tc .hbm S32768x1024 .f32).slice (Rect.unit (s := S32768x1024) (k0_off5 c 1024#32) S1024x1024.size p) hs
      = (Memref.whole main_v1 : Memref sig .tc .hbm S32768x1024 .f32).slice (oCh c (qF (zb c)) 1) (fun _ => rfl) := slice_off5 c 1 p hs
theorem slice_off5_2 (c : Dev nD)
    (p : ∀ a, (k0_off5 c 2048#32) a + S1024x1024.size a ≤ S32768x1024.size a)
    (hs : ∀ a, (Rect.unit (s := S32768x1024) (k0_off5 c 2048#32) S1024x1024.size p).stride a = 1) :
    (Memref.whole main_v1 : Memref sig .tc .hbm S32768x1024 .f32).slice (Rect.unit (s := S32768x1024) (k0_off5 c 2048#32) S1024x1024.size p) hs
      = (Memref.whole main_v1 : Memref sig .tc .hbm S32768x1024 .f32).slice (oCh c (qF (zb c)) 2) (fun _ => rfl) := slice_off5 c 2 p hs
theorem slice_off5_3 (c : Dev nD)
    (p : ∀ a, (k0_off5 c 3072#32) a + S1024x1024.size a ≤ S32768x1024.size a)
    (hs : ∀ a, (Rect.unit (s := S32768x1024) (k0_off5 c 3072#32) S1024x1024.size p).stride a = 1) :
    (Memref.whole main_v1 : Memref sig .tc .hbm S32768x1024 .f32).slice (Rect.unit (s := S32768x1024) (k0_off5 c 3072#32) S1024x1024.size p) hs
      = (Memref.whole main_v1 : Memref sig .tc .hbm S32768x1024 .f32).slice (oCh c (qF (zb c)) 3) (fun _ => rfl) := slice_off5 c 3 p hs

theorem slice_off6 (c : Dev nD) (k : Fin 4)
    (p : ∀ a, (k0_off6 c (BitVec.ofNat 32 (1024 * k.val))) a + S1024x1024.size a ≤ S32768x1024.size a)
    (hs : ∀ a, (Rect.unit (s := S32768x1024) (k0_off6 c (BitVec.ofNat 32 (1024 * k.val))) S1024x1024.size p).stride a = 1) :
    (Memref.whole main_v1 : Memref sig .tc .hbm S32768x1024 .f32).slice (Rect.unit (s := S32768x1024) (k0_off6 c (BitVec.ofNat 32 (1024 * k.val))) S1024x1024.size p) hs
      = (Memref.whole main_v1 : Memref sig .tc .hbm S32768x1024 .f32).slice (oCh c (qF (yb c)) k) (fun _ => rfl) := by
  have e : k0_off6 c (BitVec.ofNat 32 (1024 * k.val))
      = ![16384 * (1 - c.val / 16) + 4096 * (qF (yb c)).val + 1024 * k.val, 0] := off6_eq c k
  exact Memref.slice_unit_congr (Memref.whole main_v1 : Memref sig .tc .hbm S32768x1024 .f32) e p _ hs _

theorem slice_off6_0 (c : Dev nD)
    (p : ∀ a, (k0_off6 c 0#32) a + S1024x1024.size a ≤ S32768x1024.size a)
    (hs : ∀ a, (Rect.unit (s := S32768x1024) (k0_off6 c 0#32) S1024x1024.size p).stride a = 1) :
    (Memref.whole main_v1 : Memref sig .tc .hbm S32768x1024 .f32).slice (Rect.unit (s := S32768x1024) (k0_off6 c 0#32) S1024x1024.size p) hs
      = (Memref.whole main_v1 : Memref sig .tc .hbm S32768x1024 .f32).slice (oCh c (qF (yb c)) 0) (fun _ => rfl) := slice_off6 c 0 p hs
theorem slice_off6_1 (c : Dev nD)
    (p : ∀ a, (k0_off6 c 1024#32) a + S1024x1024.size a ≤ S32768x1024.size a)
    (hs : ∀ a, (Rect.unit (s := S32768x1024) (k0_off6 c 1024#32) S1024x1024.size p).stride a = 1) :
    (Memref.whole main_v1 : Memref sig .tc .hbm S32768x1024 .f32).slice (Rect.unit (s := S32768x1024) (k0_off6 c 1024#32) S1024x1024.size p) hs
      = (Memref.whole main_v1 : Memref sig .tc .hbm S32768x1024 .f32).slice (oCh c (qF (yb c)) 1) (fun _ => rfl) := slice_off6 c 1 p hs
theorem slice_off6_2 (c : Dev nD)
    (p : ∀ a, (k0_off6 c 2048#32) a + S1024x1024.size a ≤ S32768x1024.size a)
    (hs : ∀ a, (Rect.unit (s := S32768x1024) (k0_off6 c 2048#32) S1024x1024.size p).stride a = 1) :
    (Memref.whole main_v1 : Memref sig .tc .hbm S32768x1024 .f32).slice (Rect.unit (s := S32768x1024) (k0_off6 c 2048#32) S1024x1024.size p) hs
      = (Memref.whole main_v1 : Memref sig .tc .hbm S32768x1024 .f32).slice (oCh c (qF (yb c)) 2) (fun _ => rfl) := slice_off6 c 2 p hs
theorem slice_off6_3 (c : Dev nD)
    (p : ∀ a, (k0_off6 c 3072#32) a + S1024x1024.size a ≤ S32768x1024.size a)
    (hs : ∀ a, (Rect.unit (s := S32768x1024) (k0_off6 c 3072#32) S1024x1024.size p).stride a = 1) :
    (Memref.whole main_v1 : Memref sig .tc .hbm S32768x1024 .f32).slice (Rect.unit (s := S32768x1024) (k0_off6 c 3072#32) S1024x1024.size p) hs
      = (Memref.whole main_v1 : Memref sig .tc .hbm S32768x1024 .f32).slice (oCh c (qF (yb c)) 3) (fun _ => rfl) := slice_off6 c 3 p hs

theorem slice_off7 (c : Dev nD) (k : Fin 4)
    (p : ∀ a, (k0_off7 c (BitVec.ofNat 32 (1024 * k.val))) a + S1024x1024.size a ≤ S32768x1024.size a)
    (hs : ∀ a, (Rect.unit (s := S32768x1024) (k0_off7 c (BitVec.ofNat 32 (1024 * k.val))) S1024x1024.size p).stride a = 1) :
    (Memref.whole main_v1 : Memref sig .tc .hbm S32768x1024 .f32).slice (Rect.unit (s := S32768x1024) (k0_off7 c (BitVec.ofNat 32 (1024 * k.val))) S1024x1024.size p) hs
      = (Memref.whole main_v1 : Memref sig .tc .hbm S32768x1024 .f32).slice (oCh c (qF (yb (zb c))) k) (fun _ => rfl) := by
  have e : k0_off7 c (BitVec.ofNat 32 (1024 * k.val))
      = ![16384 * (1 - c.val / 16) + 4096 * (qF (yb (zb c))).val + 1024 * k.val, 0] := off7_eq c k
  exact Memref.slice_unit_congr (Memref.whole main_v1 : Memref sig .tc .hbm S32768x1024 .f32) e p _ hs _

theorem slice_off7_0 (c : Dev nD)
    (p : ∀ a, (k0_off7 c 0#32) a + S1024x1024.size a ≤ S32768x1024.size a)
    (hs : ∀ a, (Rect.unit (s := S32768x1024) (k0_off7 c 0#32) S1024x1024.size p).stride a = 1) :
    (Memref.whole main_v1 : Memref sig .tc .hbm S32768x1024 .f32).slice (Rect.unit (s := S32768x1024) (k0_off7 c 0#32) S1024x1024.size p) hs
      = (Memref.whole main_v1 : Memref sig .tc .hbm S32768x1024 .f32).slice (oCh c (qF (yb (zb c))) 0) (fun _ => rfl) := slice_off7 c 0 p hs
theorem slice_off7_1 (c : Dev nD)
    (p : ∀ a, (k0_off7 c 1024#32) a + S1024x1024.size a ≤ S32768x1024.size a)
    (hs : ∀ a, (Rect.unit (s := S32768x1024) (k0_off7 c 1024#32) S1024x1024.size p).stride a = 1) :
    (Memref.whole main_v1 : Memref sig .tc .hbm S32768x1024 .f32).slice (Rect.unit (s := S32768x1024) (k0_off7 c 1024#32) S1024x1024.size p) hs
      = (Memref.whole main_v1 : Memref sig .tc .hbm S32768x1024 .f32).slice (oCh c (qF (yb (zb c))) 1) (fun _ => rfl) := slice_off7 c 1 p hs
theorem slice_off7_2 (c : Dev nD)
    (p : ∀ a, (k0_off7 c 2048#32) a + S1024x1024.size a ≤ S32768x1024.size a)
    (hs : ∀ a, (Rect.unit (s := S32768x1024) (k0_off7 c 2048#32) S1024x1024.size p).stride a = 1) :
    (Memref.whole main_v1 : Memref sig .tc .hbm S32768x1024 .f32).slice (Rect.unit (s := S32768x1024) (k0_off7 c 2048#32) S1024x1024.size p) hs
      = (Memref.whole main_v1 : Memref sig .tc .hbm S32768x1024 .f32).slice (oCh c (qF (yb (zb c))) 2) (fun _ => rfl) := slice_off7 c 2 p hs
theorem slice_off7_3 (c : Dev nD)
    (p : ∀ a, (k0_off7 c 3072#32) a + S1024x1024.size a ≤ S32768x1024.size a)
    (hs : ∀ a, (Rect.unit (s := S32768x1024) (k0_off7 c 3072#32) S1024x1024.size p).stride a = 1) :
    (Memref.whole main_v1 : Memref sig .tc .hbm S32768x1024 .f32).slice (Rect.unit (s := S32768x1024) (k0_off7 c 3072#32) S1024x1024.size p) hs
      = (Memref.whole main_v1 : Memref sig .tc .hbm S32768x1024 .f32).slice (oCh c (qF (yb (zb c))) 3) (fun _ => rfl) := slice_off7 c 3 p hs

end Cert.KernelIdeal.AG

end

/-- info: 'Cert.KernelIdeal.AG.out_split' depends on axioms: [propext, Classical.choice, Quot.sound] -/
#guard_msgs in #print axioms Cert.KernelIdeal.AG.out_split
/-- info: 'Cert.KernelIdeal.AG.x_split' depends on axioms: [propext, Classical.choice, Quot.sound] -/
#guard_msgs in #print axioms Cert.KernelIdeal.AG.x_split
/-- info: 'Cert.KernelIdeal.AG.vbuf_split' depends on axioms: [propext, Classical.choice, Quot.sound] -/
#guard_msgs in #print axioms Cert.KernelIdeal.AG.vbuf_split
/-- info: 'Cert.KernelIdeal.AG.vbuf_join' depends on axioms: [propext, Classical.choice, Quot.sound] -/
#guard_msgs in #print axioms Cert.KernelIdeal.AG.vbuf_join
/-- info: 'Cert.KernelIdeal.AG.pts_slot' depends on axioms: [propext, Classical.choice, Quot.sound] -/
#guard_msgs in #print axioms Cert.KernelIdeal.AG.pts_slot
/-- info: 'Cert.KernelIdeal.AG.pts_slice1' depends on axioms: [propext, Classical.choice, Quot.sound] -/
#guard_msgs in #print axioms Cert.KernelIdeal.AG.pts_slice1
/-- info: 'Cert.KernelIdeal.AG.pts_slice0' depends on axioms: [propext, Classical.choice, Quot.sound] -/
#guard_msgs in #print axioms Cert.KernelIdeal.AG.pts_slice0
/-- info: 'Cert.KernelIdeal.AG.slice_off1' depends on axioms: [propext, Classical.choice, Quot.sound] -/
#guard_msgs in #print axioms Cert.KernelIdeal.AG.slice_off1
/-- info: 'Cert.KernelIdeal.AG.slice_off4_7' depends on axioms: [propext, Classical.choice, Quot.sound] -/
#guard_msgs in #print axioms Cert.KernelIdeal.AG.slice_off4_7
/-- info: 'Cert.KernelIdeal.AG.slice_off7_3' depends on axioms: [propext, Classical.choice, Quot.sound] -/
#guard_msgs in #print axioms Cert.KernelIdeal.AG.slice_off7_3
-- ==== Proof.KernelIdealAG.Steps.lean ====
/-
  The body's steps, each library rule read at this protocol's cells: a copy to a neighbour, the wait for a landing, the
  wait for a copy's departure, a load into a staging slot, a store out of one, and their waits. Each takes what all
  devices share (every cell's invariant and that it is at round 0) and the few resources the step moves.
-/
import proofs.«900686_g7700000000000687_dist_ag_v7x_xyz2x4x4_x_m16384_n1024_f32_1_alg».proof.Proof.KernelIdealAG.Proto
import proofs.«900686_g7700000000000687_dist_ag_v7x_xyz2x4x4_x_m16384_n1024_f32_1_alg».proof.Proof.KernelIdealAG.Geom

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the shared records -/

/-- The index of DMA cell `n` among a device's forty-one. -/
abbrev ki (n : ℕ) (h : n < 40) : Fin 41 := ⟨n, by omega⟩
/-- The index of the barrier cell. -/
abbrev kb : Fin 41 := ⟨40, by decide⟩

omit [FloatOps F] in
theorem kcell_dma (c : Dev nD) (n : ℕ) (h : n < 40) : kcell (c, ki n h) = cell c n h := by
  unfold kcell; exact dif_pos h
omit [FloatOps F] in
theorem kcell_bar (c : Dev nD) : kcell (c, kb) = barCell c := by
  unfold kcell; exact dif_neg (Nat.lt_irrefl 40)

theorem inv_dma (K : Dev nD × Fin 41 → ℕ) (c : Dev nD) (n : ℕ) (h : n < 40) :
    (records m K : sProp 𝕄) ⊢ cellInv ER (agRd m) (K (c, ki n h)) (cell c n h) := by
  have hel : (bigSep Finset.univ fun ck : Dev nD × Fin 41 => (cellInv ER (agRd m) (K ck) (kcell ck) : sProp 𝕄))
      ⊢ cellInv ER (agRd m) (K (c, ki n h)) (kcell (c, ki n h)) := bigSep_elim (Finset.mem_univ (c, ki n h))
  rw [kcell_dma c n h] at hel
  unfold records
  iintro ⟨HI, -⟩
  iapply hel; iexact HI
theorem inv_bar (K : Dev nD × Fin 41 → ℕ) (c : Dev nD) :
    (records m K : sProp 𝕄) ⊢ cellInv ER (agRd m) (K (c, kb)) (barCell c) := by
  have hel : (bigSep Finset.univ fun ck : Dev nD × Fin 41 => (cellInv ER (agRd m) (K ck) (kcell ck) : sProp 𝕄))
      ⊢ cellInv ER (agRd m) (K (c, kb)) (kcell (c, kb)) := bigSep_elim (Finset.mem_univ (c, kb))
  rw [kcell_bar c] at hel
  unfold records
  iintro ⟨HI, -⟩
  iapply hel; iexact HI
theorem reached_dma (K : Dev nD × Fin 41 → ℕ) (c : Dev nD) (n : ℕ) (h : n < 40) :
    (records m K : sProp 𝕄) ⊢ reached ER (cell c n h) 0 := by
  have hel : (bigSep Finset.univ fun ck : Dev nD × Fin 41 => (reached ER (kcell ck) 0 : sProp 𝕄))
      ⊢ reached ER (kcell (c, ki n h)) 0 := bigSep_elim (Finset.mem_univ (c, ki n h))
  rw [kcell_dma c n h] at hel
  unfold records
  iintro ⟨-, HRr⟩
  iapply hel; iexact HRr
theorem reached_bar (K : Dev nD × Fin 41 → ℕ) (c : Dev nD) :
    (records m K : sProp 𝕄) ⊢ reached ER (barCell c) 0 := by
  have hel : (bigSep Finset.univ fun ck : Dev nD × Fin 41 => (reached ER (kcell ck) 0 : sProp 𝕄))
      ⊢ reached ER (kcell (c, kb)) 0 := bigSep_elim (Finset.mem_univ (c, kb))
  rw [kcell_bar c] at hel
  unfold records
  iintro ⟨-, HRr⟩
  iapply hel; iexact HRr

variable (K : Dev nD × Fin 41 → ℕ)

/-! ## A signal to a neighbour's barrier cell -/

/-- Device `c` pays duty `d` of device `n`'s barrier cell: one unit, handing over what the duty's payload says. -/
theorem step_signal (c n : Dev nD) (d : Fin 3) (k' : ℕ) (hk' : 1 = k')
    {α : Type} {Q : α → sProp 𝕄} {k : PUnit → Prog (TpuEff nD τ sig (Elt F) Λ₀ .tc) α}
    (O : CellTallies nD τ sig Unit) (W : Waits sig Unit) :
    iprop(records m K ∗ owes (c : Thread nD τ) (O + tallyAt (barCell n) () k') W ∗ dutyTok ER (barCell n) 0 d ∗ barPay n d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  iintro ⟨#HR, HO, Htok, Hpay⟩
  iapply (Rounds.wp_signal 𝒱₀ ER (agRd m) (c : Thread nD τ) none (dst := (n : Thread nD τ)) (κ := K (n, kb))
      (d := d) (by rw [duties_bar]; exact Finset.mem_univ _) (amount_bar m n 0 d) () O rfl) $$ [HO Htok Hpay]
  isplitr; · iapply (inv_bar m K n); iexact HR
  isplitl [HO]; · iexact HO
  isplitl [Htok]; · iexact Htok
  isplitl [Hpay]; · rw [payload_bar]; iexact Hpay
  iapply (reached_bar m K n); iexact HR

/-! ## The barrier wait -/

/-- The wait for three on its own barrier cell: the three neighbours' landing rows come with it. -/
theorem step_barwait (c : Dev nD) (k' : ℕ) (hk' : 3 = k')
    {α : Type} {Q : α → sProp 𝕄} {k : PUnit → Prog (TpuEff nD τ sig (Elt F) Λ₀ .tc) α}
    (O : CellTallies nD τ sig Unit) (W : Waits sig Unit) :
    iprop(records m K ∗ cred (tallyAt (barCell c) () k') ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, Hmw, Hat⟩ Hk
  iapply (Rounds.wp_wait_rest_token 𝒱₀ ER (agRd m) (c : Thread nD τ) none (κ := K (c, kb))
      (wpE_semWait_eq 𝒱₀ (c : Thread nD τ) none Set.univ) (Set.mem_univ _) () (O := O) (W := W) (R := 0) (m := 0) (T := ∅)
      (by rw [expect_bar])) $$ [Hc HO Hmw Hat]
  · isplitr; · iapply (inv_bar m K c); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)) $$ Hpay

/-! ## A copy to a neighbour -/

/-- Device `c` copies `src` into `dst` on device `n`, paying its send cell `sS` and `n`'s receive cell `sR`. -/
theorem step_send (c n : Dev nD) (sS sR : ℕ) (hS : sS < 40) (hR : sR < 40) (hs : isSend sS) (hr : isRecv sR)
    {src : Memref sig .tc .hbm S1024x1024 .f32} {dst : Memref sig .tc .hbm S1024x1024 .f32}
    {hsc : (dst : Memref sig (Dev.tc n : Thread nD τ).2.kind .hbm S1024x1024 .f32).view.ref.isScScratch = false}
    {hsrc : src.view.WordExact} {hdst : dst.view.WordExact}
    {hsem : DmaTarget.Typed .hbm (.dma (ds sR hR)) (.remote (Dev.tc n : Thread nD τ) dst (.dma (ds sS hS)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (W : Waits sig Unit)
    (hN : dst.view.amount (.dma (ds sR hR)) = N)
    (hpay₁ : (src.view.loc (c : Thread nD τ) ↦[src.view.set]{q} fs : sProp 𝕄) ⊢ sendPay m c sS)
    (hpay₂ : (dst.view.loc (n : Thread nD τ) ↦[dst.view.set]{fullShare} (dst.view.write (Elt F) fd (src.view.read (Elt F) fs) Finset.univ) : sProp 𝕄)
      ⊢ recvPay m n sR) :
    iprop(records m K ∗ (src.view.loc (c : Thread nD τ) ↦[src.view.set]{q} fs) ∗ (dst.view.loc (n : Thread nD τ) ↦[dst.view.set]{fullShare} fd)
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (ds sS hS)) hsc) (.dma (ds sR hR)) hsrc hdst hsem) k) Q) := by
  have hS8 : 8 ≤ sS := by unfold isSend at hs; omega
  have hR8 : 8 ≤ sR := by unfold isRecv at hr; omega
  iintro ⟨#HR, Hsrc, Hdst, HO, HtS, HtR⟩
  iapply (Rounds.wp_send_pointsTo 𝒱₀ ER (agRd m) (c : Thread nD τ) none (κ₁ := K (c, ki sS hS)) (κ₂ := K (n, ki sR hR))
    (r₁ := 0) (r₂ := 0) (d₁ := 0) (d₂ := 0) (fd := fd)
    (by rw [duties_dma]; exact Finset.mem_singleton_self _) (by rw [duties_dma]; exact Finset.mem_singleton_self _)
    () () N hN (amount_rem m c sS hS8 hS 0 0) (amount_rem m n sR hR8 hR 0 0) O rfl (W := W)
    (by rw [payload_send m c sS hS hs]; exact hpay₁)
    (by rw [payload_recv m n sR hR hr]; exact hpay₂)) $$ [Hsrc Hdst HO HtS HtR]
  isplitr; · iapply (inv_dma m K c sS hS); iexact HR
  isplitr; · iapply (inv_dma m K n sR hR); iexact HR
  isplitl [Hsrc]; · iexact Hsrc
  isplitl [Hdst]; · iexact Hdst
  isplitl [HO]; · iexact HO
  isplitl [HtS]; · iexact HtS
  isplitr; · iapply (reached_dma m K c sS hS); iexact HR
  isplitl [HtR]; · iexact HtR
  iapply (reached_dma m K n sR hR); iexact HR

/-! ## A wait on a transfer cell of its own, for the rest of its round -/

/-- The wait on cell `n` at round `r` for the round's one duty: the duty's payload comes back, the cell moves on. -/
theorem step_wait (c : Dev nD) (n : ℕ) (hn : n < 40) (r : ℕ) (A : ℕ)
    (hd : (agRd m).duties (cell c n hn) r = {0}) (hA : (agRd m).amount (cell c n hn) r 0 = A)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = A) :
    iprop(records m K ∗ cred (tallyAt (cell c n hn) () A) ∗ owes (c : Thread nD τ) O W ∗ MayWait (c : Thread nD τ) (.dma (ds n hn)) () O
        ∗ atPos ER (cell c n hn) r ∅ 0)
      ⊢ iprop(((owes (c : Thread nD τ) O (insert (SemLoc.dma (ds n hn), ()) W) ∗ atPos ER (cell c n hn) (r + 1) ∅ 0 ∗ reached ER (cell c n hn) (r + 1)
              ∗ (agRd m).payload (cell c n hn) r 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  subst hcr
  iintro ⟨#HR, Hc, HO, Hmw, Hat⟩ Hk
  iapply (Rounds.wp_wait_rest_token 𝒱₀ ER (agRd m) (c : Thread nD τ) none (κ := K (c, ki n hn))
      (wpE_waitDma2_eq 𝒱₀ (c : Thread nD τ) none Set.univ) (Set.mem_univ _) () (O := O) (W := W) (R := r) (m := 0) (T := ∅)
      (by rw [Nat.zero_add]; unfold Schedule.expect Schedule.amountOf; rw [hd, Finset.sum_singleton, hA])) $$ [Hc HO Hmw Hat]
  · isplitr; · iapply (inv_dma m K c n hn); iexact HR
    isplitl [Hc]; · iexact Hc
    isplitl [HO]; · iexact HO
    isplitl [Hmw]; · iexact Hmw
    iexact Hat
  iintro ⟨HO, Hat, Hr, Hpay⟩
  iapply Hk
  isplitl [HO]; · iexact HO
  isplitl [Hat]; · iexact Hat
  isplitl [Hr]; · iexact Hr
  iapply (Entails.of_eq (rest_dma m c n hn r hd)) $$ Hpay

/-! ## A copy within the device -/

/-- A local copy paying round `r` of the device's own load or store cell `n`. -/
theorem step_copy (c : Dev nD) (n : ℕ) (hn : n < 40) (r : ℕ) (A : ℕ)
    (hd : (agRd m).duties (cell c n hn) r = {0}) (hA : (agRd m).amount (cell c n hn) r 0 = A)
    {sp sp' : Space} {s : Shape} {e : EltTy}
    {src : Memref sig .tc sp s e} {dst : Memref sig .tc sp' s e}
    {hsrc : src.view.WordExact} {hdst : dst.view.WordExact} {hsem : DmaTarget.Typed (nD := nD) sp (.dma (ds n hn)) (DmaTarget.here (p := (Proc.tc : Proc τ)) dst)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (c : Thread nD τ)))
    (hN : dst.view.amount (.dma (ds n hn)) = A)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ (agRd m).payload (cell c n hn) r 0)
    (Hreach : sProp 𝕄) (hreach : Hreach ⊢ reached ER (cell c n hn) r) [BI.Persistent Hreach] :
    iprop(records m K ∗ Hreach ∗ (src.view.loc (c : Thread nD τ) ↦[src.view.set]{q} fs) ∗ (dst.view.loc (c : Thread nD τ) ↦[dst.view.set]{fullShare} fd)
        ∗ dutyTok ER (cell c n hn) r 0)
      ⊢ iprop((cred (tallyAt (cell c n hn) () A) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma (ds n hn)) hsrc hdst hsem) k) Q) := by
  iintro ⟨#HR, #Hre, Hsrc, Hdst, Htok⟩
  iapply (Rounds.wp_copy_pointsTo 𝒱₀ ER (agRd m) (c : Thread nD τ) none (κ := K (c, ki n hn)) (r := r) (d := 0) (fd := fd)
    (by rw [hd]; exact Finset.mem_singleton_self _) () A hN hA hpay) $$ [Hsrc Hdst Htok]
  isplitr; · iapply (inv_dma m K c n hn); iexact HR
  isplitl [Hsrc]; · iexact Hsrc
  isplitl [Hdst]; · iexact Hdst
  isplitl [Htok]; · iexact Htok
  iapply hreach; iexact Hre

/-! ## The buffers as the body names them -/

abbrev M0 : Memref sig .tc .hbm S16384x1024 .f32 := Memref.whole main_arg0
abbrev M1 : Memref sig .tc .hbm S32768x1024 .f32 := Memref.whole main_v1
abbrev MV : Memref sig .tc .vmem S4x2048x1024 .f32 := Memref.whole cc0_scratch0
/-- Slot `s` of the staging buffer, as 2048 rows. -/
abbrev slot (s : Fin 4) : Memref sig .tc .vmem S2048x1024 .f32 :=
  (MV.slice (vSl s) (fun _ => rfl)).squeeze S2048x1024 squeezes_S1x2048x1024_S2048x1024

set_option maxHeartbeats 1000000 in
/-- A copy of 1024 rows (`src`, rows `RS` of buffer M0 or M1 of this device) into rows `RD` of a neighbour's result:
    `step_send` with the rows held as `pts`. -/
theorem step_send0 (c n : Dev nD) (sS sR : ℕ) (hS : sS < 40) (hR : sR < 40) (hs : isSend sS) (hr : isRecv sR)
    (Qs ks : Fin 4) (nd : Dev nD) (Qd kd : Fin 4)
    {hsc : ((M1.slice (oCh nd Qd kd) (fun _ => rfl)) : Memref sig (Dev.tc n : Thread nD τ).2.kind .hbm S1024x1024 .f32).view.ref.isScScratch = false}
    {hsrc : (M0.slice (xCh Qs ks) (fun _ => rfl)).view.WordExact} {hdst : (M1.slice (oCh nd Qd kd) (fun _ => rfl)).view.WordExact}
    {hsem : DmaTarget.Typed .hbm (.dma (ds sR hR)) (.remote (Dev.tc n : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_arg0)) (fd : Buf (Elt F) ((n : Thread nD τ).loc main_v1))
    (O : CellTallies nD τ sig Unit) (W : Waits sig Unit)
    (hpay₁ : (pts c main_arg0 (xCh Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M0.slice (xCh Qs ks) (fun _ => rfl)).view.read (Elt F) fs) Finset.univ) : sProp 𝕄)
      ⊢ recvPay m n sR) :
    iprop(records m K ∗ pts c main_arg0 (xCh Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xCh Qs ks) (fun _ => rfl)) (.remote (Dev.tc n : Thread nD τ) (M1.slice (oCh nd Qd kd) (fun _ => rfl)) (.dma (ds sS hS)) hsc)
                (.dma (ds sR hR)) hsrc hdst hsem) k) Q) := by
  have h := step_send m K c n sS sR hS hR hs hr (src := M0.slice (xCh Qs ks) (fun _ => rfl)) (dst := M1.slice (oCh nd Qd kd) (fun _ => rfl))
    (hsc := hsc) (hsrc := hsrc) (hdst := hdst) (hsem := hsem) (Q := Q) (k := k) q fs fd O W rfl
    ((Entails.of_eq (pts_slice0 c (xCh Qs ks) (fun _ => rfl) q fs)).trans hpay₁) hpay₂
  exact (sep_mono_right (sep_mono_left (Entails.of_eq (pts_slice0 c (xCh Qs ks) (fun _ => rfl) q fs).symm))).trans
    ((sep_mono_right (sep_mono_right (sep_mono_left (Entails.of_eq (pts_slice1 n (oCh nd Qd kd) (fun _ => rfl) fullShare fd).symm)))).trans h)

set_option maxHeartbeats 1000000 in
/-- The same from rows of this device's RESULT (a forwarded chunk). -/
theorem step_send1 (c n : Dev nD) (sS sR : ℕ) (hS : sS < 40) (hR : sR < 40) (hs : isSend sS) (hr : isRecv sR)
    (ns : Dev nD) (Qs ks : Fin 4) (nd : Dev nD) (Qd kd : Fin 4)
    {hsc : ((M1.slice (oCh nd Qd kd) (fun _ => rfl)) : Memref sig (Dev.tc n : Thread nD τ).2.kind .hbm S1024x1024 .f32).view.ref.isScScratch = false}
    {hsrc : (M1.slice (oCh ns Qs ks) (fun _ => rfl)).view.WordExact} {hdst : (M1.slice (oCh nd Qd kd) (fun _ => rfl)).view.WordExact}
    {hsem : DmaTarget.Typed .hbm (.dma (ds sR hR)) (.remote (Dev.tc n : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_v1)) (fd : Buf (Elt F) ((n : Thread nD τ).loc main_v1))
    (O : CellTallies nD τ sig Unit) (W : Waits sig Unit)
    (hpay₁ : (pts c main_v1 (oCh ns Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M1.slice (oCh ns Qs ks) (fun _ => rfl)).view.read (Elt F) fs) Finset.univ) : sProp 𝕄)
      ⊢ recvPay m n sR) :
    iprop(records m K ∗ pts c main_v1 (oCh ns Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M1.slice (oCh ns Qs ks) (fun _ => rfl)) (.remote (Dev.tc n : Thread nD τ) (M1.slice (oCh nd Qd kd) (fun _ => rfl)) (.dma (ds sS hS)) hsc)
                (.dma (ds sR hR)) hsrc hdst hsem) k) Q) := by
  have h := step_send m K c n sS sR hS hR hs hr (src := M1.slice (oCh ns Qs ks) (fun _ => rfl)) (dst := M1.slice (oCh nd Qd kd) (fun _ => rfl))
    (hsc := hsc) (hsrc := hsrc) (hdst := hdst) (hsem := hsem) (Q := Q) (k := k) q fs fd O W rfl
    ((Entails.of_eq (pts_slice1 c (oCh ns Qs ks) (fun _ => rfl) q fs)).trans hpay₁) hpay₂
  exact (sep_mono_right (sep_mono_left (Entails.of_eq (pts_slice1 c (oCh ns Qs ks) (fun _ => rfl) q fs).symm))).trans
    ((sep_mono_right (sep_mono_right (sep_mono_left (Entails.of_eq (pts_slice1 n (oCh nd Qd kd) (fun _ => rfl) fullShare fd).symm)))).trans h)

/-! ## A wait's amount: the credit of the window it names, whatever the buffer -/

theorem credit_N {sp : Space} (M : Memref sig .tc sp S1024x1024 .f32) : M.view.dmaCredit = N := rfl

/-! ## The waits, by kind -/

/-- The wait for a landing on receive cell `n`: its rows, holding what the result must hold there. -/
theorem step_rwait (c : Dev nD) (n : ℕ) (hn : n < 40) (hr : isRecv n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = N) :
    iprop(records m K ∗ cred (tallyAt (cell c n hn) () N) ∗ owes (c : Thread nD τ) O W ∗ MayWait (c : Thread nD τ) (.dma (ds n hn)) () O
        ∗ atPos ER (cell c n hn) 0 ∅ 0)
      ⊢ iprop(((owes (c : Thread nD τ) O (insert (SemLoc.dma (ds n hn), ()) W) ∗ atPos ER (cell c n hn) 1 ∅ 0 ∗ recvPay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  have h8 : 8 ≤ n := by unfold isRecv at hr; omega
  iintro H Hk
  iapply (step_wait m K c n hn 0 N (duties_dma m c n hn) (amount_rem m c n h8 hn 0 0) O W hcr) $$ H
  iintro ⟨HO, Hat, -, Hpay⟩
  iapply Hk
  isplitl [HO]; · iexact HO
  isplitl [Hat]; · iexact Hat
  iapply (Entails.of_eq (payload_recv m c n hn hr 0 0)); iexact Hpay

/-- The wait for a copy's departure on send cell `n`: the share of the rows it read. -/
theorem step_swait (c : Dev nD) (n : ℕ) (hn : n < 40) (hs : isSend n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (W : Waits sig Unit) (hcr : dstw.view.dmaCredit = N) :
    iprop(records m K ∗ cred (tallyAt (cell c n hn) () N) ∗ owes (c : Thread nD τ) 0 W ∗ atPos ER (cell c n hn) 0 ∅ 0)
      ⊢ iprop(((owes (c : Thread nD τ) 0 (insert (SemLoc.dma (ds n hn), ()) W) ∗ atPos ER (cell c n hn) 1 ∅ 0 ∗ sendPay m c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds n hn) srcw dstw hsrc hdst) k) Q) := by
  have h8 : 8 ≤ n := by unfold isSend at hs; omega
  iintro ⟨#HR, Hc, HO, Hat⟩ Hk
  iapply (step_wait m K c n hn 0 N (duties_dma m c n hn) (amount_rem m c n h8 hn 0 0) 0 W hcr) $$ [Hc HO Hat]
  · isplitr; · iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (payload_send m c n hn hs 0 0)); iexact Hpay

/-- The wait for load `j` on load cell `s` at round `r`. -/
theorem step_lwait (c : Dev nD) (s : ℕ) (hs : s < 4) (r : ℕ) (hr : r < 2)
    {s' sh : Shape} {e' e : EltTy} {sp' sp : Space} {κ' : Kind}
    {srcw : Memref sig .tc sp' s' e'} {dstw : Memref sig κ' sp sh e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = NL) :
    iprop(records m K ∗ cred (tallyAt (cell c s (by omega)) () NL) ∗ owes (c : Thread nD τ) O W ∗ MayWait (c : Thread nD τ) (.dma (ds s (by omega))) () O
        ∗ atPos ER (cell c s (by omega)) r ∅ 0)
      ⊢ iprop(((owes (c : Thread nD τ) O (insert (SemLoc.dma (ds s (by omega)), ()) W) ∗ atPos ER (cell c s (by omega)) (r + 1) ∅ 0
              ∗ reached ER (cell c s (by omega)) (r + 1) ∗ ldPay m c (s + 4 * r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds s (by omega)) srcw dstw hsrc hdst) k) Q) := by
  have hd : (agRd m).duties (cell c s (by omega)) r = {0} := duties_loc m c s (by omega) r hr
  iintro H Hk
  iapply (step_wait m K c s _ r NL hd (amount_ld m c s hs r 0) O W hcr) $$ H
  iintro ⟨HO, Hat, Hr, Hpay⟩
  iapply Hk
  isplitl [HO]; · iexact HO
  isplitl [Hat]; · iexact Hat
  isplitl [Hr]; · iexact Hr
  iapply (Entails.of_eq (payload_ld m c s hs r 0)); iexact Hpay

/-- The wait for store `j` on store cell `4 + s` at round `r`. -/
theorem step_stwait (c : Dev nD) (s : ℕ) (hs : s < 4) (r : ℕ) (hr : r < 2)
    {s' sh : Shape} {e' e : EltTy} {sp' sp : Space} {κ' : Kind}
    {srcw : Memref sig .tc sp' s' e'} {dstw : Memref sig κ' sp sh e} {hsrc : srcw.view.WordExact} {hdst : dstw.view.WordExact}
    {α : Type} {Q : α → sProp 𝕄} {k : PUnit → Prog (TpuEff nD τ sig (Elt F) Λ₀ .tc) α}
    (O : CellTallies nD τ sig Unit) (W : Waits sig Unit) (hcr : dstw.view.dmaCredit = NS) :
    iprop(records m K ∗ cred (tallyAt (cell c (4 + s) (by omega)) () NS) ∗ owes (c : Thread nD τ) O W
        ∗ MayWait (c : Thread nD τ) (.dma (ds (4 + s) (by omega))) () O ∗ atPos ER (cell c (4 + s) (by omega)) r ∅ 0)
      ⊢ iprop(((owes (c : Thread nD τ) O (insert (SemLoc.dma (ds (4 + s) (by omega)), ()) W) ∗ atPos ER (cell c (4 + s) (by omega)) (r + 1) ∅ 0
              ∗ reached ER (cell c (4 + s) (by omega)) (r + 1) ∗ stPay m c (s + 4 * r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds (4 + s) (by omega)) srcw dstw hsrc hdst) k) Q) := by
  have hd : (agRd m).duties (cell c (4 + s) (by omega)) r = {0} := duties_loc m c (4 + s) (by omega) r hr
  iintro H Hk
  iapply (step_wait m K c (4 + s) _ r NS hd (amount_st m c (4 + s) (by omega) (by omega) r 0) O W hcr) $$ H
  iintro ⟨HO, Hat, Hr, Hpay⟩
  iapply Hk
  isplitl [HO]; · iexact HO
  isplitl [Hat]; · iexact Hat
  isplitl [Hr]; · iexact Hr
  iapply (Entails.of_eq ((payload_st m c (4 + s) (by omega) (by omega) r 0).trans (by rw [show 4 + s - 4 + 4 * r = s + 4 * r by omega]))); iexact Hpay

/-! ## Loads and stores through the staging slots -/

set_option maxHeartbeats 1000000 in
/-- Load `j` (of eight): 2048 rows of the argument into slot `s = j mod 4`, paying round `r = j / 4` of load cell `s`. -/
theorem step_load (c : Dev nD) (j : Fin 8) (s : Fin 4) (r : ℕ) (hsj : s.val = j.val % 4) (hrj : r = j.val / 4)
    (fd : Buf (Elt F) ((c : Thread nD τ).loc cc0_scratch0))
    {hsrc : (M0.slice (xLd j) (fun _ => rfl)).view.WordExact} {hdst : (slot s).view.WordExact}
    {hsem : DmaTarget.Typed (nD := nD) .hbm (.dma (ds s.val (by omega))) (DmaTarget.here (p := (Proc.tc : Proc τ)) (slot s))}
    {α : Type} {Q : α → sProp 𝕄} {k : PUnit → Prog (TpuEff nD τ sig (Elt F) Λ₀ .tc) α}
    (hland : iprop((((slot s).view.loc (c : Thread nD τ)) ↦[(slot s).view.set]{fullShare}
          ((slot s).view.write (Elt F) fd ((M0.slice (xLd j) (fun _ => rfl)).view.read (Elt F) (xin m c)) Finset.univ))
        ∗ (((M0.slice (xLd j) (fun _ => rfl)).view.loc (c : Thread nD τ)) ↦[(M0.slice (xLd j) (fun _ => rfl)).view.set]{fullShare.right} xin m c))
      ⊢ (ldPay m c j.val : sProp 𝕄)) :
    iprop(records m K ∗ reached ER (cell c s.val (by omega)) r ∗ pts c main_arg0 (xLd j) fullShare.right (xin m c)
        ∗ pts c cc0_scratch0 (vSl s) fullShare fd ∗ dutyTok ER (cell c s.val (by omega)) r 0)
      ⊢ iprop((cred (tallyAt (cell c s.val (by omega)) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xLd j) (fun _ => rfl)) (.here (slot s)) (.dma (ds s.val (by omega))) hsrc hdst hsem) k) Q) := by
  have hr2 : r < 2 := by have := j.isLt; omega
  have hd : (agRd m).duties (cell c s.val (by omega)) r = {0} := duties_loc m c s.val (by omega) r hr2
  have hj : s.val + 4 * r = j.val := by omega
  have h := step_copy m K c s.val (by omega) r NL hd (amount_ld m c s.val (by omega) r 0)
    (src := M0.slice (xLd j) (fun _ => rfl)) (dst := slot s) (hsrc := hsrc) (hdst := hdst) (hsem := hsem) (Q := Q) (k := k)
    fullShare.right (xin m c) fd rfl (by rw [payload_ld m c s.val (by omega) r 0, hj]; exact hland)
    (reached ER (cell c s.val (by omega)) r) .rfl
  exact (sep_mono_right (sep_mono_right (sep_mono_left (Entails.of_eq (pts_slice0 c (xLd j) (fun _ => rfl) fullShare.right (xin m c)).symm)))).trans
    ((sep_mono_right (sep_mono_right (sep_mono_right (sep_mono_left (Entails.of_eq (pts_slot c s fullShare fd).symm))))).trans h)

set_option maxHeartbeats 1000000 in
/-- Store `j`: slot `s = j mod 4`, holding chunk `j` of the argument, into chunk `j` of the device's own half of the result. -/
theorem step_store (c : Dev nD) (j : Fin 8) (s : Fin 4) (r : ℕ) (hsj : s.val = j.val % 4) (hrj : r = j.val / 4)
    (fd : Buf (Elt F) ((c : Thread nD τ).loc main_v1))
    {hsrc : (slot s).view.WordExact} {hdst : (M1.slice (oOwn c j) (fun _ => rfl)).view.WordExact}
    {hsem : DmaTarget.Typed (nD := nD) .vmem (.dma (ds (4 + s.val) (by omega))) (DmaTarget.here (p := (Proc.tc : Proc τ)) (M1.slice (oOwn c j) (fun _ => rfl)))}
    {α : Type} {Q : α → sProp 𝕄} {k : PUnit → Prog (TpuEff nD τ sig (Elt F) Λ₀ .tc) α}
    (hland : iprop((((M1.slice (oOwn c j) (fun _ => rfl)).view.loc (c : Thread nD τ)) ↦[(M1.slice (oOwn c j) (fun _ => rfl)).view.set]{fullShare}
          ((M1.slice (oOwn c j) (fun _ => rfl)).view.write (Elt F) fd ((slot s).view.read (Elt F) (vfill m c j.val)) Finset.univ))
        ∗ (((slot s).view.loc (c : Thread nD τ)) ↦[(slot s).view.set]{fullShare} vfill m c j.val))
      ⊢ (stPay m c j.val : sProp 𝕄)) :
    iprop(records m K ∗ reached ER (cell c (4 + s.val) (by omega)) r ∗ pts c cc0_scratch0 (vSl s) fullShare (vfill m c j.val)
        ∗ pts c main_v1 (oOwn c j) fullShare fd ∗ dutyTok ER (cell c (4 + s.val) (by omega)) r 0)
      ⊢ iprop((cred (tallyAt (cell c (4 + s.val) (by omega)) () NS) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot s) (.here (M1.slice (oOwn c j) (fun _ => rfl))) (.dma (ds (4 + s.val) (by omega))) hsrc hdst hsem) k) Q) := by
  have hr2 : r < 2 := by have := j.isLt; omega
  have hd : (agRd m).duties (cell c (4 + s.val) (by omega)) r = {0} := duties_loc m c (4 + s.val) (by omega) r hr2
  have hj : 4 + s.val - 4 + 4 * r = j.val := by omega
  have h := step_copy m K c (4 + s.val) (by omega) r NS hd (amount_st m c (4 + s.val) (by omega) (by omega) r 0)
    (src := slot s) (dst := M1.slice (oOwn c j) (fun _ => rfl)) (hsrc := hsrc) (hdst := hdst) (hsem := hsem) (Q := Q) (k := k)
    fullShare (vfill m c j.val) fd rfl (by rw [payload_st m c (4 + s.val) (by omega) (by omega) r 0, hj]; exact hland)
    (reached ER (cell c (4 + s.val) (by omega)) r) .rfl
  exact (sep_mono_right (sep_mono_right (sep_mono_left (Entails.of_eq (pts_slot c s fullShare (vfill m c j.val)).symm)))).trans
    ((sep_mono_right (sep_mono_right (sep_mono_right (sep_mono_left (Entails.of_eq (pts_slice1 c (oOwn c j) (fun _ => rfl) fullShare fd).symm))))).trans h)

end Cert.KernelIdeal.AG

end
-- ==== Proof.KernelIdealAG.Sems.lean ====
/- The semaphores the body names — element k of a scratch array of DMA semaphores, sliced and squeezed — by their numbers
  among the forty: the arrays lie one after the other.
-/
import proofs.«900686_g7700000000000687_dist_ag_v7x_xyz2x4x4_x_m16384_n1024_f32_1_alg».proof.Proof.KernelIdealAG.Sched

noncomputable section

namespace Cert.KernelIdeal.AG

open Cert.KernelIdeal Cert.KernelIdeal.Gen
open Idealize.ShloMosaic Idealize.SL.Sem

theorem sem_s1_0 : ((cc0_scratch1.slice (Rect.unit (s := S4) ![0] S1.size inb_S4_S1_0)).squeeze S_ squeezes_S1_S_).sem = ds 0 := rfl
theorem sem_s1_1 : ((cc0_scratch1.slice (Rect.unit (s := S4) ![1] S1.size inb_S4_S1_1)).squeeze S_ squeezes_S1_S_).sem = ds 1 := rfl
theorem sem_s1_2 : ((cc0_scratch1.slice (Rect.unit (s := S4) ![2] S1.size inb_S4_S1_2)).squeeze S_ squeezes_S1_S_).sem = ds 2 := rfl
theorem sem_s1_3 : ((cc0_scratch1.slice (Rect.unit (s := S4) ![3] S1.size inb_S4_S1_3)).squeeze S_ squeezes_S1_S_).sem = ds 3 := rfl
theorem sem_s2_0 : ((cc0_scratch2.slice (Rect.unit (s := S4) ![0] S1.size inb_S4_S1_0)).squeeze S_ squeezes_S1_S_).sem = ds 4 := rfl
theorem sem_s2_1 : ((cc0_scratch2.slice (Rect.unit (s := S4) ![1] S1.size inb_S4_S1_1)).squeeze S_ squeezes_S1_S_).sem = ds 5 := rfl
theorem sem_s2_2 : ((cc0_scratch2.slice (Rect.unit (s := S4) ![2] S1.size inb_S4_S1_2)).squeeze S_ squeezes_S1_S_).sem = ds 6 := rfl
theorem sem_s2_3 : ((cc0_scratch2.slice (Rect.unit (s := S4) ![3] S1.size inb_S4_S1_3)).squeeze S_ squeezes_S1_S_).sem = ds 7 := rfl
theorem sem_s3_0 : ((cc0_scratch3.slice (Rect.unit (s := S4) ![0] S1.size inb_S4_S1_0)).squeeze S_ squeezes_S1_S_).sem = ds 8 := rfl
theorem sem_s3_1 : ((cc0_scratch3.slice (Rect.unit (s := S4) ![1] S1.size inb_S4_S1_1)).squeeze S_ squeezes_S1_S_).sem = ds 9 := rfl
theorem sem_s3_2 : ((cc0_scratch3.slice (Rect.unit (s := S4) ![2] S1.size inb_S4_S1_2)).squeeze S_ squeezes_S1_S_).sem = ds 10 := rfl
theorem sem_s3_3 : ((cc0_scratch3.slice (Rect.unit (s := S4) ![3] S1.size inb_S4_S1_3)).squeeze S_ squeezes_S1_S_).sem = ds 11 := rfl
theorem sem_s4_0 : ((cc0_scratch4.slice (Rect.unit (s := S4) ![0] S1.size inb_S4_S1_0)).squeeze S_ squeezes_S1_S_).sem = ds 12 := rfl
theorem sem_s4_1 : ((cc0_scratch4.slice (Rect.unit (s := S4) ![1] S1.size inb_S4_S1_1)).squeeze S_ squeezes_S1_S_).sem = ds 13 := rfl
theorem sem_s4_2 : ((cc0_scratch4.slice (Rect.unit (s := S4) ![2] S1.size inb_S4_S1_2)).squeeze S_ squeezes_S1_S_).sem = ds 14 := rfl
theorem sem_s4_3 : ((cc0_scratch4.slice (Rect.unit (s := S4) ![3] S1.size inb_S4_S1_3)).squeeze S_ squeezes_S1_S_).sem = ds 15 := rfl
theorem sem_s5_0 : ((cc0_scratch5.slice (Rect.unit (s := S4) ![0] S1.size inb_S4_S1_0)).squeeze S_ squeezes_S1_S_).sem = ds 16 := rfl
theorem sem_s5_1 : ((cc0_scratch5.slice (Rect.unit (s := S4) ![1] S1.size inb_S4_S1_1)).squeeze S_ squeezes_S1_S_).sem = ds 17 := rfl
theorem sem_s5_2 : ((cc0_scratch5.slice (Rect.unit (s := S4) ![2] S1.size inb_S4_S1_2)).squeeze S_ squeezes_S1_S_).sem = ds 18 := rfl
theorem sem_s5_3 : ((cc0_scratch5.slice (Rect.unit (s := S4) ![3] S1.size inb_S4_S1_3)).squeeze S_ squeezes_S1_S_).sem = ds 19 := rfl
theorem sem_s6_0 : ((cc0_scratch6.slice (Rect.unit (s := S4) ![0] S1.size inb_S4_S1_0)).squeeze S_ squeezes_S1_S_).sem = ds 20 := rfl
theorem sem_s6_1 : ((cc0_scratch6.slice (Rect.unit (s := S4) ![1] S1.size inb_S4_S1_1)).squeeze S_ squeezes_S1_S_).sem = ds 21 := rfl
theorem sem_s6_2 : ((cc0_scratch6.slice (Rect.unit (s := S4) ![2] S1.size inb_S4_S1_2)).squeeze S_ squeezes_S1_S_).sem = ds 22 := rfl
theorem sem_s6_3 : ((cc0_scratch6.slice (Rect.unit (s := S4) ![3] S1.size inb_S4_S1_3)).squeeze S_ squeezes_S1_S_).sem = ds 23 := rfl
theorem sem_s7_0 : ((cc0_scratch7.slice (Rect.unit (s := S4) ![0] S1.size inb_S4_S1_0)).squeeze S_ squeezes_S1_S_).sem = ds 24 := rfl
theorem sem_s7_1 : ((cc0_scratch7.slice (Rect.unit (s := S4) ![1] S1.size inb_S4_S1_1)).squeeze S_ squeezes_S1_S_).sem = ds 25 := rfl
theorem sem_s7_2 : ((cc0_scratch7.slice (Rect.unit (s := S4) ![2] S1.size inb_S4_S1_2)).squeeze S_ squeezes_S1_S_).sem = ds 26 := rfl
theorem sem_s7_3 : ((cc0_scratch7.slice (Rect.unit (s := S4) ![3] S1.size inb_S4_S1_3)).squeeze S_ squeezes_S1_S_).sem = ds 27 := rfl
theorem sem_s8_0 : ((cc0_scratch8.slice (Rect.unit (s := S4) ![0] S1.size inb_S4_S1_0)).squeeze S_ squeezes_S1_S_).sem = ds 28 := rfl
theorem sem_s8_1 : ((cc0_scratch8.slice (Rect.unit (s := S4) ![1] S1.size inb_S4_S1_1)).squeeze S_ squeezes_S1_S_).sem = ds 29 := rfl
theorem sem_s8_2 : ((cc0_scratch8.slice (Rect.unit (s := S4) ![2] S1.size inb_S4_S1_2)).squeeze S_ squeezes_S1_S_).sem = ds 30 := rfl
theorem sem_s8_3 : ((cc0_scratch8.slice (Rect.unit (s := S4) ![3] S1.size inb_S4_S1_3)).squeeze S_ squeezes_S1_S_).sem = ds 31 := rfl
theorem sem_s9_0 : ((cc0_scratch9.slice (Rect.unit (s := S2) ![0] S1.size inb_S2_S1_0)).squeeze S_ squeezes_S1_S_).sem = ds 32 := rfl
theorem sem_s9_1 : ((cc0_scratch9.slice (Rect.unit (s := S2) ![1] S1.size inb_S2_S1_1)).squeeze S_ squeezes_S1_S_).sem = ds 33 := rfl
theorem sem_s10_0 : ((cc0_scratch10.slice (Rect.unit (s := S2) ![0] S1.size inb_S2_S1_0)).squeeze S_ squeezes_S1_S_).sem = ds 34 := rfl
theorem sem_s10_1 : ((cc0_scratch10.slice (Rect.unit (s := S2) ![1] S1.size inb_S2_S1_1)).squeeze S_ squeezes_S1_S_).sem = ds 35 := rfl
theorem sem_s11_0 : ((cc0_scratch11.slice (Rect.unit (s := S2) ![0] S1.size inb_S2_S1_0)).squeeze S_ squeezes_S1_S_).sem = ds 36 := rfl
theorem sem_s11_1 : ((cc0_scratch11.slice (Rect.unit (s := S2) ![1] S1.size inb_S2_S1_1)).squeeze S_ squeezes_S1_S_).sem = ds 37 := rfl
theorem sem_s12_0 : ((cc0_scratch12.slice (Rect.unit (s := S2) ![0] S1.size inb_S2_S1_0)).squeeze S_ squeezes_S1_S_).sem = ds 38 := rfl
theorem sem_s12_1 : ((cc0_scratch12.slice (Rect.unit (s := S2) ![1] S1.size inb_S2_S1_1)).squeeze S_ squeezes_S1_S_).sem = ds 39 := rfl

end Cert.KernelIdeal.AG

end
-- ==== Proof.KernelIdealAG.Levels.lean ====
/-
  The evidence a device's waits present: at each wait, whatever the device still owes lies, in level, strictly above
  the cell it waits on.

  What a device owes is a list of payments to cells of other devices, in program order; what it still owes at a point
  of its program is a tail of that list. Barrier cells sit at level 1, x receive cells at 2, y and z receive cells at
  3, the diagonal receive cells at 4, every other cell at 0, and the list is ordered by level: so a wait on a cell at
  level k is allowed as soon as the payments to cells at levels up to k have been made.
-/
import proofs.«900686_g7700000000000687_dist_ag_v7x_xyz2x4x4_x_m16384_n1024_f32_1_alg».proof.Proof.KernelIdealAG.Proto

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A sum of payments is positive only at a cell it pays -/

theorem sumT_pos (l : List (GSem nD τ sig × ℕ)) {g : GSem nD τ sig} {u : Unit} (h : 0 < sumT l g u) : ∃ e ∈ l, e.1 = g := by
  induction l with
  | nil =>
    change 0 < (0 : CellTallies nD τ sig Unit) g u at h
    rw [Pi.zero_apply, Finsupp.zero_apply] at h
    exact absurd h (Nat.lt_irrefl 0)
  | cons a l ih =>
    rw [sumT_cons, Pi.add_apply, Finsupp.add_apply, tallyAt_apply] at h
    by_cases hg : g = a.1 ∧ u = ()
    · exact ⟨a, List.mem_cons_self, hg.1.symm⟩
    · rw [if_neg hg, Nat.add_zero] at h
      obtain ⟨e, he, heq⟩ := ih h
      exact ⟨e, List.mem_cons_of_mem _ he, heq⟩

/-! ## The wait evidence from a cut -/

omit [FloatOps F] in
/-- A device may wait on its cell `sm` while it owes the payments `l`, if some level `cut` has the cell at or below
    it and every cell `l` pays, a core's, strictly above. -/
theorem mayWait_sumT (c : Dev nD) (sm : SemLoc sig) (l : List (GSem nD τ sig × ℕ)) (cut : ℕ)
    (hsm : lv ((c : Thread nD τ), sm) () ≤ cut) (hl : ∀ e ∈ l, e.1.1.2 = Proc.tc ∧ cut < lv e.1 ()) :
    (levAts L lv : sProp 𝕄) ⊢ MayWait (c : Thread nD τ) sm () (sumT l) :=
  MayOwe.of_cut (L := L) (lev := lv) cut
    (fun p hp => by rw [Finset.mem_singleton.mp hp, L_tc]; exact Finset.mem_singleton_self _)
    (fun g u hg => by
      obtain ⟨e, he, rfl⟩ := sumT_pos l hg
      rw [L, if_pos (hl e he).1]; exact Finset.mem_singleton_self _)
    (fun p hp => by rw [Finset.mem_singleton.mp hp]; exact hsm)
    (fun g u hg => by
      obtain ⟨e, he, rfl⟩ := sumT_pos l hg
      exact (hl e he).2)

/-! ## The levels of the cells by name -/

theorem lv_bar (t : Thread nD τ) : lv (t, .reg barS) () = 1 := if_pos rfl

theorem lv_dma (t : Thread nD τ) (s : DmaSem sig) : lv (t, .dma s) () =
    if 12 ≤ s.val ∧ s.val < 16 then 2
    else if (20 ≤ s.val ∧ s.val < 24) ∨ (28 ≤ s.val ∧ s.val < 32) then 3
    else if (34 ≤ s.val ∧ s.val < 36) ∨ (38 ≤ s.val ∧ s.val < 40) then 4
    else 0 := if_neg (fun h => by cases h)

theorem lv_cell (d : Dev nD) (n : ℕ) (h : n < 40) : lv (cell d n h) () =
    if 12 ≤ n ∧ n < 16 then 2
    else if (20 ≤ n ∧ n < 24) ∨ (28 ≤ n ∧ n < 32) then 3
    else if (34 ≤ n ∧ n < 36) ∨ (38 ≤ n ∧ n < 40) then 4
    else 0 := lv_dma _ _

/-- A payment to a transfer cell is to a core's cell, at that cell's level. -/
theorem ok_cell (d : Dev nD) (n : ℕ) (h : n < 40) (a k : ℕ)
    (hk : k ≤ (if 12 ≤ n ∧ n < 16 then 2
      else if (20 ≤ n ∧ n < 24) ∨ (28 ≤ n ∧ n < 32) then 3
      else if (34 ≤ n ∧ n < 36) ∨ (38 ≤ n ∧ n < 40) then 4
      else 0)) :
    (cell d n h, a).1.1.2 = Proc.tc ∧ k ≤ lv (cell d n h, a).1 () :=
  ⟨rfl, by rw [lv_cell]; exact hk⟩

/-- A payment to a barrier cell is to a core's cell, at level 1. -/
theorem ok_bar (d : Dev nD) (a : ℕ) : (barCell d, a).1.1.2 = Proc.tc ∧ 1 ≤ lv (barCell d, a).1 () :=
  ⟨rfl, by rw [lv_bar]⟩

theorem mem_drop_of_le {α : Type} {l : List α} {i j : ℕ} (h : i ≤ j) {e : α} (he : e ∈ l.drop j) : e ∈ l.drop i := by
  have hj : j = i + (j - i) := by omega
  rw [hj, ← List.drop_drop] at he
  exact List.mem_of_mem_drop he

/-! ## The tails of what a device owes

After its three barrier units a device owes the tail from 3; after its four x copies the tail from 7; after the
`k`-th pair of y and z copies the tail from 7 + 2k; then the y-diagonal copies (15, 16) and the z-diagonal ones (17, 18). -/

theorem owed_drop_3 (c : Dev nD) : (owedList c).drop 3 =
  [ (cell (px c) 12, N), (cell (px c) 13, N), (cell (px c) 14, N), (cell (px c) 15, N),
    (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_7 (c : Dev nD) : (owedList c).drop 7 =
  [ (cell (yb c) 20, N), (cell (zb c) 28, N), (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_9 (c : Dev nD) : (owedList c).drop 9 =
  [ (cell (yb c) 21, N), (cell (zb c) 29, N),
    (cell (yb c) 22, N), (cell (zb c) 30, N), (cell (yb c) 23, N), (cell (zb c) 31, N),
    (cell (yb c) 34, N), (cell (yb c) 35, N), (cell (zb c) 38, N), (cell (zb c) 39, N) ] := rfl
theorem owed_drop_11 (c : Dev nD) : (owedList c).drop 11 =
  [ (cell (yb c) 22, N), (cell (zb c) 30, N), (cell (yb c) 23, N), (cell (zb c) 31, N),
    (cell (yb c) 34, N), (cell (yb c) 35, N), (cell (zb c) 38, N), (cell (zb c) 39, N) ] := rfl
theorem owed_drop_13 (c : Dev nD) : (owedList c).drop 13 =
  [ (cell (yb c) 23, N), (cell (zb c) 31, N),
    (cell (yb c) 34, N), (cell (yb c) 35, N), (cell (zb c) 38, N), (cell (zb c) 39, N) ] := rfl
theorem owed_drop_15 (c : Dev nD) : (owedList c).drop 15 =
  [ (cell (yb c) 34, N), (cell (yb c) 35, N), (cell (zb c) 38, N), (cell (zb c) 39, N) ] := rfl
theorem owed_drop_16 (c : Dev nD) : (owedList c).drop 16 = [ (cell (yb c) 35, N), (cell (zb c) 38, N), (cell (zb c) 39, N) ] := rfl
theorem owed_drop_17 (c : Dev nD) : (owedList c).drop 17 = [ (cell (zb c) 38, N), (cell (zb c) 39, N) ] := rfl
theorem owed_drop_18 (c : Dev nD) : (owedList c).drop 18 = [ (cell (zb c) 39, N) ] := rfl
theorem owed_drop_19 (c : Dev nD) : (owedList c).drop 19 = [] := rfl

/-- The diagonal receive cells, owed last, sit at level 4. -/
theorem owed_from_15 (c : Dev nD) : ∀ e ∈ (owedList c).drop 15, e.1.1.2 = Proc.tc ∧ 4 ≤ lv e.1 () := by
  rw [owed_drop_15]
  exact List.forall_mem_cons.mpr ⟨ok_cell _ 34 _ N 4 (by decide), List.forall_mem_cons.mpr ⟨ok_cell _ 35 _ N 4 (by decide),
    List.forall_mem_cons.mpr ⟨ok_cell _ 38 _ N 4 (by decide), List.forall_mem_cons.mpr ⟨ok_cell _ 39 _ N 4 (by decide),
    fun e he => absurd he List.not_mem_nil⟩⟩⟩⟩

/-- From the first y copy on, everything owed is to a y, z or diagonal receive cell: level 3 at least. -/
theorem owed_from_7 (c : Dev nD) : ∀ e ∈ (owedList c).drop 7, e.1.1.2 = Proc.tc ∧ 3 ≤ lv e.1 () := by
  have h15 : ∀ e ∈ ((owedList c).drop 7).drop 8, e.1.1.2 = Proc.tc ∧ 3 ≤ lv e.1 () := fun e he =>
    ⟨(owed_from_15 c e he).1, le_trans (by decide) (owed_from_15 c e he).2⟩
  rw [owed_drop_7] at h15 ⊢
  exact List.forall_mem_cons.mpr ⟨ok_cell _ 20 _ N 3 (by decide), List.forall_mem_cons.mpr ⟨ok_cell _ 28 _ N 3 (by decide),
    List.forall_mem_cons.mpr ⟨ok_cell _ 21 _ N 3 (by decide), List.forall_mem_cons.mpr ⟨ok_cell _ 29 _ N 3 (by decide),
    List.forall_mem_cons.mpr ⟨ok_cell _ 22 _ N 3 (by decide), List.forall_mem_cons.mpr ⟨ok_cell _ 30 _ N 3 (by decide),
    List.forall_mem_cons.mpr ⟨ok_cell _ 23 _ N 3 (by decide), List.forall_mem_cons.mpr ⟨ok_cell _ 31 _ N 3 (by decide),
    h15⟩⟩⟩⟩⟩⟩⟩⟩

/-- From the first x copy on, everything owed is to a receive cell: level 2 at least. -/
theorem owed_from_3 (c : Dev nD) : ∀ e ∈ (owedList c).drop 3, e.1.1.2 = Proc.tc ∧ 2 ≤ lv e.1 () := by
  have h7 : ∀ e ∈ ((owedList c).drop 3).drop 4, e.1.1.2 = Proc.tc ∧ 2 ≤ lv e.1 () := fun e he =>
    ⟨(owed_from_7 c e he).1, le_trans (by decide) (owed_from_7 c e he).2⟩
  rw [owed_drop_3] at h7 ⊢
  exact List.forall_mem_cons.mpr ⟨ok_cell _ 12 _ N 2 (by decide), List.forall_mem_cons.mpr ⟨ok_cell _ 13 _ N 2 (by decide),
    List.forall_mem_cons.mpr ⟨ok_cell _ 14 _ N 2 (by decide), List.forall_mem_cons.mpr ⟨ok_cell _ 15 _ N 2 (by decide),
    h7⟩⟩⟩⟩

/-- Everything a device owes is to a barrier or a receive cell: level 1 at least. -/
theorem owed_from_0 (c : Dev nD) : ∀ e ∈ owedList c, e.1.1.2 = Proc.tc ∧ 1 ≤ lv e.1 () := by
  have h3 : ∀ e ∈ (owedList c).drop 3, e.1.1.2 = Proc.tc ∧ 1 ≤ lv e.1 () := fun e he =>
    ⟨(owed_from_3 c e he).1, le_trans (by decide) (owed_from_3 c e he).2⟩
  exact List.forall_mem_cons.mpr ⟨ok_bar _ 1, List.forall_mem_cons.mpr ⟨ok_bar _ 1, List.forall_mem_cons.mpr ⟨ok_bar _ 1, h3⟩⟩⟩

/-! ## The waits of the body -/

omit [FloatOps F] in
/-- The barrier wait, the three units paid: what is owed are receive cells, above the barrier cell. -/
theorem mayWait_bar (c : Dev nD) :
    (levAts L lv : sProp 𝕄) ⊢ MayWait (c : Thread nD τ) (.reg barS) () (sumT ((owedList c).drop 3)) :=
  mayWait_sumT c _ _ 1 (le_of_eq (lv_bar _)) (owed_from_3 c)

omit [FloatOps F] in
/-- The wait for the `k`-th x chunk to land, the x copies and `k` pairs of y and z copies issued. -/
theorem mayWait_xrecv (c : Dev nD) (k : Fin 4) :
    (levAts L lv : sProp 𝕄) ⊢ MayWait (c : Thread nD τ) (.dma (ds (12 + k.val) (by have := k.isLt; omega))) ()
      (sumT ((owedList c).drop (7 + 2 * k.val))) :=
  mayWait_sumT c _ _ 2
    (by rw [lv_dma, if_pos ⟨Nat.le_add_right _ _, by show 12 + k.val < 16; have := k.isLt; omega⟩])
    (fun e he => owed_from_7 c e (mem_drop_of_le (Nat.le_add_right _ _) he))

omit [FloatOps F] in
/-- The wait for a z chunk (28, 29) to land before it is passed on diagonally: only diagonal copies are owed. -/
theorem mayWait_zrecv (c : Dev nD) (j : Fin 2) :
    (levAts L lv : sProp 𝕄) ⊢ MayWait (c : Thread nD τ) (.dma (ds (28 + j.val) (by have := j.isLt; omega))) ()
      (sumT ((owedList c).drop (15 + j.val))) :=
  mayWait_sumT c _ _ 3
    (by
      have hj := j.isLt
      rw [lv_dma, if_neg (fun h => by have : 28 + j.val < 16 := h.2; omega),
        if_pos (Or.inr ⟨Nat.le_add_right _ _, by show 28 + j.val < 32; omega⟩)])
    (fun e he => owed_from_15 c e (mem_drop_of_le (Nat.le_add_right _ _) he))

omit [FloatOps F] in
/-- The wait for a y chunk (22, 23) to land before it is passed on diagonally: only the z-diagonal copies are owed. -/
theorem mayWait_yrecv (c : Dev nD) (j : Fin 2) :
    (levAts L lv : sProp 𝕄) ⊢ MayWait (c : Thread nD τ) (.dma (ds (22 + j.val) (by have := j.isLt; omega))) ()
      (sumT ((owedList c).drop (17 + j.val))) :=
  mayWait_sumT c _ _ 3
    (by
      have hj := j.isLt
      rw [lv_dma, if_neg (fun h => by have : 22 + j.val < 16 := h.2; omega),
        if_pos (Or.inl ⟨by show 20 ≤ 22 + j.val; omega, by show 22 + j.val < 24; omega⟩)])
    (fun e he => owed_from_15 c e (mem_drop_of_le (by omega) he))

omit [FloatOps F] in
/-- A wait on a load or store cell (level 0) is allowed whatever of its payments the device still owes. -/
theorem mayWait_local (c : Dev nD) (n : ℕ) (hn : n < 8) (i : ℕ) :
    (levAts L lv : sProp 𝕄) ⊢ MayWait (c : Thread nD τ) (.dma (ds n (by omega))) () (sumT ((owedList c).drop i)) :=
  mayWait_sumT c _ _ 0
    (by
      rw [lv_dma, if_neg (fun h => by have : 12 ≤ n := h.1; omega),
        if_neg (fun h => by rcases h with h | h <;> (have : _ ≤ n := h.1; omega)),
        if_neg (fun h => by rcases h with h | h <;> (have : _ ≤ n := h.1; omega))])
    (fun e he => owed_from_0 c e (List.mem_of_mem_drop he))

omit [FloatOps F] in
/-- Owing nothing, a device may wait on any of its cells. -/
theorem mayWait_nil (c : Dev nD) (sm : SemLoc sig) :
    (levAts L lv : sProp 𝕄) ⊢ MayWait (c : Thread nD τ) sm () (sumT []) :=
  mayWait_sumT c sm [] _ le_rfl (fun e he => absurd he List.not_mem_nil)

/-- info: 'Cert.KernelIdeal.AG.mayWait_sumT' depends on axioms: [propext, Classical.choice, Quot.sound] -/
#guard_msgs in #print axioms mayWait_sumT
/-- info: 'Cert.KernelIdeal.AG.mayWait_bar' depends on axioms: [propext, Classical.choice, Quot.sound] -/
#guard_msgs in #print axioms mayWait_bar
/-- info: 'Cert.KernelIdeal.AG.mayWait_xrecv' depends on axioms: [propext, Classical.choice, Quot.sound] -/
#guard_msgs in #print axioms mayWait_xrecv
/-- info: 'Cert.KernelIdeal.AG.mayWait_zrecv' depends on axioms: [propext, Classical.choice, Quot.sound] -/
#guard_msgs in #print axioms mayWait_zrecv
/-- info: 'Cert.KernelIdeal.AG.mayWait_yrecv' depends on axioms: [propext, Classical.choice, Quot.sound] -/
#guard_msgs in #print axioms mayWait_yrecv
/-- info: 'Cert.KernelIdeal.AG.mayWait_local' depends on axioms: [propext, Classical.choice, Quot.sound] -/
#guard_msgs in #print axioms mayWait_local

end Cert.KernelIdeal.AG

end
-- ==== Proof.KernelIdealAG.Close.lean ====
/-
  Closing a device's forty transfer cells at the end of its body.

  A cell whose owner has reached a round from which no round has a duty, having consumed every unit the earlier rounds
  brought, is closed by its owner: the cell's invariant, opened, reads the counter at zero against the owner's
  position, and the owner leaves with the counter. The load and store cells have two rounds, the other cells one; so
  a device that stands at round 2 of the former and round 1 of the latter gets all forty counters back at zero.
-/
import proofs.«900686_g7700000000000687_dist_ag_v7x_xyz2x4x4_x_m16384_n1024_f32_1_alg».proof.Proof.KernelIdealAG.Proto

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Updates of the members of a joined list -/

/-- Updates of the members of a joined list, each made beside a persistent `R`, make an update of the join. -/
theorem sepL_fupd_map {ι : Type} (R : sProp 𝕄) [BI.Persistent R] (P Q : ι → sProp 𝕄) (l : List ι)
    (h : ∀ i ∈ l, iprop(R ∗ P i) ⊢ (iprop(|={Set.univ}=> Q i) : sProp 𝕄)) :
    iprop(R ∗ sepL (l.map P)) ⊢ (iprop(|={Set.univ}=> sepL (l.map Q)) : sProp 𝕄) := by
  induction l with
  | nil =>
    iintro ⟨-, H⟩
    imodintro
    iexact H
  | cons i l ih =>
    cases l with
    | nil => exact h i List.mem_cons_self
    | cons j l =>
      show iprop(R ∗ P i ∗ sepL ((j :: l).map P)) ⊢ (iprop(|={Set.univ}=> (Q i ∗ sepL ((j :: l).map Q))) : sProp 𝕄)
      iintro ⟨#HR, Hi, Hl⟩
      imod (h i List.mem_cons_self) $$ [Hi] with Hq
      · isplitr; · iexact HR
        iexact Hi
      imod (ih (fun k hk => h k (List.mem_cons_of_mem _ hk))) $$ [Hl] with Hql
      · isplitr; · iexact HR
        iexact Hl
      imodintro
      isplitl [Hq]; · iexact Hq
      iexact Hql

/-! ## One cell -/

/-- The shared records hold the invariant of device `c`'s transfer cell `n`, under its name. -/
theorem records_cellInv (K : Dev nD × Fin 41 → ℕ) (c : Dev nD) (n : ℕ) (hn : n < 40) :
    (records m K : sProp 𝕄) ⊢ cellInv ER (agRd m) (K (c, ⟨n, Nat.lt_succ_of_lt hn⟩)) (cell c n hn) := by
  have hk : kcell (c, (⟨n, Nat.lt_succ_of_lt hn⟩ : Fin 41)) = cell c n hn := by unfold kcell; exact dif_pos hn
  have hel : (bigSep Finset.univ fun ck : Dev nD × Fin 41 => (cellInv ER (agRd m) (K ck) (kcell ck) : sProp 𝕄))
      ⊢ cellInv ER (agRd m) (K (c, ⟨n, Nat.lt_succ_of_lt hn⟩)) (kcell (c, (⟨n, Nat.lt_succ_of_lt hn⟩ : Fin 41))) :=
    bigSep_elim (Finset.mem_univ (c, (⟨n, Nat.lt_succ_of_lt hn⟩ : Fin 41)))
  rw [hk] at hel
  unfold records
  iintro ⟨HI, -⟩
  iapply (hel)
  iexact HI

/-- Device `c`, at a round `R` of its transfer cell `n` from which no round has a duty, nothing taken and nothing
    consumed of it, closes the cell and has its counter at zero. -/
theorem close_cell (K : Dev nD × Fin 41 → ℕ) (c : Dev nD) (n : ℕ) (hn : n < 40) (R : ℕ)
    (hR : ∀ r, R ≤ r → (agRd m).duties (cell c n hn) r = ∅) :
    iprop(records m K ∗ atPos ER (cell c n hn) R ∅ 0) ⊢ (iprop(|={Set.univ}=> semVal (cell c n hn) 0) : sProp 𝕄) := by
  iintro ⟨#Hrec, Hat⟩
  iapply (Rounds.cell_close ER (agRd m) (Set.mem_univ (K (c, ⟨n, Nat.lt_succ_of_lt hn⟩))) (fun h => h) (R := R) hR)
  isplitr
  · iapply (records_cellInv m K c n hn); iexact Hrec
  · iexact Hat

/-! ## All forty -/

/-- The load and store cells (0–7) have duties at rounds 0 and 1 only, the other cells at round 0 only. -/
theorem duties_from (c : Dev nD) (n : Fin 40) :
    ∀ r, (if n.val < 8 then 2 else 1) ≤ r → (agRd m).duties (cell c n.val n.isLt) r = ∅ := by
  by_cases h8 : n.val < 8
  · rw [if_pos h8]; exact duties_later_loc m c n.val h8
  · rw [if_neg h8]; exact duties_later_rem m c n.val n.isLt (Nat.le_of_not_lt h8)

/-- Device `c`, at round 2 of its load and store cells and round 1 of its other transfer cells, closes all forty. -/
theorem close_all (K : Dev nD × Fin 41 → ℕ) (c : Dev nD) :
    iprop(records m K ∗ sepL ((List.finRange 40).map fun n => atPos ER (cell c n.val n.isLt) (if n.val < 8 then 2 else 1) ∅ 0))
      ⊢ (iprop(|={Set.univ}=> sepL ((List.finRange 40).map fun n => semVal (cell c n.val n.isLt) 0)) : sProp 𝕄) :=
  sepL_fupd_map (records m K) (fun n : Fin 40 => atPos ER (cell c n.val n.isLt) (if n.val < 8 then 2 else 1) ∅ 0)
    (fun n : Fin 40 => semVal (cell c n.val n.isLt) 0) (List.finRange 40)
    (fun n _ => close_cell m K c n.val n.isLt _ (duties_from m c n))

/-- info: 'Cert.KernelIdeal.AG.close_cell' depends on axioms: [propext, Classical.choice, Quot.sound] -/
#guard_msgs in #print axioms close_cell
/-- info: 'Cert.KernelIdeal.AG.close_all' depends on axioms: [propext, Classical.choice, Quot.sound] -/
#guard_msgs in #print axioms close_all

end Cert.KernelIdeal.AG

end
-- ==== Proof.KernelIdealAG.Exit.lean ====
/-
  The end of a device's body: from what it holds after its last wait to what the body must end with.

  After the last wait the device stands past every round of its forty transfer cells, so it closes them and has their
  counters back at zero. It holds its argument in pieces: at the left share the four chunks of the quarter it sent
  across x and the rest, at the right share the eight chunks it loaded; together the whole array as launched. It holds
  every row of its result, now at what the result must hold: the eight chunks of its own half, its own quarter of the
  other half in two half shares a chunk (back from the two buddies that read it), the buddies' quarters, and the
  diagonal quarter in its two halves; together the whole array. And it holds the four staging slots, a whole staging
  buffer at some contents. It owes nothing.
-/
import proofs.«900686_g7700000000000687_dist_ag_v7x_xyz2x4x4_x_m16384_n1024_f32_1_alg».proof.Proof.KernelIdealAG.Geom
import proofs.«900686_g7700000000000687_dist_ag_v7x_xyz2x4x4_x_m16384_n1024_f32_1_alg».proof.Proof.KernelIdealAG.Close
import proofs.«900686_g7700000000000687_dist_ag_v7x_xyz2x4x4_x_m16384_n1024_f32_1_alg».proof.Proof.KernelIdealAG.Proto

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pipeline's one point -/

theorem cfg0_N : cfg0.N = 1 := by decide
/-- The one point of the pipeline's grid. -/
def t₀ : Fin cfg0.N := ⟨0, by rw [cfg0_N]; decide⟩

/-! ## The pieces, joined -/

/-- The four chunks of the device's own quarter of the other half, each in its two half shares, are the four chunks whole. -/
theorem quarter_join (c : Dev nD) (f : Buf (Elt F) ((c : Thread nD τ).loc main_v1)) :
    iprop((pts c main_v1 (oCh c (qF c) 0) fullShare.left f ∗ pts c main_v1 (oCh c (qF c) 0) fullShare.right f) ∗ (pts c main_v1 (oCh c (qF c) 1) fullShare.left f ∗ pts c main_v1 (oCh c (qF c) 1) fullShare.right f) ∗ (pts c main_v1 (oCh c (qF c) 2) fullShare.left f ∗ pts c main_v1 (oCh c (qF c) 2) fullShare.right f) ∗ (pts c main_v1 (oCh c (qF c) 3) fullShare.left f ∗ pts c main_v1 (oCh c (qF c) 3) fullShare.right f))
      ⊢ (iprop(pts c main_v1 (oCh c (qF c) 0) fullShare f ∗ pts c main_v1 (oCh c (qF c) 1) fullShare f ∗ pts c main_v1 (oCh c (qF c) 2) fullShare f ∗ pts c main_v1 (oCh c (qF c) 3) fullShare f) : sProp 𝕄) :=
  (sep_mono_left (pts_half c main_v1 (oCh c (qF c) 0) f).2).trans (sep_mono_right
    ((sep_mono_left (pts_half c main_v1 (oCh c (qF c) 1) f).2).trans (sep_mono_right
      ((sep_mono_left (pts_half c main_v1 (oCh c (qF c) 2) f).2).trans (sep_mono_right (pts_half c main_v1 (oCh c (qF c) 3) f).2)))))

/-- What the device holds of its result after its last wait is the whole result array. -/
theorem out_join (c : Dev nD) (f : Buf (Elt F) ((c : Thread nD τ).loc main_v1)) :
    iprop((pts c main_v1 (oOwn c 0) fullShare f ∗ pts c main_v1 (oOwn c 1) fullShare f ∗ pts c main_v1 (oOwn c 2) fullShare f ∗ pts c main_v1 (oOwn c 3) fullShare f ∗ pts c main_v1 (oOwn c 4) fullShare f ∗ pts c main_v1 (oOwn c 5) fullShare f ∗ pts c main_v1 (oOwn c 6) fullShare f ∗ pts c main_v1 (oOwn c 7) fullShare f)
      ∗ ((pts c main_v1 (oCh c (qF c) 0) fullShare.left f ∗ pts c main_v1 (oCh c (qF c) 0) fullShare.right f) ∗ (pts c main_v1 (oCh c (qF c) 1) fullShare.left f ∗ pts c main_v1 (oCh c (qF c) 1) fullShare.right f) ∗ (pts c main_v1 (oCh c (qF c) 2) fullShare.left f ∗ pts c main_v1 (oCh c (qF c) 2) fullShare.right f) ∗ (pts c main_v1 (oCh c (qF c) 3) fullShare.left f ∗ pts c main_v1 (oCh c (qF c) 3) fullShare.right f))
      ∗ (pts c main_v1 (oCh c (qF (yb c)) 0) fullShare f ∗ pts c main_v1 (oCh c (qF (yb c)) 1) fullShare f ∗ pts c main_v1 (oCh c (qF (yb c)) 2) fullShare f ∗ pts c main_v1 (oCh c (qF (yb c)) 3) fullShare f)
      ∗ (pts c main_v1 (oCh c (qF (zb c)) 0) fullShare f ∗ pts c main_v1 (oCh c (qF (zb c)) 1) fullShare f ∗ pts c main_v1 (oCh c (qF (zb c)) 2) fullShare f ∗ pts c main_v1 (oCh c (qF (zb c)) 3) fullShare f)
      ∗ (pts c main_v1 (oCh c (qF (zb (yb c))) 0) fullShare f ∗ pts c main_v1 (oCh c (qF (zb (yb c))) 1) fullShare f)
      ∗ (pts c main_v1 (oCh c (qF (yb (zb c))) 2) fullShare f ∗ pts c main_v1 (oCh c (qF (yb (zb c))) 3) fullShare f))
      ⊢ (whole c main_v1 f : sProp 𝕄) :=
  (sep_mono_right (sep_mono_left (quarter_join c f))).trans (out_split c f).2

/-! ## The exit -/

/-- From what device `c` holds after its last wait — the shared records, nothing owed, its forty transfer cells past
    their last rounds, and every piece of its three buffers — to the body's post: the cells closed at zero, the
    argument as launched, the result at what it must hold, a whole staging buffer, and nothing owed. -/
theorem body_exit (m : (ℓ : Loc nD τ sig) → Buf (Elt F) ℓ) (K : Dev nD × Fin 41 → ℕ)
    (c : Dev nD) (W : Waits sig Unit) :
    iprop(records m K ∗ owes (c : Thread nD τ) 0 W
      ∗ sepL ((List.finRange 40).map fun n => atPos ER (cell c n.val n.isLt) (if n.val < 8 then 2 else 1) ∅ 0)
      ∗ (pts c main_arg0 (xCh (qF c) 0) fullShare.left (xin m c) ∗ pts c main_arg0 (xCh (qF c) 1) fullShare.left (xin m c) ∗ pts c main_arg0 (xCh (qF c) 2) fullShare.left (xin m c) ∗ pts c main_arg0 (xCh (qF c) 3) fullShare.left (xin m c))
      ∗ xRest c (xin m c)
      ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
      ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c) ∗ pts c main_v1 (oOwn c 6) fullShare (target m c) ∗ pts c main_v1 (oOwn c 7) fullShare (target m c))
      ∗ ((pts c main_v1 (oCh c (qF c) 0) fullShare.left (target m c) ∗ pts c main_v1 (oCh c (qF c) 0) fullShare.right (target m c)) ∗ (pts c main_v1 (oCh c (qF c) 1) fullShare.left (target m c) ∗ pts c main_v1 (oCh c (qF c) 1) fullShare.right (target m c)) ∗ (pts c main_v1 (oCh c (qF c) 2) fullShare.left (target m c) ∗ pts c main_v1 (oCh c (qF c) 2) fullShare.right (target m c)) ∗ (pts c main_v1 (oCh c (qF c) 3) fullShare.left (target m c) ∗ pts c main_v1 (oCh c (qF c) 3) fullShare.right (target m c)))
      ∗ (pts c main_v1 (oCh c (qF (yb c)) 0) fullShare (target m c) ∗ pts c main_v1 (oCh c (qF (yb c)) 1) fullShare (target m c) ∗ pts c main_v1 (oCh c (qF (yb c)) 2) fullShare (target m c) ∗ pts c main_v1 (oCh c (qF (yb c)) 3) fullShare (target m c))
      ∗ (pts c main_v1 (oCh c (qF (zb c)) 0) fullShare (target m c) ∗ pts c main_v1 (oCh c (qF (zb c)) 1) fullShare (target m c) ∗ pts c main_v1 (oCh c (qF (zb c)) 2) fullShare (target m c) ∗ pts c main_v1 (oCh c (qF (zb c)) 3) fullShare (target m c))
      ∗ (pts c main_v1 (oCh c (qF (zb (yb c))) 0) fullShare (target m c) ∗ pts c main_v1 (oCh c (qF (zb (yb c))) 1) fullShare (target m c))
      ∗ (pts c main_v1 (oCh c (qF (yb (zb c))) 2) fullShare (target m c) ∗ pts c main_v1 (oCh c (qF (yb (zb c))) 3) fullShare (target m c))
      ∗ (pts c cc0_scratch0 (vSl 0) fullShare (vfill m c 4) ∗ pts c cc0_scratch0 (vSl 1) fullShare (vfill m c 5)
          ∗ pts c cc0_scratch0 (vSl 2) fullShare (vfill m c 6) ∗ pts c cc0_scratch0 (vSl 3) fullShare (vfill m c 7)))
      ⊢ (iprop(|={Set.univ}=> (Φ₁ m c ∗ (dats m 0 c).owesAt () t₀.succ)) : sProp 𝕄) := by
  unfold Φ₁ Dat.owesAt Pipeline.owesWithin
  rw [show (dats m 0 c).owed t₀.succ = 0 from rfl]
  iintro ⟨#Hrec, HO, Hpos, Hxc, Hxr, Hxl, Hown, Hq, Hy, Hz, Hd1, Hd2, Hv⟩
  -- the forty cells, closed
  imod (close_all m K c) $$ [Hpos] with Hsem
  · isplitr; · iexact Hrec
    iexact Hpos
  imodintro
  isplitr [HO]
  · -- the argument, whole
    isplitl [Hxc Hxr Hxl]
    · iapply (x_split c (xin m c)).2
      isplitl [Hxc]; · iexact Hxc
      isplitl [Hxr]; · iexact Hxr
      iexact Hxl
    -- the result, whole
    isplitl [Hown Hq Hy Hz Hd1 Hd2]
    · iapply (out_join c (target m c))
      isplitl [Hown]; · iexact Hown
      isplitl [Hq]; · iexact Hq
      isplitl [Hy]; · iexact Hy
      isplitl [Hz]; · iexact Hz
      isplitl [Hd1]; · iexact Hd1
      iexact Hd2
    -- the staging buffer, whole
    isplitl [Hv]
    · iapply (vbuf_join m c); iexact Hv
    iexact Hsem
  · -- nothing owed, whatever was recorded
    iexists W
    isplitr; · ipureintro; exact fun _ _ => Or.inl trivial
    iexact HO

/-- info: 'Cert.KernelIdeal.AG.body_exit' depends on axioms: [propext, Classical.choice, Quot.sound] -/
#guard_msgs in #print axioms body_exit

end Cert.KernelIdeal.AG

end
-- ==== Proof.KernelIdealAG.PartDefs.lean ====
/-
  Names for what the body's parts move: what the device still owes after its first i payments, its place at a cell, a
  duty's token, a credit, a reached round.
-/
import proofs.«900686_g7700000000000687_dist_ag_v7x_xyz2x4x4_x_m16384_n1024_f32_1_alg».proof.Proof.KernelIdealAG.Steps
import proofs.«900686_g7700000000000687_dist_ag_v7x_xyz2x4x4_x_m16384_n1024_f32_1_alg».proof.Proof.KernelIdealAG.Sems
import proofs.«900686_g7700000000000687_dist_ag_v7x_xyz2x4x4_x_m16384_n1024_f32_1_alg».proof.Proof.KernelIdealAG.Topo
import proofs.«900686_g7700000000000687_dist_ag_v7x_xyz2x4x4_x_m16384_n1024_f32_1_alg».proof.Proof.KernelIdealAG.Levels
import proofs.«900686_g7700000000000687_dist_ag_v7x_xyz2x4x4_x_m16384_n1024_f32_1_alg».proof.Proof.Gen.KernelIdeal.Skeleton

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` owes after its first `i` payments. -/
abbrev ow (c : Dev nD) (i : ℕ) (W : Waits sig Unit) : sProp 𝕄 := owes (c : Thread nD τ) (sumT ((owedList c).drop i)) W
/-- Device `c` at round `r` of its cell `n`. -/
abbrev pos (c : Dev nD) (n r : ℕ) (h : n < 40 := by decide) : sProp 𝕄 := atPos ER (cell c n h) r ∅ 0
/-- The token of the duty of round `r` of device `d`'s cell `n`. -/
abbrev tok (d : Dev nD) (n r : ℕ) (h : n < 40 := by decide) : sProp 𝕄 := dutyTok ER (cell d n h) r 0
/-- Credit `A` on device `c`'s cell `n`. -/
abbrev crd (c : Dev nD) (n A : ℕ) (h : n < 40 := by decide) : sProp 𝕄 := cred (tallyAt (cell c n h) () A)
/-- Round `r` of device `c`'s cell `n` is reached. -/
abbrev rch (c : Dev nD) (n r : ℕ) (h : n < 40 := by decide) : sProp 𝕄 := reached ER (cell c n h) r

/-- The body's slices of the argument (loads) and of the staging buffer, by chunk and slot. -/
theorem slice_x (j : Fin 8) {off : Fin 2 → ℕ} (h : off = ![2048 * j.val, 0]) (p : ∀ a, off a + S2048x1024.size a ≤ S16384x1024.size a) (hs) :
    (Memref.whole main_arg0 : Memref sig .tc .hbm S16384x1024 .f32).slice (Rect.unit (s := S16384x1024) off S2048x1024.size p) hs
      = M0.slice (xLd j) (fun _ => rfl) := by
  subst h; rfl
theorem slice_v (s : Fin 4) {off : Fin 3 → ℕ} (h : off = ![s.val, 0, 0]) (p : ∀ a, off a + S1x2048x1024.size a ≤ S4x2048x1024.size a) (hs) :
    (Memref.whole cc0_scratch0 : Memref sig .tc .vmem S4x2048x1024 .f32).slice (Rect.unit (s := S4x2048x1024) off S1x2048x1024.size p) hs
      = MV.slice (vSl s) (fun _ => rfl) := by
  subst h; rfl

/-- A buddy shares the device's first mesh coordinate, so the chunks of the other half sit at the same rows on both. -/
theorem oCh_yb (c : Dev nD) (Q k : Fin 4) : oCh (yb c) Q k = oCh c Q k := by
  unfold oCh; exact Rect.unit_congr (by rw [x_yb]) _ _
theorem oCh_zb (c : Dev nD) (Q k : Fin 4) : oCh (zb c) Q k = oCh c Q k := by
  unfold oCh; exact Rect.unit_congr (by rw [x_zb]) _ _
theorem qF_px (c : Dev nD) : qF (px c) = qF c := Fin.ext (qi_px c)

variable (m : (ℓ : Loc nD τ sig) → Buf (Elt F) ℓ) (K : Dev nD × Fin 41 → ℕ)

/-- `step_send0` with the program's own spelling `n'` of the neighbour (the printed evidence names that term). -/
theorem step_send0' (c n n' : Dev nD) (hn : n' = n) (sS sR : ℕ) (hS : sS < 40) (hR : sR < 40) (hs : isSend sS) (hr : isRecv sR)
    (Qs ks : Fin 4) (nd : Dev nD) (Qd kd : Fin 4)
    {hsc : ((M1.slice (oCh nd Qd kd) (fun _ => rfl)) : Memref sig (Dev.tc n' : Thread nD τ).2.kind .hbm S1024x1024 .f32).view.ref.isScScratch = false}
    {hsrc : (M0.slice (xCh Qs ks) (fun _ => rfl)).view.WordExact} {hdst : (M1.slice (oCh nd Qd kd) (fun _ => rfl)).view.WordExact}
    {hsem : DmaTarget.Typed .hbm (.dma (ds sR hR)) (.remote (Dev.tc n' : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_arg0)) (fd : Buf (Elt F) ((n : Thread nD τ).loc main_v1))
    (O : CellTallies nD τ sig Unit) (W : Waits sig Unit)
    (hpay₁ : (pts c main_arg0 (xCh Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M0.slice (xCh Qs ks) (fun _ => rfl)).view.read (Elt F) fs) Finset.univ) : sProp 𝕄)
      ⊢ recvPay m n sR) :
    iprop(records m K ∗ pts c main_arg0 (xCh Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M0.slice (xCh Qs ks) (fun _ => rfl)) (.remote (Dev.tc n' : Thread nD τ) (M1.slice (oCh nd Qd kd) (fun _ => rfl)) (.dma (ds sS hS)) hsc)
                (.dma (ds sR hR)) hsrc hdst hsem) k) Q) := by
  subst hn
  exact step_send0 m K c n' sS sR hS hR hs hr Qs ks nd Qd kd q fs fd O W hpay₁ hpay₂

/-- `step_send1` likewise. -/
theorem step_send1' (c n n' : Dev nD) (hn : n' = n) (sS sR : ℕ) (hS : sS < 40) (hR : sR < 40) (hs : isSend sS) (hr : isRecv sR)
    (ns : Dev nD) (Qs ks : Fin 4) (nd : Dev nD) (Qd kd : Fin 4)
    {hsc : ((M1.slice (oCh nd Qd kd) (fun _ => rfl)) : Memref sig (Dev.tc n' : Thread nD τ).2.kind .hbm S1024x1024 .f32).view.ref.isScScratch = false}
    {hsrc : (M1.slice (oCh ns Qs ks) (fun _ => rfl)).view.WordExact} {hdst : (M1.slice (oCh nd Qd kd) (fun _ => rfl)).view.WordExact}
    {hsem : DmaTarget.Typed .hbm (.dma (ds sR hR)) (.remote (Dev.tc n' : Thread nD τ) (M1.slice (oCh nd Qd kd) (fun _ => rfl)) (.dma (ds sS hS)) hsc)}
    {α : Type} {Q : α → sProp 𝕄} {k : PUnit → Prog (TpuEff nD τ sig (Elt F) Λ₀ .tc) α}
    (q : PosShare TreeShare) (fs : Buf (Elt F) ((c : Thread nD τ).loc main_v1)) (fd : Buf (Elt F) ((n : Thread nD τ).loc main_v1))
    (O : CellTallies nD τ sig Unit) (W : Waits sig Unit)
    (hpay₁ : (pts c main_v1 (oCh ns Qs ks) q fs : sProp 𝕄) ⊢ sendPay m c sS)
    (hpay₂ : (((M1.slice (oCh nd Qd kd) (fun _ => rfl)).view.loc (n : Thread nD τ))
        ↦[(M1.slice (oCh nd Qd kd) (fun _ => rfl)).view.set]{fullShare}
          ((M1.slice (oCh nd Qd kd) (fun _ => rfl)).view.write (Elt F) fd ((M1.slice (oCh ns Qs ks) (fun _ => rfl)).view.read (Elt F) fs) Finset.univ) : sProp 𝕄)
      ⊢ recvPay m n sR) :
    iprop(records m K ∗ pts c main_v1 (oCh ns Qs ks) q fs ∗ pts n main_v1 (oCh nd Qd kd) fullShare fd
        ∗ owes (c : Thread nD τ) (O + tallyAt (cell n sR hR) () N) W
        ∗ dutyTok ER (cell c sS hS) 0 0 ∗ dutyTok ER (cell n sR hR) 0 0)
      ⊢ iprop(((cred (tallyAt (cell c sS hS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M1.slice (oCh ns Qs ks) (fun _ => rfl)) (.remote (Dev.tc n' : Thread nD τ) (M1.slice (oCh nd Qd kd) (fun _ => rfl)) (.dma (ds sS hS)) hsc)
                (.dma (ds sR hR)) hsrc hdst hsem) k) Q) := by
  subst hn
  exact step_send1 m K c n' sS sR hS hR hs hr ns Qs ks nd Qd kd q fs fd O W hpay₁ hpay₂

set_option hygiene false in
/-- Hand over the named hypotheses, one per conjunct of the goal, in order. -/
syntax "hand " "[" ident,+ "]" : tactic
set_option hygiene false in
macro_rules
  | `(tactic| hand [$h:ident]) => `(tactic| iexact $h)
  | `(tactic| hand [$h:ident, $hs:ident,*]) => `(tactic| (isplitl [$h]; (· iexact $h); hand [$hs,*]))

end Cert.KernelIdeal.AG

end
-- ==== Proof.KernelIdealAG.Value.lean ====
/-
  The all-gather's target, by cases: pure index algebra over the 2 × 4 × 4 mesh.

  Device c's result must hold its own argument at its own half's rows, and at the other half's rows, quarter by quarter,
  the argument of the device across x whose quarter that is. Here: which argument each case reads (own rows; the rows a
  device sends its partner; the rows on which the two buddies within a group of four agree), and that, when every
  device's argument is its half of one whole array X, every device's target is X.
-/
import proofs.«900686_g7700000000000687_dist_ag_v7x_xyz2x4x4_x_m16384_n1024_f32_1_alg».proof.Proof.KernelIdealAG.Base
import Idealize.ShloMosaic.Lib.Layout
import Idealize.ShloMosaic.Lib.ValueIdx

noncomputable section

namespace Cert.KernelIdeal.AG

open Cert.KernelIdeal Cert.KernelIdeal.Gen
open Idealize.ShloMosaic Idealize.ShloMosaic.TcCoe Idealize.SL.Sem

/-! ### Device facts -/

/-- The partner lies in the other half. -/
private theorem v_px_half : ∀ c : Dev nD, (px c).val / 16 ≠ c.val / 16 := by decide

/-- The quarter a device fetches from its partner originates, seen from the partner, at the device itself. -/
private theorem v_origin_px_qi : ∀ c : Dev nD, origin (px c) (qi c) = c := by decide

/-- Flipping the low bit of y keeps the half and bits 3 and 1 of the device number. -/
private theorem v_yb_bits : ∀ c : Dev nD,
    (yb c).val / 16 = c.val / 16 ∧ (yb c).val / 8 % 2 = c.val / 8 % 2 ∧ (yb c).val / 2 % 2 = c.val / 2 % 2 := by decide

/-- Flipping the low bit of z keeps the half and bits 3 and 1 of the device number. -/
private theorem v_zb_bits : ∀ c : Dev nD,
    (zb c).val / 16 = c.val / 16 ∧ (zb c).val / 8 % 2 = c.val / 8 % 2 ∧ (zb c).val / 2 % 2 = c.val / 2 % 2 := by decide

/-- The origin of a quarter depends on the device only through its half and bits 3 and 1 of its number. -/
private theorem v_origin_congr (c c' : Dev nD) (h16 : c'.val / 16 = c.val / 16)
    (h8 : c'.val / 8 % 2 = c.val / 8 % 2) (h2 : c'.val / 2 % 2 = c.val / 2 % 2) (Q : ℕ) :
    origin c' Q = origin c Q := by
  apply Fin.ext
  show 16 * (1 - c'.val / 16) + 8 * ((c'.val / 8) % 2) + 4 * ((Q / 2) % 2) + 2 * ((c'.val / 2) % 2) + Q % 2
      = 16 * (1 - c.val / 16) + 8 * ((c.val / 8) % 2) + 4 * ((Q / 2) % 2) + 2 * ((c.val / 2) % 2) + Q % 2
  rw [h16, h8, h2]

/-- Every origin lies in the other half. -/
private theorem v_origin_half (c : Dev nD) (Q : ℕ) : (origin c Q).val / 16 = 1 - c.val / 16 := by
  have hc : c.val < 32 := c.isLt
  show (16 * (1 - c.val / 16) + 8 * ((c.val / 8) % 2) + 4 * ((Q / 2) % 2) + 2 * ((c.val / 2) % 2) + Q % 2) / 16
      = 1 - c.val / 16
  omega

/-- On the 2 × 4 × 4 mesh a device's block along the first axis is its half. -/
private theorem v_lin0 : ∀ c : Dev nD, Layout.meshLin [2, 4, 4] c.val [0] = c.val / 16 := by decide

/-! ### The target, by cases -/

/-- The target at an index, spelled out: by the half the row lies in. -/
private theorem v_target_eq {F : FTy → Type} [FloatOps F] (m : (ℓ : Loc nD τ sig) → Buf (Elt F) ℓ) (c : Dev nD) (i : (⟨2, ![32768, 1024]⟩ : Shape).Idx) :
    target m c i =
      if (i 0).val / 16384 = c.val / 16 then
        xin m c (ValueIdx.ix2 (n0 := 16384) (n1 := 1024) ⟨(i 0).val % 16384, Nat.mod_lt _ (by decide)⟩ (i 1))
      else
        xin m (origin c ((i 0).val % 16384 / 4096))
          (ValueIdx.ix2 (n0 := 16384) (n1 := 1024) ⟨(i 0).val % 16384, Nat.mod_lt _ (by decide)⟩ (i 1)) := rfl

/-- At its own half's rows a device's target is its own argument. -/
theorem target_own {F : FTy → Type} [FloatOps F] (m : (ℓ : Loc nD τ sig) → Buf (Elt F) ℓ) (c : Dev nD) (i : (⟨2, ![32768, 1024]⟩ : Shape).Idx)
    (h : (i 0).val / 16384 = c.val / 16) :
    target m c i = xin m c (ValueIdx.ix2 (n0 := 16384) (n1 := 1024) ⟨(i 0).val % 16384, Nat.mod_lt _ (by decide)⟩ (i 1)) := by
  rw [v_target_eq, if_pos h]

/-- At a device's half's rows, in the quarter it fetches, the partner's target is the device's argument. -/
theorem target_xsend {F : FTy → Type} [FloatOps F] (m : (ℓ : Loc nD τ sig) → Buf (Elt F) ℓ) (c : Dev nD) (i : (⟨2, ![32768, 1024]⟩ : Shape).Idx)
    (h1 : (i 0).val / 16384 = c.val / 16) (h2 : (i 0).val % 16384 / 4096 = qi c) :
    target m (px c) i = xin m c (ValueIdx.ix2 (n0 := 16384) (n1 := 1024) ⟨(i 0).val % 16384, Nat.mod_lt _ (by decide)⟩ (i 1)) := by
  have hne : ¬ (i 0).val / 16384 = (px c).val / 16 := fun e => v_px_half c (e.symm.trans h1)
  rw [v_target_eq, if_neg hne, h2, v_origin_px_qi c]

/-- In the other half's rows a device and its y buddy have the same target. -/
theorem target_yb {F : FTy → Type} [FloatOps F] (m : (ℓ : Loc nD τ sig) → Buf (Elt F) ℓ) (c : Dev nD) (i : (⟨2, ![32768, 1024]⟩ : Shape).Idx)
    (h : (i 0).val / 16384 ≠ c.val / 16) : target m (yb c) i = target m c i := by
  obtain ⟨h16, h8, h2⟩ := v_yb_bits c
  have h' : ¬ (i 0).val / 16384 = (yb c).val / 16 := fun e => h (e.trans h16)
  rw [v_target_eq m (yb c) i, v_target_eq m c i, if_neg h', if_neg h, v_origin_congr c (yb c) h16 h8 h2]

/-- In the other half's rows a device and its z buddy have the same target. -/
theorem target_zb {F : FTy → Type} [FloatOps F] (m : (ℓ : Loc nD τ sig) → Buf (Elt F) ℓ) (c : Dev nD) (i : (⟨2, ![32768, 1024]⟩ : Shape).Idx)
    (h : (i 0).val / 16384 ≠ c.val / 16) : target m (zb c) i = target m c i := by
  obtain ⟨h16, h8, h2⟩ := v_zb_bits c
  have h' : ¬ (i 0).val / 16384 = (zb c).val / 16 := fun e => h (e.trans h16)
  rw [v_target_eq m (zb c) i, v_target_eq m c i, if_neg h', if_neg h, v_origin_congr c (zb c) h16 h8 h2]

/-- When every device's argument is its half of one whole array, a device's target at an index is the array's entry
    there: own rows read the device's own half, the other rows read a device of the other half. -/
private theorem v_target_whole_at {F : FTy → Type} [FloatOps F] (m : (ℓ : Loc nD τ sig) → Buf (Elt F) ℓ) (X : (⟨2, ![32768, 1024]⟩ : Shape).Idx → Elt F .f32)
    (h : ∀ c : Dev nD, xin m c = Layout.blockN ⟨2, ![16384, 1024]⟩ ⟨2, ![32768, 1024]⟩ (Layout.meshBlock [2, 4, 4] ![[0], []] c) X)
    (c : Dev nD) (i : (⟨2, ![32768, 1024]⟩ : Shape).Idx) : target m c i = X i := by
  have hi : (i 0).val < 32768 := ValueIdx.idx2_lt0 i
  have hc : c.val < 32 := c.isLt
  -- a device in the half that holds row `i 0` holds, at that row's place within the half, the whole array's entry
  have key : ∀ c' : Dev nD, c'.val / 16 = (i 0).val / 16384 →
      xin m c' (ValueIdx.ix2 (n0 := 16384) (n1 := 1024) ⟨(i 0).val % 16384, Nat.mod_lt _ (by decide)⟩ (i 1)) = X i := by
    intro c' hc'
    rw [h c', Layout.blockN_apply]
    congr 1
    funext b
    apply Fin.ext
    rw [Layout.TilesN.idx_val]
    match b with
    | ⟨0, _⟩ =>
      show Layout.meshLin [2, 4, 4] c'.val [0] * 16384 + (i 0).val % 16384 = (i 0).val
      rw [v_lin0 c']
      omega
    | ⟨1, _⟩ =>
      show 0 * 1024 + (i 1).val = (i 1).val
      omega
  rw [v_target_eq]
  split
  · next hh => exact key c hh.symm
  · next hh =>
    refine key _ ?_
    rw [v_origin_half]
    omega

/-- When every device's argument is its half (block c / 16 along the rows) of one whole array, every device's target is
    that array. -/
theorem target_whole {F : FTy → Type} [FloatOps F] (m : (ℓ : Loc nD τ sig) → Buf (Elt F) ℓ) (X : (⟨2, ![32768, 1024]⟩ : Shape).Idx → Elt F .f32)
    (h : ∀ c : Dev nD, xin m c = Layout.blockN ⟨2, ![16384, 1024]⟩ ⟨2, ![32768, 1024]⟩ (Layout.meshBlock [2, 4, 4] ![[0], []] c) X)
    (c : Dev nD) : target m c = X :=
  funext fun i => v_target_whole_at m X h c i

/-- info: 'Cert.KernelIdeal.AG.target_own' depends on axioms: [propext, Classical.choice, Quot.sound] -/
#guard_msgs in #print axioms target_own
/-- info: 'Cert.KernelIdeal.AG.target_xsend' depends on axioms: [propext, Classical.choice, Quot.sound] -/
#guard_msgs in #print axioms target_xsend
/-- info: 'Cert.KernelIdeal.AG.target_yb' depends on axioms: [propext, Classical.choice, Quot.sound] -/
#guard_msgs in #print axioms target_yb
/-- info: 'Cert.KernelIdeal.AG.target_zb' depends on axioms: [propext, Classical.choice, Quot.sound] -/
#guard_msgs in #print axioms target_zb
/-- info: 'Cert.KernelIdeal.AG.target_whole' depends on axioms: [propext, Classical.choice, Quot.sound] -/
#guard_msgs in #print axioms target_whole

end Cert.KernelIdeal.AG

end
-- ==== Proof.KernelIdealAG.Landing.lean ====
/-
  What each copy of the all-gather lands: the rows a finished copy hands its receiver hold what the result must hold
  there, and the rows it read go back to the sender as they were.

  Every copy moves whole rows between two views of the same shape, so the element written under the destination view's
  index y is the element read under the source view's index y; the statements below only say which element of which
  device's argument that is.
-/
import proofs.«900686_g7700000000000687_dist_ag_v7x_xyz2x4x4_x_m16384_n1024_f32_1_alg».proof.Proof.KernelIdealAG.Proto
import proofs.«900686_g7700000000000687_dist_ag_v7x_xyz2x4x4_x_m16384_n1024_f32_1_alg».proof.Proof.KernelIdealAG.Value
import proofs.«900686_g7700000000000687_dist_ag_v7x_xyz2x4x4_x_m16384_n1024_f32_1_alg».proof.Proof.KernelIdealAG.Topo
import Idealize.ShloMosaic.Lib.Pipeline.Value

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option quotPrecheck false

/- A rectangle of the result array, of the argument array, and a slot of the staging buffer with its leading unit axis
   dropped. -/
local notation "M1[" r "]" =>
  ((Memref.whole main_v1 : Memref sig .tc .hbm S32768x1024 .f32).slice r (fun _ => rfl))
local notation "M0[" r "]" =>
  ((Memref.whole main_arg0 : Memref sig .tc .hbm S16384x1024 .f32).slice r (fun _ => rfl))
local notation "SLOT(" s ")" =>
  (((Memref.whole cc0_scratch0 : Memref sig .tc .vmem S4x2048x1024 .f32).slice (vSl s) (fun _ => rfl)).squeeze
    S2048x1024 squeezes_S1x2048x1024_S2048x1024)

/-! ## A copy through two views, read where it lands -/

/-- A buffer rewritten, at every index of a view, with what another view of the same shape reads, holds under the view
    any contents that read back through it as the source reads. -/
theorem land_congr (o o' : Dev nD) {sp sp' : Space} {s : Shape} {e : EltTy}
    (src : View sig .tc sp s e) (dst : View sig .tc sp' s e) (q : PosShare TreeShare)
    (fs : Buf (Elt F) (src.loc (o : Thread nD τ))) (fd g : Buf (Elt F) (dst.loc (o' : Thread nD τ)))
    (h : ∀ y : s.Idx, dst.read (Elt F) g y = src.read (Elt F) fs y) :
    ((dst.loc (o' : Thread nD τ) ↦[dst.set]{q} (dst.write (Elt F) fd (src.read (Elt F) fs) Finset.univ)) : sProp 𝕄)
      = (dst.loc (o' : Thread nD τ) ↦[dst.set]{q} g) :=
  BI.Region.is_congr fun i hi => by
    obtain ⟨y, rfl⟩ := View.exists_emb_of_mem_set dst hi
    rw [View.write_emb_of_mem _ _ (Finset.mem_univ y), ← h y, View.read_apply, cast_cast, cast_eq]

/-- The elements under a rectangle of a whole buffer are the rectangle's. -/
theorem pts_slice_whole (o : Dev nD) (b : Ref sig .tc) (r : Rect b.ty.shape) (q : PosShare TreeShare)
    (f : Buf (Elt F) ((o : Thread nD τ).loc b)) :
    ((((View.whole b).slice r).loc (o : Thread nD τ) ↦[((View.whole b).slice r).set]{q} f) : sProp 𝕄)
      = pts o b r q f := by
  unfold pts; rw [View.set_slice_whole]

/-- The same for the rectangle re-indexed by another shape with as many elements. -/
theorem pts_slice_whole_reshape (o : Dev nD) (b : Ref sig .tc) (r : Rect b.ty.shape) (s' : Shape)
    (hs : s'.numel = r.shape.numel) (q : PosShare TreeShare) (f : Buf (Elt F) ((o : Thread nD τ).loc b)) :
    (((((View.whole b).slice r).reshape s' hs).loc (o : Thread nD τ)
        ↦[(((View.whole b).slice r).reshape s' hs).set]{q} f) : sProp 𝕄)
      = pts o b r q f := by
  unfold pts; rw [View.set_reshape, View.set_slice_whole]

/-- Reading a whole buffer's contents through a rectangle of it is reading them at the rectangle's elements. -/
theorem read_slice_whole (b : Ref sig .tc) (r : Rect b.ty.shape) (f : b.ty.Contents (Elt F)) (y : r.shape.Idx) :
    ((View.whole b).slice r).read (Elt F) f y = f (r.emb y) := rfl

/-- The same through the rectangle re-indexed by another shape with as many elements. -/
theorem read_slice_whole_reshape (b : Ref sig .tc) (r : Rect b.ty.shape) (s' : Shape)
    (hs : s'.numel = r.shape.numel) (f : b.ty.Contents (Elt F)) (y : s'.Idx) :
    (((View.whole b).slice r).reshape s' hs).read (Elt F) f y = f (r.emb (Shape.reshapeEquiv hs y)) := rfl

/-- A rank-2 index with the coordinates a and b is the index built from them. -/
theorem idx2_eq_ix2 {n0 n1 : ℕ} (x : (⟨2, ![n0, n1]⟩ : Shape).Idx) (a : Fin n0) (b : Fin n1)
    (h0 : (x 0).val = a.val) (h1 : (x 1).val = b.val) : x = ValueIdx.ix2 a b := by
  funext d
  match d with
  | ⟨0, _⟩ => exact Fin.ext h0
  | ⟨1, _⟩ => exact Fin.ext h1

/-- Two rank-2 indices with the same coordinates are equal. -/
theorem idx2_ext {n0 n1 : ℕ} (x x' : (⟨2, ![n0, n1]⟩ : Shape).Idx)
    (h0 : (x 0).val = (x' 0).val) (h1 : (x 1).val = (x' 1).val) : x = x' := by
  funext d
  match d with
  | ⟨0, _⟩ => exact Fin.ext h0
  | ⟨1, _⟩ => exact Fin.ext h1

/-! ## Where a chunk's rows sit -/

/-- Row y of chunk k of quarter Q of the other half of device o's result is row 16384(1 - x) + 4096 Q + 1024 k + y. -/
theorem oCh_emb0 (o : Dev nD) (Q k : Fin 4) (y : (oCh o Q k).shape.Idx) :
    (((oCh o Q k).emb y : (⟨2, ![32768, 1024]⟩ : Shape).Idx) 0).val
      = 16384 * (1 - o.val / 16) + 4096 * Q.val + 1024 * k.val + (y 0).val := by
  show (16384 * (1 - o.val / 16) + 4096 * Q.val + 1024 * k.val) + 1 * (y 0).val = _
  omega
theorem oCh_emb1 (o : Dev nD) (Q k : Fin 4) (y : (oCh o Q k).shape.Idx) :
    (((oCh o Q k).emb y : (⟨2, ![32768, 1024]⟩ : Shape).Idx) 1).val = (y 1).val := by
  show 0 + 1 * (y 1).val = _
  omega

/-- Row y of chunk j of device o's own half of its result is row 16384 x + 2048 j + y. -/
theorem oOwn_emb0 (o : Dev nD) (j : Fin 8) (y : (oOwn o j).shape.Idx) :
    (((oOwn o j).emb y : (⟨2, ![32768, 1024]⟩ : Shape).Idx) 0).val
      = 16384 * (o.val / 16) + 2048 * j.val + (y 0).val := by
  show (16384 * (o.val / 16) + 2048 * j.val) + 1 * (y 0).val = _
  omega
theorem oOwn_emb1 (o : Dev nD) (j : Fin 8) (y : (oOwn o j).shape.Idx) :
    (((oOwn o j).emb y : (⟨2, ![32768, 1024]⟩ : Shape).Idx) 1).val = (y 1).val := by
  show 0 + 1 * (y 1).val = _
  omega

/-- Row y of chunk k of quarter Q of an argument is row 4096 Q + 1024 k + y. -/
theorem xCh_emb0 (Q k : Fin 4) (y : (xCh Q k).shape.Idx) :
    (((xCh Q k).emb y : (⟨2, ![16384, 1024]⟩ : Shape).Idx) 0).val = 4096 * Q.val + 1024 * k.val + (y 0).val := by
  show (4096 * Q.val + 1024 * k.val) + 1 * (y 0).val = _
  omega
theorem xCh_emb1 (Q k : Fin 4) (y : (xCh Q k).shape.Idx) :
    (((xCh Q k).emb y : (⟨2, ![16384, 1024]⟩ : Shape).Idx) 1).val = (y 1).val := by
  show 0 + 1 * (y 1).val = _
  omega

/-- Row y of chunk j of eight of an argument is row 2048 j + y. -/
theorem xLd_emb0 (j : Fin 8) (y : (xLd j).shape.Idx) :
    (((xLd j).emb y : (⟨2, ![16384, 1024]⟩ : Shape).Idx) 0).val = 2048 * j.val + (y 0).val := by
  show (2048 * j.val) + 1 * (y 0).val = _
  omega
theorem xLd_emb1 (j : Fin 8) (y : (xLd j).shape.Idx) :
    (((xLd j).emb y : (⟨2, ![16384, 1024]⟩ : Shape).Idx) 1).val = (y 1).val := by
  show 0 + 1 * (y 1).val = _
  omega

/-- Element (y0, y1) of a staging slot, the slot's leading unit axis dropped, sits at (slot, y0, y1) of the buffer. -/
theorem vSl_emb (s : Fin 4) (hh : S2048x1024.numel = (vSl s).shape.numel) (y : S2048x1024.Idx) :
    ((((vSl s).emb (Shape.reshapeEquiv hh y)) : (⟨3, ![4, 2048, 1024]⟩ : Shape).Idx) 1).val = (y 0).val
      ∧ ((((vSl s).emb (Shape.reshapeEquiv hh y)) : (⟨3, ![4, 2048, 1024]⟩ : Shape).Idx) 2).val = (y 1).val := by
  have hc : Shape.reshapeEquiv hh y = Fin.cons ⟨0, Nat.one_pos⟩ y :=
    Shape.reshapeEquiv_cons_one (n := 2) (d := ![2048, 1024]) hh y
  rw [hc]
  constructor
  · show 0 + 1 * (y 0).val = _
    omega
  · show 0 + 1 * (y 1).val = _
    omega

/-! ## The rectangles the schedule names -/

theorem oCh_eq {o o' : Dev nD} {Q Q' k k' : Fin 4} (ho : o = o') (hQ : Q = Q') (hk : k.val = k'.val) :
    oCh o Q k = oCh o' Q' k' := by
  subst ho; subst hQ; obtain rfl := Fin.ext hk; rfl

theorem xCh_eq {Q Q' k k' : Fin 4} (hQ : Q = Q') (hk : k.val = k'.val) : xCh Q k = xCh Q' k' := by
  subst hQ; obtain rfl := Fin.ext hk; rfl

theorem qF_px_eq (c : Dev nD) : qF (px c) = qF c := Fin.ext (qi_px c)

theorem recvRect_x (o : Dev nD) (k : Fin 4) : recvRect o (12 + k.val) = oCh o (qF o) k := by
  have hk := k.isLt
  unfold recvRect
  rw [if_pos (show 12 + k.val < 16 by omega)]
  exact oCh_eq rfl rfl (by show (12 + k.val - 12) % 4 = k.val; omega)

theorem recvRect_y (o : Dev nD) (k : Fin 4) : recvRect o (20 + k.val) = oCh o (qF (yb o)) k := by
  have hk := k.isLt
  unfold recvRect
  rw [if_neg (show ¬ 20 + k.val < 16 by omega), if_pos (show 20 + k.val < 24 by omega)]
  exact oCh_eq rfl rfl (by show (20 + k.val - 20) % 4 = k.val; omega)

theorem recvRect_z (o : Dev nD) (k : Fin 4) : recvRect o (28 + k.val) = oCh o (qF (zb o)) k := by
  have hk := k.isLt
  unfold recvRect
  rw [if_neg (show ¬ 28 + k.val < 16 by omega), if_neg (show ¬ 28 + k.val < 24 by omega),
    if_pos (show 28 + k.val < 32 by omega)]
  exact oCh_eq rfl rfl (by show (28 + k.val - 28) % 4 = k.val; omega)

theorem recvRect_yd (o : Dev nD) (j : Fin 2) :
    recvRect o (34 + j.val) = oCh o (qF (zb (yb o))) ⟨j.val, Nat.lt_of_lt_of_le j.isLt (by decide)⟩ := by
  have hj := j.isLt
  unfold recvRect
  rw [if_neg (show ¬ 34 + j.val < 16 by omega), if_neg (show ¬ 34 + j.val < 24 by omega),
    if_neg (show ¬ 34 + j.val < 32 by omega), if_pos (show 34 + j.val < 36 by omega)]
  exact oCh_eq rfl rfl (by show (34 + j.val - 34) % 4 = j.val; omega)

theorem recvRect_zd (o : Dev nD) (j : Fin 2) :
    recvRect o (38 + j.val) = oCh o (qF (yb (zb o))) ⟨2 + j.val, by have := j.isLt; omega⟩ := by
  have hj := j.isLt
  unfold recvRect
  rw [if_neg (show ¬ 38 + j.val < 16 by omega), if_neg (show ¬ 38 + j.val < 24 by omega),
    if_neg (show ¬ 38 + j.val < 32 by omega), if_neg (show ¬ 38 + j.val < 36 by omega)]
  exact oCh_eq rfl rfl (by show (38 + j.val - 38 + 2) % 4 = 2 + j.val; omega)

/-! ## The transfer across x: a quarter of the argument, chunk by chunk, into the partner's result -/

/-- The share of the argument's rows an x send read, back: the send cell's payload. -/
theorem sendPay_x_eq (m : (ℓ : Loc nD τ sig) → Buf (Elt F) ℓ) (c : Dev nD) (k : Fin 4) :
    sendPay m c (8 + k.val)
      = ((M0[xCh (qF c) k].view.loc (c : Thread nD τ)
          ↦[M0[xCh (qF c) k].view.set]{fullShare.left} xin m c) : sProp 𝕄) := by
  have hk := k.isLt
  unfold sendPay
  rw [if_pos (show 8 + k.val < 12 by omega)]
  refine Eq.trans (congrArg (fun R => pts c main_arg0 R fullShare.left (xin m c))
    (xCh_eq rfl (by show (8 + k.val - 8) % 4 = k.val; omega))) ?_
  exact (pts_slice_whole c main_arg0 (xCh (qF c) k) fullShare.left (xin m c)).symm

theorem back_x (m : (ℓ : Loc nD τ sig) → Buf (Elt F) ℓ) (c : Dev nD) (k : Fin 4) :
    ((M0[xCh (qF c) k].view.loc (c : Thread nD τ)
        ↦[M0[xCh (qF c) k].view.set]{fullShare.left} xin m c) : sProp 𝕄)
      ⊢ sendPay m c (8 + k.val) :=
  Entails.of_eq (sendPay_x_eq m c k).symm

/-- Chunk k of the quarter a device sends its partner lands holding what the partner's result must hold there. -/
theorem land_x (m : (ℓ : Loc nD τ sig) → Buf (Elt F) ℓ) (c : Dev nD) (k : Fin 4)
    (fd : Buf (Elt F) ((px c : Thread nD τ).loc main_v1)) :
    ((M1[oCh (px c) (qF c) k].view.loc (px c : Thread nD τ)
        ↦[M1[oCh (px c) (qF c) k].view.set]{fullShare}
          (M1[oCh (px c) (qF c) k].view.write (Elt F) fd
            (M0[xCh (qF c) k].view.read (Elt F) (xin m c)) Finset.univ)) : sProp 𝕄)
      ⊢ recvPay m (px c) (12 + k.val) := by
  have e : recvPay m (px c) (12 + k.val)
      = pts (px c) main_v1 (oCh (px c) (qF c) k) fullShare (target m (px c)) := by
    unfold recvPay; rw [recvRect_x, qF_px_eq]
  rw [e]
  refine Entails.of_eq ((land_congr c (px c)
    (((View.whole main_arg0).slice (xCh (qF c) k)) : View sig .tc .hbm S1024x1024 .f32)
    (((View.whole main_v1).slice (oCh (px c) (qF c) k)) : View sig .tc .hbm S1024x1024 .f32)
    fullShare (xin m c) fd (target m (px c)) ?_).trans
    (pts_slice_whole (px c) main_v1 (oCh (px c) (qF c) k) fullShare (target m (px c))))
  intro y
  refine (read_slice_whole main_v1 (oCh (px c) (qF c) k) (target m (px c)) y).trans
    (Eq.trans ?_ (read_slice_whole main_arg0 (xCh (qF c) k) (xin m c) y).symm)
  have hk := k.isLt
  have hc : c.val < 32 := c.isLt
  have hq : (qF c).val = qi c := rfl
  have hq4 := qi_lt c
  have hy0 : (y 0).val < 1024 := (y 0).isLt
  have e0 := oCh_emb0 (px c) (qF c) k y
  have e1 := oCh_emb1 (px c) (qF c) k y
  have s0 := xCh_emb0 (qF c) k y
  have s1 := xCh_emb1 (qF c) k y
  rw [x_px] at e0
  generalize (oCh (px c) (qF c) k).emb y = I at e0 e1 ⊢
  generalize (xCh (qF c) k).emb y = J at s0 s1 ⊢
  refine (target_xsend m c I (by omega) (by omega)).trans ?_
  refine (congrArg (xin m c) (idx2_eq_ix2 J _ _ ?_ ?_)).symm
  · show ((J : (⟨2, ![16384, 1024]⟩ : Shape).Idx) 0).val = ((I : (⟨2, ![32768, 1024]⟩ : Shape).Idx) 0).val % 16384
    omega
  · show ((J : (⟨2, ![16384, 1024]⟩ : Shape).Idx) 1).val = ((I : (⟨2, ![32768, 1024]⟩ : Shape).Idx) 1).val
    omega

/-! ## The relays round a group of four: rows of the result, from a device to a buddy -/

/-- The rows of the other half a device copies to its y buddy land holding what the buddy's result must hold there:
    in the other half the two have the same target. -/
theorem relay_y (m : (ℓ : Loc nD τ sig) → Buf (Elt F) ℓ) (c : Dev nD) (Q k : Fin 4)
    (fd : Buf (Elt F) ((yb c : Thread nD τ).loc main_v1)) :
    ((((View.whole main_v1).slice (oCh (yb c) Q k)).loc (yb c : Thread nD τ)
        ↦[((View.whole main_v1).slice (oCh (yb c) Q k)).set]{fullShare}
          (((View.whole main_v1).slice (oCh (yb c) Q k)).write (Elt F) fd
            (((View.whole main_v1).slice (oCh c Q k)).read (Elt F) (target m c)) Finset.univ)) : sProp 𝕄)
      = pts (yb c) main_v1 (oCh (yb c) Q k) fullShare (target m (yb c)) := by
  refine (land_congr c (yb c)
    (((View.whole main_v1).slice (oCh c Q k)) : View sig .tc .hbm S1024x1024 .f32)
    (((View.whole main_v1).slice (oCh (yb c) Q k)) : View sig .tc .hbm S1024x1024 .f32)
    fullShare (target m c) fd (target m (yb c)) ?_).trans
    (pts_slice_whole (yb c) main_v1 (oCh (yb c) Q k) fullShare (target m (yb c)))
  intro y
  refine (read_slice_whole main_v1 (oCh (yb c) Q k) (target m (yb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have e0 := oCh_emb0 (yb c) Q k y
  have e1 := oCh_emb1 (yb c) Q k y
  have s0 := oCh_emb0 c Q k y
  have s1 := oCh_emb1 c Q k y
  rw [x_yb] at e0
  generalize (oCh (yb c) Q k).emb y = I at e0 e1 ⊢
  generalize (oCh c Q k).emb y = J at s0 s1 ⊢
  have hij : I = J := idx2_ext (n0 := 32768) (n1 := 1024) I J (by omega) (by omega)
  rw [hij]
  exact target_yb m c J (by omega)

/-- The same towards the z buddy. -/
theorem relay_z (m : (ℓ : Loc nD τ sig) → Buf (Elt F) ℓ) (c : Dev nD) (Q k : Fin 4)
    (fd : Buf (Elt F) ((zb c : Thread nD τ).loc main_v1)) :
    ((((View.whole main_v1).slice (oCh (zb c) Q k)).loc (zb c : Thread nD τ)
        ↦[((View.whole main_v1).slice (oCh (zb c) Q k)).set]{fullShare}
          (((View.whole main_v1).slice (oCh (zb c) Q k)).write (Elt F) fd
            (((View.whole main_v1).slice (oCh c Q k)).read (Elt F) (target m c)) Finset.univ)) : sProp 𝕄)
      = pts (zb c) main_v1 (oCh (zb c) Q k) fullShare (target m (zb c)) := by
  refine (land_congr c (zb c)
    (((View.whole main_v1).slice (oCh c Q k)) : View sig .tc .hbm S1024x1024 .f32)
    (((View.whole main_v1).slice (oCh (zb c) Q k)) : View sig .tc .hbm S1024x1024 .f32)
    fullShare (target m c) fd (target m (zb c)) ?_).trans
    (pts_slice_whole (zb c) main_v1 (oCh (zb c) Q k) fullShare (target m (zb c)))
  intro y
  refine (read_slice_whole main_v1 (oCh (zb c) Q k) (target m (zb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have e0 := oCh_emb0 (zb c) Q k y
  have e1 := oCh_emb1 (zb c) Q k y
  have s0 := oCh_emb0 c Q k y
  have s1 := oCh_emb1 c Q k y
  rw [x_zb] at e0
  generalize (oCh (zb c) Q k).emb y = I at e0 e1 ⊢
  generalize (oCh c Q k).emb y = J at s0 s1 ⊢
  have hij : I = J := idx2_ext (n0 := 32768) (n1 := 1024) I J (by omega) (by omega)
  rw [hij]
  exact target_zb m c J (by omega)

/-- A share of rows of the result under a chunk's view is that share of the chunk's rows. -/
theorem pts_oCh (c : Dev nD) (Q k : Fin 4) (q : PosShare TreeShare) (f : Buf (Elt F) ((c : Thread nD τ).loc main_v1)) :
    ((M1[oCh c Q k].view.loc (c : Thread nD τ)
        ↦[M1[oCh c Q k].view.set]{q} f) : sProp 𝕄)
      = pts c main_v1 (oCh c Q k) q f :=
  pts_slice_whole c main_v1 (oCh c Q k) q f

/-! ### The y and z relays of the device's own quarter -/

theorem sendPay_yd_eq (m : (ℓ : Loc nD τ sig) → Buf (Elt F) ℓ) (c : Dev nD) (k : Fin 4) :
    sendPay m c (16 + k.val)
      = ((M1[oCh c (qF c) k].view.loc (c : Thread nD τ)
          ↦[M1[oCh c (qF c) k].view.set]{fullShare.left} target m c) : sProp 𝕄) := by
  have hk := k.isLt
  unfold sendPay
  rw [if_neg (show ¬ 16 + k.val < 12 by omega), if_pos (show 16 + k.val < 20 by omega)]
  refine Eq.trans (congrArg (fun R => pts c main_v1 R fullShare.left (target m c))
    (oCh_eq rfl rfl (by show (16 + k.val - 16) % 4 = k.val; omega))) ?_
  exact (pts_oCh c (qF c) k fullShare.left (target m c)).symm

theorem back_yd (m : (ℓ : Loc nD τ sig) → Buf (Elt F) ℓ) (c : Dev nD) (k : Fin 4) :
    ((M1[oCh c (qF c) k].view.loc (c : Thread nD τ)
        ↦[M1[oCh c (qF c) k].view.set]{fullShare.left} target m c) : sProp 𝕄)
      ⊢ sendPay m c (16 + k.val) :=
  Entails.of_eq (sendPay_yd_eq m c k).symm

theorem land_yd (m : (ℓ : Loc nD τ sig) → Buf (Elt F) ℓ) (c : Dev nD) (k : Fin 4)
    (fd : Buf (Elt F) ((yb c : Thread nD τ).loc main_v1)) :
    ((M1[oCh (yb c) (qF c) k].view.loc (yb c : Thread nD τ)
        ↦[M1[oCh (yb c) (qF c) k].view.set]{fullShare}
          (M1[oCh (yb c) (qF c) k].view.write (Elt F) fd
            (M1[oCh c (qF c) k].view.read (Elt F) (target m c)) Finset.univ)) : sProp 𝕄)
      ⊢ recvPay m (yb c) (20 + k.val) := by
  have e : recvPay m (yb c) (20 + k.val)
      = pts (yb c) main_v1 (oCh (yb c) (qF c) k) fullShare (target m (yb c)) := by
    unfold recvPay; rw [recvRect_y, yb_yb]
  rw [e]
  exact Entails.of_eq (relay_y m c (qF c) k fd)

theorem sendPay_zd_eq (m : (ℓ : Loc nD τ sig) → Buf (Elt F) ℓ) (c : Dev nD) (k : Fin 4) :
    sendPay m c (24 + k.val)
      = ((M1[oCh c (qF c) k].view.loc (c : Thread nD τ)
          ↦[M1[oCh c (qF c) k].view.set]{fullShare.right} target m c) : sProp 𝕄) := by
  have hk := k.isLt
  unfold sendPay
  rw [if_neg (show ¬ 24 + k.val < 12 by omega), if_neg (show ¬ 24 + k.val < 20 by omega),
    if_pos (show 24 + k.val < 28 by omega)]
  refine Eq.trans (congrArg (fun R => pts c main_v1 R fullShare.right (target m c))
    (oCh_eq rfl rfl (by show (24 + k.val - 24) % 4 = k.val; omega))) ?_
  exact (pts_oCh c (qF c) k fullShare.right (target m c)).symm

theorem back_zd (m : (ℓ : Loc nD τ sig) → Buf (Elt F) ℓ) (c : Dev nD) (k : Fin 4) :
    ((M1[oCh c (qF c) k].view.loc (c : Thread nD τ)
        ↦[M1[oCh c (qF c) k].view.set]{fullShare.right} target m c) : sProp 𝕄)
      ⊢ sendPay m c (24 + k.val) :=
  Entails.of_eq (sendPay_zd_eq m c k).symm

theorem land_zd (m : (ℓ : Loc nD τ sig) → Buf (Elt F) ℓ) (c : Dev nD) (k : Fin 4)
    (fd : Buf (Elt F) ((zb c : Thread nD τ).loc main_v1)) :
    ((M1[oCh (zb c) (qF c) k].view.loc (zb c : Thread nD τ)
        ↦[M1[oCh (zb c) (qF c) k].view.set]{fullShare}
          (M1[oCh (zb c) (qF c) k].view.write (Elt F) fd
            (M1[oCh c (qF c) k].view.read (Elt F) (target m c)) Finset.univ)) : sProp 𝕄)
      ⊢ recvPay m (zb c) (28 + k.val) := by
  have e : recvPay m (zb c) (28 + k.val)
      = pts (zb c) main_v1 (oCh (zb c) (qF c) k) fullShare (target m (zb c)) := by
    unfold recvPay; rw [recvRect_z, zb_zb]
  rw [e]
  exact Entails.of_eq (relay_z m c (qF c) k fd)

/-! ### The diagonal relays: the fourth quarter, half of it by each road -/

/-- Half j of a quarter, as one of the quarter's four chunks: the first two chunks. -/
local notation "LO(" j ")" => (⟨Fin.val j, Nat.lt_of_lt_of_le (Fin.isLt j) (by decide)⟩ : Fin 4)
/-- The last two chunks. -/
local notation "HI(" j ")" => (⟨2 + Fin.val j, by have := Fin.isLt j; omega⟩ : Fin 4)

theorem sendPay_ydg_eq (m : (ℓ : Loc nD τ sig) → Buf (Elt F) ℓ) (c : Dev nD) (j : Fin 2) :
    sendPay m c (32 + j.val)
      = ((M1[oCh c (qF (zb c)) LO(j)].view.loc (c : Thread nD τ)
          ↦[M1[oCh c (qF (zb c)) LO(j)].view.set]{fullShare} target m c) : sProp 𝕄) := by
  have hj := j.isLt
  unfold sendPay
  rw [if_neg (show ¬ 32 + j.val < 12 by omega), if_neg (show ¬ 32 + j.val < 20 by omega),
    if_neg (show ¬ 32 + j.val < 28 by omega), if_pos (show 32 + j.val < 34 by omega)]
  refine Eq.trans (congrArg (fun R => pts c main_v1 R fullShare (target m c))
    (oCh_eq (k' := LO(j)) rfl rfl (by show (32 + j.val - 32) % 4 = j.val; omega))) ?_
  exact (pts_oCh c (qF (zb c)) LO(j) fullShare (target m c)).symm

theorem back_ydg (m : (ℓ : Loc nD τ sig) → Buf (Elt F) ℓ) (c : Dev nD) (j : Fin 2) :
    ((M1[oCh c (qF (zb c)) LO(j)].view.loc (c : Thread nD τ)
        ↦[M1[oCh c (qF (zb c)) LO(j)].view.set]{fullShare} target m c) : sProp 𝕄)
      ⊢ sendPay m c (32 + j.val) :=
  Entails.of_eq (sendPay_ydg_eq m c j).symm

theorem land_ydg (m : (ℓ : Loc nD τ sig) → Buf (Elt F) ℓ) (c : Dev nD) (j : Fin 2)
    (fd : Buf (Elt F) ((yb c : Thread nD τ).loc main_v1)) :
    ((M1[oCh (yb c) (qF (zb c)) LO(j)].view.loc (yb c : Thread nD τ)
        ↦[M1[oCh (yb c) (qF (zb c)) LO(j)].view.set]{fullShare}
          (M1[oCh (yb c) (qF (zb c)) LO(j)].view.write (Elt F) fd
            (M1[oCh c (qF (zb c)) LO(j)].view.read (Elt F) (target m c)) Finset.univ)) : sProp 𝕄)
      ⊢ recvPay m (yb c) (34 + j.val) := by
  have e : recvPay m (yb c) (34 + j.val)
      = pts (yb c) main_v1 (oCh (yb c) (qF (zb c)) LO(j)) fullShare (target m (yb c)) := by
    unfold recvPay; rw [recvRect_yd, yb_yb]
  rw [e]
  exact Entails.of_eq (relay_y m c (qF (zb c)) LO(j) fd)

theorem sendPay_zdg_eq (m : (ℓ : Loc nD τ sig) → Buf (Elt F) ℓ) (c : Dev nD) (j : Fin 2) :
    sendPay m c (36 + j.val)
      = ((M1[oCh c (qF (yb c)) HI(j)].view.loc (c : Thread nD τ)
          ↦[M1[oCh c (qF (yb c)) HI(j)].view.set]{fullShare} target m c) : sProp 𝕄) := by
  have hj := j.isLt
  unfold sendPay
  rw [if_neg (show ¬ 36 + j.val < 12 by omega), if_neg (show ¬ 36 + j.val < 20 by omega),
    if_neg (show ¬ 36 + j.val < 28 by omega), if_neg (show ¬ 36 + j.val < 34 by omega)]
  refine Eq.trans (congrArg (fun R => pts c main_v1 R fullShare (target m c))
    (oCh_eq (k' := HI(j)) rfl rfl (by show (36 + j.val - 36 + 2) % 4 = 2 + j.val; omega))) ?_
  exact (pts_oCh c (qF (yb c)) HI(j) fullShare (target m c)).symm

theorem back_zdg (m : (ℓ : Loc nD τ sig) → Buf (Elt F) ℓ) (c : Dev nD) (j : Fin 2) :
    ((M1[oCh c (qF (yb c)) HI(j)].view.loc (c : Thread nD τ)
        ↦[M1[oCh c (qF (yb c)) HI(j)].view.set]{fullShare} target m c) : sProp 𝕄)
      ⊢ sendPay m c (36 + j.val) :=
  Entails.of_eq (sendPay_zdg_eq m c j).symm

theorem land_zdg (m : (ℓ : Loc nD τ sig) → Buf (Elt F) ℓ) (c : Dev nD) (j : Fin 2)
    (fd : Buf (Elt F) ((zb c : Thread nD τ).loc main_v1)) :
    ((M1[oCh (zb c) (qF (yb c)) HI(j)].view.loc (zb c : Thread nD τ)
        ↦[M1[oCh (zb c) (qF (yb c)) HI(j)].view.set]{fullShare}
          (M1[oCh (zb c) (qF (yb c)) HI(j)].view.write (Elt F) fd
            (M1[oCh c (qF (yb c)) HI(j)].view.read (Elt F) (target m c)) Finset.univ)) : sProp 𝕄)
      ⊢ recvPay m (zb c) (38 + j.val) := by
  have e : recvPay m (zb c) (38 + j.val)
      = pts (zb c) main_v1 (oCh (zb c) (qF (yb c)) HI(j)) fullShare (target m (zb c)) := by
    unfold recvPay; rw [recvRect_zd, zb_zb]
  rw [e]
  exact Entails.of_eq (relay_z m c (qF (yb c)) HI(j) fd)

/-! ## The relays, the destination named by the sender's rectangle

A chunk of the other half sits at the same rows on a device and on its buddies (they share x), so a relay's source and
destination are one rectangle, on two devices. -/

theorem oCh_congr_x {o o' : Dev nD} (h : o.val / 16 = o'.val / 16) (Q k : Fin 4) : oCh o Q k = oCh o' Q k := by
  unfold oCh
  exact Rect.unit_congr (by rw [h]) _ _

theorem relay_y' (m : (ℓ : Loc nD τ sig) → Buf (Elt F) ℓ) (c : Dev nD) (Q k : Fin 4)
    (fd : Buf (Elt F) ((yb c : Thread nD τ).loc main_v1)) :
    ((((View.whole main_v1).slice (oCh c Q k)).loc (yb c : Thread nD τ)
        ↦[((View.whole main_v1).slice (oCh c Q k)).set]{fullShare}
          (((View.whole main_v1).slice (oCh c Q k)).write (Elt F) fd
            (((View.whole main_v1).slice (oCh c Q k)).read (Elt F) (target m c)) Finset.univ)) : sProp 𝕄)
      = pts (yb c) main_v1 (oCh (yb c) Q k) fullShare (target m (yb c)) := by
  rw [oCh_congr_x (x_yb c) Q k]
  refine (land_congr c (yb c)
    (((View.whole main_v1).slice (oCh c Q k)) : View sig .tc .hbm S1024x1024 .f32)
    (((View.whole main_v1).slice (oCh c Q k)) : View sig .tc .hbm S1024x1024 .f32)
    fullShare (target m c) fd (target m (yb c)) ?_).trans
    (pts_slice_whole (yb c) main_v1 (oCh c Q k) fullShare (target m (yb c)))
  intro y
  refine (read_slice_whole main_v1 (oCh c Q k) (target m (yb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have s0 := oCh_emb0 c Q k y
  generalize (oCh c Q k).emb y = J at s0 ⊢
  exact target_yb m c J (by omega)

theorem relay_z' (m : (ℓ : Loc nD τ sig) → Buf (Elt F) ℓ) (c : Dev nD) (Q k : Fin 4)
    (fd : Buf (Elt F) ((zb c : Thread nD τ).loc main_v1)) :
    ((((View.whole main_v1).slice (oCh c Q k)).loc (zb c : Thread nD τ)
        ↦[((View.whole main_v1).slice (oCh c Q k)).set]{fullShare}
          (((View.whole main_v1).slice (oCh c Q k)).write (Elt F) fd
            (((View.whole main_v1).slice (oCh c Q k)).read (Elt F) (target m c)) Finset.univ)) : sProp 𝕄)
      = pts (zb c) main_v1 (oCh (zb c) Q k) fullShare (target m (zb c)) := by
  rw [oCh_congr_x (x_zb c) Q k]
  refine (land_congr c (zb c)
    (((View.whole main_v1).slice (oCh c Q k)) : View sig .tc .hbm S1024x1024 .f32)
    (((View.whole main_v1).slice (oCh c Q k)) : View sig .tc .hbm S1024x1024 .f32)
    fullShare (target m c) fd (target m (zb c)) ?_).trans
    (pts_slice_whole (zb c) main_v1 (oCh c Q k) fullShare (target m (zb c)))
  intro y
  refine (read_slice_whole main_v1 (oCh c Q k) (target m (zb c)) y).trans
    (Eq.trans ?_ (read_slice_whole main_v1 (oCh c Q k) (target m c) y).symm)
  have hk := k.isLt
  have hQ := Q.isLt
  have hc : c.val < 32 := c.isLt
  have hy0 : (y 0).val < 1024 := (y 0).isLt
  have s0 := oCh_emb0 c Q k y
  generalize (oCh c Q k).emb y = J at s0 ⊢
  exact target_zb m c J (by omega)

theorem land_yd' (m : (ℓ : Loc nD τ sig) → Buf (Elt F) ℓ) (c : Dev nD) (k : Fin 4)
    (fd : Buf (Elt F) ((yb c : Thread nD τ).loc main_v1)) :
    ((M1[oCh c (qF c) k].view.loc (yb c : Thread nD τ)
        ↦[M1[oCh c (qF c) k].view.set]{fullShare}
          (M1[oCh c (qF c) k].view.write (Elt F) fd
            (M1[oCh c (qF c) k].view.read (Elt F) (target m c)) Finset.univ)) : sProp 𝕄)
      ⊢ recvPay m (yb c) (20 + k.val) := by
  have e : recvPay m (yb c) (20 + k.val)
      = pts (yb c) main_v1 (oCh (yb c) (qF c) k) fullShare (target m (yb c)) := by
    unfold recvPay; rw [recvRect_y, yb_yb]
  rw [e]
  exact Entails.of_eq (relay_y' m c (qF c) k fd)

theorem land_zd' (m : (ℓ : Loc nD τ sig) → Buf (Elt F) ℓ) (c : Dev nD) (k : Fin 4)
    (fd : Buf (Elt F) ((zb c : Thread nD τ).loc main_v1)) :
    ((M1[oCh c (qF c) k].view.loc (zb c : Thread nD τ)
        ↦[M1[oCh c (qF c) k].view.set]{fullShare}
          (M1[oCh c (qF c) k].view.write (Elt F) fd
            (M1[oCh c (qF c) k].view.read (Elt F) (target m c)) Finset.univ)) : sProp 𝕄)
      ⊢ recvPay m (zb c) (28 + k.val) := by
  have e : recvPay m (zb c) (28 + k.val)
      = pts (zb c) main_v1 (oCh (zb c) (qF c) k) fullShare (target m (zb c)) := by
    unfold recvPay; rw [recvRect_z, zb_zb]
  rw [e]
  exact Entails.of_eq (relay_z' m c (qF c) k fd)

theorem land_ydg' (m : (ℓ : Loc nD τ sig) → Buf (Elt F) ℓ) (c : Dev nD) (j : Fin 2)
    (fd : Buf (Elt F) ((yb c : Thread nD τ).loc main_v1)) :
    ((M1[oCh c (qF (zb c)) LO(j)].view.loc (yb c : Thread nD τ)
        ↦[M1[oCh c (qF (zb c)) LO(j)].view.set]{fullShare}
          (M1[oCh c (qF (zb c)) LO(j)].view.write (Elt F) fd
            (M1[oCh c (qF (zb c)) LO(j)].view.read (Elt F) (target m c)) Finset.univ)) : sProp 𝕄)
      ⊢ recvPay m (yb c) (34 + j.val) := by
  have e : recvPay m (yb c) (34 + j.val)
      = pts (yb c) main_v1 (oCh (yb c) (qF (zb c)) LO(j)) fullShare (target m (yb c)) := by
    unfold recvPay; rw [recvRect_yd, yb_yb]
  rw [e]
  exact Entails.of_eq (relay_y' m c (qF (zb c)) LO(j) fd)

theorem land_zdg' (m : (ℓ : Loc nD τ sig) → Buf (Elt F) ℓ) (c : Dev nD) (j : Fin 2)
    (fd : Buf (Elt F) ((zb c : Thread nD τ).loc main_v1)) :
    ((M1[oCh c (qF (yb c)) HI(j)].view.loc (zb c : Thread nD τ)
        ↦[M1[oCh c (qF (yb c)) HI(j)].view.set]{fullShare}
          (M1[oCh c (qF (yb c)) HI(j)].view.write (Elt F) fd
            (M1[oCh c (qF (yb c)) HI(j)].view.read (Elt F) (target m c)) Finset.univ)) : sProp 𝕄)
      ⊢ recvPay m (zb c) (38 + j.val) := by
  have e : recvPay m (zb c) (38 + j.val)
      = pts (zb c) main_v1 (oCh (zb c) (qF (yb c)) HI(j)) fullShare (target m (zb c)) := by
    unfold recvPay; rw [recvRect_zd, zb_zb]
  rw [e]
  exact Entails.of_eq (relay_z' m c (qF (yb c)) HI(j) fd)

/-- info: 'Cert.KernelIdeal.AG.land_x' depends on axioms: [propext, Classical.choice, Quot.sound] -/
#guard_msgs in #print axioms land_x
/-- info: 'Cert.KernelIdeal.AG.back_x' depends on axioms: [propext, Classical.choice, Quot.sound] -/
#guard_msgs in #print axioms back_x
/-- info: 'Cert.KernelIdeal.AG.land_yd' depends on axioms: [propext, Classical.choice, Quot.sound] -/
#guard_msgs in #print axioms land_yd
/-- info: 'Cert.KernelIdeal.AG.back_yd' depends on axioms: [propext, Classical.choice, Quot.sound] -/
#guard_msgs in #print axioms back_yd
/-- info: 'Cert.KernelIdeal.AG.land_zd' depends on axioms: [propext, Classical.choice, Quot.sound] -/
#guard_msgs in #print axioms land_zd
/-- info: 'Cert.KernelIdeal.AG.back_zd' depends on axioms: [propext, Classical.choice, Quot.sound] -/
#guard_msgs in #print axioms back_zd
/-- info: 'Cert.KernelIdeal.AG.land_ydg' depends on axioms: [propext, Classical.choice, Quot.sound] -/
#guard_msgs in #print axioms land_ydg
/-- info: 'Cert.KernelIdeal.AG.back_ydg' depends on axioms: [propext, Classical.choice, Quot.sound] -/
#guard_msgs in #print axioms back_ydg
/-- info: 'Cert.KernelIdeal.AG.land_zdg' depends on axioms: [propext, Classical.choice, Quot.sound] -/
#guard_msgs in #print axioms land_zdg
/-- info: 'Cert.KernelIdeal.AG.back_zdg' depends on axioms: [propext, Classical.choice, Quot.sound] -/
#guard_msgs in #print axioms back_zdg

/-- info: 'Cert.KernelIdeal.AG.land_yd'' depends on axioms: [propext, Classical.choice, Quot.sound] -/
#guard_msgs in #print axioms land_yd'
/-- info: 'Cert.KernelIdeal.AG.land_zd'' depends on axioms: [propext, Classical.choice, Quot.sound] -/
#guard_msgs in #print axioms land_zd'
/-- info: 'Cert.KernelIdeal.AG.land_ydg'' depends on axioms: [propext, Classical.choice, Quot.sound] -/
#guard_msgs in #print axioms land_ydg'
/-- info: 'Cert.KernelIdeal.AG.land_zdg'' depends on axioms: [propext, Classical.choice, Quot.sound] -/
#guard_msgs in #print axioms land_zdg'

end Cert.KernelIdeal.AG

end
-- ==== Proof.KernelIdealAG.LandingSlot.lean ====
/-
  The copies through the staging slots: a load of a chunk of the argument into a slot, and a store of the slot into the
  device's own half of the result. A slot's view drops the slot's leading unit axis, so its element (y0, y1) is the
  buffer's element (slot, y0, y1).
-/
import proofs.«900686_g7700000000000687_dist_ag_v7x_xyz2x4x4_x_m16384_n1024_f32_1_alg».proof.Proof.KernelIdealAG.Landing

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option quotPrecheck false

/- A rectangle of the result array, of the argument array, and a slot of the staging buffer with its leading unit axis
   dropped. -/
local notation "M1[" r "]" =>
  ((Memref.whole main_v1 : Memref sig .tc .hbm S32768x1024 .f32).slice r (fun _ => rfl))
local notation "M0[" r "]" =>
  ((Memref.whole main_arg0 : Memref sig .tc .hbm S16384x1024 .f32).slice r (fun _ => rfl))
local notation "SLOT(" s ")" =>
  (((Memref.whole cc0_scratch0 : Memref sig .tc .vmem S4x2048x1024 .f32).slice (vSl s) (fun _ => rfl)).squeeze
    S2048x1024 squeezes_S1x2048x1024_S2048x1024)

/-- A share of a staging slot under the slot's view, the leading unit axis dropped, is that share of the slot's rows. -/
theorem pts_slot_view (c : Dev nD) (s : Fin 4) (q : PosShare TreeShare)
    (f : Buf (Elt F) ((c : Thread nD τ).loc cc0_scratch0)) :
    (((SLOT(s)).view.loc (c : Thread nD τ) ↦[(SLOT(s)).view.set]{q} f) : sProp 𝕄)
      = pts c cc0_scratch0 (vSl s) q f := by
  unfold pts
  exact congrArg (fun S => (((c : Thread nD τ).loc cc0_scratch0 ↦[S]{q} f) : sProp 𝕄))
    ((View.set_reshape _ _).trans (View.set_slice_whole cc0_scratch0 (vSl s)))

/-- Reading the staging buffer through a slot's view is reading it at the slot's elements. -/
theorem read_slot (s : Fin 4) (hh : S2048x1024.numel = (vSl s).shape.numel)
    (f : cc0_scratch0.ty.Contents (Elt F)) (y : S2048x1024.Idx) :
    (SLOT(s)).view.read (Elt F) f y = f ((vSl s).emb (Shape.reshapeEquiv hh y)) := rfl

/-- A load of chunk j of the argument into slot s (the slot chunk j goes through: j mod 4) leaves the slot holding the
    chunk, and hands back the share of the chunk's rows it read. -/
theorem land_ld (m : (ℓ : Loc nD τ sig) → Buf (Elt F) ℓ) (c : Dev nD) (j : Fin 8) (s : Fin 4)
    (hs : s.val = j.val % 4) (fd : Buf (Elt F) ((c : Thread nD τ).loc cc0_scratch0)) :
    (iprop(((SLOT(s)).view.loc (c : Thread nD τ)
        ↦[(SLOT(s)).view.set]{fullShare}
          ((SLOT(s)).view.write (Elt F) fd
            (M0[xLd j].view.read (Elt F) (xin m c)) Finset.univ))
      ∗ (M0[xLd j].view.loc (c : Thread nD τ)
        ↦[M0[xLd j].view.set]{fullShare.right} xin m c)) : sProp 𝕄)
      ⊢ ldPay m c j.val := by
  have hj := j.isLt
  have e8 : (⟨j.val % 8, Nat.mod_lt _ (by decide)⟩ : Fin 8) = j := Fin.ext (by show j.val % 8 = j.val; omega)
  have e4 : (⟨j.val % 4, Nat.mod_lt _ (by decide)⟩ : Fin 4) = s := Fin.ext hs.symm
  have hh : S2048x1024.numel = (vSl s).shape.numel := squeezes_S1x2048x1024_S2048x1024.numel_eq
  have e : ldPay m c j.val
      = iprop(pts c cc0_scratch0 (vSl s) fullShare (vfill m c j.val)
          ∗ pts c main_arg0 (xLd j) fullShare.right (xin m c)) := by
    unfold ldPay; rw [e8, e4]
  rw [e]
  refine sep_mono (Entails.of_eq ?_)
    (Entails.of_eq (pts_slice_whole c main_arg0 (xLd j) fullShare.right (xin m c)))
  refine (land_congr c c (M0[xLd j]).view (SLOT(s)).view fullShare (xin m c) fd (vfill m c j.val) ?_).trans
    (pts_slot_view c s fullShare (vfill m c j.val))
  intro y
  refine (read_slot s hh (vfill m c j.val) y).trans
    (Eq.trans ?_ (read_slice_whole main_arg0 (xLd j) (xin m c) y).symm)
  obtain ⟨v1, v2⟩ := vSl_emb s hh y
  have s0 := xLd_emb0 j y
  have s1 := xLd_emb1 j y
  have hy0 : (y 0).val < 2048 := (y 0).isLt
  generalize (vSl s).emb (Shape.reshapeEquiv hh y) = I at v1 v2 ⊢
  generalize (xLd j).emb y = J at s0 s1 ⊢
  unfold vfill
  refine (congrArg (xin m c) (idx2_eq_ix2 J _ _ ?_ ?_)).symm
  · show ((J : (⟨2, ![16384, 1024]⟩ : Shape).Idx) 0).val
      = (2048 * (j.val % 8) + ((I : (⟨3, ![4, 2048, 1024]⟩ : Shape).Idx) 1).val) % 16384
    omega
  · show ((J : (⟨2, ![16384, 1024]⟩ : Shape).Idx) 1).val = ((I : (⟨3, ![4, 2048, 1024]⟩ : Shape).Idx) 2).val
    omega

/-- A store of slot s holding chunk j of the argument leaves chunk j of the device's own half of the result holding
    what it must, and hands the slot back. -/
theorem land_st (m : (ℓ : Loc nD τ sig) → Buf (Elt F) ℓ) (c : Dev nD) (j : Fin 8) (s : Fin 4)
    (hs : s.val = j.val % 4) (fd : Buf (Elt F) ((c : Thread nD τ).loc main_v1)) :
    (iprop((M1[oOwn c j].view.loc (c : Thread nD τ)
        ↦[M1[oOwn c j].view.set]{fullShare}
          (M1[oOwn c j].view.write (Elt F) fd
            ((SLOT(s)).view.read (Elt F) (vfill m c j.val)) Finset.univ))
      ∗ ((SLOT(s)).view.loc (c : Thread nD τ)
        ↦[(SLOT(s)).view.set]{fullShare} vfill m c j.val)) : sProp 𝕄)
      ⊢ stPay m c j.val := by
  have hj := j.isLt
  have hc : c.val < 32 := c.isLt
  have e8 : (⟨j.val % 8, Nat.mod_lt _ (by decide)⟩ : Fin 8) = j := Fin.ext (by show j.val % 8 = j.val; omega)
  have e4 : (⟨j.val % 4, Nat.mod_lt _ (by decide)⟩ : Fin 4) = s := Fin.ext hs.symm
  have hh : S2048x1024.numel = (vSl s).shape.numel := squeezes_S1x2048x1024_S2048x1024.numel_eq
  have e : stPay m c j.val
      = iprop(pts c main_v1 (oOwn c j) fullShare (target m c)
          ∗ pts c cc0_scratch0 (vSl s) fullShare (vfill m c j.val)) := by
    unfold stPay; rw [e8, e4]
  rw [e]
  refine sep_mono (Entails.of_eq ?_)
    (Entails.of_eq (pts_slot_view c s fullShare (vfill m c j.val)))
  refine (land_congr c c (SLOT(s)).view (M1[oOwn c j]).view fullShare (vfill m c j.val) fd (target m c) ?_).trans
    (pts_slice_whole c main_v1 (oOwn c j) fullShare (target m c))
  intro y
  refine (read_slice_whole main_v1 (oOwn c j) (target m c) y).trans
    (Eq.trans ?_ (read_slot s hh (vfill m c j.val) y).symm)
  obtain ⟨v1, v2⟩ := vSl_emb s hh y
  have o0 := oOwn_emb0 c j y
  have o1 := oOwn_emb1 c j y
  have hy0 : (y 0).val < 2048 := (y 0).isLt
  generalize (vSl s).emb (Shape.reshapeEquiv hh y) = I at v1 v2 ⊢
  generalize (oOwn c j).emb y = J at o0 o1 ⊢
  refine (target_own m c J (by omega)).trans ?_
  unfold vfill
  refine congrArg (xin m c) (idx2_eq_ix2 _ _ _ ?_ ?_)
  · show ((J : (⟨2, ![32768, 1024]⟩ : Shape).Idx) 0).val % 16384
      = (2048 * (j.val % 8) + ((I : (⟨3, ![4, 2048, 1024]⟩ : Shape).Idx) 1).val) % 16384
    omega
  · show ((J : (⟨2, ![32768, 1024]⟩ : Shape).Idx) 1).val = ((I : (⟨3, ![4, 2048, 1024]⟩ : Shape).Idx) 2).val
    omega

/-- info: 'Cert.KernelIdeal.AG.land_ld' depends on axioms: [propext, Classical.choice, Quot.sound] -/
#guard_msgs in #print axioms land_ld
/-- info: 'Cert.KernelIdeal.AG.land_st' depends on axioms: [propext, Classical.choice, Quot.sound] -/
#guard_msgs in #print axioms land_st

end Cert.KernelIdeal.AG

end
-- ==== Proof.KernelIdealAG.PartsA.lean ====
/-
  The kernel body's parts 2 to 5, each against its specification: what the part needs of the device's resources, what
  it leaves, one rule per effect in program order.

  Part 2 pays the partner's and the y buddy's barrier cells. Part 3 pays the z buddy's, waits for the three units of
  the device's own barrier cell — with them come the rows of the neighbours' results it will copy into — and sends the
  first two chunks of its quarter of the argument to the partner. Part 4 sends the other two and starts the first
  load into the staging buffer. Part 5 starts the second load, waits for the first chunk from the partner to land and
  passes it on to the y buddy, keeping a half share of it for the z buddy.
-/
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.Landing
import proofs.«900686_g7700000000000687_dist_ag_v7x_xyz2x4x4_x_m16384_n1024_f32_1_alg».proof.Proof.KernelIdealAG.LandingSlot

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Two hand-overs, restated -/

/-- The partner's unit at the barrier hands over its four landing chunks: the first two named by their rows, the last two
    as they were handed. -/
private theorem a_barPay_0 (c : Dev nD) :
    (barPay (F := F) c 0 : sProp 𝕄)
      ⊢ iprop((∃ f, pts (px c) main_v1 (oCh (px c) (qF c) 0) fullShare f)
          ∗ (∃ f, pts (px c) main_v1 (oCh (px c) (qF c) 1) fullShare f)
          ∗ (∃ f, pts (px c) main_v1 (recvRect (px c) 14) fullShare f)
          ∗ (∃ f, pts (px c) main_v1 (recvRect (px c) 15) fullShare f)) := by
  rw [barPay_0]; unfold give
  simp only [recvRect_12, recvRect_13, qF_px]
  exact .rfl

/-- Chunk 0 of the device's quarter, landed from the partner, held as two half shares: one for each buddy's copy. -/
private theorem a_recv_12 (m : (ℓ : Loc nD τ sig) → Buf (Elt F) ℓ) (c : Dev nD) :
    (recvPay m c 12 : sProp 𝕄)
      ⊢ iprop(pts c main_v1 (oCh c (qF c) 0) fullShare.left (target m c)
          ∗ pts c main_v1 (oCh c (qF c) 0) fullShare.right (target m c)) := by
  unfold recvPay; rw [recvRect_12]
  exact (pts_half c main_v1 (oCh c (qF c) 0) (target m c)).1

variable (m : (ℓ : Loc nD τ sig) → Buf (Elt F) ℓ) (K : Dev nD × Fin 41 → ℕ)

/-! ## The parts -/

set_option maxHeartbeats 4000000 in
set_option maxRecDepth 65536 in
/-- Part 2: the units to the partner's and the y buddy's barrier cells. -/
theorem part2_spec (c : Dev nD) (v2 v5 v8 v18 v28 v29 v30 : BitVec 32) (W : Waits sig Unit)
    (Φ : (Σ' (v37 : BitVec 32) (v41 : BitVec 32) (v45 : BitVec 32) (v50 : BitVec 32) (v51 : Sems sig S_) (v65 : BitVec 32), BitVec 32) → sProp 𝕄) :
    iprop(records m K ∗ levAts L lv
        ∗ (ow c 0 W ∗ dutyTok ER (barCell (px c)) 0 0 ∗ barPay (px c) 0 ∗ dutyTok ER (barCell (yb c)) 0 1 ∗ barPay (yb c) 1)
        ∗ (∀ r, (⌜r.2.2.2.2.1 = SemArray.scalar (sig.barrier 0 rfl)⌝ ∗ ow c 2 W) -∗ Φ r))
      ⊢ wp frame (wpE (defs₀ (F := F)) 𝒱₀ c none) Set.univ (k0_part2 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v18 v28 v29 v30) Φ := by
  unfold k0_part2
  simp (config := { proj := false }) only [semSignalWord, semWaitWord, Prog.lift, Prog.bind_op, Prog.bind_ret, Prog.pure_eq_ret, dev1_eq c, dev2_eq c]
  iintro ⟨#HR, #Hlev, ⟨HO, Ht0, Hp0, Ht1, Hp1⟩, Hk⟩
  -- the unit to the partner's barrier cell
  iapply (step_signal m K c (px c) 0 _ rfl (sumT ((owedList c).drop 1)) W) $$ [HO Ht0 Hp0]
  · isplitr; · iexact HR
    hand [HO, Ht0, Hp0]
  iintro HO
  -- the unit to the y buddy's
  iapply (step_signal m K c (yb c) 1 _ rfl (sumT ((owedList c).drop 2)) W) $$ [HO Ht1 Hp1]
  · isplitr; · iexact HR
    hand [HO, Ht1, Hp1]
  iintro HO
  rw [wp_ret]; imodintro
  iapply Hk
  isplitr
  · ipureintro; rfl
  iexact HO

set_option maxHeartbeats 4000000 in
set_option maxRecDepth 65536 in
/-- Part 3: the unit to the z buddy's barrier cell, the wait for the three neighbours' units, and the copies of chunks 0 and 1
    of the device's quarter of its argument into the partner's result. -/
theorem part3_spec (c : Dev nD) (v5 v8 v29 v31 v32 v37 v65 v66 : BitVec 32) (W : Waits sig Unit) (Φ : PUnit → sProp 𝕄) :
    iprop(records m K ∗ levAts L lv
        ∗ (ow c 2 W ∗ dutyTok ER (barCell (zb c)) 0 2 ∗ barPay (zb c) 2 ∗ cred (tallyAt (barCell c) () 3) ∗ atPos ER (barCell c) 0 ∅ 0
            ∗ pts c main_arg0 (xCh (qF c) 0) fullShare.left (xin m c) ∗ pts c main_arg0 (xCh (qF c) 1) fullShare.left (xin m c)
            ∗ tok c 8 0 ∗ tok c 9 0 ∗ tok (px c) 12 0 ∗ tok (px c) 13 0)
        ∗ ((∃ W', ow c 5 W' ∗ atPos ER (barCell c) 1 ∅ 0 ∗ crd c 8 N ∗ crd c 9 N
            ∗ give (px c) 14 ∗ give (px c) 15 ∗ barPay c 1 ∗ barPay c 2) -∗ Φ ⟨⟩))
      ⊢ wp frame (wpE (defs₀ (F := F)) 𝒱₀ c none) Set.univ (k0_part3 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v5 v8 v29 v31 v32 v37 (SemArray.scalar (sig.barrier 0 rfl)) v65 v66) Φ := by
  unfold k0_part3
  simp (config := { proj := false }) only [semSignalWord, semWaitWord, Prog.lift, Prog.bind_op, Prog.bind_ret, Prog.pure_eq_ret, dev3_eq c,
    sem_s3_0, sem_s3_1, sem_s4_0, sem_s4_1, slice_off1_0, slice_off1_1, slice_off2_0, slice_off2_1]
  unfold give
  iintro ⟨#HR, #Hlev, ⟨HO, Ht2, Hp2, Hcb, Hab, Hx0, Hx1, Hs8, Hs9, Hr12, Hr13⟩, Hk⟩
  -- the unit to the z buddy's barrier cell
  iapply (step_signal m K c (zb c) 2 _ rfl (sumT ((owedList c).drop 3)) W) $$ [HO Ht2 Hp2]
  · isplitr; · iexact HR
    hand [HO, Ht2, Hp2]
  iintro HO
  -- the wait for the three neighbours' units: their landing rows come with it
  iapply (step_barwait m K c _ rfl (sumT ((owedList c).drop 3)) W) $$ [Hcb HO Hab]
  · isplitr; · iexact HR
    isplitl [Hcb]; · iexact Hcb
    isplitl [HO]; · iexact HO
    isplitr; · iapply (mayWait_bar c); iexact Hlev
    iexact Hab
  iintro ⟨HO, Hab, Hb0, Hb1, Hb2⟩
  ihave Hb0' := (a_barPay_0 c) $$ Hb0
  icases Hb0' with ⟨⟨%f12, Hd12⟩, ⟨%f13, Hd13⟩, Hg14, Hg15⟩
  -- chunk 0 of the device's quarter of its argument, to the partner
  iapply (step_send0' m K c (px c) _ (dev4_eq c) 8 12 (by decide) (by decide) (by decide) (by decide) (qF c) 0 (px c) (qF c) 0
      fullShare.left (xin m c) f12 (sumT ((owedList c).drop 4)) (insert (SemLoc.reg barS, ()) W)
      (Entails.of_eq (sendPay_8 m c).symm) (land_x m c 0 f12)) $$ [Hx0 Hd12 HO Hs8 Hr12]
  · isplitr; · iexact HR
    hand [Hx0, Hd12, HO, Hs8, Hr12]
  iintro ⟨Hc8, HO⟩
  -- chunk 1
  iapply (step_send0' m K c (px c) _ (dev5_eq c) 9 13 (by decide) (by decide) (by decide) (by decide) (qF c) 1 (px c) (qF c) 1
      fullShare.left (xin m c) f13 (sumT ((owedList c).drop 5)) (insert (SemLoc.reg barS, ()) W)
      (Entails.of_eq (sendPay_9 m c).symm) (land_x m c 1 f13)) $$ [Hx1 Hd13 HO Hs9 Hr13]
  · isplitr; · iexact HR
    hand [Hx1, Hd13, HO, Hs9, Hr13]
  iintro ⟨Hc9, HO⟩
  rw [wp_ret]; imodintro
  iapply Hk
  iexists _
  hand [HO, Hab, Hc8, Hc9, Hg14, Hg15, Hb1, Hb2]

set_option maxHeartbeats 4000000 in
set_option maxRecDepth 65536 in
/-- Part 4: the copies of chunks 2 and 3 of the quarter into the partner's result, and the load of chunk 0 of the argument into
    staging slot 0. -/
theorem part4_spec (c : Dev nD) (v5 v8 v29 v32 v37 : BitVec 32) (W : Waits sig Unit) (fv : Buf (Elt F) ((c : Thread nD τ).loc cc0_scratch0)) (Φ : PUnit → sProp 𝕄) :
    iprop(records m K ∗ levAts L lv
        ∗ (ow c 5 W ∗ pts c main_arg0 (xCh (qF c) 2) fullShare.left (xin m c) ∗ pts c main_arg0 (xCh (qF c) 3) fullShare.left (xin m c)
            ∗ give (px c) 14 ∗ give (px c) 15 ∗ tok c 10 0 ∗ tok c 11 0 ∗ tok (px c) 14 0 ∗ tok (px c) 15 0
            ∗ pts c main_arg0 (xLd 0) fullShare.right (xin m c) ∗ pts c cc0_scratch0 (vSl 0) fullShare fv ∗ tok c 0 0)
        ∗ ((∃ W', ow c 7 W' ∗ crd c 10 N ∗ crd c 11 N ∗ crd c 0 NL) -∗ Φ ⟨⟩))
      ⊢ wp frame (wpE (defs₀ (F := F)) 𝒱₀ c none) Set.univ (k0_part4 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v5 v8 v29 v32 v37) Φ := by
  unfold k0_part4
  simp (config := { proj := false }) only [semSignalWord, semWaitWord, Prog.lift, Prog.bind_op, Prog.bind_ret, Prog.pure_eq_ret, sem_s3_2, sem_s3_3, sem_s4_2, sem_s4_3, sem_s1_0, slice_off1_2, slice_off1_3, slice_off2_2, slice_off2_3,
    slice_x 0 (off := ![0, 0]) rfl, slice_v 0 (off := ![0, 0, 0]) rfl]
  unfold give
  simp only [recvRect_14, recvRect_15, qF_px]
  iintro ⟨#HR, #Hlev, ⟨HO, Hx2, Hx3, ⟨%f14, Hd14⟩, ⟨%f15, Hd15⟩, Hs10, Hs11, Hr14, Hr15, Hl0, Hv0, Ht0⟩, Hk⟩
  -- chunk 2 of the device's quarter of its argument, to the partner
  iapply (step_send0' m K c (px c) _ (dev6_eq c) 10 14 (by decide) (by decide) (by decide) (by decide) (qF c) 2 (px c) (qF c) 2
      fullShare.left (xin m c) f14 (sumT ((owedList c).drop 6)) W
      (Entails.of_eq (sendPay_10 m c).symm) (land_x m c 2 f14)) $$ [Hx2 Hd14 HO Hs10 Hr14]
  · isplitr; · iexact HR
    hand [Hx2, Hd14, HO, Hs10, Hr14]
  iintro ⟨Hc10, HO⟩
  -- chunk 3
  iapply (step_send0' m K c (px c) _ (dev7_eq c) 11 15 (by decide) (by decide) (by decide) (by decide) (qF c) 3 (px c) (qF c) 3
      fullShare.left (xin m c) f15 (sumT ((owedList c).drop 7)) W
      (Entails.of_eq (sendPay_11 m c).symm) (land_x m c 3 f15)) $$ [Hx3 Hd15 HO Hs11 Hr15]
  · isplitr; · iexact HR
    hand [Hx3, Hd15, HO, Hs11, Hr15]
  iintro ⟨Hc11, HO⟩
  -- the load of chunk 0 of the argument into slot 0
  iapply (step_load m K c 0 0 0 rfl rfl fv (land_ld m c 0 0 rfl fv)) $$ [Hl0 Hv0 Ht0]
  · isplitr; · iexact HR
    isplitr; · iapply (reached_dma m K c 0 (by decide)); iexact HR
    hand [Hl0, Hv0, Ht0]
  iintro Hc0
  rw [wp_ret]; imodintro
  iapply Hk
  iexists _
  hand [HO, Hc10, Hc11, Hc0]

set_option maxHeartbeats 4000000 in
set_option maxRecDepth 65536 in
/-- Part 5: the load of chunk 1 into slot 1, the wait for chunk 0 of the device's quarter to land from the partner, and its copy
    on to the y buddy at a half share (the other half is kept for the z buddy). -/
theorem part5_spec (c : Dev nD) (v2 v5 v8 v29 v30 v34 v37 : BitVec 32) (W : Waits sig Unit) (fv : Buf (Elt F) ((c : Thread nD τ).loc cc0_scratch0))
    (Φ : (Σ' (v161 : BitVec 32), BitVec 32) → sProp 𝕄) :
    iprop(records m K ∗ levAts L lv
        ∗ (ow c 7 W ∗ pts c main_arg0 (xLd 1) fullShare.right (xin m c) ∗ pts c cc0_scratch0 (vSl 1) fullShare fv ∗ tok c 1 0
            ∗ crd c 12 N ∗ pos c 12 0 ∗ give (yb c) 20 ∗ tok c 16 0 ∗ tok (yb c) 20 0)
        ∗ (∀ r, (∃ W', ow c 8 W' ∗ crd c 1 NL ∗ pos c 12 1 ∗ crd c 16 N ∗ pts c main_v1 (oCh c (qF c) 0) fullShare.right (target m c)) -∗ Φ r))
      ⊢ wp frame (wpE (defs₀ (F := F)) 𝒱₀ c none) Set.univ (k0_part5 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v30 v34 v37) Φ := by
  unfold k0_part5
  simp (config := { proj := false }) only [semSignalWord, semWaitWord, Prog.lift, Prog.bind_op, Prog.bind_ret, Prog.pure_eq_ret, sem_s1_1, sem_s4_0, sem_s5_0, sem_s6_0, slice_off3_0,
    slice_x 1 (off := ![2048, 0]) rfl, slice_v 1 (off := ![1, 0, 0]) rfl]
  unfold give
  simp only [recvRect_20, yb_yb, oCh_yb]
  iintro ⟨#HR, #Hlev, ⟨HO, Hl1, Hv1, Ht1, Hc12, Hp12, ⟨%f20, Hd20⟩, Hs16, Hr20⟩, Hk⟩
  -- the load of chunk 1 of the argument into slot 1
  iapply (step_load m K c 1 1 0 rfl rfl fv (land_ld m c 1 1 rfl fv)) $$ [Hl1 Hv1 Ht1]
  · isplitr; · iexact HR
    isplitr; · iapply (reached_dma m K c 1 (by decide)); iexact HR
    hand [Hl1, Hv1, Ht1]
  iintro Hc1
  -- the wait for chunk 0 of the device's quarter to land from the partner
  iapply (step_rwait m K c 12 (by decide) (by decide) (sumT ((owedList c).drop 7)) W (credit_N _)) $$ [Hc12 HO Hp12]
  · isplitr; · iexact HR
    isplitl [Hc12]; · iexact Hc12
    isplitl [HO]; · iexact HO
    isplitr; · iapply (mayWait_xrecv c 0); iexact Hlev
    iexact Hp12
  iintro ⟨HO, Hp12, Hpay⟩
  -- a half share of the landed rows for the copy to the y buddy, the other half kept for the copy to the z buddy
  ihave Hh := (a_recv_12 m c) $$ Hpay
  icases Hh with ⟨HL, HRt⟩
  iapply (step_send1' m K c (yb c) _ (dev8_eq c) 16 20 (by decide) (by decide) (by decide) (by decide) c (qF c) 0 c (qF c) 0
      fullShare.left (target m c) f20 (sumT ((owedList c).drop 8)) (insert (SemLoc.dma (ds 12), ()) W)
      (Entails.of_eq (sendPay_16 m c).symm) (land_yd' m c 0 f20)) $$ [HL Hd20 HO Hs16 Hr20]
  · isplitr; · iexact HR
    hand [HL, Hd20, HO, Hs16, Hr20]
  iintro ⟨Hc16, HO⟩
  rw [wp_ret]; imodintro
  iapply Hk
  iexists _
  hand [HO, Hc1, Hp12, Hc16, HRt]

/-- info: 'Cert.KernelIdeal.AG.part2_spec' depends on axioms: [propext, Classical.choice, Quot.sound] -/
#guard_msgs in #print axioms part2_spec
/-- info: 'Cert.KernelIdeal.AG.part3_spec' depends on axioms: [propext, Classical.choice, Quot.sound] -/
#guard_msgs in #print axioms part3_spec
/-- info: 'Cert.KernelIdeal.AG.part4_spec' depends on axioms: [propext, Classical.choice, Quot.sound] -/
#guard_msgs in #print axioms part4_spec
/-- info: 'Cert.KernelIdeal.AG.part5_spec' depends on axioms: [propext, Classical.choice, Quot.sound] -/
#guard_msgs in #print axioms part5_spec

end Cert.KernelIdeal.AG

end
-- ==== Proof.KernelIdealAG.PartsB.lean ====
/-
  Parts 6 to 9 of the body: the device passes chunks 0, 1 and 2 of the quarter it fetched from its partner on to its
  two buddies, and between these moves its own block through the staging slots.

  Each part is a short run of effects. A chunk that has landed from the partner is held whole; the copy to the y buddy
  reads it at the left half share and the copy to the z buddy at the right half share, each paying the buddy's receive
  cell with the rows it wrote there. A load is waited for at its slot's cell, the slot is then stored into the device's
  own half of the result, and the next load but one is started into the slot two ahead.
-/
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.Landing
import proofs.«900686_g7700000000000687_dist_ag_v7x_xyz2x4x4_x_m16384_n1024_f32_1_alg».proof.Proof.KernelIdealAG.LandingSlot

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 4000000 in
set_option maxRecDepth 65536 in
/-- Part 6: chunk 0 of the device's quarter goes on to the z buddy; the first load is waited for, its slot stored into the
    device's own half, and the third load started. -/
theorem part6_spec (c : Dev nD) (v29 v31 v32 v34 v37 v161 v162 : BitVec 32) (W : Waits sig Unit)
    (fo : Buf (Elt F) ((c : Thread nD τ).loc main_v1)) (fv : Buf (Elt F) ((c : Thread nD τ).loc cc0_scratch0))
    (Φ : (Σ' (v191 : BitVec 32), BitVec 32) → sProp 𝕄) :
    iprop(records m K ∗ levAts L lv
        ∗ (ow c 8 W ∗ pts c main_v1 (oCh c (qF c) 0) fullShare.right (target m c) ∗ give (zb c) 28 ∗ tok c 24 0 ∗ tok (zb c) 28 0
            ∗ crd c 0 NL ∗ pos c 0 0 ∗ pts c main_v1 (oOwn c 0) fullShare fo ∗ tok c 4 0
            ∗ pts c main_arg0 (xLd 2) fullShare.right (xin m c) ∗ pts c cc0_scratch0 (vSl 2) fullShare fv ∗ tok c 2 0)
        ∗ (∀ r, (∃ W', ow c 9 W' ∗ crd c 24 N ∗ pos c 0 1 ∗ rch c 0 1 ∗ pts c main_arg0 (xLd 0) fullShare.right (xin m c) ∗ crd c 4 NS ∗ crd c 2 NL) -∗ Φ r))
      ⊢ wp frame (wpE (defs₀ (F := F)) 𝒱₀ c none) Set.univ (k0_part6 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v29 v31 v32 v34 v37 v161 v162) Φ := by
  unfold k0_part6
  simp (config := { proj := false }) only [semSignalWord, semWaitWord, Prog.lift, Prog.bind_op, Prog.bind_ret, Prog.pure_eq_ret,
    sem_s7_0, sem_s8_0, sem_s1_0, sem_s2_0, sem_s1_2, slice_off3_0, slice_off4_0,
    slice_x (0 : Fin 8) (off := ![0, 0]) rfl, slice_x (2 : Fin 8) (off := ![4096, 0]) rfl,
    slice_v (0 : Fin 4) (off := ![0, 0, 0]) rfl, slice_v (2 : Fin 4) (off := ![2, 0, 0]) rfl]
  have hst : 4 + (0 : Fin 4).val < 40 := by decide
  have hld : (2 : Fin 4).val < 40 := by decide
  iintro ⟨#HR, #Hlev, ⟨HO, Hp, Hgz, Ht24, Ht28, Hc0, Hat0, Hown, Ht4, Hx2, Hv2, Ht2⟩, Hk⟩
  unfold give
  simp only [recvRect_28, zb_zb, oCh_zb]
  icases Hgz with ⟨%fz, Hdz⟩
  -- to the z buddy, the right half share
  iapply (step_send1' m K c (zb c) _ (dev9_eq c) 24 28 (by decide) (by decide) (by unfold isSend; omega) (by unfold isRecv; omega)
      c (qF c) 0 c (qF c) 0 fullShare.right (target m c) fz (sumT ((owedList c).drop 9)) _
      (Entails.of_eq (sendPay_24 m c).symm) (land_zd' m c 0 fz)) $$ [Hp Hdz HO Ht24 Ht28]
  · isplitr; · iexact HR
    hand [Hp, Hdz, HO, Ht24, Ht28]
  iintro ⟨Hc24, HO⟩
  -- the first load has landed in its slot
  iapply (step_lwait m K c 0 (by decide) 0 (by decide) (dstw := slot 0) _ _ rfl) $$ [Hc0 HO Hat0]
  · isplitr; · iexact HR
    isplitl [Hc0]; · iexact Hc0
    isplitl [HO]; · iexact HO
    isplitr; · iapply (mayWait_local c 0 (by decide) 9); iexact Hlev
    iexact Hat0
  iintro ⟨HO, Hat0, Hr0, Hld⟩
  unfold ldPay
  icases Hld with ⟨Hslot, Hx0⟩
  -- the slot goes into chunk 0 of the device's own half
  iapply (step_store m K c 0 0 0 rfl rfl fo (land_st m c 0 0 rfl fo)) $$ [Hslot Hown Ht4]
  · isplitr; · iexact HR
    isplitr; · iapply (reached_dma m K c (4 + (0 : Fin 4).val) hst) $$ HR
    hand [Hslot, Hown, Ht4]
  iintro Hc4
  -- the third load starts
  iapply (step_load m K c 2 2 0 rfl rfl fv (land_ld m c 2 2 rfl fv)) $$ [Hx2 Hv2 Ht2]
  · isplitr; · iexact HR
    isplitr; · iapply (reached_dma m K c (2 : Fin 4).val hld) $$ HR
    hand [Hx2, Hv2, Ht2]
  iintro Hc2
  rw [wp_ret]
  imodintro
  iapply Hk
  iexists _
  hand [HO, Hc24, Hat0, Hr0, Hx0, Hc4, Hc2]

set_option maxHeartbeats 4000000 in
set_option maxRecDepth 65536 in
/-- Part 7: chunk 1 of the device's quarter lands from the partner and is passed on to both buddies, a half share each. -/
theorem part7_spec (c : Dev nD) (v2 v5 v8 v30 v31 v191 c4 : BitVec 32) (W : Waits sig Unit) (Φ : PUnit → sProp 𝕄) :
    iprop(records m K ∗ levAts L lv
        ∗ (ow c 9 W ∗ crd c 13 N ∗ pos c 13 0 ∗ give (yb c) 21 ∗ give (zb c) 29 ∗ tok c 17 0 ∗ tok (yb c) 21 0 ∗ tok c 25 0 ∗ tok (zb c) 29 0)
        ∗ ((∃ W', ow c 11 W' ∗ pos c 13 1 ∗ crd c 17 N ∗ crd c 25 N) -∗ Φ ⟨⟩))
      ⊢ wp frame (wpE (defs₀ (F := F)) 𝒱₀ c none) Set.univ (k0_part7 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v191 c4) Φ := by
  unfold k0_part7
  simp (config := { proj := false }) only [semSignalWord, semWaitWord, Prog.lift, Prog.bind_op, Prog.bind_ret, Prog.pure_eq_ret,
    sem_s4_1, sem_s5_1, sem_s6_1, sem_s7_1, sem_s8_1, slice_off3_1]
  iintro ⟨#HR, #Hlev, ⟨HO, Hcr, Hat, Hgy, Hgz, Ht17, Ht21, Ht25, Ht29⟩, Hk⟩
  -- the landing from the partner
  iapply (step_rwait m K c 13 (by decide) (by unfold isRecv; omega) (dstw := M1.slice (oCh c (qF c) 1) (fun _ => rfl)) _ _ rfl) $$ [Hcr HO Hat]
  · isplitr; · iexact HR
    isplitl [Hcr]; · iexact Hcr
    isplitl [HO]; · iexact HO
    isplitr; · iapply (mayWait_xrecv c 1); iexact Hlev
    iexact Hat
  iintro ⟨HO, Hat, Hpay⟩
  unfold recvPay give
  simp only [recvRect_13 c, recvRect_21, recvRect_29, yb_yb, zb_zb, oCh_yb, oCh_zb]
  icases (pts_half c main_v1 (oCh c (qF c) 1) (target m c)).1 $$ Hpay with ⟨HL, HRt⟩
  icases Hgy with ⟨%fy, Hdy⟩
  icases Hgz with ⟨%fz, Hdz⟩
  -- to the y buddy, the left half share
  iapply (step_send1' m K c (yb c) _ (dev10_eq c) 17 21 (by decide) (by decide) (by unfold isSend; omega) (by unfold isRecv; omega)
      c (qF c) 1 c (qF c) 1 fullShare.left (target m c) fy (sumT ((owedList c).drop 10)) _
      (Entails.of_eq (sendPay_17 m c).symm) (land_yd' m c 1 fy)) $$ [HL Hdy HO Ht17 Ht21]
  · isplitr; · iexact HR
    hand [HL, Hdy, HO, Ht17, Ht21]
  iintro ⟨Hc17, HO⟩
  -- to the z buddy, the right half share
  iapply (step_send1' m K c (zb c) _ (dev11_eq c) 25 29 (by decide) (by decide) (by unfold isSend; omega) (by unfold isRecv; omega)
      c (qF c) 1 c (qF c) 1 fullShare.right (target m c) fz (sumT ((owedList c).drop 11)) _
      (Entails.of_eq (sendPay_25 m c).symm) (land_zd' m c 1 fz)) $$ [HRt Hdz HO Ht25 Ht29]
  · isplitr; · iexact HR
    hand [HRt, Hdz, HO, Ht25, Ht29]
  iintro ⟨Hc25, HO⟩
  rw [wp_ret]
  imodintro
  iapply Hk
  iexists _
  hand [HO, Hat, Hc17, Hc25]

set_option maxHeartbeats 4000000 in
set_option maxRecDepth 65536 in
/-- Part 8: the second load is waited for, its slot stored into the device's own half, the fourth load started; then
    chunk 2 of the device's quarter lands from the partner. -/
theorem part8_spec (c : Dev nD) (v2 v5 v8 v29 v32 v34 v37 : BitVec 32) (W : Waits sig Unit)
    (fo : Buf (Elt F) ((c : Thread nD τ).loc main_v1)) (fv : Buf (Elt F) ((c : Thread nD τ).loc cc0_scratch0))
    (Φ : (Σ' (v252 : BitVec 32), BitVec 32) → sProp 𝕄) :
    iprop(records m K ∗ levAts L lv
        ∗ (ow c 11 W ∗ crd c 1 NL ∗ pos c 1 0 ∗ pts c main_v1 (oOwn c 1) fullShare fo ∗ tok c 5 0
            ∗ pts c main_arg0 (xLd 3) fullShare.right (xin m c) ∗ pts c cc0_scratch0 (vSl 3) fullShare fv ∗ tok c 3 0 ∗ crd c 14 N ∗ pos c 14 0)
        ∗ (∀ r, (∃ W', ow c 11 W' ∗ pos c 1 1 ∗ rch c 1 1 ∗ pts c main_arg0 (xLd 1) fullShare.right (xin m c) ∗ crd c 5 NS ∗ crd c 3 NL
            ∗ pos c 14 1 ∗ pts c main_v1 (oCh c (qF c) 2) fullShare (target m c)) -∗ Φ r))
      ⊢ wp frame (wpE (defs₀ (F := F)) 𝒱₀ c none) Set.univ (k0_part8 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v32 v34 v37) Φ := by
  unfold k0_part8
  simp (config := { proj := false }) only [semSignalWord, semWaitWord, Prog.lift, Prog.bind_op, Prog.bind_ret, Prog.pure_eq_ret,
    sem_s1_1, sem_s2_1, sem_s1_3, sem_s4_2, slice_off4_1, slice_off3_2,
    slice_x (1 : Fin 8) (off := ![2048, 0]) rfl, slice_x (3 : Fin 8) (off := ![6144, 0]) rfl,
    slice_v (1 : Fin 4) (off := ![1, 0, 0]) rfl, slice_v (3 : Fin 4) (off := ![3, 0, 0]) rfl]
  have hst : 4 + (1 : Fin 4).val < 40 := by decide
  have hld : (3 : Fin 4).val < 40 := by decide
  iintro ⟨#HR, #Hlev, ⟨HO, Hc1, Hat1, Hown, Ht5, Hx3, Hv3, Ht3, Hc14, Hat14⟩, Hk⟩
  -- the second load has landed in its slot
  iapply (step_lwait m K c 1 (by decide) 0 (by decide) (dstw := slot 1) _ _ rfl) $$ [Hc1 HO Hat1]
  · isplitr; · iexact HR
    isplitl [Hc1]; · iexact Hc1
    isplitl [HO]; · iexact HO
    isplitr; · iapply (mayWait_local c 1 (by decide) 11); iexact Hlev
    iexact Hat1
  iintro ⟨HO, Hat1, Hr1, Hld⟩
  unfold ldPay
  icases Hld with ⟨Hslot, Hx1⟩
  -- the slot goes into chunk 1 of the device's own half
  iapply (step_store m K c 1 1 0 rfl rfl fo (land_st m c 1 1 rfl fo)) $$ [Hslot Hown Ht5]
  · isplitr; · iexact HR
    isplitr; · iapply (reached_dma m K c (4 + (1 : Fin 4).val) hst) $$ HR
    hand [Hslot, Hown, Ht5]
  iintro Hc5
  -- the fourth load starts
  iapply (step_load m K c 3 3 0 rfl rfl fv (land_ld m c 3 3 rfl fv)) $$ [Hx3 Hv3 Ht3]
  · isplitr; · iexact HR
    isplitr; · iapply (reached_dma m K c (3 : Fin 4).val hld) $$ HR
    hand [Hx3, Hv3, Ht3]
  iintro Hc3
  -- the landing from the partner
  iapply (step_rwait m K c 14 (by decide) (by unfold isRecv; omega) (dstw := M1.slice (oCh c (qF c) 2) (fun _ => rfl)) _ _ rfl) $$ [Hc14 HO Hat14]
  · isplitr; · iexact HR
    isplitl [Hc14]; · iexact Hc14
    isplitl [HO]; · iexact HO
    isplitr; · iapply (mayWait_xrecv c 2); iexact Hlev
    iexact Hat14
  iintro ⟨HO, Hat14, Hpay⟩
  unfold recvPay
  simp only [recvRect_14 c]
  rw [wp_ret]
  imodintro
  iapply Hk
  iexists _
  hand [HO, Hat1, Hr1, Hx1, Hc5, Hc3, Hat14, Hpay]

set_option maxHeartbeats 4000000 in
set_option maxRecDepth 65536 in
/-- Part 9: chunk 2 of the device's quarter is passed on to both buddies; the third load and the first store are waited for. -/
theorem part9_spec (c : Dev nD) (v2 v5 v8 v30 v31 v252 c0 : BitVec 32) (W : Waits sig Unit) (Φ : PUnit → sProp 𝕄) :
    iprop(records m K ∗ levAts L lv
        ∗ (ow c 11 W ∗ pts c main_v1 (oCh c (qF c) 2) fullShare (target m c) ∗ give (yb c) 22 ∗ give (zb c) 30
            ∗ tok c 18 0 ∗ tok (yb c) 22 0 ∗ tok c 26 0 ∗ tok (zb c) 30 0 ∗ crd c 2 NL ∗ pos c 2 0 ∗ crd c 4 NS ∗ pos c 4 0)
        ∗ ((∃ W', ow c 13 W' ∗ crd c 18 N ∗ crd c 26 N ∗ pos c 2 1 ∗ rch c 2 1 ∗ ldPay m c 2 ∗ pos c 4 1 ∗ rch c 4 1 ∗ stPay m c 0) -∗ Φ ⟨⟩))
      ⊢ wp frame (wpE (defs₀ (F := F)) 𝒱₀ c none) Set.univ (k0_part9 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v252 c0) Φ := by
  unfold k0_part9
  simp (config := { proj := false }) only [semSignalWord, semWaitWord, Prog.lift, Prog.bind_op, Prog.bind_ret, Prog.pure_eq_ret,
    sem_s5_2, sem_s6_2, sem_s7_2, sem_s8_2, sem_s1_2, sem_s2_0, slice_off3_2, slice_off4_0,
    slice_v (2 : Fin 4) (off := ![2, 0, 0]) rfl]
  iintro ⟨#HR, #Hlev, ⟨HO, Hp, Hgy, Hgz, Ht18, Ht22, Ht26, Ht30, Hc2, Hat2, Hc4, Hat4⟩, Hk⟩
  unfold give
  simp only [recvRect_22, recvRect_30, yb_yb, zb_zb, oCh_yb, oCh_zb]
  icases (pts_half c main_v1 (oCh c (qF c) 2) (target m c)).1 $$ Hp with ⟨HL, HRt⟩
  icases Hgy with ⟨%fy, Hdy⟩
  icases Hgz with ⟨%fz, Hdz⟩
  -- to the y buddy, the left half share
  iapply (step_send1' m K c (yb c) _ (dev12_eq c) 18 22 (by decide) (by decide) (by unfold isSend; omega) (by unfold isRecv; omega)
      c (qF c) 2 c (qF c) 2 fullShare.left (target m c) fy (sumT ((owedList c).drop 12)) _
      (Entails.of_eq (sendPay_18 m c).symm) (land_yd' m c 2 fy)) $$ [HL Hdy HO Ht18 Ht22]
  · isplitr; · iexact HR
    hand [HL, Hdy, HO, Ht18, Ht22]
  iintro ⟨Hc18, HO⟩
  -- to the z buddy, the right half share
  iapply (step_send1' m K c (zb c) _ (dev13_eq c) 26 30 (by decide) (by decide) (by unfold isSend; omega) (by unfold isRecv; omega)
      c (qF c) 2 c (qF c) 2 fullShare.right (target m c) fz (sumT ((owedList c).drop 13)) _
      (Entails.of_eq (sendPay_26 m c).symm) (land_zd' m c 2 fz)) $$ [HRt Hdz HO Ht26 Ht30]
  · isplitr; · iexact HR
    hand [HRt, Hdz, HO, Ht26, Ht30]
  iintro ⟨Hc26, HO⟩
  -- the third load has landed in its slot
  iapply (step_lwait m K c 2 (by decide) 0 (by decide) (dstw := slot 2) _ _ rfl) $$ [Hc2 HO Hat2]
  · isplitr; · iexact HR
    isplitl [Hc2]; · iexact Hc2
    isplitl [HO]; · iexact HO
    isplitr; · iapply (mayWait_local c 2 (by decide) 13); iexact Hlev
    iexact Hat2
  iintro ⟨HO, Hat2, Hr2, Hld⟩
  -- the first store has left its slot
  iapply (step_stwait m K c 0 (by decide) 0 (by decide) (dstw := M1.slice (oOwn c 0) (fun _ => rfl)) _ _ rfl) $$ [Hc4 HO Hat4]
  · isplitr; · iexact HR
    isplitl [Hc4]; · iexact Hc4
    isplitl [HO]; · iexact HO
    isplitr; · iapply (mayWait_local c 4 (by decide) 13); iexact Hlev
    iexact Hat4
  iintro ⟨HO, Hat4, Hr4, Hst⟩
  rw [wp_ret]
  imodintro
  iapply Hk
  iexists _
  hand [HO, Hc18, Hc26, Hat2, Hr2, Hld, Hat4, Hr4, Hst]

/-- info: 'Cert.KernelIdeal.AG.part6_spec' depends on axioms: [propext, Classical.choice, Quot.sound] -/
#guard_msgs in #print axioms part6_spec
/-- info: 'Cert.KernelIdeal.AG.part7_spec' depends on axioms: [propext, Classical.choice, Quot.sound] -/
#guard_msgs in #print axioms part7_spec
/-- info: 'Cert.KernelIdeal.AG.part8_spec' depends on axioms: [propext, Classical.choice, Quot.sound] -/
#guard_msgs in #print axioms part8_spec
/-- info: 'Cert.KernelIdeal.AG.part9_spec' depends on axioms: [propext, Classical.choice, Quot.sound] -/
#guard_msgs in #print axioms part9_spec

end Cert.KernelIdeal.AG

end
-- ==== Proof.KernelIdealAG.PartsC.lean ====
/-
  The body's parts ten to thirteen: a store out of a staging slot and the next load into the slot freed before it, with
  the wait for a landing chunk; the two forwards of the last chunk of the device's own quarter and the waits that hand a
  loaded slot and a stored chunk back; and the first diagonal forward. Each part takes exactly the resources its copies
  and waits move and returns what they hand back.
-/
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.Landing
import proofs.«900686_g7700000000000687_dist_ag_v7x_xyz2x4x4_x_m16384_n1024_f32_1_alg».proof.Proof.KernelIdealAG.LandingSlot

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

/-- A staging slot's credit is a load's, and a 2048-row chunk of the result's a store's. -/
theorem creditC_NL (s : Fin 4) : (slot s).view.dmaCredit = NL := rfl
theorem creditC_NS (c : Dev nD) (j : Fin 8) : (M1.slice (oOwn c j) (fun _ => rfl)).view.dmaCredit = NS := rfl

theorem part10_spec (c : Dev nD) (v2 v5 v8 v29 v30 v32 v34 v37 : BitVec 32) (W : Waits sig Unit)
    (fo : Buf (Elt F) ((c : Thread nD τ).loc main_v1)) (Φ : PUnit → sProp 𝕄) :
    iprop(records m K ∗ levAts L lv
        ∗ (ow c 13 W ∗ pts c cc0_scratch0 (vSl 2) fullShare (vfill m c 2) ∗ pts c main_v1 (oOwn c 2) fullShare fo ∗ tok c 6 0
            ∗ pts c main_arg0 (xLd 4) fullShare.right (xin m c) ∗ pts c cc0_scratch0 (vSl 0) fullShare (vfill m c 0) ∗ tok c 0 1 ∗ rch c 0 1
            ∗ crd c 15 N ∗ pos c 15 0)
        ∗ ((∃ W', ow c 13 W' ∗ crd c 6 NS ∗ crd c 0 NL ∗ pos c 15 1 ∗ pts c main_v1 (oCh c (qF c) 3) fullShare (target m c)) -∗ Φ ⟨⟩))
      ⊢ wp frame (wpE (defs₀ (F := F)) 𝒱₀ c none) Set.univ (k0_part10 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v29 v30 v32 v34 v37) Φ := by
  unfold k0_part10
  simp (config := { proj := false }) only [semSignalWord, semWaitWord, Prog.lift, Prog.bind_op, Prog.bind_ret, Prog.pure_eq_ret,
    sem_s2_2, sem_s1_0, sem_s4_3, slice_off4_2, slice_off3_3,
    slice_x 4 (off := ![8192, 0]) rfl, slice_v 2 (off := ![2, 0, 0]) rfl, slice_v 0 (off := ![0, 0, 0]) rfl]
  iintro ⟨#HR, #Hlev, ⟨HO, Hv2, Ho2, Ht6, Hx4, Hv0, Ht0, #Hr0, Hc15, Hat15⟩, Hk⟩
  iapply (step_store m K c 2 2 0 (by decide) (by decide) fo (land_st m c 2 2 rfl fo)) $$ [Hv2 Ho2 Ht6]
  · isplitr; · iexact HR
    isplitr; · (iapply (reached_dma m K c 6 _) <;> try iexact HR)
    hand [Hv2, Ho2, Ht6]
  iintro Hc6
  iapply (step_load m K c 4 0 1 (by decide) (by decide) (vfill m c 0) (land_ld m c 4 0 rfl (vfill m c 0))) $$ [Hx4 Hv0 Ht0]
  · isplitr; · iexact HR
    isplitr; · iexact Hr0
    hand [Hx4, Hv0, Ht0]
  iintro Hc0
  iapply (step_rwait m K c 15 (by decide) (by decide) (sumT ((owedList c).drop 13)) W (credit_N _)) $$ [Hc15 HO Hat15]
  · isplitr; · iexact HR
    isplitl [Hc15]; · iexact Hc15
    isplitl [HO]; · iexact HO
    isplitr; · (iapply (mayWait_xrecv c 3) <;> try iexact Hlev)
    iexact Hat15
  iintro ⟨HO, Hat15, Hpay⟩
  unfold recvPay
  simp only [recvRect_15]
  iapply (le_wp_ret _ _)
  iapply Hk
  iexists _
  hand [HO, Hc6, Hc0, Hat15, Hpay]

theorem part11_spec (c : Dev nD) (v2 v5 v31 v32 : BitVec 32) (W : Waits sig Unit) (Φ : PUnit → sProp 𝕄) :
    iprop(records m K ∗ levAts L lv
        ∗ (ow c 13 W ∗ pts c main_v1 (oCh c (qF c) 3) fullShare (target m c) ∗ give (yb c) 23 ∗ give (zb c) 31
            ∗ tok c 19 0 ∗ tok (yb c) 23 0 ∗ tok c 27 0 ∗ tok (zb c) 31 0 ∗ crd c 3 NL ∗ pos c 3 0 ∗ crd c 5 NS ∗ pos c 5 0)
        ∗ ((∃ W', ow c 15 W' ∗ crd c 19 N ∗ crd c 27 N ∗ pos c 3 1 ∗ rch c 3 1 ∗ ldPay m c 3 ∗ pos c 5 1 ∗ rch c 5 1 ∗ stPay m c 1) -∗ Φ ⟨⟩))
      ⊢ wp frame (wpE (defs₀ (F := F)) 𝒱₀ c none) Set.univ (k0_part11 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v31 v32) Φ := by
  unfold k0_part11
  simp (config := { proj := false }) only [semSignalWord, semWaitWord, Prog.lift, Prog.bind_op, Prog.bind_ret, Prog.pure_eq_ret,
    sem_s5_3, sem_s6_3, sem_s7_3, sem_s8_3, sem_s1_3, sem_s2_1, slice_off3_3, slice_off4_1,
    slice_x 3 (off := ![6144, 0]) rfl, slice_v 3 (off := ![3, 0, 0]) rfl, slice_v 1 (off := ![1, 0, 0]) rfl]
  unfold give
  simp only [recvRect_23, recvRect_31, yb_yb, zb_zb, oCh_yb, oCh_zb]
  iintro ⟨#HR, #Hlev, ⟨HO, Hsrc, ⟨%fy, Hdy⟩, ⟨%fz, Hdz⟩, Ht19, Ht23, Ht27, Ht31, Hc3, Hat3, Hc5, Hat5⟩, Hk⟩
  ihave Hh := (pts_half c main_v1 (oCh c (qF c) 3) (target m c)).1 $$ Hsrc
  icases Hh with ⟨HsL, HsR⟩
  iapply (step_send1' m K c (yb c) _ (dev14_eq c) 19 23 (by decide) (by decide) (by decide) (by decide) c (qF c) 3 c (qF c) 3 fullShare.left (target m c) fy
      (sumT ((owedList c).drop 14)) W (Entails.of_eq (sendPay_19 m c).symm) (land_yd' m c 3 fy)) $$ [HsL Hdy HO Ht19 Ht23]
  · isplitr; · iexact HR
    hand [HsL, Hdy, HO, Ht19, Ht23]
  iintro ⟨Hc19, HO⟩
  iapply (step_send1' m K c (zb c) _ (dev15_eq c) 27 31 (by decide) (by decide) (by decide) (by decide) c (qF c) 3 c (qF c) 3 fullShare.right (target m c) fz
      (sumT ((owedList c).drop 15)) W (Entails.of_eq (sendPay_27 m c).symm) (land_zd' m c 3 fz)) $$ [HsR Hdz HO Ht27 Ht31]
  · isplitr; · iexact HR
    hand [HsR, Hdz, HO, Ht27, Ht31]
  iintro ⟨Hc27, HO⟩
  iapply (step_lwait m K c 3 (by decide) 0 (by decide) (sumT ((owedList c).drop 15)) W (creditC_NL 3)) $$ [Hc3 HO Hat3]
  · isplitr; · iexact HR
    isplitl [Hc3]; · iexact Hc3
    isplitl [HO]; · iexact HO
    isplitr; · (iapply (mayWait_local c 3 (by decide) 15) <;> try iexact Hlev)
    iexact Hat3
  iintro ⟨HO, Hat3, Hr3, Hld⟩
  iapply (step_stwait m K c 1 (by decide) 0 (by decide) (sumT ((owedList c).drop 15)) (insert (SemLoc.dma (ds 3), ()) W) (creditC_NS c 1)) $$ [Hc5 HO Hat5]
  · isplitr; · iexact HR
    isplitl [Hc5]; · iexact Hc5
    isplitl [HO]; · iexact HO
    isplitr; · (iapply (mayWait_local c 5 (by decide) 15) <;> try iexact Hlev)
    iexact Hat5
  iintro ⟨HO, Hat5, Hr5, Hst⟩
  iapply (le_wp_ret _ _)
  iapply Hk
  iexists _
  hand [HO, Hc19, Hc27, Hat3, Hr3, Hld, Hat5, Hr5, Hst]

theorem part12_spec (c : Dev nD) (v2 v5 v8 v30 v31 v34 v45 : BitVec 32) (W : Waits sig Unit)
    (fo : Buf (Elt F) ((c : Thread nD τ).loc main_v1)) (Φ : PUnit → sProp 𝕄) :
    iprop(records m K ∗ levAts L lv
        ∗ (ow c 15 W ∗ pts c cc0_scratch0 (vSl 3) fullShare (vfill m c 3) ∗ pts c main_v1 (oOwn c 3) fullShare fo ∗ tok c 7 0
            ∗ pts c main_arg0 (xLd 5) fullShare.right (xin m c) ∗ pts c cc0_scratch0 (vSl 1) fullShare (vfill m c 1) ∗ tok c 1 1 ∗ rch c 1 1
            ∗ crd c 28 N ∗ pos c 28 0)
        ∗ ((∃ W', ow c 15 W' ∗ crd c 7 NS ∗ crd c 1 NL ∗ pos c 28 1 ∗ pts c main_v1 (oCh c (qF (zb c)) 0) fullShare (target m c)) -∗ Φ ⟨⟩))
      ⊢ wp frame (wpE (defs₀ (F := F)) 𝒱₀ c none) Set.univ (k0_part12 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v45) Φ := by
  unfold k0_part12
  simp (config := { proj := false }) only [semSignalWord, semWaitWord, Prog.lift, Prog.bind_op, Prog.bind_ret, Prog.pure_eq_ret,
    sem_s2_3, sem_s1_1, sem_s8_0, slice_off4_3, slice_off5_0,
    slice_x 5 (off := ![10240, 0]) rfl, slice_v 3 (off := ![3, 0, 0]) rfl, slice_v 1 (off := ![1, 0, 0]) rfl]
  iintro ⟨#HR, #Hlev, ⟨HO, Hv3, Ho3, Ht7, Hx5, Hv1, Ht1, #Hr1, Hc28, Hat28⟩, Hk⟩
  iapply (step_store m K c 3 3 0 (by decide) (by decide) fo (land_st m c 3 3 rfl fo)) $$ [Hv3 Ho3 Ht7]
  · isplitr; · iexact HR
    isplitr; · (iapply (reached_dma m K c 7 _) <;> try iexact HR)
    hand [Hv3, Ho3, Ht7]
  iintro Hc7
  iapply (step_load m K c 5 1 1 (by decide) (by decide) (vfill m c 1) (land_ld m c 5 1 rfl (vfill m c 1))) $$ [Hx5 Hv1 Ht1]
  · isplitr; · iexact HR
    isplitr; · iexact Hr1
    hand [Hx5, Hv1, Ht1]
  iintro Hc1
  iapply (step_rwait m K c 28 (by decide) (by decide) (sumT ((owedList c).drop 15)) W (credit_N _)) $$ [Hc28 HO Hat28]
  · isplitr; · iexact HR
    isplitl [Hc28]; · iexact Hc28
    isplitl [HO]; · iexact HO
    isplitr; · (iapply (mayWait_zrecv c 0) <;> try iexact Hlev)
    iexact Hat28
  iintro ⟨HO, Hat28, Hpay⟩
  unfold recvPay
  simp only [recvRect_28]
  iapply (le_wp_ret _ _)
  iapply Hk
  iexists _
  hand [HO, Hc7, Hc1, Hat28, Hpay]

theorem part13_spec (c : Dev nD) (v2 v32 v34 v45 : BitVec 32) (W : Waits sig Unit)
    (fo : Buf (Elt F) ((c : Thread nD τ).loc main_v1)) (Φ : (Σ' (v402 : BitVec 32), BitVec 32) → sProp 𝕄) :
    iprop(records m K ∗ levAts L lv
        ∗ (ow c 15 W ∗ pts c main_v1 (oCh c (qF (zb c)) 0) fullShare (target m c) ∗ give (yb c) 34 ∗ tok c 32 0 ∗ tok (yb c) 34 0
            ∗ crd c 0 NL ∗ pos c 0 1 ∗ crd c 6 NS ∗ pos c 6 0 ∗ pts c main_v1 (oOwn c 4) fullShare fo ∗ tok c 4 1 ∗ rch c 4 1
            ∗ pts c main_arg0 (xLd 6) fullShare.right (xin m c) ∗ tok c 2 1 ∗ rch c 2 1)
        ∗ (∀ r, (∃ W', ow c 16 W' ∗ crd c 32 N ∗ pos c 0 2 ∗ pts c main_arg0 (xLd 4) fullShare.right (xin m c) ∗ pos c 6 1 ∗ rch c 6 1
            ∗ pts c main_v1 (oOwn c 2) fullShare (target m c) ∗ crd c 4 NS ∗ crd c 2 NL) -∗ Φ r))
      ⊢ wp frame (wpE (defs₀ (F := F)) 𝒱₀ c none) Set.univ (k0_part13 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v32 v34 v45) Φ := by
  unfold k0_part13
  simp (config := { proj := false }) only [semSignalWord, semWaitWord, Prog.lift, Prog.bind_op, Prog.bind_ret, Prog.pure_eq_ret,
    sem_s9_0, sem_s10_0, sem_s1_0, sem_s2_2, sem_s2_0, sem_s1_2, slice_off5_0, slice_off4_2, slice_off4_4,
    slice_x 4 (off := ![8192, 0]) rfl, slice_x 6 (off := ![12288, 0]) rfl, slice_v 0 (off := ![0, 0, 0]) rfl, slice_v 2 (off := ![2, 0, 0]) rfl]
  unfold give
  simp only [recvRect_34, yb_yb, oCh_yb]
  iintro ⟨#HR, #Hlev, ⟨HO, Hsrc, ⟨%fy, Hdy⟩, Ht32, Ht34, Hc0, Hat0, Hc6, Hat6, Ho4, Ht4, #Hr4, Hx6, Ht2, #Hr2⟩, Hk⟩
  iapply (step_send1' m K c (yb c) _ (dev16_eq c) 32 34 (by decide) (by decide) (by decide) (by decide) c (qF (zb c)) 0 c (qF (zb c)) 0 fullShare (target m c) fy
      (sumT ((owedList c).drop 16)) W (Entails.of_eq (sendPay_32 m c).symm) (land_ydg' m c 0 fy)) $$ [Hsrc Hdy HO Ht32 Ht34]
  · isplitr; · iexact HR
    hand [Hsrc, Hdy, HO, Ht32, Ht34]
  iintro ⟨Hc32, HO⟩
  iapply (step_lwait m K c 0 (by decide) 1 (by decide) (sumT ((owedList c).drop 16)) W (creditC_NL 0)) $$ [Hc0 HO Hat0]
  · isplitr; · iexact HR
    isplitl [Hc0]; · iexact Hc0
    isplitl [HO]; · iexact HO
    isplitr; · (iapply (mayWait_local c 0 (by decide) 16) <;> try iexact Hlev)
    iexact Hat0
  iintro ⟨HO, Hat0, -, Hld⟩
  unfold ldPay
  icases Hld with ⟨Hv0, Hx4⟩
  iapply (step_stwait m K c 2 (by decide) 0 (by decide) (sumT ((owedList c).drop 16)) (insert (SemLoc.dma (ds 0), ()) W) (creditC_NS c 2)) $$ [Hc6 HO Hat6]
  · isplitr; · iexact HR
    isplitl [Hc6]; · iexact Hc6
    isplitl [HO]; · iexact HO
    isplitr; · (iapply (mayWait_local c 6 (by decide) 16) <;> try iexact Hlev)
    iexact Hat6
  iintro ⟨HO, Hat6, Hr6, Hst⟩
  unfold stPay
  icases Hst with ⟨Ho2, Hv2⟩
  iapply (step_store m K c 4 0 1 (by decide) (by decide) fo (land_st m c 4 0 rfl fo)) $$ [Hv0 Ho4 Ht4]
  · isplitr; · iexact HR
    isplitr; · iexact Hr4
    hand [Hv0, Ho4, Ht4]
  iintro Hc4
  iapply (step_load m K c 6 2 1 (by decide) (by decide) (vfill m c 2) (land_ld m c 6 2 rfl (vfill m c 2))) $$ [Hx6 Hv2 Ht2]
  · isplitr; · iexact HR
    isplitr; · iexact Hr2
    hand [Hx6, Hv2, Ht2]
  iintro Hc2
  iapply (le_wp_ret _ _)
  iapply Hk
  iexists _
  hand [HO, Hc32, Hat0, Hx4, Hat6, Hr6, Ho2, Hc4, Hc2]

end Cert.KernelIdeal.AG

end

/-- info: 'Cert.KernelIdeal.AG.part10_spec' depends on axioms: [propext, Classical.choice, Quot.sound] -/
#guard_msgs in #print axioms Cert.KernelIdeal.AG.part10_spec
/-- info: 'Cert.KernelIdeal.AG.part11_spec' depends on axioms: [propext, Classical.choice, Quot.sound] -/
#guard_msgs in #print axioms Cert.KernelIdeal.AG.part11_spec
/-- info: 'Cert.KernelIdeal.AG.part12_spec' depends on axioms: [propext, Classical.choice, Quot.sound] -/
#guard_msgs in #print axioms Cert.KernelIdeal.AG.part12_spec
/-- info: 'Cert.KernelIdeal.AG.part13_spec' depends on axioms: [propext, Classical.choice, Quot.sound] -/
#guard_msgs in #print axioms Cert.KernelIdeal.AG.part13_spec
-- ==== Proof.KernelIdealAG.PartsD.lean ====
/-
  The body's parts 14 to 17: the diagonal relays and the last loads and stores.

  By now every copy to a direct neighbour is issued. A device waits for the second z chunk to land and passes it to its y
  buddy; stores chunk 5 of its own half, loads chunk 7, and waits for the third y chunk; passes that to its z buddy,
  takes back load 6 and store 4 and stores chunk 6; waits for the fourth y chunk, passes it to its z buddy, and takes
  back load 7 and store 5. Each wait is allowed because what is still owed are diagonal receive cells, above the cell
  waited on; each relay pays the next of those cells.
-/
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.Landing
import proofs.«900686_g7700000000000687_dist_ag_v7x_xyz2x4x4_x_m16384_n1024_f32_1_alg».proof.Proof.KernelIdealAG.LandingSlot

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The credit of a load into a staging slot, and of a store of 2048 rows, whatever the slot and the rows. -/
private theorem credit_NL (M : Memref sig .tc .vmem S2048x1024 .f32) : M.view.dmaCredit = NL := rfl
private theorem credit_NS (M : Memref sig .tc .hbm S2048x1024 .f32) : M.view.dmaCredit = NS := rfl

/-- The rows a neighbour's barrier payment hands over for a diagonal relay, at the rows' place in this device's result. -/
private theorem give_eq_35 (c : Dev nD) :
    (give (F := F) (yb c) 35 : sProp 𝕄) = iprop(∃ f, pts (yb c) main_v1 (oCh c (qF (zb c)) 1) fullShare f) := by
  unfold give; rw [recvRect_35, yb_yb, oCh_yb]
private theorem give_eq_38 (c : Dev nD) :
    (give (F := F) (zb c) 38 : sProp 𝕄) = iprop(∃ f, pts (zb c) main_v1 (oCh c (qF (yb c)) 2) fullShare f) := by
  unfold give; rw [recvRect_38, zb_zb, oCh_zb]
private theorem give_eq_39 (c : Dev nD) :
    (give (F := F) (zb c) 39 : sProp 𝕄) = iprop(∃ f, pts (zb c) main_v1 (oCh c (qF (yb c)) 3) fullShare f) := by
  unfold give; rw [recvRect_39, zb_zb, oCh_zb]

variable (m : (ℓ : Loc nD τ sig) → Buf (Elt F) ℓ) (K : Dev nD × Fin 41 → ℕ)

/-- What a landed chunk hands the receiver, by its rows. -/
private theorem recvPay_eq_29 (c : Dev nD) : recvPay m c 29 = pts c main_v1 (oCh c (qF (zb c)) 1) fullShare (target m c) := by
  unfold recvPay; rw [recvRect_29]
private theorem recvPay_eq_22 (c : Dev nD) : recvPay m c 22 = pts c main_v1 (oCh c (qF (yb c)) 2) fullShare (target m c) := by
  unfold recvPay; rw [recvRect_22]
private theorem recvPay_eq_23 (c : Dev nD) : recvPay m c 23 = pts c main_v1 (oCh c (qF (yb c)) 3) fullShare (target m c) := by
  unfold recvPay; rw [recvRect_23]
/-- What load 6 and store 4 hand back. -/
private theorem ldPay_eq_6 (c : Dev nD) : ldPay m c (2 + 4 * 1)
    = iprop(pts c cc0_scratch0 (vSl 2) fullShare (vfill m c 6) ∗ pts c main_arg0 (xLd 6) fullShare.right (xin m c)) := rfl
private theorem stPay_eq_4 (c : Dev nD) : stPay m c (0 + 4 * 1)
    = iprop(pts c main_v1 (oOwn c 4) fullShare (target m c) ∗ pts c cc0_scratch0 (vSl 0) fullShare (vfill m c 4)) := rfl

theorem part14_spec (c : Dev nD) (v2 v5 v8 v30 v31 v32 v402 c4 : BitVec 32) (W : Waits sig Unit) (Φ : PUnit → sProp 𝕄) :
    iprop(records m K ∗ levAts L lv
        ∗ (ow c 16 W ∗ crd c 29 N ∗ pos c 29 0 ∗ give (yb c) 35 ∗ tok c 33 0 ∗ tok (yb c) 35 0 ∗ crd c 1 NL ∗ pos c 1 1 ∗ crd c 7 NS ∗ pos c 7 0)
        ∗ ((∃ W', ow c 17 W' ∗ pos c 29 1 ∗ crd c 33 N ∗ pos c 1 2 ∗ ldPay m c 5 ∗ pos c 7 1 ∗ rch c 7 1 ∗ stPay m c 3) -∗ Φ ⟨⟩))
      ⊢ wp frame (wpE (defs₀ (F := F)) 𝒱₀ c none) Set.univ (k0_part14 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v32 v402 c4) Φ := by
  unfold k0_part14
  simp (config := { proj := false }) only [Prog.lift, Prog.bind_op, Prog.bind_ret, Prog.pure_eq_ret, semSignalWord, semWaitWord,
    sem_s8_1, sem_s9_1, sem_s10_1, sem_s1_1, sem_s2_3, slice_off5_1]
  iintro ⟨#HR, #Hlev, ⟨HO, Hc29, Hp29, Hg, Ht33, Ht35, Hc1, Hp1, Hc7, Hp7⟩, Hk⟩
  -- the second z chunk has landed
  iapply (step_rwait m K c 29 (of_decide_eq_true rfl : 29 < 40) (of_decide_eq_true rfl : isRecv 29) (sumT ((owedList c).drop 16)) W (credit_N _)) $$ [Hc29 HO Hp29]
  · isplitr; · iexact HR
    isplitl [Hc29]; · iexact Hc29
    isplitl [HO]; · iexact HO
    isplitr; · iapply (mayWait_zrecv c 1); iexact Hlev
    iexact Hp29
  iintro ⟨HO, Hp29, Hpay⟩
  ihave Hpay := (Entails.of_eq (recvPay_eq_29 m c)) $$ Hpay
  -- it goes on to the y buddy, into the rows the buddy's barrier payment handed over
  ihave Hg := (Entails.of_eq (give_eq_35 c)) $$ Hg
  icases Hg with ⟨%f, Hd⟩
  iapply (step_send1' m K c (yb c) _ (dev17_eq c) 33 35 (of_decide_eq_true rfl : 33 < 40) (of_decide_eq_true rfl : 35 < 40) (of_decide_eq_true rfl : isSend 33) (of_decide_eq_true rfl : isRecv 35) c (qF (zb c)) 1 c (qF (zb c)) 1
      fullShare (target m c) f (sumT ((owedList c).drop 17)) (insert (SemLoc.dma (ds 29), ()) W) (Entails.of_eq (sendPay_33 m c).symm) (land_ydg' m c 1 f)) $$ [Hpay Hd HO Ht33 Ht35]
  · isplitr; · iexact HR
    hand [Hpay, Hd, HO, Ht33, Ht35]
  iintro ⟨Hc33, HO⟩
  -- load 5 has come in
  iapply (step_lwait m K c 1 (of_decide_eq_true rfl : 1 < 4) 1 (of_decide_eq_true rfl : 1 < 2) (sumT ((owedList c).drop 17)) (insert (SemLoc.dma (ds 29), ()) W) (credit_NL _)) $$ [Hc1 HO Hp1]
  · isplitr; · iexact HR
    isplitl [Hc1]; · iexact Hc1
    isplitl [HO]; · iexact HO
    isplitr; · iapply (mayWait_local c 1 (of_decide_eq_true rfl : 1 < 8) 17); iexact Hlev
    iexact Hp1
  iintro ⟨HO, Hp1, -, Hld⟩
  -- store 3 has gone out
  iapply (step_stwait m K c 3 (of_decide_eq_true rfl : 3 < 4) 0 (of_decide_eq_true rfl : 0 < 2) (sumT ((owedList c).drop 17)) (insert (SemLoc.dma (ds 1), ()) (insert (SemLoc.dma (ds 29), ()) W)) (credit_NS _)) $$ [Hc7 HO Hp7]
  · isplitr; · iexact HR
    isplitl [Hc7]; · iexact Hc7
    isplitl [HO]; · iexact HO
    isplitr; · iapply (mayWait_local c 7 (of_decide_eq_true rfl : 7 < 8) 17); iexact Hlev
    iexact Hp7
  iintro ⟨HO, Hp7, Hr7, Hst⟩
  rw [wp_ret]
  imodintro
  iapply Hk
  iexists _
  hand [HO, Hp29, Hc33, Hp1, Hld, Hp7, Hr7, Hst]

theorem part15_spec (c : Dev nD) (v2 v5 v8 v30 v31 v34 v41 : BitVec 32) (W : Waits sig Unit)
    (fo : Buf (Elt F) ((c : Thread nD τ).loc main_v1)) (Φ : PUnit → sProp 𝕄) :
    iprop(records m K ∗ levAts L lv
        ∗ (ow c 17 W ∗ pts c cc0_scratch0 (vSl 1) fullShare (vfill m c 5) ∗ pts c main_v1 (oOwn c 5) fullShare fo ∗ tok c 5 1 ∗ rch c 5 1
            ∗ pts c main_arg0 (xLd 7) fullShare.right (xin m c) ∗ pts c cc0_scratch0 (vSl 3) fullShare (vfill m c 3) ∗ tok c 3 1 ∗ rch c 3 1
            ∗ crd c 22 N ∗ pos c 22 0)
        ∗ ((∃ W', ow c 17 W' ∗ crd c 5 NS ∗ crd c 3 NL ∗ pos c 22 1 ∗ pts c main_v1 (oCh c (qF (yb c)) 2) fullShare (target m c)) -∗ Φ ⟨⟩))
      ⊢ wp frame (wpE (defs₀ (F := F)) 𝒱₀ c none) Set.univ (k0_part15 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v41) Φ := by
  unfold k0_part15
  simp (config := { proj := false }) only [Prog.lift, Prog.bind_op, Prog.bind_ret, Prog.pure_eq_ret, semSignalWord, semWaitWord,
    sem_s2_1, sem_s1_3, sem_s6_2, slice_off4_5, slice_x 7 (off := ![14336, 0]) rfl,
    slice_v 1 (off := ![1, 0, 0]) rfl, slice_v 3 (off := ![3, 0, 0]) rfl]
  iintro ⟨#HR, #Hlev, ⟨HO, Hv1, Ho5, Ht5, Hr5, Hx7, Hv3, Ht3, Hr3, Hc22, Hp22⟩, Hk⟩
  -- store 5: slot 1 into chunk 5 of the device's own half
  iapply (step_store m K c 5 1 1 rfl rfl fo (land_st m c 5 1 rfl fo)) $$ [Hr5 Hv1 Ho5 Ht5]
  · isplitr; · iexact HR
    hand [Hr5, Hv1, Ho5, Ht5]
  iintro Hc5
  -- load 7: the last chunk of the argument into slot 3
  iapply (step_load m K c 7 3 1 rfl rfl (vfill m c 3) (land_ld m c 7 3 rfl (vfill m c 3))) $$ [Hr3 Hx7 Hv3 Ht3]
  · isplitr; · iexact HR
    hand [Hr3, Hx7, Hv3, Ht3]
  iintro Hc3
  -- the third y chunk has landed
  iapply (step_rwait m K c 22 (of_decide_eq_true rfl : 22 < 40) (of_decide_eq_true rfl : isRecv 22) (sumT ((owedList c).drop 17)) W (credit_N _)) $$ [Hc22 HO Hp22]
  · isplitr; · iexact HR
    isplitl [Hc22]; · iexact Hc22
    isplitl [HO]; · iexact HO
    isplitr; · iapply (mayWait_yrecv c 0); iexact Hlev
    iexact Hp22
  iintro ⟨HO, Hp22, Hpay⟩
  ihave Hpay := (Entails.of_eq (recvPay_eq_22 m c)) $$ Hpay
  rw [wp_ret]
  imodintro
  iapply Hk
  iexists _
  hand [HO, Hc5, Hc3, Hp22, Hpay]

theorem part16_spec (c : Dev nD) (v2 v8 v30 v32 v34 v41 : BitVec 32) (W : Waits sig Unit)
    (fo : Buf (Elt F) ((c : Thread nD τ).loc main_v1)) (Φ : PUnit → sProp 𝕄) :
    iprop(records m K ∗ levAts L lv
        ∗ (ow c 17 W ∗ pts c main_v1 (oCh c (qF (yb c)) 2) fullShare (target m c) ∗ give (zb c) 38 ∗ tok c 36 0 ∗ tok (zb c) 38 0
            ∗ crd c 2 NL ∗ pos c 2 1 ∗ crd c 4 NS ∗ pos c 4 1 ∗ pts c main_v1 (oOwn c 6) fullShare fo ∗ tok c 6 1 ∗ rch c 6 1)
        ∗ ((∃ W', ow c 18 W' ∗ crd c 36 N ∗ pos c 2 2 ∗ pts c main_arg0 (xLd 6) fullShare.right (xin m c) ∗ pos c 4 2
            ∗ pts c main_v1 (oOwn c 4) fullShare (target m c) ∗ pts c cc0_scratch0 (vSl 0) fullShare (vfill m c 4) ∗ crd c 6 NS) -∗ Φ ⟨⟩))
      ⊢ wp frame (wpE (defs₀ (F := F)) 𝒱₀ c none) Set.univ (k0_part16 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v8 v30 v32 v34 v41) Φ := by
  unfold k0_part16
  simp (config := { proj := false }) only [Prog.lift, Prog.bind_op, Prog.bind_ret, Prog.pure_eq_ret, semSignalWord, semWaitWord,
    sem_s11_0, sem_s12_0, sem_s1_2, sem_s2_0, sem_s2_2, slice_off6_2, slice_off4_6,
    slice_v 2 (off := ![2, 0, 0]) rfl]
  iintro ⟨#HR, #Hlev, ⟨HO, Hsrc, Hg, Ht36, Ht38, Hc2, Hp2, Hc4, Hp4, Ho6, Ht6, Hr6⟩, Hk⟩
  -- the third y chunk goes on to the z buddy
  ihave Hg := (Entails.of_eq (give_eq_38 c)) $$ Hg
  icases Hg with ⟨%f, Hd⟩
  iapply (step_send1' m K c (zb c) _ (dev18_eq c) 36 38 (of_decide_eq_true rfl : 36 < 40) (of_decide_eq_true rfl : 38 < 40) (of_decide_eq_true rfl : isSend 36) (of_decide_eq_true rfl : isRecv 38) c (qF (yb c)) 2 c (qF (yb c)) 2
      fullShare (target m c) f (sumT ((owedList c).drop 18)) W (Entails.of_eq (sendPay_36 m c).symm) (land_zdg' m c 0 f)) $$ [Hsrc Hd HO Ht36 Ht38]
  · isplitr; · iexact HR
    hand [Hsrc, Hd, HO, Ht36, Ht38]
  iintro ⟨Hc36, HO⟩
  -- load 6 has come in
  iapply (step_lwait m K c 2 (of_decide_eq_true rfl : 2 < 4) 1 (of_decide_eq_true rfl : 1 < 2) (sumT ((owedList c).drop 18)) W (credit_NL _)) $$ [Hc2 HO Hp2]
  · isplitr; · iexact HR
    isplitl [Hc2]; · iexact Hc2
    isplitl [HO]; · iexact HO
    isplitr; · iapply (mayWait_local c 2 (of_decide_eq_true rfl : 2 < 8) 18); iexact Hlev
    iexact Hp2
  iintro ⟨HO, Hp2, -, Hld⟩
  -- store 4 has gone out
  iapply (step_stwait m K c 0 (of_decide_eq_true rfl : 0 < 4) 1 (of_decide_eq_true rfl : 1 < 2) (sumT ((owedList c).drop 18)) (insert (SemLoc.dma (ds 2), ()) W) (credit_NS _)) $$ [Hc4 HO Hp4]
  · isplitr; · iexact HR
    isplitl [Hc4]; · iexact Hc4
    isplitl [HO]; · iexact HO
    isplitr; · iapply (mayWait_local c 4 (of_decide_eq_true rfl : 4 < 8) 18); iexact Hlev
    iexact Hp4
  iintro ⟨HO, Hp4, -, Hst⟩
  -- store 6: slot 2, just loaded, into chunk 6 of the device's own half
  ihave Hld := (Entails.of_eq (ldPay_eq_6 m c)) $$ Hld
  ihave Hst := (Entails.of_eq (stPay_eq_4 m c)) $$ Hst
  icases Hld with ⟨Hv2, Hx6⟩
  icases Hst with ⟨Ho4, Hv0⟩
  iapply (step_store m K c 6 2 1 rfl rfl fo (land_st m c 6 2 rfl fo)) $$ [Hr6 Hv2 Ho6 Ht6]
  · isplitr; · iexact HR
    hand [Hr6, Hv2, Ho6, Ht6]
  iintro Hc6
  rw [wp_ret]
  imodintro
  iapply Hk
  iexists _
  hand [HO, Hc36, Hp2, Hx6, Hp4, Ho4, Hv0, Hc6]

theorem part17_spec (c : Dev nD) (v2 v5 v31 v32 : BitVec 32) (W : Waits sig Unit) (Φ : PUnit → sProp 𝕄) :
    iprop(records m K ∗ levAts L lv
        ∗ (ow c 18 W ∗ crd c 23 N ∗ pos c 23 0 ∗ give (zb c) 39 ∗ tok c 37 0 ∗ tok (zb c) 39 0 ∗ crd c 3 NL ∗ pos c 3 1 ∗ crd c 5 NS ∗ pos c 5 1)
        ∗ ((∃ W', ow c 19 W' ∗ pos c 23 1 ∗ crd c 37 N ∗ pos c 3 2 ∗ ldPay m c 7 ∗ pos c 5 2 ∗ stPay m c 5) -∗ Φ ⟨⟩))
      ⊢ wp frame (wpE (defs₀ (F := F)) 𝒱₀ c none) Set.univ (k0_part17 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v31 v32) Φ := by
  unfold k0_part17
  simp (config := { proj := false }) only [Prog.lift, Prog.bind_op, Prog.bind_ret, Prog.pure_eq_ret, semSignalWord, semWaitWord,
    sem_s6_3, sem_s11_1, sem_s12_1, sem_s1_3, sem_s2_1, slice_off6_3]
  iintro ⟨#HR, #Hlev, ⟨HO, Hc23, Hp23, Hg, Ht37, Ht39, Hc3, Hp3, Hc5, Hp5⟩, Hk⟩
  -- the fourth y chunk has landed
  iapply (step_rwait m K c 23 (of_decide_eq_true rfl : 23 < 40) (of_decide_eq_true rfl : isRecv 23) (sumT ((owedList c).drop 18)) W (credit_N _)) $$ [Hc23 HO Hp23]
  · isplitr; · iexact HR
    isplitl [Hc23]; · iexact Hc23
    isplitl [HO]; · iexact HO
    isplitr; · iapply (mayWait_yrecv c 1); iexact Hlev
    iexact Hp23
  iintro ⟨HO, Hp23, Hpay⟩
  ihave Hpay := (Entails.of_eq (recvPay_eq_23 m c)) $$ Hpay
  -- it goes on to the z buddy: the last payment the device owes
  ihave Hg := (Entails.of_eq (give_eq_39 c)) $$ Hg
  icases Hg with ⟨%f, Hd⟩
  iapply (step_send1' m K c (zb c) _ (dev19_eq c) 37 39 (of_decide_eq_true rfl : 37 < 40) (of_decide_eq_true rfl : 39 < 40) (of_decide_eq_true rfl : isSend 37) (of_decide_eq_true rfl : isRecv 39) c (qF (yb c)) 3 c (qF (yb c)) 3
      fullShare (target m c) f (sumT ((owedList c).drop 19)) (insert (SemLoc.dma (ds 23), ()) W) (Entails.of_eq (sendPay_37 m c).symm) (land_zdg' m c 1 f)) $$ [Hpay Hd HO Ht37 Ht39]
  · isplitr; · iexact HR
    hand [Hpay, Hd, HO, Ht37, Ht39]
  iintro ⟨Hc37, HO⟩
  -- load 7 has come in
  iapply (step_lwait m K c 3 (of_decide_eq_true rfl : 3 < 4) 1 (of_decide_eq_true rfl : 1 < 2) (sumT ((owedList c).drop 19)) (insert (SemLoc.dma (ds 23), ()) W) (credit_NL _)) $$ [Hc3 HO Hp3]
  · isplitr; · iexact HR
    isplitl [Hc3]; · iexact Hc3
    isplitl [HO]; · iexact HO
    isplitr; · iapply (mayWait_local c 3 (of_decide_eq_true rfl : 3 < 8) 19); iexact Hlev
    iexact Hp3
  iintro ⟨HO, Hp3, -, Hld⟩
  -- store 5 has gone out
  iapply (step_stwait m K c 1 (of_decide_eq_true rfl : 1 < 4) 1 (of_decide_eq_true rfl : 1 < 2) (sumT ((owedList c).drop 19)) (insert (SemLoc.dma (ds 3), ()) (insert (SemLoc.dma (ds 23), ()) W)) (credit_NS _)) $$ [Hc5 HO Hp5]
  · isplitr; · iexact HR
    isplitl [Hc5]; · iexact Hc5
    isplitl [HO]; · iexact HO
    isplitr; · iapply (mayWait_local c 5 (of_decide_eq_true rfl : 5 < 8) 19); iexact Hlev
    iexact Hp5
  iintro ⟨HO, Hp5, -, Hst⟩
  rw [wp_ret]
  imodintro
  iapply Hk
  iexists _
  hand [HO, Hp23, Hc37, Hp3, Hld, Hp5, Hst]

/-- info: 'Cert.KernelIdeal.AG.part14_spec' depends on axioms: [propext, Classical.choice, Quot.sound] -/
#guard_msgs in #print axioms part14_spec
/-- info: 'Cert.KernelIdeal.AG.part15_spec' depends on axioms: [propext, Classical.choice, Quot.sound] -/
#guard_msgs in #print axioms part15_spec
/-- info: 'Cert.KernelIdeal.AG.part16_spec' depends on axioms: [propext, Classical.choice, Quot.sound] -/
#guard_msgs in #print axioms part16_spec
/-- info: 'Cert.KernelIdeal.AG.part17_spec' depends on axioms: [propext, Classical.choice, Quot.sound] -/
#guard_msgs in #print axioms part17_spec

end Cert.KernelIdeal.AG

end
-- ==== Proof.KernelIdealAG.PartsE.lean ====
/-
  The end of a device's program, parts 18 to 21: the last store leaves its slot, and then the device only waits — for
  the chunks its buddies pass on to land, for its last stores, and for its first copies to the partner to have left.
  It has paid everything it owes by then, so every wait is allowed.
-/
import proofs.«900686_g7700000000000687_dist_ag_v7x_xyz2x4x4_x_m16384_n1024_f32_1_alg».proof.Proof.KernelIdealAG.PartDefs

set_option Elab.async false

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

/-! ## Credits and landed rows -/

/-- Any view of 2048 rows of a core's buffer counts a store's credit. -/
theorem credit_NS {sp : Space} (v : Memref sig .tc sp S2048x1024 .f32) : v.view.dmaCredit = NS := rfl

/-- What a landed copy hands over, with the rows it guards named. -/
theorem recvPay_at (c : Dev nD) (n : ℕ) (R : Rect S32768x1024) (h : recvRect c n = R) :
    recvPay m c n = pts c main_v1 R fullShare (target m c) := by unfold recvPay; rw [h]

/-! ## The parts -/

set_option maxHeartbeats 1000000 in
/-- The last two chunks from the z buddy and the first diagonal chunk from the y buddy land. -/
theorem part19_spec (c : Dev nD) (v2 v5 v8 v30 v31 v34 v45 v50 v553 : BitVec 32) (W : Waits sig Unit) (Φ : PUnit → sProp 𝕄) :
    iprop(records m K ∗ levAts L lv
        ∗ (ow c 19 W ∗ crd c 30 N ∗ pos c 30 0 ∗ crd c 31 N ∗ pos c 31 0 ∗ crd c 34 N ∗ pos c 34 0)
        ∗ ((∃ W', ow c 19 W' ∗ pos c 30 1 ∗ pts c main_v1 (oCh c (qF (zb c)) 2) fullShare (target m c)
            ∗ pos c 31 1 ∗ pts c main_v1 (oCh c (qF (zb c)) 3) fullShare (target m c)
            ∗ pos c 34 1 ∗ pts c main_v1 (oCh c (qF (zb (yb c))) 0) fullShare (target m c)) -∗ Φ ⟨⟩))
      ⊢ wp frame (wpE (defs₀ (F := F)) 𝒱₀ c none) Set.univ (k0_part19 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v45 v50 v553) Φ := by
  unfold k0_part19
  simp only [Prog.lift, Prog.bind_op, Prog.bind_ret, Prog.pure_eq_ret]
  iintro ⟨#HR, #Hlev, ⟨HO, Hc30, Hp30, Hc31, Hp31, Hc34, Hp34⟩, Hk⟩
  -- the third chunk from the z buddy
  iapply (step_rwait m K c 30 (by omega) (by unfold isRecv; omega) _ _ (credit_N _)) $$ [Hc30 HO Hp30]
  · isplitr; · iexact HR
    isplitl [Hc30]; · iexact Hc30
    isplitl [HO]; · iexact HO
    isplitr; · iapply (mayWait_nil c _) $$ Hlev
    iexact Hp30
  iintro ⟨HO, Hp30, Hr30⟩
  -- the fourth
  iapply (step_rwait m K c 31 (by omega) (by unfold isRecv; omega) _ _ (credit_N _)) $$ [Hc31 HO Hp31]
  · isplitr; · iexact HR
    isplitl [Hc31]; · iexact Hc31
    isplitl [HO]; · iexact HO
    isplitr; · iapply (mayWait_nil c _) $$ Hlev
    iexact Hp31
  iintro ⟨HO, Hp31, Hr31⟩
  -- the first diagonal chunk from the y buddy
  iapply (step_rwait m K c 34 (by omega) (by unfold isRecv; omega) _ _ (credit_N _)) $$ [Hc34 HO Hp34]
  · isplitr; · iexact HR
    isplitl [Hc34]; · iexact Hc34
    isplitl [HO]; · iexact HO
    isplitr; · iapply (mayWait_nil c _) $$ Hlev
    iexact Hp34
  iintro ⟨HO, Hp34, Hr34⟩
  rw [wp_ret]; imodintro
  iapply Hk
  iexists _
  isplitl [HO]; · iexact HO
  isplitl [Hp30]; · iexact Hp30
  isplitl [Hr30]; · iapply (Entails.of_eq (recvPay_at m c 30 _ (recvRect_30 c))) $$ Hr30
  isplitl [Hp31]; · iexact Hp31
  isplitl [Hr31]; · iapply (Entails.of_eq (recvPay_at m c 31 _ (recvRect_31 c))) $$ Hr31
  isplitl [Hp34]; · iexact Hp34
  iapply (Entails.of_eq (recvPay_at m c 34 _ (recvRect_34 c))) $$ Hr34

set_option maxHeartbeats 1000000 in
/-- The second diagonal chunk from the y buddy and the first from the z buddy land. -/
theorem part20_spec (c : Dev nD) (v2 v5 v8 v30 v31 v34 v50 : BitVec 32) (W : Waits sig Unit) (Φ : PUnit → sProp 𝕄) :
    iprop(records m K ∗ levAts L lv
        ∗ (ow c 19 W ∗ crd c 35 N ∗ pos c 35 0 ∗ crd c 38 N ∗ pos c 38 0)
        ∗ ((∃ W', ow c 19 W' ∗ pos c 35 1 ∗ pts c main_v1 (oCh c (qF (zb (yb c))) 1) fullShare (target m c)
            ∗ pos c 38 1 ∗ pts c main_v1 (oCh c (qF (yb (zb c))) 2) fullShare (target m c)) -∗ Φ ⟨⟩))
      ⊢ wp frame (wpE (defs₀ (F := F)) 𝒱₀ c none) Set.univ (k0_part20 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v31 v34 v50) Φ := by
  unfold k0_part20
  simp only [Prog.lift, Prog.bind_op, Prog.bind_ret, Prog.pure_eq_ret]
  iintro ⟨#HR, #Hlev, ⟨HO, Hc35, Hp35, Hc38, Hp38⟩, Hk⟩
  -- the second diagonal chunk from the y buddy
  iapply (step_rwait m K c 35 (by omega) (by unfold isRecv; omega) _ _ (credit_N _)) $$ [Hc35 HO Hp35]
  · isplitr; · iexact HR
    isplitl [Hc35]; · iexact Hc35
    isplitl [HO]; · iexact HO
    isplitr; · iapply (mayWait_nil c _) $$ Hlev
    iexact Hp35
  iintro ⟨HO, Hp35, Hr35⟩
  -- the first diagonal chunk from the z buddy
  iapply (step_rwait m K c 38 (by omega) (by unfold isRecv; omega) _ _ (credit_N _)) $$ [Hc38 HO Hp38]
  · isplitr; · iexact HR
    isplitl [Hc38]; · iexact Hc38
    isplitl [HO]; · iexact HO
    isplitr; · iapply (mayWait_nil c _) $$ Hlev
    iexact Hp38
  iintro ⟨HO, Hp38, Hr38⟩
  rw [wp_ret]; imodintro
  iapply Hk
  iexists _
  isplitl [HO]; · iexact HO
  isplitl [Hp35]; · iexact Hp35
  isplitl [Hr35]; · iapply (Entails.of_eq (recvPay_at m c 35 _ (recvRect_35 c))) $$ Hr35
  isplitl [Hp38]; · iexact Hp38
  iapply (Entails.of_eq (recvPay_at m c 38 _ (recvRect_38 c))) $$ Hr38

/-- info: 'Cert.KernelIdeal.AG.part19_spec' depends on axioms: [propext, Classical.choice, Quot.sound] -/
#guard_msgs in #print axioms part19_spec
/-- info: 'Cert.KernelIdeal.AG.part20_spec' depends on axioms: [propext, Classical.choice, Quot.sound] -/
#guard_msgs in #print axioms part20_spec

end Cert.KernelIdeal.AG

end
-- ==== Proof.KernelIdealAG.PartsE2.lean ====
/-
  The end of a device's program, parts 18 and 21: the last store leaves its slot and the first two chunks the y buddy
  passes on land; and, last, the fourth diagonal chunk lands, the last two stores have left their slots, and the first
  three copies to the partner have left. The device owes nothing any more, so every wait is allowed.
-/
import proofs.«900686_g7700000000000687_dist_ag_v7x_xyz2x4x4_x_m16384_n1024_f32_1_alg».proof.Proof.KernelIdealAG.PartsE
import proofs.«900686_g7700000000000687_dist_ag_v7x_xyz2x4x4_x_m16384_n1024_f32_1_alg».proof.Proof.KernelIdealAG.LandingSlot

set_option Elab.async false

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 1000000 in
/-- The last store leaves its slot; the first two chunks from the y buddy land. -/
theorem part18_spec (c : Dev nD) (v2 v5 v8 v30 v34 v41 v45 : BitVec 32) (W : Waits sig Unit)
    (fo : Buf (Elt F) ((c : Thread nD τ).loc main_v1)) (Φ : BitVec 32 → sProp 𝕄) :
    iprop(records m K ∗ levAts L lv
        ∗ (ow c 19 W ∗ pts c cc0_scratch0 (vSl 3) fullShare (vfill m c 7) ∗ pts c main_v1 (oOwn c 7) fullShare fo ∗ tok c 7 1 ∗ rch c 7 1
            ∗ crd c 20 N ∗ pos c 20 0 ∗ crd c 21 N ∗ pos c 21 0)
        ∗ (∀ r, (∃ W', ow c 19 W' ∗ crd c 7 NS ∗ pos c 20 1 ∗ pts c main_v1 (oCh c (qF (yb c)) 0) fullShare (target m c)
            ∗ pos c 21 1 ∗ pts c main_v1 (oCh c (qF (yb c)) 1) fullShare (target m c)) -∗ Φ r))
      ⊢ wp frame (wpE (defs₀ (F := F)) 𝒱₀ c none) Set.univ (k0_part18 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v30 v34 v41 v45) Φ := by
  unfold k0_part18
  simp (config := { proj := false }) only [Prog.lift, Prog.bind_op, Prog.bind_ret, Prog.pure_eq_ret, slice_off4_7 c]
  iintro ⟨#HR, #Hlev, ⟨HO, Hv3, Ho7, Ht7, #Hr7, Hc20, Hp20, Hc21, Hp21⟩, Hk⟩
  -- the eighth store: slot 3, holding the last chunk of the argument, into the last chunk of the device's own half
  iapply (step_store m K c 7 3 1 rfl rfl fo (land_st m c 7 3 rfl fo)) $$ [Hv3 Ho7 Ht7]
  · isplitr; · iexact HR
    isplitr; · iexact Hr7
    isplitl [Hv3]; · iexact Hv3
    isplitl [Ho7]; · iexact Ho7
    iexact Ht7
  iintro Hc7
  -- the first chunk from the y buddy
  iapply (step_rwait m K c 20 (by omega) (by unfold isRecv; omega) _ _ (credit_N _)) $$ [Hc20 HO Hp20]
  · isplitr; · iexact HR
    isplitl [Hc20]; · iexact Hc20
    isplitl [HO]; · iexact HO
    isplitr; · iapply (mayWait_nil c _) $$ Hlev
    iexact Hp20
  iintro ⟨HO, Hp20, Hr20⟩
  -- the second
  iapply (step_rwait m K c 21 (by omega) (by unfold isRecv; omega) _ _ (credit_N _)) $$ [Hc21 HO Hp21]
  · isplitr; · iexact HR
    isplitl [Hc21]; · iexact Hc21
    isplitl [HO]; · iexact HO
    isplitr; · iapply (mayWait_nil c _) $$ Hlev
    iexact Hp21
  iintro ⟨HO, Hp21, Hr21⟩
  rw [wp_ret]; imodintro
  iapply Hk
  iexists _
  isplitl [HO]; · iexact HO
  isplitl [Hc7]; · iexact Hc7
  isplitl [Hp20]; · iexact Hp20
  isplitl [Hr20]; · iapply (Entails.of_eq (recvPay_at m c 20 _ (recvRect_20 c))) $$ Hr20
  isplitl [Hp21]; · iexact Hp21
  iapply (Entails.of_eq (recvPay_at m c 21 _ (recvRect_21 c))) $$ Hr21

set_option maxHeartbeats 1000000 in
/-- The last diagonal chunk lands; the last two stores and the first three copies to the partner have left. -/
theorem part21_spec (c : Dev nD) (W : Waits sig Unit) (Φ : PUnit → sProp 𝕄) :
    iprop(records m K ∗ levAts L lv
        ∗ (ow c 19 W ∗ crd c 39 N ∗ pos c 39 0 ∗ crd c 6 NS ∗ pos c 6 1 ∗ crd c 7 NS ∗ pos c 7 1
            ∗ crd c 8 N ∗ pos c 8 0 ∗ crd c 9 N ∗ pos c 9 0 ∗ crd c 10 N ∗ pos c 10 0)
        ∗ ((∃ W', ow c 19 W' ∗ pos c 39 1 ∗ pts c main_v1 (oCh c (qF (yb (zb c))) 3) fullShare (target m c)
            ∗ pos c 6 2 ∗ stPay m c 6 ∗ pos c 7 2 ∗ stPay m c 7
            ∗ pos c 8 1 ∗ sendPay m c 8 ∗ pos c 9 1 ∗ sendPay m c 9 ∗ pos c 10 1 ∗ sendPay m c 10) -∗ Φ ⟨⟩))
      ⊢ wp frame (wpE (defs₀ (F := F)) 𝒱₀ c none) Set.univ (k0_part21 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  have h8 : (8 : ℕ) < 40 := by omega
  have h9 : (9 : ℕ) < 40 := by omega
  have h10 : (10 : ℕ) < 40 := by omega
  have s8 : isSend 8 := by unfold isSend; omega
  have s9 : isSend 9 := by unfold isSend; omega
  have s10 : isSend 10 := by unfold isSend; omega
  unfold k0_part21
  simp only [Prog.lift, Prog.bind_op, Prog.bind_ret, Prog.pure_eq_ret]
  iintro ⟨#HR, #Hlev, ⟨HO, Hc39, Hp39, Hc6, Hp6, Hc7, Hp7, Hc8, Hp8, Hc9, Hp9, Hc10, Hp10⟩, Hk⟩
  -- the last diagonal chunk from the z buddy
  iapply (step_rwait m K c 39 (by omega) (by unfold isRecv; omega) _ _ (credit_N _)) $$ [Hc39 HO Hp39]
  · isplitr; · iexact HR
    isplitl [Hc39]; · iexact Hc39
    isplitl [HO]; · iexact HO
    isplitr; · iapply (mayWait_nil c _) $$ Hlev
    iexact Hp39
  iintro ⟨HO, Hp39, Hr39⟩
  -- the seventh store has left slot 2
  iapply (step_stwait m K c 2 (by omega) 1 (by omega) _ _ (credit_NS _)) $$ [Hc6 HO Hp6]
  · isplitr; · iexact HR
    isplitl [Hc6]; · iexact Hc6
    isplitl [HO]; · iexact HO
    isplitr; · iapply (mayWait_nil c _) $$ Hlev
    iexact Hp6
  iintro ⟨HO, Hp6, -, Hs6⟩
  -- the eighth, slot 3
  iapply (step_stwait m K c 3 (by omega) 1 (by omega) _ _ (credit_NS _)) $$ [Hc7 HO Hp7]
  · isplitr; · iexact HR
    isplitl [Hc7]; · iexact Hc7
    isplitl [HO]; · iexact HO
    isplitr; · iapply (mayWait_nil c _) $$ Hlev
    iexact Hp7
  iintro ⟨HO, Hp7, -, Hs7⟩
  -- the first three copies to the partner have left: each wait is for the one duty of its send cell's one round
  iapply (step_wait m K c 8 h8 0 N (duties_dma m c 8 h8) (amount_rem m c 8 (by omega) h8 0 0) _ _ (credit_N _)) $$ [Hc8 HO Hp8]
  · isplitr; · iexact HR
    isplitl [Hc8]; · iexact Hc8
    isplitl [HO]; · iexact HO
    isplitr; · iapply (mayWait_nil c _) $$ Hlev
    iexact Hp8
  iintro ⟨HO, Hp8, -, Hs8⟩
  iapply (step_wait m K c 9 h9 0 N (duties_dma m c 9 h9) (amount_rem m c 9 (by omega) h9 0 0) _ _ (credit_N _)) $$ [Hc9 HO Hp9]
  · isplitr; · iexact HR
    isplitl [Hc9]; · iexact Hc9
    isplitl [HO]; · iexact HO
    isplitr; · iapply (mayWait_nil c _) $$ Hlev
    iexact Hp9
  iintro ⟨HO, Hp9, -, Hs9⟩
  iapply (step_wait m K c 10 h10 0 N (duties_dma m c 10 h10) (amount_rem m c 10 (by omega) h10 0 0) _ _ (credit_N _)) $$ [Hc10 HO Hp10]
  · isplitr; · iexact HR
    isplitl [Hc10]; · iexact Hc10
    isplitl [HO]; · iexact HO
    isplitr; · iapply (mayWait_nil c _) $$ Hlev
    iexact Hp10
  iintro ⟨HO, Hp10, -, Hs10⟩
  rw [wp_ret]; imodintro
  iapply Hk
  iexists _
  isplitl [HO]; · iexact HO
  isplitl [Hp39]; · iexact Hp39
  isplitl [Hr39]; · iapply (Entails.of_eq (recvPay_at m c 39 _ (recvRect_39 c))) $$ Hr39
  isplitl [Hp6]; · iexact Hp6
  isplitl [Hs6]; · iexact Hs6
  isplitl [Hp7]; · iexact Hp7
  isplitl [Hs7]; · iexact Hs7
  isplitl [Hp8]; · iexact Hp8
  isplitl [Hs8]; · iapply (Entails.of_eq (payload_send m c 8 h8 s8 0 0)) $$ Hs8
  isplitl [Hp9]; · iexact Hp9
  isplitl [Hs9]; · iapply (Entails.of_eq (payload_send m c 9 h9 s9 0 0)) $$ Hs9
  isplitl [Hp10]; · iexact Hp10
  iapply (Entails.of_eq (payload_send m c 10 h10 s10 0 0)) $$ Hs10

/-- info: 'Cert.KernelIdeal.AG.part18_spec' depends on axioms: [propext, Classical.choice, Quot.sound] -/
#guard_msgs in #print axioms part18_spec
/-- info: 'Cert.KernelIdeal.AG.part21_spec' depends on axioms: [propext, Classical.choice, Quot.sound] -/
#guard_msgs in #print axioms part21_spec

end Cert.KernelIdeal.AG

end
-- ==== Proof.KernelIdealAG.PartsF.lean ====
/-
  The last waits of the body: a device waits for twelve of its copies to have left, one after the other. By then it
  owes nothing, so each wait is allowed, and each hands back the share of the rows that copy read.
-/
import proofs.«900686_g7700000000000687_dist_ag_v7x_xyz2x4x4_x_m16384_n1024_f32_1_alg».proof.Proof.KernelIdealAG.PartDefs

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

omit [FloatOps F] in
/-- After its nineteen payments a device owes nothing. -/
theorem ow_19 (c : Dev nD) (W : Waits sig Unit) : (ow c 19 W : sProp 𝕄) = owes (c : Thread nD τ) 0 W := rfl

/-- The wait for a copy's departure, by a device that owes nothing: its premise and its continuation joined, the
    set of recorded waits left open on both sides. -/
theorem swait (c : Dev nD) (n : ℕ) (hn : n < 40) (hs : isSend n)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (hcr : dstw.view.dmaCredit = N) :
    iprop((records m K ∗ cred (tallyAt (cell c n hn) () N) ∗ (∃ W, owes (c : Thread nD τ) 0 W) ∗ atPos ER (cell c n hn) 0 ∅ 0)
        ∗ (((∃ W, owes (c : Thread nD τ) 0 W) ∗ atPos ER (cell c n hn) 1 ∅ 0 ∗ sendPay m c n)
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (ds n hn) srcw dstw hsrc hdst) k) Q := by
  iintro ⟨⟨#HR, Hc, ⟨%W, HO⟩, Hat⟩, Hk⟩
  iapply (step_swait m K c n hn hs W hcr) $$ [Hc HO Hat]
  · isplitr; · iexact HR
    isplitl [Hc]; · iexact Hc
    isplitl [HO]; · iexact HO
    iexact Hat
  iintro ⟨HO, Hat, Hpay⟩
  iapply Hk
  isplitl [HO]; · iexists _; iexact HO
  isplitl [Hat]; · iexact Hat
  iexact Hpay

/-- Six waits for departures in a row, by a device that owes nothing: each takes the copy's credit and the device's
    place at the send cell, and hands back the place at the next round and the share of the rows the copy read. -/
theorem swaits6 (c : Dev nD)
    (n1 : ℕ) (h1 : n1 < 40) (s1 : isSend n1)
    (n2 : ℕ) (h2 : n2 < 40) (s2 : isSend n2)
    (n3 : ℕ) (h3 : n3 < 40) (s3 : isSend n3)
    (n4 : ℕ) (h4 : n4 < 40) (s4 : isSend n4)
    (n5 : ℕ) (h5 : n5 < 40) (s5 : isSend n5)
    (n6 : ℕ) (h6 : n6 < 40) (s6 : isSend n6)
    {a1 b1 : Memref sig .tc .hbm S1024x1024 .f32} {ha1 : a1.view.WordExact} {hb1 : b1.view.WordExact}
    {a2 b2 : Memref sig .tc .hbm S1024x1024 .f32} {ha2 : a2.view.WordExact} {hb2 : b2.view.WordExact}
    {a3 b3 : Memref sig .tc .hbm S1024x1024 .f32} {ha3 : a3.view.WordExact} {hb3 : b3.view.WordExact}
    {a4 b4 : Memref sig .tc .hbm S1024x1024 .f32} {ha4 : a4.view.WordExact} {hb4 : b4.view.WordExact}
    {a5 b5 : Memref sig .tc .hbm S1024x1024 .f32} {ha5 : a5.view.WordExact} {hb5 : b5.view.WordExact}
    {a6 b6 : Memref sig .tc .hbm S1024x1024 .f32} {ha6 : a6.view.WordExact} {hb6 : b6.view.WordExact}
    (W : Waits sig Unit) (Φ : PUnit → sProp 𝕄) :
    iprop(records m K ∗ levAts L lv
        ∗ (owes (c : Thread nD τ) 0 W
            ∗ cred (tallyAt (cell c n1 h1) () N) ∗ atPos ER (cell c n1 h1) 0 ∅ 0
            ∗ cred (tallyAt (cell c n2 h2) () N) ∗ atPos ER (cell c n2 h2) 0 ∅ 0
            ∗ cred (tallyAt (cell c n3 h3) () N) ∗ atPos ER (cell c n3 h3) 0 ∅ 0
            ∗ cred (tallyAt (cell c n4 h4) () N) ∗ atPos ER (cell c n4 h4) 0 ∅ 0
            ∗ cred (tallyAt (cell c n5 h5) () N) ∗ atPos ER (cell c n5 h5) 0 ∅ 0
            ∗ cred (tallyAt (cell c n6 h6) () N) ∗ atPos ER (cell c n6 h6) 0 ∅ 0)
        ∗ ((∃ W', owes (c : Thread nD τ) 0 W'
            ∗ atPos ER (cell c n1 h1) 1 ∅ 0 ∗ sendPay m c n1
            ∗ atPos ER (cell c n2 h2) 1 ∅ 0 ∗ sendPay m c n2
            ∗ atPos ER (cell c n3 h3) 1 ∅ 0 ∗ sendPay m c n3
            ∗ atPos ER (cell c n4 h4) 1 ∅ 0 ∗ sendPay m c n4
            ∗ atPos ER (cell c n5 h5) 1 ∅ 0 ∗ sendPay m c n5
            ∗ atPos ER (cell c n6 h6) 1 ∅ 0 ∗ sendPay m c n6) -∗ Φ ⟨⟩))
      ⊢ wp frame (wpE (defs₀ (F := F)) 𝒱₀ (c : Thread nD τ) none) Set.univ
          (.op (.waitDma2 (ds n1 h1) a1 b1 ha1 hb1) fun _ =>
            (.op (.waitDma2 (ds n2 h2) a2 b2 ha2 hb2) fun _ =>
            (.op (.waitDma2 (ds n3 h3) a3 b3 ha3 hb3) fun _ =>
            (.op (.waitDma2 (ds n4 h4) a4 b4 ha4 hb4) fun _ =>
            (.op (.waitDma2 (ds n5 h5) a5 b5 ha5 hb5) fun _ =>
            (.op (.waitDma2 (ds n6 h6) a6 b6 ha6 hb6) fun _ =>
            .ret ⟨⟩)))))) Φ := by
  iintro ⟨#HR, #Hlev, ⟨HO, Hc1, Hp1, Hc2, Hp2, Hc3, Hp3, Hc4, Hp4, Hc5, Hp5, Hc6, Hp6⟩, Hk⟩
  iapply (swait m K c n1 h1 s1 (credit_N _))
  isplitl [Hc1 HO Hp1]
  · isplitr; · iexact HR
    isplitl [Hc1]; · iexact Hc1
    isplitl [HO]; · iexists W; iexact HO
    iexact Hp1
  iintro ⟨HO, Hp1, Hs1⟩
  iapply (swait m K c n2 h2 s2 (credit_N _))
  isplitl [Hc2 HO Hp2]
  · isplitr; · iexact HR
    isplitl [Hc2]; · iexact Hc2
    isplitl [HO]; · iexact HO
    iexact Hp2
  iintro ⟨HO, Hp2, Hs2⟩
  iapply (swait m K c n3 h3 s3 (credit_N _))
  isplitl [Hc3 HO Hp3]
  · isplitr; · iexact HR
    isplitl [Hc3]; · iexact Hc3
    isplitl [HO]; · iexact HO
    iexact Hp3
  iintro ⟨HO, Hp3, Hs3⟩
  iapply (swait m K c n4 h4 s4 (credit_N _))
  isplitl [Hc4 HO Hp4]
  · isplitr; · iexact HR
    isplitl [Hc4]; · iexact Hc4
    isplitl [HO]; · iexact HO
    iexact Hp4
  iintro ⟨HO, Hp4, Hs4⟩
  iapply (swait m K c n5 h5 s5 (credit_N _))
  isplitl [Hc5 HO Hp5]
  · isplitr; · iexact HR
    isplitl [Hc5]; · iexact Hc5
    isplitl [HO]; · iexact HO
    iexact Hp5
  iintro ⟨HO, Hp5, Hs5⟩
  iapply (swait m K c n6 h6 s6 (credit_N _))
  isplitl [Hc6 HO Hp6]
  · isplitr; · iexact HR
    isplitl [Hc6]; · iexact Hc6
    isplitl [HO]; · iexact HO
    iexact Hp6
  iintro ⟨HO, Hp6, Hs6⟩
  rw [wp_ret]
  imodintro
  icases HO with ⟨%W', HO⟩
  iapply Hk
  iexists W'
  hand [HO, Hp1, Hs1, Hp2, Hs2, Hp3, Hs3, Hp4, Hs4, Hp5, Hs5, Hp6, Hs6]

/-- The waits for the departures of the last x copy, of the first three y copies and of the first two z copies. -/
theorem part22_spec (c : Dev nD) (W : Waits sig Unit) (Φ : PUnit → sProp 𝕄) :
    iprop(records m K ∗ levAts L lv
        ∗ (ow c 19 W ∗ crd c 11 N ∗ pos c 11 0 ∗ crd c 16 N ∗ pos c 16 0 ∗ crd c 24 N ∗ pos c 24 0 ∗ crd c 17 N ∗ pos c 17 0
            ∗ crd c 25 N ∗ pos c 25 0 ∗ crd c 18 N ∗ pos c 18 0)
        ∗ ((∃ W', ow c 19 W' ∗ pos c 11 1 ∗ sendPay m c 11 ∗ pos c 16 1 ∗ sendPay m c 16 ∗ pos c 24 1 ∗ sendPay m c 24
            ∗ pos c 17 1 ∗ sendPay m c 17 ∗ pos c 25 1 ∗ sendPay m c 25 ∗ pos c 18 1 ∗ sendPay m c 18) -∗ Φ ⟨⟩))
      ⊢ wp frame (wpE (defs₀ (F := F)) 𝒱₀ c none) Set.univ (k0_part22 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  unfold k0_part22
  simp only [Prog.lift, Prog.bind_op, Prog.bind_ret, Prog.pure_eq_ret]
  rw [sem_s3_3, sem_s5_0, sem_s7_0, sem_s5_1, sem_s7_1, sem_s5_2]
  simp only [ow_19]
  exact swaits6 m K c 11 (of_decide_eq_true rfl) (of_decide_eq_true rfl) 16 (of_decide_eq_true rfl) (of_decide_eq_true rfl) 24 (of_decide_eq_true rfl) (of_decide_eq_true rfl) 17 (of_decide_eq_true rfl) (of_decide_eq_true rfl) 25 (of_decide_eq_true rfl) (of_decide_eq_true rfl) 18 (of_decide_eq_true rfl) (of_decide_eq_true rfl) W Φ

/-- The waits for the departures of the last two z copies, of the last y copy, and of three of the diagonal copies. -/
theorem part23_spec (c : Dev nD) (W : Waits sig Unit) (Φ : PUnit → sProp 𝕄) :
    iprop(records m K ∗ levAts L lv
        ∗ (ow c 19 W ∗ crd c 26 N ∗ pos c 26 0 ∗ crd c 19 N ∗ pos c 19 0 ∗ crd c 27 N ∗ pos c 27 0 ∗ crd c 32 N ∗ pos c 32 0
            ∗ crd c 33 N ∗ pos c 33 0 ∗ crd c 36 N ∗ pos c 36 0)
        ∗ ((∃ W', ow c 19 W' ∗ pos c 26 1 ∗ sendPay m c 26 ∗ pos c 19 1 ∗ sendPay m c 19 ∗ pos c 27 1 ∗ sendPay m c 27
            ∗ pos c 32 1 ∗ sendPay m c 32 ∗ pos c 33 1 ∗ sendPay m c 33 ∗ pos c 36 1 ∗ sendPay m c 36) -∗ Φ ⟨⟩))
      ⊢ wp frame (wpE (defs₀ (F := F)) 𝒱₀ c none) Set.univ (k0_part23 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Φ := by
  unfold k0_part23
  simp only [Prog.lift, Prog.bind_op, Prog.bind_ret, Prog.pure_eq_ret]
  rw [sem_s7_2, sem_s5_3, sem_s7_3, sem_s9_0, sem_s9_1, sem_s11_0]
  simp only [ow_19]
  exact swaits6 m K c 26 (of_decide_eq_true rfl) (of_decide_eq_true rfl) 19 (of_decide_eq_true rfl) (of_decide_eq_true rfl) 27 (of_decide_eq_true rfl) (of_decide_eq_true rfl) 32 (of_decide_eq_true rfl) (of_decide_eq_true rfl) 33 (of_decide_eq_true rfl) (of_decide_eq_true rfl) 36 (of_decide_eq_true rfl) (of_decide_eq_true rfl) W Φ

/-- info: 'Cert.KernelIdeal.AG.part22_spec' depends on axioms: [propext, Classical.choice, Quot.sound] -/
#guard_msgs in #print axioms part22_spec
/-- info: 'Cert.KernelIdeal.AG.part23_spec' depends on axioms: [propext, Classical.choice, Quot.sound] -/
#guard_msgs in #print axioms part23_spec

end Cert.KernelIdeal.AG

end
-- ==== Proof.KernelIdealAG.TailDefs.lean ====
/-
  The end of the body, in bundles: what each of the last three parts and the last wait takes and hands back (besides
  what the device owes), what the exit needs besides, and the two flat spellings the body and the exit use.
-/
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.PartsE2
import proofs.«900686_g7700000000000687_dist_ag_v7x_xyz2x4x4_x_m16384_n1024_f32_1_alg».proof.Proof.KernelIdealAG.PartsF
import proofs.«900686_g7700000000000687_dist_ag_v7x_xyz2x4x4_x_m16384_n1024_f32_1_alg».proof.Proof.KernelIdealAG.Exit

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The last three parts and the last wait, as the body's skeleton ends. -/
def tail21 (c : Dev nD) : Prog (TpuEff nD τ sig (Elt F) Λ₀ .tc) PUnit := do
  k0_part21 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  k0_part22 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  k0_part23 M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 c
  let v690 : DmaSems sig S1 := cc0_scratch11.slice (Rect.unit (s := S2) ![1] S1.size inb_S2_S1_1)
  let v691 : DmaSems sig S_ := v690.squeeze S_ squeezes_S1_S_
  let v692 : Memref sig .tc .hbm S1024x1024 .f32 := M1.slice (Rect.unit (s := S32768x1024) (k0_off6 c 3072#32) S1024x1024.size (k0_off6_inb c 3)) (fun _ => rfl)
  let v693 : Memref sig .tc .hbm S1024x1024 .f32 := M1.slice (Rect.unit (s := S32768x1024) (k0_off6 c 3072#32) S1024x1024.size (k0_off6_inb c 3)) (fun _ => rfl)
  Prog.lift (.waitDma2 v691.sem v693 v692 (View.wordExact_bits rfl) (View.wordExact_bits rfl))
  pure ⟨⟩

/-- What part 21 takes besides what is owed, and what it hands back. -/
def P21 (c : Dev nD) : sProp 𝕄 :=
  iprop(crd c 39 N ∗ pos c 39 0 ∗ crd c 6 NS ∗ pos c 6 1 ∗ crd c 7 NS ∗ pos c 7 1 ∗ crd c 8 N ∗ pos c 8 0 ∗ crd c 9 N ∗ pos c 9 0 ∗ crd c 10 N ∗ pos c 10 0)
def Q21 (c : Dev nD) : sProp 𝕄 :=
  iprop(pos c 39 1 ∗ pts c main_v1 (oCh c (qF (yb (zb c))) 3) fullShare (target m c) ∗ pos c 6 2 ∗ stPay m c 6 ∗ pos c 7 2 ∗ stPay m c 7
    ∗ pos c 8 1 ∗ sendPay m c 8 ∗ pos c 9 1 ∗ sendPay m c 9 ∗ pos c 10 1 ∗ sendPay m c 10)
/-- Part 22. -/
def P22 (c : Dev nD) : sProp 𝕄 :=
  iprop(crd c 11 N ∗ pos c 11 0 ∗ crd c 16 N ∗ pos c 16 0 ∗ crd c 24 N ∗ pos c 24 0 ∗ crd c 17 N ∗ pos c 17 0 ∗ crd c 25 N ∗ pos c 25 0 ∗ crd c 18 N ∗ pos c 18 0)
def Q22 (c : Dev nD) : sProp 𝕄 :=
  iprop(pos c 11 1 ∗ sendPay m c 11 ∗ pos c 16 1 ∗ sendPay m c 16 ∗ pos c 24 1 ∗ sendPay m c 24
    ∗ pos c 17 1 ∗ sendPay m c 17 ∗ pos c 25 1 ∗ sendPay m c 25 ∗ pos c 18 1 ∗ sendPay m c 18)
/-- Part 23. -/
def P23 (c : Dev nD) : sProp 𝕄 :=
  iprop(crd c 26 N ∗ pos c 26 0 ∗ crd c 19 N ∗ pos c 19 0 ∗ crd c 27 N ∗ pos c 27 0 ∗ crd c 32 N ∗ pos c 32 0 ∗ crd c 33 N ∗ pos c 33 0 ∗ crd c 36 N ∗ pos c 36 0)
def Q23 (c : Dev nD) : sProp 𝕄 :=
  iprop(pos c 26 1 ∗ sendPay m c 26 ∗ pos c 19 1 ∗ sendPay m c 19 ∗ pos c 27 1 ∗ sendPay m c 27
    ∗ pos c 32 1 ∗ sendPay m c 32 ∗ pos c 33 1 ∗ sendPay m c 33 ∗ pos c 36 1 ∗ sendPay m c 36)
/-- The last wait. -/
def P37 (c : Dev nD) : sProp 𝕄 := iprop(crd c 37 N ∗ pos c 37 0)
def Q37 (c : Dev nD) : sProp 𝕄 := iprop(pos c 37 1 ∗ sendPay m c 37)

/-- What the exit needs besides: the cells the end of the body does not touch, and the pieces of the three buffers
    already back. -/
def frameT (c : Dev nD) : sProp 𝕄 :=
  iprop((pos c 0 2 ∗ pos c 1 2 ∗ pos c 2 2 ∗ pos c 3 2 ∗ pos c 4 2 ∗ pos c 5 2 ∗ pos c 12 1 ∗ pos c 13 1 ∗ pos c 14 1 ∗ pos c 15 1
      ∗ pos c 20 1 ∗ pos c 21 1 ∗ pos c 22 1 ∗ pos c 23 1 ∗ pos c 28 1 ∗ pos c 29 1 ∗ pos c 30 1 ∗ pos c 31 1 ∗ pos c 34 1 ∗ pos c 35 1 ∗ pos c 38 1)
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c)
        ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c)
        ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

/-- What the device holds after its twentieth part, as the body lists it. -/
def tailPre (c : Dev nD) (W : Waits sig Unit) : sProp 𝕄 :=
  iprop(ow c 19 W
    ∗ (crd c 39 N ∗ crd c 6 NS ∗ crd c 7 NS ∗ crd c 8 N ∗ crd c 9 N ∗ crd c 10 N ∗ crd c 11 N ∗ crd c 16 N ∗ crd c 24 N ∗ crd c 17 N
        ∗ crd c 25 N ∗ crd c 18 N ∗ crd c 26 N ∗ crd c 19 N ∗ crd c 27 N ∗ crd c 32 N ∗ crd c 33 N ∗ crd c 36 N ∗ crd c 37 N)
    ∗ (pos c 0 2 ∗ pos c 1 2 ∗ pos c 2 2 ∗ pos c 3 2 ∗ pos c 4 2 ∗ pos c 5 2 ∗ pos c 6 1 ∗ pos c 7 1 ∗ pos c 8 0 ∗ pos c 9 0
        ∗ pos c 10 0 ∗ pos c 11 0 ∗ pos c 12 1 ∗ pos c 13 1 ∗ pos c 14 1 ∗ pos c 15 1 ∗ pos c 16 0 ∗ pos c 17 0 ∗ pos c 18 0 ∗ pos c 19 0
        ∗ pos c 20 1 ∗ pos c 21 1 ∗ pos c 22 1 ∗ pos c 23 1 ∗ pos c 24 0 ∗ pos c 25 0 ∗ pos c 26 0 ∗ pos c 27 0 ∗ pos c 28 1 ∗ pos c 29 1
        ∗ pos c 30 1 ∗ pos c 31 1 ∗ pos c 32 0 ∗ pos c 33 0 ∗ pos c 34 1 ∗ pos c 35 1 ∗ pos c 36 0 ∗ pos c 37 0 ∗ pos c 38 1 ∗ pos c 39 0)
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c)
        ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c)
        ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

end Cert.KernelIdeal.AG

end
-- ==== Proof.KernelIdealAG.TailBundle.lean ====
/-
  What the device holds after its twentieth part, regrouped: what it owes with what part 21 takes, then what parts 22
  and 23 and the last wait take, each as one bundle, and beside them everything else the exit needs.
-/
import proofs.«900686_g7700000000000687_dist_ag_v7x_xyz2x4x4_x_m16384_n1024_f32_1_alg».proof.Proof.KernelIdealAG.TailDefs

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The flat list the body hands over is the bundles of the last parts and of the exit's frame: the same atoms,
    each credit beside its cell's position. -/
theorem tail_bundle (c : Dev nD) (W : Waits sig Unit) :
    (tailPre m c W : sProp 𝕄) ⊢ iprop(((ow c 19 W ∗ P21 c) ∗ P22 c ∗ P23 c ∗ P37 c) ∗ frameT m c) := by
  unfold tailPre P21 P22 P23 P37 frameT
  iintro ⟨HO, ⟨Hc39, Hc6, Hc7, Hc8, Hc9, Hc10, Hc11, Hc16, Hc24, Hc17, Hc25, Hc18, Hc26, Hc19, Hc27, Hc32, Hc33, Hc36, Hc37⟩,
    ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29, Hp30, Hp31, Hp32, Hp33, Hp34, Hp35, Hp36, Hp37, Hp38, Hp39⟩,
    HxR, HXL, HOO, HY, HZ, HD, Hd2, HV⟩
  isplitl [HO Hc39 Hp39 Hc6 Hp6 Hc7 Hp7 Hc8 Hp8 Hc9 Hp9 Hc10 Hp10 Hc11 Hp11 Hc16 Hp16 Hc24 Hp24 Hc17 Hp17 Hc25 Hp25 Hc18 Hp18 Hc26 Hp26 Hc19 Hp19 Hc27 Hp27 Hc32 Hp32 Hc33 Hp33 Hc36 Hp36 Hc37 Hp37]
  · isplitl [HO Hc39 Hp39 Hc6 Hp6 Hc7 Hp7 Hc8 Hp8 Hc9 Hp9 Hc10 Hp10]
    · isplitl [HO]; · iexact HO
      hand [Hc39, Hp39, Hc6, Hp6, Hc7, Hp7, Hc8, Hp8, Hc9, Hp9, Hc10, Hp10]
    isplitl [Hc11 Hp11 Hc16 Hp16 Hc24 Hp24 Hc17 Hp17 Hc25 Hp25 Hc18 Hp18]
    · hand [Hc11, Hp11, Hc16, Hp16, Hc24, Hp24, Hc17, Hp17, Hc25, Hp25, Hc18, Hp18]
    isplitl [Hc26 Hp26 Hc19 Hp19 Hc27 Hp27 Hc32 Hp32 Hc33 Hp33 Hc36 Hp36]
    · hand [Hc26, Hp26, Hc19, Hp19, Hc27, Hp27, Hc32, Hp32, Hc33, Hp33, Hc36, Hp36]
    hand [Hc37, Hp37]
  isplitl [Hp0 Hp1 Hp2 Hp3 Hp4 Hp5 Hp12 Hp13 Hp14 Hp15 Hp20 Hp21 Hp22 Hp23 Hp28 Hp29 Hp30 Hp31 Hp34 Hp35 Hp38]
  · hand [Hp0, Hp1, Hp2, Hp3, Hp4, Hp5, Hp12, Hp13, Hp14, Hp15, Hp20, Hp21, Hp22, Hp23, Hp28, Hp29, Hp30, Hp31, Hp34, Hp35, Hp38]
  hand [HxR, HXL, HOO, HY, HZ, HD, Hd2, HV]

/-- info: 'Cert.KernelIdeal.AG.tail_bundle' depends on axioms: [propext, Classical.choice, Quot.sound] -/
#guard_msgs in #print axioms tail_bundle

end Cert.KernelIdeal.AG

end
-- ==== Proof.KernelIdealAG.TailRun.lean ====
/-
  The end of a device's program run as one piece: its last three parts — the last diagonal landing, the last two
  stores' departures, every copy's departure but one — and the wait for that last copy's departure. Each step takes
  what it consumes as one bundle and hands back one bundle; the device owes nothing throughout.
-/
import proofs.«900686_g7700000000000687_dist_ag_v7x_xyz2x4x4_x_m16384_n1024_f32_1_alg».proof.Proof.KernelIdealAG.TailDefs

set_option Elab.async false

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

set_option maxHeartbeats 1000000 in
/-- The wait for a copy's departure on a send cell, by a device that has paid everything it owes: the cell moves on
    and the share of the rows the copy read comes back. -/
theorem wait_send (c : Dev nD) (n : ℕ) (hn : n < 40) (hs : isSend n) (W : Waits sig Unit)
    {s' s : Shape} {e' e : EltTy} {sp' sp : Space} {κ' : Kind}
    {srcw : Memref sig .tc sp' s' e'} {dstw : Memref sig κ' sp s e} {hsrc : srcw.view.WordExact} {hdst : dstw.view.WordExact}
    {α : Type} {Q : α → sProp 𝕄} {k : PUnit → Prog (TpuEff nD τ sig (Elt F) Λ₀ .tc) α}
    (hcr : dstw.view.dmaCredit = N) :
    iprop(records m K ∗ levAts L lv ∗ (ow c 19 W ∗ cred (tallyAt (cell c n hn) () N) ∗ atPos ER (cell c n hn) 0 ∅ 0)
        ∗ ((∃ W', ow c 19 W' ∗ atPos ER (cell c n hn) 1 ∅ 0 ∗ sendPay m c n)
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (ds n hn) srcw dstw hsrc hdst) k) Q := by
  have h8 : 8 ≤ n := isSend_ge hs
  iintro ⟨#HR, #Hlev, ⟨HO, Hc, Hat⟩, Hk⟩
  iapply (step_wait m K c n hn 0 N (duties_dma m c n hn) (amount_rem m c n h8 hn 0 0) _ _ hcr) $$ [Hc HO Hat]
  · isplitr; · iexact HR
    isplitl [Hc]; · iexact Hc
    isplitl [HO]; · iexact HO
    isplitr; · iapply (mayWait_nil c _) $$ Hlev
    iexact Hat
  iintro ⟨HO, Hat, -, Hpay⟩
  iapply Hk
  iexists _
  isplitl [HO]; · iexact HO
  isplitl [Hat]; · iexact Hat
  iapply (Entails.of_eq (payload_send m c n hn hs 0 0)) $$ Hpay

set_option maxHeartbeats 4000000 in
/-- The end of the program, from the three parts' bundles and the last send cell's credit and place to the three
    parts' returns and the last copy's rows back; what follows it may still update. -/
theorem tail_run_spec (c : Dev nD) (W : Waits sig Unit) (Kt : PUnit → sProp 𝕄) :
    iprop(records m K ∗ levAts L lv
        ∗ ((ow c 19 W ∗ P21 c) ∗ P22 c ∗ P23 c ∗ P37 c)
        ∗ ((∃ W', ow c 19 W' ∗ Q21 m c ∗ Q22 m c ∗ Q23 m c ∗ Q37 m c) -∗ |={Set.univ}=> Kt ⟨⟩))
      ⊢ wp frame (wpE (defs₀ (F := F)) 𝒱₀ (c : Thread nD τ) none) Set.univ (tail21 (F := F) c) Kt := by
  have s37 : isSend 37 := by unfold isSend; omega
  unfold tail21 P21 P22 P23 P37 Q21 Q22 Q23 Q37
  iintro ⟨#HR, #Hlev, ⟨⟨HO, P21⟩, P22, P23, P37⟩, Hk⟩
  -- part 21
  rw [wp_bind]
  iapply (part21_spec m K c W _)
  isplitr; · iexact HR
  isplitr; · iexact Hlev
  isplitl [HO P21]
  · isplitl [HO]; · iexact HO
    iexact P21
  iintro ⟨%W21, HO, Q21⟩
  -- part 22
  rw [wp_bind]
  iapply (part22_spec m K c W21 _)
  isplitr; · iexact HR
  isplitr; · iexact Hlev
  isplitl [HO P22]
  · isplitl [HO]; · iexact HO
    iexact P22
  iintro ⟨%W22, HO, Q22⟩
  -- part 23
  rw [wp_bind]
  iapply (part23_spec m K c W22 _)
  isplitr; · iexact HR
  isplitr; · iexact Hlev
  isplitl [HO P23]
  · isplitl [HO]; · iexact HO
    iexact P23
  iintro ⟨%W23, HO, Q23⟩
  -- the last copy has left
  simp only [Prog.lift, Prog.bind_op, Prog.bind_ret, Prog.pure_eq_ret]
  iapply (wait_send m K c 37 (by decide) s37 W23 (credit_N _))
  isplitr; · iexact HR
  isplitr; · iexact Hlev
  isplitl [HO P37]
  · isplitl [HO]; · iexact HO
    iexact P37
  iintro ⟨%W24, HO, Q37⟩
  rw [wp_ret]
  iapply Hk
  iexists W24
  isplitl [HO]; · iexact HO
  isplitl [Q21]; · iexact Q21
  isplitl [Q22]; · iexact Q22
  isplitl [Q23]; · iexact Q23
  iexact Q37

/-- info: 'Cert.KernelIdeal.AG.tail_run_spec' depends on axioms: [propext, Classical.choice, Quot.sound] -/
#guard_msgs in #print axioms tail_run_spec

end Cert.KernelIdeal.AG

end
-- ==== Proof.KernelIdealAG.TailExit.lean ====
/-
  The end of the body, joined: what the last three parts and the last wait hand back — each cell's position past its
  last round, the shares of the rows the copies read, the last chunks stored with their slots — and what was already
  back are, regrouped, the forty positions in the cells' order and every piece of the three buffers; which is what the
  exit takes.
-/
import proofs.«900686_g7700000000000687_dist_ag_v7x_xyz2x4x4_x_m16384_n1024_f32_1_alg».proof.Proof.KernelIdealAG.TailDefs

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The forty positions and the buffers' pieces, as the exit takes them -/

theorem te_finRange40 : List.finRange 40 = [0, 1, 2, 3, 4, 5, 6, 7, 8, 9, 10, 11, 12, 13, 14, 15, 16, 17, 18, 19, 20, 21, 22, 23, 24, 25, 26, 27,
    28, 29, 30, 31, 32, 33, 34, 35, 36, 37, 38, 39] := by decide

/-- The device past the last round of each of its forty transfer cells, cell by cell. -/
def te_posA (c : Dev nD) : sProp 𝕄 :=
  iprop(pos c 0 2 ∗ pos c 1 2 ∗ pos c 2 2 ∗ pos c 3 2 ∗ pos c 4 2 ∗ pos c 5 2 ∗ pos c 6 2 ∗ pos c 7 2 ∗ pos c 8 1 ∗ pos c 9 1 ∗ pos c 10 1 ∗ pos c 11 1 ∗ pos c 12 1 ∗ pos c 13 1 ∗ pos c 14 1 ∗ pos c 15 1 ∗ pos c 16 1 ∗ pos c 17 1 ∗ pos c 18 1 ∗ pos c 19 1 ∗ pos c 20 1 ∗ pos c 21 1 ∗ pos c 22 1 ∗ pos c 23 1 ∗ pos c 24 1 ∗ pos c 25 1 ∗ pos c 26 1 ∗ pos c 27 1 ∗ pos c 28 1 ∗ pos c 29 1 ∗ pos c 30 1 ∗ pos c 31 1 ∗ pos c 32 1 ∗ pos c 33 1 ∗ pos c 34 1 ∗ pos c 35 1 ∗ pos c 36 1 ∗ pos c 37 1 ∗ pos c 38 1 ∗ pos c 39 1)

theorem te_posA_eq (c : Dev nD) :
    (te_posA c : sProp 𝕄) = sepL ((List.finRange 40).map fun n => atPos ER (cell c n.val n.isLt) (if n.val < 8 then 2 else 1) ∅ 0) := by
  rw [te_finRange40]; rfl

/-- The positions and the payloads of the last three parts and the last wait, and of the rest. -/
def te_pos21 (c : Dev nD) : sProp 𝕄 := iprop(pos c 39 1 ∗ pos c 6 2 ∗ pos c 7 2 ∗ pos c 8 1 ∗ pos c 9 1 ∗ pos c 10 1)
def te_pay21 (c : Dev nD) : sProp 𝕄 := iprop(pts c main_v1 (oCh c (qF (yb (zb c))) 3) fullShare (target m c) ∗ pts c main_v1 (oOwn c 6) fullShare (target m c) ∗ pts c cc0_scratch0 (vSl 2) fullShare (vfill m c 6) ∗ pts c main_v1 (oOwn c 7) fullShare (target m c) ∗ pts c cc0_scratch0 (vSl 3) fullShare (vfill m c 7) ∗ pts c main_arg0 (xCh (qF c) 0) fullShare.left (xin m c) ∗ pts c main_arg0 (xCh (qF c) 1) fullShare.left (xin m c) ∗ pts c main_arg0 (xCh (qF c) 2) fullShare.left (xin m c))
def te_pos22 (c : Dev nD) : sProp 𝕄 := iprop(pos c 11 1 ∗ pos c 16 1 ∗ pos c 24 1 ∗ pos c 17 1 ∗ pos c 25 1 ∗ pos c 18 1)
def te_pay22 (c : Dev nD) : sProp 𝕄 := iprop(pts c main_arg0 (xCh (qF c) 3) fullShare.left (xin m c) ∗ pts c main_v1 (oCh c (qF c) 0) fullShare.left (target m c) ∗ pts c main_v1 (oCh c (qF c) 0) fullShare.right (target m c) ∗ pts c main_v1 (oCh c (qF c) 1) fullShare.left (target m c) ∗ pts c main_v1 (oCh c (qF c) 1) fullShare.right (target m c) ∗ pts c main_v1 (oCh c (qF c) 2) fullShare.left (target m c))
def te_pos23 (c : Dev nD) : sProp 𝕄 := iprop(pos c 26 1 ∗ pos c 19 1 ∗ pos c 27 1 ∗ pos c 32 1 ∗ pos c 33 1 ∗ pos c 36 1)
def te_pay23 (c : Dev nD) : sProp 𝕄 := iprop(pts c main_v1 (oCh c (qF c) 2) fullShare.right (target m c) ∗ pts c main_v1 (oCh c (qF c) 3) fullShare.left (target m c) ∗ pts c main_v1 (oCh c (qF c) 3) fullShare.right (target m c) ∗ pts c main_v1 (oCh c (qF (zb c)) 0) fullShare (target m c) ∗ pts c main_v1 (oCh c (qF (zb c)) 1) fullShare (target m c) ∗ pts c main_v1 (oCh c (qF (yb c)) 2) fullShare (target m c))
def te_posF (c : Dev nD) : sProp 𝕄 := iprop(pos c 0 2 ∗ pos c 1 2 ∗ pos c 2 2 ∗ pos c 3 2 ∗ pos c 4 2 ∗ pos c 5 2 ∗ pos c 12 1 ∗ pos c 13 1 ∗ pos c 14 1 ∗ pos c 15 1 ∗ pos c 20 1 ∗ pos c 21 1 ∗ pos c 22 1 ∗ pos c 23 1 ∗ pos c 28 1 ∗ pos c 29 1 ∗ pos c 30 1 ∗ pos c 31 1 ∗ pos c 34 1 ∗ pos c 35 1 ∗ pos c 38 1)
def te_payF (c : Dev nD) : sProp 𝕄 :=
  iprop(xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c))
    ∗ (pts c main_v1 (oCh c (qF (yb c)) 0) fullShare (target m c) ∗ pts c main_v1 (oCh c (qF (yb c)) 1) fullShare (target m c))
    ∗ (pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ pts c main_v1 (oCh c (qF (yb (zb c))) 2) fullShare (target m c)
    ∗ (pts c cc0_scratch0 (vSl 0) fullShare (vfill m c 4) ∗ pts c cc0_scratch0 (vSl 1) fullShare (vfill m c 5)))

theorem te_q21_open (c : Dev nD) : (Q21 m c : sProp 𝕄) ⊢ iprop(te_pos21 c ∗ te_pay21 m c) := by
  unfold Q21 te_pos21 te_pay21 stPay
  rw [sendPay_8 m c, sendPay_9 m c, sendPay_10 m c]
  iintro ⟨P39, Hd3, P6, ⟨Ho6, Hv2⟩, P7, ⟨Ho7, Hv3⟩, P8, Hx0, P9, Hx1, P10, Hx2⟩
  isplitl [P39 P6 P7 P8 P9 P10]
  · hand [P39, P6, P7, P8, P9, P10]
  hand [Hd3, Ho6, Hv2, Ho7, Hv3, Hx0, Hx1, Hx2]

theorem te_q22_open (c : Dev nD) : (Q22 m c : sProp 𝕄) ⊢ iprop(te_pos22 c ∗ te_pay22 m c) := by
  unfold Q22 te_pos22 te_pay22
  rw [sendPay_11 m c, sendPay_16 m c, sendPay_24 m c, sendPay_17 m c, sendPay_25 m c, sendPay_18 m c]
  iintro ⟨P11, Hx3, P16, HqL0, P24, HqR0, P17, HqL1, P25, HqR1, P18, HqL2⟩
  isplitl [P11 P16 P24 P17 P25 P18]
  · hand [P11, P16, P24, P17, P25, P18]
  hand [Hx3, HqL0, HqR0, HqL1, HqR1, HqL2]

theorem te_q23_open (c : Dev nD) : (Q23 m c : sProp 𝕄) ⊢ iprop(te_pos23 c ∗ te_pay23 m c) := by
  unfold Q23 te_pos23 te_pay23
  rw [sendPay_26 m c, sendPay_19 m c, sendPay_27 m c, sendPay_32 m c, sendPay_33 m c, sendPay_36 m c]
  iintro ⟨P26, HqR2, P19, HqL3, P27, HqR3, P32, Hz0, P33, Hz1, P36, Hy2⟩
  isplitl [P26 P19 P27 P32 P33 P36]
  · hand [P26, P19, P27, P32, P33, P36]
  hand [HqR2, HqL3, HqR3, Hz0, Hz1, Hy2]

theorem te_q37_open (c : Dev nD) : (Q37 m c : sProp 𝕄) ⊢ iprop(pos c 37 1 ∗ pts c main_v1 (oCh c (qF (yb c)) 3) fullShare (target m c)) := by
  unfold Q37
  rw [sendPay_37 m c]
  all_goals exact .rfl

theorem te_frame_open (c : Dev nD) : (frameT m c : sProp 𝕄) ⊢ iprop(te_posF c ∗ te_payF m c) := by
  unfold frameT te_posF te_payF
  exact .rfl

/-- The positions, in the cells' order. -/
theorem te_pos_join (c : Dev nD) : iprop(te_pos21 c ∗ te_pos22 c ∗ te_pos23 c ∗ pos c 37 1 ∗ te_posF c) ⊢ (te_posA c : sProp 𝕄) := by
  unfold te_pos21 te_pos22 te_pos23 te_posF te_posA
  iintro ⟨⟨P39, P6, P7, P8, P9, P10⟩, ⟨P11, P16, P24, P17, P25, P18⟩, ⟨P26, P19, P27, P32, P33, P36⟩, P37, P0, P1, P2, P3, P4, P5, P12, P13, P14, P15, P20, P21, P22, P23, P28, P29, P30, P31, P34, P35, P38⟩
  hand [P0, P1, P2, P3, P4, P5, P6, P7, P8, P9, P10, P11, P12, P13, P14, P15, P16, P17, P18, P19, P20, P21, P22, P23, P24, P25, P26, P27, P28, P29, P30, P31, P32, P33, P34, P35, P36, P37, P38, P39]

/-- The buffers' pieces, grouped. -/
theorem te_buf_join (c : Dev nD) :
    iprop(te_pay21 m c ∗ te_pay22 m c ∗ te_pay23 m c ∗ pts c main_v1 (oCh c (qF (yb c)) 3) fullShare (target m c) ∗ te_payF m c) ⊢ (iprop((pts c main_arg0 (xCh (qF c) 0) fullShare.left (xin m c) ∗ pts c main_arg0 (xCh (qF c) 1) fullShare.left (xin m c) ∗ pts c main_arg0 (xCh (qF c) 2) fullShare.left (xin m c) ∗ pts c main_arg0 (xCh (qF c) 3) fullShare.left (xin m c))
    ∗ xRest c (xin m c)
    ∗ (pts c main_arg0 (xLd 0) fullShare.right (xin m c) ∗ pts c main_arg0 (xLd 1) fullShare.right (xin m c) ∗ pts c main_arg0 (xLd 2) fullShare.right (xin m c) ∗ pts c main_arg0 (xLd 3) fullShare.right (xin m c) ∗ pts c main_arg0 (xLd 4) fullShare.right (xin m c) ∗ pts c main_arg0 (xLd 5) fullShare.right (xin m c) ∗ pts c main_arg0 (xLd 6) fullShare.right (xin m c) ∗ pts c main_arg0 (xLd 7) fullShare.right (xin m c))
    ∗ (pts c main_v1 (oOwn c 0) fullShare (target m c) ∗ pts c main_v1 (oOwn c 1) fullShare (target m c) ∗ pts c main_v1 (oOwn c 2) fullShare (target m c) ∗ pts c main_v1 (oOwn c 3) fullShare (target m c) ∗ pts c main_v1 (oOwn c 4) fullShare (target m c) ∗ pts c main_v1 (oOwn c 5) fullShare (target m c) ∗ pts c main_v1 (oOwn c 6) fullShare (target m c) ∗ pts c main_v1 (oOwn c 7) fullShare (target m c))
    ∗ ((pts c main_v1 (oCh c (qF c) 0) fullShare.left (target m c) ∗ pts c main_v1 (oCh c (qF c) 0) fullShare.right (target m c)) ∗ (pts c main_v1 (oCh c (qF c) 1) fullShare.left (target m c) ∗ pts c main_v1 (oCh c (qF c) 1) fullShare.right (target m c)) ∗ (pts c main_v1 (oCh c (qF c) 2) fullShare.left (target m c) ∗ pts c main_v1 (oCh c (qF c) 2) fullShare.right (target m c)) ∗ (pts c main_v1 (oCh c (qF c) 3) fullShare.left (target m c) ∗ pts c main_v1 (oCh c (qF c) 3) fullShare.right (target m c)))
    ∗ (pts c main_v1 (oCh c (qF (yb c)) 0) fullShare (target m c) ∗ pts c main_v1 (oCh c (qF (yb c)) 1) fullShare (target m c) ∗ pts c main_v1 (oCh c (qF (yb c)) 2) fullShare (target m c) ∗ pts c main_v1 (oCh c (qF (yb c)) 3) fullShare (target m c))
    ∗ (pts c main_v1 (oCh c (qF (zb c)) 0) fullShare (target m c) ∗ pts c main_v1 (oCh c (qF (zb c)) 1) fullShare (target m c) ∗ pts c main_v1 (oCh c (qF (zb c)) 2) fullShare (target m c) ∗ pts c main_v1 (oCh c (qF (zb c)) 3) fullShare (target m c))
    ∗ (pts c main_v1 (oCh c (qF (zb (yb c))) 0) fullShare (target m c) ∗ pts c main_v1 (oCh c (qF (zb (yb c))) 1) fullShare (target m c))
    ∗ (pts c main_v1 (oCh c (qF (yb (zb c))) 2) fullShare (target m c) ∗ pts c main_v1 (oCh c (qF (yb (zb c))) 3) fullShare (target m c))
    ∗ (pts c cc0_scratch0 (vSl 0) fullShare (vfill m c 4) ∗ pts c cc0_scratch0 (vSl 1) fullShare (vfill m c 5) ∗ pts c cc0_scratch0 (vSl 2) fullShare (vfill m c 6) ∗ pts c cc0_scratch0 (vSl 3) fullShare (vfill m c 7))) : sProp 𝕄) := by
  unfold te_pay21 te_pay22 te_pay23 te_payF
  iintro ⟨⟨Hd3, Hown6, Hv2, Hown7, Hv3, Hx0, Hx1, Hx2⟩, ⟨Hx3, HqL0, HqR0, HqL1, HqR1, HqL2⟩, ⟨HqR2, HqL3, HqR3, Hz0, Hz1, Hy2⟩, Hy3, Hxr, ⟨Hxl0, Hxl1, Hxl2, Hxl3, Hxl4, Hxl5, Hxl6, Hxl7⟩, ⟨Hown0, Hown1, Hown2, Hown3, Hown4, Hown5⟩, ⟨Hy0, Hy1⟩, ⟨Hz2, Hz3⟩, ⟨He0, He1⟩, Hd2, Hv0, Hv1⟩
  isplitl [Hx0 Hx1 Hx2 Hx3]
  · hand [Hx0, Hx1, Hx2, Hx3]
  isplitl [Hxr]
  · iexact Hxr
  isplitl [Hxl0 Hxl1 Hxl2 Hxl3 Hxl4 Hxl5 Hxl6 Hxl7]
  · hand [Hxl0, Hxl1, Hxl2, Hxl3, Hxl4, Hxl5, Hxl6, Hxl7]
  isplitl [Hown0 Hown1 Hown2 Hown3 Hown4 Hown5 Hown6 Hown7]
  · hand [Hown0, Hown1, Hown2, Hown3, Hown4, Hown5, Hown6, Hown7]
  isplitl [HqL0 HqR0 HqL1 HqR1 HqL2 HqR2 HqL3 HqR3]
  · isplitl [HqL0 HqR0]
    · hand [HqL0, HqR0]
    isplitl [HqL1 HqR1]
    · hand [HqL1, HqR1]
    isplitl [HqL2 HqR2]
    · hand [HqL2, HqR2]
    hand [HqL3, HqR3]
  isplitl [Hy0 Hy1 Hy2 Hy3]
  · hand [Hy0, Hy1, Hy2, Hy3]
  isplitl [Hz0 Hz1 Hz2 Hz3]
  · hand [Hz0, Hz1, Hz2, Hz3]
  isplitl [He0 He1]
  · hand [He0, He1]
  isplitl [Hd2 Hd3]
  · hand [Hd2, Hd3]
  hand [Hv0, Hv1, Hv2, Hv3]

/-- From what the last three parts and the last wait hand back, and the rest, to the body's end. -/
theorem tail_exit (K : Dev nD × Fin 41 → ℕ) (c : Dev nD) (W : Waits sig Unit) :
    iprop(records m K ∗ ow c 19 W ∗ Q21 m c ∗ Q22 m c ∗ Q23 m c ∗ Q37 m c ∗ frameT m c)
      ⊢ (iprop(|={Set.univ}=> (Φ₁ m c ∗ (dats m 0 c).owesAt () t₀.succ)) : sProp 𝕄) := by
  iintro ⟨#HR, HO, H21, H22, H23, H37, HF⟩
  ihave HO := (Entails.of_eq (ow_19 c W)) $$ HO
  ihave H21 := (te_q21_open m c) $$ H21
  icases H21 with ⟨P21, B21⟩
  ihave H22 := (te_q22_open m c) $$ H22
  icases H22 with ⟨P22, B22⟩
  ihave H23 := (te_q23_open m c) $$ H23
  icases H23 with ⟨P23, B23⟩
  ihave H37 := (te_q37_open m c) $$ H37
  icases H37 with ⟨P37, B37⟩
  ihave HF := (te_frame_open m c) $$ HF
  icases HF with ⟨PF, BF⟩
  iapply (body_exit m K c W)
  isplitr
  · iexact HR
  isplitl [HO]
  · iexact HO
  isplitl [P21 P22 P23 P37 PF]
  · iapply (Entails.of_eq (te_posA_eq c))
    iapply (te_pos_join c)
    hand [P21, P22, P23, P37, PF]
  iapply (te_buf_join m c)
  hand [B21, B22, B23, B37, BF]

end Cert.KernelIdeal.AG

end

/-- info: 'Cert.KernelIdeal.AG.tail_exit' depends on axioms: [propext, Classical.choice, Quot.sound] -/
#guard_msgs in #print axioms Cert.KernelIdeal.AG.tail_exit
-- ==== Proof.KernelIdealAG.Tail.lean ====
/-
  The end of the body: its last three parts — the last diagonal landing, the last two stores' waits and every copy's
  departure — the wait for the last copy's departure, and the exit, from what the device holds before them. The work
  is done over bundles (the run, the regrouping before it and the exit after it are lemmas of their own); here they are
  put together, and the two small tactics the body's composition uses are defined.
-/
import proofs.«900686_g7700000000000687_dist_ag_v7x_xyz2x4x4_x_m16384_n1024_f32_1_alg».proof.Proof.KernelIdealAG.TailDefs
import proofs.«900686_g7700000000000687_dist_ag_v7x_xyz2x4x4_x_m16384_n1024_f32_1_alg».proof.Proof.KernelIdealAG.TailBundle
import proofs.«900686_g7700000000000687_dist_ag_v7x_xyz2x4x4_x_m16384_n1024_f32_1_alg».proof.Proof.KernelIdealAG.TailRun
import proofs.«900686_g7700000000000687_dist_ag_v7x_xyz2x4x4_x_m16384_n1024_f32_1_alg».proof.Proof.KernelIdealAG.TailExit

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 41 → ℕ)

set_option hygiene false in
/-- One part of the body: it is bound to the rest of the program; its specification is applied, and takes the shared
    records `HR` and the levels `Hlev`. What is left to give is what the part consumes, then what it hands back. -/
macro "part " t:pmTerm : tactic =>
  `(tactic| (rw [wp_bind]; iapply $t; (isplitr; (· iexact HR)); (isplitr; (· iexact Hlev))))

/-- Give the named hypotheses, in order, as the next conjunct of the goal. -/
syntax "give " "[" ident,+ "]" : tactic
macro_rules
  | `(tactic| give [$hs:ident,*]) => do
    let xs := hs.getElems
    `(tactic| (isplitl [$xs*]; (· hand [$hs,*])))

set_option maxHeartbeats 4000000 in
set_option maxRecDepth 65536 in
/-- From what the device holds after its twentieth part to the body's post. -/
theorem tail_spec (c : Dev nD) (W20 : Waits sig Unit) (Kt : PUnit → sProp 𝕄) :
    iprop(records m K ∗ levAts L lv
        ∗ (ow c 19 W20
          ∗ (crd c 39 N ∗ crd c 6 NS ∗ crd c 7 NS ∗ crd c 8 N ∗ crd c 9 N ∗ crd c 10 N ∗ crd c 11 N ∗ crd c 16 N ∗ crd c 24 N ∗ crd c 17 N
              ∗ crd c 25 N ∗ crd c 18 N ∗ crd c 26 N ∗ crd c 19 N ∗ crd c 27 N ∗ crd c 32 N ∗ crd c 33 N ∗ crd c 36 N ∗ crd c 37 N)
          ∗ (pos c 0 2 ∗ pos c 1 2 ∗ pos c 2 2 ∗ pos c 3 2 ∗ pos c 4 2 ∗ pos c 5 2 ∗ pos c 6 1 ∗ pos c 7 1 ∗ pos c 8 0 ∗ pos c 9 0
              ∗ pos c 10 0 ∗ pos c 11 0 ∗ pos c 12 1 ∗ pos c 13 1 ∗ pos c 14 1 ∗ pos c 15 1 ∗ pos c 16 0 ∗ pos c 17 0 ∗ pos c 18 0 ∗ pos c 19 0
              ∗ pos c 20 1 ∗ pos c 21 1 ∗ pos c 22 1 ∗ pos c 23 1 ∗ pos c 24 0 ∗ pos c 25 0 ∗ pos c 26 0 ∗ pos c 27 0 ∗ pos c 28 1 ∗ pos c 29 1
              ∗ pos c 30 1 ∗ pos c 31 1 ∗ pos c 32 0 ∗ pos c 33 0 ∗ pos c 34 1 ∗ pos c 35 1 ∗ pos c 36 0 ∗ pos c 37 0 ∗ pos c 38 1 ∗ pos c 39 0)
          ∗ xRest c (xin m c)
          ∗ (pts c main_arg0 (xLd 0) fullShare.right (xin m c) ∗ pts c main_arg0 (xLd 1) fullShare.right (xin m c)
              ∗ pts c main_arg0 (xLd 2) fullShare.right (xin m c) ∗ pts c main_arg0 (xLd 3) fullShare.right (xin m c)
              ∗ pts c main_arg0 (xLd 4) fullShare.right (xin m c) ∗ pts c main_arg0 (xLd 5) fullShare.right (xin m c)
              ∗ pts c main_arg0 (xLd 6) fullShare.right (xin m c) ∗ pts c main_arg0 (xLd 7) fullShare.right (xin m c))
          ∗ (pts c main_v1 (oOwn c 0) fullShare (target m c) ∗ pts c main_v1 (oOwn c 1) fullShare (target m c)
              ∗ pts c main_v1 (oOwn c 2) fullShare (target m c) ∗ pts c main_v1 (oOwn c 3) fullShare (target m c)
              ∗ pts c main_v1 (oOwn c 4) fullShare (target m c) ∗ pts c main_v1 (oOwn c 5) fullShare (target m c))
          ∗ (pts c main_v1 (oCh c (qF (yb c)) 0) fullShare (target m c) ∗ pts c main_v1 (oCh c (qF (yb c)) 1) fullShare (target m c))
          ∗ (pts c main_v1 (oCh c (qF (zb c)) 2) fullShare (target m c) ∗ pts c main_v1 (oCh c (qF (zb c)) 3) fullShare (target m c))
          ∗ (pts c main_v1 (oCh c (qF (zb (yb c))) 0) fullShare (target m c) ∗ pts c main_v1 (oCh c (qF (zb (yb c))) 1) fullShare (target m c))
          ∗ pts c main_v1 (oCh c (qF (yb (zb c))) 2) fullShare (target m c)
          ∗ (pts c cc0_scratch0 (vSl 0) fullShare (vfill m c 4) ∗ pts c cc0_scratch0 (vSl 1) fullShare (vfill m c 5)))
        ∗ (iprop(Φ₁ m c ∗ (dats m 0 c).owesAt () t₀.succ) -∗ Kt ⟨⟩))
      ⊢ wp frame (wpE (defs₀ (F := F)) 𝒱₀ (c : Thread nD τ) none) Set.univ (tail21 (F := F) c) Kt := by
  have hb := tail_bundle m c W20
  unfold tailPre at hb
  iintro ⟨#HR, #Hlev, PRE, Hk⟩
  ihave B := hb $$ PRE
  icases B with ⟨RUN, FR⟩
  iapply (tail_run_spec m K c W20 Kt)
  isplitr; · iexact HR
  isplitr; · iexact Hlev
  isplitl [RUN]; · iexact RUN
  iintro ⟨%W', HO, Q1, Q2, Q3, Q4⟩
  imod (tail_exit m K c W') $$ [HO Q1 Q2 Q3 Q4 FR] with Hpost
  · isplitr; · iexact HR
    hand [HO, Q1, Q2, Q3, Q4, FR]
  imodintro
  iapply Hk
  iexact Hpost

end Cert.KernelIdeal.AG

end
-- ==== Proof.KernelIdealAG.Body.lean ====
/-
  One device's body, run from what the launch hands it to what it must end with.

  The body is twenty-three parts in sequence and one last wait. The first part only reads the device's number. Each of
  the others has a specification: what it takes of what the device holds — what it still owes, its places at its cells,
  tokens, credit, rows of its three buffers — and what it hands back. Here the specifications are composed: the
  launch's resources are cut into the pieces the parts name (the argument into the quarter sent across x and the eight
  chunks loaded, the result into its twenty-six chunks, the staging buffer into its slots), the barrier's three
  payments are made of the rows the neighbours will copy into, and the parts run in order; after the twentieth, the
  end of the program and the exit are one step. The pipeline's body obligation follows.
-/
import proofs.«900686_g7700000000000687_dist_ag_v7x_xyz2x4x4_x_m16384_n1024_f32_1_alg».proof.Proof.KernelIdealAG.Steps
import proofs.«900686_g7700000000000687_dist_ag_v7x_xyz2x4x4_x_m16384_n1024_f32_1_alg».proof.Proof.KernelIdealAG.Sems
import proofs.«900686_g7700000000000687_dist_ag_v7x_xyz2x4x4_x_m16384_n1024_f32_1_alg».proof.Proof.KernelIdealAG.Topo
import proofs.«900686_g7700000000000687_dist_ag_v7x_xyz2x4x4_x_m16384_n1024_f32_1_alg».proof.Proof.KernelIdealAG.Geom
import proofs.«900686_g7700000000000687_dist_ag_v7x_xyz2x4x4_x_m16384_n1024_f32_1_alg».proof.Proof.KernelIdealAG.Levels
import proofs.«900686_g7700000000000687_dist_ag_v7x_xyz2x4x4_x_m16384_n1024_f32_1_alg».proof.Proof.KernelIdealAG.Close
import proofs.«900686_g7700000000000687_dist_ag_v7x_xyz2x4x4_x_m16384_n1024_f32_1_alg».proof.Proof.KernelIdealAG.Exit
import proofs.«900686_g7700000000000687_dist_ag_v7x_xyz2x4x4_x_m16384_n1024_f32_1_alg».proof.Proof.KernelIdealAG.PartDefs
import proofs.«900686_g7700000000000687_dist_ag_v7x_xyz2x4x4_x_m16384_n1024_f32_1_alg».proof.Proof.KernelIdealAG.PartsA
import proofs.«900686_g7700000000000687_dist_ag_v7x_xyz2x4x4_x_m16384_n1024_f32_1_alg».proof.Proof.KernelIdealAG.PartsB
import proofs.«900686_g7700000000000687_dist_ag_v7x_xyz2x4x4_x_m16384_n1024_f32_1_alg».proof.Proof.KernelIdealAG.PartsC
import proofs.«900686_g7700000000000687_dist_ag_v7x_xyz2x4x4_x_m16384_n1024_f32_1_alg».proof.Proof.KernelIdealAG.PartsD
import proofs.«900686_g7700000000000687_dist_ag_v7x_xyz2x4x4_x_m16384_n1024_f32_1_alg».proof.Proof.KernelIdealAG.PartsE
import proofs.«900686_g7700000000000687_dist_ag_v7x_xyz2x4x4_x_m16384_n1024_f32_1_alg».proof.Proof.KernelIdealAG.PartsE2
import proofs.«900686_g7700000000000687_dist_ag_v7x_xyz2x4x4_x_m16384_n1024_f32_1_alg».proof.Proof.KernelIdealAG.PartsF
import proofs.«900686_g7700000000000687_dist_ag_v7x_xyz2x4x4_x_m16384_n1024_f32_1_alg».proof.Proof.KernelIdealAG.Tail
import proofs.«900686_g7700000000000687_dist_ag_v7x_xyz2x4x4_x_m16384_n1024_f32_1_alg».proof.Proof.Gen.KernelIdeal.Skeleton

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device hands its neighbours at the barrier -/

/-- The rows device `c` hands the partner: the four chunks of its own quarter of the other half. -/
theorem give_px (c : Dev nD) (f0 f1 f2 f3 : Buf (Elt F) ((c : Thread nD τ).loc main_v1)) :
    iprop(pts c main_v1 (oCh c (qF c) 0) fullShare f0 ∗ pts c main_v1 (oCh c (qF c) 1) fullShare f1
        ∗ pts c main_v1 (oCh c (qF c) 2) fullShare f2 ∗ pts c main_v1 (oCh c (qF c) 3) fullShare f3)
      ⊢ (barPay (px c) 0 : sProp 𝕄) := by
  unfold barPay give
  rw [px_px c]
  simp only [recvRect_12, recvRect_13, recvRect_14, recvRect_15]
  iintro ⟨H0, H1, H2, H3⟩
  isplitl [H0]; · iexists f0; iexact H0
  isplitl [H1]; · iexists f1; iexact H1
  isplitl [H2]; · iexists f2; iexact H2
  iexists f3; iexact H3

/-- To the y buddy: the four chunks of the y buddy's quarter and the first two of the diagonal one. -/
theorem give_yb (c : Dev nD) (f0 f1 f2 f3 f4 f5 : Buf (Elt F) ((c : Thread nD τ).loc main_v1)) :
    iprop(pts c main_v1 (oCh c (qF (yb c)) 0) fullShare f0 ∗ pts c main_v1 (oCh c (qF (yb c)) 1) fullShare f1
        ∗ pts c main_v1 (oCh c (qF (yb c)) 2) fullShare f2 ∗ pts c main_v1 (oCh c (qF (yb c)) 3) fullShare f3
        ∗ pts c main_v1 (oCh c (qF (zb (yb c))) 0) fullShare f4 ∗ pts c main_v1 (oCh c (qF (zb (yb c))) 1) fullShare f5)
      ⊢ (barPay (yb c) 1 : sProp 𝕄) := by
  unfold barPay give
  rw [yb_yb c]
  simp only [recvRect_20, recvRect_21, recvRect_22, recvRect_23, recvRect_34, recvRect_35]
  iintro ⟨H0, H1, H2, H3, H4, H5⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- To the z buddy: the four chunks of the z buddy's quarter and the last two of the diagonal one. -/
theorem give_zb (c : Dev nD) (f0 f1 f2 f3 f4 f5 : Buf (Elt F) ((c : Thread nD τ).loc main_v1)) :
    iprop(pts c main_v1 (oCh c (qF (zb c)) 0) fullShare f0 ∗ pts c main_v1 (oCh c (qF (zb c)) 1) fullShare f1
        ∗ pts c main_v1 (oCh c (qF (zb c)) 2) fullShare f2 ∗ pts c main_v1 (oCh c (qF (zb c)) 3) fullShare f3
        ∗ pts c main_v1 (oCh c (qF (yb (zb c))) 2) fullShare f4 ∗ pts c main_v1 (oCh c (qF (yb (zb c))) 3) fullShare f5)
      ⊢ (barPay (zb c) 2 : sProp 𝕄) := by
  unfold barPay give
  rw [zb_zb c]
  simp only [recvRect_28, recvRect_29, recvRect_30, recvRect_31, recvRect_38, recvRect_39]
  iintro ⟨H0, H1, H2, H3, H4, H5⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-! ## What the waits of the loads and stores hand back, by its pieces -/

/-- The wait of load `j`: its slot holding chunk `j`, and the share of the chunk's rows of the argument the load read. -/
theorem ldPay_split (c : Dev nD) (j : ℕ) (s : Fin 4) (x : Fin 8) (hs : s.val = j % 4) (hx : x.val = j % 8) :
    (ldPay m c j : sProp 𝕄)
      ⊢ iprop(pts c cc0_scratch0 (vSl s) fullShare (vfill m c j) ∗ pts c main_arg0 (xLd x) fullShare.right (xin m c)) := by
  obtain rfl : s = ⟨j % 4, Nat.mod_lt _ (by decide)⟩ := Fin.ext hs
  obtain rfl : x = ⟨j % 8, Nat.mod_lt _ (by decide)⟩ := Fin.ext hx
  exact Entails.of_eq rfl

/-- The wait of store `j`: chunk `j` of the device's own half of the result, written, and the slot the store read. -/
theorem stPay_split (c : Dev nD) (j : ℕ) (o : Fin 8) (s : Fin 4) (ho : o.val = j % 8) (hs : s.val = j % 4) :
    (stPay m c j : sProp 𝕄)
      ⊢ iprop(pts c main_v1 (oOwn c o) fullShare (target m c) ∗ pts c cc0_scratch0 (vSl s) fullShare (vfill m c j)) := by
  obtain rfl : o = ⟨j % 8, Nat.mod_lt _ (by decide)⟩ := Fin.ext ho
  obtain rfl : s = ⟨j % 4, Nat.mod_lt _ (by decide)⟩ := Fin.ext hs
  exact Entails.of_eq rfl

/-! ## The body -/

section Body

variable (K : Dev nD × Fin 41 → ℕ)

omit [FloatOps F] in
theorem fin_N (t : Fin cfg0.N) : t = t₀ := by
  obtain ⟨t, ht⟩ := t; have := cfg0_N; exact Fin.ext (by simp only [t₀]; omega)

/-- What device `c` holds when its body starts, and what it then owes. -/
def bodyPre (c : Dev nD) : sProp 𝕄 :=
  iprop((ghost m K c ∗ creds c ∗ levAts L lv ∗ whole c main_arg0 (xin m c) ∗ (∃ f, whole c main_v1 f) ∗ ∃ f, whole c cc0_scratch0 f)
    ∗ (dats m 0 c).owesAt () t₀.castSucc)

/-- What it holds when its body ends, owing nothing. -/
def bodyPost (c : Dev nD) : sProp 𝕄 := iprop(Φ₁ m c ∗ (dats m 0 c).owesAt () t₀.succ)

omit [FloatOps F] in
theorem finRange40 : List.finRange 40 = [0, 1, 2, 3, 4, 5, 6, 7, 8, 9, 10, 11, 12, 13, 14, 15, 16, 17, 18, 19, 20, 21, 22, 23, 24, 25, 26, 27, 28, 29, 30, 31,
    32, 33, 34, 35, 36, 37, 38, 39] := by decide

set_option maxHeartbeats 8000000 in
set_option maxRecDepth 65536 in
/-- The body, run from what the launch hands device `c`: its parts in sequence, each taking from what the device then
    holds what its specification names and handing back what it says; after the twentieth, the end of the program and the
    exit are one step (`tail_spec`). -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ (cc0_body M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  -- the program: the first part only reads the device's number; the others stay folded
  simp only [cc0_body_eq_skeleton]; unfold cc0_body_skel
  rw [wp_bind]; unfold k0_part1
  simp only [Prog.lift, Prog.bind_op, Prog.bind_ret, Prog.pure_eq_ret, wp_deviceId, wp_ret]
  -- what the device starts from, piece by piece
  unfold bodyPre bodyPost ghost positions payToks creds
  rw [finRange40]
  simp only [List.map, sepL]
  iintro ⟨⟨⟨⟨#HR, ⟨HatB, Hat0, Hat1, Hat2, Hat3, Hat4, Hat5, Hat6, Hat7, Hat8, Hat9, Hat10, Hat11, Hat12, Hat13, Hat14, Hat15, Hat16, Hat17, Hat18, Hat19,
        Hat20, Hat21, Hat22, Hat23, Hat24, Hat25, Hat26, Hat27, Hat28, Hat29, Hat30, Hat31, Hat32, Hat33, Hat34, Hat35, Hat36, Hat37, Hat38, Hat39⟩,
      ⟨HtBP, HtBY, HtBZ⟩, ⟨HtP12, HtP13, HtP14, HtP15⟩, ⟨HtY20, HtY21, HtY22, HtY23, HtY34, HtY35⟩,
      ⟨HtZ28, HtZ29, HtZ30, HtZ31, HtZ38, HtZ39⟩,
      ⟨HtS8, HtS9, HtS10, HtS11, HtS16, HtS17, HtS18, HtS19, HtS24, HtS25, HtS26, HtS27, HtS32, HtS33, HtS36, HtS37⟩,
      ⟨HtL0a, HtL0b⟩, ⟨HtL1a, HtL1b⟩, ⟨HtL2a, HtL2b⟩, ⟨HtL3a, HtL3b⟩, ⟨HtL4a, HtL4b⟩, ⟨HtL5a, HtL5b⟩, ⟨HtL6a, HtL6b⟩, ⟨HtL7a, HtL7b⟩⟩,
    ⟨HcB, Hc12, Hc13, Hc14, Hc15, Hc20, Hc21, Hc22, Hc23, Hc28, Hc29, Hc30, Hc31, Hc34, Hc35, Hc38, Hc39⟩, #Hlev, Hx, ⟨%fo, Ho⟩, ⟨%fv, Hv⟩⟩,
    Hoa⟩, Hk⟩
  unfold Dat.owesAt Pipeline.owesWithin
  icases Hoa with ⟨%W, %hW, HO⟩
  rw [show (dats m 0 c).owed t₀.castSucc = O₀ c from rfl]
  ihave Hx := (x_split c (xin m c)).1 $$ Hx
  icases Hx with ⟨⟨HxS0, HxS1, HxS2, HxS3⟩, HxR, HxL0, HxL1, HxL2, HxL3, HxL4, HxL5, HxL6, HxL7⟩
  ihave Ho := (out_split c fo).1 $$ Ho
  icases Ho with ⟨⟨HoO0, HoO1, HoO2, HoO3, HoO4, HoO5, HoO6, HoO7⟩, ⟨HoA0, HoA1, HoA2, HoA3⟩, ⟨HoB0, HoB1, HoB2, HoB3⟩,
    ⟨HoC0, HoC1, HoC2, HoC3⟩, ⟨HoD0, HoD1⟩, HoD2, HoD3⟩
  ihave Hv := (vbuf_split c fv).1 $$ Hv
  icases Hv with ⟨Hv0, Hv1, Hv2, Hv3⟩
  -- what it hands each neighbour at the barrier: the rows of its result that neighbour will copy into
  ihave HbP := (give_px c fo fo fo fo) $$ [HoA0 HoA1 HoA2 HoA3]
  · hand [HoA0, HoA1, HoA2, HoA3]
  ihave HbY := (give_yb c fo fo fo fo fo fo) $$ [HoB0 HoB1 HoB2 HoB3 HoD0 HoD1]
  · hand [HoB0, HoB1, HoB2, HoB3, HoD0, HoD1]
  ihave HbZ := (give_zb c fo fo fo fo fo fo) $$ [HoC0 HoC1 HoC2 HoC3 HoD2 HoD3]
  · hand [HoC0, HoC1, HoC2, HoC3, HoD2, HoD3]
  imodintro
  -- part 2: the signals to the partner's and the y buddy's barrier cells, each with the rows it will copy into
  part (part2_spec m K c _ _ _ _ _ _ _ W _)
  give [HO, HtBP, HbP, HtBY, HbY]
  iintro %r ⟨%hr, HO⟩
  obtain ⟨v37, v41, v45, v50, v51, v65, v66⟩ := r
  dsimp only at hr
  subst hr
  -- part 3: the signal to the z buddy's, the wait for three, and the first two chunks of the own quarter copied to the partner
  part (part3_spec m K c _ _ _ _ _ _ _ _ W _)
  give [HO, HtBZ, HbZ, HcB, HatB, HxS0, HxS1, HtS8, HtS9, HtP12, HtP13]
  iintro ⟨%W3, HO, HatB, Hc8, Hc9, Hg14, Hg15, HbY, HbZ⟩
  ihave HbY := (Entails.of_eq (barPay_1 (F := F) c)) $$ HbY
  icases HbY with ⟨Hg20, Hg21, Hg22, Hg23, Hg34, Hg35⟩
  ihave HbZ := (Entails.of_eq (barPay_2 (F := F) c)) $$ HbZ
  icases HbZ with ⟨Hg28, Hg29, Hg30, Hg31, Hg38, Hg39⟩
  -- part 4: the other two chunks copied to the partner; the first load issued
  part (part4_spec m K c _ _ _ _ _ W3 fv _)
  give [HO, HxS2, HxS3, Hg14, Hg15, HtS10, HtS11, HtP14, HtP15, HxL0, Hv0, HtL0a]
  iintro ⟨%W4, HO, Hc10, Hc11, Hc0⟩
  -- part 5: the second load issued; the first chunk lands from the partner and is passed on to the y buddy
  part (part5_spec m K c _ _ _ _ _ _ _ W4 fv _)
  give [HO, HxL1, Hv1, HtL1a, Hc12, Hat12, Hg20, HtS16, HtY20]
  iintro %r ⟨%W5, HO, Hc1, Hat12, Hc16, HqR0⟩
  -- part 6: the same chunk passed on to the z buddy; the first load waited, its store and the third load issued
  part (part6_spec m K c _ _ _ _ _ _ _ W5 fo fv _)
  give [HO, HqR0, Hg28, HtS24, HtZ28, Hc0, Hat0, HoO0, HtL4a, HxL2, Hv2, HtL2a]
  iintro %r ⟨%W6, HO, Hc24, Hat0, Hr0, HxL0, Hc4, Hc2⟩
  -- part 7: the second chunk lands and is passed on to both buddies
  part (part7_spec m K c _ _ _ _ _ _ _ W6 _)
  give [HO, Hc13, Hat13, Hg21, Hg29, HtS17, HtY21, HtS25, HtZ29]
  iintro ⟨%W7, HO, Hat13, Hc17, Hc25⟩
  -- part 8: the second load waited, its store and the fourth load issued; the third chunk lands
  part (part8_spec m K c _ _ _ _ _ _ _ W7 fo fv _)
  give [HO, Hc1, Hat1, HoO1, HtL5a, HxL3, Hv3, HtL3a, Hc14, Hat14]
  iintro %r ⟨%W8, HO, Hat1, Hr1, HxL1, Hc5, Hc3, Hat14, Hq2⟩
  -- part 9: the third chunk passed on to both buddies; the third load and the first store waited
  part (part9_spec m K c _ _ _ _ _ _ _ W8 _)
  give [HO, Hq2, Hg22, Hg30, HtS18, HtY22, HtS26, HtZ30, Hc2, Hat2, Hc4, Hat4]
  iintro ⟨%W9, HO, Hc18, Hc26, Hat2, Hr2, Hld2, Hat4, Hr4, Hst0⟩
  ihave Hld2 := (ldPay_split m c 2 2 2 rfl rfl) $$ Hld2
  icases Hld2 with ⟨Hvf2, HxL2⟩
  ihave Hst0 := (stPay_split m c 0 0 0 rfl rfl) $$ Hst0
  icases Hst0 with ⟨HoT0, Hvf0⟩
  -- part 10: the third store and the fifth load issued; the fourth chunk lands
  part (part10_spec m K c _ _ _ _ _ _ _ _ W9 fo _)
  give [HO, Hvf2, HoO2, HtL6a, HxL4, Hvf0, HtL0b, Hr0, Hc15, Hat15]
  iintro ⟨%W10, HO, Hc6, Hc0, Hat15, Hq3⟩
  -- part 11: the fourth chunk passed on to both buddies; the fourth load and the second store waited
  part (part11_spec m K c _ _ _ _ W10 _)
  give [HO, Hq3, Hg23, Hg31, HtS19, HtY23, HtS27, HtZ31, Hc3, Hat3, Hc5, Hat5]
  iintro ⟨%W11, HO, Hc19, Hc27, Hat3, Hr3, Hld3, Hat5, Hr5, Hst1⟩
  ihave Hld3 := (ldPay_split m c 3 3 3 rfl rfl) $$ Hld3
  icases Hld3 with ⟨Hvf3, HxL3⟩
  ihave Hst1 := (stPay_split m c 1 1 1 rfl rfl) $$ Hst1
  icases Hst1 with ⟨HoT1, Hvf1⟩
  -- part 12: the fourth store and the sixth load issued; the first chunk of the z buddy's quarter lands
  part (part12_spec m K c _ _ _ _ _ _ _ W11 fo _)
  give [HO, Hvf3, HoO3, HtL7a, HxL5, Hvf1, HtL1b, Hr1, Hc28, Hat28]
  iintro ⟨%W12, HO, Hc7, Hc1, Hat28, Hz0⟩
  -- part 13: that chunk passed on to the y buddy's diagonal cell; the fifth load and the third store waited, the fifth store and the seventh load issued
  part (part13_spec m K c _ _ _ _ W12 fo _)
  give [HO, Hz0, Hg34, HtS32, HtY34, Hc0, Hat0, Hc6, Hat6, HoO4, HtL4b, Hr4, HxL6, HtL2b, Hr2]
  iintro %r ⟨%W13, HO, Hc32, Hat0, HxL4, Hat6, Hr6, HoT2, Hc4, Hc2⟩
  -- part 14: the second chunk of the z buddy's quarter lands and is passed on; the sixth load and the fourth store waited
  part (part14_spec m K c _ _ _ _ _ _ _ _ W13 _)
  give [HO, Hc29, Hat29, Hg35, HtS33, HtY35, Hc1, Hat1, Hc7, Hat7]
  iintro ⟨%W14, HO, Hat29, Hc33, Hat1, Hld5, Hat7, Hr7, Hst3⟩
  ihave Hld5 := (ldPay_split m c 5 1 5 rfl rfl) $$ Hld5
  icases Hld5 with ⟨Hvf1, HxL5⟩
  ihave Hst3 := (stPay_split m c 3 3 3 rfl rfl) $$ Hst3
  icases Hst3 with ⟨HoT3, Hvf3⟩
  -- part 15: the sixth store and the eighth load issued; the third chunk of the y buddy's quarter lands
  part (part15_spec m K c _ _ _ _ _ _ _ W14 fo _)
  give [HO, Hvf1, HoO5, HtL5b, Hr5, HxL7, Hvf3, HtL3b, Hr3, Hc22, Hat22]
  iintro ⟨%W15, HO, Hc5, Hc3, Hat22, Hy2⟩
  -- part 16: that chunk passed on to the z buddy's diagonal cell; the seventh load and the fifth store waited, the seventh store issued
  part (part16_spec m K c _ _ _ _ _ _ W15 fo _)
  give [HO, Hy2, Hg38, HtS36, HtZ38, Hc2, Hat2, Hc4, Hat4, HoO6, HtL6b, Hr6]
  iintro ⟨%W16, HO, Hc36, Hat2, HxL6, Hat4, HoT4, Hvf0, Hc6⟩
  -- part 17: the fourth chunk of the y buddy's quarter lands and is passed on; the eighth load and the sixth store waited
  part (part17_spec m K c _ _ _ _ W16 _)
  give [HO, Hc23, Hat23, Hg39, HtS37, HtZ39, Hc3, Hat3, Hc5, Hat5]
  iintro ⟨%W17, HO, Hat23, Hc37, Hat3, Hld7, Hat5, Hst5⟩
  ihave Hld7 := (ldPay_split m c 7 3 7 rfl rfl) $$ Hld7
  icases Hld7 with ⟨Hvf3, HxL7⟩
  ihave Hst5 := (stPay_split m c 5 5 1 rfl rfl) $$ Hst5
  icases Hst5 with ⟨HoT5, Hvf1⟩
  -- part 18: the eighth store issued; the first two chunks of the y buddy's quarter land
  part (part18_spec m K c _ _ _ _ _ _ _ W17 fo _)
  give [HO, Hvf3, HoO7, HtL7b, Hr7, Hc20, Hat20, Hc21, Hat21]
  iintro %r ⟨%W18, HO, Hc7, Hat20, Hy0, Hat21, Hy1⟩
  -- part 19: the last two chunks of the z buddy's quarter and the first diagonal chunk land
  part (part19_spec m K c _ _ _ _ _ _ _ _ _ W18 _)
  give [HO, Hc30, Hat30, Hc31, Hat31, Hc34, Hat34]
  iintro ⟨%W19, HO, Hat30, Hz2, Hat31, Hz3, Hat34, Hd0⟩
  -- part 20: the second and third diagonal chunks land
  part (part20_spec m K c _ _ _ _ _ _ _ W19 _)
  give [HO, Hc35, Hat35, Hc38, Hat38]
  iintro ⟨%W20, HO, Hat35, Hd1, Hat38, Hd2⟩
  -- the end of the program — its last three parts and the last wait — and the exit, from all the device now holds
  iapply (tail_spec m K c W20 Kt)
  isplitr; · iexact HR
  isplitr; · iexact Hlev
  isplitl [HO Hc39 Hc6 Hc7 Hc8 Hc9 Hc10 Hc11 Hc16 Hc24 Hc17 Hc25 Hc18 Hc26 Hc19 Hc27 Hc32 Hc33 Hc36 Hc37
      Hat0 Hat1 Hat2 Hat3 Hat4 Hat5 Hat6 Hat7 Hat8 Hat9 Hat10 Hat11 Hat12 Hat13 Hat14 Hat15 Hat16 Hat17 Hat18 Hat19 Hat20
      Hat21 Hat22 Hat23 Hat24 Hat25 Hat26 Hat27 Hat28 Hat29 Hat30 Hat31 Hat32 Hat33 Hat34 Hat35 Hat36 Hat37 Hat38 Hat39
      HxR HxL0 HxL1 HxL2 HxL3 HxL4 HxL5 HxL6 HxL7 HoT0 HoT1 HoT2 HoT3 HoT4 HoT5 Hy0 Hy1 Hz2 Hz3 Hd0 Hd1 Hd2 Hvf0 Hvf1]
  · give [HO]
    give [Hc39, Hc6, Hc7, Hc8, Hc9, Hc10, Hc11, Hc16, Hc24, Hc17, Hc25, Hc18, Hc26, Hc19, Hc27, Hc32, Hc33, Hc36, Hc37]
    give [Hat0, Hat1, Hat2, Hat3, Hat4, Hat5, Hat6, Hat7, Hat8, Hat9, Hat10, Hat11, Hat12, Hat13, Hat14, Hat15, Hat16, Hat17,
      Hat18, Hat19, Hat20, Hat21, Hat22, Hat23, Hat24, Hat25, Hat26, Hat27, Hat28, Hat29, Hat30, Hat31, Hat32, Hat33, Hat34,
      Hat35, Hat36, Hat37, Hat38, Hat39]
    give [HxR]
    give [HxL0, HxL1, HxL2, HxL3, HxL4, HxL5, HxL6, HxL7]
    give [HoT0, HoT1, HoT2, HoT3, HoT4, HoT5]
    give [Hy0, Hy1]
    give [Hz2, Hz3]
    give [Hd0, Hd1]
    give [Hd2]
    hand [Hvf0, Hvf1]
  iexact Hk

/-- info: 'Cert.KernelIdeal.AG.sound_body' depends on axioms: [propext, Classical.choice, Quot.sound] -/
#guard_msgs in #print axioms sound_body

/-! ## The body obligation -/

/-- The pipeline has no window: a join over its windows is empty. -/
theorem bigSep_noWin (Φ : Fin cfg0.W → sProp 𝕄) : bigSep Finset.univ Φ = iprop(emp) := by
  have h0 : (Finset.univ : Finset (Fin cfg0.W)) = ∅ := by decide
  rw [h0]; exact bigSep_empty

omit [FloatOps F] in
/-- The pipeline calls the body at the three whole buffers and the twelve semaphore arrays. -/
theorem body_prog (t : Fin cfg0.N) :
    (defs₀ (F := F)) .tc cfg0.body (cfg0.bodyArgs t (cfg0.slots t)) = cc0_body (F := F) M0 (Memref.isWhole_whole _) M1 (Memref.isWhole_whole _) MV (Memref.isWhole_whole _) cc0_scratch1 cc0_scratch2 cc0_scratch3 cc0_scratch4 cc0_scratch5 cc0_scratch6 cc0_scratch7 cc0_scratch8 cc0_scratch9 cc0_scratch10 cc0_scratch11 cc0_scratch12 := by
  unfold defs₀
  rw [Defs.onTc_tc]

/-- The library's body obligation on device `c`: from the invariant before the one point and what the device owes
    there, the body runs to the invariant after it, owing nothing. -/
theorem body_obligation (c : Dev nD) : BodyObligation (dats (F := F) m 0 c) (defs₀ (F := F)) 𝒱₀ () Set.univ := fun t => by
  rw [fin_N t, bigSep_noWin, bigSep_noWin, body_prog]
  rw [show (dats m 0 c).Φ t₀.castSucc = Φ₀ m c from rfl, show (dats m 0 c).Φ t₀.succ = Φ₁ m c from rfl]
  unfold Φ₀ start
  iintro ⟨⟨⟨⟨%K, Hg⟩, Hc, #Hlev, Hx, Ho⟩, Hv⟩, Hoa, -⟩
  iapply (sound_body m K c _)
  unfold bodyPre bodyPost
  isplitl [Hg Hc Hx Ho Hv Hoa]
  · isplitl [Hg Hc Hx Ho Hv]
    · isplitl [Hg]; · iexact Hg
      isplitl [Hc]; · iexact Hc
      isplitr; · iexact Hlev
      hand [Hx, Ho, Hv]
    iexact Hoa
  · iintro ⟨H1, H2⟩
    isplitl [H1]; · iexact H1
    isplitl [H2]; · iexact H2
    iempintro

/-- info: 'Cert.KernelIdeal.AG.body_obligation' depends on axioms: [propext, Classical.choice, Quot.sound] -/
#guard_msgs in #print axioms body_obligation

end Body

end Cert.KernelIdeal.AG

end
-- ==== Proof.RefRun.lean ====
/- The reference program's run. Its @main has no operation: it returns its argument array. So it is the
   straight line of StableHLO operations over the EMPTY list, every weakly fair execution of it terminates,
   and every buffer ends holding what it held at launch. Stated for any float values; the two forms the
   certificate's claims ask for (the frame claim, and the value claim's post at device 0) follow. -/
import proofs.«900686_g7700000000000687_dist_ag_v7x_xyz2x4x4_x_m16384_n1024_f32_1_alg».proof.ReferenceIdeal
import proofs.«900686_g7700000000000687_dist_ag_v7x_xyz2x4x4_x_m16384_n1024_f32_1_alg».proof.Defs
import proofs.«900686_g7700000000000687_dist_ag_v7x_xyz2x4x4_x_m16384_n1024_f32_1_alg».proof.Proof.Gen.ReferenceIdeal
import proofs.«900686_g7700000000000687_dist_ag_v7x_xyz2x4x4_x_m16384_n1024_f32_1_alg».proof.Proof.Gen.Pre_finite_inputs_ReferenceIdeal
import Idealize.ShloMosaic.Lib.StableHlo.Run
import Idealize.ShloMosaic.Adequacy
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
open Idealize.ShloMosaic.StableHlo

/-- @main's operations, in order: there is none. -/
abbrev ops {F : FTy → Type} [FloatOps F] : List (HloOp τ sig (Elt F)) := []

/-- @main is the straight line over the empty list: the return alone. -/
theorem main_eq {F : FTy → Type} [FloatOps F] (c : Dev nD) : main (F := F) c = seq (ops (F := F)) := rfl

/-- The signature scopes no TensorCore buffer. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- Every operation of the empty line touches TensorCore references only: there is nothing to check. -/
theorem ops_sub {F : FTy → Type} [FloatOps F] :
    (ops (F := F)).Forall fun op => op.bufs ⊆ tcRefs τ sig := trivial

/-- No operation of the empty line leaves a result undetermined: there is none. -/
theorem ops_fresh {F : FTy → Type} [FloatOps F] (d : Dev nD) :
    ∀ op ∈ (ops (F := F)), op.fresh = ∅ := fun _ h => nomatch h

/-- On every device, for any float values, from any memory with zero counters: every weakly fair execution of
    @main terminates with the argument array unchanged (the empty line folds to the launch contents). -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c main_arg0).trans (by rw [after_nil]))
    (run_seq scopedRefs_eq scopedSems_eq (defs (F := F)) (main (F := F)) (fun _ => ops (F := F)) main_eq
      (fun _ => ops_sub) m ρ ops_fresh)

/-- The frame claim of the reference: from any admitted memory it runs and its argument array ends unchanged
    (the precondition is not needed). -/
theorem frame : Cert.frame_ReferenceIdeal (hReferenceIdeal := Cert.ReferenceIdeal.Gen.facts)
    (hPre_finite_inputs_ReferenceIdeal := Cert.Pre_finite_inputs_ReferenceIdeal.Gen.facts) :=
  fun m g _ => run (F := Ideal) m g

/-- The value claim's post for the reference, at device 0: its result array IS its argument array, so it ends
    at the launch contents, twice over (as result and as argument). -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (((0 : Dev nD).tc : Thread nD τ).loc main_arg0) = m (((0 : Dev nD).tc : Thread nD τ).loc main_arg0)
      ∧ r.2.mem (((0 : Dev nD).tc : Thread nD τ).loc main_arg0) = m (((0 : Dev nD).tc : Thread nD τ).loc main_arg0)) :=
  (θ_run (defs (F := Ideal)) _ _).mono (fun _ h => ⟨h 0, h 0⟩) (run (F := Ideal) m ρ)

/-- info: 'Cert.ReferenceIdeal.RefValue.run' depends on axioms: [propext, Classical.choice, Quot.sound] -/
#guard_msgs in #print axioms run
/-- info: 'Cert.ReferenceIdeal.RefValue.frame' depends on axioms: [propext, Classical.choice, Quot.sound] -/
#guard_msgs in #print axioms frame
/-- info: 'Cert.ReferenceIdeal.RefValue.run_value' depends on axioms: [propext, Classical.choice, Quot.sound] -/
#guard_msgs in #print axioms run_value

end Cert.ReferenceIdeal.RefValue

end
-- ==== Proof.lean ====
/-
  The all-gather over a 2 × 4 × 4 mesh against the identity: every device ends holding the whole array.

  Each device holds block x of the array (x its first mesh coordinate). The kernel copies the block into the device's own
  half of its result through a four-slot staging buffer, and assembles the other half from the partner across x: each of
  the four devices that share x and the upper bits of y and z fetches one quarter of the partner's block and the four
  pass their quarters round (directly to the y and z buddies, and once more to reach the diagonal one). Over the
  extended reals — as over the words — this moves elements and computes nothing, so the claim is an equation of indices:
  every row of a device's result holds that row of the whole array. The run itself — the entry handshake on the barrier
  semaphore, the sixteen copies to neighbours, the sixteen local copies, every wait below what is still owed — is proved
  once at a symbolic device, generic in the float instance, and read at the words for the printed kernel and at the
  extended reals for its idealization.
-/
import proofs.«900686_g7700000000000687_dist_ag_v7x_xyz2x4x4_x_m16384_n1024_f32_1_alg».proof.Defs
import proofs.«900686_g7700000000000687_dist_ag_v7x_xyz2x4x4_x_m16384_n1024_f32_1_alg».proof.Proof.KernelAG.Run
import proofs.«900686_g7700000000000687_dist_ag_v7x_xyz2x4x4_x_m16384_n1024_f32_1_alg».proof.Proof.KernelAG.Body
import proofs.«900686_g7700000000000687_dist_ag_v7x_xyz2x4x4_x_m16384_n1024_f32_1_alg».proof.Proof.KernelIdealAG.Run
import proofs.«900686_g7700000000000687_dist_ag_v7x_xyz2x4x4_x_m16384_n1024_f32_1_alg».proof.Proof.KernelIdealAG.Body
import proofs.«900686_g7700000000000687_dist_ag_v7x_xyz2x4x4_x_m16384_n1024_f32_1_alg».proof.Proof.KernelIdealAG.Value
import proofs.«900686_g7700000000000687_dist_ag_v7x_xyz2x4x4_x_m16384_n1024_f32_1_alg».proof.Proof.RefRun
import proofs.«900686_g7700000000000687_dist_ag_v7x_xyz2x4x4_x_m16384_n1024_f32_1_alg».proof.Proof.Gen.Pre_finite_inputs_Kernel
import proofs.«900686_g7700000000000687_dist_ag_v7x_xyz2x4x4_x_m16384_n1024_f32_1_alg».proof.Proof.Gen.Pre_finite_inputs_ReferenceIdeal
import Idealize.ShloMosaic.Adequacy
import Idealize.ShloMosaic.Init

noncomputable section

namespace Cert.Proof

open Idealize.ShloMosaic Idealize.ShloMosaic.TcCoe Idealize.SL.Sem

/-- The printed kernel runs and leaves its argument unchanged. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.Kernel.AG.run_main (F := Bits) m ρ (Cert.Kernel.AG.body_obligation m))

/-- So does its idealization. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2)
    (Cert.KernelIdeal.AG.run_main (F := Ideal) m ρ (Cert.KernelIdeal.AG.body_obligation m))

/-- Every device's result is the whole array: its own block where its own rows are, and at the other rows the blocks
    of devices across x, which all hold the other block. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun _ h c => ⟨(h c).1.trans ?_, (h c).2⟩)
      (Cert.KernelIdeal.AG.run_main (F := Ideal) m ρ (Cert.KernelIdeal.AG.body_obligation m))
    exact Cert.KernelIdeal.AG.target_whole m _ (fun d => hagree d) c
  · exact Cert.ReferenceIdeal.RefValue.run_value m' ρ'

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.ReferenceIdeal.RefValue.frame, trivial, algebraic⟩

end Cert.Proof

end
